-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S5x100x64 : S_.BroadcastsInDim S5x100x64 (![] : Fin 0 → Fin S5x100x64.rank)
  reducesTo_S5x100x64_S_d0_1_2 : S5x100x64.ReducesTo [0, 1, 2] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5x64x192 : S_.BroadcastsInDim S5x64x192 (![] : Fin 0 → Fin S5x64x192.rank)
  reducesTo_S5x64x192_S_d0_1_2 : S5x64x192.ReducesTo [0, 1, 2] S_
  bcast_S_S5x192 : S_.BroadcastsInDim S5x192 (![] : Fin 0 → Fin S5x192.rank)
  reducesTo_S5x192_S_d0_1 : S5x192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S100000x2 : S_.BroadcastsInDim S100000x2 (![] : Fin 0 → Fin S100000x2.rank)
  reducesTo_S100000x2_S_d0_1 : S100000x2.ReducesTo [0, 1] S_

variable [Facts]

def fn_part6 {F : FTy → Type} [FloatOps F] (main_arg0 : IVec S100000x2 32) (main_arg26 : FVec F S1 .f32) (main_v98 : IVec S_ 1) (main_v101 : IVec S16x1 1) (main_c_39 : IVec S_ 1) : IVec S_ 1 :=
  let main_v102 : IVec S_ 1 := (fun x v => Host.reduce IntOp.andi x v reducesTo_S16x1_S_d0_1 h_S_) main_v101 main_c_39
  let main_v103 : IVec S_ 1 := andi main_v98 main_v102
  let main_v104 : FVec F S1 .f32 := Host.absf main_arg26
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S100000x2 32 := broadcastInDim S100000x2 ![] bcast_S_S100000x2 main_c_42
  let main_v110 : IVec S100000x2 1 := cmpi .sge main_arg0 main_v109
  let main_c_43 : IVec S_ 32 := constantI S_ 32 100#32
  let main_v111 : IVec S100000x2 32 := broadcastInDim S100000x2 ![] bcast_S_S100000x2 main_c_43
  let main_v112 : IVec S100000x2 1 := cmpi .slt main_arg0 main_v111
  let main_v113 : IVec S100000x2 1 := andi main_v110 main_v112
  let main_c_44 : IVec S_ 1 := constantI S_ 1 1#1
  let main_v114 : IVec S_ 1 := (fun x v => Host.reduce IntOp.andi x v reducesTo_S100000x2_S_d0_1 h_S_) main_v113 main_c_44
  let main_v115 : IVec S_ 1 := andi main_v108 main_v114
  main_v115

def fn_part5 {F : FTy → Type} [FloatOps F] (main_arg0 : IVec S100000x2 32) (main_arg23 : FVec F S32x16 .f32) (main_arg24 : FVec F S16 .f32) (main_arg25 : FVec F S16x1 .f32) (main_arg26 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x16 .f32 := Host.absf main_arg23
  let main_cst_34 : FVec F S_ .f32 := constant S_ .f32 0x7F800000#32
  let main_v90 : FVec F S32x16 .f32 := broadcastInDim S32x16 ![] bcast_S_S32x16 main_cst_34
  let main_v91 : IVec S32x16 1 := cmpf .olt main_v89 main_v90
  let main_c_35 : IVec S_ 1 := constantI S_ 1 1#1
  let main_v92 : IVec S_ 1 := (fun x v => Host.reduce IntOp.andi x v reducesTo_S32x16_S_d0_1 h_S_) main_v91 main_c_35
  let main_v93 : IVec S_ 1 := andi main_v88 main_v92
  let main_v94 : FVec F S16 .f32 := Host.absf main_arg24
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x1 .f32 := Host.absf main_arg25
  let main_cst_38 : FVec F S_ .f32 := constant S_ .f32 0x7F800000#32
  let main_v100 : FVec F S16x1 .f32 := broadcastInDim S16x1 ![] bcast_S_S16x1 main_cst_38
  let main_v101 : IVec S16x1 1 := cmpf .olt main_v99 main_v100
  let main_c_39 : IVec S_ 1 := constantI S_ 1 1#1
  fn_part6 (F := F) main_arg0 main_arg26 main_v98 main_v101 main_c_39

def fn_part4 {F : FTy → Type} [FloatOps F] (main_arg0 : IVec S100000x2 32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v63 : IVec S_ 1) (main_v67 : IVec S_ 1) : IVec S_ 1 :=
  let main_v68 : IVec S_ 1 := andi main_v63 main_v67
  let main_v69 : FVec F S64x64 .f32 := Host.absf main_arg19
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg20
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg21
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg22
  let main_cst_32 : FVec F S_ .f32 := constant S_ .f32 0x7F800000#32
  fn_part5 (F := F) main_arg0 main_arg23 main_arg24 main_arg25 main_arg26 main_v83 main_v84 main_cst_32

def fn_part3 {F : FTy → Type} [FloatOps F] (main_arg0 : IVec S100000x2 32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg16
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg17
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg18
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg19 main_arg20 main_arg21 main_arg22 main_arg23 main_arg24 main_arg25 main_arg26 main_v63 main_v67

def fn_part2 {F : FTy → Type} [FloatOps F] (main_arg0 : IVec S100000x2 32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v33 : IVec S_ 1) : IVec S_ 1 :=
  let main_v34 : FVec F S5x192 .f32 := Host.absf main_arg12
  let main_cst_12 : FVec F S_ .f32 := constant S_ .f32 0x7F800000#32
  let main_v35 : FVec F S5x192 .f32 := broadcastInDim S5x192 ![] bcast_S_S5x192 main_cst_12
  let main_v36 : IVec S5x192 1 := cmpf .olt main_v34 main_v35
  let main_c_13 : IVec S_ 1 := constantI S_ 1 1#1
  let main_v37 : IVec S_ 1 := (fun x v => Host.reduce IntOp.andi x v reducesTo_S5x192_S_d0_1 h_S_) main_v36 main_c_13
  let main_v38 : IVec S_ 1 := andi main_v33 main_v37
  let main_v39 : FVec F S64x64 .f32 := Host.absf main_arg13
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg15
  let main_cst_18 : FVec F S_ .f32 := constant S_ .f32 0x7F800000#32
  let main_v50 : FVec F S64x64 .f32 := broadcastInDim S64x64 ![] bcast_S_S64x64 main_cst_18
  fn_part3 (F := F) main_arg0 main_arg16 main_arg17 main_arg18 main_arg19 main_arg20 main_arg21 main_arg22 main_arg23 main_arg24 main_arg25 main_arg26 main_v48 main_v49 main_v50

def fn_part1 {F : FTy → Type} [FloatOps F] (main_arg0 : IVec S100000x2 32) (main_arg9 : FVec F S5x64x192 .f32) (main_arg10 : FVec F S5x192 .f32) (main_arg11 : FVec F S5x64x192 .f32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64x192 .f32 := Host.absf main_arg9
  let main_cst_6 : FVec F S_ .f32 := constant S_ .f32 0x7F800000#32
  let main_v20 : FVec F S5x64x192 .f32 := broadcastInDim S5x64x192 ![] bcast_S_S5x64x192 main_cst_6
  let main_v21 : IVec S5x64x192 1 := cmpf .olt main_v19 main_v20
  let main_c_7 : IVec S_ 1 := constantI S_ 1 1#1
  let main_v22 : IVec S_ 1 := (fun x v => Host.reduce IntOp.andi x v reducesTo_S5x64x192_S_d0_1_2 h_S_) main_v21 main_c_7
  let main_v23 : IVec S_ 1 := andi main_v18 main_v22
  let main_v24 : FVec F S5x192 .f32 := Host.absf main_arg10
  let main_cst_8 : FVec F S_ .f32 := constant S_ .f32 0x7F800000#32
  let main_v25 : FVec F S5x192 .f32 := broadcastInDim S5x192 ![] bcast_S_S5x192 main_cst_8
  let main_v26 : IVec S5x192 1 := cmpf .olt main_v24 main_v25
  let main_c_9 : IVec S_ 1 := constantI S_ 1 1#1
  let main_v27 : IVec S_ 1 := (fun x v => Host.reduce IntOp.andi x v reducesTo_S5x192_S_d0_1 h_S_) main_v26 main_c_9
  let main_v28 : IVec S_ 1 := andi main_v23 main_v27
  let main_v29 : FVec F S5x64x192 .f32 := Host.absf main_arg11
  let main_cst_10 : FVec F S_ .f32 := constant S_ .f32 0x7F800000#32
  let main_v30 : FVec F S5x64x192 .f32 := broadcastInDim S5x64x192 ![] bcast_S_S5x64x192 main_cst_10
  let main_v31 : IVec S5x64x192 1 := cmpf .olt main_v29 main_v30
  let main_c_11 : IVec S_ 1 := constantI S_ 1 1#1
  let main_v32 : IVec S_ 1 := (fun x v => Host.reduce IntOp.andi x v reducesTo_S5x64x192_S_d0_1_2 h_S_) main_v31 main_c_11
  let main_v33 : IVec S_ 1 := andi main_v28 main_v32
  fn_part2 (F := F) main_arg0 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S100000x2 32) (main_arg1 : IVec S2x1600000 32) (main_arg2 : IVec S100000 32) (main_arg3 : IVec S20000 32) (main_arg4 : IVec S2000 32) (main_arg5 : FVec F S5x100x64 .f32) (main_arg6 : FVec F S4x128x64 .f32) (main_arg7 : FVec F S4x64 .f32) (main_arg8 : FVec F S5x64x64 .f32) (main_arg9 : FVec F S5x64x192 .f32) (main_arg10 : FVec F S5x192 .f32) (main_arg11 : FVec F S5x64x192 .f32) (main_arg12 : FVec F S5x192 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x32 .f32) (main_arg22 : FVec F S32 .f32) (main_arg23 : FVec F S32x16 .f32) (main_arg24 : FVec F S16 .f32) (main_arg25 : FVec F S16x1 .f32) (main_arg26 : FVec F S1 .f32) : IVec S_ 1 :=
  let main_v0 : FVec F S5x100x64 .f32 := Host.absf main_arg5
  let main_cst : FVec F S_ .f32 := constant S_ .f32 0x7F800000#32
  let main_v1 : FVec F S5x100x64 .f32 := broadcastInDim S5x100x64 ![] bcast_S_S5x100x64 main_cst
  let main_v2 : IVec S5x100x64 1 := cmpf .olt main_v0 main_v1
  let main_c : IVec S_ 1 := constantI S_ 1 1#1
  let main_v3 : IVec S_ 1 := (fun x v => Host.reduce IntOp.andi x v reducesTo_S5x100x64_S_d0_1_2 h_S_) main_v2 main_c
  let main_v4 : FVec F S4x128x64 .f32 := Host.absf main_arg6
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S4x64 .f32 := Host.absf main_arg7
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S5x64x64 .f32 := Host.absf main_arg8
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg0 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1x100x64 : Shape := ⟨3, ![1, 100, 64]⟩
abbrev S100x64 : Shape := ⟨2, ![100, 64]⟩
abbrev S_ : Shape := ⟨0, ![]⟩
abbrev S100000x2x1 : Shape := ⟨3, ![100000, 2, 1]⟩
abbrev S1x1x1 : Shape := ⟨3, ![1, 1, 1]⟩
abbrev S100000x2x64 : Shape := ⟨3, ![100000, 2, 64]⟩
abbrev S100000x64 : Shape := ⟨2, ![100000, 64]⟩
abbrev S1x64x64 : Shape := ⟨3, ![1, 64, 64]⟩
abbrev S10000x64 : Shape := ⟨2, ![10000, 64]⟩
abbrev S1600000x1 : Shape := ⟨2, ![1600000, 1]⟩
abbrev S1600000x64 : Shape := ⟨2, ![1600000, 64]⟩
abbrev S1x192 : Shape := ⟨2, ![1, 192]⟩
abbrev S192 : Shape := ⟨1, ![192]⟩
abbrev S1x64x192 : Shape := ⟨3, ![1, 64, 192]⟩
abbrev S64x192 : Shape := ⟨2, ![64, 192]⟩
abbrev S10000x192 : Shape := ⟨2, ![10000, 192]⟩
abbrev S1x64 : Shape := ⟨2, ![1, 64]⟩
abbrev S1x128x64 : Shape := ⟨3, ![1, 128, 64]⟩
abbrev S128x64 : Shape := ⟨2, ![128, 64]⟩
abbrev S10000x128 : Shape := ⟨2, ![10000, 128]⟩
abbrev S20000x64 : Shape := ⟨2, ![20000, 64]⟩
abbrev S100000x1 : Shape := ⟨2, ![100000, 1]⟩
abbrev S4000x64 : Shape := ⟨2, ![4000, 64]⟩
abbrev S2000x64 : Shape := ⟨2, ![2000, 64]⟩
abbrev S20000x1 : Shape := ⟨2, ![20000, 1]⟩
abbrev S2000x1 : Shape := ⟨2, ![2000, 1]⟩
abbrev S1x32 : Shape := ⟨2, ![1, 32]⟩
abbrev S1x16 : Shape := ⟨2, ![1, 16]⟩
abbrev S1x1 : Shape := ⟨2, ![1, 1]⟩
abbrev S64x1 : Shape := ⟨2, ![64, 1]⟩
abbrev S64x16 : Shape := ⟨2, ![64, 16]⟩

abbrev nBuf : Space → Nat
  | .hbm => 348
  | .vmem => 123
  | .smem => 0
  | _ => 0

abbrev hbmTy0_0 (i : Nat) : BufTy := match i % 128 with
  | 0 => ⟨S100000x2, .i32⟩
  | 1 => ⟨S2x1600000, .i32⟩
  | 2 => ⟨S100000, .i32⟩
  | 3 => ⟨S20000, .i32⟩
  | 4 => ⟨S2000, .i32⟩
  | 5 => ⟨S5x100x64, .f32⟩
  | 6 => ⟨S4x128x64, .f32⟩
  | 7 => ⟨S4x64, .f32⟩
  | 8 => ⟨S5x64x64, .f32⟩
  | 9 => ⟨S5x64x192, .f32⟩
  | 10 => ⟨S5x192, .f32⟩
  | 11 => ⟨S5x64x192, .f32⟩
  | 12 => ⟨S5x192, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x32, .f32⟩
  | 22 => ⟨S32, .f32⟩
  | 23 => ⟨S32x16, .f32⟩
  | 24 => ⟨S16, .f32⟩
  | 25 => ⟨S16x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S1x100x64, .f32⟩
  | 32 => ⟨S100x64, .f32⟩
  | 33 => ⟨S_, .i32⟩
  | 34 => ⟨S100000x2, .i32⟩
  | 35 => ⟨S100000x2, .i1⟩
  | 36 => ⟨S_, .i32⟩
  | 37 => ⟨S100000x2, .i32⟩
  | 38 => ⟨S100000x2, .i32⟩
  | 39 => ⟨S100000x2, .i32⟩
  | 40 => ⟨S100000x2x1, .i32⟩
  | 41 => ⟨S1, .i32⟩
  | 42 => ⟨S_, .i32⟩
  | 43 => ⟨S100000x2x1, .i32⟩
  | 44 => ⟨S100000x2x1, .i1⟩
  | 45 => ⟨S1x1x1, .i32⟩
  | 46 => ⟨S100000x2x1, .i32⟩
  | 47 => ⟨S100000x2x1, .i1⟩
  | 48 => ⟨S100000x2x1, .i1⟩
  | 49 => ⟨S_, .i1⟩
  | 50 => ⟨S100000x2, .i1⟩
  | 51 => ⟨S100000x2x64, .f32⟩
  | 52 => ⟨S100000x2x64, .i1⟩
  | 53 => ⟨S_, .f32⟩
  | 54 => ⟨S100000x2x64, .f32⟩
  | 55 => ⟨S100000x2x64, .f32⟩
  | 56 => ⟨S_, .f32⟩
  | 57 => ⟨S100000x64, .f32⟩
  | 58 => ⟨S1x64x64, .f32⟩
  | 59 => ⟨S64x64, .f32⟩
  | 60 => ⟨S100000x64, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1x192, .f32⟩
  | 76 => ⟨S192, .f32⟩
  | 77 => ⟨S1x192, .f32⟩
  | 78 => ⟨S1x192, .f32⟩
  | 79 => ⟨S192, .f32⟩
  | 80 => ⟨S1x192, .f32⟩
  | 81 => ⟨S1x64x192, .f32⟩
  | 82 => ⟨S64x192, .f32⟩
  | 83 => ⟨S1x64x192, .f32⟩
  | 84 => ⟨S64x192, .f32⟩
  | 85 => ⟨S100000x64, .f32⟩
  | 86 => ⟨S1x100x64, .f32⟩
  | 87 => ⟨S100x64, .f32⟩
  | 88 => ⟨S_, .i32⟩
  | 89 => ⟨S100000x2, .i32⟩
  | 90 => ⟨S100000x2, .i1⟩
  | 91 => ⟨S_, .i32⟩
  | 92 => ⟨S100000x2, .i32⟩
  | 93 => ⟨S100000x2, .i32⟩
  | 94 => ⟨S100000x2, .i32⟩
  | 95 => ⟨S100000x2x1, .i32⟩
  | 96 => ⟨S1, .i32⟩
  | 97 => ⟨S_, .i32⟩
  | 98 => ⟨S100000x2x1, .i32⟩
  | 99 => ⟨S100000x2x1, .i1⟩
  | 100 => ⟨S1x1x1, .i32⟩
  | 101 => ⟨S100000x2x1, .i32⟩
  | 102 => ⟨S100000x2x1, .i1⟩
  | 103 => ⟨S100000x2x1, .i1⟩
  | 104 => ⟨S_, .i1⟩
  | 105 => ⟨S100000x2, .i1⟩
  | 106 => ⟨S100000x2x64, .f32⟩
  | 107 => ⟨S100000x2x64, .i1⟩
  | 108 => ⟨S_, .f32⟩
  | 109 => ⟨S100000x2x64, .f32⟩
  | 110 => ⟨S100000x2x64, .f32⟩
  | 111 => ⟨S_, .f32⟩
  | 112 => ⟨S100000x64, .f32⟩
  | 113 => ⟨S1x64, .f32⟩
  | 114 => ⟨S64, .f32⟩
  | 115 => ⟨S1x64, .f32⟩
  | 116 => ⟨S1x128x64, .f32⟩
  | 117 => ⟨S128x64, .f32⟩
  | 118 => ⟨S1x64x64, .f32⟩
  | 119 => ⟨S64x64, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x2, .i32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S1x192, .f32⟩
  | 8 => ⟨S192, .f32⟩
  | 9 => ⟨S1x192, .f32⟩
  | 10 => ⟨S1x192, .f32⟩
  | 11 => ⟨S192, .f32⟩
  | 12 => ⟨S1x192, .f32⟩
  | 13 => ⟨S1x64x192, .f32⟩
  | 14 => ⟨S64x192, .f32⟩
  | 15 => ⟨S1x64x192, .f32⟩
  | 16 => ⟨S64x192, .f32⟩
  | 17 => ⟨S100000x64, .f32⟩
  | 18 => ⟨S1x100x64, .f32⟩
  | 19 => ⟨S100x64, .f32⟩
  | 20 => ⟨S_, .i32⟩
  | 21 => ⟨S100000x2, .i32⟩
  | 22 => ⟨S100000x2, .i1⟩
  | 23 => ⟨S_, .i32⟩
  | 24 => ⟨S100000x2, .i32⟩
  | 25 => ⟨S100000x2, .i32⟩
  | 26 => ⟨S100000x2, .i32⟩
  | 27 => ⟨S100000x2x1, .i32⟩
  | 28 => ⟨S1, .i32⟩
  | 29 => ⟨S_, .i32⟩
  | 30 => ⟨S100000x2x1, .i32⟩
  | 31 => ⟨S100000x2x1, .i1⟩
  | 32 => ⟨S1x1x1, .i32⟩
  | 33 => ⟨S100000x2x1, .i32⟩
  | 34 => ⟨S100000x2x1, .i1⟩
  | 35 => ⟨S100000x2x1, .i1⟩
  | 36 => ⟨S_, .i1⟩
  | 37 => ⟨S100000x2, .i1⟩
  | 38 => ⟨S100000x2x64, .f32⟩
  | 39 => ⟨S100000x2x64, .i1⟩
  | 40 => ⟨S_, .f32⟩
  | 41 => ⟨S100000x2x64, .f32⟩
  | 42 => ⟨S100000x2x64, .f32⟩
  | 43 => ⟨S_, .f32⟩
  | 44 => ⟨S100000x64, .f32⟩
  | 45 => ⟨S1x64, .f32⟩
  | 46 => ⟨S64, .f32⟩
  | 47 => ⟨S1x64, .f32⟩
  | 48 => ⟨S1x128x64, .f32⟩
  | 49 => ⟨S128x64, .f32⟩
  | 50 => ⟨S1x64x64, .f32⟩
  | 51 => ⟨S64x64, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1x192, .f32⟩
  | 68 => ⟨S192, .f32⟩
  | 69 => ⟨S1x192, .f32⟩
  | 70 => ⟨S1x192, .f32⟩
  | 71 => ⟨S192, .f32⟩
  | 72 => ⟨S1x192, .f32⟩
  | 73 => ⟨S1x64x192, .f32⟩
  | 74 => ⟨S64x192, .f32⟩
  | 75 => ⟨S1x64x192, .f32⟩
  | 76 => ⟨S64x192, .f32⟩
  | 77 => ⟨S100000x64, .f32⟩
  | 78 => ⟨S1x100x64, .f32⟩
  | 79 => ⟨S100x64, .f32⟩
  | 80 => ⟨S_, .i32⟩
  | 81 => ⟨S100000x2, .i32⟩
  | 82 => ⟨S100000x2, .i1⟩
  | 83 => ⟨S_, .i32⟩
  | 84 => ⟨S100000x2, .i32⟩
  | 85 => ⟨S100000x2, .i32⟩
  | 86 => ⟨S100000x2, .i32⟩
  | 87 => ⟨S100000x2x1, .i32⟩
  | 88 => ⟨S1, .i32⟩
  | 89 => ⟨S_, .i32⟩
  | 90 => ⟨S100000x2x1, .i32⟩
  | 91 => ⟨S100000x2x1, .i1⟩
  | 92 => ⟨S1x1x1, .i32⟩
  | 93 => ⟨S100000x2x1, .i32⟩
  | 94 => ⟨S100000x2x1, .i1⟩
  | 95 => ⟨S100000x2x1, .i1⟩
  | 96 => ⟨S_, .i1⟩
  | 97 => ⟨S100000x2, .i1⟩
  | 98 => ⟨S100000x2x64, .f32⟩
  | 99 => ⟨S100000x2x64, .i1⟩
  | 100 => ⟨S_, .f32⟩
  | 101 => ⟨S100000x2x64, .f32⟩
  | 102 => ⟨S100000x2x64, .f32⟩
  | 103 => ⟨S_, .f32⟩
  | 104 => ⟨S100000x64, .f32⟩
  | 105 => ⟨S1x64, .f32⟩
  | 106 => ⟨S64, .f32⟩
  | 107 => ⟨S1x64, .f32⟩
  | 108 => ⟨S1x128x64, .f32⟩
  | 109 => ⟨S128x64, .f32⟩
  | 110 => ⟨S1x64x64, .f32⟩
  | 111 => ⟨S64x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S1x192, .f32⟩
  | _ => ⟨S100000x2, .i32⟩

abbrev hbmTy0_2 (i : Nat) : BufTy := match i % 128 with
  | 0 => ⟨S192, .f32⟩
  | 1 => ⟨S1x192, .f32⟩
  | 2 => ⟨S1x192, .f32⟩
  | 3 => ⟨S192, .f32⟩
  | 4 => ⟨S1x192, .f32⟩
  | 5 => ⟨S1x64x192, .f32⟩
  | 6 => ⟨S64x192, .f32⟩
  | 7 => ⟨S1x64x192, .f32⟩
  | 8 => ⟨S64x192, .f32⟩
  | 9 => ⟨S100000x64, .f32⟩
  | 10 => ⟨S1x100x64, .f32⟩
  | 11 => ⟨S100x64, .f32⟩
  | 12 => ⟨S_, .i32⟩
  | 13 => ⟨S100000x2, .i32⟩
  | 14 => ⟨S100000x2, .i1⟩
  | 15 => ⟨S_, .i32⟩
  | 16 => ⟨S100000x2, .i32⟩
  | 17 => ⟨S100000x2, .i32⟩
  | 18 => ⟨S100000x2, .i32⟩
  | 19 => ⟨S100000x2x1, .i32⟩
  | 20 => ⟨S1, .i32⟩
  | 21 => ⟨S_, .i32⟩
  | 22 => ⟨S100000x2x1, .i32⟩
  | 23 => ⟨S100000x2x1, .i1⟩
  | 24 => ⟨S1x1x1, .i32⟩
  | 25 => ⟨S100000x2x1, .i32⟩
  | 26 => ⟨S100000x2x1, .i1⟩
  | 27 => ⟨S100000x2x1, .i1⟩
  | 28 => ⟨S_, .i1⟩
  | 29 => ⟨S100000x2, .i1⟩
  | 30 => ⟨S100000x2x64, .f32⟩
  | 31 => ⟨S100000x2x64, .i1⟩
  | 32 => ⟨S_, .f32⟩
  | 33 => ⟨S100000x2x64, .f32⟩
  | 34 => ⟨S100000x2x64, .f32⟩
  | 35 => ⟨S_, .f32⟩
  | 36 => ⟨S100000x64, .f32⟩
  | 37 => ⟨S1x64, .f32⟩
  | 38 => ⟨S64, .f32⟩
  | 39 => ⟨S1x64, .f32⟩
  | 40 => ⟨S1x128x64, .f32⟩
  | 41 => ⟨S128x64, .f32⟩
  | 42 => ⟨S1x64x64, .f32⟩
  | 43 => ⟨S64x64, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S1x192, .f32⟩
  | 60 => ⟨S192, .f32⟩
  | 61 => ⟨S1x192, .f32⟩
  | 62 => ⟨S1x192, .f32⟩
  | 63 => ⟨S192, .f32⟩
  | 64 => ⟨S1x192, .f32⟩
  | 65 => ⟨S1x64x192, .f32⟩
  | 66 => ⟨S64x192, .f32⟩
  | 67 => ⟨S1x64x192, .f32⟩
  | 68 => ⟨S64x192, .f32⟩
  | 69 => ⟨S100000x64, .f32⟩
  | 70 => ⟨S_, .f32⟩
  | 71 => ⟨S20000x64, .f32⟩
  | 72 => ⟨S100000x1, .i32⟩
  | 73 => ⟨S20000x64, .f32⟩
  | 74 => ⟨S1x64, .f32⟩
  | 75 => ⟨S1x64, .f32⟩
  | 76 => ⟨S20000x64, .f32⟩
  | 77 => ⟨S_, .f32⟩
  | 78 => ⟨S2000x64, .f32⟩
  | 79 => ⟨S20000x1, .i32⟩
  | 80 => ⟨S2000x64, .f32⟩
  | 81 => ⟨S1x64, .f32⟩
  | 82 => ⟨S1x64, .f32⟩
  | 83 => ⟨S2000x64, .f32⟩
  | 84 => ⟨S_, .f32⟩
  | 85 => ⟨S64x64, .f32⟩
  | 86 => ⟨S2000x1, .i32⟩
  | 87 => ⟨S64x64, .f32⟩
  | 88 => ⟨S1x32, .f32⟩
  | 89 => ⟨S1x16, .f32⟩
  | 90 => ⟨S1x1, .f32⟩
  | 91 => ⟨S64x1, .f32⟩
  | _ => ⟨S100000x2, .i32⟩

abbrev hbmTy (i : Nat) : BufTy := match i / 128 with
  | 0 => hbmTy0_0 i
  | 1 => hbmTy0_1 i
  | 2 => hbmTy0_2 i
  | _ => ⟨S100000x2, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S64x192, .f32⟩
  | .local _ .vmem, ⟨12, _⟩ => ⟨S1x192, .f32⟩
  | .local _ .vmem, ⟨13, _⟩ => ⟨S64x192, .f32⟩
  | .local _ .vmem, ⟨14, _⟩ => ⟨S1x192, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S128x64, .f32⟩
  | .local _ .vmem, ⟨22, _⟩ => ⟨S1x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x192, .f32⟩
  | .local _ .vmem, ⟨33, _⟩ => ⟨S1x192, .f32⟩
  | .local _ .vmem, ⟨34, _⟩ => ⟨S64x192, .f32⟩
  | .local _ .vmem, ⟨35, _⟩ => ⟨S1x192, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S128x64, .f32⟩
  | .local _ .vmem, ⟨43, _⟩ => ⟨S1x64, .f32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S64x192, .f32⟩
  | .local _ .vmem, ⟨54, _⟩ => ⟨S1x192, .f32⟩
  | .local _ .vmem, ⟨55, _⟩ => ⟨S64x192, .f32⟩
  | .local _ .vmem, ⟨56, _⟩ => ⟨S1x192, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S128x64, .f32⟩
  | .local _ .vmem, ⟨64, _⟩ => ⟨S1x64, .f32⟩
  | .local _ .vmem, ⟨65, _⟩ => ⟨S64x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S64x192, .f32⟩
  | .local _ .vmem, ⟨75, _⟩ => ⟨S1x192, .f32⟩
  | .local _ .vmem, ⟨76, _⟩ => ⟨S64x192, .f32⟩
  | .local _ .vmem, ⟨77, _⟩ => ⟨S1x192, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S10000x64, .f32⟩
  | .local _ .vmem, ⟨83, _⟩ => ⟨S10000x64, .f32⟩
  | .local _ .vmem, ⟨84, _⟩ => ⟨S128x64, .f32⟩
  | .local _ .vmem, ⟨85, _⟩ => ⟨S1x64, .f32⟩
  | .local _ .vmem, ⟨86, _⟩ => ⟨S64x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S10000x64, .f32⟩
  | .local _ .vmem, ⟨93, _⟩ => ⟨S10000x64, .f32⟩
  | .local _ .vmem, ⟨94, _⟩ => ⟨S10000x64, .f32⟩
  | .local _ .vmem, ⟨95, _⟩ => ⟨S64x192, .f32⟩
  | .local _ .vmem, ⟨96, _⟩ => ⟨S1x192, .f32⟩
  | .local _ .vmem, ⟨97, _⟩ => ⟨S64x192, .f32⟩
  | .local _ .vmem, ⟨98, _⟩ => ⟨S1x192, .f32⟩
  | .local _ .vmem, ⟨99, _⟩ => ⟨S10000x64, .f32⟩
  | .local _ .vmem, ⟨100, _⟩ => ⟨S10000x64, .f32⟩
  | .local _ .vmem, ⟨101, _⟩ => ⟨S4000x64, .f32⟩
  | .local _ .vmem, ⟨102, _⟩ => ⟨S4000x64, .f32⟩
  | .local _ .vmem, ⟨103, _⟩ => ⟨S64x64, .f32⟩
  | .local _ .vmem, ⟨104, _⟩ => ⟨S1x64, .f32⟩
  | .local _ .vmem, ⟨105, _⟩ => ⟨S64x64, .f32⟩
  | .local _ .vmem, ⟨106, _⟩ => ⟨S1x64, .f32⟩
  | .local _ .vmem, ⟨107, _⟩ => ⟨S4000x64, .f32⟩
  | .local _ .vmem, ⟨108, _⟩ => ⟨S4000x64, .f32⟩
  | .local _ .vmem, ⟨109, _⟩ => ⟨S2000x64, .f32⟩
  | .local _ .vmem, ⟨110, _⟩ => ⟨S64x64, .f32⟩
  | .local _ .vmem, ⟨111, _⟩ => ⟨S1x64, .f32⟩
  | .local _ .vmem, ⟨112, _⟩ => ⟨S64x64, .f32⟩
  | .local _ .vmem, ⟨113, _⟩ => ⟨S1x64, .f32⟩
  | .local _ .vmem, ⟨114, _⟩ => ⟨S2000x64, .f32⟩
  | .local _ .vmem, ⟨115, _⟩ => ⟨S64x64, .f32⟩
  | .local _ .vmem, ⟨116, _⟩ => ⟨S64x32, .f32⟩
  | .local _ .vmem, ⟨117, _⟩ => ⟨S1x32, .f32⟩
  | .local _ .vmem, ⟨118, _⟩ => ⟨S32x16, .f32⟩
  | .local _ .vmem, ⟨119, _⟩ => ⟨S1x16, .f32⟩
  | .local _ .vmem, ⟨120, _⟩ => ⟨S16x1, .f32⟩
  | .local _ .vmem, ⟨121, _⟩ => ⟨S1x1, .f32⟩
  | .local _ .vmem, ⟨122, _⟩ => ⟨S64x1, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | _, _ => false

abbrev semScoped : Fin 0 → Bool
  | ⟨_, h⟩ => absurd h (Nat.not_lt_zero _)

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  ofTc nBuf bufTy 0 123 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10_0 : Ref sig .tc := ⟨.hbm, 60, rfl⟩
abbrev main_v10_1 : Ref sig .tc := ⟨.hbm, 61, rfl⟩
abbrev main_c : Ref sig .tc := ⟨.hbm, 62, rfl⟩
abbrev main_v11 : Ref sig .tc := ⟨.hbm, 63, rfl⟩
abbrev main_v12 : Ref sig .tc := ⟨.hbm, 64, rfl⟩
abbrev main_c_0 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst_1 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_call1_c : Ref sig .tc := ⟨.hbm, 88, rfl⟩
abbrev main_call1_v0 : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_c_1 : Ref sig .tc := ⟨.hbm, 96, rfl⟩
abbrev main_call1_c_2 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_3 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_call1_cst : Ref sig .tc := ⟨.hbm, 108, rfl⟩
abbrev main_call1_v15 : Ref sig .tc := ⟨.hbm, 109, rfl⟩
abbrev main_v34 : Ref sig .tc := ⟨.hbm, 110, rfl⟩
abbrev main_cst_2 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43_0 : Ref sig .tc := ⟨.hbm, 120, rfl⟩
abbrev main_v43_1 : Ref sig .tc := ⟨.hbm, 121, rfl⟩
abbrev main_c_3 : Ref sig .tc := ⟨.hbm, 122, rfl⟩
abbrev main_v44 : Ref sig .tc := ⟨.hbm, 123, rfl⟩
abbrev main_v45 : Ref sig .tc := ⟨.hbm, 124, rfl⟩
abbrev main_c_4 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_cst_5 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_call2_c : Ref sig .tc := ⟨.hbm, 148, rfl⟩
abbrev main_call2_v0 : Ref sig .tc := ⟨.hbm, 149, rfl⟩
abbrev main_call2_v1 : Ref sig .tc := ⟨.hbm, 150, rfl⟩
abbrev main_call2_c_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_c_1 : Ref sig .tc := ⟨.hbm, 156, rfl⟩
abbrev main_call2_c_2 : Ref sig .tc := ⟨.hbm, 157, rfl⟩
abbrev main_call2_v6 : Ref sig .tc := ⟨.hbm, 158, rfl⟩
abbrev main_call2_v7 : Ref sig .tc := ⟨.hbm, 159, rfl⟩
abbrev main_call2_v8 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_c_3 : Ref sig .tc := ⟨.hbm, 164, rfl⟩
abbrev main_call2_v12 : Ref sig .tc := ⟨.hbm, 165, rfl⟩
abbrev main_call2_v13 : Ref sig .tc := ⟨.hbm, 166, rfl⟩
abbrev main_call2_v14 : Ref sig .tc := ⟨.hbm, 167, rfl⟩
abbrev main_call2_cst : Ref sig .tc := ⟨.hbm, 168, rfl⟩
abbrev main_call2_v15 : Ref sig .tc := ⟨.hbm, 169, rfl⟩
abbrev main_v67 : Ref sig .tc := ⟨.hbm, 170, rfl⟩
abbrev main_cst_6 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76_0 : Ref sig .tc := ⟨.hbm, 180, rfl⟩
abbrev main_v76_1 : Ref sig .tc := ⟨.hbm, 181, rfl⟩
abbrev main_c_7 : Ref sig .tc := ⟨.hbm, 182, rfl⟩
abbrev main_v77 : Ref sig .tc := ⟨.hbm, 183, rfl⟩
abbrev main_v78 : Ref sig .tc := ⟨.hbm, 184, rfl⟩
abbrev main_c_8 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_cst_9 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_call3_c : Ref sig .tc := ⟨.hbm, 208, rfl⟩
abbrev main_call3_v0 : Ref sig .tc := ⟨.hbm, 209, rfl⟩
abbrev main_call3_v1 : Ref sig .tc := ⟨.hbm, 210, rfl⟩
abbrev main_call3_c_0 : Ref sig .tc := ⟨.hbm, 211, rfl⟩
abbrev main_call3_v2 : Ref sig .tc := ⟨.hbm, 212, rfl⟩
abbrev main_call3_v3 : Ref sig .tc := ⟨.hbm, 213, rfl⟩
abbrev main_call3_v4 : Ref sig .tc := ⟨.hbm, 214, rfl⟩
abbrev main_call3_v5 : Ref sig .tc := ⟨.hbm, 215, rfl⟩
abbrev main_call3_c_1 : Ref sig .tc := ⟨.hbm, 216, rfl⟩
abbrev main_call3_c_2 : Ref sig .tc := ⟨.hbm, 217, rfl⟩
abbrev main_call3_v6 : Ref sig .tc := ⟨.hbm, 218, rfl⟩
abbrev main_call3_v7 : Ref sig .tc := ⟨.hbm, 219, rfl⟩
abbrev main_call3_v8 : Ref sig .tc := ⟨.hbm, 220, rfl⟩
abbrev main_call3_v9 : Ref sig .tc := ⟨.hbm, 221, rfl⟩
abbrev main_call3_v10 : Ref sig .tc := ⟨.hbm, 222, rfl⟩
abbrev main_call3_v11 : Ref sig .tc := ⟨.hbm, 223, rfl⟩
abbrev main_call3_c_3 : Ref sig .tc := ⟨.hbm, 224, rfl⟩
abbrev main_call3_v12 : Ref sig .tc := ⟨.hbm, 225, rfl⟩
abbrev main_call3_v13 : Ref sig .tc := ⟨.hbm, 226, rfl⟩
abbrev main_call3_v14 : Ref sig .tc := ⟨.hbm, 227, rfl⟩
abbrev main_call3_cst : Ref sig .tc := ⟨.hbm, 228, rfl⟩
abbrev main_call3_v15 : Ref sig .tc := ⟨.hbm, 229, rfl⟩
abbrev main_v100 : Ref sig .tc := ⟨.hbm, 230, rfl⟩
abbrev main_cst_10 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_v109_0 : Ref sig .tc := ⟨.hbm, 240, rfl⟩
abbrev main_v109_1 : Ref sig .tc := ⟨.hbm, 241, rfl⟩
abbrev main_c_11 : Ref sig .tc := ⟨.hbm, 242, rfl⟩
abbrev main_v110 : Ref sig .tc := ⟨.hbm, 243, rfl⟩
abbrev main_v111 : Ref sig .tc := ⟨.hbm, 244, rfl⟩
abbrev main_c_12 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_cst_13 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_call4_c : Ref sig .tc := ⟨.hbm, 268, rfl⟩
abbrev main_call4_v0 : Ref sig .tc := ⟨.hbm, 269, rfl⟩
abbrev main_call4_v1 : Ref sig .tc := ⟨.hbm, 270, rfl⟩
abbrev main_call4_c_0 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_call4_v5 : Ref sig .tc := ⟨.hbm, 275, rfl⟩
abbrev main_call4_c_1 : Ref sig .tc := ⟨.hbm, 276, rfl⟩
abbrev main_call4_c_2 : Ref sig .tc := ⟨.hbm, 277, rfl⟩
abbrev main_call4_v6 : Ref sig .tc := ⟨.hbm, 278, rfl⟩
abbrev main_call4_v7 : Ref sig .tc := ⟨.hbm, 279, rfl⟩
abbrev main_call4_v8 : Ref sig .tc := ⟨.hbm, 280, rfl⟩
abbrev main_call4_v9 : Ref sig .tc := ⟨.hbm, 281, rfl⟩
abbrev main_call4_v10 : Ref sig .tc := ⟨.hbm, 282, rfl⟩
abbrev main_call4_v11 : Ref sig .tc := ⟨.hbm, 283, rfl⟩
abbrev main_call4_c_3 : Ref sig .tc := ⟨.hbm, 284, rfl⟩
abbrev main_call4_v12 : Ref sig .tc := ⟨.hbm, 285, rfl⟩
abbrev main_call4_v13 : Ref sig .tc := ⟨.hbm, 286, rfl⟩
abbrev main_call4_v14 : Ref sig .tc := ⟨.hbm, 287, rfl⟩
abbrev main_call4_cst : Ref sig .tc := ⟨.hbm, 288, rfl⟩
abbrev main_call4_v15 : Ref sig .tc := ⟨.hbm, 289, rfl⟩
abbrev main_v133 : Ref sig .tc := ⟨.hbm, 290, rfl⟩
abbrev main_cst_14 : Ref sig .tc := ⟨.hbm, 291, rfl⟩
abbrev main_v134 : Ref sig .tc := ⟨.hbm, 292, rfl⟩
abbrev main_v135 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_v140 : Ref sig .tc := ⟨.hbm, 298, rfl⟩
abbrev main_v141 : Ref sig .tc := ⟨.hbm, 299, rfl⟩
abbrev main_v142_0 : Ref sig .tc := ⟨.hbm, 300, rfl⟩
abbrev main_v142_1 : Ref sig .tc := ⟨.hbm, 301, rfl⟩
abbrev main_c_15 : Ref sig .tc := ⟨.hbm, 302, rfl⟩
abbrev main_v143 : Ref sig .tc := ⟨.hbm, 303, rfl⟩
abbrev main_v144 : Ref sig .tc := ⟨.hbm, 304, rfl⟩
abbrev main_c_16 : Ref sig .tc := ⟨.hbm, 305, rfl⟩
abbrev main_v145 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩
abbrev main_cst_17 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_v162 : Ref sig .tc := ⟨.hbm, 324, rfl⟩
abbrev main_v163 : Ref sig .tc := ⟨.hbm, 325, rfl⟩
abbrev main_cst_18 : Ref sig .tc := ⟨.hbm, 326, rfl⟩
abbrev main_v164 : Ref sig .tc := ⟨.hbm, 327, rfl⟩
abbrev main_v165 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_cst_19 : Ref sig .tc := ⟨.hbm, 333, rfl⟩
abbrev main_v170 : Ref sig .tc := ⟨.hbm, 334, rfl⟩
abbrev main_v171 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_v175 : Ref sig .tc := ⟨.hbm, 339, rfl⟩
abbrev main_cst_20 : Ref sig .tc := ⟨.hbm, 340, rfl⟩
abbrev main_v176 : Ref sig .tc := ⟨.hbm, 341, rfl⟩
abbrev main_v177 : Ref sig .tc := ⟨.hbm, 342, rfl⟩
abbrev main_v178 : Ref sig .tc := ⟨.hbm, 343, rfl⟩
abbrev main_v179 : Ref sig .tc := ⟨.hbm, 344, rfl⟩
abbrev main_v180 : Ref sig .tc := ⟨.hbm, 345, rfl⟩
abbrev main_v181 : Ref sig .tc := ⟨.hbm, 346, rfl⟩
abbrev main_v182 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg6_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg6_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg5_1 : Ref sig .tc := ⟨.vmem, 88, rfl⟩
abbrev cc8_stg6_0 : Ref sig .tc := ⟨.vmem, 89, rfl⟩
abbrev cc8_stg6_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg1_1 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg6_0 : Ref sig .tc := ⟨.vmem, 99, rfl⟩
abbrev cc9_stg6_1 : Ref sig .tc := ⟨.vmem, 100, rfl⟩
abbrev cc10_stg0_0 : Ref sig .tc := ⟨.vmem, 101, rfl⟩
abbrev cc10_stg0_1 : Ref sig .tc := ⟨.vmem, 102, rfl⟩
abbrev cc10_stg1_0 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg4_0 : Ref sig .tc := ⟨.vmem, 106, rfl⟩
abbrev cc10_stg5_0 : Ref sig .tc := ⟨.vmem, 107, rfl⟩
abbrev cc10_stg5_1 : Ref sig .tc := ⟨.vmem, 108, rfl⟩
abbrev cc11_stg0_0 : Ref sig .tc := ⟨.vmem, 109, rfl⟩
abbrev cc11_stg1_0 : Ref sig .tc := ⟨.vmem, 110, rfl⟩
abbrev cc11_stg2_0 : Ref sig .tc := ⟨.vmem, 111, rfl⟩
abbrev cc11_stg3_0 : Ref sig .tc := ⟨.vmem, 112, rfl⟩
abbrev cc11_stg4_0 : Ref sig .tc := ⟨.vmem, 113, rfl⟩
abbrev cc11_stg5_0 : Ref sig .tc := ⟨.vmem, 114, rfl⟩
abbrev cc12_stg0_0 : Ref sig .tc := ⟨.vmem, 115, rfl⟩
abbrev cc12_stg1_0 : Ref sig .tc := ⟨.vmem, 116, rfl⟩
abbrev cc12_stg2_0 : Ref sig .tc := ⟨.vmem, 117, rfl⟩
abbrev cc12_stg3_0 : Ref sig .tc := ⟨.vmem, 118, rfl⟩
abbrev cc12_stg4_0 : Ref sig .tc := ⟨.vmem, 119, rfl⟩
abbrev cc12_stg5_0 : Ref sig .tc := ⟨.vmem, 120, rfl⟩
abbrev cc12_stg6_0 : Ref sig .tc := ⟨.vmem, 121, rfl⟩
abbrev cc12_stg7_0 : Ref sig .tc := ⟨.vmem, 122, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem6_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67
abbrev cc6_sem6_0 : DmaSem sig := 68
abbrev cc6_sem6_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem6_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem5_1 : DmaSem sig := 88
abbrev cc8_sem6_0 : DmaSem sig := 89
abbrev cc8_sem6_1 : DmaSem sig := 90
abbrev cc9_sem0_0 : DmaSem sig := 91
abbrev cc9_sem0_1 : DmaSem sig := 92
abbrev cc9_sem1_0 : DmaSem sig := 93
abbrev cc9_sem1_1 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem6_0 : DmaSem sig := 99
abbrev cc9_sem6_1 : DmaSem sig := 100
abbrev cc10_sem0_0 : DmaSem sig := 101
abbrev cc10_sem0_1 : DmaSem sig := 102
abbrev cc10_sem1_0 : DmaSem sig := 103
abbrev cc10_sem2_0 : DmaSem sig := 104
abbrev cc10_sem3_0 : DmaSem sig := 105
abbrev cc10_sem4_0 : DmaSem sig := 106
abbrev cc10_sem5_0 : DmaSem sig := 107
abbrev cc10_sem5_1 : DmaSem sig := 108
abbrev cc11_sem0_0 : DmaSem sig := 109
abbrev cc11_sem1_0 : DmaSem sig := 110
abbrev cc11_sem2_0 : DmaSem sig := 111
abbrev cc11_sem3_0 : DmaSem sig := 112
abbrev cc11_sem4_0 : DmaSem sig := 113
abbrev cc11_sem5_0 : DmaSem sig := 114
abbrev cc12_sem0_0 : DmaSem sig := 115
abbrev cc12_sem1_0 : DmaSem sig := 116
abbrev cc12_sem2_0 : DmaSem sig := 117
abbrev cc12_sem3_0 : DmaSem sig := 118
abbrev cc12_sem4_0 : DmaSem sig := 119
abbrev cc12_sem5_0 : DmaSem sig := 120
abbrev cc12_sem6_0 : DmaSem sig := 121
abbrev cc12_sem7_0 : DmaSem sig := 122

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x192 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x192 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x192 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x192 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x192 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S4000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S2000x64 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S2000x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S64x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S32x16 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x16 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S16x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S64x1 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x100x64_S1x100x64_0_0_0 : S5x100x64.Slices ![0, 0, 0] S1x100x64
  shapeCasts_S1x100x64_S100x64 : S1x100x64.ShapeCasts S100x64
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  bcast_S_S100000x2x1 : S_.BroadcastsInDim S100000x2x1 (![] : Fin 0 → Fin S100000x2x1.rank)
  bcast_S1_S1x1x1_2 : S1.BroadcastsInDim S1x1x1 (![2] : Fin 1 → Fin S1x1x1.rank)
  bcast_S1x1x1_S100000x2x1_0_1_2 : S1x1x1.BroadcastsInDim S100000x2x1 (![0, 1, 2] : Fin 3 → Fin S100000x2x1.rank)
  reducesTo_S100000x2x1_S100000x2_d2 : S100000x2x1.ReducesTo [2] S100000x2
  h_S_ : 0 < S_.numel
  bcast_S100000x2_S100000x2x64_0_1 : S100000x2.BroadcastsInDim S100000x2x64 (![0, 1] : Fin 2 → Fin S100000x2x64.rank)
  bcast_S_S100000x2x64 : S_.BroadcastsInDim S100000x2x64 (![] : Fin 0 → Fin S100000x2x64.rank)
  reducesTo_S100000x2x64_S100000x64_d1 : S100000x2x64.ReducesTo [1] S100000x64
  slices_S5x64x64_S1x64x64_0_0_0 : S5x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x192_S1x192_0_0 : S5x192.Slices ![0, 0] S1x192
  shapeCasts_S1x192_S192 : S1x192.ShapeCasts S192
  shapeCasts_S192_S1x192 : S192.ShapeCasts S1x192
  slices_S5x64x192_S1x64x192_0_0_0 : S5x64x192.Slices ![0, 0, 0] S1x64x192
  shapeCasts_S1x64x192_S64x192 : S1x64x192.ShapeCasts S64x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10000x192 : S1x192.Broadcasts S10000x192
  slices_S10000x192_o0_0_S10000x64 : S10000x192.Slices ![0, 0] S10000x64
  slices_S10000x192_o0_64_S10000x64 : S10000x192.Slices ![0, 64] S10000x64
  slices_S10000x192_o0_128_S10000x64 : S10000x192.Slices ![0, 128] S10000x64
  slices_S5x100x64_S1x100x64_1_0_0 : S5x100x64.Slices ![1, 0, 0] S1x100x64
  slices_S4x64_S1x64_0_0 : S4x64.Slices ![0, 0] S1x64
  shapeCasts_S1x64_S64 : S1x64.ShapeCasts S64
  shapeCasts_S64_S1x64 : S64.ShapeCasts S1x64
  slices_S4x128x64_S1x128x64_0_0_0 : S4x128x64.Slices ![0, 0, 0] S1x128x64
  shapeCasts_S1x128x64_S128x64 : S1x128x64.ShapeCasts S128x64
  slices_S5x64x64_S1x64x64_1_0_0 : S5x64x64.Slices ![1, 0, 0] S1x64x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S5x192_S1x192_1_0 : S5x192.Slices ![1, 0] S1x192
  slices_S5x64x192_S1x64x192_1_0_0 : S5x64x192.Slices ![1, 0, 0] S1x64x192
  slices_S5x100x64_S1x100x64_2_0_0 : S5x100x64.Slices ![2, 0, 0] S1x100x64
  slices_S4x64_S1x64_1_0 : S4x64.Slices ![1, 0] S1x64
  slices_S4x128x64_S1x128x64_1_0_0 : S4x128x64.Slices ![1, 0, 0] S1x128x64
  slices_S5x64x64_S1x64x64_2_0_0 : S5x64x64.Slices ![2, 0, 0] S1x64x64
  slices_S5x192_S1x192_2_0 : S5x192.Slices ![2, 0] S1x192
  slices_S5x64x192_S1x64x192_2_0_0 : S5x64x192.Slices ![2, 0, 0] S1x64x192
  slices_S5x100x64_S1x100x64_3_0_0 : S5x100x64.Slices ![3, 0, 0] S1x100x64
  slices_S4x64_S1x64_2_0 : S4x64.Slices ![2, 0] S1x64
  slices_S4x128x64_S1x128x64_2_0_0 : S4x128x64.Slices ![2, 0, 0] S1x128x64
  slices_S5x64x64_S1x64x64_3_0_0 : S5x64x64.Slices ![3, 0, 0] S1x64x64
  slices_S5x192_S1x192_3_0 : S5x192.Slices ![3, 0] S1x192
  slices_S5x64x192_S1x64x192_3_0_0 : S5x64x192.Slices ![3, 0, 0] S1x64x192
  slices_S5x100x64_S1x100x64_4_0_0 : S5x100x64.Slices ![4, 0, 0] S1x100x64
  slices_S4x64_S1x64_3_0 : S4x64.Slices ![3, 0] S1x64
  slices_S4x128x64_S1x128x64_3_0_0 : S4x128x64.Slices ![3, 0, 0] S1x128x64
  slices_S5x64x64_S1x64x64_4_0_0 : S5x64x64.Slices ![4, 0, 0] S1x64x64
  slices_S5x192_S1x192_4_0 : S5x192.Slices ![4, 0] S1x192
  slices_S5x64x192_S1x64x192_4_0_0 : S5x64x192.Slices ![4, 0, 0] S1x64x192
  bcast_S_S20000x64 : S_.BroadcastsInDim S20000x64 (![] : Fin 0 → Fin S20000x64.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  bcast_S_S2000x64 : S_.BroadcastsInDim S2000x64 (![] : Fin 0 → Fin S2000x64.rank)
  bcast_S20000_S20000x1_0 : S20000.BroadcastsInDim S20000x1 (![0] : Fin 1 → Fin S20000x1.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  bcast_S_S64x64 : S_.BroadcastsInDim S64x64 (![] : Fin 0 → Fin S64x64.rank)
  bcast_S2000_S2000x1_0 : S2000.BroadcastsInDim S2000x1 (![0] : Fin 1 → Fin S2000x1.rank)
  shapeCasts_S32_S1x32 : S32.ShapeCasts S1x32
  shapeCasts_S16_S1x16 : S16.ShapeCasts S1x16
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S100x64_S100000x2x1_S100000x2x64_2_0_n_n_0_2_164_wf : GatherDims.WF S100x64 S100000x2x1 S100000x2x64 [2] [0] [] [0] [] 2 ![1, 64]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x192_S10000x192_1_0_0_1_n_n_wf : DotDims.WF S10000x64 S64x192 S10000x192 [1] [0] [0] [1] [] []
  dot_S10000x128_S128x64_S10000x64_1_0_0_1_n_n_wf : DotDims.WF S10000x128 S128x64 S10000x64 [1] [0] [0] [1] [] []
  scatter_S20000x64_S100000x1_S100000x64_1_0_0_1_wf : ScatterDims.WF S20000x64 S100000x1 S100000x64 [1] [0] [0] 1
  dot_S4000x64_S64x64_S4000x64_1_0_0_1_n_n_wf : DotDims.WF S4000x64 S64x64 S4000x64 [1] [0] [0] [1] [] []
  scatter_S2000x64_S20000x1_S20000x64_1_0_0_1_wf : ScatterDims.WF S2000x64 S20000x1 S20000x64 [1] [0] [0] 1
  dot_S2000x64_S64x64_S2000x64_1_0_0_1_n_n_wf : DotDims.WF S2000x64 S64x64 S2000x64 [1] [0] [0] [1] [] []
  scatter_S64x64_S2000x1_S2000x64_1_0_0_1_wf : ScatterDims.WF S64x64 S2000x1 S2000x64 [1] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x192.size a ≤ S64x192.size a
  hwx3_4 : ∀ i : grid3.Coords, EltTy.bits .f32 = 32 ∨ (Rect.block (s := S64x192) S64x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x192.size a ≤ S1x192.size a
  hwx5_3 : ∀ i : grid5.Coords, EltTy.bits .f32 = 32 ∨ (Rect.block (s := S1x192) S1x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x192.size a ≤ S64x192.size a
  hwx5_4 : ∀ i : grid5.Coords, EltTy.bits .f32 = 32 ∨ (Rect.block (s := S64x192) S64x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x192.size a ≤ S64x192.size a
  hwx7_2 : ∀ i : grid7.Coords, EltTy.bits .f32 = 32 ∨ (Rect.block (s := S64x192) S64x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x192.size a ≤ S1x192.size a
  hwx7_3 : ∀ i : grid7.Coords, EltTy.bits .f32 = 32 ∨ (Rect.block (s := S1x192) S1x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x192.size a ≤ S64x192.size a
  hwx7_4 : ∀ i : grid7.Coords, EltTy.bits .f32 = 32 ∨ (Rect.block (s := S64x192) S64x192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x192.size a ≤ S1x192.size a
  hwx7_5 : ∀ i : grid7.Coords, EltTy.bits .f32 = 32 ∨ (Rect.block (s := S1x192) S1x192.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x64.size a ≤ S100000x64.size a
  hwx7_6 : ∀ i : grid7.Coords, EltTy.bits .f32 = 32 ∨ (Rect.block (s := S100000x64) S10000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x64.size a ≤ S128x64.size a
  hwx8_2 : ∀ i : grid8.Coords, EltTy.bits .f32 = 32 ∨ (Rect.block (s := S128x64) S128x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x192.size a ≤ S64x192.size a
  hwx9_2 : ∀ i : grid9.Coords, EltTy.bits .f32 = 32 ∨ (Rect.block (s := S64x192) S64x192.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x192.size a ≤ S1x192.size a
  hwx9_3 : ∀ i : grid9.Coords, EltTy.bits .f32 = 32 ∨ (Rect.block (s := S1x192) S1x192.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x192.size a ≤ S64x192.size a
  hwx9_4 : ∀ i : grid9.Coords, EltTy.bits .f32 = 32 ∨ (Rect.block (s := S64x192) S64x192.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x192.size a ≤ S1x192.size a
  hwx9_5 : ∀ i : grid9.Coords, EltTy.bits .f32 = 32 ∨ (Rect.block (s := S1x192) S1x192.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S20000x64.size a
  hwx10_0 : ∀ i : grid10.Coords, EltTy.bits .f32 = 32 ∨ (Rect.block (s := S20000x64) S4000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S4000x64.size a ≤ S20000x64.size a
  hwx10_5 : ∀ i : grid10.Coords, EltTy.bits .f32 = 32 ∨ (Rect.block (s := S20000x64) S4000x64.size (cc10_transform_5 i) (hinb10_5 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S2000x64.size a
  hwx11_0 : ∀ i : grid11.Coords, EltTy.bits .f32 = 32 ∨ (Rect.block (s := S2000x64) S2000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 1
  hreads11_5 : ∀ i i' : grid11.Coords, (∀ a, reads11_5 a = true → i a = i' a) → cc11_transform_5 i = cc11_transform_5 i'
  hinb11_5 : ∀ (i : grid11.Coords) a, (cc11_transform_5 i a + 1) * S2000x64.size a ≤ S2000x64.size a
  hwx11_5 : ∀ i : grid11.Coords, EltTy.bits .f32 = 32 ∨ (Rect.block (s := S2000x64) S2000x64.size (cc11_transform_5 i) (hinb11_5 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S64x64.size a ≤ S64x64.size a
  hwx12_0 : ∀ i : grid12.Coords, EltTy.bits .f32 = 32 ∨ (Rect.block (s := S64x64) S64x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x32.size a ≤ S64x32.size a
  hwx12_1 : ∀ i : grid12.Coords, EltTy.bits .f32 = 32 ∨ (Rect.block (s := S64x32) S64x32.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x32.size a ≤ S1x32.size a
  hwx12_2 : ∀ i : grid12.Coords, EltTy.bits .f32 = 32 ∨ (Rect.block (s := S1x32) S1x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x16.size a ≤ S32x16.size a
  hwx12_3 : ∀ i : grid12.Coords, EltTy.bits .f32 = 32 ∨ (Rect.block (s := S32x16) S32x16.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x16.size a ≤ S1x16.size a
  hwx12_4 : ∀ i : grid12.Coords, EltTy.bits .f32 = 32 ∨ (Rect.block (s := S1x16) S1x16.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S16x1.size a ≤ S16x1.size a
  hwx12_5 : ∀ i : grid12.Coords, EltTy.bits .f32 = 32 ∨ (Rect.block (s := S16x1) S16x1.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x1.size a ≤ S1x1.size a
  hwx12_6 : ∀ i : grid12.Coords, EltTy.bits .f32 = 32 ∨ (Rect.block (s := S1x1) S1x1.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S64x1.size a ≤ S64x1.size a
  hwx12_7 : ∀ i : grid12.Coords, EltTy.bits .f32 = 32 ∨ (Rect.block (s := S64x1) S64x1.size (cc12_transform_7 i) (hinb12_7 i)).WholeWords (EltTy.packing .f32)

variable [Facts₀]

def gather_S100x64_S100000x2x1_S100000x2x64_2_0_n_n_0_2_164 : GatherDims S100x64 S100000x2x1 S100000x2x64 where
  offsetDims := [2]
  collapsedSliceDims := [0]
  operandBatchingDims := []
  startIndicesBatchingDims := []
  startIndexMap := [0]
  indexVectorDim := 2
  sliceSizes := ![1, 64]
  wf := gather_S100x64_S100000x2x1_S100000x2x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S20000x64_S100000x1_S100000x64_1_0_0_1 : ScatterDims S20000x64 S100000x1 S100000x64 where
  updateWindowDims := [1]
  insertedWindowDims := [0]
  scatterDimsToOperandDims := [0]
  indexVectorDim := 1
  wf := scatter_S20000x64_S100000x1_S100000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S2000x64_S20000x1_S20000x64_1_0_0_1 : ScatterDims S2000x64 S20000x1 S20000x64 where
  updateWindowDims := [1]
  insertedWindowDims := [0]
  scatterDimsToOperandDims := [0]
  indexVectorDim := 1
  wf := scatter_S2000x64_S20000x1_S20000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x64_S2000x1_S2000x64_1_0_0_1 : ScatterDims S64x64 S2000x1 S2000x64 where
  updateWindowDims := [1]
  insertedWindowDims := [0]
  scatterDimsToOperandDims := [0]
  indexVectorDim := 1
  wf := scatter_S64x64_S2000x1_S2000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S10000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v43_1) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43_0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S64x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v76_1) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v86) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76_0) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S64x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v97) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v97) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v104) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v108) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v109_0) S10000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v109_1) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v119) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109_0) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v127) S64x192.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v122) S1x192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v129) S64x192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v125) S1x192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S10000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v130) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v134) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v139) S128x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v137) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v141) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v142_0) S10000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v142_1) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v152) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v142_0) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v160) S64x192.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v155) S1x192.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v162) S64x192.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v158) S1x192.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v163) S10000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v166) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v167) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v168) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v169) S4000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v172) S2000x64.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v173) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg19) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v174) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v175) S2000x64.size cc11_transform_5 reads11_5 true false 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v178) S64x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg21) S64x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v179) S1x32.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg23) S32x16.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v180) S1x16.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg25) S16x1.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v181) S1x1.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v182) S64x1.size cc12_transform_7 reads12_7 true true 1 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S100000 : Shape := ⟨1, ![100000]⟩
abbrev S20000 : Shape := ⟨1, ![20000]⟩
abbrev S2000 : Shape := ⟨1, ![2000]⟩
abbrev S5x100x64 : Shape := ⟨3, ![5, 100, 64]⟩
abbrev S4x128x64 : Shape := ⟨3, ![4, 128, 64]⟩
abbrev S4x64 : Shape := ⟨2, ![4, 64]⟩
abbrev S5x64x64 : Shape := ⟨3, ![5, 64, 64]⟩
abbrev S5x64x192 : Shape := ⟨3, ![5, 64, 192]⟩
abbrev S5x192 : Shape := ⟨2, ![5, 192]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1x100x64 : Shape := ⟨3, ![1, 100, 64]⟩
abbrev S100x64 : Shape := ⟨2, ![100, 64]⟩
abbrev S_ : Shape := ⟨0, ![]⟩
abbrev S100000x2x1 : Shape := ⟨3, ![100000, 2, 1]⟩
abbrev S100000x2x64 : Shape := ⟨3, ![100000, 2, 64]⟩
abbrev S100000x64 : Shape := ⟨2, ![100000, 64]⟩
abbrev S1x64x64 : Shape := ⟨3, ![1, 64, 64]⟩
abbrev S1x64x192 : Shape := ⟨3, ![1, 64, 192]⟩
abbrev S64x192 : Shape := ⟨2, ![64, 192]⟩
abbrev S1x192 : Shape := ⟨2, ![1, 192]⟩
abbrev S192 : Shape := ⟨1, ![192]⟩
abbrev S1600000x1 : Shape := ⟨2, ![1600000, 1]⟩
abbrev S1600000x64 : Shape := ⟨2, ![1600000, 64]⟩
abbrev S100000x192 : Shape := ⟨2, ![100000, 192]⟩
abbrev S100000x128 : Shape := ⟨2, ![100000, 128]⟩
abbrev S1x128x64 : Shape := ⟨3, ![1, 128, 64]⟩
abbrev S128x64 : Shape := ⟨2, ![128, 64]⟩
abbrev S1x64 : Shape := ⟨2, ![1, 64]⟩
abbrev S20000x64 : Shape := ⟨2, ![20000, 64]⟩
abbrev S100000x1 : Shape := ⟨2, ![100000, 1]⟩
abbrev S2000x64 : Shape := ⟨2, ![2000, 64]⟩
abbrev S20000x1 : Shape := ⟨2, ![20000, 1]⟩
abbrev S2000x1 : Shape := ⟨2, ![2000, 1]⟩
abbrev S1x32 : Shape := ⟨2, ![1, 32]⟩
abbrev S64x16 : Shape := ⟨2, ![64, 16]⟩
abbrev S1x16 : Shape := ⟨2, ![1, 16]⟩
abbrev S64x1 : Shape := ⟨2, ![64, 1]⟩
abbrev S1x1 : Shape := ⟨2, ![1, 1]⟩

abbrev nBuf : Space → Nat
  | .hbm => 533
  | .vmem => 0
  | .smem => 0
  | _ => 0

abbrev hbmTy0_0 (i : Nat) : BufTy := match i % 128 with
  | 0 => ⟨S100000x2, .i32⟩
  | 1 => ⟨S2x1600000, .i32⟩
  | 2 => ⟨S100000, .i32⟩
  | 3 => ⟨S20000, .i32⟩
  | 4 => ⟨S2000, .i32⟩
  | 5 => ⟨S5x100x64, .f32⟩
  | 6 => ⟨S4x128x64, .f32⟩
  | 7 => ⟨S4x64, .f32⟩
  | 8 => ⟨S5x64x64, .f32⟩
  | 9 => ⟨S5x64x192, .f32⟩
  | 10 => ⟨S5x192, .f32⟩
  | 11 => ⟨S5x64x192, .f32⟩
  | 12 => ⟨S5x192, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x32, .f32⟩
  | 22 => ⟨S32, .f32⟩
  | 23 => ⟨S32x16, .f32⟩
  | 24 => ⟨S16, .f32⟩
  | 25 => ⟨S16x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S1x100x64, .f32⟩
  | 32 => ⟨S100x64, .f32⟩
  | 33 => ⟨S_, .i32⟩
  | 34 => ⟨S100000x2, .i32⟩
  | 35 => ⟨S100000x2, .i1⟩
  | 36 => ⟨S_, .i32⟩
  | 37 => ⟨S100000x2, .i32⟩
  | 38 => ⟨S100000x2, .i32⟩
  | 39 => ⟨S100000x2, .i32⟩
  | 40 => ⟨S100000x2x1, .i32⟩
  | 41 => ⟨S100000x2x64, .f32⟩
  | 42 => ⟨S_, .f32⟩
  | 43 => ⟨S100000x64, .f32⟩
  | 44 => ⟨S1x64x64, .f32⟩
  | 45 => ⟨S64x64, .f32⟩
  | 46 => ⟨S1x64x192, .f32⟩
  | 47 => ⟨S64x192, .f32⟩
  | 48 => ⟨S1x192, .f32⟩
  | 49 => ⟨S192, .f32⟩
  | 50 => ⟨S1x64x192, .f32⟩
  | 51 => ⟨S64x192, .f32⟩
  | 52 => ⟨S1x192, .f32⟩
  | 53 => ⟨S192, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x192, .f32⟩
  | 69 => ⟨S1x192, .f32⟩
  | 70 => ⟨S100000x192, .f32⟩
  | 71 => ⟨S100000x192, .f32⟩
  | 72 => ⟨S100000x192, .f32⟩
  | 73 => ⟨S1x192, .f32⟩
  | 74 => ⟨S100000x192, .f32⟩
  | 75 => ⟨S100000x192, .f32⟩
  | 76 => ⟨S100000x64, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S1x100x64, .f32⟩
  | 110 => ⟨S100x64, .f32⟩
  | 111 => ⟨S_, .i32⟩
  | 112 => ⟨S100000x2, .i32⟩
  | 113 => ⟨S100000x2, .i1⟩
  | 114 => ⟨S_, .i32⟩
  | 115 => ⟨S100000x2, .i32⟩
  | 116 => ⟨S100000x2, .i32⟩
  | 117 => ⟨S100000x2, .i32⟩
  | 118 => ⟨S100000x2x1, .i32⟩
  | 119 => ⟨S100000x2x64, .f32⟩
  | 120 => ⟨S_, .f32⟩
  | 121 => ⟨S100000x64, .f32⟩
  | 122 => ⟨S100000x128, .f32⟩
  | 123 => ⟨S1x128x64, .f32⟩
  | 124 => ⟨S128x64, .f32⟩
  | 125 => ⟨S100000x64, .f32⟩
  | 126 => ⟨S1x64, .f32⟩
  | 127 => ⟨S64, .f32⟩
  | _ => ⟨S100000x2, .i32⟩

abbrev hbmTy0_1 (i : Nat) : BufTy := match i % 128 with
  | 0 => ⟨S1x64, .f32⟩
  | 1 => ⟨S100000x64, .f32⟩
  | 2 => ⟨S100000x64, .f32⟩
  | 3 => ⟨S1x64x64, .f32⟩
  | 4 => ⟨S64x64, .f32⟩
  | 5 => ⟨S1x64x192, .f32⟩
  | 6 => ⟨S64x192, .f32⟩
  | 7 => ⟨S1x192, .f32⟩
  | 8 => ⟨S192, .f32⟩
  | 9 => ⟨S1x64x192, .f32⟩
  | 10 => ⟨S64x192, .f32⟩
  | 11 => ⟨S1x192, .f32⟩
  | 12 => ⟨S192, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000x192, .f32⟩
  | 28 => ⟨S1x192, .f32⟩
  | 29 => ⟨S100000x192, .f32⟩
  | 30 => ⟨S100000x192, .f32⟩
  | 31 => ⟨S100000x192, .f32⟩
  | 32 => ⟨S1x192, .f32⟩
  | 33 => ⟨S100000x192, .f32⟩
  | 34 => ⟨S100000x192, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S1x100x64, .f32⟩
  | 69 => ⟨S100x64, .f32⟩
  | 70 => ⟨S_, .i32⟩
  | 71 => ⟨S100000x2, .i32⟩
  | 72 => ⟨S100000x2, .i1⟩
  | 73 => ⟨S_, .i32⟩
  | 74 => ⟨S100000x2, .i32⟩
  | 75 => ⟨S100000x2, .i32⟩
  | 76 => ⟨S100000x2, .i32⟩
  | 77 => ⟨S100000x2x1, .i32⟩
  | 78 => ⟨S100000x2x64, .f32⟩
  | 79 => ⟨S_, .f32⟩
  | 80 => ⟨S100000x64, .f32⟩
  | 81 => ⟨S100000x128, .f32⟩
  | 82 => ⟨S1x128x64, .f32⟩
  | 83 => ⟨S128x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S1x64x64, .f32⟩
  | 91 => ⟨S64x64, .f32⟩
  | 92 => ⟨S1x64x192, .f32⟩
  | 93 => ⟨S64x192, .f32⟩
  | 94 => ⟨S1x192, .f32⟩
  | 95 => ⟨S192, .f32⟩
  | 96 => ⟨S1x64x192, .f32⟩
  | 97 => ⟨S64x192, .f32⟩
  | 98 => ⟨S1x192, .f32⟩
  | 99 => ⟨S192, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x192, .f32⟩
  | 115 => ⟨S1x192, .f32⟩
  | 116 => ⟨S100000x192, .f32⟩
  | 117 => ⟨S100000x192, .f32⟩
  | 118 => ⟨S100000x192, .f32⟩
  | 119 => ⟨S1x192, .f32⟩
  | 120 => ⟨S100000x192, .f32⟩
  | 121 => ⟨S100000x192, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x2, .i32⟩

abbrev hbmTy0_2 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S100000x64, .f32⟩
  | 26 => ⟨S100000x64, .f32⟩
  | 27 => ⟨S1x100x64, .f32⟩
  | 28 => ⟨S100x64, .f32⟩
  | 29 => ⟨S_, .i32⟩
  | 30 => ⟨S100000x2, .i32⟩
  | 31 => ⟨S100000x2, .i1⟩
  | 32 => ⟨S_, .i32⟩
  | 33 => ⟨S100000x2, .i32⟩
  | 34 => ⟨S100000x2, .i32⟩
  | 35 => ⟨S100000x2, .i32⟩
  | 36 => ⟨S100000x2x1, .i32⟩
  | 37 => ⟨S100000x2x64, .f32⟩
  | 38 => ⟨S_, .f32⟩
  | 39 => ⟨S100000x64, .f32⟩
  | 40 => ⟨S100000x128, .f32⟩
  | 41 => ⟨S1x128x64, .f32⟩
  | 42 => ⟨S128x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S1x64x64, .f32⟩
  | 50 => ⟨S64x64, .f32⟩
  | 51 => ⟨S1x64x192, .f32⟩
  | 52 => ⟨S64x192, .f32⟩
  | 53 => ⟨S1x192, .f32⟩
  | 54 => ⟨S192, .f32⟩
  | 55 => ⟨S1x64x192, .f32⟩
  | 56 => ⟨S64x192, .f32⟩
  | 57 => ⟨S1x192, .f32⟩
  | 58 => ⟨S192, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x192, .f32⟩
  | 74 => ⟨S1x192, .f32⟩
  | 75 => ⟨S100000x192, .f32⟩
  | 76 => ⟨S100000x192, .f32⟩
  | 77 => ⟨S100000x192, .f32⟩
  | 78 => ⟨S1x192, .f32⟩
  | 79 => ⟨S100000x192, .f32⟩
  | 80 => ⟨S100000x192, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S1x100x64, .f32⟩
  | 115 => ⟨S100x64, .f32⟩
  | 116 => ⟨S_, .i32⟩
  | 117 => ⟨S100000x2, .i32⟩
  | 118 => ⟨S100000x2, .i1⟩
  | 119 => ⟨S_, .i32⟩
  | 120 => ⟨S100000x2, .i32⟩
  | 121 => ⟨S100000x2, .i32⟩
  | 122 => ⟨S100000x2, .i32⟩
  | 123 => ⟨S100000x2x1, .i32⟩
  | 124 => ⟨S100000x2x64, .f32⟩
  | 125 => ⟨S_, .f32⟩
  | 126 => ⟨S100000x64, .f32⟩
  | 127 => ⟨S100000x128, .f32⟩
  | _ => ⟨S100000x2, .i32⟩

abbrev hbmTy0_3 (i : Nat) : BufTy := match i % 128 with
  | 0 => ⟨S1x128x64, .f32⟩
  | 1 => ⟨S128x64, .f32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S1x64x64, .f32⟩
  | 9 => ⟨S64x64, .f32⟩
  | 10 => ⟨S1x64x192, .f32⟩
  | 11 => ⟨S64x192, .f32⟩
  | 12 => ⟨S1x192, .f32⟩
  | 13 => ⟨S192, .f32⟩
  | 14 => ⟨S1x64x192, .f32⟩
  | 15 => ⟨S64x192, .f32⟩
  | 16 => ⟨S1x192, .f32⟩
  | 17 => ⟨S192, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x192, .f32⟩
  | 33 => ⟨S1x192, .f32⟩
  | 34 => ⟨S100000x192, .f32⟩
  | 35 => ⟨S100000x192, .f32⟩
  | 36 => ⟨S100000x192, .f32⟩
  | 37 => ⟨S1x192, .f32⟩
  | 38 => ⟨S100000x192, .f32⟩
  | 39 => ⟨S100000x192, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S20000x64, .f32⟩
  | 75 => ⟨S100000x1, .i32⟩
  | 76 => ⟨S20000x64, .f32⟩
  | 77 => ⟨S20000x64, .f32⟩
  | 78 => ⟨S1x64, .f32⟩
  | 79 => ⟨S20000x64, .f32⟩
  | 80 => ⟨S20000x64, .f32⟩
  | 81 => ⟨S_, .f32⟩
  | 82 => ⟨S20000x64, .f32⟩
  | 83 => ⟨S20000x64, .f32⟩
  | 84 => ⟨S20000x64, .f32⟩
  | 85 => ⟨S1x64, .f32⟩
  | 86 => ⟨S20000x64, .f32⟩
  | 87 => ⟨S20000x64, .f32⟩
  | 88 => ⟨S_, .f32⟩
  | 89 => ⟨S2000x64, .f32⟩
  | 90 => ⟨S20000x1, .i32⟩
  | 91 => ⟨S2000x64, .f32⟩
  | 92 => ⟨S2000x64, .f32⟩
  | 93 => ⟨S1x64, .f32⟩
  | 94 => ⟨S2000x64, .f32⟩
  | 95 => ⟨S2000x64, .f32⟩
  | 96 => ⟨S_, .f32⟩
  | 97 => ⟨S2000x64, .f32⟩
  | 98 => ⟨S2000x64, .f32⟩
  | 99 => ⟨S2000x64, .f32⟩
  | 100 => ⟨S1x64, .f32⟩
  | 101 => ⟨S2000x64, .f32⟩
  | 102 => ⟨S2000x64, .f32⟩
  | 103 => ⟨S_, .f32⟩
  | 104 => ⟨S64x64, .f32⟩
  | 105 => ⟨S2000x1, .i32⟩
  | 106 => ⟨S64x64, .f32⟩
  | 107 => ⟨S64x32, .f32⟩
  | 108 => ⟨S1x32, .f32⟩
  | 109 => ⟨S64x32, .f32⟩
  | 110 => ⟨S64x32, .f32⟩
  | 111 => ⟨S_, .f32⟩
  | 112 => ⟨S64x32, .f32⟩
  | 113 => ⟨S64x32, .i1⟩
  | 114 => ⟨S_, .f32⟩
  | 115 => ⟨S64x32, .f32⟩
  | 116 => ⟨S64x32, .i1⟩
  | 117 => ⟨S_, .f32⟩
  | 118 => ⟨S_, .f32⟩
  | 119 => ⟨S64x32, .f32⟩
  | 120 => ⟨S64x32, .f32⟩
  | 121 => ⟨S64x32, .f32⟩
  | 122 => ⟨S_, .f32⟩
  | 123 => ⟨S64x32, .f32⟩
  | 124 => ⟨S64x32, .f32⟩
  | 125 => ⟨S64x32, .f32⟩
  | 126 => ⟨S64x16, .f32⟩
  | 127 => ⟨S1x16, .f32⟩
  | _ => ⟨S100000x2, .i32⟩

abbrev hbmTy0_4 (i : Nat) : BufTy := match i % 128 with
  | 0 => ⟨S64x16, .f32⟩
  | 1 => ⟨S64x16, .f32⟩
  | 2 => ⟨S_, .f32⟩
  | 3 => ⟨S64x16, .f32⟩
  | 4 => ⟨S64x16, .i1⟩
  | 5 => ⟨S_, .f32⟩
  | 6 => ⟨S64x16, .f32⟩
  | 7 => ⟨S64x16, .i1⟩
  | 8 => ⟨S_, .f32⟩
  | 9 => ⟨S_, .f32⟩
  | 10 => ⟨S64x16, .f32⟩
  | 11 => ⟨S64x16, .f32⟩
  | 12 => ⟨S64x16, .f32⟩
  | 13 => ⟨S_, .f32⟩
  | 14 => ⟨S64x16, .f32⟩
  | 15 => ⟨S64x16, .f32⟩
  | 16 => ⟨S64x16, .f32⟩
  | 17 => ⟨S64x1, .f32⟩
  | 18 => ⟨S1x1, .f32⟩
  | 19 => ⟨S64x1, .f32⟩
  | 20 => ⟨S64x1, .f32⟩
  | _ => ⟨S100000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_1 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_cst_5 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_9 : Ref sig .tc := ⟨.hbm, 111, rfl⟩
abbrev main_v73 : Ref sig .tc := ⟨.hbm, 112, rfl⟩
abbrev main_v74 : Ref sig .tc := ⟨.hbm, 113, rfl⟩
abbrev main_c_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_12 : Ref sig .tc := ⟨.hbm, 142, rfl⟩
abbrev main_v101 : Ref sig .tc := ⟨.hbm, 143, rfl⟩
abbrev main_v102 : Ref sig .tc := ⟨.hbm, 144, rfl⟩
abbrev main_c_13 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_14 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_15 : Ref sig .tc := ⟨.hbm, 172, rfl⟩
abbrev main_v128 : Ref sig .tc := ⟨.hbm, 173, rfl⟩
abbrev main_v129 : Ref sig .tc := ⟨.hbm, 174, rfl⟩
abbrev main_cst_16 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_17 : Ref sig .tc := ⟨.hbm, 181, rfl⟩
abbrev main_v135 : Ref sig .tc := ⟨.hbm, 182, rfl⟩
abbrev main_v136 : Ref sig .tc := ⟨.hbm, 183, rfl⟩
abbrev main_cst_18 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_19 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_c_20 : Ref sig .tc := ⟨.hbm, 198, rfl⟩
abbrev main_v149 : Ref sig .tc := ⟨.hbm, 199, rfl⟩
abbrev main_v150 : Ref sig .tc := ⟨.hbm, 200, rfl⟩
abbrev main_c_21 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_22 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_23 : Ref sig .tc := ⟨.hbm, 229, rfl⟩
abbrev main_v177 : Ref sig .tc := ⟨.hbm, 230, rfl⟩
abbrev main_v178 : Ref sig .tc := ⟨.hbm, 231, rfl⟩
abbrev main_c_24 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_25 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_26 : Ref sig .tc := ⟨.hbm, 259, rfl⟩
abbrev main_v204 : Ref sig .tc := ⟨.hbm, 260, rfl⟩
abbrev main_v205 : Ref sig .tc := ⟨.hbm, 261, rfl⟩
abbrev main_cst_27 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_28 : Ref sig .tc := ⟨.hbm, 268, rfl⟩
abbrev main_v211 : Ref sig .tc := ⟨.hbm, 269, rfl⟩
abbrev main_v212 : Ref sig .tc := ⟨.hbm, 270, rfl⟩
abbrev main_cst_29 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_cst_30 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_c_31 : Ref sig .tc := ⟨.hbm, 285, rfl⟩
abbrev main_v225 : Ref sig .tc := ⟨.hbm, 286, rfl⟩
abbrev main_v226 : Ref sig .tc := ⟨.hbm, 287, rfl⟩
abbrev main_c_32 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_33 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_c_34 : Ref sig .tc := ⟨.hbm, 316, rfl⟩
abbrev main_v253 : Ref sig .tc := ⟨.hbm, 317, rfl⟩
abbrev main_v254 : Ref sig .tc := ⟨.hbm, 318, rfl⟩
abbrev main_c_35 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_36 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_cst_37 : Ref sig .tc := ⟨.hbm, 346, rfl⟩
abbrev main_v280 : Ref sig .tc := ⟨.hbm, 347, rfl⟩
abbrev main_v281 : Ref sig .tc := ⟨.hbm, 348, rfl⟩
abbrev main_cst_38 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_cst_39 : Ref sig .tc := ⟨.hbm, 355, rfl⟩
abbrev main_v287 : Ref sig .tc := ⟨.hbm, 356, rfl⟩
abbrev main_v288 : Ref sig .tc := ⟨.hbm, 357, rfl⟩
abbrev main_cst_40 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_cst_41 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_c_42 : Ref sig .tc := ⟨.hbm, 372, rfl⟩
abbrev main_v301 : Ref sig .tc := ⟨.hbm, 373, rfl⟩
abbrev main_v302 : Ref sig .tc := ⟨.hbm, 374, rfl⟩
abbrev main_c_43 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_cst_44 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_c_45 : Ref sig .tc := ⟨.hbm, 403, rfl⟩
abbrev main_v329 : Ref sig .tc := ⟨.hbm, 404, rfl⟩
abbrev main_v330 : Ref sig .tc := ⟨.hbm, 405, rfl⟩
abbrev main_c_46 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_cst_47 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_cst_48 : Ref sig .tc := ⟨.hbm, 433, rfl⟩
abbrev main_v356 : Ref sig .tc := ⟨.hbm, 434, rfl⟩
abbrev main_v357 : Ref sig .tc := ⟨.hbm, 435, rfl⟩
abbrev main_cst_49 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_cst_50 : Ref sig .tc := ⟨.hbm, 442, rfl⟩
abbrev main_v363 : Ref sig .tc := ⟨.hbm, 443, rfl⟩
abbrev main_v364 : Ref sig .tc := ⟨.hbm, 444, rfl⟩
abbrev main_cst_51 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_cst_52 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_v373 : Ref sig .tc := ⟨.hbm, 455, rfl⟩
abbrev main_v374 : Ref sig .tc := ⟨.hbm, 456, rfl⟩
abbrev main_cst_53 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_call0_cst : Ref sig .tc := ⟨.hbm, 465, rfl⟩
abbrev main_call0_v0 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_cst_54 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_call1_cst : Ref sig .tc := ⟨.hbm, 480, rfl⟩
abbrev main_call1_v0 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_55 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_call2_cst : Ref sig .tc := ⟨.hbm, 495, rfl⟩
abbrev main_call2_v0 : Ref sig .tc := ⟨.hbm, 496, rfl⟩
abbrev main_call2_v1 : Ref sig .tc := ⟨.hbm, 497, rfl⟩
abbrev main_call2_cst_0 : Ref sig .tc := ⟨.hbm, 498, rfl⟩
abbrev main_call2_v2 : Ref sig .tc := ⟨.hbm, 499, rfl⟩
abbrev main_call2_v3 : Ref sig .tc := ⟨.hbm, 500, rfl⟩
abbrev main_call2_cst_1 : Ref sig .tc := ⟨.hbm, 501, rfl⟩
abbrev main_call2_call0_v0 : Ref sig .tc := ⟨.hbm, 502, rfl⟩
abbrev main_call2_call0_v1 : Ref sig .tc := ⟨.hbm, 503, rfl⟩
abbrev main_call2_v4 : Ref sig .tc := ⟨.hbm, 504, rfl⟩
abbrev main_call2_v5 : Ref sig .tc := ⟨.hbm, 505, rfl⟩
abbrev main_call2_cst_2 : Ref sig .tc := ⟨.hbm, 506, rfl⟩
abbrev main_call2_v6 : Ref sig .tc := ⟨.hbm, 507, rfl⟩
abbrev main_call2_v7 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_call3_cst : Ref sig .tc := ⟨.hbm, 514, rfl⟩
abbrev main_call3_v0 : Ref sig .tc := ⟨.hbm, 515, rfl⟩
abbrev main_call3_v1 : Ref sig .tc := ⟨.hbm, 516, rfl⟩
abbrev main_call3_cst_0 : Ref sig .tc := ⟨.hbm, 517, rfl⟩
abbrev main_call3_v2 : Ref sig .tc := ⟨.hbm, 518, rfl⟩
abbrev main_call3_v3 : Ref sig .tc := ⟨.hbm, 519, rfl⟩
abbrev main_call3_cst_1 : Ref sig .tc := ⟨.hbm, 520, rfl⟩
abbrev main_call3_call0_v0 : Ref sig .tc := ⟨.hbm, 521, rfl⟩
abbrev main_call3_call0_v1 : Ref sig .tc := ⟨.hbm, 522, rfl⟩
abbrev main_call3_v4 : Ref sig .tc := ⟨.hbm, 523, rfl⟩
abbrev main_call3_v5 : Ref sig .tc := ⟨.hbm, 524, rfl⟩
abbrev main_call3_cst_2 : Ref sig .tc := ⟨.hbm, 525, rfl⟩
abbrev main_call3_v6 : Ref sig .tc := ⟨.hbm, 526, rfl⟩
abbrev main_call3_v7 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S5x100x64_S1x100x64_0_0_0 : S5x100x64.Slices ![0, 0, 0] S1x100x64
  shapeCasts_S1x100x64_S100x64 : S1x100x64.ShapeCasts S100x64
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  reducesTo_S100000x2x64_S100000x64_d1 : S100000x2x64.ReducesTo [1] S100000x64
  h_S_ : 0 < S_.numel
  slices_S5x64x64_S1x64x64_0_0_0 : S5x64x64.Slices ![0, 0, 0] S1x64x64
  shapeCasts_S1x64x64_S64x64 : S1x64x64.ShapeCasts S64x64
  slices_S5x64x192_S1x64x192_0_0_0 : S5x64x192.Slices ![0, 0, 0] S1x64x192
  shapeCasts_S1x64x192_S64x192 : S1x64x192.ShapeCasts S64x192
  slices_S5x192_S1x192_0_0 : S5x192.Slices ![0, 0] S1x192
  shapeCasts_S1x192_S192 : S1x192.ShapeCasts S192
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S5x100x64_S1x100x64_1_0_0 : S5x100x64.Slices ![1, 0, 0] S1x100x64
  concatenates_S100000x64_S100000x64_S100000x128_d1 : Shape.Concatenates [S100000x64, S100000x64] S100000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64x192_S1x64x192_1_0_0 : S5x64x192.Slices ![1, 0, 0] S1x64x192
  slices_S5x192_S1x192_1_0 : S5x192.Slices ![1, 0] S1x192
  slices_S5x100x64_S1x100x64_2_0_0 : S5x100x64.Slices ![2, 0, 0] S1x100x64
  slices_S4x128x64_S1x128x64_1_0_0 : S4x128x64.Slices ![1, 0, 0] S1x128x64
  slices_S4x64_S1x64_1_0 : S4x64.Slices ![1, 0] S1x64
  slices_S5x64x64_S1x64x64_2_0_0 : S5x64x64.Slices ![2, 0, 0] S1x64x64
  slices_S5x64x192_S1x64x192_2_0_0 : S5x64x192.Slices ![2, 0, 0] S1x64x192
  slices_S5x192_S1x192_2_0 : S5x192.Slices ![2, 0] S1x192
  slices_S5x100x64_S1x100x64_3_0_0 : S5x100x64.Slices ![3, 0, 0] S1x100x64
  slices_S4x128x64_S1x128x64_2_0_0 : S4x128x64.Slices ![2, 0, 0] S1x128x64
  slices_S4x64_S1x64_2_0 : S4x64.Slices ![2, 0] S1x64
  slices_S5x64x64_S1x64x64_3_0_0 : S5x64x64.Slices ![3, 0, 0] S1x64x64
  slices_S5x64x192_S1x64x192_3_0_0 : S5x64x192.Slices ![3, 0, 0] S1x64x192
  slices_S5x192_S1x192_3_0 : S5x192.Slices ![3, 0] S1x192
  slices_S5x100x64_S1x100x64_4_0_0 : S5x100x64.Slices ![4, 0, 0] S1x100x64
  slices_S4x128x64_S1x128x64_3_0_0 : S4x128x64.Slices ![3, 0, 0] S1x128x64
  slices_S4x64_S1x64_3_0 : S4x64.Slices ![3, 0] S1x64
  slices_S5x64x64_S1x64x64_4_0_0 : S5x64x64.Slices ![4, 0, 0] S1x64x64
  slices_S5x64x192_S1x64x192_4_0_0 : S5x64x192.Slices ![4, 0, 0] S1x64x192
  slices_S5x192_S1x192_4_0 : S5x192.Slices ![4, 0] S1x192
  bcast_S_S20000x64 : S_.BroadcastsInDim S20000x64 (![] : Fin 0 → Fin S20000x64.rank)
  bcast_S100000_S100000x1_0 : S100000.BroadcastsInDim S100000x1 (![0] : Fin 1 → Fin S100000x1.rank)
  bcast_S1x64_S20000x64_0_1 : S1x64.BroadcastsInDim S20000x64 (![0, 1] : Fin 2 → Fin S20000x64.rank)
  bcast_S_S2000x64 : S_.BroadcastsInDim S2000x64 (![] : Fin 0 → Fin S2000x64.rank)
  bcast_S20000_S20000x1_0 : S20000.BroadcastsInDim S20000x1 (![0] : Fin 1 → Fin S20000x1.rank)
  bcast_S1x64_S2000x64_0_1 : S1x64.BroadcastsInDim S2000x64 (![0, 1] : Fin 2 → Fin S2000x64.rank)
  bcast_S_S64x64 : S_.BroadcastsInDim S64x64 (![] : Fin 0 → Fin S64x64.rank)
  bcast_S2000_S2000x1_0 : S2000.BroadcastsInDim S2000x1 (![0] : Fin 1 → Fin S2000x1.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S100x64_S100000x2x1_S100000x2x64_2_0_n_n_0_2_164_wf : GatherDims.WF S100x64 S100000x2x1 S100000x2x64 [2] [0] [] [0] [] 2 ![1, 64]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []
  dot_S100000x128_S128x64_S100000x64_1_0_0_1_n_n_wf : DotDims.WF S100000x128 S128x64 S100000x64 [1] [0] [0] [1] [] []
  scatter_S20000x64_S100000x1_S100000x64_1_0_0_1_wf : ScatterDims.WF S20000x64 S100000x1 S100000x64 [1] [0] [0] 1
  dot_S20000x64_S64x64_S20000x64_1_0_0_1_n_n_wf : DotDims.WF S20000x64 S64x64 S20000x64 [1] [0] [0] [1] [] []
  scatter_S2000x64_S20000x1_S20000x64_1_0_0_1_wf : ScatterDims.WF S2000x64 S20000x1 S20000x64 [1] [0] [0] 1
  dot_S2000x64_S64x64_S2000x64_1_0_0_1_n_n_wf : DotDims.WF S2000x64 S64x64 S2000x64 [1] [0] [0] [1] [] []
  scatter_S64x64_S2000x1_S2000x64_1_0_0_1_wf : ScatterDims.WF S64x64 S2000x1 S2000x64 [1] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []

variable [Facts₀]

def gather_S100x64_S100000x2x1_S100000x2x64_2_0_n_n_0_2_164 : GatherDims S100x64 S100000x2x1 S100000x2x64 where
  offsetDims := [2]
  collapsedSliceDims := [0]
  operandBatchingDims := []
  startIndicesBatchingDims := []
  startIndexMap := [0]
  indexVectorDim := 2
  sliceSizes := ![1, 64]
  wf := gather_S100x64_S100000x2x1_S100000x2x64_2_0_n_n_0_2_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S20000x64_S100000x1_S100000x64_1_0_0_1 : ScatterDims S20000x64 S100000x1 S100000x64 where
  updateWindowDims := [1]
  insertedWindowDims := [0]
  scatterDimsToOperandDims := [0]
  indexVectorDim := 1
  wf := scatter_S20000x64_S100000x1_S100000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S2000x64_S20000x1_S20000x64_1_0_0_1 : ScatterDims S2000x64 S20000x1 S20000x64 where
  updateWindowDims := [1]
  insertedWindowDims := [0]
  scatterDimsToOperandDims := [0]
  indexVectorDim := 1
  wf := scatter_S2000x64_S20000x1_S20000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x64_S2000x1_S2000x64_1_0_0_1 : ScatterDims S64x64 S2000x1 S2000x64 where
  updateWindowDims := [1]
  insertedWindowDims := [0]
  scatterDimsToOperandDims := [0]
  indexVectorDim := 1
  wf := scatter_S64x64_S2000x1_S2000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.RRun.lean ====
/-
  The reference program's run. Its @main is a straight line of host operations; here the line is written as a list, in
  twenty-six consecutive stretches cut where the network's stages meet, and @main is shown to be that list run in order
  (the outlined functions' operations standing where they are called, over each call's own buffers). Every weakly fair
  execution from a memory with zero counters then terminates with each buffer at the list's fold over the launch contents.
-/
import proofs.«157269_j2267742732766_1_alg».proof.Proof.Gen.ReferenceIdeal
import Idealize.ShloMosaic.Lib.StableHlo.Run
import Idealize.ShloMosaic.Lib.Pipeline.Frame

-- one declaration at a time: the peak memory is one declaration's, not several in flight
set_option Elab.async false

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

/-- A property of every entry of two lists holds of every entry of their concatenation. -/
theorem mem_append_all {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

/-- An operation whose one written buffer is among a list's writes within the list. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- @main's arguments. -/
abbrev mainArgs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20,
    main_arg21, main_arg22, main_arg23, main_arg24, main_arg25, main_arg26]
/-- The arguments are the first twenty-seven buffers. -/
theorem mainArgs_lt : ∀ r ∈ mainArgs, r.idx.val < 27 := by decide +kernel

/-! ## The operations, stage by stage -/

/-- %0 … %23: the edge list's two rows (%0–%3); layer 0's embedding rows gathered and summed (%4–%13); layer 0's weight slices (%14–%23) (27 operations). -/
abbrev opsC0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg5 main_v4 ((extractStridedSlice S1x100x64 ![0, 0, 0] · slices_S5x100x64_S1x100x64_0_0_0) : (⟨S5x100x64, .f32⟩ : BufTy).Contents (Elt F) → (⟨S1x100x64, .f32⟩ : BufTy).Contents (Elt F)),
    StableHlo.reshape main_v4 main_v5 rfl shapeCasts_S1x100x64_S100x64,
    StableHlo.nullary main_c (constantI S_ 32 0#32),
    StableHlo.unary main_c main_v6 (broadcastInDim S100000x2 ![] bcast_S_S100000x2 : (⟨S_, .i32⟩ : BufTy).Contents (Elt F) → (⟨S100000x2, .i32⟩ : BufTy).Contents (Elt F)),
    StableHlo.binary main_arg0 main_v6 main_v7 (cmpi .slt : (⟨S100000x2, .i32⟩ : BufTy).Contents (Elt F) → (⟨S100000x2, .i32⟩ : BufTy).Contents (Elt F) → (⟨S100000x2, .i1⟩ : BufTy).Contents (Elt F)),
    StableHlo.nullary main_c_0 (constantI S_ 32 100#32),
    StableHlo.unary main_c_0 main_v8 (broadcastInDim S100000x2 ![] bcast_S_S100000x2 : (⟨S_, .i32⟩ : BufTy).Contents (Elt F) → (⟨S100000x2, .i32⟩ : BufTy).Contents (Elt F)),
    StableHlo.binary main_arg0 main_v8 main_v9 (addi : (⟨S100000x2, .i32⟩ : BufTy).Contents (Elt F) → (⟨S100000x2, .i32⟩ : BufTy).Contents (Elt F) → (⟨S100000x2, .i32⟩ : BufTy).Contents (Elt F)),
    StableHlo.ternary main_v7 main_v9 main_arg0 main_v10 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v10 main_v11 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v5 main_v11 main_v12 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst (constant S_ .f32 0x00000000#32),
    StableHlo.binary main_v12 main_cst main_v13 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.unary main_arg8 main_v14 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v14 main_v15 rfl shapeCasts_S1x64x64_S64x64,
    StableHlo.unary main_arg9 main_v16 ((extractStridedSlice S1x64x192 ![0, 0, 0] · slices_S5x64x192_S1x64x192_0_0_0) : (⟨S5x64x192, .f32⟩ : BufTy).Contents (Elt F) → (⟨S1x64x192, .f32⟩ : BufTy).Contents (Elt F)),
    StableHlo.reshape main_v16 main_v17 rfl shapeCasts_S1x64x192_S64x192,
    StableHlo.unary main_arg10 main_v18 ((extractStridedSlice S1x192 ![0, 0] · slices_S5x192_S1x192_0_0) : (⟨S5x192, .f32⟩ : BufTy).Contents (Elt F) → (⟨S1x192, .f32⟩ : BufTy).Contents (Elt F)),
    StableHlo.reshape main_v18 main_v19 rfl shapeCasts_S1x192_S192,
    StableHlo.unary main_arg11 main_v20 ((extractStridedSlice S1x64x192 ![0, 0, 0] · slices_S5x64x192_S1x64x192_0_0_0) : (⟨S5x64x192, .f32⟩ : BufTy).Contents (Elt F) → (⟨S1x64x192, .f32⟩ : BufTy).Contents (Elt F)),
    StableHlo.reshape main_v20 main_v21 rfl shapeCasts_S1x64x192_S64x192,
    StableHlo.unary main_arg12 main_v22 ((extractStridedSlice S1x192 ![0, 0] · slices_S5x192_S1x192_0_0) : (⟨S5x192, .f32⟩ : BufTy).Contents (Elt F) → (⟨S1x192, .f32⟩ : BufTy).Contents (Elt F)),
    StableHlo.reshape main_v22 main_v23 rfl shapeCasts_S1x192_S192 ]
theorem opsC0_sub : (opsC0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem opsC0_fresh : (opsC0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC0_W : List (Ref sig .tc) :=
  [main_v0, main_v1, main_v2, main_v3, main_v4, main_v5, main_c, main_v6, main_v7, main_c_0, main_v8, main_v9, main_v10, main_v11, main_v12, main_cst, main_v13, main_v14, main_v15, main_v16, main_v17, main_v18, main_v19, main_v20, main_v21, main_v22, main_v23]
theorem opsC0_writes : (opsC0 : List (HloOp τ sig (Elt F))).Forall fun op => op.writes ⊆ ((opsC0_W).map (Proc.devRef (τ := τ) .tc)).toFinset :=
  ⟨writes_sub_of_mem (y := main_v0) rfl (.head _), writes_sub_of_mem (y := main_v1) rfl (.tail _ (.head _)), writes_sub_of_mem (y := main_v2) rfl (.tail _ (.tail _ (.head _))), writes_sub_of_mem (y := main_v3) rfl (.tail _ (.tail _ (.tail _ (.head _)))), writes_sub_of_mem (y := main_v4) rfl (.tail _ (.tail _ (.tail _ (.tail _ (.head _))))), writes_sub_of_mem (y := main_v5) rfl (.tail _ (.tail _ (.tail _ (.tail _ (.tail _ (.head _)))))), writes_sub_of_mem (y := main_c) rfl (.tail _ (.tail _ (.tail _ (.tail _ (.tail _ (.tail _ (.head _))))))), writes_sub_of_mem (y := main_v6) rfl (.tail _ (.tail _ (.tail _ (.tail _ (.tail _ (.tail _ (.tail _ (.head _)))))))), writes_sub_of_mem (y := main_v7) rfl (.tail _ (.tail _ (.tail _ (.tail _ (.tail _ (.tail _ (.tail _ (.tail _ (.head _))))))))), writes_sub_of_mem (y := main_c_0) rfl (.tail _ (.tail _ (.tail _ (.tail _ (.tail _ (.tail _ (.tail _ (.tail _ (.tail _ (.head _)))))))))), writes_sub_of_mem (y := main_v8) rfl (.tail _ (.tail _ (.tail _ (.tail _ (.tail _ (.tail _ (.tail _ (.tail _ (.tail _ (.tail _ (.head _))))))))))), writes_sub_of_mem (y := main_v9) rfl (.tail _ (.tail _ (.tail _ (.tail _ (.tail _ (.tail _ (.tail _ (.tail _ (.tail _ (.tail _ (.tail _ (.head _)))))))))))), writes_sub_of_mem (y := main_v10) rfl (.tail _ (.tail _ (.tail _ (.tail _ (.tail _ (.tail _ (.tail _ (.tail _ (.tail _ (.tail _ (.tail _ (.tail _ (.head _))))))))))))), writes_sub_of_mem (y := main_v11) rfl (.tail _ (.tail _ (.tail _ (.tail _ (.tail _ (.tail _ (.tail _ (.tail _ (.tail _ (.tail _ (.tail _ (.tail _ (.tail _ (.head _)))))))))))))), writes_sub_of_mem (y := main_v12) rfl (.tail _ (.tail _ (.tail _ (.tail _ (.tail _ (.tail _ (.tail _ (.tail _ (.tail _ (.tail _ (.tail _ (.tail _ (.tail _ (.tail _ (.head _))))))))))))))), writes_sub_of_mem (y := main_cst) rfl (.tail _ (.tail _ (.tail _ (.tail _ (.tail _ (.tail _ (.tail _ (.tail _ (.tail _ (.tail _ (.tail _ (.tail _ (.tail _ (.tail _ (.tail _ (.head _)))))))))))))))), writes_sub_of_mem (y := main_v13) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_v14) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v15) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v16) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_v17) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v18) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v19) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v20) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v21) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v22) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_v23) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))⟩
/-- A buffer the stretch does not write keeps its contents, from any contents. -/
theorem opsC0_keeps (V : Valuation τ sig (Elt F)) {r : Ref sig .tc} (hr : r ∉ opsC0_W) :
    after (opsC0 : List (HloOp τ sig (Elt F))) V (Proc.devRef .tc r) = V (Proc.devRef .tc r) :=
  after_of_writes_sub opsC0 V opsC0_writes hr
/-- The stretch writes no argument of @main: its buffers come after the twenty-seven arguments. -/
theorem opsC0_W_ge : ∀ r ∈ opsC0_W, 27 ≤ r.idx.val := by decide +kernel
theorem opsC0_W_args : ∀ r ∈ mainArgs, r ∉ opsC0_W :=
  fun r hr hW => absurd (opsC0_W_ge r hW) (Nat.not_le.mpr (mainArgs_lt r hr))

/-- %24: layer 0's message product (1 operation). -/
abbrev opsC1 : List (HloOp τ sig (Elt F)) :=
  [ StableHlo.binary main_v13 main_v15 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem opsC1_sub : (opsC1 : List (HloOp τ sig (Elt F))).Forall fun op => op.bufs ⊆ tcRefs τ sig :=
  binary_bufs_sub ..
theorem opsC1_fresh : (opsC1 : List (HloOp τ sig (Elt F))).Forall fun op => op.fresh = ∅ :=
  rfl
/-- The buffers the stretch writes, one per operation, in order. -/
abbrev opsC1_W : List (Ref sig .tc) :=
  [main_v24]
theorem opsC1_writes : (opsC1 : List (HloOp τ sig (Elt F))).Forall fun op => op.writes ⊆ ((opsC1_W).map (Proc.devRef (τ := τ) .tc)).toFinset :=
  writes_sub_of_mem (y := main_v24) rfl (.head _)
/-- A buffer the stretch does not write keeps its contents, from any contents. -/
theorem opsC1_keeps (V : Valuation τ sig (Elt F)) {r : Ref sig .tc} (hr : r ∉ opsC1_W) :
    after (opsC1 : List (HloOp τ sig (Elt F))) V (Proc.devRef .tc r) = V (Proc.devRef .tc r) :=
  after_of_writes_sub opsC1 V opsC1_writes hr
/-- The stretch writes no argument of @main: its buffers come after the twenty-seven arguments. -/
theorem opsC1_W_ge : ∀ r ∈ opsC1_W, 27 ≤ r.idx.val := by decide +kernel
theorem opsC1_W_args : ∀ r ∈ mainArgs, r ∉ opsC1_W :=
  fun r hr hW => absurd (opsC1_W_ge r hW) (Nat.not_le.mpr (mainArgs_lt r hr))

/-- %c_1 … %34: layer 0's messages gathered along the edges' sources and added at their targets (13 operations). -/
abbrev opsC2 : List (HloOp τ sig (Elt F)) :=
  [ StableHlo.nullary main_c_1 (constantI S_ 32 0#32),
    StableHlo.unary main_c_1 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_3 (constant S_ .f32 0x00000000#32),
    StableHlo.unary main_cst_3 main_v32 (broadcastInDim S100000x64 ![] bcast_S_S100000x64 : (⟨S_, .f32⟩ : BufTy).Contents (Elt F) → (⟨S100000x64, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC2_sub : (opsC2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsC2_fresh : (opsC2 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC2_W : List (Ref sig .tc) :=
  [main_c_1, main_v25, main_v26, main_c_2, main_v27, main_v28, main_v29, main_v30, main_v31, main_cst_3, main_v32, main_v33, main_v34]
theorem opsC2_writes : (opsC2 : List (HloOp τ sig (Elt F))).Forall fun op => op.writes ⊆ ((opsC2_W).map (Proc.devRef (τ := τ) .tc)).toFinset :=
  ⟨writes_sub_of_mem (y := main_c_1) rfl (.head _), writes_sub_of_mem (y := main_v25) rfl (.tail _ (.head _)), writes_sub_of_mem (y := main_v26) rfl (.tail _ (.tail _ (.head _))), writes_sub_of_mem (y := main_c_2) rfl (.tail _ (.tail _ (.tail _ (.head _)))), writes_sub_of_mem (y := main_v27) rfl (.tail _ (.tail _ (.tail _ (.tail _ (.head _))))), writes_sub_of_mem (y := main_v28) rfl (.tail _ (.tail _ (.tail _ (.tail _ (.tail _ (.head _)))))), writes_sub_of_mem (y := main_v29) rfl (.tail _ (.tail _ (.tail _ (.tail _ (.tail _ (.tail _ (.head _))))))), writes_sub_of_mem (y := main_v30) rfl (.tail _ (.tail _ (.tail _ (.tail _ (.tail _ (.tail _ (.tail _ (.head _)))))))), writes_sub_of_mem (y := main_v31) rfl (.tail _ (.tail _ (.tail _ (.tail _ (.tail _ (.tail _ (.tail _ (.tail _ (.head _))))))))), writes_sub_of_mem (y := main_cst_3) rfl (.tail _ (.tail _ (.tail _ (.tail _ (.tail _ (.tail _ (.tail _ (.tail _ (.tail _ (.head _)))))))))), writes_sub_of_mem (y := main_v32) rfl (.tail _ (.tail _ (.tail _ (.tail _ (.tail _ (.tail _ (.tail _ (.tail _ (.tail _ (.tail _ (.head _))))))))))), writes_sub_of_mem (y := main_v33) rfl (.tail _ (.tail _ (.tail _ (.tail _ (.tail _ (.tail _ (.tail _ (.tail _ (.tail _ (.tail _ (.tail _ (.head _)))))))))))), writes_sub_of_mem (y := main_v34) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC2_keeps (V : Valuation τ sig (Elt F)) {r : Ref sig .tc} (hr : r ∉ opsC2_W) :
    after (opsC2 : List (HloOp τ sig (Elt F))) V (Proc.devRef .tc r) = V (Proc.devRef .tc r) :=
  after_of_writes_sub opsC2 V opsC2_writes hr
/-- The stretch writes no argument of @main: its buffers come after the twenty-seven arguments. -/
theorem opsC2_W_ge : ∀ r ∈ opsC2_W, 27 ≤ r.idx.val := by decide +kernel
theorem opsC2_W_args : ∀ r ∈ mainArgs, r ∉ opsC2_W :=
  fun r hr hW => absurd (opsC2_W_ge r hW) (Nat.not_le.mpr (mainArgs_lt r hr))

/-- %35 … %70: layer 0's gated update (41 operations). -/
abbrev opsC3 : List (HloOp τ sig (Elt F)) :=
  [ StableHlo.binary main_v34 main_v17 main_v35 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v19 main_v36 (broadcastInDim S1x192 ![1] bcast_S192_S1x192_1 : (⟨S192, .f32⟩ : BufTy).Contents (Elt F) → (⟨S1x192, .f32⟩ : BufTy).Contents (Elt F)),
    StableHlo.unary main_v36 main_v37 (broadcastInDim S100000x192 ![0, 1] bcast_S1x192_S100000x192_0_1 : (⟨S1x192, .f32⟩ : BufTy).Contents (Elt F) → (⟨S100000x192, .f32⟩ : BufTy).Contents (Elt F)),
    StableHlo.binary main_v35 main_v37 main_v38 (addf : (⟨S100000x192, .f32⟩ : BufTy).Contents (Elt F) → (⟨S100000x192, .f32⟩ : BufTy).Contents (Elt F) → (⟨S100000x192, .f32⟩ : BufTy).Contents (Elt F)),
    StableHlo.binary main_v13 main_v21 main_v39 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v23 main_v40 (broadcastInDim S1x192 ![1] bcast_S192_S1x192_1 : (⟨S192, .f32⟩ : BufTy).Contents (Elt F) → (⟨S1x192, .f32⟩ : BufTy).Contents (Elt F)),
    StableHlo.unary main_v40 main_v41 (broadcastInDim S100000x192 ![0, 1] bcast_S1x192_S100000x192_0_1 : (⟨S1x192, .f32⟩ : BufTy).Contents (Elt F) → (⟨S100000x192, .f32⟩ : BufTy).Contents (Elt F)),
    StableHlo.binary main_v39 main_v41 main_v42 (addf : (⟨S100000x192, .f32⟩ : BufTy).Contents (Elt F) → (⟨S100000x192, .f32⟩ : BufTy).Contents (Elt F) → (⟨S100000x192, .f32⟩ : BufTy).Contents (Elt F)),
    StableHlo.unary main_v38 main_v43 ((extractStridedSlice S100000x64 ![0, 0] · slices_S100000x192_S100000x64_0_0) : (⟨S100000x192, .f32⟩ : BufTy).Contents (Elt F) → (⟨S100000x64, .f32⟩ : BufTy).Contents (Elt F)),
    StableHlo.unary main_v38 main_v44 ((extractStridedSlice S100000x64 ![0, 64] · slices_S100000x192_S100000x64_0_64) : (⟨S100000x192, .f32⟩ : BufTy).Contents (Elt F) → (⟨S100000x64, .f32⟩ : BufTy).Contents (Elt F)),
    StableHlo.unary main_v38 main_v45 ((extractStridedSlice S100000x64 ![0, 128] · slices_S100000x192_S100000x64_0_128) : (⟨S100000x192, .f32⟩ : BufTy).Contents (Elt F) → (⟨S100000x64, .f32⟩ : BufTy).Contents (Elt F)),
    StableHlo.unary main_v42 main_v46 ((extractStridedSlice S100000x64 ![0, 0] · slices_S100000x192_S100000x64_0_0) : (⟨S100000x192, .f32⟩ : BufTy).Contents (Elt F) → (⟨S100000x64, .f32⟩ : BufTy).Contents (Elt F)),
    StableHlo.unary main_v42 main_v47 ((extractStridedSlice S100000x64 ![0, 64] · slices_S100000x192_S100000x64_0_64) : (⟨S100000x192, .f32⟩ : BufTy).Contents (Elt F) → (⟨S100000x64, .f32⟩ : BufTy).Contents (Elt F)),
    StableHlo.unary main_v42 main_v48 ((extractStridedSlice S100000x64 ![0, 128] · slices_S100000x192_S100000x64_0_128) : (⟨S100000x192, .f32⟩ : BufTy).Contents (Elt F) → (⟨S100000x64, .f32⟩ : BufTy).Contents (Elt F)),
    StableHlo.binary main_v43 main_v46 main_v49 (addf : (⟨S100000x64, .f32⟩ : BufTy).Contents (Elt F) → (⟨S100000x64, .f32⟩ : BufTy).Contents (Elt F) → (⟨S100000x64, .f32⟩ : BufTy).Contents (Elt F)),
    StableHlo.unary main_v49 main_v50 (Host.negf : (⟨S100000x64, .f32⟩ : BufTy).Contents (Elt F) → (⟨S100000x64, .f32⟩ : BufTy).Contents (Elt F)),
    StableHlo.unary main_v50 main_v51 (Host.exp : (⟨S100000x64, .f32⟩ : BufTy).Contents (Elt F) → (⟨S100000x64, .f32⟩ : BufTy).Contents (Elt F)),
    StableHlo.nullary main_cst_4 (constant S_ .f32 0x3F800000#32),
    StableHlo.unary main_cst_4 main_v52 (broadcastInDim S100000x64 ![] bcast_S_S100000x64 : (⟨S_, .f32⟩ : BufTy).Contents (Elt F) → (⟨S100000x64, .f32⟩ : BufTy).Contents (Elt F)),
    StableHlo.binary main_v52 main_v51 main_v53 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3F800000#32),
    StableHlo.unary main_cst_5 main_v54 (broadcastInDim S100000x64 ![] bcast_S_S100000x64 : (⟨S_, .f32⟩ : BufTy).Contents (Elt F) → (⟨S100000x64, .f32⟩ : BufTy).Contents (Elt F)),
    StableHlo.binary main_v54 main_v53 main_v55 (Host.divf : (⟨S100000x64, .f32⟩ : BufTy).Contents (Elt F) → (⟨S100000x64, .f32⟩ : BufTy).Contents (Elt F) → (⟨S100000x64, .f32⟩ : BufTy).Contents (Elt F)),
    StableHlo.binary main_v44 main_v47 main_v56 (addf : (⟨S100000x64, .f32⟩ : BufTy).Contents (Elt F) → (⟨S100000x64, .f32⟩ : BufTy).Contents (Elt F) → (⟨S100000x64, .f32⟩ : BufTy).Contents (Elt F)),
    StableHlo.unary main_v56 main_v57 (Host.negf : (⟨S100000x64, .f32⟩ : BufTy).Contents (Elt F) → (⟨S100000x64, .f32⟩ : BufTy).Contents (Elt F)),
    StableHlo.unary main_v57 main_v58 (Host.exp : (⟨S100000x64, .f32⟩ : BufTy).Contents (Elt F) → (⟨S100000x64, .f32⟩ : BufTy).Contents (Elt F)),
    StableHlo.nullary main_cst_6 (constant S_ .f32 0x3F800000#32),
    StableHlo.unary main_cst_6 main_v59 (broadcastInDim S100000x64 ![] bcast_S_S100000x64 : (⟨S_, .f32⟩ : BufTy).Contents (Elt F) → (⟨S100000x64, .f32⟩ : BufTy).Contents (Elt F)),
    StableHlo.binary main_v59 main_v58 main_v60 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3F800000#32),
    StableHlo.unary main_cst_7 main_v61 (broadcastInDim S100000x64 ![] bcast_S_S100000x64 : (⟨S_, .f32⟩ : BufTy).Contents (Elt F) → (⟨S100000x64, .f32⟩ : BufTy).Contents (Elt F)),
    StableHlo.binary main_v61 main_v60 main_v62 (Host.divf : (⟨S100000x64, .f32⟩ : BufTy).Contents (Elt F) → (⟨S100000x64, .f32⟩ : BufTy).Contents (Elt F) → (⟨S100000x64, .f32⟩ : BufTy).Contents (Elt F)),
    StableHlo.binary main_v55 main_v48 main_v63 (mulf : (⟨S100000x64, .f32⟩ : BufTy).Contents (Elt F) → (⟨S100000x64, .f32⟩ : BufTy).Contents (Elt F) → (⟨S100000x64, .f32⟩ : BufTy).Contents (Elt F)),
    StableHlo.binary main_v45 main_v63 main_v64 (addf : (⟨S100000x64, .f32⟩ : BufTy).Contents (Elt F) → (⟨S100000x64, .f32⟩ : BufTy).Contents (Elt F) → (⟨S100000x64, .f32⟩ : BufTy).Contents (Elt F)),
    StableHlo.unary main_v64 main_v65 (Host.tanh : (⟨S100000x64, .f32⟩ : BufTy).Contents (Elt F) → (⟨S100000x64, .f32⟩ : BufTy).Contents (Elt F)),
    StableHlo.nullary main_cst_8 (constant S_ .f32 0x3F800000#32),
    StableHlo.unary main_cst_8 main_v66 (broadcastInDim S100000x64 ![] bcast_S_S100000x64 : (⟨S_, .f32⟩ : BufTy).Contents (Elt F) → (⟨S100000x64, .f32⟩ : BufTy).Contents (Elt F)),
    StableHlo.binary main_v66 main_v62 main_v67 (subf : (⟨S100000x64, .f32⟩ : BufTy).Contents (Elt F) → (⟨S100000x64, .f32⟩ : BufTy).Contents (Elt F) → (⟨S100000x64, .f32⟩ : BufTy).Contents (Elt F)),
    StableHlo.binary main_v67 main_v65 main_v68 (mulf : (⟨S100000x64, .f32⟩ : BufTy).Contents (Elt F) → (⟨S100000x64, .f32⟩ : BufTy).Contents (Elt F) → (⟨S100000x64, .f32⟩ : BufTy).Contents (Elt F)),
    StableHlo.binary main_v62 main_v13 main_v69 (mulf : (⟨S100000x64, .f32⟩ : BufTy).Contents (Elt F) → (⟨S100000x64, .f32⟩ : BufTy).Contents (Elt F) → (⟨S100000x64, .f32⟩ : BufTy).Contents (Elt F)),
    StableHlo.binary main_v68 main_v69 main_v70 (addf : (⟨S100000x64, .f32⟩ : BufTy).Contents (Elt F) → (⟨S100000x64, .f32⟩ : BufTy).Contents (Elt F) → (⟨S100000x64, .f32⟩ : BufTy).Contents (Elt F)) ]
theorem opsC3_sub : (opsC3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsC3_fresh : (opsC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC3_W : List (Ref sig .tc) :=
  [main_v35, main_v36, main_v37, main_v38, main_v39, main_v40, main_v41, main_v42, main_v43, main_v44, main_v45, main_v46, main_v47, main_v48, main_v49, main_v50, main_v51, main_cst_4, main_v52, main_v53, main_cst_5, main_v54, main_v55, main_v56, main_v57, main_v58, main_cst_6, main_v59, main_v60, main_cst_7, main_v61, main_v62, main_v63, main_v64, main_v65, main_cst_8, main_v66, main_v67, main_v68, main_v69, main_v70]
theorem opsC3_writes : (opsC3 : List (HloOp τ sig (Elt F))).Forall fun op => op.writes ⊆ ((opsC3_W).map (Proc.devRef (τ := τ) .tc)).toFinset :=
  ⟨writes_sub_of_mem (y := main_v35) rfl (.head _), writes_sub_of_mem (y := main_v36) rfl (.tail _ (.head _)), writes_sub_of_mem (y := main_v37) rfl (.tail _ (.tail _ (.head _))), writes_sub_of_mem (y := main_v38) rfl (.tail _ (.tail _ (.tail _ (.head _)))), writes_sub_of_mem (y := main_v39) rfl (.tail _ (.tail _ (.tail _ (.tail _ (.head _))))), writes_sub_of_mem (y := main_v40) rfl (.tail _ (.tail _ (.tail _ (.tail _ (.tail _ (.head _)))))), writes_sub_of_mem (y := main_v41) rfl (.tail _ (.tail _ (.tail _ (.tail _ (.tail _ (.tail _ (.head _))))))), writes_sub_of_mem (y := main_v42) rfl (.tail _ (.tail _ (.tail _ (.tail _ (.tail _ (.tail _ (.tail _ (.head _)))))))), writes_sub_of_mem (y := main_v43) rfl (.tail _ (.tail _ (.tail _ (.tail _ (.tail _ (.tail _ (.tail _ (.tail _ (.head _))))))))), writes_sub_of_mem (y := main_v44) rfl (.tail _ (.tail _ (.tail _ (.tail _ (.tail _ (.tail _ (.tail _ (.tail _ (.tail _ (.head _)))))))))), writes_sub_of_mem (y := main_v45) rfl (.tail _ (.tail _ (.tail _ (.tail _ (.tail _ (.tail _ (.tail _ (.tail _ (.tail _ (.tail _ (.head _))))))))))), writes_sub_of_mem (y := main_v46) rfl (.tail _ (.tail _ (.tail _ (.tail _ (.tail _ (.tail _ (.tail _ (.tail _ (.tail _ (.tail _ (.tail _ (.head _)))))))))))), writes_sub_of_mem (y := main_v47) rfl (.tail _ (.tail _ (.tail _ (.tail _ (.tail _ (.tail _ (.tail _ (.tail _ (.tail _ (.tail _ (.tail _ (.tail _ (.head _))))))))))))), writes_sub_of_mem (y := main_v48) rfl (.tail _ (.tail _ (.tail _ (.tail _ (.tail _ (.tail _ (.tail _ (.tail _ (.tail _ (.tail _ (.tail _ (.tail _ (.tail _ (.head _)))))))))))))), writes_sub_of_mem (y := main_v49) rfl (.tail _ (.tail _ (.tail _ (.tail _ (.tail _ (.tail _ (.tail _ (.tail _ (.tail _ (.tail _ (.tail _ (.tail _ (.tail _ (.tail _ (.head _))))))))))))))), writes_sub_of_mem (y := main_v50) rfl (.tail _ (.tail _ (.tail _ (.tail _ (.tail _ (.tail _ (.tail _ (.tail _ (.tail _ (.tail _ (.tail _ (.tail _ (.tail _ (.tail _ (.tail _ (.head _)))))))))))))))), writes_sub_of_mem (y := main_v51) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_cst_4) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v52) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v53) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_cst_5) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v54) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v55) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v56) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v57) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v58) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_cst_6) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_v59) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_v60) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_cst_7) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_v61) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_v62) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_v63) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_v64) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_v65) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_cst_8) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_v66) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v67) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v68) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v69) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v70) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))⟩
/-- A buffer the stretch does not write keeps its contents, from any contents. -/
theorem opsC3_keeps (V : Valuation τ sig (Elt F)) {r : Ref sig .tc} (hr : r ∉ opsC3_W) :
    after (opsC3 : List (HloOp τ sig (Elt F))) V (Proc.devRef .tc r) = V (Proc.devRef .tc r) :=
  after_of_writes_sub opsC3 V opsC3_writes hr
/-- The stretch writes no argument of @main: its buffers come after the twenty-seven arguments. -/
theorem opsC3_W_ge : ∀ r ∈ opsC3_W, 27 ≤ r.idx.val := by decide +kernel
theorem opsC3_W_args : ∀ r ∈ mainArgs, r ∉ opsC3_W :=
  fun r hr hW => absurd (opsC3_W_ge r hW) (Nat.not_le.mpr (mainArgs_lt r hr))

/-- %71 … %80: layer 1's embedding rows gathered and summed (13 operations). -/
abbrev opsC4 : List (HloOp τ sig (Elt F)) :=
  [ StableHlo.unary main_arg5 main_v71 ((extractStridedSlice S1x100x64 ![1, 0, 0] · slices_S5x100x64_S1x100x64_1_0_0) : (⟨S5x100x64, .f32⟩ : BufTy).Contents (Elt F) → (⟨S1x100x64, .f32⟩ : BufTy).Contents (Elt F)),
    StableHlo.reshape main_v71 main_v72 rfl shapeCasts_S1x100x64_S100x64,
    StableHlo.nullary main_c_9 (constantI S_ 32 0#32),
    StableHlo.unary main_c_9 main_v73 (broadcastInDim S100000x2 ![] bcast_S_S100000x2 : (⟨S_, .i32⟩ : BufTy).Contents (Elt F) → (⟨S100000x2, .i32⟩ : BufTy).Contents (Elt F)),
    StableHlo.binary main_arg0 main_v73 main_v74 (cmpi .slt : (⟨S100000x2, .i32⟩ : BufTy).Contents (Elt F) → (⟨S100000x2, .i32⟩ : BufTy).Contents (Elt F) → (⟨S100000x2, .i1⟩ : BufTy).Contents (Elt F)),
    StableHlo.nullary main_c_10 (constantI S_ 32 100#32),
    StableHlo.unary main_c_10 main_v75 (broadcastInDim S100000x2 ![] bcast_S_S100000x2 : (⟨S_, .i32⟩ : BufTy).Contents (Elt F) → (⟨S100000x2, .i32⟩ : BufTy).Contents (Elt F)),
    StableHlo.binary main_arg0 main_v75 main_v76 (addi : (⟨S100000x2, .i32⟩ : BufTy).Contents (Elt F) → (⟨S100000x2, .i32⟩ : BufTy).Contents (Elt F) → (⟨S100000x2, .i32⟩ : BufTy).Contents (Elt F)),
    StableHlo.ternary main_v74 main_v76 main_arg0 main_v77 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v77 main_v78 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v72 main_v78 main_v79 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_11 (constant S_ .f32 0x00000000#32),
    StableHlo.binary main_v79 main_cst_11 main_v80 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)) ]
theorem opsC4_sub : (opsC4 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub ..⟩
theorem opsC4_fresh : (opsC4 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC4_W : List (Ref sig .tc) :=
  [main_v71, main_v72, main_c_9, main_v73, main_v74, main_c_10, main_v75, main_v76, main_v77, main_v78, main_v79, main_cst_11, main_v80]
theorem opsC4_writes : (opsC4 : List (HloOp τ sig (Elt F))).Forall fun op => op.writes ⊆ ((opsC4_W).map (Proc.devRef (τ := τ) .tc)).toFinset :=
  ⟨writes_sub_of_mem (y := main_v71) rfl (.head _), writes_sub_of_mem (y := main_v72) rfl (.tail _ (.head _)), writes_sub_of_mem (y := main_c_9) rfl (.tail _ (.tail _ (.head _))), writes_sub_of_mem (y := main_v73) rfl (.tail _ (.tail _ (.tail _ (.head _)))), writes_sub_of_mem (y := main_v74) rfl (.tail _ (.tail _ (.tail _ (.tail _ (.head _))))), writes_sub_of_mem (y := main_c_10) rfl (.tail _ (.tail _ (.tail _ (.tail _ (.tail _ (.head _)))))), writes_sub_of_mem (y := main_v75) rfl (.tail _ (.tail _ (.tail _ (.tail _ (.tail _ (.tail _ (.head _))))))), writes_sub_of_mem (y := main_v76) rfl (.tail _ (.tail _ (.tail _ (.tail _ (.tail _ (.tail _ (.tail _ (.head _)))))))), writes_sub_of_mem (y := main_v77) rfl (.tail _ (.tail _ (.tail _ (.tail _ (.tail _ (.tail _ (.tail _ (.tail _ (.head _))))))))), writes_sub_of_mem (y := main_v78) rfl (.tail _ (.tail _ (.tail _ (.tail _ (.tail _ (.tail _ (.tail _ (.tail _ (.tail _ (.head _)))))))))), writes_sub_of_mem (y := main_v79) rfl (.tail _ (.tail _ (.tail _ (.tail _ (.tail _ (.tail _ (.tail _ (.tail _ (.tail _ (.tail _ (.head _))))))))))), writes_sub_of_mem (y := main_cst_11) rfl (.tail _ (.tail _ (.tail _ (.tail _ (.tail _ (.tail _ (.tail _ (.tail _ (.tail _ (.tail _ (.tail _ (.head _)))))))))))), writes_sub_of_mem (y := main_v80) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC4_keeps (V : Valuation τ sig (Elt F)) {r : Ref sig .tc} (hr : r ∉ opsC4_W) :
    after (opsC4 : List (HloOp τ sig (Elt F))) V (Proc.devRef .tc r) = V (Proc.devRef .tc r) :=
  after_of_writes_sub opsC4 V opsC4_writes hr
/-- The stretch writes no argument of @main: its buffers come after the twenty-seven arguments. -/
theorem opsC4_W_ge : ∀ r ∈ opsC4_W, 27 ≤ r.idx.val := by decide +kernel
theorem opsC4_W_args : ∀ r ∈ mainArgs, r ∉ opsC4_W :=
  fun r hr hW => absurd (opsC4_W_ge r hW) (Nat.not_le.mpr (mainArgs_lt r hr))

/-- %81 … %100: layer 1's concatenation, its linear map (%81–%89), the layer's weight slices (%90–%99), the message product (%100) (20 operations). -/
abbrev opsC5 : List (HloOp τ sig (Elt F)) :=
  [ StableHlo.binary main_v70 main_v80 main_v81 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v82 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v82 main_v83 rfl shapeCasts_S1x128x64_S128x64,
    StableHlo.binary main_v81 main_v83 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v85 ((extractStridedSlice S1x64 ![0, 0] · slices_S4x64_S1x64_0_0) : (⟨S4x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v88 main_v89 (addf : (⟨S100000x64, .f32⟩ : BufTy).Contents (Elt F) → (⟨S100000x64, .f32⟩ : BufTy).Contents (Elt F) → (⟨S100000x64, .f32⟩ : BufTy).Contents (Elt F)),
    StableHlo.unary main_arg8 main_v90 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v90 main_v91 rfl shapeCasts_S1x64x64_S64x64,
    StableHlo.unary main_arg9 main_v92 ((extractStridedSlice S1x64x192 ![1, 0, 0] · slices_S5x64x192_S1x64x192_1_0_0) : (⟨S5x64x192, .f32⟩ : BufTy).Contents (Elt F) → (⟨S1x64x192, .f32⟩ : BufTy).Contents (Elt F)),
    StableHlo.reshape main_v92 main_v93 rfl shapeCasts_S1x64x192_S64x192,
    StableHlo.unary main_arg10 main_v94 ((extractStridedSlice S1x192 ![1, 0] · slices_S5x192_S1x192_1_0) : (⟨S5x192, .f32⟩ : BufTy).Contents (Elt F) → (⟨S1x192, .f32⟩ : BufTy).Contents (Elt F)),
    StableHlo.reshape main_v94 main_v95 rfl shapeCasts_S1x192_S192,
    StableHlo.unary main_arg11 main_v96 ((extractStridedSlice S1x64x192 ![1, 0, 0] · slices_S5x64x192_S1x64x192_1_0_0) : (⟨S5x64x192, .f32⟩ : BufTy).Contents (Elt F) → (⟨S1x64x192, .f32⟩ : BufTy).Contents (Elt F)),
    StableHlo.reshape main_v96 main_v97 rfl shapeCasts_S1x64x192_S64x192,
    StableHlo.unary main_arg12 main_v98 ((extractStridedSlice S1x192 ![1, 0] · slices_S5x192_S1x192_1_0) : (⟨S5x192, .f32⟩ : BufTy).Contents (Elt F) → (⟨S1x192, .f32⟩ : BufTy).Contents (Elt F)),
    StableHlo.reshape main_v98 main_v99 rfl shapeCasts_S1x192_S192,
    StableHlo.binary main_v89 main_v91 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem opsC5_sub : (opsC5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub ..⟩
theorem opsC5_fresh : (opsC5 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the stretch writes, one per operation, in order. -/
abbrev opsC5_W : List (Ref sig .tc) :=
  [main_v81, main_v82, main_v83, main_v84, main_v85, main_v86, main_v87, main_v88, main_v89, main_v90, main_v91, main_v92, main_v93, main_v94, main_v95, main_v96, main_v97, main_v98, main_v99, main_v100]
theorem opsC5_writes : (opsC5 : List (HloOp τ sig (Elt F))).Forall fun op => op.writes ⊆ ((opsC5_W).map (Proc.devRef (τ := τ) .tc)).toFinset :=
  ⟨writes_sub_of_mem (y := main_v81) rfl (.head _), writes_sub_of_mem (y := main_v82) rfl (.tail _ (.head _)), writes_sub_of_mem (y := main_v83) rfl (.tail _ (.tail _ (.head _))), writes_sub_of_mem (y := main_v84) rfl (.tail _ (.tail _ (.tail _ (.head _)))), writes_sub_of_mem (y := main_v85) rfl (.tail _ (.tail _ (.tail _ (.tail _ (.head _))))), writes_sub_of_mem (y := main_v86) rfl (.tail _ (.tail _ (.tail _ (.tail _ (.tail _ (.head _)))))), writes_sub_of_mem (y := main_v87) rfl (.tail _ (.tail _ (.tail _ (.tail _ (.tail _ (.tail _ (.head _))))))), writes_sub_of_mem (y := main_v88) rfl (.tail _ (.tail _ (.tail _ (.tail _ (.tail _ (.tail _ (.tail _ (.head _)))))))), writes_sub_of_mem (y := main_v89) rfl (.tail _ (.tail _ (.tail _ (.tail _ (.tail _ (.tail _ (.tail _ (.tail _ (.head _))))))))), writes_sub_of_mem (y := main_v90) rfl (.tail _ (.tail _ (.tail _ (.tail _ (.tail _ (.tail _ (.tail _ (.tail _ (.tail _ (.head _)))))))))), writes_sub_of_mem (y := main_v91) rfl (.tail _ (.tail _ (.tail _ (.tail _ (.tail _ (.tail _ (.tail _ (.tail _ (.tail _ (.tail _ (.head _))))))))))), writes_sub_of_mem (y := main_v92) rfl (.tail _ (.tail _ (.tail _ (.tail _ (.tail _ (.tail _ (.tail _ (.tail _ (.tail _ (.tail _ (.tail _ (.head _)))))))))))), writes_sub_of_mem (y := main_v93) rfl (.tail _ (.tail _ (.tail _ (.tail _ (.tail _ (.tail _ (.tail _ (.tail _ (.tail _ (.tail _ (.tail _ (.tail _ (.head _))))))))))))), writes_sub_of_mem (y := main_v94) rfl (.tail _ (.tail _ (.tail _ (.tail _ (.tail _ (.tail _ (.tail _ (.tail _ (.tail _ (.tail _ (.tail _ (.tail _ (.tail _ (.head _)))))))))))))), writes_sub_of_mem (y := main_v95) rfl (.tail _ (.tail _ (.tail _ (.tail _ (.tail _ (.tail _ (.tail _ (.tail _ (.tail _ (.tail _ (.tail _ (.tail _ (.tail _ (.tail _ (.head _))))))))))))))), writes_sub_of_mem (y := main_v96) rfl (.tail _ (.tail _ (.tail _ (.tail _ (.tail _ (.tail _ (.tail _ (.tail _ (.tail _ (.tail _ (.tail _ (.tail _ (.tail _ (.tail _ (.tail _ (.head _)))))))))))))))), writes_sub_of_mem (y := main_v97) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_v98) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v99) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v100) rfl (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩
/-- A buffer the stretch does not write keeps its contents, from any contents. -/
theorem opsC5_keeps (V : Valuation τ sig (Elt F)) {r : Ref sig .tc} (hr : r ∉ opsC5_W) :
    after (opsC5 : List (HloOp τ sig (Elt F))) V (Proc.devRef .tc r) = V (Proc.devRef .tc r) :=
  after_of_writes_sub opsC5 V opsC5_writes hr
/-- The stretch writes no argument of @main: its buffers come after the twenty-seven arguments. -/
theorem opsC5_W_ge : ∀ r ∈ opsC5_W, 27 ≤ r.idx.val := by decide +kernel
theorem opsC5_W_args : ∀ r ∈ mainArgs, r ∉ opsC5_W :=
  fun r hr hW => absurd (opsC5_W_ge r hW) (Nat.not_le.mpr (mainArgs_lt r hr))

/-- %c_12 … %110: layer 1's messages gathered and added (13 operations). -/
abbrev opsC6 : List (HloOp τ sig (Elt F)) :=
  [ StableHlo.nullary main_c_12 (constantI S_ 32 0#32),
    StableHlo.unary main_c_12 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v103 (broadcastInDim S1600000 ![] bcast_S_S1600000 : (⟨S_, .i32⟩ : BufTy).Contents (Elt F) → (⟨S1600000, .i32⟩ : BufTy).Contents (Elt F)),
    StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v100 main_v106 main_v107 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v108 (broadcastInDim S100000x64 ![] bcast_S_S100000x64 : (⟨S_, .f32⟩ : BufTy).Contents (Elt F) → (⟨S100000x64, .f32⟩ : BufTy).Contents (Elt F)),
    StableHlo.unary main_v3 main_v109 (broadcastInDim S1600000x1 ![0] bcast_S1600000_S1600000x1_0 : (⟨S1600000, .i32⟩ : BufTy).Contents (Elt F) → (⟨S1600000x1, .i32⟩ : BufTy).Contents (Elt F)),
    StableHlo.ternary main_v108 main_v109 main_v107 main_v110 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC6_sub : (opsC6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsC6_fresh : (opsC6 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC6_W : List (Ref sig .tc) :=
  [main_c_12, main_v101, main_v102, main_c_13, main_v103, main_v104, main_v105, main_v106, main_v107, main_cst_14, main_v108, main_v109, main_v110]
theorem opsC6_writes : (opsC6 : List (HloOp τ sig (Elt F))).Forall fun op => op.writes ⊆ ((opsC6_W).map (Proc.devRef (τ := τ) .tc)).toFinset :=
  ⟨writes_sub_of_mem (y := main_c_12) rfl (.head _), writes_sub_of_mem (y := main_v101) rfl (.tail _ (.head _)), writes_sub_of_mem (y := main_v102) rfl (.tail _ (.tail _ (.head _))), writes_sub_of_mem (y := main_c_13) rfl (.tail _ (.tail _ (.tail _ (.head _)))), writes_sub_of_mem (y := main_v103) rfl (.tail _ (.tail _ (.tail _ (.tail _ (.head _))))), writes_sub_of_mem (y := main_v104) rfl (.tail _ (.tail _ (.tail _ (.tail _ (.tail _ (.head _)))))), writes_sub_of_mem (y := main_v105) rfl (.tail _ (.tail _ (.tail _ (.tail _ (.tail _ (.tail _ (.head _))))))), writes_sub_of_mem (y := main_v106) rfl (.tail _ (.tail _ (.tail _ (.tail _ (.tail _ (.tail _ (.tail _ (.head _)))))))), writes_sub_of_mem (y := main_v107) rfl (.tail _ (.tail _ (.tail _ (.tail _ (.tail _ (.tail _ (.tail _ (.tail _ (.head _))))))))), writes_sub_of_mem (y := main_cst_14) rfl (.tail _ (.tail _ (.tail _ (.tail _ (.tail _ (.tail _ (.tail _ (.tail _ (.tail _ (.head _)))))))))), writes_sub_of_mem (y := main_v108) rfl (.tail _ (.tail _ (.tail _ (.tail _ (.tail _ (.tail _ (.tail _ (.tail _ (.tail _ (.tail _ (.head _))))))))))), writes_sub_of_mem (y := main_v109) rfl (.tail _ (.tail _ (.tail _ (.tail _ (.tail _ (.tail _ (.tail _ (.tail _ (.tail _ (.tail _ (.tail _ (.head _)))))))))))), writes_sub_of_mem (y := main_v110) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC6_keeps (V : Valuation τ sig (Elt F)) {r : Ref sig .tc} (hr : r ∉ opsC6_W) :
    after (opsC6 : List (HloOp τ sig (Elt F))) V (Proc.devRef .tc r) = V (Proc.devRef .tc r) :=
  after_of_writes_sub opsC6 V opsC6_writes hr
/-- The stretch writes no argument of @main: its buffers come after the twenty-seven arguments. -/
theorem opsC6_W_ge : ∀ r ∈ opsC6_W, 27 ≤ r.idx.val := by decide +kernel
theorem opsC6_W_args : ∀ r ∈ mainArgs, r ∉ opsC6_W :=
  fun r hr hW => absurd (opsC6_W_ge r hW) (Nat.not_le.mpr (mainArgs_lt r hr))

/-- %111 … %146: layer 1's gated update (41 operations). -/
abbrev opsC7 : List (HloOp τ sig (Elt F)) :=
  [ StableHlo.binary main_v110 main_v93 main_v111 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v95 main_v112 (broadcastInDim S1x192 ![1] bcast_S192_S1x192_1 : (⟨S192, .f32⟩ : BufTy).Contents (Elt F) → (⟨S1x192, .f32⟩ : BufTy).Contents (Elt F)),
    StableHlo.unary main_v112 main_v113 (broadcastInDim S100000x192 ![0, 1] bcast_S1x192_S100000x192_0_1 : (⟨S1x192, .f32⟩ : BufTy).Contents (Elt F) → (⟨S100000x192, .f32⟩ : BufTy).Contents (Elt F)),
    StableHlo.binary main_v111 main_v113 main_v114 (addf : (⟨S100000x192, .f32⟩ : BufTy).Contents (Elt F) → (⟨S100000x192, .f32⟩ : BufTy).Contents (Elt F) → (⟨S100000x192, .f32⟩ : BufTy).Contents (Elt F)),
    StableHlo.binary main_v89 main_v97 main_v115 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v99 main_v116 (broadcastInDim S1x192 ![1] bcast_S192_S1x192_1 : (⟨S192, .f32⟩ : BufTy).Contents (Elt F) → (⟨S1x192, .f32⟩ : BufTy).Contents (Elt F)),
    StableHlo.unary main_v116 main_v117 (broadcastInDim S100000x192 ![0, 1] bcast_S1x192_S100000x192_0_1 : (⟨S1x192, .f32⟩ : BufTy).Contents (Elt F) → (⟨S100000x192, .f32⟩ : BufTy).Contents (Elt F)),
    StableHlo.binary main_v115 main_v117 main_v118 (addf : (⟨S100000x192, .f32⟩ : BufTy).Contents (Elt F) → (⟨S100000x192, .f32⟩ : BufTy).Contents (Elt F) → (⟨S100000x192, .f32⟩ : BufTy).Contents (Elt F)),
    StableHlo.unary main_v114 main_v119 ((extractStridedSlice S100000x64 ![0, 0] · slices_S100000x192_S100000x64_0_0) : (⟨S100000x192, .f32⟩ : BufTy).Contents (Elt F) → (⟨S100000x64, .f32⟩ : BufTy).Contents (Elt F)),
    StableHlo.unary main_v114 main_v120 ((extractStridedSlice S100000x64 ![0, 64] · slices_S100000x192_S100000x64_0_64) : (⟨S100000x192, .f32⟩ : BufTy).Contents (Elt F) → (⟨S100000x64, .f32⟩ : BufTy).Contents (Elt F)),
    StableHlo.unary main_v114 main_v121 ((extractStridedSlice S100000x64 ![0, 128] · slices_S100000x192_S100000x64_0_128) : (⟨S100000x192, .f32⟩ : BufTy).Contents (Elt F) → (⟨S100000x64, .f32⟩ : BufTy).Contents (Elt F)),
    StableHlo.unary main_v118 main_v122 ((extractStridedSlice S100000x64 ![0, 0] · slices_S100000x192_S100000x64_0_0) : (⟨S100000x192, .f32⟩ : BufTy).Contents (Elt F) → (⟨S100000x64, .f32⟩ : BufTy).Contents (Elt F)),
    StableHlo.unary main_v118 main_v123 ((extractStridedSlice S100000x64 ![0, 64] · slices_S100000x192_S100000x64_0_64) : (⟨S100000x192, .f32⟩ : BufTy).Contents (Elt F) → (⟨S100000x64, .f32⟩ : BufTy).Contents (Elt F)),
    StableHlo.unary main_v118 main_v124 ((extractStridedSlice S100000x64 ![0, 128] · slices_S100000x192_S100000x64_0_128) : (⟨S100000x192, .f32⟩ : BufTy).Contents (Elt F) → (⟨S100000x64, .f32⟩ : BufTy).Contents (Elt F)),
    StableHlo.binary main_v119 main_v122 main_v125 (addf : (⟨S100000x64, .f32⟩ : BufTy).Contents (Elt F) → (⟨S100000x64, .f32⟩ : BufTy).Contents (Elt F) → (⟨S100000x64, .f32⟩ : BufTy).Contents (Elt F)),
    StableHlo.unary main_v125 main_v126 (Host.negf : (⟨S100000x64, .f32⟩ : BufTy).Contents (Elt F) → (⟨S100000x64, .f32⟩ : BufTy).Contents (Elt F)),
    StableHlo.unary main_v126 main_v127 (Host.exp : (⟨S100000x64, .f32⟩ : BufTy).Contents (Elt F) → (⟨S100000x64, .f32⟩ : BufTy).Contents (Elt F)),
    StableHlo.nullary main_cst_15 (constant S_ .f32 0x3F800000#32),
    StableHlo.unary main_cst_15 main_v128 (broadcastInDim S100000x64 ![] bcast_S_S100000x64 : (⟨S_, .f32⟩ : BufTy).Contents (Elt F) → (⟨S100000x64, .f32⟩ : BufTy).Contents (Elt F)),
    StableHlo.binary main_v128 main_v127 main_v129 (addf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3F800000#32),
    StableHlo.unary main_cst_16 main_v130 (broadcastInDim S100000x64 ![] bcast_S_S100000x64 : (⟨S_, .f32⟩ : BufTy).Contents (Elt F) → (⟨S100000x64, .f32⟩ : BufTy).Contents (Elt F)),
    StableHlo.binary main_v130 main_v129 main_v131 (Host.divf : (⟨S100000x64, .f32⟩ : BufTy).Contents (Elt F) → (⟨S100000x64, .f32⟩ : BufTy).Contents (Elt F) → (⟨S100000x64, .f32⟩ : BufTy).Contents (Elt F)),
    StableHlo.binary main_v120 main_v123 main_v132 (addf : (⟨S100000x64, .f32⟩ : BufTy).Contents (Elt F) → (⟨S100000x64, .f32⟩ : BufTy).Contents (Elt F) → (⟨S100000x64, .f32⟩ : BufTy).Contents (Elt F)),
    StableHlo.unary main_v132 main_v133 (Host.negf : (⟨S100000x64, .f32⟩ : BufTy).Contents (Elt F) → (⟨S100000x64, .f32⟩ : BufTy).Contents (Elt F)),
    StableHlo.unary main_v133 main_v134 (Host.exp : (⟨S100000x64, .f32⟩ : BufTy).Contents (Elt F) → (⟨S100000x64, .f32⟩ : BufTy).Contents (Elt F)),
    StableHlo.nullary main_cst_17 (constant S_ .f32 0x3F800000#32),
    StableHlo.unary main_cst_17 main_v135 (broadcastInDim S100000x64 ![] bcast_S_S100000x64 : (⟨S_, .f32⟩ : BufTy).Contents (Elt F) → (⟨S100000x64, .f32⟩ : BufTy).Contents (Elt F)),
    StableHlo.binary main_v135 main_v134 main_v136 (addf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3F800000#32),
    StableHlo.unary main_cst_18 main_v137 (broadcastInDim S100000x64 ![] bcast_S_S100000x64 : (⟨S_, .f32⟩ : BufTy).Contents (Elt F) → (⟨S100000x64, .f32⟩ : BufTy).Contents (Elt F)),
    StableHlo.binary main_v137 main_v136 main_v138 (Host.divf : (⟨S100000x64, .f32⟩ : BufTy).Contents (Elt F) → (⟨S100000x64, .f32⟩ : BufTy).Contents (Elt F) → (⟨S100000x64, .f32⟩ : BufTy).Contents (Elt F)),
    StableHlo.binary main_v131 main_v124 main_v139 (mulf : (⟨S100000x64, .f32⟩ : BufTy).Contents (Elt F) → (⟨S100000x64, .f32⟩ : BufTy).Contents (Elt F) → (⟨S100000x64, .f32⟩ : BufTy).Contents (Elt F)),
    StableHlo.binary main_v121 main_v139 main_v140 (addf : (⟨S100000x64, .f32⟩ : BufTy).Contents (Elt F) → (⟨S100000x64, .f32⟩ : BufTy).Contents (Elt F) → (⟨S100000x64, .f32⟩ : BufTy).Contents (Elt F)),
    StableHlo.unary main_v140 main_v141 (Host.tanh : (⟨S100000x64, .f32⟩ : BufTy).Contents (Elt F) → (⟨S100000x64, .f32⟩ : BufTy).Contents (Elt F)),
    StableHlo.nullary main_cst_19 (constant S_ .f32 0x3F800000#32),
    StableHlo.unary main_cst_19 main_v142 (broadcastInDim S100000x64 ![] bcast_S_S100000x64 : (⟨S_, .f32⟩ : BufTy).Contents (Elt F) → (⟨S100000x64, .f32⟩ : BufTy).Contents (Elt F)),
    StableHlo.binary main_v142 main_v138 main_v143 (subf : (⟨S100000x64, .f32⟩ : BufTy).Contents (Elt F) → (⟨S100000x64, .f32⟩ : BufTy).Contents (Elt F) → (⟨S100000x64, .f32⟩ : BufTy).Contents (Elt F)),
    StableHlo.binary main_v143 main_v141 main_v144 (mulf : (⟨S100000x64, .f32⟩ : BufTy).Contents (Elt F) → (⟨S100000x64, .f32⟩ : BufTy).Contents (Elt F) → (⟨S100000x64, .f32⟩ : BufTy).Contents (Elt F)),
    StableHlo.binary main_v138 main_v89 main_v145 (mulf : (⟨S100000x64, .f32⟩ : BufTy).Contents (Elt F) → (⟨S100000x64, .f32⟩ : BufTy).Contents (Elt F) → (⟨S100000x64, .f32⟩ : BufTy).Contents (Elt F)),
    StableHlo.binary main_v144 main_v145 main_v146 (addf : (⟨S100000x64, .f32⟩ : BufTy).Contents (Elt F) → (⟨S100000x64, .f32⟩ : BufTy).Contents (Elt F) → (⟨S100000x64, .f32⟩ : BufTy).Contents (Elt F)) ]
theorem opsC7_sub : (opsC7 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsC7_fresh : (opsC7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC7_W : List (Ref sig .tc) :=
  [main_v111, main_v112, main_v113, main_v114, main_v115, main_v116, main_v117, main_v118, main_v119, main_v120, main_v121, main_v122, main_v123, main_v124, main_v125, main_v126, main_v127, main_cst_15, main_v128, main_v129, main_cst_16, main_v130, main_v131, main_v132, main_v133, main_v134, main_cst_17, main_v135, main_v136, main_cst_18, main_v137, main_v138, main_v139, main_v140, main_v141, main_cst_19, main_v142, main_v143, main_v144, main_v145, main_v146]
theorem opsC7_writes : (opsC7 : List (HloOp τ sig (Elt F))).Forall fun op => op.writes ⊆ ((opsC7_W).map (Proc.devRef (τ := τ) .tc)).toFinset :=
  ⟨writes_sub_of_mem (y := main_v111) rfl (.head _), writes_sub_of_mem (y := main_v112) rfl (.tail _ (.head _)), writes_sub_of_mem (y := main_v113) rfl (.tail _ (.tail _ (.head _))), writes_sub_of_mem (y := main_v114) rfl (.tail _ (.tail _ (.tail _ (.head _)))), writes_sub_of_mem (y := main_v115) rfl (.tail _ (.tail _ (.tail _ (.tail _ (.head _))))), writes_sub_of_mem (y := main_v116) rfl (.tail _ (.tail _ (.tail _ (.tail _ (.tail _ (.head _)))))), writes_sub_of_mem (y := main_v117) rfl (.tail _ (.tail _ (.tail _ (.tail _ (.tail _ (.tail _ (.head _))))))), writes_sub_of_mem (y := main_v118) rfl (.tail _ (.tail _ (.tail _ (.tail _ (.tail _ (.tail _ (.tail _ (.head _)))))))), writes_sub_of_mem (y := main_v119) rfl (.tail _ (.tail _ (.tail _ (.tail _ (.tail _ (.tail _ (.tail _ (.tail _ (.head _))))))))), writes_sub_of_mem (y := main_v120) rfl (.tail _ (.tail _ (.tail _ (.tail _ (.tail _ (.tail _ (.tail _ (.tail _ (.tail _ (.head _)))))))))), writes_sub_of_mem (y := main_v121) rfl (.tail _ (.tail _ (.tail _ (.tail _ (.tail _ (.tail _ (.tail _ (.tail _ (.tail _ (.tail _ (.head _))))))))))), writes_sub_of_mem (y := main_v122) rfl (.tail _ (.tail _ (.tail _ (.tail _ (.tail _ (.tail _ (.tail _ (.tail _ (.tail _ (.tail _ (.tail _ (.head _)))))))))))), writes_sub_of_mem (y := main_v123) rfl (.tail _ (.tail _ (.tail _ (.tail _ (.tail _ (.tail _ (.tail _ (.tail _ (.tail _ (.tail _ (.tail _ (.tail _ (.head _))))))))))))), writes_sub_of_mem (y := main_v124) rfl (.tail _ (.tail _ (.tail _ (.tail _ (.tail _ (.tail _ (.tail _ (.tail _ (.tail _ (.tail _ (.tail _ (.tail _ (.tail _ (.head _)))))))))))))), writes_sub_of_mem (y := main_v125) rfl (.tail _ (.tail _ (.tail _ (.tail _ (.tail _ (.tail _ (.tail _ (.tail _ (.tail _ (.tail _ (.tail _ (.tail _ (.tail _ (.tail _ (.head _))))))))))))))), writes_sub_of_mem (y := main_v126) rfl (.tail _ (.tail _ (.tail _ (.tail _ (.tail _ (.tail _ (.tail _ (.tail _ (.tail _ (.tail _ (.tail _ (.tail _ (.tail _ (.tail _ (.tail _ (.head _)))))))))))))))), writes_sub_of_mem (y := main_v127) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_cst_15) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v128) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v129) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_cst_16) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v130) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v131) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v132) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v133) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v134) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_cst_17) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_v135) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_v136) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_cst_18) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_v137) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_v138) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_v139) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_v140) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_v141) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_cst_19) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_v142) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v143) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v144) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v145) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v146) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))⟩
/-- A buffer the stretch does not write keeps its contents, from any contents. -/
theorem opsC7_keeps (V : Valuation τ sig (Elt F)) {r : Ref sig .tc} (hr : r ∉ opsC7_W) :
    after (opsC7 : List (HloOp τ sig (Elt F))) V (Proc.devRef .tc r) = V (Proc.devRef .tc r) :=
  after_of_writes_sub opsC7 V opsC7_writes hr
/-- The stretch writes no argument of @main: its buffers come after the twenty-seven arguments. -/
theorem opsC7_W_ge : ∀ r ∈ opsC7_W, 27 ≤ r.idx.val := by decide +kernel
theorem opsC7_W_args : ∀ r ∈ mainArgs, r ∉ opsC7_W :=
  fun r hr hW => absurd (opsC7_W_ge r hW) (Nat.not_le.mpr (mainArgs_lt r hr))

/-- %147 … %156: layer 2's embedding rows gathered and summed (13 operations). -/
abbrev opsC8 : List (HloOp τ sig (Elt F)) :=
  [ StableHlo.unary main_arg5 main_v147 ((extractStridedSlice S1x100x64 ![2, 0, 0] · slices_S5x100x64_S1x100x64_2_0_0) : (⟨S5x100x64, .f32⟩ : BufTy).Contents (Elt F) → (⟨S1x100x64, .f32⟩ : BufTy).Contents (Elt F)),
    StableHlo.reshape main_v147 main_v148 rfl shapeCasts_S1x100x64_S100x64,
    StableHlo.nullary main_c_20 (constantI S_ 32 0#32),
    StableHlo.unary main_c_20 main_v149 (broadcastInDim S100000x2 ![] bcast_S_S100000x2 : (⟨S_, .i32⟩ : BufTy).Contents (Elt F) → (⟨S100000x2, .i32⟩ : BufTy).Contents (Elt F)),
    StableHlo.binary main_arg0 main_v149 main_v150 (cmpi .slt : (⟨S100000x2, .i32⟩ : BufTy).Contents (Elt F) → (⟨S100000x2, .i32⟩ : BufTy).Contents (Elt F) → (⟨S100000x2, .i1⟩ : BufTy).Contents (Elt F)),
    StableHlo.nullary main_c_21 (constantI S_ 32 100#32),
    StableHlo.unary main_c_21 main_v151 (broadcastInDim S100000x2 ![] bcast_S_S100000x2 : (⟨S_, .i32⟩ : BufTy).Contents (Elt F) → (⟨S100000x2, .i32⟩ : BufTy).Contents (Elt F)),
    StableHlo.binary main_arg0 main_v151 main_v152 (addi : (⟨S100000x2, .i32⟩ : BufTy).Contents (Elt F) → (⟨S100000x2, .i32⟩ : BufTy).Contents (Elt F) → (⟨S100000x2, .i32⟩ : BufTy).Contents (Elt F)),
    StableHlo.ternary main_v150 main_v152 main_arg0 main_v153 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v153 main_v154 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v148 main_v154 main_v155 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_22 (constant S_ .f32 0x00000000#32),
    StableHlo.binary main_v155 main_cst_22 main_v156 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)) ]
theorem opsC8_sub : (opsC8 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub ..⟩
theorem opsC8_fresh : (opsC8 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC8_W : List (Ref sig .tc) :=
  [main_v147, main_v148, main_c_20, main_v149, main_v150, main_c_21, main_v151, main_v152, main_v153, main_v154, main_v155, main_cst_22, main_v156]
theorem opsC8_writes : (opsC8 : List (HloOp τ sig (Elt F))).Forall fun op => op.writes ⊆ ((opsC8_W).map (Proc.devRef (τ := τ) .tc)).toFinset :=
  ⟨writes_sub_of_mem (y := main_v147) rfl (.head _), writes_sub_of_mem (y := main_v148) rfl (.tail _ (.head _)), writes_sub_of_mem (y := main_c_20) rfl (.tail _ (.tail _ (.head _))), writes_sub_of_mem (y := main_v149) rfl (.tail _ (.tail _ (.tail _ (.head _)))), writes_sub_of_mem (y := main_v150) rfl (.tail _ (.tail _ (.tail _ (.tail _ (.head _))))), writes_sub_of_mem (y := main_c_21) rfl (.tail _ (.tail _ (.tail _ (.tail _ (.tail _ (.head _)))))), writes_sub_of_mem (y := main_v151) rfl (.tail _ (.tail _ (.tail _ (.tail _ (.tail _ (.tail _ (.head _))))))), writes_sub_of_mem (y := main_v152) rfl (.tail _ (.tail _ (.tail _ (.tail _ (.tail _ (.tail _ (.tail _ (.head _)))))))), writes_sub_of_mem (y := main_v153) rfl (.tail _ (.tail _ (.tail _ (.tail _ (.tail _ (.tail _ (.tail _ (.tail _ (.head _))))))))), writes_sub_of_mem (y := main_v154) rfl (.tail _ (.tail _ (.tail _ (.tail _ (.tail _ (.tail _ (.tail _ (.tail _ (.tail _ (.head _)))))))))), writes_sub_of_mem (y := main_v155) rfl (.tail _ (.tail _ (.tail _ (.tail _ (.tail _ (.tail _ (.tail _ (.tail _ (.tail _ (.tail _ (.head _))))))))))), writes_sub_of_mem (y := main_cst_22) rfl (.tail _ (.tail _ (.tail _ (.tail _ (.tail _ (.tail _ (.tail _ (.tail _ (.tail _ (.tail _ (.tail _ (.head _)))))))))))), writes_sub_of_mem (y := main_v156) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC8_keeps (V : Valuation τ sig (Elt F)) {r : Ref sig .tc} (hr : r ∉ opsC8_W) :
    after (opsC8 : List (HloOp τ sig (Elt F))) V (Proc.devRef .tc r) = V (Proc.devRef .tc r) :=
  after_of_writes_sub opsC8 V opsC8_writes hr
/-- The stretch writes no argument of @main: its buffers come after the twenty-seven arguments. -/
theorem opsC8_W_ge : ∀ r ∈ opsC8_W, 27 ≤ r.idx.val := by decide +kernel
theorem opsC8_W_args : ∀ r ∈ mainArgs, r ∉ opsC8_W :=
  fun r hr hW => absurd (opsC8_W_ge r hW) (Nat.not_le.mpr (mainArgs_lt r hr))

/-- %157 … %176: layer 2's concatenation, its linear map (%157–%165), the layer's weight slices (%166–%175), the message product (%176) (20 operations). -/
abbrev opsC9 : List (HloOp τ sig (Elt F)) :=
  [ StableHlo.binary main_v146 main_v156 main_v157 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v158 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v158 main_v159 rfl shapeCasts_S1x128x64_S128x64,
    StableHlo.binary main_v157 main_v159 main_v160 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v161 ((extractStridedSlice S1x64 ![1, 0] · slices_S4x64_S1x64_1_0) : (⟨S4x64, .f32⟩ : BufTy).Contents (Elt F) → (⟨S1x64, .f32⟩ : BufTy).Contents (Elt F)),
    StableHlo.reshape main_v161 main_v162 rfl shapeCasts_S1x64_S64,
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v164 main_v165 (addf : (⟨S100000x64, .f32⟩ : BufTy).Contents (Elt F) → (⟨S100000x64, .f32⟩ : BufTy).Contents (Elt F) → (⟨S100000x64, .f32⟩ : BufTy).Contents (Elt F)),
    StableHlo.unary main_arg8 main_v166 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v166 main_v167 rfl shapeCasts_S1x64x64_S64x64,
    StableHlo.unary main_arg9 main_v168 ((extractStridedSlice S1x64x192 ![2, 0, 0] · slices_S5x64x192_S1x64x192_2_0_0) : (⟨S5x64x192, .f32⟩ : BufTy).Contents (Elt F) → (⟨S1x64x192, .f32⟩ : BufTy).Contents (Elt F)),
    StableHlo.reshape main_v168 main_v169 rfl shapeCasts_S1x64x192_S64x192,
    StableHlo.unary main_arg10 main_v170 ((extractStridedSlice S1x192 ![2, 0] · slices_S5x192_S1x192_2_0) : (⟨S5x192, .f32⟩ : BufTy).Contents (Elt F) → (⟨S1x192, .f32⟩ : BufTy).Contents (Elt F)),
    StableHlo.reshape main_v170 main_v171 rfl shapeCasts_S1x192_S192,
    StableHlo.unary main_arg11 main_v172 ((extractStridedSlice S1x64x192 ![2, 0, 0] · slices_S5x64x192_S1x64x192_2_0_0) : (⟨S5x64x192, .f32⟩ : BufTy).Contents (Elt F) → (⟨S1x64x192, .f32⟩ : BufTy).Contents (Elt F)),
    StableHlo.reshape main_v172 main_v173 rfl shapeCasts_S1x64x192_S64x192,
    StableHlo.unary main_arg12 main_v174 ((extractStridedSlice S1x192 ![2, 0] · slices_S5x192_S1x192_2_0) : (⟨S5x192, .f32⟩ : BufTy).Contents (Elt F) → (⟨S1x192, .f32⟩ : BufTy).Contents (Elt F)),
    StableHlo.reshape main_v174 main_v175 rfl shapeCasts_S1x192_S192,
    StableHlo.binary main_v165 main_v167 main_v176 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem opsC9_sub : (opsC9 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub ..⟩
theorem opsC9_fresh : (opsC9 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the stretch writes, one per operation, in order. -/
abbrev opsC9_W : List (Ref sig .tc) :=
  [main_v157, main_v158, main_v159, main_v160, main_v161, main_v162, main_v163, main_v164, main_v165, main_v166, main_v167, main_v168, main_v169, main_v170, main_v171, main_v172, main_v173, main_v174, main_v175, main_v176]
theorem opsC9_writes : (opsC9 : List (HloOp τ sig (Elt F))).Forall fun op => op.writes ⊆ ((opsC9_W).map (Proc.devRef (τ := τ) .tc)).toFinset :=
  ⟨writes_sub_of_mem (y := main_v157) rfl (.head _), writes_sub_of_mem (y := main_v158) rfl (.tail _ (.head _)), writes_sub_of_mem (y := main_v159) rfl (.tail _ (.tail _ (.head _))), writes_sub_of_mem (y := main_v160) rfl (.tail _ (.tail _ (.tail _ (.head _)))), writes_sub_of_mem (y := main_v161) rfl (.tail _ (.tail _ (.tail _ (.tail _ (.head _))))), writes_sub_of_mem (y := main_v162) rfl (.tail _ (.tail _ (.tail _ (.tail _ (.tail _ (.head _)))))), writes_sub_of_mem (y := main_v163) rfl (.tail _ (.tail _ (.tail _ (.tail _ (.tail _ (.tail _ (.head _))))))), writes_sub_of_mem (y := main_v164) rfl (.tail _ (.tail _ (.tail _ (.tail _ (.tail _ (.tail _ (.tail _ (.head _)))))))), writes_sub_of_mem (y := main_v165) rfl (.tail _ (.tail _ (.tail _ (.tail _ (.tail _ (.tail _ (.tail _ (.tail _ (.head _))))))))), writes_sub_of_mem (y := main_v166) rfl (.tail _ (.tail _ (.tail _ (.tail _ (.tail _ (.tail _ (.tail _ (.tail _ (.tail _ (.head _)))))))))), writes_sub_of_mem (y := main_v167) rfl (.tail _ (.tail _ (.tail _ (.tail _ (.tail _ (.tail _ (.tail _ (.tail _ (.tail _ (.tail _ (.head _))))))))))), writes_sub_of_mem (y := main_v168) rfl (.tail _ (.tail _ (.tail _ (.tail _ (.tail _ (.tail _ (.tail _ (.tail _ (.tail _ (.tail _ (.tail _ (.head _)))))))))))), writes_sub_of_mem (y := main_v169) rfl (.tail _ (.tail _ (.tail _ (.tail _ (.tail _ (.tail _ (.tail _ (.tail _ (.tail _ (.tail _ (.tail _ (.tail _ (.head _))))))))))))), writes_sub_of_mem (y := main_v170) rfl (.tail _ (.tail _ (.tail _ (.tail _ (.tail _ (.tail _ (.tail _ (.tail _ (.tail _ (.tail _ (.tail _ (.tail _ (.tail _ (.head _)))))))))))))), writes_sub_of_mem (y := main_v171) rfl (.tail _ (.tail _ (.tail _ (.tail _ (.tail _ (.tail _ (.tail _ (.tail _ (.tail _ (.tail _ (.tail _ (.tail _ (.tail _ (.tail _ (.head _))))))))))))))), writes_sub_of_mem (y := main_v172) rfl (.tail _ (.tail _ (.tail _ (.tail _ (.tail _ (.tail _ (.tail _ (.tail _ (.tail _ (.tail _ (.tail _ (.tail _ (.tail _ (.tail _ (.tail _ (.head _)))))))))))))))), writes_sub_of_mem (y := main_v173) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_v174) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v175) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v176) rfl (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩
/-- A buffer the stretch does not write keeps its contents, from any contents. -/
theorem opsC9_keeps (V : Valuation τ sig (Elt F)) {r : Ref sig .tc} (hr : r ∉ opsC9_W) :
    after (opsC9 : List (HloOp τ sig (Elt F))) V (Proc.devRef .tc r) = V (Proc.devRef .tc r) :=
  after_of_writes_sub opsC9 V opsC9_writes hr
/-- The stretch writes no argument of @main: its buffers come after the twenty-seven arguments. -/
theorem opsC9_W_ge : ∀ r ∈ opsC9_W, 27 ≤ r.idx.val := by decide +kernel
theorem opsC9_W_args : ∀ r ∈ mainArgs, r ∉ opsC9_W :=
  fun r hr hW => absurd (opsC9_W_ge r hW) (Nat.not_le.mpr (mainArgs_lt r hr))

/-- %c_23 … %186: layer 2's messages gathered and added (13 operations). -/
abbrev opsC10 : List (HloOp τ sig (Elt F)) :=
  [ StableHlo.nullary main_c_23 (constantI S_ 32 0#32),
    StableHlo.unary main_c_23 main_v177 (broadcastInDim S1600000 ![] bcast_S_S1600000 : (⟨S_, .i32⟩ : BufTy).Contents (Elt F) → (⟨S1600000, .i32⟩ : BufTy).Contents (Elt F)),
    StableHlo.binary main_v1 main_v177 main_v178 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v179 (broadcastInDim S1600000 ![] bcast_S_S1600000 : (⟨S_, .i32⟩ : BufTy).Contents (Elt F) → (⟨S1600000, .i32⟩ : BufTy).Contents (Elt F)),
    StableHlo.binary main_v1 main_v179 main_v180 (addi : (⟨S1600000, .i32⟩ : BufTy).Contents (Elt F) → (⟨S1600000, .i32⟩ : BufTy).Contents (Elt F) → (⟨S1600000, .i32⟩ : BufTy).Contents (Elt F)),
    StableHlo.ternary main_v178 main_v180 main_v1 main_v181 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v181 main_v182 (broadcastInDim S1600000x1 ![0] bcast_S1600000_S1600000x1_0 : (⟨S1600000, .i32⟩ : BufTy).Contents (Elt F) → (⟨S1600000x1, .i32⟩ : BufTy).Contents (Elt F)),
    StableHlo.binary main_v176 main_v182 main_v183 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_25 (constant S_ .f32 0x00000000#32),
    StableHlo.unary main_cst_25 main_v184 (broadcastInDim S100000x64 ![] bcast_S_S100000x64 : (⟨S_, .f32⟩ : BufTy).Contents (Elt F) → (⟨S100000x64, .f32⟩ : BufTy).Contents (Elt F)),
    StableHlo.unary main_v3 main_v185 (broadcastInDim S1600000x1 ![0] bcast_S1600000_S1600000x1_0 : (⟨S1600000, .i32⟩ : BufTy).Contents (Elt F) → (⟨S1600000x1, .i32⟩ : BufTy).Contents (Elt F)),
    StableHlo.ternary main_v184 main_v185 main_v183 main_v186 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC10_sub : (opsC10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsC10_fresh : (opsC10 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC10_W : List (Ref sig .tc) :=
  [main_c_23, main_v177, main_v178, main_c_24, main_v179, main_v180, main_v181, main_v182, main_v183, main_cst_25, main_v184, main_v185, main_v186]
theorem opsC10_writes : (opsC10 : List (HloOp τ sig (Elt F))).Forall fun op => op.writes ⊆ ((opsC10_W).map (Proc.devRef (τ := τ) .tc)).toFinset :=
  ⟨writes_sub_of_mem (y := main_c_23) rfl (.head _), writes_sub_of_mem (y := main_v177) rfl (.tail _ (.head _)), writes_sub_of_mem (y := main_v178) rfl (.tail _ (.tail _ (.head _))), writes_sub_of_mem (y := main_c_24) rfl (.tail _ (.tail _ (.tail _ (.head _)))), writes_sub_of_mem (y := main_v179) rfl (.tail _ (.tail _ (.tail _ (.tail _ (.head _))))), writes_sub_of_mem (y := main_v180) rfl (.tail _ (.tail _ (.tail _ (.tail _ (.tail _ (.head _)))))), writes_sub_of_mem (y := main_v181) rfl (.tail _ (.tail _ (.tail _ (.tail _ (.tail _ (.tail _ (.head _))))))), writes_sub_of_mem (y := main_v182) rfl (.tail _ (.tail _ (.tail _ (.tail _ (.tail _ (.tail _ (.tail _ (.head _)))))))), writes_sub_of_mem (y := main_v183) rfl (.tail _ (.tail _ (.tail _ (.tail _ (.tail _ (.tail _ (.tail _ (.tail _ (.head _))))))))), writes_sub_of_mem (y := main_cst_25) rfl (.tail _ (.tail _ (.tail _ (.tail _ (.tail _ (.tail _ (.tail _ (.tail _ (.tail _ (.head _)))))))))), writes_sub_of_mem (y := main_v184) rfl (.tail _ (.tail _ (.tail _ (.tail _ (.tail _ (.tail _ (.tail _ (.tail _ (.tail _ (.tail _ (.head _))))))))))), writes_sub_of_mem (y := main_v185) rfl (.tail _ (.tail _ (.tail _ (.tail _ (.tail _ (.tail _ (.tail _ (.tail _ (.tail _ (.tail _ (.tail _ (.head _)))))))))))), writes_sub_of_mem (y := main_v186) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC10_keeps (V : Valuation τ sig (Elt F)) {r : Ref sig .tc} (hr : r ∉ opsC10_W) :
    after (opsC10 : List (HloOp τ sig (Elt F))) V (Proc.devRef .tc r) = V (Proc.devRef .tc r) :=
  after_of_writes_sub opsC10 V opsC10_writes hr
/-- The stretch writes no argument of @main: its buffers come after the twenty-seven arguments. -/
theorem opsC10_W_ge : ∀ r ∈ opsC10_W, 27 ≤ r.idx.val := by decide +kernel
theorem opsC10_W_args : ∀ r ∈ mainArgs, r ∉ opsC10_W :=
  fun r hr hW => absurd (opsC10_W_ge r hW) (Nat.not_le.mpr (mainArgs_lt r hr))

/-- %187 … %222: layer 2's gated update (41 operations). -/
abbrev opsC11 : List (HloOp τ sig (Elt F)) :=
  [ StableHlo.binary main_v186 main_v169 main_v187 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v171 main_v188 (broadcastInDim S1x192 ![1] bcast_S192_S1x192_1 : (⟨S192, .f32⟩ : BufTy).Contents (Elt F) → (⟨S1x192, .f32⟩ : BufTy).Contents (Elt F)),
    StableHlo.unary main_v188 main_v189 (broadcastInDim S100000x192 ![0, 1] bcast_S1x192_S100000x192_0_1 : (⟨S1x192, .f32⟩ : BufTy).Contents (Elt F) → (⟨S100000x192, .f32⟩ : BufTy).Contents (Elt F)),
    StableHlo.binary main_v187 main_v189 main_v190 (addf : (⟨S100000x192, .f32⟩ : BufTy).Contents (Elt F) → (⟨S100000x192, .f32⟩ : BufTy).Contents (Elt F) → (⟨S100000x192, .f32⟩ : BufTy).Contents (Elt F)),
    StableHlo.binary main_v165 main_v173 main_v191 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v175 main_v192 (broadcastInDim S1x192 ![1] bcast_S192_S1x192_1 : (⟨S192, .f32⟩ : BufTy).Contents (Elt F) → (⟨S1x192, .f32⟩ : BufTy).Contents (Elt F)),
    StableHlo.unary main_v192 main_v193 (broadcastInDim S100000x192 ![0, 1] bcast_S1x192_S100000x192_0_1 : (⟨S1x192, .f32⟩ : BufTy).Contents (Elt F) → (⟨S100000x192, .f32⟩ : BufTy).Contents (Elt F)),
    StableHlo.binary main_v191 main_v193 main_v194 (addf : (⟨S100000x192, .f32⟩ : BufTy).Contents (Elt F) → (⟨S100000x192, .f32⟩ : BufTy).Contents (Elt F) → (⟨S100000x192, .f32⟩ : BufTy).Contents (Elt F)),
    StableHlo.unary main_v190 main_v195 ((extractStridedSlice S100000x64 ![0, 0] · slices_S100000x192_S100000x64_0_0) : (⟨S100000x192, .f32⟩ : BufTy).Contents (Elt F) → (⟨S100000x64, .f32⟩ : BufTy).Contents (Elt F)),
    StableHlo.unary main_v190 main_v196 ((extractStridedSlice S100000x64 ![0, 64] · slices_S100000x192_S100000x64_0_64) : (⟨S100000x192, .f32⟩ : BufTy).Contents (Elt F) → (⟨S100000x64, .f32⟩ : BufTy).Contents (Elt F)),
    StableHlo.unary main_v190 main_v197 ((extractStridedSlice S100000x64 ![0, 128] · slices_S100000x192_S100000x64_0_128) : (⟨S100000x192, .f32⟩ : BufTy).Contents (Elt F) → (⟨S100000x64, .f32⟩ : BufTy).Contents (Elt F)),
    StableHlo.unary main_v194 main_v198 ((extractStridedSlice S100000x64 ![0, 0] · slices_S100000x192_S100000x64_0_0) : (⟨S100000x192, .f32⟩ : BufTy).Contents (Elt F) → (⟨S100000x64, .f32⟩ : BufTy).Contents (Elt F)),
    StableHlo.unary main_v194 main_v199 ((extractStridedSlice S100000x64 ![0, 64] · slices_S100000x192_S100000x64_0_64) : (⟨S100000x192, .f32⟩ : BufTy).Contents (Elt F) → (⟨S100000x64, .f32⟩ : BufTy).Contents (Elt F)),
    StableHlo.unary main_v194 main_v200 ((extractStridedSlice S100000x64 ![0, 128] · slices_S100000x192_S100000x64_0_128) : (⟨S100000x192, .f32⟩ : BufTy).Contents (Elt F) → (⟨S100000x64, .f32⟩ : BufTy).Contents (Elt F)),
    StableHlo.binary main_v195 main_v198 main_v201 (addf : (⟨S100000x64, .f32⟩ : BufTy).Contents (Elt F) → (⟨S100000x64, .f32⟩ : BufTy).Contents (Elt F) → (⟨S100000x64, .f32⟩ : BufTy).Contents (Elt F)),
    StableHlo.unary main_v201 main_v202 (Host.negf : (⟨S100000x64, .f32⟩ : BufTy).Contents (Elt F) → (⟨S100000x64, .f32⟩ : BufTy).Contents (Elt F)),
    StableHlo.unary main_v202 main_v203 (Host.exp : (⟨S100000x64, .f32⟩ : BufTy).Contents (Elt F) → (⟨S100000x64, .f32⟩ : BufTy).Contents (Elt F)),
    StableHlo.nullary main_cst_26 (constant S_ .f32 0x3F800000#32),
    StableHlo.unary main_cst_26 main_v204 (broadcastInDim S100000x64 ![] bcast_S_S100000x64 : (⟨S_, .f32⟩ : BufTy).Contents (Elt F) → (⟨S100000x64, .f32⟩ : BufTy).Contents (Elt F)),
    StableHlo.binary main_v204 main_v203 main_v205 (addf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3F800000#32),
    StableHlo.unary main_cst_27 main_v206 (broadcastInDim S100000x64 ![] bcast_S_S100000x64 : (⟨S_, .f32⟩ : BufTy).Contents (Elt F) → (⟨S100000x64, .f32⟩ : BufTy).Contents (Elt F)),
    StableHlo.binary main_v206 main_v205 main_v207 (Host.divf : (⟨S100000x64, .f32⟩ : BufTy).Contents (Elt F) → (⟨S100000x64, .f32⟩ : BufTy).Contents (Elt F) → (⟨S100000x64, .f32⟩ : BufTy).Contents (Elt F)),
    StableHlo.binary main_v196 main_v199 main_v208 (addf : (⟨S100000x64, .f32⟩ : BufTy).Contents (Elt F) → (⟨S100000x64, .f32⟩ : BufTy).Contents (Elt F) → (⟨S100000x64, .f32⟩ : BufTy).Contents (Elt F)),
    StableHlo.unary main_v208 main_v209 (Host.negf : (⟨S100000x64, .f32⟩ : BufTy).Contents (Elt F) → (⟨S100000x64, .f32⟩ : BufTy).Contents (Elt F)),
    StableHlo.unary main_v209 main_v210 (Host.exp : (⟨S100000x64, .f32⟩ : BufTy).Contents (Elt F) → (⟨S100000x64, .f32⟩ : BufTy).Contents (Elt F)),
    StableHlo.nullary main_cst_28 (constant S_ .f32 0x3F800000#32),
    StableHlo.unary main_cst_28 main_v211 (broadcastInDim S100000x64 ![] bcast_S_S100000x64 : (⟨S_, .f32⟩ : BufTy).Contents (Elt F) → (⟨S100000x64, .f32⟩ : BufTy).Contents (Elt F)),
    StableHlo.binary main_v211 main_v210 main_v212 (addf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x3F800000#32),
    StableHlo.unary main_cst_29 main_v213 (broadcastInDim S100000x64 ![] bcast_S_S100000x64 : (⟨S_, .f32⟩ : BufTy).Contents (Elt F) → (⟨S100000x64, .f32⟩ : BufTy).Contents (Elt F)),
    StableHlo.binary main_v213 main_v212 main_v214 (Host.divf : (⟨S100000x64, .f32⟩ : BufTy).Contents (Elt F) → (⟨S100000x64, .f32⟩ : BufTy).Contents (Elt F) → (⟨S100000x64, .f32⟩ : BufTy).Contents (Elt F)),
    StableHlo.binary main_v207 main_v200 main_v215 (mulf : (⟨S100000x64, .f32⟩ : BufTy).Contents (Elt F) → (⟨S100000x64, .f32⟩ : BufTy).Contents (Elt F) → (⟨S100000x64, .f32⟩ : BufTy).Contents (Elt F)),
    StableHlo.binary main_v197 main_v215 main_v216 (addf : (⟨S100000x64, .f32⟩ : BufTy).Contents (Elt F) → (⟨S100000x64, .f32⟩ : BufTy).Contents (Elt F) → (⟨S100000x64, .f32⟩ : BufTy).Contents (Elt F)),
    StableHlo.unary main_v216 main_v217 (Host.tanh : (⟨S100000x64, .f32⟩ : BufTy).Contents (Elt F) → (⟨S100000x64, .f32⟩ : BufTy).Contents (Elt F)),
    StableHlo.nullary main_cst_30 (constant S_ .f32 0x3F800000#32),
    StableHlo.unary main_cst_30 main_v218 (broadcastInDim S100000x64 ![] bcast_S_S100000x64 : (⟨S_, .f32⟩ : BufTy).Contents (Elt F) → (⟨S100000x64, .f32⟩ : BufTy).Contents (Elt F)),
    StableHlo.binary main_v218 main_v214 main_v219 (subf : (⟨S100000x64, .f32⟩ : BufTy).Contents (Elt F) → (⟨S100000x64, .f32⟩ : BufTy).Contents (Elt F) → (⟨S100000x64, .f32⟩ : BufTy).Contents (Elt F)),
    StableHlo.binary main_v219 main_v217 main_v220 (mulf : (⟨S100000x64, .f32⟩ : BufTy).Contents (Elt F) → (⟨S100000x64, .f32⟩ : BufTy).Contents (Elt F) → (⟨S100000x64, .f32⟩ : BufTy).Contents (Elt F)),
    StableHlo.binary main_v214 main_v165 main_v221 (mulf : (⟨S100000x64, .f32⟩ : BufTy).Contents (Elt F) → (⟨S100000x64, .f32⟩ : BufTy).Contents (Elt F) → (⟨S100000x64, .f32⟩ : BufTy).Contents (Elt F)),
    StableHlo.binary main_v220 main_v221 main_v222 (addf : (⟨S100000x64, .f32⟩ : BufTy).Contents (Elt F) → (⟨S100000x64, .f32⟩ : BufTy).Contents (Elt F) → (⟨S100000x64, .f32⟩ : BufTy).Contents (Elt F)) ]
theorem opsC11_sub : (opsC11 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsC11_fresh : (opsC11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC11_W : List (Ref sig .tc) :=
  [main_v187, main_v188, main_v189, main_v190, main_v191, main_v192, main_v193, main_v194, main_v195, main_v196, main_v197, main_v198, main_v199, main_v200, main_v201, main_v202, main_v203, main_cst_26, main_v204, main_v205, main_cst_27, main_v206, main_v207, main_v208, main_v209, main_v210, main_cst_28, main_v211, main_v212, main_cst_29, main_v213, main_v214, main_v215, main_v216, main_v217, main_cst_30, main_v218, main_v219, main_v220, main_v221, main_v222]
theorem opsC11_writes : (opsC11 : List (HloOp τ sig (Elt F))).Forall fun op => op.writes ⊆ ((opsC11_W).map (Proc.devRef (τ := τ) .tc)).toFinset :=
  ⟨writes_sub_of_mem (y := main_v187) rfl (.head _), writes_sub_of_mem (y := main_v188) rfl (.tail _ (.head _)), writes_sub_of_mem (y := main_v189) rfl (.tail _ (.tail _ (.head _))), writes_sub_of_mem (y := main_v190) rfl (.tail _ (.tail _ (.tail _ (.head _)))), writes_sub_of_mem (y := main_v191) rfl (.tail _ (.tail _ (.tail _ (.tail _ (.head _))))), writes_sub_of_mem (y := main_v192) rfl (.tail _ (.tail _ (.tail _ (.tail _ (.tail _ (.head _)))))), writes_sub_of_mem (y := main_v193) rfl (.tail _ (.tail _ (.tail _ (.tail _ (.tail _ (.tail _ (.head _))))))), writes_sub_of_mem (y := main_v194) rfl (.tail _ (.tail _ (.tail _ (.tail _ (.tail _ (.tail _ (.tail _ (.head _)))))))), writes_sub_of_mem (y := main_v195) rfl (.tail _ (.tail _ (.tail _ (.tail _ (.tail _ (.tail _ (.tail _ (.tail _ (.head _))))))))), writes_sub_of_mem (y := main_v196) rfl (.tail _ (.tail _ (.tail _ (.tail _ (.tail _ (.tail _ (.tail _ (.tail _ (.tail _ (.head _)))))))))), writes_sub_of_mem (y := main_v197) rfl (.tail _ (.tail _ (.tail _ (.tail _ (.tail _ (.tail _ (.tail _ (.tail _ (.tail _ (.tail _ (.head _))))))))))), writes_sub_of_mem (y := main_v198) rfl (.tail _ (.tail _ (.tail _ (.tail _ (.tail _ (.tail _ (.tail _ (.tail _ (.tail _ (.tail _ (.tail _ (.head _)))))))))))), writes_sub_of_mem (y := main_v199) rfl (.tail _ (.tail _ (.tail _ (.tail _ (.tail _ (.tail _ (.tail _ (.tail _ (.tail _ (.tail _ (.tail _ (.tail _ (.head _))))))))))))), writes_sub_of_mem (y := main_v200) rfl (.tail _ (.tail _ (.tail _ (.tail _ (.tail _ (.tail _ (.tail _ (.tail _ (.tail _ (.tail _ (.tail _ (.tail _ (.tail _ (.head _)))))))))))))), writes_sub_of_mem (y := main_v201) rfl (.tail _ (.tail _ (.tail _ (.tail _ (.tail _ (.tail _ (.tail _ (.tail _ (.tail _ (.tail _ (.tail _ (.tail _ (.tail _ (.tail _ (.head _))))))))))))))), writes_sub_of_mem (y := main_v202) rfl (.tail _ (.tail _ (.tail _ (.tail _ (.tail _ (.tail _ (.tail _ (.tail _ (.tail _ (.tail _ (.tail _ (.tail _ (.tail _ (.tail _ (.tail _ (.head _)))))))))))))))), writes_sub_of_mem (y := main_v203) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_cst_26) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v204) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v205) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_cst_27) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v206) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v207) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v208) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v209) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v210) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_cst_28) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_v211) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_v212) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_cst_29) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_v213) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_v214) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_v215) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_v216) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_v217) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_cst_30) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_v218) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v219) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v220) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v221) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v222) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))⟩
/-- A buffer the stretch does not write keeps its contents, from any contents. -/
theorem opsC11_keeps (V : Valuation τ sig (Elt F)) {r : Ref sig .tc} (hr : r ∉ opsC11_W) :
    after (opsC11 : List (HloOp τ sig (Elt F))) V (Proc.devRef .tc r) = V (Proc.devRef .tc r) :=
  after_of_writes_sub opsC11 V opsC11_writes hr
/-- The stretch writes no argument of @main: its buffers come after the twenty-seven arguments. -/
theorem opsC11_W_ge : ∀ r ∈ opsC11_W, 27 ≤ r.idx.val := by decide +kernel
theorem opsC11_W_args : ∀ r ∈ mainArgs, r ∉ opsC11_W :=
  fun r hr hW => absurd (opsC11_W_ge r hW) (Nat.not_le.mpr (mainArgs_lt r hr))

/-- %223 … %232: layer 3's embedding rows gathered and summed (13 operations). -/
abbrev opsC12 : List (HloOp τ sig (Elt F)) :=
  [ StableHlo.unary main_arg5 main_v223 ((extractStridedSlice S1x100x64 ![3, 0, 0] · slices_S5x100x64_S1x100x64_3_0_0) : (⟨S5x100x64, .f32⟩ : BufTy).Contents (Elt F) → (⟨S1x100x64, .f32⟩ : BufTy).Contents (Elt F)),
    StableHlo.reshape main_v223 main_v224 rfl shapeCasts_S1x100x64_S100x64,
    StableHlo.nullary main_c_31 (constantI S_ 32 0#32),
    StableHlo.unary main_c_31 main_v225 (broadcastInDim S100000x2 ![] bcast_S_S100000x2 : (⟨S_, .i32⟩ : BufTy).Contents (Elt F) → (⟨S100000x2, .i32⟩ : BufTy).Contents (Elt F)),
    StableHlo.binary main_arg0 main_v225 main_v226 (cmpi .slt : (⟨S100000x2, .i32⟩ : BufTy).Contents (Elt F) → (⟨S100000x2, .i32⟩ : BufTy).Contents (Elt F) → (⟨S100000x2, .i1⟩ : BufTy).Contents (Elt F)),
    StableHlo.nullary main_c_32 (constantI S_ 32 100#32),
    StableHlo.unary main_c_32 main_v227 (broadcastInDim S100000x2 ![] bcast_S_S100000x2 : (⟨S_, .i32⟩ : BufTy).Contents (Elt F) → (⟨S100000x2, .i32⟩ : BufTy).Contents (Elt F)),
    StableHlo.binary main_arg0 main_v227 main_v228 (addi : (⟨S100000x2, .i32⟩ : BufTy).Contents (Elt F) → (⟨S100000x2, .i32⟩ : BufTy).Contents (Elt F) → (⟨S100000x2, .i32⟩ : BufTy).Contents (Elt F)),
    StableHlo.ternary main_v226 main_v228 main_arg0 main_v229 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v229 main_v230 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v224 main_v230 main_v231 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_33 (constant S_ .f32 0x00000000#32),
    StableHlo.binary main_v231 main_cst_33 main_v232 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)) ]
theorem opsC12_sub : (opsC12 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub ..⟩
theorem opsC12_fresh : (opsC12 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC12_W : List (Ref sig .tc) :=
  [main_v223, main_v224, main_c_31, main_v225, main_v226, main_c_32, main_v227, main_v228, main_v229, main_v230, main_v231, main_cst_33, main_v232]
theorem opsC12_writes : (opsC12 : List (HloOp τ sig (Elt F))).Forall fun op => op.writes ⊆ ((opsC12_W).map (Proc.devRef (τ := τ) .tc)).toFinset :=
  ⟨writes_sub_of_mem (y := main_v223) rfl (.head _), writes_sub_of_mem (y := main_v224) rfl (.tail _ (.head _)), writes_sub_of_mem (y := main_c_31) rfl (.tail _ (.tail _ (.head _))), writes_sub_of_mem (y := main_v225) rfl (.tail _ (.tail _ (.tail _ (.head _)))), writes_sub_of_mem (y := main_v226) rfl (.tail _ (.tail _ (.tail _ (.tail _ (.head _))))), writes_sub_of_mem (y := main_c_32) rfl (.tail _ (.tail _ (.tail _ (.tail _ (.tail _ (.head _)))))), writes_sub_of_mem (y := main_v227) rfl (.tail _ (.tail _ (.tail _ (.tail _ (.tail _ (.tail _ (.head _))))))), writes_sub_of_mem (y := main_v228) rfl (.tail _ (.tail _ (.tail _ (.tail _ (.tail _ (.tail _ (.tail _ (.head _)))))))), writes_sub_of_mem (y := main_v229) rfl (.tail _ (.tail _ (.tail _ (.tail _ (.tail _ (.tail _ (.tail _ (.tail _ (.head _))))))))), writes_sub_of_mem (y := main_v230) rfl (.tail _ (.tail _ (.tail _ (.tail _ (.tail _ (.tail _ (.tail _ (.tail _ (.tail _ (.head _)))))))))), writes_sub_of_mem (y := main_v231) rfl (.tail _ (.tail _ (.tail _ (.tail _ (.tail _ (.tail _ (.tail _ (.tail _ (.tail _ (.tail _ (.head _))))))))))), writes_sub_of_mem (y := main_cst_33) rfl (.tail _ (.tail _ (.tail _ (.tail _ (.tail _ (.tail _ (.tail _ (.tail _ (.tail _ (.tail _ (.tail _ (.head _)))))))))))), writes_sub_of_mem (y := main_v232) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC12_keeps (V : Valuation τ sig (Elt F)) {r : Ref sig .tc} (hr : r ∉ opsC12_W) :
    after (opsC12 : List (HloOp τ sig (Elt F))) V (Proc.devRef .tc r) = V (Proc.devRef .tc r) :=
  after_of_writes_sub opsC12 V opsC12_writes hr
/-- The stretch writes no argument of @main: its buffers come after the twenty-seven arguments. -/
theorem opsC12_W_ge : ∀ r ∈ opsC12_W, 27 ≤ r.idx.val := by decide +kernel
theorem opsC12_W_args : ∀ r ∈ mainArgs, r ∉ opsC12_W :=
  fun r hr hW => absurd (opsC12_W_ge r hW) (Nat.not_le.mpr (mainArgs_lt r hr))

/-- %233 … %252: layer 3's concatenation, its linear map (%233–%241), the layer's weight slices (%242–%251), the message product (%252) (20 operations). -/
abbrev opsC13 : List (HloOp τ sig (Elt F)) :=
  [ StableHlo.binary main_v222 main_v232 main_v233 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v234 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v234 main_v235 rfl shapeCasts_S1x128x64_S128x64,
    StableHlo.binary main_v233 main_v235 main_v236 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v237 ((extractStridedSlice S1x64 ![2, 0] · slices_S4x64_S1x64_2_0) : (⟨S4x64, .f32⟩ : BufTy).Contents (Elt F) → (⟨S1x64, .f32⟩ : BufTy).Contents (Elt F)),
    StableHlo.reshape main_v237 main_v238 rfl shapeCasts_S1x64_S64,
    StableHlo.unary main_v238 main_v239 (broadcastInDim S1x64 ![1] bcast_S64_S1x64_1 : (⟨S64, .f32⟩ : BufTy).Contents (Elt F) → (⟨S1x64, .f32⟩ : BufTy).Contents (Elt F)),
    StableHlo.unary main_v239 main_v240 (broadcastInDim S100000x64 ![0, 1] bcast_S1x64_S100000x64_0_1 : (⟨S1x64, .f32⟩ : BufTy).Contents (Elt F) → (⟨S100000x64, .f32⟩ : BufTy).Contents (Elt F)),
    StableHlo.binary main_v236 main_v240 main_v241 (addf : (⟨S100000x64, .f32⟩ : BufTy).Contents (Elt F) → (⟨S100000x64, .f32⟩ : BufTy).Contents (Elt F) → (⟨S100000x64, .f32⟩ : BufTy).Contents (Elt F)),
    StableHlo.unary main_arg8 main_v242 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v242 main_v243 rfl shapeCasts_S1x64x64_S64x64,
    StableHlo.unary main_arg9 main_v244 ((extractStridedSlice S1x64x192 ![3, 0, 0] · slices_S5x64x192_S1x64x192_3_0_0) : (⟨S5x64x192, .f32⟩ : BufTy).Contents (Elt F) → (⟨S1x64x192, .f32⟩ : BufTy).Contents (Elt F)),
    StableHlo.reshape main_v244 main_v245 rfl shapeCasts_S1x64x192_S64x192,
    StableHlo.unary main_arg10 main_v246 ((extractStridedSlice S1x192 ![3, 0] · slices_S5x192_S1x192_3_0) : (⟨S5x192, .f32⟩ : BufTy).Contents (Elt F) → (⟨S1x192, .f32⟩ : BufTy).Contents (Elt F)),
    StableHlo.reshape main_v246 main_v247 rfl shapeCasts_S1x192_S192,
    StableHlo.unary main_arg11 main_v248 ((extractStridedSlice S1x64x192 ![3, 0, 0] · slices_S5x64x192_S1x64x192_3_0_0) : (⟨S5x64x192, .f32⟩ : BufTy).Contents (Elt F) → (⟨S1x64x192, .f32⟩ : BufTy).Contents (Elt F)),
    StableHlo.reshape main_v248 main_v249 rfl shapeCasts_S1x64x192_S64x192,
    StableHlo.unary main_arg12 main_v250 ((extractStridedSlice S1x192 ![3, 0] · slices_S5x192_S1x192_3_0) : (⟨S5x192, .f32⟩ : BufTy).Contents (Elt F) → (⟨S1x192, .f32⟩ : BufTy).Contents (Elt F)),
    StableHlo.reshape main_v250 main_v251 rfl shapeCasts_S1x192_S192,
    StableHlo.binary main_v241 main_v243 main_v252 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem opsC13_sub : (opsC13 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub ..⟩
theorem opsC13_fresh : (opsC13 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the stretch writes, one per operation, in order. -/
abbrev opsC13_W : List (Ref sig .tc) :=
  [main_v233, main_v234, main_v235, main_v236, main_v237, main_v238, main_v239, main_v240, main_v241, main_v242, main_v243, main_v244, main_v245, main_v246, main_v247, main_v248, main_v249, main_v250, main_v251, main_v252]
theorem opsC13_writes : (opsC13 : List (HloOp τ sig (Elt F))).Forall fun op => op.writes ⊆ ((opsC13_W).map (Proc.devRef (τ := τ) .tc)).toFinset :=
  ⟨writes_sub_of_mem (y := main_v233) rfl (.head _), writes_sub_of_mem (y := main_v234) rfl (.tail _ (.head _)), writes_sub_of_mem (y := main_v235) rfl (.tail _ (.tail _ (.head _))), writes_sub_of_mem (y := main_v236) rfl (.tail _ (.tail _ (.tail _ (.head _)))), writes_sub_of_mem (y := main_v237) rfl (.tail _ (.tail _ (.tail _ (.tail _ (.head _))))), writes_sub_of_mem (y := main_v238) rfl (.tail _ (.tail _ (.tail _ (.tail _ (.tail _ (.head _)))))), writes_sub_of_mem (y := main_v239) rfl (.tail _ (.tail _ (.tail _ (.tail _ (.tail _ (.tail _ (.head _))))))), writes_sub_of_mem (y := main_v240) rfl (.tail _ (.tail _ (.tail _ (.tail _ (.tail _ (.tail _ (.tail _ (.head _)))))))), writes_sub_of_mem (y := main_v241) rfl (.tail _ (.tail _ (.tail _ (.tail _ (.tail _ (.tail _ (.tail _ (.tail _ (.head _))))))))), writes_sub_of_mem (y := main_v242) rfl (.tail _ (.tail _ (.tail _ (.tail _ (.tail _ (.tail _ (.tail _ (.tail _ (.tail _ (.head _)))))))))), writes_sub_of_mem (y := main_v243) rfl (.tail _ (.tail _ (.tail _ (.tail _ (.tail _ (.tail _ (.tail _ (.tail _ (.tail _ (.tail _ (.head _))))))))))), writes_sub_of_mem (y := main_v244) rfl (.tail _ (.tail _ (.tail _ (.tail _ (.tail _ (.tail _ (.tail _ (.tail _ (.tail _ (.tail _ (.tail _ (.head _)))))))))))), writes_sub_of_mem (y := main_v245) rfl (.tail _ (.tail _ (.tail _ (.tail _ (.tail _ (.tail _ (.tail _ (.tail _ (.tail _ (.tail _ (.tail _ (.tail _ (.head _))))))))))))), writes_sub_of_mem (y := main_v246) rfl (.tail _ (.tail _ (.tail _ (.tail _ (.tail _ (.tail _ (.tail _ (.tail _ (.tail _ (.tail _ (.tail _ (.tail _ (.tail _ (.head _)))))))))))))), writes_sub_of_mem (y := main_v247) rfl (.tail _ (.tail _ (.tail _ (.tail _ (.tail _ (.tail _ (.tail _ (.tail _ (.tail _ (.tail _ (.tail _ (.tail _ (.tail _ (.tail _ (.head _))))))))))))))), writes_sub_of_mem (y := main_v248) rfl (.tail _ (.tail _ (.tail _ (.tail _ (.tail _ (.tail _ (.tail _ (.tail _ (.tail _ (.tail _ (.tail _ (.tail _ (.tail _ (.tail _ (.tail _ (.head _)))))))))))))))), writes_sub_of_mem (y := main_v249) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_v250) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v251) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v252) rfl (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩
/-- A buffer the stretch does not write keeps its contents, from any contents. -/
theorem opsC13_keeps (V : Valuation τ sig (Elt F)) {r : Ref sig .tc} (hr : r ∉ opsC13_W) :
    after (opsC13 : List (HloOp τ sig (Elt F))) V (Proc.devRef .tc r) = V (Proc.devRef .tc r) :=
  after_of_writes_sub opsC13 V opsC13_writes hr
/-- The stretch writes no argument of @main: its buffers come after the twenty-seven arguments. -/
theorem opsC13_W_ge : ∀ r ∈ opsC13_W, 27 ≤ r.idx.val := by decide +kernel
theorem opsC13_W_args : ∀ r ∈ mainArgs, r ∉ opsC13_W :=
  fun r hr hW => absurd (opsC13_W_ge r hW) (Nat.not_le.mpr (mainArgs_lt r hr))

/-- %c_34 … %262: layer 3's messages gathered and added (13 operations). -/
abbrev opsC14 : List (HloOp τ sig (Elt F)) :=
  [ StableHlo.nullary main_c_34 (constantI S_ 32 0#32),
    StableHlo.unary main_c_34 main_v253 (broadcastInDim S1600000 ![] bcast_S_S1600000 : (⟨S_, .i32⟩ : BufTy).Contents (Elt F) → (⟨S1600000, .i32⟩ : BufTy).Contents (Elt F)),
    StableHlo.binary main_v1 main_v253 main_v254 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v255 (broadcastInDim S1600000 ![] bcast_S_S1600000 : (⟨S_, .i32⟩ : BufTy).Contents (Elt F) → (⟨S1600000, .i32⟩ : BufTy).Contents (Elt F)),
    StableHlo.binary main_v1 main_v255 main_v256 (addi : (⟨S1600000, .i32⟩ : BufTy).Contents (Elt F) → (⟨S1600000, .i32⟩ : BufTy).Contents (Elt F) → (⟨S1600000, .i32⟩ : BufTy).Contents (Elt F)),
    StableHlo.ternary main_v254 main_v256 main_v1 main_v257 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v257 main_v258 (broadcastInDim S1600000x1 ![0] bcast_S1600000_S1600000x1_0 : (⟨S1600000, .i32⟩ : BufTy).Contents (Elt F) → (⟨S1600000x1, .i32⟩ : BufTy).Contents (Elt F)),
    StableHlo.binary main_v252 main_v258 main_v259 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_36 (constant S_ .f32 0x00000000#32),
    StableHlo.unary main_cst_36 main_v260 (broadcastInDim S100000x64 ![] bcast_S_S100000x64 : (⟨S_, .f32⟩ : BufTy).Contents (Elt F) → (⟨S100000x64, .f32⟩ : BufTy).Contents (Elt F)),
    StableHlo.unary main_v3 main_v261 (broadcastInDim S1600000x1 ![0] bcast_S1600000_S1600000x1_0 : (⟨S1600000, .i32⟩ : BufTy).Contents (Elt F) → (⟨S1600000x1, .i32⟩ : BufTy).Contents (Elt F)),
    StableHlo.ternary main_v260 main_v261 main_v259 main_v262 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC14_sub : (opsC14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsC14_fresh : (opsC14 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC14_W : List (Ref sig .tc) :=
  [main_c_34, main_v253, main_v254, main_c_35, main_v255, main_v256, main_v257, main_v258, main_v259, main_cst_36, main_v260, main_v261, main_v262]
theorem opsC14_writes : (opsC14 : List (HloOp τ sig (Elt F))).Forall fun op => op.writes ⊆ ((opsC14_W).map (Proc.devRef (τ := τ) .tc)).toFinset :=
  ⟨writes_sub_of_mem (y := main_c_34) rfl (.head _), writes_sub_of_mem (y := main_v253) rfl (.tail _ (.head _)), writes_sub_of_mem (y := main_v254) rfl (.tail _ (.tail _ (.head _))), writes_sub_of_mem (y := main_c_35) rfl (.tail _ (.tail _ (.tail _ (.head _)))), writes_sub_of_mem (y := main_v255) rfl (.tail _ (.tail _ (.tail _ (.tail _ (.head _))))), writes_sub_of_mem (y := main_v256) rfl (.tail _ (.tail _ (.tail _ (.tail _ (.tail _ (.head _)))))), writes_sub_of_mem (y := main_v257) rfl (.tail _ (.tail _ (.tail _ (.tail _ (.tail _ (.tail _ (.head _))))))), writes_sub_of_mem (y := main_v258) rfl (.tail _ (.tail _ (.tail _ (.tail _ (.tail _ (.tail _ (.tail _ (.head _)))))))), writes_sub_of_mem (y := main_v259) rfl (.tail _ (.tail _ (.tail _ (.tail _ (.tail _ (.tail _ (.tail _ (.tail _ (.head _))))))))), writes_sub_of_mem (y := main_cst_36) rfl (.tail _ (.tail _ (.tail _ (.tail _ (.tail _ (.tail _ (.tail _ (.tail _ (.tail _ (.head _)))))))))), writes_sub_of_mem (y := main_v260) rfl (.tail _ (.tail _ (.tail _ (.tail _ (.tail _ (.tail _ (.tail _ (.tail _ (.tail _ (.tail _ (.head _))))))))))), writes_sub_of_mem (y := main_v261) rfl (.tail _ (.tail _ (.tail _ (.tail _ (.tail _ (.tail _ (.tail _ (.tail _ (.tail _ (.tail _ (.tail _ (.head _)))))))))))), writes_sub_of_mem (y := main_v262) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC14_keeps (V : Valuation τ sig (Elt F)) {r : Ref sig .tc} (hr : r ∉ opsC14_W) :
    after (opsC14 : List (HloOp τ sig (Elt F))) V (Proc.devRef .tc r) = V (Proc.devRef .tc r) :=
  after_of_writes_sub opsC14 V opsC14_writes hr
/-- The stretch writes no argument of @main: its buffers come after the twenty-seven arguments. -/
theorem opsC14_W_ge : ∀ r ∈ opsC14_W, 27 ≤ r.idx.val := by decide +kernel
theorem opsC14_W_args : ∀ r ∈ mainArgs, r ∉ opsC14_W :=
  fun r hr hW => absurd (opsC14_W_ge r hW) (Nat.not_le.mpr (mainArgs_lt r hr))

/-- %263 … %298: layer 3's gated update (41 operations). -/
abbrev opsC15 : List (HloOp τ sig (Elt F)) :=
  [ StableHlo.binary main_v262 main_v245 main_v263 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v247 main_v264 (broadcastInDim S1x192 ![1] bcast_S192_S1x192_1 : (⟨S192, .f32⟩ : BufTy).Contents (Elt F) → (⟨S1x192, .f32⟩ : BufTy).Contents (Elt F)),
    StableHlo.unary main_v264 main_v265 (broadcastInDim S100000x192 ![0, 1] bcast_S1x192_S100000x192_0_1 : (⟨S1x192, .f32⟩ : BufTy).Contents (Elt F) → (⟨S100000x192, .f32⟩ : BufTy).Contents (Elt F)),
    StableHlo.binary main_v263 main_v265 main_v266 (addf : (⟨S100000x192, .f32⟩ : BufTy).Contents (Elt F) → (⟨S100000x192, .f32⟩ : BufTy).Contents (Elt F) → (⟨S100000x192, .f32⟩ : BufTy).Contents (Elt F)),
    StableHlo.binary main_v241 main_v249 main_v267 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v251 main_v268 (broadcastInDim S1x192 ![1] bcast_S192_S1x192_1 : (⟨S192, .f32⟩ : BufTy).Contents (Elt F) → (⟨S1x192, .f32⟩ : BufTy).Contents (Elt F)),
    StableHlo.unary main_v268 main_v269 (broadcastInDim S100000x192 ![0, 1] bcast_S1x192_S100000x192_0_1 : (⟨S1x192, .f32⟩ : BufTy).Contents (Elt F) → (⟨S100000x192, .f32⟩ : BufTy).Contents (Elt F)),
    StableHlo.binary main_v267 main_v269 main_v270 (addf : (⟨S100000x192, .f32⟩ : BufTy).Contents (Elt F) → (⟨S100000x192, .f32⟩ : BufTy).Contents (Elt F) → (⟨S100000x192, .f32⟩ : BufTy).Contents (Elt F)),
    StableHlo.unary main_v266 main_v271 ((extractStridedSlice S100000x64 ![0, 0] · slices_S100000x192_S100000x64_0_0) : (⟨S100000x192, .f32⟩ : BufTy).Contents (Elt F) → (⟨S100000x64, .f32⟩ : BufTy).Contents (Elt F)),
    StableHlo.unary main_v266 main_v272 ((extractStridedSlice S100000x64 ![0, 64] · slices_S100000x192_S100000x64_0_64) : (⟨S100000x192, .f32⟩ : BufTy).Contents (Elt F) → (⟨S100000x64, .f32⟩ : BufTy).Contents (Elt F)),
    StableHlo.unary main_v266 main_v273 ((extractStridedSlice S100000x64 ![0, 128] · slices_S100000x192_S100000x64_0_128) : (⟨S100000x192, .f32⟩ : BufTy).Contents (Elt F) → (⟨S100000x64, .f32⟩ : BufTy).Contents (Elt F)),
    StableHlo.unary main_v270 main_v274 ((extractStridedSlice S100000x64 ![0, 0] · slices_S100000x192_S100000x64_0_0) : (⟨S100000x192, .f32⟩ : BufTy).Contents (Elt F) → (⟨S100000x64, .f32⟩ : BufTy).Contents (Elt F)),
    StableHlo.unary main_v270 main_v275 ((extractStridedSlice S100000x64 ![0, 64] · slices_S100000x192_S100000x64_0_64) : (⟨S100000x192, .f32⟩ : BufTy).Contents (Elt F) → (⟨S100000x64, .f32⟩ : BufTy).Contents (Elt F)),
    StableHlo.unary main_v270 main_v276 ((extractStridedSlice S100000x64 ![0, 128] · slices_S100000x192_S100000x64_0_128) : (⟨S100000x192, .f32⟩ : BufTy).Contents (Elt F) → (⟨S100000x64, .f32⟩ : BufTy).Contents (Elt F)),
    StableHlo.binary main_v271 main_v274 main_v277 (addf : (⟨S100000x64, .f32⟩ : BufTy).Contents (Elt F) → (⟨S100000x64, .f32⟩ : BufTy).Contents (Elt F) → (⟨S100000x64, .f32⟩ : BufTy).Contents (Elt F)),
    StableHlo.unary main_v277 main_v278 (Host.negf : (⟨S100000x64, .f32⟩ : BufTy).Contents (Elt F) → (⟨S100000x64, .f32⟩ : BufTy).Contents (Elt F)),
    StableHlo.unary main_v278 main_v279 (Host.exp : (⟨S100000x64, .f32⟩ : BufTy).Contents (Elt F) → (⟨S100000x64, .f32⟩ : BufTy).Contents (Elt F)),
    StableHlo.nullary main_cst_37 (constant S_ .f32 0x3F800000#32),
    StableHlo.unary main_cst_37 main_v280 (broadcastInDim S100000x64 ![] bcast_S_S100000x64 : (⟨S_, .f32⟩ : BufTy).Contents (Elt F) → (⟨S100000x64, .f32⟩ : BufTy).Contents (Elt F)),
    StableHlo.binary main_v280 main_v279 main_v281 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3F800000#32),
    StableHlo.unary main_cst_38 main_v282 (broadcastInDim S100000x64 ![] bcast_S_S100000x64 : (⟨S_, .f32⟩ : BufTy).Contents (Elt F) → (⟨S100000x64, .f32⟩ : BufTy).Contents (Elt F)),
    StableHlo.binary main_v282 main_v281 main_v283 (Host.divf : (⟨S100000x64, .f32⟩ : BufTy).Contents (Elt F) → (⟨S100000x64, .f32⟩ : BufTy).Contents (Elt F) → (⟨S100000x64, .f32⟩ : BufTy).Contents (Elt F)),
    StableHlo.binary main_v272 main_v275 main_v284 (addf : (⟨S100000x64, .f32⟩ : BufTy).Contents (Elt F) → (⟨S100000x64, .f32⟩ : BufTy).Contents (Elt F) → (⟨S100000x64, .f32⟩ : BufTy).Contents (Elt F)),
    StableHlo.unary main_v284 main_v285 (Host.negf : (⟨S100000x64, .f32⟩ : BufTy).Contents (Elt F) → (⟨S100000x64, .f32⟩ : BufTy).Contents (Elt F)),
    StableHlo.unary main_v285 main_v286 (Host.exp : (⟨S100000x64, .f32⟩ : BufTy).Contents (Elt F) → (⟨S100000x64, .f32⟩ : BufTy).Contents (Elt F)),
    StableHlo.nullary main_cst_39 (constant S_ .f32 0x3F800000#32),
    StableHlo.unary main_cst_39 main_v287 (broadcastInDim S100000x64 ![] bcast_S_S100000x64 : (⟨S_, .f32⟩ : BufTy).Contents (Elt F) → (⟨S100000x64, .f32⟩ : BufTy).Contents (Elt F)),
    StableHlo.binary main_v287 main_v286 main_v288 (addf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x3F800000#32),
    StableHlo.unary main_cst_40 main_v289 (broadcastInDim S100000x64 ![] bcast_S_S100000x64 : (⟨S_, .f32⟩ : BufTy).Contents (Elt F) → (⟨S100000x64, .f32⟩ : BufTy).Contents (Elt F)),
    StableHlo.binary main_v289 main_v288 main_v290 (Host.divf : (⟨S100000x64, .f32⟩ : BufTy).Contents (Elt F) → (⟨S100000x64, .f32⟩ : BufTy).Contents (Elt F) → (⟨S100000x64, .f32⟩ : BufTy).Contents (Elt F)),
    StableHlo.binary main_v283 main_v276 main_v291 (mulf : (⟨S100000x64, .f32⟩ : BufTy).Contents (Elt F) → (⟨S100000x64, .f32⟩ : BufTy).Contents (Elt F) → (⟨S100000x64, .f32⟩ : BufTy).Contents (Elt F)),
    StableHlo.binary main_v273 main_v291 main_v292 (addf : (⟨S100000x64, .f32⟩ : BufTy).Contents (Elt F) → (⟨S100000x64, .f32⟩ : BufTy).Contents (Elt F) → (⟨S100000x64, .f32⟩ : BufTy).Contents (Elt F)),
    StableHlo.unary main_v292 main_v293 (Host.tanh : (⟨S100000x64, .f32⟩ : BufTy).Contents (Elt F) → (⟨S100000x64, .f32⟩ : BufTy).Contents (Elt F)),
    StableHlo.nullary main_cst_41 (constant S_ .f32 0x3F800000#32),
    StableHlo.unary main_cst_41 main_v294 (broadcastInDim S100000x64 ![] bcast_S_S100000x64 : (⟨S_, .f32⟩ : BufTy).Contents (Elt F) → (⟨S100000x64, .f32⟩ : BufTy).Contents (Elt F)),
    StableHlo.binary main_v294 main_v290 main_v295 (subf : (⟨S100000x64, .f32⟩ : BufTy).Contents (Elt F) → (⟨S100000x64, .f32⟩ : BufTy).Contents (Elt F) → (⟨S100000x64, .f32⟩ : BufTy).Contents (Elt F)),
    StableHlo.binary main_v295 main_v293 main_v296 (mulf : (⟨S100000x64, .f32⟩ : BufTy).Contents (Elt F) → (⟨S100000x64, .f32⟩ : BufTy).Contents (Elt F) → (⟨S100000x64, .f32⟩ : BufTy).Contents (Elt F)),
    StableHlo.binary main_v290 main_v241 main_v297 (mulf : (⟨S100000x64, .f32⟩ : BufTy).Contents (Elt F) → (⟨S100000x64, .f32⟩ : BufTy).Contents (Elt F) → (⟨S100000x64, .f32⟩ : BufTy).Contents (Elt F)),
    StableHlo.binary main_v296 main_v297 main_v298 (addf : (⟨S100000x64, .f32⟩ : BufTy).Contents (Elt F) → (⟨S100000x64, .f32⟩ : BufTy).Contents (Elt F) → (⟨S100000x64, .f32⟩ : BufTy).Contents (Elt F)) ]
theorem opsC15_sub : (opsC15 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsC15_fresh : (opsC15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC15_W : List (Ref sig .tc) :=
  [main_v263, main_v264, main_v265, main_v266, main_v267, main_v268, main_v269, main_v270, main_v271, main_v272, main_v273, main_v274, main_v275, main_v276, main_v277, main_v278, main_v279, main_cst_37, main_v280, main_v281, main_cst_38, main_v282, main_v283, main_v284, main_v285, main_v286, main_cst_39, main_v287, main_v288, main_cst_40, main_v289, main_v290, main_v291, main_v292, main_v293, main_cst_41, main_v294, main_v295, main_v296, main_v297, main_v298]
theorem opsC15_writes : (opsC15 : List (HloOp τ sig (Elt F))).Forall fun op => op.writes ⊆ ((opsC15_W).map (Proc.devRef (τ := τ) .tc)).toFinset :=
  ⟨writes_sub_of_mem (y := main_v263) rfl (.head _), writes_sub_of_mem (y := main_v264) rfl (.tail _ (.head _)), writes_sub_of_mem (y := main_v265) rfl (.tail _ (.tail _ (.head _))), writes_sub_of_mem (y := main_v266) rfl (.tail _ (.tail _ (.tail _ (.head _)))), writes_sub_of_mem (y := main_v267) rfl (.tail _ (.tail _ (.tail _ (.tail _ (.head _))))), writes_sub_of_mem (y := main_v268) rfl (.tail _ (.tail _ (.tail _ (.tail _ (.tail _ (.head _)))))), writes_sub_of_mem (y := main_v269) rfl (.tail _ (.tail _ (.tail _ (.tail _ (.tail _ (.tail _ (.head _))))))), writes_sub_of_mem (y := main_v270) rfl (.tail _ (.tail _ (.tail _ (.tail _ (.tail _ (.tail _ (.tail _ (.head _)))))))), writes_sub_of_mem (y := main_v271) rfl (.tail _ (.tail _ (.tail _ (.tail _ (.tail _ (.tail _ (.tail _ (.tail _ (.head _))))))))), writes_sub_of_mem (y := main_v272) rfl (.tail _ (.tail _ (.tail _ (.tail _ (.tail _ (.tail _ (.tail _ (.tail _ (.tail _ (.head _)))))))))), writes_sub_of_mem (y := main_v273) rfl (.tail _ (.tail _ (.tail _ (.tail _ (.tail _ (.tail _ (.tail _ (.tail _ (.tail _ (.tail _ (.head _))))))))))), writes_sub_of_mem (y := main_v274) rfl (.tail _ (.tail _ (.tail _ (.tail _ (.tail _ (.tail _ (.tail _ (.tail _ (.tail _ (.tail _ (.tail _ (.head _)))))))))))), writes_sub_of_mem (y := main_v275) rfl (.tail _ (.tail _ (.tail _ (.tail _ (.tail _ (.tail _ (.tail _ (.tail _ (.tail _ (.tail _ (.tail _ (.tail _ (.head _))))))))))))), writes_sub_of_mem (y := main_v276) rfl (.tail _ (.tail _ (.tail _ (.tail _ (.tail _ (.tail _ (.tail _ (.tail _ (.tail _ (.tail _ (.tail _ (.tail _ (.tail _ (.head _)))))))))))))), writes_sub_of_mem (y := main_v277) rfl (.tail _ (.tail _ (.tail _ (.tail _ (.tail _ (.tail _ (.tail _ (.tail _ (.tail _ (.tail _ (.tail _ (.tail _ (.tail _ (.tail _ (.head _))))))))))))))), writes_sub_of_mem (y := main_v278) rfl (.tail _ (.tail _ (.tail _ (.tail _ (.tail _ (.tail _ (.tail _ (.tail _ (.tail _ (.tail _ (.tail _ (.tail _ (.tail _ (.tail _ (.tail _ (.head _)))))))))))))))), writes_sub_of_mem (y := main_v279) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_cst_37) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v280) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v281) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_cst_38) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v282) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v283) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v284) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v285) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v286) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_cst_39) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_v287) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_v288) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_cst_40) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_v289) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_v290) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_v291) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_v292) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_v293) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_cst_41) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_v294) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v295) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v296) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v297) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v298) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))⟩
/-- A buffer the stretch does not write keeps its contents, from any contents. -/
theorem opsC15_keeps (V : Valuation τ sig (Elt F)) {r : Ref sig .tc} (hr : r ∉ opsC15_W) :
    after (opsC15 : List (HloOp τ sig (Elt F))) V (Proc.devRef .tc r) = V (Proc.devRef .tc r) :=
  after_of_writes_sub opsC15 V opsC15_writes hr
/-- The stretch writes no argument of @main: its buffers come after the twenty-seven arguments. -/
theorem opsC15_W_ge : ∀ r ∈ opsC15_W, 27 ≤ r.idx.val := by decide +kernel
theorem opsC15_W_args : ∀ r ∈ mainArgs, r ∉ opsC15_W :=
  fun r hr hW => absurd (opsC15_W_ge r hW) (Nat.not_le.mpr (mainArgs_lt r hr))

/-- %299 … %308: layer 4's embedding rows gathered and summed (13 operations). -/
abbrev opsC16 : List (HloOp τ sig (Elt F)) :=
  [ StableHlo.unary main_arg5 main_v299 ((extractStridedSlice S1x100x64 ![4, 0, 0] · slices_S5x100x64_S1x100x64_4_0_0) : (⟨S5x100x64, .f32⟩ : BufTy).Contents (Elt F) → (⟨S1x100x64, .f32⟩ : BufTy).Contents (Elt F)),
    StableHlo.reshape main_v299 main_v300 rfl shapeCasts_S1x100x64_S100x64,
    StableHlo.nullary main_c_42 (constantI S_ 32 0#32),
    StableHlo.unary main_c_42 main_v301 (broadcastInDim S100000x2 ![] bcast_S_S100000x2 : (⟨S_, .i32⟩ : BufTy).Contents (Elt F) → (⟨S100000x2, .i32⟩ : BufTy).Contents (Elt F)),
    StableHlo.binary main_arg0 main_v301 main_v302 (cmpi .slt : (⟨S100000x2, .i32⟩ : BufTy).Contents (Elt F) → (⟨S100000x2, .i32⟩ : BufTy).Contents (Elt F) → (⟨S100000x2, .i1⟩ : BufTy).Contents (Elt F)),
    StableHlo.nullary main_c_43 (constantI S_ 32 100#32),
    StableHlo.unary main_c_43 main_v303 (broadcastInDim S100000x2 ![] bcast_S_S100000x2 : (⟨S_, .i32⟩ : BufTy).Contents (Elt F) → (⟨S100000x2, .i32⟩ : BufTy).Contents (Elt F)),
    StableHlo.binary main_arg0 main_v303 main_v304 (addi : (⟨S100000x2, .i32⟩ : BufTy).Contents (Elt F) → (⟨S100000x2, .i32⟩ : BufTy).Contents (Elt F) → (⟨S100000x2, .i32⟩ : BufTy).Contents (Elt F)),
    StableHlo.ternary main_v302 main_v304 main_arg0 main_v305 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v305 main_v306 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v300 main_v306 main_v307 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_44 (constant S_ .f32 0x00000000#32),
    StableHlo.binary main_v307 main_cst_44 main_v308 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)) ]
theorem opsC16_sub : (opsC16 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub ..⟩
theorem opsC16_fresh : (opsC16 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC16_W : List (Ref sig .tc) :=
  [main_v299, main_v300, main_c_42, main_v301, main_v302, main_c_43, main_v303, main_v304, main_v305, main_v306, main_v307, main_cst_44, main_v308]
theorem opsC16_writes : (opsC16 : List (HloOp τ sig (Elt F))).Forall fun op => op.writes ⊆ ((opsC16_W).map (Proc.devRef (τ := τ) .tc)).toFinset :=
  ⟨writes_sub_of_mem (y := main_v299) rfl (.head _), writes_sub_of_mem (y := main_v300) rfl (.tail _ (.head _)), writes_sub_of_mem (y := main_c_42) rfl (.tail _ (.tail _ (.head _))), writes_sub_of_mem (y := main_v301) rfl (.tail _ (.tail _ (.tail _ (.head _)))), writes_sub_of_mem (y := main_v302) rfl (.tail _ (.tail _ (.tail _ (.tail _ (.head _))))), writes_sub_of_mem (y := main_c_43) rfl (.tail _ (.tail _ (.tail _ (.tail _ (.tail _ (.head _)))))), writes_sub_of_mem (y := main_v303) rfl (.tail _ (.tail _ (.tail _ (.tail _ (.tail _ (.tail _ (.head _))))))), writes_sub_of_mem (y := main_v304) rfl (.tail _ (.tail _ (.tail _ (.tail _ (.tail _ (.tail _ (.tail _ (.head _)))))))), writes_sub_of_mem (y := main_v305) rfl (.tail _ (.tail _ (.tail _ (.tail _ (.tail _ (.tail _ (.tail _ (.tail _ (.head _))))))))), writes_sub_of_mem (y := main_v306) rfl (.tail _ (.tail _ (.tail _ (.tail _ (.tail _ (.tail _ (.tail _ (.tail _ (.tail _ (.head _)))))))))), writes_sub_of_mem (y := main_v307) rfl (.tail _ (.tail _ (.tail _ (.tail _ (.tail _ (.tail _ (.tail _ (.tail _ (.tail _ (.tail _ (.head _))))))))))), writes_sub_of_mem (y := main_cst_44) rfl (.tail _ (.tail _ (.tail _ (.tail _ (.tail _ (.tail _ (.tail _ (.tail _ (.tail _ (.tail _ (.tail _ (.head _)))))))))))), writes_sub_of_mem (y := main_v308) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC16_keeps (V : Valuation τ sig (Elt F)) {r : Ref sig .tc} (hr : r ∉ opsC16_W) :
    after (opsC16 : List (HloOp τ sig (Elt F))) V (Proc.devRef .tc r) = V (Proc.devRef .tc r) :=
  after_of_writes_sub opsC16 V opsC16_writes hr
/-- The stretch writes no argument of @main: its buffers come after the twenty-seven arguments. -/
theorem opsC16_W_ge : ∀ r ∈ opsC16_W, 27 ≤ r.idx.val := by decide +kernel
theorem opsC16_W_args : ∀ r ∈ mainArgs, r ∉ opsC16_W :=
  fun r hr hW => absurd (opsC16_W_ge r hW) (Nat.not_le.mpr (mainArgs_lt r hr))

/-- %309 … %328: layer 4's concatenation, its linear map (%309–%317), the layer's weight slices (%318–%327), the message product (%328) (20 operations). -/
abbrev opsC17 : List (HloOp τ sig (Elt F)) :=
  [ StableHlo.binary main_v298 main_v308 main_v309 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v310 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v310 main_v311 rfl shapeCasts_S1x128x64_S128x64,
    StableHlo.binary main_v309 main_v311 main_v312 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v313 ((extractStridedSlice S1x64 ![3, 0] · slices_S4x64_S1x64_3_0) : (⟨S4x64, .f32⟩ : BufTy).Contents (Elt F) → (⟨S1x64, .f32⟩ : BufTy).Contents (Elt F)),
    StableHlo.reshape main_v313 main_v314 rfl shapeCasts_S1x64_S64,
    StableHlo.unary main_v314 main_v315 (broadcastInDim S1x64 ![1] bcast_S64_S1x64_1 : (⟨S64, .f32⟩ : BufTy).Contents (Elt F) → (⟨S1x64, .f32⟩ : BufTy).Contents (Elt F)),
    StableHlo.unary main_v315 main_v316 (broadcastInDim S100000x64 ![0, 1] bcast_S1x64_S100000x64_0_1 : (⟨S1x64, .f32⟩ : BufTy).Contents (Elt F) → (⟨S100000x64, .f32⟩ : BufTy).Contents (Elt F)),
    StableHlo.binary main_v312 main_v316 main_v317 (addf : (⟨S100000x64, .f32⟩ : BufTy).Contents (Elt F) → (⟨S100000x64, .f32⟩ : BufTy).Contents (Elt F) → (⟨S100000x64, .f32⟩ : BufTy).Contents (Elt F)),
    StableHlo.unary main_arg8 main_v318 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v318 main_v319 rfl shapeCasts_S1x64x64_S64x64,
    StableHlo.unary main_arg9 main_v320 ((extractStridedSlice S1x64x192 ![4, 0, 0] · slices_S5x64x192_S1x64x192_4_0_0) : (⟨S5x64x192, .f32⟩ : BufTy).Contents (Elt F) → (⟨S1x64x192, .f32⟩ : BufTy).Contents (Elt F)),
    StableHlo.reshape main_v320 main_v321 rfl shapeCasts_S1x64x192_S64x192,
    StableHlo.unary main_arg10 main_v322 ((extractStridedSlice S1x192 ![4, 0] · slices_S5x192_S1x192_4_0) : (⟨S5x192, .f32⟩ : BufTy).Contents (Elt F) → (⟨S1x192, .f32⟩ : BufTy).Contents (Elt F)),
    StableHlo.reshape main_v322 main_v323 rfl shapeCasts_S1x192_S192,
    StableHlo.unary main_arg11 main_v324 ((extractStridedSlice S1x64x192 ![4, 0, 0] · slices_S5x64x192_S1x64x192_4_0_0) : (⟨S5x64x192, .f32⟩ : BufTy).Contents (Elt F) → (⟨S1x64x192, .f32⟩ : BufTy).Contents (Elt F)),
    StableHlo.reshape main_v324 main_v325 rfl shapeCasts_S1x64x192_S64x192,
    StableHlo.unary main_arg12 main_v326 ((extractStridedSlice S1x192 ![4, 0] · slices_S5x192_S1x192_4_0) : (⟨S5x192, .f32⟩ : BufTy).Contents (Elt F) → (⟨S1x192, .f32⟩ : BufTy).Contents (Elt F)),
    StableHlo.reshape main_v326 main_v327 rfl shapeCasts_S1x192_S192,
    StableHlo.binary main_v317 main_v319 main_v328 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem opsC17_sub : (opsC17 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub ..⟩
theorem opsC17_fresh : (opsC17 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the stretch writes, one per operation, in order. -/
abbrev opsC17_W : List (Ref sig .tc) :=
  [main_v309, main_v310, main_v311, main_v312, main_v313, main_v314, main_v315, main_v316, main_v317, main_v318, main_v319, main_v320, main_v321, main_v322, main_v323, main_v324, main_v325, main_v326, main_v327, main_v328]
theorem opsC17_writes : (opsC17 : List (HloOp τ sig (Elt F))).Forall fun op => op.writes ⊆ ((opsC17_W).map (Proc.devRef (τ := τ) .tc)).toFinset :=
  ⟨writes_sub_of_mem (y := main_v309) rfl (.head _), writes_sub_of_mem (y := main_v310) rfl (.tail _ (.head _)), writes_sub_of_mem (y := main_v311) rfl (.tail _ (.tail _ (.head _))), writes_sub_of_mem (y := main_v312) rfl (.tail _ (.tail _ (.tail _ (.head _)))), writes_sub_of_mem (y := main_v313) rfl (.tail _ (.tail _ (.tail _ (.tail _ (.head _))))), writes_sub_of_mem (y := main_v314) rfl (.tail _ (.tail _ (.tail _ (.tail _ (.tail _ (.head _)))))), writes_sub_of_mem (y := main_v315) rfl (.tail _ (.tail _ (.tail _ (.tail _ (.tail _ (.tail _ (.head _))))))), writes_sub_of_mem (y := main_v316) rfl (.tail _ (.tail _ (.tail _ (.tail _ (.tail _ (.tail _ (.tail _ (.head _)))))))), writes_sub_of_mem (y := main_v317) rfl (.tail _ (.tail _ (.tail _ (.tail _ (.tail _ (.tail _ (.tail _ (.tail _ (.head _))))))))), writes_sub_of_mem (y := main_v318) rfl (.tail _ (.tail _ (.tail _ (.tail _ (.tail _ (.tail _ (.tail _ (.tail _ (.tail _ (.head _)))))))))), writes_sub_of_mem (y := main_v319) rfl (.tail _ (.tail _ (.tail _ (.tail _ (.tail _ (.tail _ (.tail _ (.tail _ (.tail _ (.tail _ (.head _))))))))))), writes_sub_of_mem (y := main_v320) rfl (.tail _ (.tail _ (.tail _ (.tail _ (.tail _ (.tail _ (.tail _ (.tail _ (.tail _ (.tail _ (.tail _ (.head _)))))))))))), writes_sub_of_mem (y := main_v321) rfl (.tail _ (.tail _ (.tail _ (.tail _ (.tail _ (.tail _ (.tail _ (.tail _ (.tail _ (.tail _ (.tail _ (.tail _ (.head _))))))))))))), writes_sub_of_mem (y := main_v322) rfl (.tail _ (.tail _ (.tail _ (.tail _ (.tail _ (.tail _ (.tail _ (.tail _ (.tail _ (.tail _ (.tail _ (.tail _ (.tail _ (.head _)))))))))))))), writes_sub_of_mem (y := main_v323) rfl (.tail _ (.tail _ (.tail _ (.tail _ (.tail _ (.tail _ (.tail _ (.tail _ (.tail _ (.tail _ (.tail _ (.tail _ (.tail _ (.tail _ (.head _))))))))))))))), writes_sub_of_mem (y := main_v324) rfl (.tail _ (.tail _ (.tail _ (.tail _ (.tail _ (.tail _ (.tail _ (.tail _ (.tail _ (.tail _ (.tail _ (.tail _ (.tail _ (.tail _ (.tail _ (.head _)))))))))))))))), writes_sub_of_mem (y := main_v325) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_v326) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v327) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v328) rfl (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))⟩
/-- A buffer the stretch does not write keeps its contents, from any contents. -/
theorem opsC17_keeps (V : Valuation τ sig (Elt F)) {r : Ref sig .tc} (hr : r ∉ opsC17_W) :
    after (opsC17 : List (HloOp τ sig (Elt F))) V (Proc.devRef .tc r) = V (Proc.devRef .tc r) :=
  after_of_writes_sub opsC17 V opsC17_writes hr
/-- The stretch writes no argument of @main: its buffers come after the twenty-seven arguments. -/
theorem opsC17_W_ge : ∀ r ∈ opsC17_W, 27 ≤ r.idx.val := by decide +kernel
theorem opsC17_W_args : ∀ r ∈ mainArgs, r ∉ opsC17_W :=
  fun r hr hW => absurd (opsC17_W_ge r hW) (Nat.not_le.mpr (mainArgs_lt r hr))

/-- %c_45 … %338: layer 4's messages gathered and added (13 operations). -/
abbrev opsC18 : List (HloOp τ sig (Elt F)) :=
  [ StableHlo.nullary main_c_45 (constantI S_ 32 0#32),
    StableHlo.unary main_c_45 main_v329 (broadcastInDim S1600000 ![] bcast_S_S1600000 : (⟨S_, .i32⟩ : BufTy).Contents (Elt F) → (⟨S1600000, .i32⟩ : BufTy).Contents (Elt F)),
    StableHlo.binary main_v1 main_v329 main_v330 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v331 (broadcastInDim S1600000 ![] bcast_S_S1600000 : (⟨S_, .i32⟩ : BufTy).Contents (Elt F) → (⟨S1600000, .i32⟩ : BufTy).Contents (Elt F)),
    StableHlo.binary main_v1 main_v331 main_v332 (addi : (⟨S1600000, .i32⟩ : BufTy).Contents (Elt F) → (⟨S1600000, .i32⟩ : BufTy).Contents (Elt F) → (⟨S1600000, .i32⟩ : BufTy).Contents (Elt F)),
    StableHlo.ternary main_v330 main_v332 main_v1 main_v333 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v333 main_v334 (broadcastInDim S1600000x1 ![0] bcast_S1600000_S1600000x1_0 : (⟨S1600000, .i32⟩ : BufTy).Contents (Elt F) → (⟨S1600000x1, .i32⟩ : BufTy).Contents (Elt F)),
    StableHlo.binary main_v328 main_v334 main_v335 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_47 (constant S_ .f32 0x00000000#32),
    StableHlo.unary main_cst_47 main_v336 (broadcastInDim S100000x64 ![] bcast_S_S100000x64 : (⟨S_, .f32⟩ : BufTy).Contents (Elt F) → (⟨S100000x64, .f32⟩ : BufTy).Contents (Elt F)),
    StableHlo.unary main_v3 main_v337 (broadcastInDim S1600000x1 ![0] bcast_S1600000_S1600000x1_0 : (⟨S1600000, .i32⟩ : BufTy).Contents (Elt F) → (⟨S1600000x1, .i32⟩ : BufTy).Contents (Elt F)),
    StableHlo.ternary main_v336 main_v337 main_v335 main_v338 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem opsC18_sub : (opsC18 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsC18_fresh : (opsC18 : List (HloOp τ sig (Elt F))).Forall fun op => op.fresh = ∅ :=
  ⟨rfl, rfl, rfl, rfl, rfl, rfl, rfl, rfl, rfl, rfl, rfl, rfl, rfl⟩
/-- The buffers the stretch writes, one per operation, in order. -/
abbrev opsC18_W : List (Ref sig .tc) :=
  [main_c_45, main_v329, main_v330, main_c_46, main_v331, main_v332, main_v333, main_v334, main_v335, main_cst_47, main_v336, main_v337, main_v338]
theorem opsC18_writes : (opsC18 : List (HloOp τ sig (Elt F))).Forall fun op => op.writes ⊆ ((opsC18_W).map (Proc.devRef (τ := τ) .tc)).toFinset :=
  ⟨writes_sub_of_mem (y := main_c_45) rfl (.head _), writes_sub_of_mem (y := main_v329) rfl (.tail _ (.head _)), writes_sub_of_mem (y := main_v330) rfl (.tail _ (.tail _ (.head _))), writes_sub_of_mem (y := main_c_46) rfl (.tail _ (.tail _ (.tail _ (.head _)))), writes_sub_of_mem (y := main_v331) rfl (.tail _ (.tail _ (.tail _ (.tail _ (.head _))))), writes_sub_of_mem (y := main_v332) rfl (.tail _ (.tail _ (.tail _ (.tail _ (.tail _ (.head _)))))), writes_sub_of_mem (y := main_v333) rfl (.tail _ (.tail _ (.tail _ (.tail _ (.tail _ (.tail _ (.head _))))))), writes_sub_of_mem (y := main_v334) rfl (.tail _ (.tail _ (.tail _ (.tail _ (.tail _ (.tail _ (.tail _ (.head _)))))))), writes_sub_of_mem (y := main_v335) rfl (.tail _ (.tail _ (.tail _ (.tail _ (.tail _ (.tail _ (.tail _ (.tail _ (.head _))))))))), writes_sub_of_mem (y := main_cst_47) rfl (.tail _ (.tail _ (.tail _ (.tail _ (.tail _ (.tail _ (.tail _ (.tail _ (.tail _ (.head _)))))))))), writes_sub_of_mem (y := main_v336) rfl (.tail _ (.tail _ (.tail _ (.tail _ (.tail _ (.tail _ (.tail _ (.tail _ (.tail _ (.tail _ (.head _))))))))))), writes_sub_of_mem (y := main_v337) rfl (.tail _ (.tail _ (.tail _ (.tail _ (.tail _ (.tail _ (.tail _ (.tail _ (.tail _ (.tail _ (.tail _ (.head _)))))))))))), writes_sub_of_mem (y := main_v338) rfl (.tail _ (.tail _ (.tail _ (.tail _ (.tail _ (.tail _ (.tail _ (.tail _ (.tail _ (.tail _ (.tail _ (.tail _ (.head _)))))))))))))⟩
/-- A buffer the stretch does not write keeps its contents, from any contents. -/
theorem opsC18_keeps (V : Valuation τ sig (Elt F)) {r : Ref sig .tc} (hr : r ∉ opsC18_W) :
    after (opsC18 : List (HloOp τ sig (Elt F))) V (Proc.devRef .tc r) = V (Proc.devRef .tc r) :=
  after_of_writes_sub opsC18 V opsC18_writes hr
/-- The stretch writes no argument of @main: its buffers come after the twenty-seven arguments. -/
theorem opsC18_W_ge : ∀ r ∈ opsC18_W, 27 ≤ r.idx.val := by decide +kernel
theorem opsC18_W_args : ∀ r ∈ mainArgs, r ∉ opsC18_W :=
  fun r hr hW => absurd (opsC18_W_ge r hW) (Nat.not_le.mpr (mainArgs_lt r hr))

/-- %339 … %374: layer 4's gated update (41 operations). -/
abbrev opsC19 : List (HloOp τ sig (Elt F)) :=
  [ StableHlo.binary main_v338 main_v321 main_v339 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v323 main_v340 (broadcastInDim S1x192 ![1] bcast_S192_S1x192_1 : (⟨S192, .f32⟩ : BufTy).Contents (Elt F) → (⟨S1x192, .f32⟩ : BufTy).Contents (Elt F)),
    StableHlo.unary main_v340 main_v341 (broadcastInDim S100000x192 ![0, 1] bcast_S1x192_S100000x192_0_1 : (⟨S1x192, .f32⟩ : BufTy).Contents (Elt F) → (⟨S100000x192, .f32⟩ : BufTy).Contents (Elt F)),
    StableHlo.binary main_v339 main_v341 main_v342 (addf : (⟨S100000x192, .f32⟩ : BufTy).Contents (Elt F) → (⟨S100000x192, .f32⟩ : BufTy).Contents (Elt F) → (⟨S100000x192, .f32⟩ : BufTy).Contents (Elt F)),
    StableHlo.binary main_v317 main_v325 main_v343 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v327 main_v344 (broadcastInDim S1x192 ![1] bcast_S192_S1x192_1 : (⟨S192, .f32⟩ : BufTy).Contents (Elt F) → (⟨S1x192, .f32⟩ : BufTy).Contents (Elt F)),
    StableHlo.unary main_v344 main_v345 (broadcastInDim S100000x192 ![0, 1] bcast_S1x192_S100000x192_0_1 : (⟨S1x192, .f32⟩ : BufTy).Contents (Elt F) → (⟨S100000x192, .f32⟩ : BufTy).Contents (Elt F)),
    StableHlo.binary main_v343 main_v345 main_v346 (addf : (⟨S100000x192, .f32⟩ : BufTy).Contents (Elt F) → (⟨S100000x192, .f32⟩ : BufTy).Contents (Elt F) → (⟨S100000x192, .f32⟩ : BufTy).Contents (Elt F)),
    StableHlo.unary main_v342 main_v347 ((extractStridedSlice S100000x64 ![0, 0] · slices_S100000x192_S100000x64_0_0) : (⟨S100000x192, .f32⟩ : BufTy).Contents (Elt F) → (⟨S100000x64, .f32⟩ : BufTy).Contents (Elt F)),
    StableHlo.unary main_v342 main_v348 ((extractStridedSlice S100000x64 ![0, 64] · slices_S100000x192_S100000x64_0_64) : (⟨S100000x192, .f32⟩ : BufTy).Contents (Elt F) → (⟨S100000x64, .f32⟩ : BufTy).Contents (Elt F)),
    StableHlo.unary main_v342 main_v349 ((extractStridedSlice S100000x64 ![0, 128] · slices_S100000x192_S100000x64_0_128) : (⟨S100000x192, .f32⟩ : BufTy).Contents (Elt F) → (⟨S100000x64, .f32⟩ : BufTy).Contents (Elt F)),
    StableHlo.unary main_v346 main_v350 ((extractStridedSlice S100000x64 ![0, 0] · slices_S100000x192_S100000x64_0_0) : (⟨S100000x192, .f32⟩ : BufTy).Contents (Elt F) → (⟨S100000x64, .f32⟩ : BufTy).Contents (Elt F)),
    StableHlo.unary main_v346 main_v351 ((extractStridedSlice S100000x64 ![0, 64] · slices_S100000x192_S100000x64_0_64) : (⟨S100000x192, .f32⟩ : BufTy).Contents (Elt F) → (⟨S100000x64, .f32⟩ : BufTy).Contents (Elt F)),
    StableHlo.unary main_v346 main_v352 ((extractStridedSlice S100000x64 ![0, 128] · slices_S100000x192_S100000x64_0_128) : (⟨S100000x192, .f32⟩ : BufTy).Contents (Elt F) → (⟨S100000x64, .f32⟩ : BufTy).Contents (Elt F)),
    StableHlo.binary main_v347 main_v350 main_v353 (addf : (⟨S100000x64, .f32⟩ : BufTy).Contents (Elt F) → (⟨S100000x64, .f32⟩ : BufTy).Contents (Elt F) → (⟨S100000x64, .f32⟩ : BufTy).Contents (Elt F)),
    StableHlo.unary main_v353 main_v354 (Host.negf : (⟨S100000x64, .f32⟩ : BufTy).Contents (Elt F) → (⟨S100000x64, .f32⟩ : BufTy).Contents (Elt F)),
    StableHlo.unary main_v354 main_v355 (Host.exp : (⟨S100000x64, .f32⟩ : BufTy).Contents (Elt F) → (⟨S100000x64, .f32⟩ : BufTy).Contents (Elt F)),
    StableHlo.nullary main_cst_48 (constant S_ .f32 0x3F800000#32),
    StableHlo.unary main_cst_48 main_v356 (broadcastInDim S100000x64 ![] bcast_S_S100000x64 : (⟨S_, .f32⟩ : BufTy).Contents (Elt F) → (⟨S100000x64, .f32⟩ : BufTy).Contents (Elt F)),
    StableHlo.binary main_v356 main_v355 main_v357 (addf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v358 (broadcastInDim S100000x64 ![] bcast_S_S100000x64 : (⟨S_, .f32⟩ : BufTy).Contents (Elt F) → (⟨S100000x64, .f32⟩ : BufTy).Contents (Elt F)),
    StableHlo.binary main_v358 main_v357 main_v359 (Host.divf : (⟨S100000x64, .f32⟩ : BufTy).Contents (Elt F) → (⟨S100000x64, .f32⟩ : BufTy).Contents (Elt F) → (⟨S100000x64, .f32⟩ : BufTy).Contents (Elt F)),
    StableHlo.binary main_v348 main_v351 main_v360 (addf : (⟨S100000x64, .f32⟩ : BufTy).Contents (Elt F) → (⟨S100000x64, .f32⟩ : BufTy).Contents (Elt F) → (⟨S100000x64, .f32⟩ : BufTy).Contents (Elt F)),
    StableHlo.unary main_v360 main_v361 (Host.negf : (⟨S100000x64, .f32⟩ : BufTy).Contents (Elt F) → (⟨S100000x64, .f32⟩ : BufTy).Contents (Elt F)),
    StableHlo.unary main_v361 main_v362 (Host.exp : (⟨S100000x64, .f32⟩ : BufTy).Contents (Elt F) → (⟨S100000x64, .f32⟩ : BufTy).Contents (Elt F)),
    StableHlo.nullary main_cst_50 (constant S_ .f32 0x3F800000#32),
    StableHlo.unary main_cst_50 main_v363 (broadcastInDim S100000x64 ![] bcast_S_S100000x64 : (⟨S_, .f32⟩ : BufTy).Contents (Elt F) → (⟨S100000x64, .f32⟩ : BufTy).Contents (Elt F)),
    StableHlo.binary main_v363 main_v362 main_v364 (addf : (⟨S100000x64, .f32⟩ : BufTy).Contents (Elt F) → (⟨S100000x64, .f32⟩ : BufTy).Contents (Elt F) → (⟨S100000x64, .f32⟩ : BufTy).Contents (Elt F)),
    StableHlo.nullary main_cst_51 (constant S_ .f32 0x3F800000#32),
    StableHlo.unary main_cst_51 main_v365 (broadcastInDim S100000x64 ![] bcast_S_S100000x64 : (⟨S_, .f32⟩ : BufTy).Contents (Elt F) → (⟨S100000x64, .f32⟩ : BufTy).Contents (Elt F)),
    StableHlo.binary main_v365 main_v364 main_v366 (Host.divf : (⟨S100000x64, .f32⟩ : BufTy).Contents (Elt F) → (⟨S100000x64, .f32⟩ : BufTy).Contents (Elt F) → (⟨S100000x64, .f32⟩ : BufTy).Contents (Elt F)),
    StableHlo.binary main_v359 main_v352 main_v367 (mulf : (⟨S100000x64, .f32⟩ : BufTy).Contents (Elt F) → (⟨S100000x64, .f32⟩ : BufTy).Contents (Elt F) → (⟨S100000x64, .f32⟩ : BufTy).Contents (Elt F)),
    StableHlo.binary main_v349 main_v367 main_v368 (addf : (⟨S100000x64, .f32⟩ : BufTy).Contents (Elt F) → (⟨S100000x64, .f32⟩ : BufTy).Contents (Elt F) → (⟨S100000x64, .f32⟩ : BufTy).Contents (Elt F)),
    StableHlo.unary main_v368 main_v369 (Host.tanh : (⟨S100000x64, .f32⟩ : BufTy).Contents (Elt F) → (⟨S100000x64, .f32⟩ : BufTy).Contents (Elt F)),
    StableHlo.nullary main_cst_52 (constant S_ .f32 0x3F800000#32),
    StableHlo.unary main_cst_52 main_v370 (broadcastInDim S100000x64 ![] bcast_S_S100000x64 : (⟨S_, .f32⟩ : BufTy).Contents (Elt F) → (⟨S100000x64, .f32⟩ : BufTy).Contents (Elt F)),
    StableHlo.binary main_v370 main_v366 main_v371 (subf : (⟨S100000x64, .f32⟩ : BufTy).Contents (Elt F) → (⟨S100000x64, .f32⟩ : BufTy).Contents (Elt F) → (⟨S100000x64, .f32⟩ : BufTy).Contents (Elt F)),
    StableHlo.binary main_v371 main_v369 main_v372 (mulf : (⟨S100000x64, .f32⟩ : BufTy).Contents (Elt F) → (⟨S100000x64, .f32⟩ : BufTy).Contents (Elt F) → (⟨S100000x64, .f32⟩ : BufTy).Contents (Elt F)),
    StableHlo.binary main_v366 main_v317 main_v373 (mulf : (⟨S100000x64, .f32⟩ : BufTy).Contents (Elt F) → (⟨S100000x64, .f32⟩ : BufTy).Contents (Elt F) → (⟨S100000x64, .f32⟩ : BufTy).Contents (Elt F)),
    StableHlo.binary main_v372 main_v373 main_v374 (addf : (⟨S100000x64, .f32⟩ : BufTy).Contents (Elt F) → (⟨S100000x64, .f32⟩ : BufTy).Contents (Elt F) → (⟨S100000x64, .f32⟩ : BufTy).Contents (Elt F)) ]
theorem opsC19_sub : (opsC19 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsC19_fresh : (opsC19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC19_W : List (Ref sig .tc) :=
  [main_v339, main_v340, main_v341, main_v342, main_v343, main_v344, main_v345, main_v346, main_v347, main_v348, main_v349, main_v350, main_v351, main_v352, main_v353, main_v354, main_v355, main_cst_48, main_v356, main_v357, main_cst_49, main_v358, main_v359, main_v360, main_v361, main_v362, main_cst_50, main_v363, main_v364, main_cst_51, main_v365, main_v366, main_v367, main_v368, main_v369, main_cst_52, main_v370, main_v371, main_v372, main_v373, main_v374]
theorem opsC19_writes : (opsC19 : List (HloOp τ sig (Elt F))).Forall fun op => op.writes ⊆ ((opsC19_W).map (Proc.devRef (τ := τ) .tc)).toFinset :=
  ⟨writes_sub_of_mem (y := main_v339) rfl (.head _), writes_sub_of_mem (y := main_v340) rfl (.tail _ (.head _)), writes_sub_of_mem (y := main_v341) rfl (.tail _ (.tail _ (.head _))), writes_sub_of_mem (y := main_v342) rfl (.tail _ (.tail _ (.tail _ (.head _)))), writes_sub_of_mem (y := main_v343) rfl (.tail _ (.tail _ (.tail _ (.tail _ (.head _))))), writes_sub_of_mem (y := main_v344) rfl (.tail _ (.tail _ (.tail _ (.tail _ (.tail _ (.head _)))))), writes_sub_of_mem (y := main_v345) rfl (.tail _ (.tail _ (.tail _ (.tail _ (.tail _ (.tail _ (.head _))))))), writes_sub_of_mem (y := main_v346) rfl (.tail _ (.tail _ (.tail _ (.tail _ (.tail _ (.tail _ (.tail _ (.head _)))))))), writes_sub_of_mem (y := main_v347) rfl (.tail _ (.tail _ (.tail _ (.tail _ (.tail _ (.tail _ (.tail _ (.tail _ (.head _))))))))), writes_sub_of_mem (y := main_v348) rfl (.tail _ (.tail _ (.tail _ (.tail _ (.tail _ (.tail _ (.tail _ (.tail _ (.tail _ (.head _)))))))))), writes_sub_of_mem (y := main_v349) rfl (.tail _ (.tail _ (.tail _ (.tail _ (.tail _ (.tail _ (.tail _ (.tail _ (.tail _ (.tail _ (.head _))))))))))), writes_sub_of_mem (y := main_v350) rfl (.tail _ (.tail _ (.tail _ (.tail _ (.tail _ (.tail _ (.tail _ (.tail _ (.tail _ (.tail _ (.tail _ (.head _)))))))))))), writes_sub_of_mem (y := main_v351) rfl (.tail _ (.tail _ (.tail _ (.tail _ (.tail _ (.tail _ (.tail _ (.tail _ (.tail _ (.tail _ (.tail _ (.tail _ (.head _))))))))))))), writes_sub_of_mem (y := main_v352) rfl (.tail _ (.tail _ (.tail _ (.tail _ (.tail _ (.tail _ (.tail _ (.tail _ (.tail _ (.tail _ (.tail _ (.tail _ (.tail _ (.head _)))))))))))))), writes_sub_of_mem (y := main_v353) rfl (.tail _ (.tail _ (.tail _ (.tail _ (.tail _ (.tail _ (.tail _ (.tail _ (.tail _ (.tail _ (.tail _ (.tail _ (.tail _ (.tail _ (.head _))))))))))))))), writes_sub_of_mem (y := main_v354) rfl (.tail _ (.tail _ (.tail _ (.tail _ (.tail _ (.tail _ (.tail _ (.tail _ (.tail _ (.tail _ (.tail _ (.tail _ (.tail _ (.tail _ (.tail _ (.head _)))))))))))))))), writes_sub_of_mem (y := main_v355) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_cst_48) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v356) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v357) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_cst_49) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v358) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v359) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_v360) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_v361) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_v362) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_cst_50) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_v363) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_v364) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_cst_51) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_v365) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_v366) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_v367) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_v368) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_v369) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_cst_52) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_v370) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v371) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v372) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v373) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v374) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))⟩
/-- A buffer the stretch does not write keeps its contents, from any contents. -/
theorem opsC19_keeps (V : Valuation τ sig (Elt F)) {r : Ref sig .tc} (hr : r ∉ opsC19_W) :
    after (opsC19 : List (HloOp τ sig (Elt F))) V (Proc.devRef .tc r) = V (Proc.devRef .tc r) :=
  after_of_writes_sub opsC19 V opsC19_writes hr
/-- The stretch writes no argument of @main: its buffers come after the twenty-seven arguments. -/
theorem opsC19_W_ge : ∀ r ∈ opsC19_W, 27 ≤ r.idx.val := by decide +kernel
theorem opsC19_W_args : ∀ r ∈ mainArgs, r ∉ opsC19_W :=
  fun r hr hW => absurd (opsC19_W_ge r hW) (Nat.not_le.mpr (mainArgs_lt r hr))

/-- %cst_53, %375 … %377: the first pooling sum (4 operations). -/
abbrev opsC20 : List (HloOp τ sig (Elt F)) :=
  [ StableHlo.nullary main_cst_53 (constant S_ .f32 0x00000000#32),
    StableHlo.unary main_cst_53 main_v375 (broadcastInDim S20000x64 ![] bcast_S_S20000x64 : (⟨S_, .f32⟩ : BufTy).Contents (Elt F) → (⟨S20000x64, .f32⟩ : BufTy).Contents (Elt F)),
    StableHlo.unary main_arg2 main_v376 (broadcastInDim S100000x1 ![0] bcast_S100000_S100000x1_0 : (⟨S100000, .i32⟩ : BufTy).Contents (Elt F) → (⟨S100000x1, .i32⟩ : BufTy).Contents (Elt F)),
    StableHlo.ternary main_v375 main_v376 main_v374 main_v377 ((fun x i u => Host.scatterAdd scatter_S20000x64_S100000x1_S100000x64_1_0_0_1 x i u) : (⟨S20000x64, .f32⟩ : BufTy).Contents (Elt F) → (⟨S100000x1, .i32⟩ : BufTy).Contents (Elt F) → (⟨S100000x64, .f32⟩ : BufTy).Contents (Elt F) → (⟨S20000x64, .f32⟩ : BufTy).Contents (Elt F)) ]
theorem opsC20_sub : (opsC20 : List (HloOp τ sig (Elt F))).Forall fun op => op.bufs ⊆ tcRefs τ sig :=
  ⟨nullary_bufs_sub .., unary_bufs_sub .., unary_bufs_sub .., ternary_bufs_sub ..⟩
theorem opsC20_fresh : (opsC20 : List (HloOp τ sig (Elt F))).Forall fun op => op.fresh = ∅ :=
  ⟨rfl, rfl, rfl, rfl⟩
/-- The buffers the stretch writes, one per operation, in order. -/
abbrev opsC20_W : List (Ref sig .tc) :=
  [main_cst_53, main_v375, main_v376, main_v377]
theorem opsC20_writes : (opsC20 : List (HloOp τ sig (Elt F))).Forall fun op => op.writes ⊆ ((opsC20_W).map (Proc.devRef (τ := τ) .tc)).toFinset :=
  ⟨writes_sub_of_mem (y := main_cst_53) rfl (.head _), writes_sub_of_mem (y := main_v375) rfl (.tail _ (.head _)), writes_sub_of_mem (y := main_v376) rfl (.tail _ (.tail _ (.head _))), writes_sub_of_mem (y := main_v377) rfl (.tail _ (.tail _ (.tail _ (.head _))))⟩
/-- A buffer the stretch does not write keeps its contents, from any contents. -/
theorem opsC20_keeps (V : Valuation τ sig (Elt F)) {r : Ref sig .tc} (hr : r ∉ opsC20_W) :
    after (opsC20 : List (HloOp τ sig (Elt F))) V (Proc.devRef .tc r) = V (Proc.devRef .tc r) :=
  after_of_writes_sub opsC20 V opsC20_writes hr
/-- The stretch writes no argument of @main: its buffers come after the twenty-seven arguments. -/
theorem opsC20_W_ge : ∀ r ∈ opsC20_W, 27 ≤ r.idx.val := by decide +kernel
theorem opsC20_W_args : ∀ r ∈ mainArgs, r ∉ opsC20_W :=
  fun r hr hW => absurd (opsC20_W_ge r hW) (Nat.not_le.mpr (mainArgs_lt r hr))

/-- %378 … %386: the first perceptron (its rectifier's three operations in place of the call %382) (11 operations). -/
abbrev opsC21 : List (HloOp τ sig (Elt F)) :=
  [ StableHlo.binary main_v377 main_arg13 main_v378 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg14 main_v379 (broadcastInDim S1x64 ![1] bcast_S64_S1x64_1 : (⟨S64, .f32⟩ : BufTy).Contents (Elt F) → (⟨S1x64, .f32⟩ : BufTy).Contents (Elt F)),
    StableHlo.unary main_v379 main_v380 (broadcastInDim S20000x64 ![0, 1] bcast_S1x64_S20000x64_0_1 : (⟨S1x64, .f32⟩ : BufTy).Contents (Elt F) → (⟨S20000x64, .f32⟩ : BufTy).Contents (Elt F)),
    StableHlo.binary main_v378 main_v380 main_v381 (addf : (⟨S20000x64, .f32⟩ : BufTy).Contents (Elt F) → (⟨S20000x64, .f32⟩ : BufTy).Contents (Elt F) → (⟨S20000x64, .f32⟩ : BufTy).Contents (Elt F)),
    StableHlo.TRef.nullary main_call0.cst (constant S_ .f32 0x00000000#32),
    StableHlo.TRef.unary main_call0.cst main_call0.v0 (broadcastInDim S20000x64 ![] bcast_S_S20000x64),
    StableHlo.TRef.binary (.of main_v381 : StableHlo.TRef sig ⟨S20000x64, .f32⟩) main_call0.v0 main_call0.v1 maximumf,
    StableHlo.binary main_v382 main_arg15 main_v383 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg16 main_v384 (broadcastInDim S1x64 ![1] bcast_S64_S1x64_1 : (⟨S64, .f32⟩ : BufTy).Contents (Elt F) → (⟨S1x64, .f32⟩ : BufTy).Contents (Elt F)),
    StableHlo.unary main_v384 main_v385 (broadcastInDim S20000x64 ![0, 1] bcast_S1x64_S20000x64_0_1 : (⟨S1x64, .f32⟩ : BufTy).Contents (Elt F) → (⟨S20000x64, .f32⟩ : BufTy).Contents (Elt F)),
    StableHlo.binary main_v383 main_v385 main_v386 (addf : (⟨S20000x64, .f32⟩ : BufTy).Contents (Elt F) → (⟨S20000x64, .f32⟩ : BufTy).Contents (Elt F) → (⟨S20000x64, .f32⟩ : BufTy).Contents (Elt F)) ]
theorem opsC21_sub : (opsC21 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsC21_fresh : (opsC21 : List (HloOp τ sig (Elt F))).Forall fun op => op.fresh = ∅ :=
  ⟨rfl, rfl, rfl, rfl, rfl, rfl, rfl, rfl, rfl, rfl, rfl⟩
/-- The buffers the stretch writes, one per operation, in order. -/
abbrev opsC21_W : List (Ref sig .tc) :=
  [main_v378, main_v379, main_v380, main_v381, main_call0_cst, main_call0_v0, main_v382, main_v383, main_v384, main_v385, main_v386]
theorem opsC21_writes : (opsC21 : List (HloOp τ sig (Elt F))).Forall fun op => op.writes ⊆ ((opsC21_W).map (Proc.devRef (τ := τ) .tc)).toFinset :=
  ⟨writes_sub_of_mem (y := main_v378) rfl (.head _), writes_sub_of_mem (y := main_v379) rfl (.tail _ (.head _)), writes_sub_of_mem (y := main_v380) rfl (.tail _ (.tail _ (.head _))), writes_sub_of_mem (y := main_v381) rfl (.tail _ (.tail _ (.tail _ (.head _)))), writes_sub_of_mem (y := main_call0_cst) rfl (.tail _ (.tail _ (.tail _ (.tail _ (.head _))))), writes_sub_of_mem (y := main_call0_v0) rfl (.tail _ (.tail _ (.tail _ (.tail _ (.tail _ (.head _)))))), writes_sub_of_mem (y := main_v382) rfl (.tail _ (.tail _ (.tail _ (.tail _ (.tail _ (.tail _ (.head _))))))), writes_sub_of_mem (y := main_v383) rfl (.tail _ (.tail _ (.tail _ (.tail _ (.tail _ (.tail _ (.tail _ (.head _)))))))), writes_sub_of_mem (y := main_v384) rfl (.tail _ (.tail _ (.tail _ (.tail _ (.tail _ (.tail _ (.tail _ (.tail _ (.head _))))))))), writes_sub_of_mem (y := main_v385) rfl (.tail _ (.tail _ (.tail _ (.tail _ (.tail _ (.tail _ (.tail _ (.tail _ (.tail _ (.head _)))))))))), writes_sub_of_mem (y := main_v386) rfl (.tail _ (.tail _ (.tail _ (.tail _ (.tail _ (.tail _ (.tail _ (.tail _ (.tail _ (.tail _ (.head _)))))))))))⟩
/-- A buffer the stretch does not write keeps its contents, from any contents. -/
theorem opsC21_keeps (V : Valuation τ sig (Elt F)) {r : Ref sig .tc} (hr : r ∉ opsC21_W) :
    after (opsC21 : List (HloOp τ sig (Elt F))) V (Proc.devRef .tc r) = V (Proc.devRef .tc r) :=
  after_of_writes_sub opsC21 V opsC21_writes hr
/-- The stretch writes no argument of @main: its buffers come after the twenty-seven arguments. -/
theorem opsC21_W_ge : ∀ r ∈ opsC21_W, 27 ≤ r.idx.val := by decide +kernel
theorem opsC21_W_args : ∀ r ∈ mainArgs, r ∉ opsC21_W :=
  fun r hr hW => absurd (opsC21_W_ge r hW) (Nat.not_le.mpr (mainArgs_lt r hr))

/-- %cst_54, %387 … %389: the second pooling sum (4 operations). -/
abbrev opsC22 : List (HloOp τ sig (Elt F)) :=
  [ StableHlo.nullary main_cst_54 (constant S_ .f32 0x00000000#32),
    StableHlo.unary main_cst_54 main_v387 (broadcastInDim S2000x64 ![] bcast_S_S2000x64 : (⟨S_, .f32⟩ : BufTy).Contents (Elt F) → (⟨S2000x64, .f32⟩ : BufTy).Contents (Elt F)),
    StableHlo.unary main_arg3 main_v388 (broadcastInDim S20000x1 ![0] bcast_S20000_S20000x1_0 : (⟨S20000, .i32⟩ : BufTy).Contents (Elt F) → (⟨S20000x1, .i32⟩ : BufTy).Contents (Elt F)),
    StableHlo.ternary main_v387 main_v388 main_v386 main_v389 ((fun x i u => Host.scatterAdd scatter_S2000x64_S20000x1_S20000x64_1_0_0_1 x i u) : (⟨S2000x64, .f32⟩ : BufTy).Contents (Elt F) → (⟨S20000x1, .i32⟩ : BufTy).Contents (Elt F) → (⟨S20000x64, .f32⟩ : BufTy).Contents (Elt F) → (⟨S2000x64, .f32⟩ : BufTy).Contents (Elt F)) ]
theorem opsC22_sub : (opsC22 : List (HloOp τ sig (Elt F))).Forall fun op => op.bufs ⊆ tcRefs τ sig :=
  ⟨nullary_bufs_sub .., unary_bufs_sub .., unary_bufs_sub .., ternary_bufs_sub ..⟩
theorem opsC22_fresh : (opsC22 : List (HloOp τ sig (Elt F))).Forall fun op => op.fresh = ∅ :=
  ⟨rfl, rfl, rfl, rfl⟩
/-- The buffers the stretch writes, one per operation, in order. -/
abbrev opsC22_W : List (Ref sig .tc) :=
  [main_cst_54, main_v387, main_v388, main_v389]
theorem opsC22_writes : (opsC22 : List (HloOp τ sig (Elt F))).Forall fun op => op.writes ⊆ ((opsC22_W).map (Proc.devRef (τ := τ) .tc)).toFinset :=
  ⟨writes_sub_of_mem (y := main_cst_54) rfl (.head _), writes_sub_of_mem (y := main_v387) rfl (.tail _ (.head _)), writes_sub_of_mem (y := main_v388) rfl (.tail _ (.tail _ (.head _))), writes_sub_of_mem (y := main_v389) rfl (.tail _ (.tail _ (.tail _ (.head _))))⟩
/-- A buffer the stretch does not write keeps its contents, from any contents. -/
theorem opsC22_keeps (V : Valuation τ sig (Elt F)) {r : Ref sig .tc} (hr : r ∉ opsC22_W) :
    after (opsC22 : List (HloOp τ sig (Elt F))) V (Proc.devRef .tc r) = V (Proc.devRef .tc r) :=
  after_of_writes_sub opsC22 V opsC22_writes hr
/-- The stretch writes no argument of @main: its buffers come after the twenty-seven arguments. -/
theorem opsC22_W_ge : ∀ r ∈ opsC22_W, 27 ≤ r.idx.val := by decide +kernel
theorem opsC22_W_args : ∀ r ∈ mainArgs, r ∉ opsC22_W :=
  fun r hr hW => absurd (opsC22_W_ge r hW) (Nat.not_le.mpr (mainArgs_lt r hr))

/-- %390 … %398: the second perceptron (its rectifier's three operations in place of the call %394) (11 operations). -/
abbrev opsC23 : List (HloOp τ sig (Elt F)) :=
  [ StableHlo.binary main_v389 main_arg17 main_v390 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    StableHlo.unary main_arg18 main_v391 (broadcastInDim S1x64 ![1] bcast_S64_S1x64_1 : (⟨S64, .f32⟩ : BufTy).Contents (Elt F) → (⟨S1x64, .f32⟩ : BufTy).Contents (Elt F)),
    StableHlo.unary main_v391 main_v392 (broadcastInDim S2000x64 ![0, 1] bcast_S1x64_S2000x64_0_1 : (⟨S1x64, .f32⟩ : BufTy).Contents (Elt F) → (⟨S2000x64, .f32⟩ : BufTy).Contents (Elt F)),
    StableHlo.binary main_v390 main_v392 main_v393 (addf : (⟨S2000x64, .f32⟩ : BufTy).Contents (Elt F) → (⟨S2000x64, .f32⟩ : BufTy).Contents (Elt F) → (⟨S2000x64, .f32⟩ : BufTy).Contents (Elt F)),
    StableHlo.TRef.nullary main_call1.cst (constant S_ .f32 0x00000000#32),
    StableHlo.TRef.unary main_call1.cst main_call1.v0 (broadcastInDim S2000x64 ![] bcast_S_S2000x64),
    StableHlo.TRef.binary (.of main_v393 : StableHlo.TRef sig ⟨S2000x64, .f32⟩) main_call1.v0 main_call1.v1 maximumf,
    StableHlo.binary main_v394 main_arg19 main_v395 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    StableHlo.unary main_arg20 main_v396 (broadcastInDim S1x64 ![1] bcast_S64_S1x64_1 : (⟨S64, .f32⟩ : BufTy).Contents (Elt F) → (⟨S1x64, .f32⟩ : BufTy).Contents (Elt F)),
    StableHlo.unary main_v396 main_v397 (broadcastInDim S2000x64 ![0, 1] bcast_S1x64_S2000x64_0_1 : (⟨S1x64, .f32⟩ : BufTy).Contents (Elt F) → (⟨S2000x64, .f32⟩ : BufTy).Contents (Elt F)),
    StableHlo.binary main_v395 main_v397 main_v398 (addf : (⟨S2000x64, .f32⟩ : BufTy).Contents (Elt F) → (⟨S2000x64, .f32⟩ : BufTy).Contents (Elt F) → (⟨S2000x64, .f32⟩ : BufTy).Contents (Elt F)) ]
theorem opsC23_sub : (opsC23 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsC23_fresh : (opsC23 : List (HloOp τ sig (Elt F))).Forall fun op => op.fresh = ∅ :=
  ⟨rfl, rfl, rfl, rfl, rfl, rfl, rfl, rfl, rfl, rfl, rfl⟩
/-- The buffers the stretch writes, one per operation, in order. -/
abbrev opsC23_W : List (Ref sig .tc) :=
  [main_v390, main_v391, main_v392, main_v393, main_call1_cst, main_call1_v0, main_v394, main_v395, main_v396, main_v397, main_v398]
theorem opsC23_writes : (opsC23 : List (HloOp τ sig (Elt F))).Forall fun op => op.writes ⊆ ((opsC23_W).map (Proc.devRef (τ := τ) .tc)).toFinset :=
  ⟨writes_sub_of_mem (y := main_v390) rfl (.head _), writes_sub_of_mem (y := main_v391) rfl (.tail _ (.head _)), writes_sub_of_mem (y := main_v392) rfl (.tail _ (.tail _ (.head _))), writes_sub_of_mem (y := main_v393) rfl (.tail _ (.tail _ (.tail _ (.head _)))), writes_sub_of_mem (y := main_call1_cst) rfl (.tail _ (.tail _ (.tail _ (.tail _ (.head _))))), writes_sub_of_mem (y := main_call1_v0) rfl (.tail _ (.tail _ (.tail _ (.tail _ (.tail _ (.head _)))))), writes_sub_of_mem (y := main_v394) rfl (.tail _ (.tail _ (.tail _ (.tail _ (.tail _ (.tail _ (.head _))))))), writes_sub_of_mem (y := main_v395) rfl (.tail _ (.tail _ (.tail _ (.tail _ (.tail _ (.tail _ (.tail _ (.head _)))))))), writes_sub_of_mem (y := main_v396) rfl (.tail _ (.tail _ (.tail _ (.tail _ (.tail _ (.tail _ (.tail _ (.tail _ (.head _))))))))), writes_sub_of_mem (y := main_v397) rfl (.tail _ (.tail _ (.tail _ (.tail _ (.tail _ (.tail _ (.tail _ (.tail _ (.tail _ (.head _)))))))))), writes_sub_of_mem (y := main_v398) rfl (.tail _ (.tail _ (.tail _ (.tail _ (.tail _ (.tail _ (.tail _ (.tail _ (.tail _ (.tail _ (.head _)))))))))))⟩
/-- A buffer the stretch does not write keeps its contents, from any contents. -/
theorem opsC23_keeps (V : Valuation τ sig (Elt F)) {r : Ref sig .tc} (hr : r ∉ opsC23_W) :
    after (opsC23 : List (HloOp τ sig (Elt F))) V (Proc.devRef .tc r) = V (Proc.devRef .tc r) :=
  after_of_writes_sub opsC23 V opsC23_writes hr
/-- The stretch writes no argument of @main: its buffers come after the twenty-seven arguments. -/
theorem opsC23_W_ge : ∀ r ∈ opsC23_W, 27 ≤ r.idx.val := by decide +kernel
theorem opsC23_W_args : ∀ r ∈ mainArgs, r ∉ opsC23_W :=
  fun r hr hW => absurd (opsC23_W_ge r hW) (Nat.not_le.mpr (mainArgs_lt r hr))

/-- %cst_55, %399 … %401: the third pooling sum (4 operations). -/
abbrev opsC24 : List (HloOp τ sig (Elt F)) :=
  [ StableHlo.nullary main_cst_55 (constant S_ .f32 0x00000000#32),
    StableHlo.unary main_cst_55 main_v399 (broadcastInDim S64x64 ![] bcast_S_S64x64 : (⟨S_, .f32⟩ : BufTy).Contents (Elt F) → (⟨S64x64, .f32⟩ : BufTy).Contents (Elt F)),
    StableHlo.unary main_arg4 main_v400 (broadcastInDim S2000x1 ![0] bcast_S2000_S2000x1_0 : (⟨S2000, .i32⟩ : BufTy).Contents (Elt F) → (⟨S2000x1, .i32⟩ : BufTy).Contents (Elt F)),
    StableHlo.ternary main_v399 main_v400 main_v398 main_v401 ((fun x i u => Host.scatterAdd scatter_S64x64_S2000x1_S2000x64_1_0_0_1 x i u) : (⟨S64x64, .f32⟩ : BufTy).Contents (Elt F) → (⟨S2000x1, .i32⟩ : BufTy).Contents (Elt F) → (⟨S2000x64, .f32⟩ : BufTy).Contents (Elt F) → (⟨S64x64, .f32⟩ : BufTy).Contents (Elt F)) ]
theorem opsC24_sub : (opsC24 : List (HloOp τ sig (Elt F))).Forall fun op => op.bufs ⊆ tcRefs τ sig :=
  ⟨nullary_bufs_sub .., unary_bufs_sub .., unary_bufs_sub .., ternary_bufs_sub ..⟩
theorem opsC24_fresh : (opsC24 : List (HloOp τ sig (Elt F))).Forall fun op => op.fresh = ∅ :=
  ⟨rfl, rfl, rfl, rfl⟩
/-- The buffers the stretch writes, one per operation, in order. -/
abbrev opsC24_W : List (Ref sig .tc) :=
  [main_cst_55, main_v399, main_v400, main_v401]
theorem opsC24_writes : (opsC24 : List (HloOp τ sig (Elt F))).Forall fun op => op.writes ⊆ ((opsC24_W).map (Proc.devRef (τ := τ) .tc)).toFinset :=
  ⟨writes_sub_of_mem (y := main_cst_55) rfl (.head _), writes_sub_of_mem (y := main_v399) rfl (.tail _ (.head _)), writes_sub_of_mem (y := main_v400) rfl (.tail _ (.tail _ (.head _))), writes_sub_of_mem (y := main_v401) rfl (.tail _ (.tail _ (.tail _ (.head _))))⟩
/-- A buffer the stretch does not write keeps its contents, from any contents. -/
theorem opsC24_keeps (V : Valuation τ sig (Elt F)) {r : Ref sig .tc} (hr : r ∉ opsC24_W) :
    after (opsC24 : List (HloOp τ sig (Elt F))) V (Proc.devRef .tc r) = V (Proc.devRef .tc r) :=
  after_of_writes_sub opsC24 V opsC24_writes hr
/-- The stretch writes no argument of @main: its buffers come after the twenty-seven arguments. -/
theorem opsC24_W_ge : ∀ r ∈ opsC24_W, 27 ≤ r.idx.val := by decide +kernel
theorem opsC24_W_args : ∀ r ∈ mainArgs, r ∉ opsC24_W :=
  fun r hr hW => absurd (opsC24_W_ge r hW) (Nat.not_le.mpr (mainArgs_lt r hr))

/-- %402 … %415: the head (each exponential-linear unit's fifteen operations in place of the calls %406 and %411) (42 operations). -/
abbrev opsC25 : List (HloOp τ sig (Elt F)) :=
  [ StableHlo.binary main_v401 main_arg21 main_v402 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    StableHlo.unary main_arg22 main_v403 (broadcastInDim S1x32 ![1] bcast_S32_S1x32_1 : (⟨S32, .f32⟩ : BufTy).Contents (Elt F) → (⟨S1x32, .f32⟩ : BufTy).Contents (Elt F)),
    StableHlo.unary main_v403 main_v404 (broadcastInDim S64x32 ![0, 1] bcast_S1x32_S64x32_0_1 : (⟨S1x32, .f32⟩ : BufTy).Contents (Elt F) → (⟨S64x32, .f32⟩ : BufTy).Contents (Elt F)),
    StableHlo.binary main_v402 main_v404 main_v405 (addf : (⟨S64x32, .f32⟩ : BufTy).Contents (Elt F) → (⟨S64x32, .f32⟩ : BufTy).Contents (Elt F) → (⟨S64x32, .f32⟩ : BufTy).Contents (Elt F)),
    StableHlo.TRef.nullary main_call2.cst (constant S_ .f32 0x00000000#32),
    StableHlo.TRef.unary main_call2.cst main_call2.v0 (broadcastInDim S64x32 ![] bcast_S_S64x32),
    StableHlo.TRef.binary (.of main_v405 : StableHlo.TRef sig ⟨S64x32, .f32⟩) main_call2.v0 main_call2.v1 (cmpf .ogt),
    StableHlo.TRef.nullary main_call2.cst_0 (constant S_ .f32 0x00000000#32),
    StableHlo.TRef.unary main_call2.cst_0 main_call2.v2 (broadcastInDim S64x32 ![] bcast_S_S64x32),
    StableHlo.TRef.binary (.of main_v405 : StableHlo.TRef sig ⟨S64x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S64x32 ![] bcast_S_S64x32),
    StableHlo.TRef.ternary main_call2.v3 main_call2.call0.v1 (.of main_v405 : StableHlo.TRef sig ⟨S64x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S64x32 ![] bcast_S_S64x32),
    StableHlo.TRef.binary main_call2.v6 main_call2.v5 main_call2.v7 mulf,
    StableHlo.TRef.ternary main_call2.v1 (.of main_v405 : StableHlo.TRef sig ⟨S64x32, .f32⟩) main_call2.v7 main_call2.call1.v0 select,
    StableHlo.binary main_v406 main_arg23 main_v407 ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)),
    StableHlo.unary main_arg24 main_v408 (broadcastInDim S1x16 ![1] bcast_S16_S1x16_1 : (⟨S16, .f32⟩ : BufTy).Contents (Elt F) → (⟨S1x16, .f32⟩ : BufTy).Contents (Elt F)),
    StableHlo.unary main_v408 main_v409 (broadcastInDim S64x16 ![0, 1] bcast_S1x16_S64x16_0_1 : (⟨S1x16, .f32⟩ : BufTy).Contents (Elt F) → (⟨S64x16, .f32⟩ : BufTy).Contents (Elt F)),
    StableHlo.binary main_v407 main_v409 main_v410 (addf : (⟨S64x16, .f32⟩ : BufTy).Contents (Elt F) → (⟨S64x16, .f32⟩ : BufTy).Contents (Elt F) → (⟨S64x16, .f32⟩ : BufTy).Contents (Elt F)),
    StableHlo.TRef.nullary main_call3.cst (constant S_ .f32 0x00000000#32),
    StableHlo.TRef.unary main_call3.cst main_call3.v0 (broadcastInDim S64x16 ![] bcast_S_S64x16),
    StableHlo.TRef.binary (.of main_v410 : StableHlo.TRef sig ⟨S64x16, .f32⟩) main_call3.v0 main_call3.v1 (cmpf .ogt),
    StableHlo.TRef.nullary main_call3.cst_0 (constant S_ .f32 0x00000000#32),
    StableHlo.TRef.unary main_call3.cst_0 main_call3.v2 (broadcastInDim S64x16 ![] bcast_S_S64x16),
    StableHlo.TRef.binary (.of main_v410 : StableHlo.TRef sig ⟨S64x16, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S64x16 ![] bcast_S_S64x16),
    StableHlo.TRef.ternary main_call3.v3 main_call3.call0.v1 (.of main_v410 : StableHlo.TRef sig ⟨S64x16, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S64x16 ![] bcast_S_S64x16),
    StableHlo.TRef.binary main_call3.v6 main_call3.v5 main_call3.v7 mulf,
    StableHlo.TRef.ternary main_call3.v1 (.of main_v410 : StableHlo.TRef sig ⟨S64x16, .f32⟩) main_call3.v7 main_call3.call1.v0 select,
    StableHlo.binary main_v411 main_arg25 main_v412 ((fun l r => Host.dotGeneral dot_S64x16_S16x1_S64x1_1_0_0_1_n_n none l r) : (⟨S64x16, .f32⟩ : BufTy).Contents (Elt F) → (⟨S16x1, .f32⟩ : BufTy).Contents (Elt F) → (⟨S64x1, .f32⟩ : BufTy).Contents (Elt F)),
    StableHlo.unary main_arg26 main_v413 (broadcastInDim S1x1 ![1] bcast_S1_S1x1_1 : (⟨S1, .f32⟩ : BufTy).Contents (Elt F) → (⟨S1x1, .f32⟩ : BufTy).Contents (Elt F)),
    StableHlo.unary main_v413 main_v414 (broadcastInDim S64x1 ![0, 1] bcast_S1x1_S64x1_0_1 : (⟨S1x1, .f32⟩ : BufTy).Contents (Elt F) → (⟨S64x1, .f32⟩ : BufTy).Contents (Elt F)),
    StableHlo.binary main_v412 main_v414 main_v415 (addf : (⟨S64x1, .f32⟩ : BufTy).Contents (Elt F) → (⟨S64x1, .f32⟩ : BufTy).Contents (Elt F) → (⟨S64x1, .f32⟩ : BufTy).Contents (Elt F)) ]
theorem opsC25_sub : (opsC25 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
theorem opsC25_fresh : (opsC25 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes, one per operation, in order. -/
abbrev opsC25_W : List (Ref sig .tc) :=
  [main_v402, main_v403, main_v404, main_v405, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v406, main_v407, main_v408, main_v409, main_v410, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v411, main_v412, main_v413, main_v414, main_v415]
theorem opsC25_writes : (opsC25 : List (HloOp τ sig (Elt F))).Forall fun op => op.writes ⊆ ((opsC25_W).map (Proc.devRef (τ := τ) .tc)).toFinset :=
  ⟨writes_sub_of_mem (y := main_v402) rfl (.head _), writes_sub_of_mem (y := main_v403) rfl (.tail _ (.head _)), writes_sub_of_mem (y := main_v404) rfl (.tail _ (.tail _ (.head _))), writes_sub_of_mem (y := main_v405) rfl (.tail _ (.tail _ (.tail _ (.head _)))), writes_sub_of_mem (y := main_call2_cst) rfl (.tail _ (.tail _ (.tail _ (.tail _ (.head _))))), writes_sub_of_mem (y := main_call2_v0) rfl (.tail _ (.tail _ (.tail _ (.tail _ (.tail _ (.head _)))))), writes_sub_of_mem (y := main_call2_v1) rfl (.tail _ (.tail _ (.tail _ (.tail _ (.tail _ (.tail _ (.head _))))))), writes_sub_of_mem (y := main_call2_cst_0) rfl (.tail _ (.tail _ (.tail _ (.tail _ (.tail _ (.tail _ (.tail _ (.head _)))))))), writes_sub_of_mem (y := main_call2_v2) rfl (.tail _ (.tail _ (.tail _ (.tail _ (.tail _ (.tail _ (.tail _ (.tail _ (.head _))))))))), writes_sub_of_mem (y := main_call2_v3) rfl (.tail _ (.tail _ (.tail _ (.tail _ (.tail _ (.tail _ (.tail _ (.tail _ (.tail _ (.head _)))))))))), writes_sub_of_mem (y := main_call2_cst_1) rfl (.tail _ (.tail _ (.tail _ (.tail _ (.tail _ (.tail _ (.tail _ (.tail _ (.tail _ (.tail _ (.head _))))))))))), writes_sub_of_mem (y := main_call2_call0_v0) rfl (.tail _ (.tail _ (.tail _ (.tail _ (.tail _ (.tail _ (.tail _ (.tail _ (.tail _ (.tail _ (.tail _ (.head _)))))))))))), writes_sub_of_mem (y := main_call2_call0_v1) rfl (.tail _ (.tail _ (.tail _ (.tail _ (.tail _ (.tail _ (.tail _ (.tail _ (.tail _ (.tail _ (.tail _ (.tail _ (.head _))))))))))))), writes_sub_of_mem (y := main_call2_v4) rfl (.tail _ (.tail _ (.tail _ (.tail _ (.tail _ (.tail _ (.tail _ (.tail _ (.tail _ (.tail _ (.tail _ (.tail _ (.tail _ (.head _)))))))))))))), writes_sub_of_mem (y := main_call2_v5) rfl (.tail _ (.tail _ (.tail _ (.tail _ (.tail _ (.tail _ (.tail _ (.tail _ (.tail _ (.tail _ (.tail _ (.tail _ (.tail _ (.tail _ (.head _))))))))))))))), writes_sub_of_mem (y := main_call2_cst_2) rfl (.tail _ (.tail _ (.tail _ (.tail _ (.tail _ (.tail _ (.tail _ (.tail _ (.tail _ (.tail _ (.tail _ (.tail _ (.tail _ (.tail _ (.tail _ (.head _)))))))))))))))), writes_sub_of_mem (y := main_call2_v6) rfl (.tail _ (.tail _ (.tail _ (.tail _ (.tail _ (.tail _ (.tail _ (.tail _ (.tail _ (.tail _ (.tail _ (.tail _ (.tail _ (.tail _ (.tail _ (.tail _ (.head _))))))))))))))))), writes_sub_of_mem (y := main_call2_v7) rfl (.tail _ (.tail _ (.tail _ (.tail _ (.tail _ (.tail _ (.tail _ (.tail _ (.tail _ (.tail _ (.tail _ (.tail _ (.tail _ (.tail _ (.tail _ (.tail _ (.tail _ (.head _)))))))))))))))))), writes_sub_of_mem (y := main_v406) rfl (.tail _ (.tail _ (.tail _ (.tail _ (.tail _ (.tail _ (.tail _ (.tail _ (.tail _ (.tail _ (.tail _ (.tail _ (.tail _ (.tail _ (.tail _ (.tail _ (.tail _ (.tail _ (.head _))))))))))))))))))), writes_sub_of_mem (y := main_v407) rfl (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), writes_sub_of_mem (y := main_v408) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), writes_sub_of_mem (y := main_v409) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), writes_sub_of_mem (y := main_v410) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), writes_sub_of_mem (y := main_call3_cst) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), writes_sub_of_mem (y := main_call3_v0) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), writes_sub_of_mem (y := main_call3_v1) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), writes_sub_of_mem (y := main_call3_cst_0) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), writes_sub_of_mem (y := main_call3_v2) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), writes_sub_of_mem (y := main_call3_v3) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), writes_sub_of_mem (y := main_call3_cst_1) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), writes_sub_of_mem (y := main_call3_call0_v0) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), writes_sub_of_mem (y := main_call3_call0_v1) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), writes_sub_of_mem (y := main_call3_v4) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), writes_sub_of_mem (y := main_call3_v5) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), writes_sub_of_mem (y := main_call3_cst_2) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), writes_sub_of_mem (y := main_call3_v6) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), writes_sub_of_mem (y := main_call3_v7) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), writes_sub_of_mem (y := main_v411) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), writes_sub_of_mem (y := main_v412) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), writes_sub_of_mem (y := main_v413) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), writes_sub_of_mem (y := main_v414) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))), writes_sub_of_mem (y := main_v415) rfl (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))⟩
/-- A buffer the stretch does not write keeps its contents, from any contents. -/
theorem opsC25_keeps (V : Valuation τ sig (Elt F)) {r : Ref sig .tc} (hr : r ∉ opsC25_W) :
    after (opsC25 : List (HloOp τ sig (Elt F))) V (Proc.devRef .tc r) = V (Proc.devRef .tc r) :=
  after_of_writes_sub opsC25 V opsC25_writes hr
/-- The stretch writes no argument of @main: its buffers come after the twenty-seven arguments. -/
theorem opsC25_W_ge : ∀ r ∈ opsC25_W, 27 ≤ r.idx.val := by decide +kernel
theorem opsC25_W_args : ∀ r ∈ mainArgs, r ∉ opsC25_W :=
  fun r hr hW => absurd (opsC25_W_ge r hW) (Nat.not_le.mpr (mainArgs_lt r hr))

/-- The whole line: the stretches in order. -/
abbrev ops : List (HloOp τ sig (Elt F)) := opsC0 ++ (opsC1 ++ (opsC2 ++ (opsC3 ++ (opsC4 ++ (opsC5 ++ (opsC6 ++ (opsC7 ++ (opsC8 ++ (opsC9 ++ (opsC10 ++ (opsC11 ++ (opsC12 ++ (opsC13 ++ (opsC14 ++ (opsC15 ++ (opsC16 ++ (opsC17 ++ (opsC18 ++ (opsC19 ++ (opsC20 ++ (opsC21 ++ (opsC22 ++ (opsC23 ++ (opsC24 ++ (opsC25)))))))))))))))))))))))))

theorem ops_sub : (ops : List (HloOp τ sig (Elt F))).Forall fun op => op.bufs ⊆ tcRefs τ sig :=
  List.forall_iff_forall_mem.mpr (mem_append_all (List.forall_iff_forall_mem.mp opsC0_sub) (mem_append_all (List.forall_iff_forall_mem.mp opsC1_sub) (mem_append_all (List.forall_iff_forall_mem.mp opsC2_sub) (mem_append_all (List.forall_iff_forall_mem.mp opsC3_sub) (mem_append_all (List.forall_iff_forall_mem.mp opsC4_sub) (mem_append_all (List.forall_iff_forall_mem.mp opsC5_sub) (mem_append_all (List.forall_iff_forall_mem.mp opsC6_sub) (mem_append_all (List.forall_iff_forall_mem.mp opsC7_sub) (mem_append_all (List.forall_iff_forall_mem.mp opsC8_sub) (mem_append_all (List.forall_iff_forall_mem.mp opsC9_sub) (mem_append_all (List.forall_iff_forall_mem.mp opsC10_sub) (mem_append_all (List.forall_iff_forall_mem.mp opsC11_sub) (mem_append_all (List.forall_iff_forall_mem.mp opsC12_sub) (mem_append_all (List.forall_iff_forall_mem.mp opsC13_sub) (mem_append_all (List.forall_iff_forall_mem.mp opsC14_sub) (mem_append_all (List.forall_iff_forall_mem.mp opsC15_sub) (mem_append_all (List.forall_iff_forall_mem.mp opsC16_sub) (mem_append_all (List.forall_iff_forall_mem.mp opsC17_sub) (mem_append_all (List.forall_iff_forall_mem.mp opsC18_sub) (mem_append_all (List.forall_iff_forall_mem.mp opsC19_sub) (mem_append_all (List.forall_iff_forall_mem.mp opsC20_sub) (mem_append_all (List.forall_iff_forall_mem.mp opsC21_sub) (mem_append_all (List.forall_iff_forall_mem.mp opsC22_sub) (mem_append_all (List.forall_iff_forall_mem.mp opsC23_sub) (mem_append_all (List.forall_iff_forall_mem.mp opsC24_sub) (List.forall_iff_forall_mem.mp opsC25_sub))))))))))))))))))))))))))
theorem ops_fresh : ∀ op ∈ (ops : List (HloOp τ sig (Elt F))), op.fresh = ∅ :=
  (mem_append_all (List.forall_iff_forall_mem.mp opsC0_fresh) (mem_append_all (List.forall_iff_forall_mem.mp opsC1_fresh) (mem_append_all (List.forall_iff_forall_mem.mp opsC2_fresh) (mem_append_all (List.forall_iff_forall_mem.mp opsC3_fresh) (mem_append_all (List.forall_iff_forall_mem.mp opsC4_fresh) (mem_append_all (List.forall_iff_forall_mem.mp opsC5_fresh) (mem_append_all (List.forall_iff_forall_mem.mp opsC6_fresh) (mem_append_all (List.forall_iff_forall_mem.mp opsC7_fresh) (mem_append_all (List.forall_iff_forall_mem.mp opsC8_fresh) (mem_append_all (List.forall_iff_forall_mem.mp opsC9_fresh) (mem_append_all (List.forall_iff_forall_mem.mp opsC10_fresh) (mem_append_all (List.forall_iff_forall_mem.mp opsC11_fresh) (mem_append_all (List.forall_iff_forall_mem.mp opsC12_fresh) (mem_append_all (List.forall_iff_forall_mem.mp opsC13_fresh) (mem_append_all (List.forall_iff_forall_mem.mp opsC14_fresh) (mem_append_all (List.forall_iff_forall_mem.mp opsC15_fresh) (mem_append_all (List.forall_iff_forall_mem.mp opsC16_fresh) (mem_append_all (List.forall_iff_forall_mem.mp opsC17_fresh) (mem_append_all (List.forall_iff_forall_mem.mp opsC18_fresh) (mem_append_all (List.forall_iff_forall_mem.mp opsC19_fresh) (mem_append_all (List.forall_iff_forall_mem.mp opsC20_fresh) (mem_append_all (List.forall_iff_forall_mem.mp opsC21_fresh) (mem_append_all (List.forall_iff_forall_mem.mp opsC22_fresh) (mem_append_all (List.forall_iff_forall_mem.mp opsC23_fresh) (mem_append_all (List.forall_iff_forall_mem.mp opsC24_fresh) (List.forall_iff_forall_mem.mp opsC25_fresh))))))))))))))))))))))))))

/-! ## The fold, level by level -/

/-- The launch contents of device c: no stretch run yet. -/
def Lv0 (m : (ℓ : Loc nD τ sig) → Buf (Elt F) ℓ) (c : Dev nD) : Valuation τ sig (Elt F) := launchContents m c
/-- The contents after the stretches 0 … 0. -/
def Lv1 (m : (ℓ : Loc nD τ sig) → Buf (Elt F) ℓ) (c : Dev nD) : Valuation τ sig (Elt F) := after opsC0 (Lv0 m c)
/-- The contents after the stretches 0 … 1. -/
def Lv2 (m : (ℓ : Loc nD τ sig) → Buf (Elt F) ℓ) (c : Dev nD) : Valuation τ sig (Elt F) := after opsC1 (Lv1 m c)
/-- The contents after the stretches 0 … 2. -/
def Lv3 (m : (ℓ : Loc nD τ sig) → Buf (Elt F) ℓ) (c : Dev nD) : Valuation τ sig (Elt F) := after opsC2 (Lv2 m c)
/-- The contents after the stretches 0 … 3. -/
def Lv4 (m : (ℓ : Loc nD τ sig) → Buf (Elt F) ℓ) (c : Dev nD) : Valuation τ sig (Elt F) := after opsC3 (Lv3 m c)
/-- The contents after the stretches 0 … 4. -/
def Lv5 (m : (ℓ : Loc nD τ sig) → Buf (Elt F) ℓ) (c : Dev nD) : Valuation τ sig (Elt F) := after opsC4 (Lv4 m c)
/-- The contents after the stretches 0 … 5. -/
def Lv6 (m : (ℓ : Loc nD τ sig) → Buf (Elt F) ℓ) (c : Dev nD) : Valuation τ sig (Elt F) := after opsC5 (Lv5 m c)
/-- The contents after the stretches 0 … 6. -/
def Lv7 (m : (ℓ : Loc nD τ sig) → Buf (Elt F) ℓ) (c : Dev nD) : Valuation τ sig (Elt F) := after opsC6 (Lv6 m c)
/-- The contents after the stretches 0 … 7. -/
def Lv8 (m : (ℓ : Loc nD τ sig) → Buf (Elt F) ℓ) (c : Dev nD) : Valuation τ sig (Elt F) := after opsC7 (Lv7 m c)
/-- The contents after the stretches 0 … 8. -/
def Lv9 (m : (ℓ : Loc nD τ sig) → Buf (Elt F) ℓ) (c : Dev nD) : Valuation τ sig (Elt F) := after opsC8 (Lv8 m c)
/-- The contents after the stretches 0 … 9. -/
def Lv10 (m : (ℓ : Loc nD τ sig) → Buf (Elt F) ℓ) (c : Dev nD) : Valuation τ sig (Elt F) := after opsC9 (Lv9 m c)
/-- The contents after the stretches 0 … 10. -/
def Lv11 (m : (ℓ : Loc nD τ sig) → Buf (Elt F) ℓ) (c : Dev nD) : Valuation τ sig (Elt F) := after opsC10 (Lv10 m c)
/-- The contents after the stretches 0 … 11. -/
def Lv12 (m : (ℓ : Loc nD τ sig) → Buf (Elt F) ℓ) (c : Dev nD) : Valuation τ sig (Elt F) := after opsC11 (Lv11 m c)
/-- The contents after the stretches 0 … 12. -/
def Lv13 (m : (ℓ : Loc nD τ sig) → Buf (Elt F) ℓ) (c : Dev nD) : Valuation τ sig (Elt F) := after opsC12 (Lv12 m c)
/-- The contents after the stretches 0 … 13. -/
def Lv14 (m : (ℓ : Loc nD τ sig) → Buf (Elt F) ℓ) (c : Dev nD) : Valuation τ sig (Elt F) := after opsC13 (Lv13 m c)
/-- The contents after the stretches 0 … 14. -/
def Lv15 (m : (ℓ : Loc nD τ sig) → Buf (Elt F) ℓ) (c : Dev nD) : Valuation τ sig (Elt F) := after opsC14 (Lv14 m c)
/-- The contents after the stretches 0 … 15. -/
def Lv16 (m : (ℓ : Loc nD τ sig) → Buf (Elt F) ℓ) (c : Dev nD) : Valuation τ sig (Elt F) := after opsC15 (Lv15 m c)
/-- The contents after the stretches 0 … 16. -/
def Lv17 (m : (ℓ : Loc nD τ sig) → Buf (Elt F) ℓ) (c : Dev nD) : Valuation τ sig (Elt F) := after opsC16 (Lv16 m c)
/-- The contents after the stretches 0 … 17. -/
def Lv18 (m : (ℓ : Loc nD τ sig) → Buf (Elt F) ℓ) (c : Dev nD) : Valuation τ sig (Elt F) := after opsC17 (Lv17 m c)
/-- The contents after the stretches 0 … 18. -/
def Lv19 (m : (ℓ : Loc nD τ sig) → Buf (Elt F) ℓ) (c : Dev nD) : Valuation τ sig (Elt F) := after opsC18 (Lv18 m c)
/-- The contents after the stretches 0 … 19. -/
def Lv20 (m : (ℓ : Loc nD τ sig) → Buf (Elt F) ℓ) (c : Dev nD) : Valuation τ sig (Elt F) := after opsC19 (Lv19 m c)
/-- The contents after the stretches 0 … 20. -/
def Lv21 (m : (ℓ : Loc nD τ sig) → Buf (Elt F) ℓ) (c : Dev nD) : Valuation τ sig (Elt F) := after opsC20 (Lv20 m c)
/-- The contents after the stretches 0 … 21. -/
def Lv22 (m : (ℓ : Loc nD τ sig) → Buf (Elt F) ℓ) (c : Dev nD) : Valuation τ sig (Elt F) := after opsC21 (Lv21 m c)
/-- The contents after the stretches 0 … 22. -/
def Lv23 (m : (ℓ : Loc nD τ sig) → Buf (Elt F) ℓ) (c : Dev nD) : Valuation τ sig (Elt F) := after opsC22 (Lv22 m c)
/-- The contents after the stretches 0 … 23. -/
def Lv24 (m : (ℓ : Loc nD τ sig) → Buf (Elt F) ℓ) (c : Dev nD) : Valuation τ sig (Elt F) := after opsC23 (Lv23 m c)
/-- The contents after the stretches 0 … 24. -/
def Lv25 (m : (ℓ : Loc nD τ sig) → Buf (Elt F) ℓ) (c : Dev nD) : Valuation τ sig (Elt F) := after opsC24 (Lv24 m c)
/-- The contents after the stretches 0 … 25. -/
def Lv26 (m : (ℓ : Loc nD τ sig) → Buf (Elt F) ℓ) (c : Dev nD) : Valuation τ sig (Elt F) := after opsC25 (Lv25 m c)

/-- The fold over the whole line is the last level: the fold over a concatenation is the folds in turn. -/
theorem after_ops (m : (ℓ : Loc nD τ sig) → Buf (Elt F) ℓ) (c : Dev nD) :
    after (ops : List (HloOp τ sig (Elt F))) (launchContents m c) = Lv26 m c := by
  simp only [ops, after_append]
  rfl

/-! Every level holds @main's arguments as launched: no stretch writes one. -/

theorem Lv1_arg (m : (ℓ : Loc nD τ sig) → Buf (Elt F) ℓ) (c : Dev nD) {r : Ref sig .tc} (hr : r ∈ mainArgs) :
    Lv1 m c (Proc.devRef .tc r) = Lv0 m c (Proc.devRef .tc r) :=
  opsC0_keeps (Lv0 m c) (opsC0_W_args r hr)
theorem Lv2_arg (m : (ℓ : Loc nD τ sig) → Buf (Elt F) ℓ) (c : Dev nD) {r : Ref sig .tc} (hr : r ∈ mainArgs) :
    Lv2 m c (Proc.devRef .tc r) = Lv0 m c (Proc.devRef .tc r) :=
  (opsC1_keeps (Lv1 m c) (opsC1_W_args r hr)).trans (Lv1_arg m c hr)
theorem Lv3_arg (m : (ℓ : Loc nD τ sig) → Buf (Elt F) ℓ) (c : Dev nD) {r : Ref sig .tc} (hr : r ∈ mainArgs) :
    Lv3 m c (Proc.devRef .tc r) = Lv0 m c (Proc.devRef .tc r) :=
  (opsC2_keeps (Lv2 m c) (opsC2_W_args r hr)).trans (Lv2_arg m c hr)
theorem Lv4_arg (m : (ℓ : Loc nD τ sig) → Buf (Elt F) ℓ) (c : Dev nD) {r : Ref sig .tc} (hr : r ∈ mainArgs) :
    Lv4 m c (Proc.devRef .tc r) = Lv0 m c (Proc.devRef .tc r) :=
  (opsC3_keeps (Lv3 m c) (opsC3_W_args r hr)).trans (Lv3_arg m c hr)
theorem Lv5_arg (m : (ℓ : Loc nD τ sig) → Buf (Elt F) ℓ) (c : Dev nD) {r : Ref sig .tc} (hr : r ∈ mainArgs) :
    Lv5 m c (Proc.devRef .tc r) = Lv0 m c (Proc.devRef .tc r) :=
  (opsC4_keeps (Lv4 m c) (opsC4_W_args r hr)).trans (Lv4_arg m c hr)
theorem Lv6_arg (m : (ℓ : Loc nD τ sig) → Buf (Elt F) ℓ) (c : Dev nD) {r : Ref sig .tc} (hr : r ∈ mainArgs) :
    Lv6 m c (Proc.devRef .tc r) = Lv0 m c (Proc.devRef .tc r) :=
  (opsC5_keeps (Lv5 m c) (opsC5_W_args r hr)).trans (Lv5_arg m c hr)
theorem Lv7_arg (m : (ℓ : Loc nD τ sig) → Buf (Elt F) ℓ) (c : Dev nD) {r : Ref sig .tc} (hr : r ∈ mainArgs) :
    Lv7 m c (Proc.devRef .tc r) = Lv0 m c (Proc.devRef .tc r) :=
  (opsC6_keeps (Lv6 m c) (opsC6_W_args r hr)).trans (Lv6_arg m c hr)
theorem Lv8_arg (m : (ℓ : Loc nD τ sig) → Buf (Elt F) ℓ) (c : Dev nD) {r : Ref sig .tc} (hr : r ∈ mainArgs) :
    Lv8 m c (Proc.devRef .tc r) = Lv0 m c (Proc.devRef .tc r) :=
  (opsC7_keeps (Lv7 m c) (opsC7_W_args r hr)).trans (Lv7_arg m c hr)
theorem Lv9_arg (m : (ℓ : Loc nD τ sig) → Buf (Elt F) ℓ) (c : Dev nD) {r : Ref sig .tc} (hr : r ∈ mainArgs) :
    Lv9 m c (Proc.devRef .tc r) = Lv0 m c (Proc.devRef .tc r) :=
  (opsC8_keeps (Lv8 m c) (opsC8_W_args r hr)).trans (Lv8_arg m c hr)
theorem Lv10_arg (m : (ℓ : Loc nD τ sig) → Buf (Elt F) ℓ) (c : Dev nD) {r : Ref sig .tc} (hr : r ∈ mainArgs) :
    Lv10 m c (Proc.devRef .tc r) = Lv0 m c (Proc.devRef .tc r) :=
  (opsC9_keeps (Lv9 m c) (opsC9_W_args r hr)).trans (Lv9_arg m c hr)
theorem Lv11_arg (m : (ℓ : Loc nD τ sig) → Buf (Elt F) ℓ) (c : Dev nD) {r : Ref sig .tc} (hr : r ∈ mainArgs) :
    Lv11 m c (Proc.devRef .tc r) = Lv0 m c (Proc.devRef .tc r) :=
  (opsC10_keeps (Lv10 m c) (opsC10_W_args r hr)).trans (Lv10_arg m c hr)
theorem Lv12_arg (m : (ℓ : Loc nD τ sig) → Buf (Elt F) ℓ) (c : Dev nD) {r : Ref sig .tc} (hr : r ∈ mainArgs) :
    Lv12 m c (Proc.devRef .tc r) = Lv0 m c (Proc.devRef .tc r) :=
  (opsC11_keeps (Lv11 m c) (opsC11_W_args r hr)).trans (Lv11_arg m c hr)
theorem Lv13_arg (m : (ℓ : Loc nD τ sig) → Buf (Elt F) ℓ) (c : Dev nD) {r : Ref sig .tc} (hr : r ∈ mainArgs) :
    Lv13 m c (Proc.devRef .tc r) = Lv0 m c (Proc.devRef .tc r) :=
  (opsC12_keeps (Lv12 m c) (opsC12_W_args r hr)).trans (Lv12_arg m c hr)
theorem Lv14_arg (m : (ℓ : Loc nD τ sig) → Buf (Elt F) ℓ) (c : Dev nD) {r : Ref sig .tc} (hr : r ∈ mainArgs) :
    Lv14 m c (Proc.devRef .tc r) = Lv0 m c (Proc.devRef .tc r) :=
  (opsC13_keeps (Lv13 m c) (opsC13_W_args r hr)).trans (Lv13_arg m c hr)
theorem Lv15_arg (m : (ℓ : Loc nD τ sig) → Buf (Elt F) ℓ) (c : Dev nD) {r : Ref sig .tc} (hr : r ∈ mainArgs) :
    Lv15 m c (Proc.devRef .tc r) = Lv0 m c (Proc.devRef .tc r) :=
  (opsC14_keeps (Lv14 m c) (opsC14_W_args r hr)).trans (Lv14_arg m c hr)
theorem Lv16_arg (m : (ℓ : Loc nD τ sig) → Buf (Elt F) ℓ) (c : Dev nD) {r : Ref sig .tc} (hr : r ∈ mainArgs) :
    Lv16 m c (Proc.devRef .tc r) = Lv0 m c (Proc.devRef .tc r) :=
  (opsC15_keeps (Lv15 m c) (opsC15_W_args r hr)).trans (Lv15_arg m c hr)
theorem Lv17_arg (m : (ℓ : Loc nD τ sig) → Buf (Elt F) ℓ) (c : Dev nD) {r : Ref sig .tc} (hr : r ∈ mainArgs) :
    Lv17 m c (Proc.devRef .tc r) = Lv0 m c (Proc.devRef .tc r) :=
  (opsC16_keeps (Lv16 m c) (opsC16_W_args r hr)).trans (Lv16_arg m c hr)
theorem Lv18_arg (m : (ℓ : Loc nD τ sig) → Buf (Elt F) ℓ) (c : Dev nD) {r : Ref sig .tc} (hr : r ∈ mainArgs) :
    Lv18 m c (Proc.devRef .tc r) = Lv0 m c (Proc.devRef .tc r) :=
  (opsC17_keeps (Lv17 m c) (opsC17_W_args r hr)).trans (Lv17_arg m c hr)
theorem Lv19_arg (m : (ℓ : Loc nD τ sig) → Buf (Elt F) ℓ) (c : Dev nD) {r : Ref sig .tc} (hr : r ∈ mainArgs) :
    Lv19 m c (Proc.devRef .tc r) = Lv0 m c (Proc.devRef .tc r) :=
  (opsC18_keeps (Lv18 m c) (opsC18_W_args r hr)).trans (Lv18_arg m c hr)
theorem Lv20_arg (m : (ℓ : Loc nD τ sig) → Buf (Elt F) ℓ) (c : Dev nD) {r : Ref sig .tc} (hr : r ∈ mainArgs) :
    Lv20 m c (Proc.devRef .tc r) = Lv0 m c (Proc.devRef .tc r) :=
  (opsC19_keeps (Lv19 m c) (opsC19_W_args r hr)).trans (Lv19_arg m c hr)
theorem Lv21_arg (m : (ℓ : Loc nD τ sig) → Buf (Elt F) ℓ) (c : Dev nD) {r : Ref sig .tc} (hr : r ∈ mainArgs) :
    Lv21 m c (Proc.devRef .tc r) = Lv0 m c (Proc.devRef .tc r) :=
  (opsC20_keeps (Lv20 m c) (opsC20_W_args r hr)).trans (Lv20_arg m c hr)
theorem Lv22_arg (m : (ℓ : Loc nD τ sig) → Buf (Elt F) ℓ) (c : Dev nD) {r : Ref sig .tc} (hr : r ∈ mainArgs) :
    Lv22 m c (Proc.devRef .tc r) = Lv0 m c (Proc.devRef .tc r) :=
  (opsC21_keeps (Lv21 m c) (opsC21_W_args r hr)).trans (Lv21_arg m c hr)
theorem Lv23_arg (m : (ℓ : Loc nD τ sig) → Buf (Elt F) ℓ) (c : Dev nD) {r : Ref sig .tc} (hr : r ∈ mainArgs) :
    Lv23 m c (Proc.devRef .tc r) = Lv0 m c (Proc.devRef .tc r) :=
  (opsC22_keeps (Lv22 m c) (opsC22_W_args r hr)).trans (Lv22_arg m c hr)
theorem Lv24_arg (m : (ℓ : Loc nD τ sig) → Buf (Elt F) ℓ) (c : Dev nD) {r : Ref sig .tc} (hr : r ∈ mainArgs) :
    Lv24 m c (Proc.devRef .tc r) = Lv0 m c (Proc.devRef .tc r) :=
  (opsC23_keeps (Lv23 m c) (opsC23_W_args r hr)).trans (Lv23_arg m c hr)
theorem Lv25_arg (m : (ℓ : Loc nD τ sig) → Buf (Elt F) ℓ) (c : Dev nD) {r : Ref sig .tc} (hr : r ∈ mainArgs) :
    Lv25 m c (Proc.devRef .tc r) = Lv0 m c (Proc.devRef .tc r) :=
  (opsC24_keeps (Lv24 m c) (opsC24_W_args r hr)).trans (Lv24_arg m c hr)
theorem Lv26_arg (m : (ℓ : Loc nD τ sig) → Buf (Elt F) ℓ) (c : Dev nD) {r : Ref sig .tc} (hr : r ∈ mainArgs) :
    Lv26 m c (Proc.devRef .tc r) = Lv0 m c (Proc.devRef .tc r) :=
  (opsC25_keeps (Lv25 m c) (opsC25_W_args r hr)).trans (Lv25_arg m c hr)

/-- The last level holds every argument as launched. -/
theorem args_kept (m : (ℓ : Loc nD τ sig) → Buf (Elt F) ℓ) (c : Dev nD) {r : Ref sig .tc} (hr : r ∈ mainArgs) :
    Lv26 m c (Proc.devRef .tc r) = Lv0 m c (Proc.devRef .tc r) := Lv26_arg m c hr

/-! ## @main is that line -/

/-- The line's entries 1 … 60: the 1st window of @main. -/
abbrev opsW0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg5 main_v4 ((extractStridedSlice S1x100x64 ![0, 0, 0] · slices_S5x100x64_S1x100x64_0_0_0) : (⟨S5x100x64, .f32⟩ : BufTy).Contents (Elt F) → (⟨S1x100x64, .f32⟩ : BufTy).Contents (Elt F)),
    StableHlo.reshape main_v4 main_v5 rfl shapeCasts_S1x100x64_S100x64,
    StableHlo.nullary main_c (constantI S_ 32 0#32),
    StableHlo.unary main_c main_v6 (broadcastInDim S100000x2 ![] bcast_S_S100000x2 : (⟨S_, .i32⟩ : BufTy).Contents (Elt F) → (⟨S100000x2, .i32⟩ : BufTy).Contents (Elt F)),
    StableHlo.binary main_arg0 main_v6 main_v7 (cmpi .slt : (⟨S100000x2, .i32⟩ : BufTy).Contents (Elt F) → (⟨S100000x2, .i32⟩ : BufTy).Contents (Elt F) → (⟨S100000x2, .i1⟩ : BufTy).Contents (Elt F)),
    StableHlo.nullary main_c_0 (constantI S_ 32 100#32),
    StableHlo.unary main_c_0 main_v8 (broadcastInDim S100000x2 ![] bcast_S_S100000x2 : (⟨S_, .i32⟩ : BufTy).Contents (Elt F) → (⟨S100000x2, .i32⟩ : BufTy).Contents (Elt F)),
    StableHlo.binary main_arg0 main_v8 main_v9 (addi : (⟨S100000x2, .i32⟩ : BufTy).Contents (Elt F) → (⟨S100000x2, .i32⟩ : BufTy).Contents (Elt F) → (⟨S100000x2, .i32⟩ : BufTy).Contents (Elt F)),
    StableHlo.ternary main_v7 main_v9 main_arg0 main_v10 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v10 main_v11 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v5 main_v11 main_v12 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst (constant S_ .f32 0x00000000#32),
    StableHlo.binary main_v12 main_cst main_v13 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.unary main_arg8 main_v14 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v14 main_v15 rfl shapeCasts_S1x64x64_S64x64,
    StableHlo.unary main_arg9 main_v16 ((extractStridedSlice S1x64x192 ![0, 0, 0] · slices_S5x64x192_S1x64x192_0_0_0) : (⟨S5x64x192, .f32⟩ : BufTy).Contents (Elt F) → (⟨S1x64x192, .f32⟩ : BufTy).Contents (Elt F)),
    StableHlo.reshape main_v16 main_v17 rfl shapeCasts_S1x64x192_S64x192,
    StableHlo.unary main_arg10 main_v18 ((extractStridedSlice S1x192 ![0, 0] · slices_S5x192_S1x192_0_0) : (⟨S5x192, .f32⟩ : BufTy).Contents (Elt F) → (⟨S1x192, .f32⟩ : BufTy).Contents (Elt F)),
    StableHlo.reshape main_v18 main_v19 rfl shapeCasts_S1x192_S192,
    StableHlo.unary main_arg11 main_v20 ((extractStridedSlice S1x64x192 ![0, 0, 0] · slices_S5x64x192_S1x64x192_0_0_0) : (⟨S5x64x192, .f32⟩ : BufTy).Contents (Elt F) → (⟨S1x64x192, .f32⟩ : BufTy).Contents (Elt F)),
    StableHlo.reshape main_v20 main_v21 rfl shapeCasts_S1x64x192_S64x192,
    StableHlo.unary main_arg12 main_v22 ((extractStridedSlice S1x192 ![0, 0] · slices_S5x192_S1x192_0_0) : (⟨S5x192, .f32⟩ : BufTy).Contents (Elt F) → (⟨S1x192, .f32⟩ : BufTy).Contents (Elt F)),
    StableHlo.reshape main_v22 main_v23 rfl shapeCasts_S1x192_S192,
    StableHlo.binary main_v13 main_v15 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_1 (constantI S_ 32 0#32),
    StableHlo.unary main_c_1 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_3 (constant S_ .f32 0x00000000#32),
    StableHlo.unary main_cst_3 main_v32 (broadcastInDim S100000x64 ![] bcast_S_S100000x64 : (⟨S_, .f32⟩ : BufTy).Contents (Elt F) → (⟨S100000x64, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v34 main_v17 main_v35 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v19 main_v36 (broadcastInDim S1x192 ![1] bcast_S192_S1x192_1 : (⟨S192, .f32⟩ : BufTy).Contents (Elt F) → (⟨S1x192, .f32⟩ : BufTy).Contents (Elt F)),
    StableHlo.unary main_v36 main_v37 (broadcastInDim S100000x192 ![0, 1] bcast_S1x192_S100000x192_0_1 : (⟨S1x192, .f32⟩ : BufTy).Contents (Elt F) → (⟨S100000x192, .f32⟩ : BufTy).Contents (Elt F)),
    StableHlo.binary main_v35 main_v37 main_v38 (addf : (⟨S100000x192, .f32⟩ : BufTy).Contents (Elt F) → (⟨S100000x192, .f32⟩ : BufTy).Contents (Elt F) → (⟨S100000x192, .f32⟩ : BufTy).Contents (Elt F)),
    StableHlo.binary main_v13 main_v21 main_v39 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v23 main_v40 (broadcastInDim S1x192 ![1] bcast_S192_S1x192_1 : (⟨S192, .f32⟩ : BufTy).Contents (Elt F) → (⟨S1x192, .f32⟩ : BufTy).Contents (Elt F)),
    StableHlo.unary main_v40 main_v41 (broadcastInDim S100000x192 ![0, 1] bcast_S1x192_S100000x192_0_1 : (⟨S1x192, .f32⟩ : BufTy).Contents (Elt F) → (⟨S100000x192, .f32⟩ : BufTy).Contents (Elt F)),
    StableHlo.binary main_v39 main_v41 main_v42 (addf : (⟨S100000x192, .f32⟩ : BufTy).Contents (Elt F) → (⟨S100000x192, .f32⟩ : BufTy).Contents (Elt F) → (⟨S100000x192, .f32⟩ : BufTy).Contents (Elt F)),
    StableHlo.unary main_v38 main_v43 ((extractStridedSlice S100000x64 ![0, 0] · slices_S100000x192_S100000x64_0_0) : (⟨S100000x192, .f32⟩ : BufTy).Contents (Elt F) → (⟨S100000x64, .f32⟩ : BufTy).Contents (Elt F)),
    StableHlo.unary main_v38 main_v44 ((extractStridedSlice S100000x64 ![0, 64] · slices_S100000x192_S100000x64_0_64) : (⟨S100000x192, .f32⟩ : BufTy).Contents (Elt F) → (⟨S100000x64, .f32⟩ : BufTy).Contents (Elt F)),
    StableHlo.unary main_v38 main_v45 ((extractStridedSlice S100000x64 ![0, 128] · slices_S100000x192_S100000x64_0_128) : (⟨S100000x192, .f32⟩ : BufTy).Contents (Elt F) → (⟨S100000x64, .f32⟩ : BufTy).Contents (Elt F)),
    StableHlo.unary main_v42 main_v46 ((extractStridedSlice S100000x64 ![0, 0] · slices_S100000x192_S100000x64_0_0) : (⟨S100000x192, .f32⟩ : BufTy).Contents (Elt F) → (⟨S100000x64, .f32⟩ : BufTy).Contents (Elt F)),
    StableHlo.unary main_v42 main_v47 ((extractStridedSlice S100000x64 ![0, 64] · slices_S100000x192_S100000x64_0_64) : (⟨S100000x192, .f32⟩ : BufTy).Contents (Elt F) → (⟨S100000x64, .f32⟩ : BufTy).Contents (Elt F)),
    StableHlo.unary main_v42 main_v48 ((extractStridedSlice S100000x64 ![0, 128] · slices_S100000x192_S100000x64_0_128) : (⟨S100000x192, .f32⟩ : BufTy).Contents (Elt F) → (⟨S100000x64, .f32⟩ : BufTy).Contents (Elt F)),
    StableHlo.binary main_v43 main_v46 main_v49 (addf : (⟨S100000x64, .f32⟩ : BufTy).Contents (Elt F) → (⟨S100000x64, .f32⟩ : BufTy).Contents (Elt F) → (⟨S100000x64, .f32⟩ : BufTy).Contents (Elt F)),
    StableHlo.unary main_v49 main_v50 (Host.negf : (⟨S100000x64, .f32⟩ : BufTy).Contents (Elt F) → (⟨S100000x64, .f32⟩ : BufTy).Contents (Elt F)),
    StableHlo.unary main_v50 main_v51 (Host.exp : (⟨S100000x64, .f32⟩ : BufTy).Contents (Elt F) → (⟨S100000x64, .f32⟩ : BufTy).Contents (Elt F)),
    StableHlo.nullary main_cst_4 (constant S_ .f32 0x3F800000#32),
    StableHlo.unary main_cst_4 main_v52 (broadcastInDim S100000x64 ![] bcast_S_S100000x64 : (⟨S_, .f32⟩ : BufTy).Contents (Elt F) → (⟨S100000x64, .f32⟩ : BufTy).Contents (Elt F)) ]
set_option maxRecDepth 8192 in
set_option maxHeartbeats 4000000 in
theorem main_part0_eq (c : Dev nD) : main_part0 (F := F) c = seq opsW0 := rfl

/-- The line's entries 61 … 120: the 2nd window of @main. -/
abbrev opsW1 : List (HloOp τ sig (Elt F)) :=
  [ StableHlo.binary main_v52 main_v51 main_v53 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3F800000#32),
    StableHlo.unary main_cst_5 main_v54 (broadcastInDim S100000x64 ![] bcast_S_S100000x64 : (⟨S_, .f32⟩ : BufTy).Contents (Elt F) → (⟨S100000x64, .f32⟩ : BufTy).Contents (Elt F)),
    StableHlo.binary main_v54 main_v53 main_v55 (Host.divf : (⟨S100000x64, .f32⟩ : BufTy).Contents (Elt F) → (⟨S100000x64, .f32⟩ : BufTy).Contents (Elt F) → (⟨S100000x64, .f32⟩ : BufTy).Contents (Elt F)),
    StableHlo.binary main_v44 main_v47 main_v56 (addf : (⟨S100000x64, .f32⟩ : BufTy).Contents (Elt F) → (⟨S100000x64, .f32⟩ : BufTy).Contents (Elt F) → (⟨S100000x64, .f32⟩ : BufTy).Contents (Elt F)),
    StableHlo.unary main_v56 main_v57 (Host.negf : (⟨S100000x64, .f32⟩ : BufTy).Contents (Elt F) → (⟨S100000x64, .f32⟩ : BufTy).Contents (Elt F)),
    StableHlo.unary main_v57 main_v58 (Host.exp : (⟨S100000x64, .f32⟩ : BufTy).Contents (Elt F) → (⟨S100000x64, .f32⟩ : BufTy).Contents (Elt F)),
    StableHlo.nullary main_cst_6 (constant S_ .f32 0x3F800000#32),
    StableHlo.unary main_cst_6 main_v59 (broadcastInDim S100000x64 ![] bcast_S_S100000x64 : (⟨S_, .f32⟩ : BufTy).Contents (Elt F) → (⟨S100000x64, .f32⟩ : BufTy).Contents (Elt F)),
    StableHlo.binary main_v59 main_v58 main_v60 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3F800000#32),
    StableHlo.unary main_cst_7 main_v61 (broadcastInDim S100000x64 ![] bcast_S_S100000x64 : (⟨S_, .f32⟩ : BufTy).Contents (Elt F) → (⟨S100000x64, .f32⟩ : BufTy).Contents (Elt F)),
    StableHlo.binary main_v61 main_v60 main_v62 (Host.divf : (⟨S100000x64, .f32⟩ : BufTy).Contents (Elt F) → (⟨S100000x64, .f32⟩ : BufTy).Contents (Elt F) → (⟨S100000x64, .f32⟩ : BufTy).Contents (Elt F)),
    StableHlo.binary main_v55 main_v48 main_v63 (mulf : (⟨S100000x64, .f32⟩ : BufTy).Contents (Elt F) → (⟨S100000x64, .f32⟩ : BufTy).Contents (Elt F) → (⟨S100000x64, .f32⟩ : BufTy).Contents (Elt F)),
    StableHlo.binary main_v45 main_v63 main_v64 (addf : (⟨S100000x64, .f32⟩ : BufTy).Contents (Elt F) → (⟨S100000x64, .f32⟩ : BufTy).Contents (Elt F) → (⟨S100000x64, .f32⟩ : BufTy).Contents (Elt F)),
    StableHlo.unary main_v64 main_v65 (Host.tanh : (⟨S100000x64, .f32⟩ : BufTy).Contents (Elt F) → (⟨S100000x64, .f32⟩ : BufTy).Contents (Elt F)),
    StableHlo.nullary main_cst_8 (constant S_ .f32 0x3F800000#32),
    StableHlo.unary main_cst_8 main_v66 (broadcastInDim S100000x64 ![] bcast_S_S100000x64 : (⟨S_, .f32⟩ : BufTy).Contents (Elt F) → (⟨S100000x64, .f32⟩ : BufTy).Contents (Elt F)),
    StableHlo.binary main_v66 main_v62 main_v67 (subf : (⟨S100000x64, .f32⟩ : BufTy).Contents (Elt F) → (⟨S100000x64, .f32⟩ : BufTy).Contents (Elt F) → (⟨S100000x64, .f32⟩ : BufTy).Contents (Elt F)),
    StableHlo.binary main_v67 main_v65 main_v68 (mulf : (⟨S100000x64, .f32⟩ : BufTy).Contents (Elt F) → (⟨S100000x64, .f32⟩ : BufTy).Contents (Elt F) → (⟨S100000x64, .f32⟩ : BufTy).Contents (Elt F)),
    StableHlo.binary main_v62 main_v13 main_v69 (mulf : (⟨S100000x64, .f32⟩ : BufTy).Contents (Elt F) → (⟨S100000x64, .f32⟩ : BufTy).Contents (Elt F) → (⟨S100000x64, .f32⟩ : BufTy).Contents (Elt F)),
    StableHlo.binary main_v68 main_v69 main_v70 (addf : (⟨S100000x64, .f32⟩ : BufTy).Contents (Elt F) → (⟨S100000x64, .f32⟩ : BufTy).Contents (Elt F) → (⟨S100000x64, .f32⟩ : BufTy).Contents (Elt F)),
    StableHlo.unary main_arg5 main_v71 ((extractStridedSlice S1x100x64 ![1, 0, 0] · slices_S5x100x64_S1x100x64_1_0_0) : (⟨S5x100x64, .f32⟩ : BufTy).Contents (Elt F) → (⟨S1x100x64, .f32⟩ : BufTy).Contents (Elt F)),
    StableHlo.reshape main_v71 main_v72 rfl shapeCasts_S1x100x64_S100x64,
    StableHlo.nullary main_c_9 (constantI S_ 32 0#32),
    StableHlo.unary main_c_9 main_v73 (broadcastInDim S100000x2 ![] bcast_S_S100000x2 : (⟨S_, .i32⟩ : BufTy).Contents (Elt F) → (⟨S100000x2, .i32⟩ : BufTy).Contents (Elt F)),
    StableHlo.binary main_arg0 main_v73 main_v74 (cmpi .slt : (⟨S100000x2, .i32⟩ : BufTy).Contents (Elt F) → (⟨S100000x2, .i32⟩ : BufTy).Contents (Elt F) → (⟨S100000x2, .i1⟩ : BufTy).Contents (Elt F)),
    StableHlo.nullary main_c_10 (constantI S_ 32 100#32),
    StableHlo.unary main_c_10 main_v75 (broadcastInDim S100000x2 ![] bcast_S_S100000x2 : (⟨S_, .i32⟩ : BufTy).Contents (Elt F) → (⟨S100000x2, .i32⟩ : BufTy).Contents (Elt F)),
    StableHlo.binary main_arg0 main_v75 main_v76 (addi : (⟨S100000x2, .i32⟩ : BufTy).Contents (Elt F) → (⟨S100000x2, .i32⟩ : BufTy).Contents (Elt F) → (⟨S100000x2, .i32⟩ : BufTy).Contents (Elt F)),
    StableHlo.ternary main_v74 main_v76 main_arg0 main_v77 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v77 main_v78 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v72 main_v78 main_v79 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_11 (constant S_ .f32 0x00000000#32),
    StableHlo.binary main_v79 main_cst_11 main_v80 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.binary main_v70 main_v80 main_v81 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v82 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v82 main_v83 rfl shapeCasts_S1x128x64_S128x64,
    StableHlo.binary main_v81 main_v83 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v85 ((extractStridedSlice S1x64 ![0, 0] · slices_S4x64_S1x64_0_0) : (⟨S4x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v88 main_v89 (addf : (⟨S100000x64, .f32⟩ : BufTy).Contents (Elt F) → (⟨S100000x64, .f32⟩ : BufTy).Contents (Elt F) → (⟨S100000x64, .f32⟩ : BufTy).Contents (Elt F)),
    StableHlo.unary main_arg8 main_v90 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v90 main_v91 rfl shapeCasts_S1x64x64_S64x64,
    StableHlo.unary main_arg9 main_v92 ((extractStridedSlice S1x64x192 ![1, 0, 0] · slices_S5x64x192_S1x64x192_1_0_0) : (⟨S5x64x192, .f32⟩ : BufTy).Contents (Elt F) → (⟨S1x64x192, .f32⟩ : BufTy).Contents (Elt F)),
    StableHlo.reshape main_v92 main_v93 rfl shapeCasts_S1x64x192_S64x192,
    StableHlo.unary main_arg10 main_v94 ((extractStridedSlice S1x192 ![1, 0] · slices_S5x192_S1x192_1_0) : (⟨S5x192, .f32⟩ : BufTy).Contents (Elt F) → (⟨S1x192, .f32⟩ : BufTy).Contents (Elt F)),
    StableHlo.reshape main_v94 main_v95 rfl shapeCasts_S1x192_S192,
    StableHlo.unary main_arg11 main_v96 ((extractStridedSlice S1x64x192 ![1, 0, 0] · slices_S5x64x192_S1x64x192_1_0_0) : (⟨S5x64x192, .f32⟩ : BufTy).Contents (Elt F) → (⟨S1x64x192, .f32⟩ : BufTy).Contents (Elt F)),
    StableHlo.reshape main_v96 main_v97 rfl shapeCasts_S1x64x192_S64x192,
    StableHlo.unary main_arg12 main_v98 ((extractStridedSlice S1x192 ![1, 0] · slices_S5x192_S1x192_1_0) : (⟨S5x192, .f32⟩ : BufTy).Contents (Elt F) → (⟨S1x192, .f32⟩ : BufTy).Contents (Elt F)),
    StableHlo.reshape main_v98 main_v99 rfl shapeCasts_S1x192_S192,
    StableHlo.binary main_v89 main_v91 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_12 (constantI S_ 32 0#32),
    StableHlo.unary main_c_12 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v103 (broadcastInDim S1600000 ![] bcast_S_S1600000 : (⟨S_, .i32⟩ : BufTy).Contents (Elt F) → (⟨S1600000, .i32⟩ : BufTy).Contents (Elt F)) ]
set_option maxRecDepth 8192 in
set_option maxHeartbeats 4000000 in
theorem main_part1_eq (c : Dev nD) : main_part1 (F := F) c = seq opsW1 := rfl

/-- The line's entries 121 … 180: the 3rd window of @main. -/
abbrev opsW2 : List (HloOp τ sig (Elt F)) :=
  [ StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v100 main_v106 main_v107 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v108 (broadcastInDim S100000x64 ![] bcast_S_S100000x64 : (⟨S_, .f32⟩ : BufTy).Contents (Elt F) → (⟨S100000x64, .f32⟩ : BufTy).Contents (Elt F)),
    StableHlo.unary main_v3 main_v109 (broadcastInDim S1600000x1 ![0] bcast_S1600000_S1600000x1_0 : (⟨S1600000, .i32⟩ : BufTy).Contents (Elt F) → (⟨S1600000x1, .i32⟩ : BufTy).Contents (Elt F)),
    StableHlo.ternary main_v108 main_v109 main_v107 main_v110 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v110 main_v93 main_v111 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v95 main_v112 (broadcastInDim S1x192 ![1] bcast_S192_S1x192_1 : (⟨S192, .f32⟩ : BufTy).Contents (Elt F) → (⟨S1x192, .f32⟩ : BufTy).Contents (Elt F)),
    StableHlo.unary main_v112 main_v113 (broadcastInDim S100000x192 ![0, 1] bcast_S1x192_S100000x192_0_1 : (⟨S1x192, .f32⟩ : BufTy).Contents (Elt F) → (⟨S100000x192, .f32⟩ : BufTy).Contents (Elt F)),
    StableHlo.binary main_v111 main_v113 main_v114 (addf : (⟨S100000x192, .f32⟩ : BufTy).Contents (Elt F) → (⟨S100000x192, .f32⟩ : BufTy).Contents (Elt F) → (⟨S100000x192, .f32⟩ : BufTy).Contents (Elt F)),
    StableHlo.binary main_v89 main_v97 main_v115 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v99 main_v116 (broadcastInDim S1x192 ![1] bcast_S192_S1x192_1 : (⟨S192, .f32⟩ : BufTy).Contents (Elt F) → (⟨S1x192, .f32⟩ : BufTy).Contents (Elt F)),
    StableHlo.unary main_v116 main_v117 (broadcastInDim S100000x192 ![0, 1] bcast_S1x192_S100000x192_0_1 : (⟨S1x192, .f32⟩ : BufTy).Contents (Elt F) → (⟨S100000x192, .f32⟩ : BufTy).Contents (Elt F)),
    StableHlo.binary main_v115 main_v117 main_v118 (addf : (⟨S100000x192, .f32⟩ : BufTy).Contents (Elt F) → (⟨S100000x192, .f32⟩ : BufTy).Contents (Elt F) → (⟨S100000x192, .f32⟩ : BufTy).Contents (Elt F)),
    StableHlo.unary main_v114 main_v119 ((extractStridedSlice S100000x64 ![0, 0] · slices_S100000x192_S100000x64_0_0) : (⟨S100000x192, .f32⟩ : BufTy).Contents (Elt F) → (⟨S100000x64, .f32⟩ : BufTy).Contents (Elt F)),
    StableHlo.unary main_v114 main_v120 ((extractStridedSlice S100000x64 ![0, 64] · slices_S100000x192_S100000x64_0_64) : (⟨S100000x192, .f32⟩ : BufTy).Contents (Elt F) → (⟨S100000x64, .f32⟩ : BufTy).Contents (Elt F)),
    StableHlo.unary main_v114 main_v121 ((extractStridedSlice S100000x64 ![0, 128] · slices_S100000x192_S100000x64_0_128) : (⟨S100000x192, .f32⟩ : BufTy).Contents (Elt F) → (⟨S100000x64, .f32⟩ : BufTy).Contents (Elt F)),
    StableHlo.unary main_v118 main_v122 ((extractStridedSlice S100000x64 ![0, 0] · slices_S100000x192_S100000x64_0_0) : (⟨S100000x192, .f32⟩ : BufTy).Contents (Elt F) → (⟨S100000x64, .f32⟩ : BufTy).Contents (Elt F)),
    StableHlo.unary main_v118 main_v123 ((extractStridedSlice S100000x64 ![0, 64] · slices_S100000x192_S100000x64_0_64) : (⟨S100000x192, .f32⟩ : BufTy).Contents (Elt F) → (⟨S100000x64, .f32⟩ : BufTy).Contents (Elt F)),
    StableHlo.unary main_v118 main_v124 ((extractStridedSlice S100000x64 ![0, 128] · slices_S100000x192_S100000x64_0_128) : (⟨S100000x192, .f32⟩ : BufTy).Contents (Elt F) → (⟨S100000x64, .f32⟩ : BufTy).Contents (Elt F)),
    StableHlo.binary main_v119 main_v122 main_v125 (addf : (⟨S100000x64, .f32⟩ : BufTy).Contents (Elt F) → (⟨S100000x64, .f32⟩ : BufTy).Contents (Elt F) → (⟨S100000x64, .f32⟩ : BufTy).Contents (Elt F)),
    StableHlo.unary main_v125 main_v126 (Host.negf : (⟨S100000x64, .f32⟩ : BufTy).Contents (Elt F) → (⟨S100000x64, .f32⟩ : BufTy).Contents (Elt F)),
    StableHlo.unary main_v126 main_v127 (Host.exp : (⟨S100000x64, .f32⟩ : BufTy).Contents (Elt F) → (⟨S100000x64, .f32⟩ : BufTy).Contents (Elt F)),
    StableHlo.nullary main_cst_15 (constant S_ .f32 0x3F800000#32),
    StableHlo.unary main_cst_15 main_v128 (broadcastInDim S100000x64 ![] bcast_S_S100000x64 : (⟨S_, .f32⟩ : BufTy).Contents (Elt F) → (⟨S100000x64, .f32⟩ : BufTy).Contents (Elt F)),
    StableHlo.binary main_v128 main_v127 main_v129 (addf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3F800000#32),
    StableHlo.unary main_cst_16 main_v130 (broadcastInDim S100000x64 ![] bcast_S_S100000x64 : (⟨S_, .f32⟩ : BufTy).Contents (Elt F) → (⟨S100000x64, .f32⟩ : BufTy).Contents (Elt F)),
    StableHlo.binary main_v130 main_v129 main_v131 (Host.divf : (⟨S100000x64, .f32⟩ : BufTy).Contents (Elt F) → (⟨S100000x64, .f32⟩ : BufTy).Contents (Elt F) → (⟨S100000x64, .f32⟩ : BufTy).Contents (Elt F)),
    StableHlo.binary main_v120 main_v123 main_v132 (addf : (⟨S100000x64, .f32⟩ : BufTy).Contents (Elt F) → (⟨S100000x64, .f32⟩ : BufTy).Contents (Elt F) → (⟨S100000x64, .f32⟩ : BufTy).Contents (Elt F)),
    StableHlo.unary main_v132 main_v133 (Host.negf : (⟨S100000x64, .f32⟩ : BufTy).Contents (Elt F) → (⟨S100000x64, .f32⟩ : BufTy).Contents (Elt F)),
    StableHlo.unary main_v133 main_v134 (Host.exp : (⟨S100000x64, .f32⟩ : BufTy).Contents (Elt F) → (⟨S100000x64, .f32⟩ : BufTy).Contents (Elt F)),
    StableHlo.nullary main_cst_17 (constant S_ .f32 0x3F800000#32),
    StableHlo.unary main_cst_17 main_v135 (broadcastInDim S100000x64 ![] bcast_S_S100000x64 : (⟨S_, .f32⟩ : BufTy).Contents (Elt F) → (⟨S100000x64, .f32⟩ : BufTy).Contents (Elt F)),
    StableHlo.binary main_v135 main_v134 main_v136 (addf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3F800000#32),
    StableHlo.unary main_cst_18 main_v137 (broadcastInDim S100000x64 ![] bcast_S_S100000x64 : (⟨S_, .f32⟩ : BufTy).Contents (Elt F) → (⟨S100000x64, .f32⟩ : BufTy).Contents (Elt F)),
    StableHlo.binary main_v137 main_v136 main_v138 (Host.divf : (⟨S100000x64, .f32⟩ : BufTy).Contents (Elt F) → (⟨S100000x64, .f32⟩ : BufTy).Contents (Elt F) → (⟨S100000x64, .f32⟩ : BufTy).Contents (Elt F)),
    StableHlo.binary main_v131 main_v124 main_v139 (mulf : (⟨S100000x64, .f32⟩ : BufTy).Contents (Elt F) → (⟨S100000x64, .f32⟩ : BufTy).Contents (Elt F) → (⟨S100000x64, .f32⟩ : BufTy).Contents (Elt F)),
    StableHlo.binary main_v121 main_v139 main_v140 (addf : (⟨S100000x64, .f32⟩ : BufTy).Contents (Elt F) → (⟨S100000x64, .f32⟩ : BufTy).Contents (Elt F) → (⟨S100000x64, .f32⟩ : BufTy).Contents (Elt F)),
    StableHlo.unary main_v140 main_v141 (Host.tanh : (⟨S100000x64, .f32⟩ : BufTy).Contents (Elt F) → (⟨S100000x64, .f32⟩ : BufTy).Contents (Elt F)),
    StableHlo.nullary main_cst_19 (constant S_ .f32 0x3F800000#32),
    StableHlo.unary main_cst_19 main_v142 (broadcastInDim S100000x64 ![] bcast_S_S100000x64 : (⟨S_, .f32⟩ : BufTy).Contents (Elt F) → (⟨S100000x64, .f32⟩ : BufTy).Contents (Elt F)),
    StableHlo.binary main_v142 main_v138 main_v143 (subf : (⟨S100000x64, .f32⟩ : BufTy).Contents (Elt F) → (⟨S100000x64, .f32⟩ : BufTy).Contents (Elt F) → (⟨S100000x64, .f32⟩ : BufTy).Contents (Elt F)),
    StableHlo.binary main_v143 main_v141 main_v144 (mulf : (⟨S100000x64, .f32⟩ : BufTy).Contents (Elt F) → (⟨S100000x64, .f32⟩ : BufTy).Contents (Elt F) → (⟨S100000x64, .f32⟩ : BufTy).Contents (Elt F)),
    StableHlo.binary main_v138 main_v89 main_v145 (mulf : (⟨S100000x64, .f32⟩ : BufTy).Contents (Elt F) → (⟨S100000x64, .f32⟩ : BufTy).Contents (Elt F) → (⟨S100000x64, .f32⟩ : BufTy).Contents (Elt F)),
    StableHlo.binary main_v144 main_v145 main_v146 (addf : (⟨S100000x64, .f32⟩ : BufTy).Contents (Elt F) → (⟨S100000x64, .f32⟩ : BufTy).Contents (Elt F) → (⟨S100000x64, .f32⟩ : BufTy).Contents (Elt F)),
    StableHlo.unary main_arg5 main_v147 ((extractStridedSlice S1x100x64 ![2, 0, 0] · slices_S5x100x64_S1x100x64_2_0_0) : (⟨S5x100x64, .f32⟩ : BufTy).Contents (Elt F) → (⟨S1x100x64, .f32⟩ : BufTy).Contents (Elt F)),
    StableHlo.reshape main_v147 main_v148 rfl shapeCasts_S1x100x64_S100x64,
    StableHlo.nullary main_c_20 (constantI S_ 32 0#32),
    StableHlo.unary main_c_20 main_v149 (broadcastInDim S100000x2 ![] bcast_S_S100000x2 : (⟨S_, .i32⟩ : BufTy).Contents (Elt F) → (⟨S100000x2, .i32⟩ : BufTy).Contents (Elt F)),
    StableHlo.binary main_arg0 main_v149 main_v150 (cmpi .slt : (⟨S100000x2, .i32⟩ : BufTy).Contents (Elt F) → (⟨S100000x2, .i32⟩ : BufTy).Contents (Elt F) → (⟨S100000x2, .i1⟩ : BufTy).Contents (Elt F)),
    StableHlo.nullary main_c_21 (constantI S_ 32 100#32),
    StableHlo.unary main_c_21 main_v151 (broadcastInDim S100000x2 ![] bcast_S_S100000x2 : (⟨S_, .i32⟩ : BufTy).Contents (Elt F) → (⟨S100000x2, .i32⟩ : BufTy).Contents (Elt F)),
    StableHlo.binary main_arg0 main_v151 main_v152 (addi : (⟨S100000x2, .i32⟩ : BufTy).Contents (Elt F) → (⟨S100000x2, .i32⟩ : BufTy).Contents (Elt F) → (⟨S100000x2, .i32⟩ : BufTy).Contents (Elt F)),
    StableHlo.ternary main_v150 main_v152 main_arg0 main_v153 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v153 main_v154 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v148 main_v154 main_v155 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)) ]
set_option maxRecDepth 8192 in
set_option maxHeartbeats 4000000 in
theorem main_part2_eq (c : Dev nD) : main_part2 (F := F) c = seq opsW2 := rfl

/-- The line's entries 181 … 240: the 4th window of @main. -/
abbrev opsW3 : List (HloOp τ sig (Elt F)) :=
  [ StableHlo.nullary main_cst_22 (constant S_ .f32 0x00000000#32),
    StableHlo.binary main_v155 main_cst_22 main_v156 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.binary main_v146 main_v156 main_v157 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v158 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v158 main_v159 rfl shapeCasts_S1x128x64_S128x64,
    StableHlo.binary main_v157 main_v159 main_v160 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v161 ((extractStridedSlice S1x64 ![1, 0] · slices_S4x64_S1x64_1_0) : (⟨S4x64, .f32⟩ : BufTy).Contents (Elt F) → (⟨S1x64, .f32⟩ : BufTy).Contents (Elt F)),
    StableHlo.reshape main_v161 main_v162 rfl shapeCasts_S1x64_S64,
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v164 main_v165 (addf : (⟨S100000x64, .f32⟩ : BufTy).Contents (Elt F) → (⟨S100000x64, .f32⟩ : BufTy).Contents (Elt F) → (⟨S100000x64, .f32⟩ : BufTy).Contents (Elt F)),
    StableHlo.unary main_arg8 main_v166 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v166 main_v167 rfl shapeCasts_S1x64x64_S64x64,
    StableHlo.unary main_arg9 main_v168 ((extractStridedSlice S1x64x192 ![2, 0, 0] · slices_S5x64x192_S1x64x192_2_0_0) : (⟨S5x64x192, .f32⟩ : BufTy).Contents (Elt F) → (⟨S1x64x192, .f32⟩ : BufTy).Contents (Elt F)),
    StableHlo.reshape main_v168 main_v169 rfl shapeCasts_S1x64x192_S64x192,
    StableHlo.unary main_arg10 main_v170 ((extractStridedSlice S1x192 ![2, 0] · slices_S5x192_S1x192_2_0) : (⟨S5x192, .f32⟩ : BufTy).Contents (Elt F) → (⟨S1x192, .f32⟩ : BufTy).Contents (Elt F)),
    StableHlo.reshape main_v170 main_v171 rfl shapeCasts_S1x192_S192,
    StableHlo.unary main_arg11 main_v172 ((extractStridedSlice S1x64x192 ![2, 0, 0] · slices_S5x64x192_S1x64x192_2_0_0) : (⟨S5x64x192, .f32⟩ : BufTy).Contents (Elt F) → (⟨S1x64x192, .f32⟩ : BufTy).Contents (Elt F)),
    StableHlo.reshape main_v172 main_v173 rfl shapeCasts_S1x64x192_S64x192,
    StableHlo.unary main_arg12 main_v174 ((extractStridedSlice S1x192 ![2, 0] · slices_S5x192_S1x192_2_0) : (⟨S5x192, .f32⟩ : BufTy).Contents (Elt F) → (⟨S1x192, .f32⟩ : BufTy).Contents (Elt F)),
    StableHlo.reshape main_v174 main_v175 rfl shapeCasts_S1x192_S192,
    StableHlo.binary main_v165 main_v167 main_v176 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_23 (constantI S_ 32 0#32),
    StableHlo.unary main_c_23 main_v177 (broadcastInDim S1600000 ![] bcast_S_S1600000 : (⟨S_, .i32⟩ : BufTy).Contents (Elt F) → (⟨S1600000, .i32⟩ : BufTy).Contents (Elt F)),
    StableHlo.binary main_v1 main_v177 main_v178 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v179 (broadcastInDim S1600000 ![] bcast_S_S1600000 : (⟨S_, .i32⟩ : BufTy).Contents (Elt F) → (⟨S1600000, .i32⟩ : BufTy).Contents (Elt F)),
    StableHlo.binary main_v1 main_v179 main_v180 (addi : (⟨S1600000, .i32⟩ : BufTy).Contents (Elt F) → (⟨S1600000, .i32⟩ : BufTy).Contents (Elt F) → (⟨S1600000, .i32⟩ : BufTy).Contents (Elt F)),
    StableHlo.ternary main_v178 main_v180 main_v1 main_v181 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v181 main_v182 (broadcastInDim S1600000x1 ![0] bcast_S1600000_S1600000x1_0 : (⟨S1600000, .i32⟩ : BufTy).Contents (Elt F) → (⟨S1600000x1, .i32⟩ : BufTy).Contents (Elt F)),
    StableHlo.binary main_v176 main_v182 main_v183 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_25 (constant S_ .f32 0x00000000#32),
    StableHlo.unary main_cst_25 main_v184 (broadcastInDim S100000x64 ![] bcast_S_S100000x64 : (⟨S_, .f32⟩ : BufTy).Contents (Elt F) → (⟨S100000x64, .f32⟩ : BufTy).Contents (Elt F)),
    StableHlo.unary main_v3 main_v185 (broadcastInDim S1600000x1 ![0] bcast_S1600000_S1600000x1_0 : (⟨S1600000, .i32⟩ : BufTy).Contents (Elt F) → (⟨S1600000x1, .i32⟩ : BufTy).Contents (Elt F)),
    StableHlo.ternary main_v184 main_v185 main_v183 main_v186 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v186 main_v169 main_v187 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v171 main_v188 (broadcastInDim S1x192 ![1] bcast_S192_S1x192_1 : (⟨S192, .f32⟩ : BufTy).Contents (Elt F) → (⟨S1x192, .f32⟩ : BufTy).Contents (Elt F)),
    StableHlo.unary main_v188 main_v189 (broadcastInDim S100000x192 ![0, 1] bcast_S1x192_S100000x192_0_1 : (⟨S1x192, .f32⟩ : BufTy).Contents (Elt F) → (⟨S100000x192, .f32⟩ : BufTy).Contents (Elt F)),
    StableHlo.binary main_v187 main_v189 main_v190 (addf : (⟨S100000x192, .f32⟩ : BufTy).Contents (Elt F) → (⟨S100000x192, .f32⟩ : BufTy).Contents (Elt F) → (⟨S100000x192, .f32⟩ : BufTy).Contents (Elt F)),
    StableHlo.binary main_v165 main_v173 main_v191 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v175 main_v192 (broadcastInDim S1x192 ![1] bcast_S192_S1x192_1 : (⟨S192, .f32⟩ : BufTy).Contents (Elt F) → (⟨S1x192, .f32⟩ : BufTy).Contents (Elt F)),
    StableHlo.unary main_v192 main_v193 (broadcastInDim S100000x192 ![0, 1] bcast_S1x192_S100000x192_0_1 : (⟨S1x192, .f32⟩ : BufTy).Contents (Elt F) → (⟨S100000x192, .f32⟩ : BufTy).Contents (Elt F)),
    StableHlo.binary main_v191 main_v193 main_v194 (addf : (⟨S100000x192, .f32⟩ : BufTy).Contents (Elt F) → (⟨S100000x192, .f32⟩ : BufTy).Contents (Elt F) → (⟨S100000x192, .f32⟩ : BufTy).Contents (Elt F)),
    StableHlo.unary main_v190 main_v195 ((extractStridedSlice S100000x64 ![0, 0] · slices_S100000x192_S100000x64_0_0) : (⟨S100000x192, .f32⟩ : BufTy).Contents (Elt F) → (⟨S100000x64, .f32⟩ : BufTy).Contents (Elt F)),
    StableHlo.unary main_v190 main_v196 ((extractStridedSlice S100000x64 ![0, 64] · slices_S100000x192_S100000x64_0_64) : (⟨S100000x192, .f32⟩ : BufTy).Contents (Elt F) → (⟨S100000x64, .f32⟩ : BufTy).Contents (Elt F)),
    StableHlo.unary main_v190 main_v197 ((extractStridedSlice S100000x64 ![0, 128] · slices_S100000x192_S100000x64_0_128) : (⟨S100000x192, .f32⟩ : BufTy).Contents (Elt F) → (⟨S100000x64, .f32⟩ : BufTy).Contents (Elt F)),
    StableHlo.unary main_v194 main_v198 ((extractStridedSlice S100000x64 ![0, 0] · slices_S100000x192_S100000x64_0_0) : (⟨S100000x192, .f32⟩ : BufTy).Contents (Elt F) → (⟨S100000x64, .f32⟩ : BufTy).Contents (Elt F)),
    StableHlo.unary main_v194 main_v199 ((extractStridedSlice S100000x64 ![0, 64] · slices_S100000x192_S100000x64_0_64) : (⟨S100000x192, .f32⟩ : BufTy).Contents (Elt F) → (⟨S100000x64, .f32⟩ : BufTy).Contents (Elt F)),
    StableHlo.unary main_v194 main_v200 ((extractStridedSlice S100000x64 ![0, 128] · slices_S100000x192_S100000x64_0_128) : (⟨S100000x192, .f32⟩ : BufTy).Contents (Elt F) → (⟨S100000x64, .f32⟩ : BufTy).Contents (Elt F)),
    StableHlo.binary main_v195 main_v198 main_v201 (addf : (⟨S100000x64, .f32⟩ : BufTy).Contents (Elt F) → (⟨S100000x64, .f32⟩ : BufTy).Contents (Elt F) → (⟨S100000x64, .f32⟩ : BufTy).Contents (Elt F)),
    StableHlo.unary main_v201 main_v202 (Host.negf : (⟨S100000x64, .f32⟩ : BufTy).Contents (Elt F) → (⟨S100000x64, .f32⟩ : BufTy).Contents (Elt F)),
    StableHlo.unary main_v202 main_v203 (Host.exp : (⟨S100000x64, .f32⟩ : BufTy).Contents (Elt F) → (⟨S100000x64, .f32⟩ : BufTy).Contents (Elt F)),
    StableHlo.nullary main_cst_26 (constant S_ .f32 0x3F800000#32),
    StableHlo.unary main_cst_26 main_v204 (broadcastInDim S100000x64 ![] bcast_S_S100000x64 : (⟨S_, .f32⟩ : BufTy).Contents (Elt F) → (⟨S100000x64, .f32⟩ : BufTy).Contents (Elt F)),
    StableHlo.binary main_v204 main_v203 main_v205 (addf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3F800000#32),
    StableHlo.unary main_cst_27 main_v206 (broadcastInDim S100000x64 ![] bcast_S_S100000x64 : (⟨S_, .f32⟩ : BufTy).Contents (Elt F) → (⟨S100000x64, .f32⟩ : BufTy).Contents (Elt F)),
    StableHlo.binary main_v206 main_v205 main_v207 (Host.divf : (⟨S100000x64, .f32⟩ : BufTy).Contents (Elt F) → (⟨S100000x64, .f32⟩ : BufTy).Contents (Elt F) → (⟨S100000x64, .f32⟩ : BufTy).Contents (Elt F)),
    StableHlo.binary main_v196 main_v199 main_v208 (addf : (⟨S100000x64, .f32⟩ : BufTy).Contents (Elt F) → (⟨S100000x64, .f32⟩ : BufTy).Contents (Elt F) → (⟨S100000x64, .f32⟩ : BufTy).Contents (Elt F)),
    StableHlo.unary main_v208 main_v209 (Host.negf : (⟨S100000x64, .f32⟩ : BufTy).Contents (Elt F) → (⟨S100000x64, .f32⟩ : BufTy).Contents (Elt F)) ]
set_option maxRecDepth 8192 in
set_option maxHeartbeats 4000000 in
theorem main_part3_eq (c : Dev nD) : main_part3 (F := F) c = seq opsW3 := rfl

/-- The line's entries 241 … 300: the 5th window of @main. -/
abbrev opsW4 : List (HloOp τ sig (Elt F)) :=
  [ StableHlo.unary main_v209 main_v210 (Host.exp : (⟨S100000x64, .f32⟩ : BufTy).Contents (Elt F) → (⟨S100000x64, .f32⟩ : BufTy).Contents (Elt F)),
    StableHlo.nullary main_cst_28 (constant S_ .f32 0x3F800000#32),
    StableHlo.unary main_cst_28 main_v211 (broadcastInDim S100000x64 ![] bcast_S_S100000x64 : (⟨S_, .f32⟩ : BufTy).Contents (Elt F) → (⟨S100000x64, .f32⟩ : BufTy).Contents (Elt F)),
    StableHlo.binary main_v211 main_v210 main_v212 (addf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x3F800000#32),
    StableHlo.unary main_cst_29 main_v213 (broadcastInDim S100000x64 ![] bcast_S_S100000x64 : (⟨S_, .f32⟩ : BufTy).Contents (Elt F) → (⟨S100000x64, .f32⟩ : BufTy).Contents (Elt F)),
    StableHlo.binary main_v213 main_v212 main_v214 (Host.divf : (⟨S100000x64, .f32⟩ : BufTy).Contents (Elt F) → (⟨S100000x64, .f32⟩ : BufTy).Contents (Elt F) → (⟨S100000x64, .f32⟩ : BufTy).Contents (Elt F)),
    StableHlo.binary main_v207 main_v200 main_v215 (mulf : (⟨S100000x64, .f32⟩ : BufTy).Contents (Elt F) → (⟨S100000x64, .f32⟩ : BufTy).Contents (Elt F) → (⟨S100000x64, .f32⟩ : BufTy).Contents (Elt F)),
    StableHlo.binary main_v197 main_v215 main_v216 (addf : (⟨S100000x64, .f32⟩ : BufTy).Contents (Elt F) → (⟨S100000x64, .f32⟩ : BufTy).Contents (Elt F) → (⟨S100000x64, .f32⟩ : BufTy).Contents (Elt F)),
    StableHlo.unary main_v216 main_v217 (Host.tanh : (⟨S100000x64, .f32⟩ : BufTy).Contents (Elt F) → (⟨S100000x64, .f32⟩ : BufTy).Contents (Elt F)),
    StableHlo.nullary main_cst_30 (constant S_ .f32 0x3F800000#32),
    StableHlo.unary main_cst_30 main_v218 (broadcastInDim S100000x64 ![] bcast_S_S100000x64 : (⟨S_, .f32⟩ : BufTy).Contents (Elt F) → (⟨S100000x64, .f32⟩ : BufTy).Contents (Elt F)),
    StableHlo.binary main_v218 main_v214 main_v219 (subf : (⟨S100000x64, .f32⟩ : BufTy).Contents (Elt F) → (⟨S100000x64, .f32⟩ : BufTy).Contents (Elt F) → (⟨S100000x64, .f32⟩ : BufTy).Contents (Elt F)),
    StableHlo.binary main_v219 main_v217 main_v220 (mulf : (⟨S100000x64, .f32⟩ : BufTy).Contents (Elt F) → (⟨S100000x64, .f32⟩ : BufTy).Contents (Elt F) → (⟨S100000x64, .f32⟩ : BufTy).Contents (Elt F)),
    StableHlo.binary main_v214 main_v165 main_v221 (mulf : (⟨S100000x64, .f32⟩ : BufTy).Contents (Elt F) → (⟨S100000x64, .f32⟩ : BufTy).Contents (Elt F) → (⟨S100000x64, .f32⟩ : BufTy).Contents (Elt F)),
    StableHlo.binary main_v220 main_v221 main_v222 (addf : (⟨S100000x64, .f32⟩ : BufTy).Contents (Elt F) → (⟨S100000x64, .f32⟩ : BufTy).Contents (Elt F) → (⟨S100000x64, .f32⟩ : BufTy).Contents (Elt F)),
    StableHlo.unary main_arg5 main_v223 ((extractStridedSlice S1x100x64 ![3, 0, 0] · slices_S5x100x64_S1x100x64_3_0_0) : (⟨S5x100x64, .f32⟩ : BufTy).Contents (Elt F) → (⟨S1x100x64, .f32⟩ : BufTy).Contents (Elt F)),
    StableHlo.reshape main_v223 main_v224 rfl shapeCasts_S1x100x64_S100x64,
    StableHlo.nullary main_c_31 (constantI S_ 32 0#32),
    StableHlo.unary main_c_31 main_v225 (broadcastInDim S100000x2 ![] bcast_S_S100000x2 : (⟨S_, .i32⟩ : BufTy).Contents (Elt F) → (⟨S100000x2, .i32⟩ : BufTy).Contents (Elt F)),
    StableHlo.binary main_arg0 main_v225 main_v226 (cmpi .slt : (⟨S100000x2, .i32⟩ : BufTy).Contents (Elt F) → (⟨S100000x2, .i32⟩ : BufTy).Contents (Elt F) → (⟨S100000x2, .i1⟩ : BufTy).Contents (Elt F)),
    StableHlo.nullary main_c_32 (constantI S_ 32 100#32),
    StableHlo.unary main_c_32 main_v227 (broadcastInDim S100000x2 ![] bcast_S_S100000x2 : (⟨S_, .i32⟩ : BufTy).Contents (Elt F) → (⟨S100000x2, .i32⟩ : BufTy).Contents (Elt F)),
    StableHlo.binary main_arg0 main_v227 main_v228 (addi : (⟨S100000x2, .i32⟩ : BufTy).Contents (Elt F) → (⟨S100000x2, .i32⟩ : BufTy).Contents (Elt F) → (⟨S100000x2, .i32⟩ : BufTy).Contents (Elt F)),
    StableHlo.ternary main_v226 main_v228 main_arg0 main_v229 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v229 main_v230 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v224 main_v230 main_v231 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_33 (constant S_ .f32 0x00000000#32),
    StableHlo.binary main_v231 main_cst_33 main_v232 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.binary main_v222 main_v232 main_v233 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v234 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v234 main_v235 rfl shapeCasts_S1x128x64_S128x64,
    StableHlo.binary main_v233 main_v235 main_v236 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v237 ((extractStridedSlice S1x64 ![2, 0] · slices_S4x64_S1x64_2_0) : (⟨S4x64, .f32⟩ : BufTy).Contents (Elt F) → (⟨S1x64, .f32⟩ : BufTy).Contents (Elt F)),
    StableHlo.reshape main_v237 main_v238 rfl shapeCasts_S1x64_S64,
    StableHlo.unary main_v238 main_v239 (broadcastInDim S1x64 ![1] bcast_S64_S1x64_1 : (⟨S64, .f32⟩ : BufTy).Contents (Elt F) → (⟨S1x64, .f32⟩ : BufTy).Contents (Elt F)),
    StableHlo.unary main_v239 main_v240 (broadcastInDim S100000x64 ![0, 1] bcast_S1x64_S100000x64_0_1 : (⟨S1x64, .f32⟩ : BufTy).Contents (Elt F) → (⟨S100000x64, .f32⟩ : BufTy).Contents (Elt F)),
    StableHlo.binary main_v236 main_v240 main_v241 (addf : (⟨S100000x64, .f32⟩ : BufTy).Contents (Elt F) → (⟨S100000x64, .f32⟩ : BufTy).Contents (Elt F) → (⟨S100000x64, .f32⟩ : BufTy).Contents (Elt F)),
    StableHlo.unary main_arg8 main_v242 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v242 main_v243 rfl shapeCasts_S1x64x64_S64x64,
    StableHlo.unary main_arg9 main_v244 ((extractStridedSlice S1x64x192 ![3, 0, 0] · slices_S5x64x192_S1x64x192_3_0_0) : (⟨S5x64x192, .f32⟩ : BufTy).Contents (Elt F) → (⟨S1x64x192, .f32⟩ : BufTy).Contents (Elt F)),
    StableHlo.reshape main_v244 main_v245 rfl shapeCasts_S1x64x192_S64x192,
    StableHlo.unary main_arg10 main_v246 ((extractStridedSlice S1x192 ![3, 0] · slices_S5x192_S1x192_3_0) : (⟨S5x192, .f32⟩ : BufTy).Contents (Elt F) → (⟨S1x192, .f32⟩ : BufTy).Contents (Elt F)),
    StableHlo.reshape main_v246 main_v247 rfl shapeCasts_S1x192_S192,
    StableHlo.unary main_arg11 main_v248 ((extractStridedSlice S1x64x192 ![3, 0, 0] · slices_S5x64x192_S1x64x192_3_0_0) : (⟨S5x64x192, .f32⟩ : BufTy).Contents (Elt F) → (⟨S1x64x192, .f32⟩ : BufTy).Contents (Elt F)),
    StableHlo.reshape main_v248 main_v249 rfl shapeCasts_S1x64x192_S64x192,
    StableHlo.unary main_arg12 main_v250 ((extractStridedSlice S1x192 ![3, 0] · slices_S5x192_S1x192_3_0) : (⟨S5x192, .f32⟩ : BufTy).Contents (Elt F) → (⟨S1x192, .f32⟩ : BufTy).Contents (Elt F)),
    StableHlo.reshape main_v250 main_v251 rfl shapeCasts_S1x192_S192,
    StableHlo.binary main_v241 main_v243 main_v252 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_34 (constantI S_ 32 0#32),
    StableHlo.unary main_c_34 main_v253 (broadcastInDim S1600000 ![] bcast_S_S1600000 : (⟨S_, .i32⟩ : BufTy).Contents (Elt F) → (⟨S1600000, .i32⟩ : BufTy).Contents (Elt F)),
    StableHlo.binary main_v1 main_v253 main_v254 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v255 (broadcastInDim S1600000 ![] bcast_S_S1600000 : (⟨S_, .i32⟩ : BufTy).Contents (Elt F) → (⟨S1600000, .i32⟩ : BufTy).Contents (Elt F)),
    StableHlo.binary main_v1 main_v255 main_v256 (addi : (⟨S1600000, .i32⟩ : BufTy).Contents (Elt F) → (⟨S1600000, .i32⟩ : BufTy).Contents (Elt F) → (⟨S1600000, .i32⟩ : BufTy).Contents (Elt F)),
    StableHlo.ternary main_v254 main_v256 main_v1 main_v257 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v257 main_v258 (broadcastInDim S1600000x1 ![0] bcast_S1600000_S1600000x1_0 : (⟨S1600000, .i32⟩ : BufTy).Contents (Elt F) → (⟨S1600000x1, .i32⟩ : BufTy).Contents (Elt F)),
    StableHlo.binary main_v252 main_v258 main_v259 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_36 (constant S_ .f32 0x00000000#32),
    StableHlo.unary main_cst_36 main_v260 (broadcastInDim S100000x64 ![] bcast_S_S100000x64 : (⟨S_, .f32⟩ : BufTy).Contents (Elt F) → (⟨S100000x64, .f32⟩ : BufTy).Contents (Elt F)) ]
set_option maxRecDepth 8192 in
set_option maxHeartbeats 4000000 in
theorem main_part4_eq (c : Dev nD) : main_part4 (F := F) c = seq opsW4 := rfl

/-- The line's entries 301 … 360: the 6th window of @main. -/
abbrev opsW5 : List (HloOp τ sig (Elt F)) :=
  [ StableHlo.unary main_v3 main_v261 (broadcastInDim S1600000x1 ![0] bcast_S1600000_S1600000x1_0 : (⟨S1600000, .i32⟩ : BufTy).Contents (Elt F) → (⟨S1600000x1, .i32⟩ : BufTy).Contents (Elt F)),
    StableHlo.ternary main_v260 main_v261 main_v259 main_v262 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v262 main_v245 main_v263 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v247 main_v264 (broadcastInDim S1x192 ![1] bcast_S192_S1x192_1 : (⟨S192, .f32⟩ : BufTy).Contents (Elt F) → (⟨S1x192, .f32⟩ : BufTy).Contents (Elt F)),
    StableHlo.unary main_v264 main_v265 (broadcastInDim S100000x192 ![0, 1] bcast_S1x192_S100000x192_0_1 : (⟨S1x192, .f32⟩ : BufTy).Contents (Elt F) → (⟨S100000x192, .f32⟩ : BufTy).Contents (Elt F)),
    StableHlo.binary main_v263 main_v265 main_v266 (addf : (⟨S100000x192, .f32⟩ : BufTy).Contents (Elt F) → (⟨S100000x192, .f32⟩ : BufTy).Contents (Elt F) → (⟨S100000x192, .f32⟩ : BufTy).Contents (Elt F)),
    StableHlo.binary main_v241 main_v249 main_v267 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v251 main_v268 (broadcastInDim S1x192 ![1] bcast_S192_S1x192_1 : (⟨S192, .f32⟩ : BufTy).Contents (Elt F) → (⟨S1x192, .f32⟩ : BufTy).Contents (Elt F)),
    StableHlo.unary main_v268 main_v269 (broadcastInDim S100000x192 ![0, 1] bcast_S1x192_S100000x192_0_1 : (⟨S1x192, .f32⟩ : BufTy).Contents (Elt F) → (⟨S100000x192, .f32⟩ : BufTy).Contents (Elt F)),
    StableHlo.binary main_v267 main_v269 main_v270 (addf : (⟨S100000x192, .f32⟩ : BufTy).Contents (Elt F) → (⟨S100000x192, .f32⟩ : BufTy).Contents (Elt F) → (⟨S100000x192, .f32⟩ : BufTy).Contents (Elt F)),
    StableHlo.unary main_v266 main_v271 ((extractStridedSlice S100000x64 ![0, 0] · slices_S100000x192_S100000x64_0_0) : (⟨S100000x192, .f32⟩ : BufTy).Contents (Elt F) → (⟨S100000x64, .f32⟩ : BufTy).Contents (Elt F)),
    StableHlo.unary main_v266 main_v272 ((extractStridedSlice S100000x64 ![0, 64] · slices_S100000x192_S100000x64_0_64) : (⟨S100000x192, .f32⟩ : BufTy).Contents (Elt F) → (⟨S100000x64, .f32⟩ : BufTy).Contents (Elt F)),
    StableHlo.unary main_v266 main_v273 ((extractStridedSlice S100000x64 ![0, 128] · slices_S100000x192_S100000x64_0_128) : (⟨S100000x192, .f32⟩ : BufTy).Contents (Elt F) → (⟨S100000x64, .f32⟩ : BufTy).Contents (Elt F)),
    StableHlo.unary main_v270 main_v274 ((extractStridedSlice S100000x64 ![0, 0] · slices_S100000x192_S100000x64_0_0) : (⟨S100000x192, .f32⟩ : BufTy).Contents (Elt F) → (⟨S100000x64, .f32⟩ : BufTy).Contents (Elt F)),
    StableHlo.unary main_v270 main_v275 ((extractStridedSlice S100000x64 ![0, 64] · slices_S100000x192_S100000x64_0_64) : (⟨S100000x192, .f32⟩ : BufTy).Contents (Elt F) → (⟨S100000x64, .f32⟩ : BufTy).Contents (Elt F)),
    StableHlo.unary main_v270 main_v276 ((extractStridedSlice S100000x64 ![0, 128] · slices_S100000x192_S100000x64_0_128) : (⟨S100000x192, .f32⟩ : BufTy).Contents (Elt F) → (⟨S100000x64, .f32⟩ : BufTy).Contents (Elt F)),
    StableHlo.binary main_v271 main_v274 main_v277 (addf : (⟨S100000x64, .f32⟩ : BufTy).Contents (Elt F) → (⟨S100000x64, .f32⟩ : BufTy).Contents (Elt F) → (⟨S100000x64, .f32⟩ : BufTy).Contents (Elt F)),
    StableHlo.unary main_v277 main_v278 (Host.negf : (⟨S100000x64, .f32⟩ : BufTy).Contents (Elt F) → (⟨S100000x64, .f32⟩ : BufTy).Contents (Elt F)),
    StableHlo.unary main_v278 main_v279 (Host.exp : (⟨S100000x64, .f32⟩ : BufTy).Contents (Elt F) → (⟨S100000x64, .f32⟩ : BufTy).Contents (Elt F)),
    StableHlo.nullary main_cst_37 (constant S_ .f32 0x3F800000#32),
    StableHlo.unary main_cst_37 main_v280 (broadcastInDim S100000x64 ![] bcast_S_S100000x64 : (⟨S_, .f32⟩ : BufTy).Contents (Elt F) → (⟨S100000x64, .f32⟩ : BufTy).Contents (Elt F)),
    StableHlo.binary main_v280 main_v279 main_v281 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3F800000#32),
    StableHlo.unary main_cst_38 main_v282 (broadcastInDim S100000x64 ![] bcast_S_S100000x64 : (⟨S_, .f32⟩ : BufTy).Contents (Elt F) → (⟨S100000x64, .f32⟩ : BufTy).Contents (Elt F)),
    StableHlo.binary main_v282 main_v281 main_v283 (Host.divf : (⟨S100000x64, .f32⟩ : BufTy).Contents (Elt F) → (⟨S100000x64, .f32⟩ : BufTy).Contents (Elt F) → (⟨S100000x64, .f32⟩ : BufTy).Contents (Elt F)),
    StableHlo.binary main_v272 main_v275 main_v284 (addf : (⟨S100000x64, .f32⟩ : BufTy).Contents (Elt F) → (⟨S100000x64, .f32⟩ : BufTy).Contents (Elt F) → (⟨S100000x64, .f32⟩ : BufTy).Contents (Elt F)),
    StableHlo.unary main_v284 main_v285 (Host.negf : (⟨S100000x64, .f32⟩ : BufTy).Contents (Elt F) → (⟨S100000x64, .f32⟩ : BufTy).Contents (Elt F)),
    StableHlo.unary main_v285 main_v286 (Host.exp : (⟨S100000x64, .f32⟩ : BufTy).Contents (Elt F) → (⟨S100000x64, .f32⟩ : BufTy).Contents (Elt F)),
    StableHlo.nullary main_cst_39 (constant S_ .f32 0x3F800000#32),
    StableHlo.unary main_cst_39 main_v287 (broadcastInDim S100000x64 ![] bcast_S_S100000x64 : (⟨S_, .f32⟩ : BufTy).Contents (Elt F) → (⟨S100000x64, .f32⟩ : BufTy).Contents (Elt F)),
    StableHlo.binary main_v287 main_v286 main_v288 (addf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x3F800000#32),
    StableHlo.unary main_cst_40 main_v289 (broadcastInDim S100000x64 ![] bcast_S_S100000x64 : (⟨S_, .f32⟩ : BufTy).Contents (Elt F) → (⟨S100000x64, .f32⟩ : BufTy).Contents (Elt F)),
    StableHlo.binary main_v289 main_v288 main_v290 (Host.divf : (⟨S100000x64, .f32⟩ : BufTy).Contents (Elt F) → (⟨S100000x64, .f32⟩ : BufTy).Contents (Elt F) → (⟨S100000x64, .f32⟩ : BufTy).Contents (Elt F)),
    StableHlo.binary main_v283 main_v276 main_v291 (mulf : (⟨S100000x64, .f32⟩ : BufTy).Contents (Elt F) → (⟨S100000x64, .f32⟩ : BufTy).Contents (Elt F) → (⟨S100000x64, .f32⟩ : BufTy).Contents (Elt F)),
    StableHlo.binary main_v273 main_v291 main_v292 (addf : (⟨S100000x64, .f32⟩ : BufTy).Contents (Elt F) → (⟨S100000x64, .f32⟩ : BufTy).Contents (Elt F) → (⟨S100000x64, .f32⟩ : BufTy).Contents (Elt F)),
    StableHlo.unary main_v292 main_v293 (Host.tanh : (⟨S100000x64, .f32⟩ : BufTy).Contents (Elt F) → (⟨S100000x64, .f32⟩ : BufTy).Contents (Elt F)),
    StableHlo.nullary main_cst_41 (constant S_ .f32 0x3F800000#32),
    StableHlo.unary main_cst_41 main_v294 (broadcastInDim S100000x64 ![] bcast_S_S100000x64 : (⟨S_, .f32⟩ : BufTy).Contents (Elt F) → (⟨S100000x64, .f32⟩ : BufTy).Contents (Elt F)),
    StableHlo.binary main_v294 main_v290 main_v295 (subf : (⟨S100000x64, .f32⟩ : BufTy).Contents (Elt F) → (⟨S100000x64, .f32⟩ : BufTy).Contents (Elt F) → (⟨S100000x64, .f32⟩ : BufTy).Contents (Elt F)),
    StableHlo.binary main_v295 main_v293 main_v296 (mulf : (⟨S100000x64, .f32⟩ : BufTy).Contents (Elt F) → (⟨S100000x64, .f32⟩ : BufTy).Contents (Elt F) → (⟨S100000x64, .f32⟩ : BufTy).Contents (Elt F)),
    StableHlo.binary main_v290 main_v241 main_v297 (mulf : (⟨S100000x64, .f32⟩ : BufTy).Contents (Elt F) → (⟨S100000x64, .f32⟩ : BufTy).Contents (Elt F) → (⟨S100000x64, .f32⟩ : BufTy).Contents (Elt F)),
    StableHlo.binary main_v296 main_v297 main_v298 (addf : (⟨S100000x64, .f32⟩ : BufTy).Contents (Elt F) → (⟨S100000x64, .f32⟩ : BufTy).Contents (Elt F) → (⟨S100000x64, .f32⟩ : BufTy).Contents (Elt F)),
    StableHlo.unary main_arg5 main_v299 ((extractStridedSlice S1x100x64 ![4, 0, 0] · slices_S5x100x64_S1x100x64_4_0_0) : (⟨S5x100x64, .f32⟩ : BufTy).Contents (Elt F) → (⟨S1x100x64, .f32⟩ : BufTy).Contents (Elt F)),
    StableHlo.reshape main_v299 main_v300 rfl shapeCasts_S1x100x64_S100x64,
    StableHlo.nullary main_c_42 (constantI S_ 32 0#32),
    StableHlo.unary main_c_42 main_v301 (broadcastInDim S100000x2 ![] bcast_S_S100000x2 : (⟨S_, .i32⟩ : BufTy).Contents (Elt F) → (⟨S100000x2, .i32⟩ : BufTy).Contents (Elt F)),
    StableHlo.binary main_arg0 main_v301 main_v302 (cmpi .slt : (⟨S100000x2, .i32⟩ : BufTy).Contents (Elt F) → (⟨S100000x2, .i32⟩ : BufTy).Contents (Elt F) → (⟨S100000x2, .i1⟩ : BufTy).Contents (Elt F)),
    StableHlo.nullary main_c_43 (constantI S_ 32 100#32),
    StableHlo.unary main_c_43 main_v303 (broadcastInDim S100000x2 ![] bcast_S_S100000x2 : (⟨S_, .i32⟩ : BufTy).Contents (Elt F) → (⟨S100000x2, .i32⟩ : BufTy).Contents (Elt F)),
    StableHlo.binary main_arg0 main_v303 main_v304 (addi : (⟨S100000x2, .i32⟩ : BufTy).Contents (Elt F) → (⟨S100000x2, .i32⟩ : BufTy).Contents (Elt F) → (⟨S100000x2, .i32⟩ : BufTy).Contents (Elt F)),
    StableHlo.ternary main_v302 main_v304 main_arg0 main_v305 (select : (⟨S100000x2, .i1⟩ : BufTy).Contents (Elt F) → (⟨S100000x2, .i32⟩ : BufTy).Contents (Elt F) → (⟨S100000x2, .i32⟩ : BufTy).Contents (Elt F) → (⟨S100000x2, .i32⟩ : BufTy).Contents (Elt F)),
    StableHlo.unary main_v305 main_v306 (broadcastInDim S100000x2x1 ![0, 1] bcast_S100000x2_S100000x2x1_0_1 : (⟨S100000x2, .i32⟩ : BufTy).Contents (Elt F) → (⟨S100000x2x1, .i32⟩ : BufTy).Contents (Elt F)),
    StableHlo.binary main_v300 main_v306 main_v307 ((fun x i => Host.gather gather_S100x64_S100000x2x1_S100000x2x64_2_0_n_n_0_2_164 x i) : (⟨S100x64, .f32⟩ : BufTy).Contents (Elt F) → (⟨S100000x2x1, .i32⟩ : BufTy).Contents (Elt F) → (⟨S100000x2x64, .f32⟩ : BufTy).Contents (Elt F)),
    StableHlo.nullary main_cst_44 (constant S_ .f32 0x00000000#32),
    StableHlo.binary main_v307 main_cst_44 main_v308 ((fun x v => Host.reduceAdd x v reducesTo_S100000x2x64_S100000x64_d1 h_S_) : (⟨S100000x2x64, .f32⟩ : BufTy).Contents (Elt F) → (⟨S_, .f32⟩ : BufTy).Contents (Elt F) → (⟨S100000x64, .f32⟩ : BufTy).Contents (Elt F)),
    StableHlo.binary main_v298 main_v308 main_v309 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg6 main_v310 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v310 main_v311 rfl shapeCasts_S1x128x64_S128x64,
    StableHlo.binary main_v309 main_v311 main_v312 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
set_option maxRecDepth 8192 in
set_option maxHeartbeats 4000000 in
theorem main_part5_eq (c : Dev nD) : main_part5 (F := F) c = seq opsW5 := rfl

/-- The line's entries 361 … 420: the 7th window of @main. -/
abbrev opsW6 : List (HloOp τ sig (Elt F)) :=
  [ StableHlo.unary main_arg7 main_v313 ((extractStridedSlice S1x64 ![3, 0] · slices_S4x64_S1x64_3_0) : (⟨S4x64, .f32⟩ : BufTy).Contents (Elt F) → (⟨S1x64, .f32⟩ : BufTy).Contents (Elt F)),
    StableHlo.reshape main_v313 main_v314 rfl shapeCasts_S1x64_S64,
    StableHlo.unary main_v314 main_v315 (broadcastInDim S1x64 ![1] bcast_S64_S1x64_1 : (⟨S64, .f32⟩ : BufTy).Contents (Elt F) → (⟨S1x64, .f32⟩ : BufTy).Contents (Elt F)),
    StableHlo.unary main_v315 main_v316 (broadcastInDim S100000x64 ![0, 1] bcast_S1x64_S100000x64_0_1 : (⟨S1x64, .f32⟩ : BufTy).Contents (Elt F) → (⟨S100000x64, .f32⟩ : BufTy).Contents (Elt F)),
    StableHlo.binary main_v312 main_v316 main_v317 (addf : (⟨S100000x64, .f32⟩ : BufTy).Contents (Elt F) → (⟨S100000x64, .f32⟩ : BufTy).Contents (Elt F) → (⟨S100000x64, .f32⟩ : BufTy).Contents (Elt F)),
    StableHlo.unary main_arg8 main_v318 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v318 main_v319 rfl shapeCasts_S1x64x64_S64x64,
    StableHlo.unary main_arg9 main_v320 ((extractStridedSlice S1x64x192 ![4, 0, 0] · slices_S5x64x192_S1x64x192_4_0_0) : (⟨S5x64x192, .f32⟩ : BufTy).Contents (Elt F) → (⟨S1x64x192, .f32⟩ : BufTy).Contents (Elt F)),
    StableHlo.reshape main_v320 main_v321 rfl shapeCasts_S1x64x192_S64x192,
    StableHlo.unary main_arg10 main_v322 ((extractStridedSlice S1x192 ![4, 0] · slices_S5x192_S1x192_4_0) : (⟨S5x192, .f32⟩ : BufTy).Contents (Elt F) → (⟨S1x192, .f32⟩ : BufTy).Contents (Elt F)),
    StableHlo.reshape main_v322 main_v323 rfl shapeCasts_S1x192_S192,
    StableHlo.unary main_arg11 main_v324 ((extractStridedSlice S1x64x192 ![4, 0, 0] · slices_S5x64x192_S1x64x192_4_0_0) : (⟨S5x64x192, .f32⟩ : BufTy).Contents (Elt F) → (⟨S1x64x192, .f32⟩ : BufTy).Contents (Elt F)),
    StableHlo.reshape main_v324 main_v325 rfl shapeCasts_S1x64x192_S64x192,
    StableHlo.unary main_arg12 main_v326 ((extractStridedSlice S1x192 ![4, 0] · slices_S5x192_S1x192_4_0) : (⟨S5x192, .f32⟩ : BufTy).Contents (Elt F) → (⟨S1x192, .f32⟩ : BufTy).Contents (Elt F)),
    StableHlo.reshape main_v326 main_v327 rfl shapeCasts_S1x192_S192,
    StableHlo.binary main_v317 main_v319 main_v328 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_45 (constantI S_ 32 0#32),
    StableHlo.unary main_c_45 main_v329 (broadcastInDim S1600000 ![] bcast_S_S1600000 : (⟨S_, .i32⟩ : BufTy).Contents (Elt F) → (⟨S1600000, .i32⟩ : BufTy).Contents (Elt F)),
    StableHlo.binary main_v1 main_v329 main_v330 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v331 (broadcastInDim S1600000 ![] bcast_S_S1600000 : (⟨S_, .i32⟩ : BufTy).Contents (Elt F) → (⟨S1600000, .i32⟩ : BufTy).Contents (Elt F)),
    StableHlo.binary main_v1 main_v331 main_v332 (addi : (⟨S1600000, .i32⟩ : BufTy).Contents (Elt F) → (⟨S1600000, .i32⟩ : BufTy).Contents (Elt F) → (⟨S1600000, .i32⟩ : BufTy).Contents (Elt F)),
    StableHlo.ternary main_v330 main_v332 main_v1 main_v333 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v333 main_v334 (broadcastInDim S1600000x1 ![0] bcast_S1600000_S1600000x1_0 : (⟨S1600000, .i32⟩ : BufTy).Contents (Elt F) → (⟨S1600000x1, .i32⟩ : BufTy).Contents (Elt F)),
    StableHlo.binary main_v328 main_v334 main_v335 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_47 (constant S_ .f32 0x00000000#32),
    StableHlo.unary main_cst_47 main_v336 (broadcastInDim S100000x64 ![] bcast_S_S100000x64 : (⟨S_, .f32⟩ : BufTy).Contents (Elt F) → (⟨S100000x64, .f32⟩ : BufTy).Contents (Elt F)),
    StableHlo.unary main_v3 main_v337 (broadcastInDim S1600000x1 ![0] bcast_S1600000_S1600000x1_0 : (⟨S1600000, .i32⟩ : BufTy).Contents (Elt F) → (⟨S1600000x1, .i32⟩ : BufTy).Contents (Elt F)),
    StableHlo.ternary main_v336 main_v337 main_v335 main_v338 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v338 main_v321 main_v339 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v323 main_v340 (broadcastInDim S1x192 ![1] bcast_S192_S1x192_1 : (⟨S192, .f32⟩ : BufTy).Contents (Elt F) → (⟨S1x192, .f32⟩ : BufTy).Contents (Elt F)),
    StableHlo.unary main_v340 main_v341 (broadcastInDim S100000x192 ![0, 1] bcast_S1x192_S100000x192_0_1 : (⟨S1x192, .f32⟩ : BufTy).Contents (Elt F) → (⟨S100000x192, .f32⟩ : BufTy).Contents (Elt F)),
    StableHlo.binary main_v339 main_v341 main_v342 (addf : (⟨S100000x192, .f32⟩ : BufTy).Contents (Elt F) → (⟨S100000x192, .f32⟩ : BufTy).Contents (Elt F) → (⟨S100000x192, .f32⟩ : BufTy).Contents (Elt F)),
    StableHlo.binary main_v317 main_v325 main_v343 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    StableHlo.unary main_v327 main_v344 (broadcastInDim S1x192 ![1] bcast_S192_S1x192_1 : (⟨S192, .f32⟩ : BufTy).Contents (Elt F) → (⟨S1x192, .f32⟩ : BufTy).Contents (Elt F)),
    StableHlo.unary main_v344 main_v345 (broadcastInDim S100000x192 ![0, 1] bcast_S1x192_S100000x192_0_1 : (⟨S1x192, .f32⟩ : BufTy).Contents (Elt F) → (⟨S100000x192, .f32⟩ : BufTy).Contents (Elt F)),
    StableHlo.binary main_v343 main_v345 main_v346 (addf : (⟨S100000x192, .f32⟩ : BufTy).Contents (Elt F) → (⟨S100000x192, .f32⟩ : BufTy).Contents (Elt F) → (⟨S100000x192, .f32⟩ : BufTy).Contents (Elt F)),
    StableHlo.unary main_v342 main_v347 ((extractStridedSlice S100000x64 ![0, 0] · slices_S100000x192_S100000x64_0_0) : (⟨S100000x192, .f32⟩ : BufTy).Contents (Elt F) → (⟨S100000x64, .f32⟩ : BufTy).Contents (Elt F)),
    StableHlo.unary main_v342 main_v348 ((extractStridedSlice S100000x64 ![0, 64] · slices_S100000x192_S100000x64_0_64) : (⟨S100000x192, .f32⟩ : BufTy).Contents (Elt F) → (⟨S100000x64, .f32⟩ : BufTy).Contents (Elt F)),
    StableHlo.unary main_v342 main_v349 ((extractStridedSlice S100000x64 ![0, 128] · slices_S100000x192_S100000x64_0_128) : (⟨S100000x192, .f32⟩ : BufTy).Contents (Elt F) → (⟨S100000x64, .f32⟩ : BufTy).Contents (Elt F)),
    StableHlo.unary main_v346 main_v350 ((extractStridedSlice S100000x64 ![0, 0] · slices_S100000x192_S100000x64_0_0) : (⟨S100000x192, .f32⟩ : BufTy).Contents (Elt F) → (⟨S100000x64, .f32⟩ : BufTy).Contents (Elt F)),
    StableHlo.unary main_v346 main_v351 ((extractStridedSlice S100000x64 ![0, 64] · slices_S100000x192_S100000x64_0_64) : (⟨S100000x192, .f32⟩ : BufTy).Contents (Elt F) → (⟨S100000x64, .f32⟩ : BufTy).Contents (Elt F)),
    StableHlo.unary main_v346 main_v352 ((extractStridedSlice S100000x64 ![0, 128] · slices_S100000x192_S100000x64_0_128) : (⟨S100000x192, .f32⟩ : BufTy).Contents (Elt F) → (⟨S100000x64, .f32⟩ : BufTy).Contents (Elt F)),
    StableHlo.binary main_v347 main_v350 main_v353 (addf : (⟨S100000x64, .f32⟩ : BufTy).Contents (Elt F) → (⟨S100000x64, .f32⟩ : BufTy).Contents (Elt F) → (⟨S100000x64, .f32⟩ : BufTy).Contents (Elt F)),
    StableHlo.unary main_v353 main_v354 (Host.negf : (⟨S100000x64, .f32⟩ : BufTy).Contents (Elt F) → (⟨S100000x64, .f32⟩ : BufTy).Contents (Elt F)),
    StableHlo.unary main_v354 main_v355 (Host.exp : (⟨S100000x64, .f32⟩ : BufTy).Contents (Elt F) → (⟨S100000x64, .f32⟩ : BufTy).Contents (Elt F)),
    StableHlo.nullary main_cst_48 (constant S_ .f32 0x3F800000#32),
    StableHlo.unary main_cst_48 main_v356 (broadcastInDim S100000x64 ![] bcast_S_S100000x64 : (⟨S_, .f32⟩ : BufTy).Contents (Elt F) → (⟨S100000x64, .f32⟩ : BufTy).Contents (Elt F)),
    StableHlo.binary main_v356 main_v355 main_v357 (addf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v358 (broadcastInDim S100000x64 ![] bcast_S_S100000x64 : (⟨S_, .f32⟩ : BufTy).Contents (Elt F) → (⟨S100000x64, .f32⟩ : BufTy).Contents (Elt F)),
    StableHlo.binary main_v358 main_v357 main_v359 (Host.divf : (⟨S100000x64, .f32⟩ : BufTy).Contents (Elt F) → (⟨S100000x64, .f32⟩ : BufTy).Contents (Elt F) → (⟨S100000x64, .f32⟩ : BufTy).Contents (Elt F)),
    StableHlo.binary main_v348 main_v351 main_v360 (addf : (⟨S100000x64, .f32⟩ : BufTy).Contents (Elt F) → (⟨S100000x64, .f32⟩ : BufTy).Contents (Elt F) → (⟨S100000x64, .f32⟩ : BufTy).Contents (Elt F)),
    StableHlo.unary main_v360 main_v361 (Host.negf : (⟨S100000x64, .f32⟩ : BufTy).Contents (Elt F) → (⟨S100000x64, .f32⟩ : BufTy).Contents (Elt F)),
    StableHlo.unary main_v361 main_v362 (Host.exp : (⟨S100000x64, .f32⟩ : BufTy).Contents (Elt F) → (⟨S100000x64, .f32⟩ : BufTy).Contents (Elt F)),
    StableHlo.nullary main_cst_50 (constant S_ .f32 0x3F800000#32),
    StableHlo.unary main_cst_50 main_v363 (broadcastInDim S100000x64 ![] bcast_S_S100000x64 : (⟨S_, .f32⟩ : BufTy).Contents (Elt F) → (⟨S100000x64, .f32⟩ : BufTy).Contents (Elt F)),
    StableHlo.binary main_v363 main_v362 main_v364 (addf : (⟨S100000x64, .f32⟩ : BufTy).Contents (Elt F) → (⟨S100000x64, .f32⟩ : BufTy).Contents (Elt F) → (⟨S100000x64, .f32⟩ : BufTy).Contents (Elt F)),
    StableHlo.nullary main_cst_51 (constant S_ .f32 0x3F800000#32),
    StableHlo.unary main_cst_51 main_v365 (broadcastInDim S100000x64 ![] bcast_S_S100000x64 : (⟨S_, .f32⟩ : BufTy).Contents (Elt F) → (⟨S100000x64, .f32⟩ : BufTy).Contents (Elt F)) ]
set_option maxRecDepth 8192 in
set_option maxHeartbeats 4000000 in
theorem main_part6_eq (c : Dev nD) : main_part6 (F := F) c = seq opsW6 := rfl

/-- The line's entries 421 … 506: the 8th window of @main. -/
abbrev opsW7 : List (HloOp τ sig (Elt F)) :=
  [ StableHlo.binary main_v365 main_v364 main_v366 (Host.divf : (⟨S100000x64, .f32⟩ : BufTy).Contents (Elt F) → (⟨S100000x64, .f32⟩ : BufTy).Contents (Elt F) → (⟨S100000x64, .f32⟩ : BufTy).Contents (Elt F)),
    StableHlo.binary main_v359 main_v352 main_v367 (mulf : (⟨S100000x64, .f32⟩ : BufTy).Contents (Elt F) → (⟨S100000x64, .f32⟩ : BufTy).Contents (Elt F) → (⟨S100000x64, .f32⟩ : BufTy).Contents (Elt F)),
    StableHlo.binary main_v349 main_v367 main_v368 (addf : (⟨S100000x64, .f32⟩ : BufTy).Contents (Elt F) → (⟨S100000x64, .f32⟩ : BufTy).Contents (Elt F) → (⟨S100000x64, .f32⟩ : BufTy).Contents (Elt F)),
    StableHlo.unary main_v368 main_v369 (Host.tanh : (⟨S100000x64, .f32⟩ : BufTy).Contents (Elt F) → (⟨S100000x64, .f32⟩ : BufTy).Contents (Elt F)),
    StableHlo.nullary main_cst_52 (constant S_ .f32 0x3F800000#32),
    StableHlo.unary main_cst_52 main_v370 (broadcastInDim S100000x64 ![] bcast_S_S100000x64 : (⟨S_, .f32⟩ : BufTy).Contents (Elt F) → (⟨S100000x64, .f32⟩ : BufTy).Contents (Elt F)),
    StableHlo.binary main_v370 main_v366 main_v371 (subf : (⟨S100000x64, .f32⟩ : BufTy).Contents (Elt F) → (⟨S100000x64, .f32⟩ : BufTy).Contents (Elt F) → (⟨S100000x64, .f32⟩ : BufTy).Contents (Elt F)),
    StableHlo.binary main_v371 main_v369 main_v372 (mulf : (⟨S100000x64, .f32⟩ : BufTy).Contents (Elt F) → (⟨S100000x64, .f32⟩ : BufTy).Contents (Elt F) → (⟨S100000x64, .f32⟩ : BufTy).Contents (Elt F)),
    StableHlo.binary main_v366 main_v317 main_v373 (mulf : (⟨S100000x64, .f32⟩ : BufTy).Contents (Elt F) → (⟨S100000x64, .f32⟩ : BufTy).Contents (Elt F) → (⟨S100000x64, .f32⟩ : BufTy).Contents (Elt F)),
    StableHlo.binary main_v372 main_v373 main_v374 (addf : (⟨S100000x64, .f32⟩ : BufTy).Contents (Elt F) → (⟨S100000x64, .f32⟩ : BufTy).Contents (Elt F) → (⟨S100000x64, .f32⟩ : BufTy).Contents (Elt F)),
    StableHlo.nullary main_cst_53 (constant S_ .f32 0x00000000#32),
    StableHlo.unary main_cst_53 main_v375 (broadcastInDim S20000x64 ![] bcast_S_S20000x64 : (⟨S_, .f32⟩ : BufTy).Contents (Elt F) → (⟨S20000x64, .f32⟩ : BufTy).Contents (Elt F)),
    StableHlo.unary main_arg2 main_v376 (broadcastInDim S100000x1 ![0] bcast_S100000_S100000x1_0 : (⟨S100000, .i32⟩ : BufTy).Contents (Elt F) → (⟨S100000x1, .i32⟩ : BufTy).Contents (Elt F)),
    StableHlo.ternary main_v375 main_v376 main_v374 main_v377 ((fun x i u => Host.scatterAdd scatter_S20000x64_S100000x1_S100000x64_1_0_0_1 x i u) : (⟨S20000x64, .f32⟩ : BufTy).Contents (Elt F) → (⟨S100000x1, .i32⟩ : BufTy).Contents (Elt F) → (⟨S100000x64, .f32⟩ : BufTy).Contents (Elt F) → (⟨S20000x64, .f32⟩ : BufTy).Contents (Elt F)),
    StableHlo.binary main_v377 main_arg13 main_v378 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg14 main_v379 (broadcastInDim S1x64 ![1] bcast_S64_S1x64_1 : (⟨S64, .f32⟩ : BufTy).Contents (Elt F) → (⟨S1x64, .f32⟩ : BufTy).Contents (Elt F)),
    StableHlo.unary main_v379 main_v380 (broadcastInDim S20000x64 ![0, 1] bcast_S1x64_S20000x64_0_1 : (⟨S1x64, .f32⟩ : BufTy).Contents (Elt F) → (⟨S20000x64, .f32⟩ : BufTy).Contents (Elt F)),
    StableHlo.binary main_v378 main_v380 main_v381 (addf : (⟨S20000x64, .f32⟩ : BufTy).Contents (Elt F) → (⟨S20000x64, .f32⟩ : BufTy).Contents (Elt F) → (⟨S20000x64, .f32⟩ : BufTy).Contents (Elt F)),
    StableHlo.TRef.nullary main_call0.cst (constant S_ .f32 0x00000000#32),
    StableHlo.TRef.unary main_call0.cst main_call0.v0 (broadcastInDim S20000x64 ![] bcast_S_S20000x64),
    StableHlo.TRef.binary (.of main_v381 : StableHlo.TRef sig ⟨S20000x64, .f32⟩) main_call0.v0 main_call0.v1 maximumf,
    StableHlo.binary main_v382 main_arg15 main_v383 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg16 main_v384 (broadcastInDim S1x64 ![1] bcast_S64_S1x64_1 : (⟨S64, .f32⟩ : BufTy).Contents (Elt F) → (⟨S1x64, .f32⟩ : BufTy).Contents (Elt F)),
    StableHlo.unary main_v384 main_v385 (broadcastInDim S20000x64 ![0, 1] bcast_S1x64_S20000x64_0_1 : (⟨S1x64, .f32⟩ : BufTy).Contents (Elt F) → (⟨S20000x64, .f32⟩ : BufTy).Contents (Elt F)),
    StableHlo.binary main_v383 main_v385 main_v386 (addf : (⟨S20000x64, .f32⟩ : BufTy).Contents (Elt F) → (⟨S20000x64, .f32⟩ : BufTy).Contents (Elt F) → (⟨S20000x64, .f32⟩ : BufTy).Contents (Elt F)),
    StableHlo.nullary main_cst_54 (constant S_ .f32 0x00000000#32),
    StableHlo.unary main_cst_54 main_v387 (broadcastInDim S2000x64 ![] bcast_S_S2000x64 : (⟨S_, .f32⟩ : BufTy).Contents (Elt F) → (⟨S2000x64, .f32⟩ : BufTy).Contents (Elt F)),
    StableHlo.unary main_arg3 main_v388 (broadcastInDim S20000x1 ![0] bcast_S20000_S20000x1_0 : (⟨S20000, .i32⟩ : BufTy).Contents (Elt F) → (⟨S20000x1, .i32⟩ : BufTy).Contents (Elt F)),
    StableHlo.ternary main_v387 main_v388 main_v386 main_v389 ((fun x i u => Host.scatterAdd scatter_S2000x64_S20000x1_S20000x64_1_0_0_1 x i u) : (⟨S2000x64, .f32⟩ : BufTy).Contents (Elt F) → (⟨S20000x1, .i32⟩ : BufTy).Contents (Elt F) → (⟨S20000x64, .f32⟩ : BufTy).Contents (Elt F) → (⟨S2000x64, .f32⟩ : BufTy).Contents (Elt F)),
    StableHlo.binary main_v389 main_arg17 main_v390 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    StableHlo.unary main_arg18 main_v391 (broadcastInDim S1x64 ![1] bcast_S64_S1x64_1 : (⟨S64, .f32⟩ : BufTy).Contents (Elt F) → (⟨S1x64, .f32⟩ : BufTy).Contents (Elt F)),
    StableHlo.unary main_v391 main_v392 (broadcastInDim S2000x64 ![0, 1] bcast_S1x64_S2000x64_0_1 : (⟨S1x64, .f32⟩ : BufTy).Contents (Elt F) → (⟨S2000x64, .f32⟩ : BufTy).Contents (Elt F)),
    StableHlo.binary main_v390 main_v392 main_v393 (addf : (⟨S2000x64, .f32⟩ : BufTy).Contents (Elt F) → (⟨S2000x64, .f32⟩ : BufTy).Contents (Elt F) → (⟨S2000x64, .f32⟩ : BufTy).Contents (Elt F)),
    StableHlo.TRef.nullary main_call1.cst (constant S_ .f32 0x00000000#32),
    StableHlo.TRef.unary main_call1.cst main_call1.v0 (broadcastInDim S2000x64 ![] bcast_S_S2000x64),
    StableHlo.TRef.binary (.of main_v393 : StableHlo.TRef sig ⟨S2000x64, .f32⟩) main_call1.v0 main_call1.v1 maximumf,
    StableHlo.binary main_v394 main_arg19 main_v395 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    StableHlo.unary main_arg20 main_v396 (broadcastInDim S1x64 ![1] bcast_S64_S1x64_1 : (⟨S64, .f32⟩ : BufTy).Contents (Elt F) → (⟨S1x64, .f32⟩ : BufTy).Contents (Elt F)),
    StableHlo.unary main_v396 main_v397 (broadcastInDim S2000x64 ![0, 1] bcast_S1x64_S2000x64_0_1 : (⟨S1x64, .f32⟩ : BufTy).Contents (Elt F) → (⟨S2000x64, .f32⟩ : BufTy).Contents (Elt F)),
    StableHlo.binary main_v395 main_v397 main_v398 (addf : (⟨S2000x64, .f32⟩ : BufTy).Contents (Elt F) → (⟨S2000x64, .f32⟩ : BufTy).Contents (Elt F) → (⟨S2000x64, .f32⟩ : BufTy).Contents (Elt F)),
    StableHlo.nullary main_cst_55 (constant S_ .f32 0x00000000#32),
    StableHlo.unary main_cst_55 main_v399 (broadcastInDim S64x64 ![] bcast_S_S64x64 : (⟨S_, .f32⟩ : BufTy).Contents (Elt F) → (⟨S64x64, .f32⟩ : BufTy).Contents (Elt F)),
    StableHlo.unary main_arg4 main_v400 (broadcastInDim S2000x1 ![0] bcast_S2000_S2000x1_0 : (⟨S2000, .i32⟩ : BufTy).Contents (Elt F) → (⟨S2000x1, .i32⟩ : BufTy).Contents (Elt F)),
    StableHlo.ternary main_v399 main_v400 main_v398 main_v401 ((fun x i u => Host.scatterAdd scatter_S64x64_S2000x1_S2000x64_1_0_0_1 x i u) : (⟨S64x64, .f32⟩ : BufTy).Contents (Elt F) → (⟨S2000x1, .i32⟩ : BufTy).Contents (Elt F) → (⟨S2000x64, .f32⟩ : BufTy).Contents (Elt F) → (⟨S64x64, .f32⟩ : BufTy).Contents (Elt F)),
    StableHlo.binary main_v401 main_arg21 main_v402 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    StableHlo.unary main_arg22 main_v403 (broadcastInDim S1x32 ![1] bcast_S32_S1x32_1 : (⟨S32, .f32⟩ : BufTy).Contents (Elt F) → (⟨S1x32, .f32⟩ : BufTy).Contents (Elt F)),
    StableHlo.unary main_v403 main_v404 (broadcastInDim S64x32 ![0, 1] bcast_S1x32_S64x32_0_1 : (⟨S1x32, .f32⟩ : BufTy).Contents (Elt F) → (⟨S64x32, .f32⟩ : BufTy).Contents (Elt F)),
    StableHlo.binary main_v402 main_v404 main_v405 (addf : (⟨S64x32, .f32⟩ : BufTy).Contents (Elt F) → (⟨S64x32, .f32⟩ : BufTy).Contents (Elt F) → (⟨S64x32, .f32⟩ : BufTy).Contents (Elt F)),
    StableHlo.TRef.nullary main_call2.cst (constant S_ .f32 0x00000000#32),
    StableHlo.TRef.unary main_call2.cst main_call2.v0 (broadcastInDim S64x32 ![] bcast_S_S64x32),
    StableHlo.TRef.binary (.of main_v405 : StableHlo.TRef sig ⟨S64x32, .f32⟩) main_call2.v0 main_call2.v1 (cmpf .ogt),
    StableHlo.TRef.nullary main_call2.cst_0 (constant S_ .f32 0x00000000#32),
    StableHlo.TRef.unary main_call2.cst_0 main_call2.v2 (broadcastInDim S64x32 ![] bcast_S_S64x32),
    StableHlo.TRef.binary (.of main_v405 : StableHlo.TRef sig ⟨S64x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S64x32 ![] bcast_S_S64x32),
    StableHlo.TRef.ternary main_call2.v3 main_call2.call0.v1 (.of main_v405 : StableHlo.TRef sig ⟨S64x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S64x32 ![] bcast_S_S64x32),
    StableHlo.TRef.binary main_call2.v6 main_call2.v5 main_call2.v7 mulf,
    StableHlo.TRef.ternary main_call2.v1 (.of main_v405 : StableHlo.TRef sig ⟨S64x32, .f32⟩) main_call2.v7 main_call2.call1.v0 select,
    StableHlo.binary main_v406 main_arg23 main_v407 ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)),
    StableHlo.unary main_arg24 main_v408 (broadcastInDim S1x16 ![1] bcast_S16_S1x16_1 : (⟨S16, .f32⟩ : BufTy).Contents (Elt F) → (⟨S1x16, .f32⟩ : BufTy).Contents (Elt F)),
    StableHlo.unary main_v408 main_v409 (broadcastInDim S64x16 ![0, 1] bcast_S1x16_S64x16_0_1 : (⟨S1x16, .f32⟩ : BufTy).Contents (Elt F) → (⟨S64x16, .f32⟩ : BufTy).Contents (Elt F)),
    StableHlo.binary main_v407 main_v409 main_v410 (addf : (⟨S64x16, .f32⟩ : BufTy).Contents (Elt F) → (⟨S64x16, .f32⟩ : BufTy).Contents (Elt F) → (⟨S64x16, .f32⟩ : BufTy).Contents (Elt F)),
    StableHlo.TRef.nullary main_call3.cst (constant S_ .f32 0x00000000#32),
    StableHlo.TRef.unary main_call3.cst main_call3.v0 (broadcastInDim S64x16 ![] bcast_S_S64x16),
    StableHlo.TRef.binary (.of main_v410 : StableHlo.TRef sig ⟨S64x16, .f32⟩) main_call3.v0 main_call3.v1 (cmpf .ogt),
    StableHlo.TRef.nullary main_call3.cst_0 (constant S_ .f32 0x00000000#32),
    StableHlo.TRef.unary main_call3.cst_0 main_call3.v2 (broadcastInDim S64x16 ![] bcast_S_S64x16),
    StableHlo.TRef.binary (.of main_v410 : StableHlo.TRef sig ⟨S64x16, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S64x16 ![] bcast_S_S64x16),
    StableHlo.TRef.ternary main_call3.v3 main_call3.call0.v1 (.of main_v410 : StableHlo.TRef sig ⟨S64x16, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S64x16 ![] bcast_S_S64x16),
    StableHlo.TRef.binary main_call3.v6 main_call3.v5 main_call3.v7 mulf,
    StableHlo.TRef.ternary main_call3.v1 (.of main_v410 : StableHlo.TRef sig ⟨S64x16, .f32⟩) main_call3.v7 main_call3.call1.v0 select,
    StableHlo.binary main_v411 main_arg25 main_v412 ((fun l r => Host.dotGeneral dot_S64x16_S16x1_S64x1_1_0_0_1_n_n none l r) : (⟨S64x16, .f32⟩ : BufTy).Contents (Elt F) → (⟨S16x1, .f32⟩ : BufTy).Contents (Elt F) → (⟨S64x1, .f32⟩ : BufTy).Contents (Elt F)),
    StableHlo.unary main_arg26 main_v413 (broadcastInDim S1x1 ![1] bcast_S1_S1x1_1 : (⟨S1, .f32⟩ : BufTy).Contents (Elt F) → (⟨S1x1, .f32⟩ : BufTy).Contents (Elt F)),
    StableHlo.unary main_v413 main_v414 (broadcastInDim S64x1 ![0, 1] bcast_S1x1_S64x1_0_1 : (⟨S1x1, .f32⟩ : BufTy).Contents (Elt F) → (⟨S64x1, .f32⟩ : BufTy).Contents (Elt F)),
    StableHlo.binary main_v412 main_v414 main_v415 (addf : (⟨S64x1, .f32⟩ : BufTy).Contents (Elt F) → (⟨S64x1, .f32⟩ : BufTy).Contents (Elt F) → (⟨S64x1, .f32⟩ : BufTy).Contents (Elt F)) ]
set_option maxRecDepth 8192 in
set_option maxHeartbeats 4000000 in
theorem main_part7_eq (c : Dev nD) : main_part7 (F := F) c = seq opsW7 := rfl

set_option maxRecDepth 8192 in
set_option maxHeartbeats 4000000 in
/-- The stretches and the windows cut the same line. -/
theorem ops_eq_windows : (ops : List (HloOp τ sig (Elt F))) = opsW0 ++ (opsW1 ++ (opsW2 ++ (opsW3 ++ (opsW4 ++ (opsW5 ++ (opsW6 ++ (opsW7))))))) := rfl

set_option maxRecDepth 8192 in
set_option maxHeartbeats 4000000 in
/-- @main runs its windows in order, each its entries in order: the whole line in order. -/
theorem main_eq (c : Dev nD) : main (F := F) c = seq ops := by
  rw [ops_eq_windows]
  simp only [seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- On the device, for any float values, from any memory with zero counters: every weakly fair execution of @main
    terminates, and every final state has each buffer at the line's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same, read at the last level. -/
theorem run_levels (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = Lv26 m c (Proc.devRef .tc b) :=
  (θ_run defs _ _).mono (fun _ h c b => (h c b).trans (congrFun (after_ops m c) _)) (run m ρ)

end Cert.ReferenceIdeal.RunV

end
-- ==== Proof.KTake.lean ====
import proofs.«157269_j2267742732766_1_alg».proof.KernelIdeal
import proofs.«157269_j2267742732766_1_alg».proof.Pre_finite_inputs
import Idealize.ShloMosaic.Lib.ReduceAll
import Idealize.ShloMosaic.Lib.StableHlo.Predicate
import Idealize.ShloMosaic.Lib.ValueIdx

/-!
# The embedding lookup under the index-range precondition

The kernel program looks the embedding rows up through a lookup that masks positions outside the table: the start
index is `select (z < 0) (z + 100) z`, the gathered row is kept where 0 ≤ start ≤ 99 and a NaN word stands elsewhere.
The reference program gathers at the same start indices with no mask. The precondition's last conjunct says every
position `z` is a table position, 0 ≤ z < 100 read signed. This module decodes that conjunct (`z_range`), states the
two lookups as pure functions of the table and the positions (`maskedLookup`, `plainLookup`), and shows that under
the range fact the mask is all ones, so the two agree (`maskedLookup_eq`).
-/

noncomputable section

namespace Cert.KernelIdeal.Take

open Idealize.ShloMosaic

/-! ## Words in the table's range -/

/-- A word that is at least 0 and below 100 as a signed number, by the two comparisons' bits. -/
theorem word_range {w : BitVec 32} (h0 : IntOp.cmpi .sge w 0#32 = 1#1) (h1 : IntOp.cmpi .slt w 100#32 = 1#1) :
    0 ≤ w.toInt ∧ w.toInt < 100 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100#32 : BitVec 32).toInt = 100 := by decide
  rw [e0] at h0
  rw [e1] at h1
  exact ⟨h0, h1⟩

section Range
open Cert.Pre_finite_inputs Cert.Pre_finite_inputs.Facts
variable [Cert.Pre_finite_inputs.Facts]

/-- The scalar shape has one index. -/
local instance : Subsingleton Cert.Pre_finite_inputs.S_.Idx := ⟨fun a b => funext fun d => d.elim0⟩

/-- Part 6 of the predicate ends in the conjunction of the earlier conjuncts with the range test
    `(z ≥ 0) ∧ (z < 100)` reduced by `and` over the whole array: where part 6 is 1, the test is 1 at every entry. -/
theorem part6_range {F : FTy → Type} [FloatOps F] (a0 : IVec Cert.Pre_finite_inputs.S100000x2 32) (a26 : FVec F Cert.Pre_finite_inputs.S1 .f32)
    (v98 : IVec Cert.Pre_finite_inputs.S_ 1) (v101 : IVec Cert.Pre_finite_inputs.S16x1 1) (c39 : IVec Cert.Pre_finite_inputs.S_ 1)
    (h : fn_part6 (F := F) a0 a26 v98 v101 c39 = fun _ => 1#1) (i : Cert.Pre_finite_inputs.S100000x2.Idx) :
    0 ≤ (a0 i).toInt ∧ (a0 i).toInt < 100 := by
  have e := congrFun h ValueIdx.ix0
  unfold fn_part6 at e
  dsimp only at e
  have e2 := (IntOp.andi_eq_one.1 e).2
  have e3 := Host.reduce_andi_all _ _ _ _ _ e2 i
  obtain ⟨h0, h1⟩ := IntOp.andi_eq_one.1 e3
  exact word_range h0 h1

/-- THE PRECONDITION DECODED: where the printed predicate of the argument arrays is all ones, every entry of the
    index array is a table position, 0 ≤ z < 100 read signed. (The predicate is a chain of conjunctions cut into six
    parts; its last conjunct, in part 6, is the range test reduced by `and` over the whole array.) -/
theorem z_range (a0 : IVec Cert.Pre_finite_inputs.S100000x2 32) (a1 : IVec Cert.Pre_finite_inputs.S2x1600000 32) (a2 : IVec Cert.Pre_finite_inputs.S100000 32) (a3 : IVec Cert.Pre_finite_inputs.S20000 32) (a4 : IVec Cert.Pre_finite_inputs.S2000 32)
    (a5 : FVec Ideal Cert.Pre_finite_inputs.S5x100x64 .f32) (a6 : FVec Ideal Cert.Pre_finite_inputs.S4x128x64 .f32) (a7 : FVec Ideal Cert.Pre_finite_inputs.S4x64 .f32) (a8 : FVec Ideal Cert.Pre_finite_inputs.S5x64x64 .f32) (a9 : FVec Ideal Cert.Pre_finite_inputs.S5x64x192 .f32) (a10 : FVec Ideal Cert.Pre_finite_inputs.S5x192 .f32) (a11 : FVec Ideal Cert.Pre_finite_inputs.S5x64x192 .f32) (a12 : FVec Ideal Cert.Pre_finite_inputs.S5x192 .f32)
    (a13 : FVec Ideal Cert.Pre_finite_inputs.S64x64 .f32) (a14 : FVec Ideal Cert.Pre_finite_inputs.S64 .f32) (a15 : FVec Ideal Cert.Pre_finite_inputs.S64x64 .f32) (a16 : FVec Ideal Cert.Pre_finite_inputs.S64 .f32) (a17 : FVec Ideal Cert.Pre_finite_inputs.S64x64 .f32) (a18 : FVec Ideal Cert.Pre_finite_inputs.S64 .f32) (a19 : FVec Ideal Cert.Pre_finite_inputs.S64x64 .f32) (a20 : FVec Ideal Cert.Pre_finite_inputs.S64 .f32)
    (a21 : FVec Ideal Cert.Pre_finite_inputs.S64x32 .f32) (a22 : FVec Ideal Cert.Pre_finite_inputs.S32 .f32) (a23 : FVec Ideal Cert.Pre_finite_inputs.S32x16 .f32) (a24 : FVec Ideal Cert.Pre_finite_inputs.S16 .f32) (a25 : FVec Ideal Cert.Pre_finite_inputs.S16x1 .f32) (a26 : FVec Ideal Cert.Pre_finite_inputs.S1 .f32)
    (h : Cert.Pre_finite_inputs.fn (F := Ideal) a0 a1 a2 a3 a4 a5 a6 a7 a8 a9 a10 a11 a12 a13 a14 a15 a16 a17 a18 a19 a20 a21 a22 a23 a24 a25 a26 = (fun _ => 1#1)) :
    ∀ i : Cert.Pre_finite_inputs.S100000x2.Idx, 0 ≤ (a0 i).toInt ∧ (a0 i).toInt < 100 := by
  obtain ⟨v98, v101, c39, h6⟩ : ∃ v98 v101 c39, fn_part6 (F := Ideal) a0 a26 v98 v101 c39 = fun _ => 1#1 := ⟨_, _, _, h⟩
  exact part6_range a0 a26 v98 v101 c39 h6

end Range

/-! ## The lookup, with the range mask and without it -/

/-- A word that is not negative is not below 0 … -/
theorem slt_zero_of_nonneg {w : BitVec 32} (h : 0 ≤ w.toInt) : IntOp.cmpi .slt w 0#32 = 0#1 := by
  have e0 : (0#32 : BitVec 32).toInt = 0 := by decide
  have hb : w.slt 0#32 = false := by
    simp only [BitVec.slt, e0, decide_eq_false_iff_not, not_lt]
    exact h
  show BitVec.ofBool (w.slt 0#32) = 0#1
  rw [hb]
  rfl

/-- … it is at least 0 … -/
theorem sge_zero_of_nonneg {w : BitVec 32} (h : 0 ≤ w.toInt) : IntOp.cmpi .sge w 0#32 = 1#1 := by
  have e0 : (0#32 : BitVec 32).toInt = 0 := by decide
  have hb : (0#32 : BitVec 32).sle w = true := by
    simp only [BitVec.sle, e0, decide_eq_true_eq]
    exact h
  show BitVec.ofBool ((0#32 : BitVec 32).sle w) = 1#1
  rw [hb]
  rfl

/-- … and a word below 100 is at most 99, all read signed. -/
theorem sle_99_of_lt {w : BitVec 32} (h : w.toInt < 100) : IntOp.cmpi .sle w 99#32 = 1#1 := by
  have e1 : (99#32 : BitVec 32).toInt = 99 := by decide
  have hb : w.sle 99#32 = true := by
    simp only [BitVec.sle, e1, decide_eq_true_eq]
    omega
  show BitVec.ofBool (w.sle 99#32) = 1#1
  rw [hb]
  rfl

/-- The range test of one start index: the position with a negative one counted from the table's end
    (`z + 100` where `z < 0`), tested for 0 ≤ · ≤ 99. At a position already in the table it is 1. -/
theorem range_bit {w : BitVec 32} (h0 : 0 ≤ w.toInt) (h1 : w.toInt < 100) :
    IntOp.andi (IntOp.cmpi .sge (Scalar.select (IntOp.cmpi .slt w 0#32) (IntOp.addi w 100#32) w) 0#32)
      (IntOp.cmpi .sle (Scalar.select (IntOp.cmpi .slt w 0#32) (IntOp.addi w 100#32) w) 99#32) = 1#1 := by
  rw [slt_zero_of_nonneg h0, ValueIdx.select_zero, sge_zero_of_nonneg h0, sle_99_of_lt h1]
  decide

/-- A left fold by `and` from 1 over bits that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_one f l _ ?_ (fun n hn => h n (List.mem_cons_of_mem _ hn))
    rw [hi, h a (List.mem_cons.2 (Or.inl rfl))]
    decide

section Lookup
open Cert.KernelIdeal.Facts₀
variable [Cert.KernelIdeal.Facts₀] {F : FTy → Type} [FloatOps F]

/-- The lookup's range mask, as the program computes it (operations 1 to 18 of the lookup, the gather apart):
    the start indices `select (z < 0) (z + 100) z` as a [100000, 2, 1] array, tested for 0 ≤ · and · ≤ 99, the two bits
    conjoined and reduced by `and` over the last axis. -/
def rangeMask (z : IVec S100000x2 32) : IVec S100000x2 1 :=
  let c : IVec S_ 32 := constantI S_ 32 0#32
  let v0 : IVec S100000x2 32 := broadcastInDim S100000x2 ![] bcast_S_S100000x2 c
  let v1 : IVec S100000x2 1 := cmpi .slt z v0
  let c_0 : IVec S_ 32 := constantI S_ 32 100#32
  let v2 : IVec S100000x2 32 := broadcastInDim S100000x2 ![] bcast_S_S100000x2 c_0
  let v3 : IVec S100000x2 32 := addi z v2
  let v4 : IVec S100000x2 32 := select v1 v3 z
  let v5 : IVec S100000x2x1 32 := broadcastInDim S100000x2x1 ![0, 1] bcast_S100000x2_S100000x2x1_0_1 v4
  let c_1 : IVec S1 32 := constantI S1 32 99#32
  let c_2 : IVec S_ 32 := constantI S_ 32 0#32
  let v6 : IVec S100000x2x1 32 := broadcastInDim S100000x2x1 ![] bcast_S_S100000x2x1 c_2
  let v7 : IVec S100000x2x1 1 := cmpi .sge v5 v6
  let v8 : IVec S1x1x1 32 := broadcastInDim S1x1x1 ![2] bcast_S1_S1x1x1_2 c_1
  let v9 : IVec S100000x2x1 32 := broadcastInDim S100000x2x1 ![0, 1, 2] bcast_S1x1x1_S100000x2x1_0_1_2 v8
  let v10 : IVec S100000x2x1 1 := cmpi .sle v5 v9
  let v11 : IVec S100000x2x1 1 := andi v7 v10
  let c_3 : IVec S_ 1 := constantI S_ 1 1#1
  (fun x v => Host.reduce IntOp.andi x v reducesTo_S100000x2x1_S100000x2_d2 h_S_) v11 c_3

/-- The lookup as the kernel program computes it: its 23 operations in order, as a function of the table and the
    positions. The gathered rows are kept where the range mask is set, a NaN word stands elsewhere. -/
def maskedLookup (emb : (⟨S100x64, .f32⟩ : BufTy).Contents (Elt F)) (z : (⟨S100000x2, .i32⟩ : BufTy).Contents (Elt F)) :
    (⟨S100000x2x64, .f32⟩ : BufTy).Contents (Elt F) :=
  let c : IVec S_ 32 := constantI S_ 32 0#32
  let v0 : IVec S100000x2 32 := broadcastInDim S100000x2 ![] bcast_S_S100000x2 c
  let v1 : IVec S100000x2 1 := cmpi .slt z v0
  let c_0 : IVec S_ 32 := constantI S_ 32 100#32
  let v2 : IVec S100000x2 32 := broadcastInDim S100000x2 ![] bcast_S_S100000x2 c_0
  let v3 : IVec S100000x2 32 := addi z v2
  let v4 : IVec S100000x2 32 := select v1 v3 z
  let v5 : IVec S100000x2x1 32 := broadcastInDim S100000x2x1 ![0, 1] bcast_S100000x2_S100000x2x1_0_1 v4
  let c_1 : IVec S1 32 := constantI S1 32 99#32
  let c_2 : IVec S_ 32 := constantI S_ 32 0#32
  let v6 : IVec S100000x2x1 32 := broadcastInDim S100000x2x1 ![] bcast_S_S100000x2x1 c_2
  let v7 : IVec S100000x2x1 1 := cmpi .sge v5 v6
  let v8 : IVec S1x1x1 32 := broadcastInDim S1x1x1 ![2] bcast_S1_S1x1x1_2 c_1
  let v9 : IVec S100000x2x1 32 := broadcastInDim S100000x2x1 ![0, 1, 2] bcast_S1x1x1_S100000x2x1_0_1_2 v8
  let v10 : IVec S100000x2x1 1 := cmpi .sle v5 v9
  let v11 : IVec S100000x2x1 1 := andi v7 v10
  let c_3 : IVec S_ 1 := constantI S_ 1 1#1
  let v12 : IVec S100000x2 1 := (fun x v => Host.reduce IntOp.andi x v reducesTo_S100000x2x1_S100000x2_d2 h_S_) v11 c_3
  let v13 : FVec F S100000x2x64 .f32 := (fun x i => Host.gather gather_S100x64_S100000x2x1_S100000x2x64_2_0_n_n_0_2_164 x i) emb v5
  let v14 : IVec S100000x2x64 1 := broadcastInDim S100000x2x64 ![0, 1] bcast_S100000x2_S100000x2x64_0_1 v12
  let cst : FVec F S_ .f32 := constant S_ .f32 0x7FC00000#32
  let v15 : FVec F S100000x2x64 .f32 := broadcastInDim S100000x2x64 ![] bcast_S_S100000x2x64 cst
  select v14 v13 v15

/-- The lookup without the mask, as the reference program computes it: the same start indices, gathered. -/
def plainLookup (emb : (⟨S100x64, .f32⟩ : BufTy).Contents (Elt F)) (z : (⟨S100000x2, .i32⟩ : BufTy).Contents (Elt F)) :
    (⟨S100000x2x64, .f32⟩ : BufTy).Contents (Elt F) :=
  Host.gather gather_S100x64_S100000x2x1_S100000x2x64_2_0_n_n_0_2_164 emb
    (broadcastInDim S100000x2x1 ![0, 1] bcast_S100000x2_S100000x2x1_0_1
      (select (cmpi .slt z (broadcastInDim S100000x2 ![] bcast_S_S100000x2 (constantI S_ 32 0#32)))
        (addi z (broadcastInDim S100000x2 ![] bcast_S_S100000x2 (constantI S_ 32 100#32))) z))

/-- The masked lookup is the select, on the broadcast range mask, between the plain lookup and the NaN word. -/
theorem maskedLookup_def (emb : (⟨S100x64, .f32⟩ : BufTy).Contents (Elt F)) (z : (⟨S100000x2, .i32⟩ : BufTy).Contents (Elt F)) :
    maskedLookup emb z
      = select (broadcastInDim S100000x2x64 ![0, 1] bcast_S100000x2_S100000x2x64_0_1 (rangeMask z)) (plainLookup emb z)
          (broadcastInDim S100000x2x64 ![] bcast_S_S100000x2x64 (constant (F := F) S_ .f32 0x7FC00000#32)) := rfl

/-- Where every position is in the table the range mask is all ones: the start index is the position itself, which
    passes both tests, and the reduction over the last axis conjoins ones from the one. -/
theorem rangeMask_one (z : IVec S100000x2 32) (hz : ∀ i : S100000x2.Idx, 0 ≤ (z i).toInt ∧ (z i).toInt < 100)
    (k : S100000x2.Idx) : rangeMask z k = 1#1 := by
  unfold rangeMask
  dsimp only
  rw [Host.reduce_eq_foldl]
  refine foldl_andi_one _ _ _ rfl (fun i _ => ?_)
  exact range_bit (hz _).1 (hz _).2

/-- THE LOOKUP'S MASK IS VACUOUS UNDER THE PRECONDITION: where every position is in the table (0 ≤ z < 100, signed)
    the kernel program's masked lookup is the reference's plain one. -/
theorem maskedLookup_eq (emb : (⟨S100x64, .f32⟩ : BufTy).Contents (Elt F)) (z : (⟨S100000x2, .i32⟩ : BufTy).Contents (Elt F))
    (hz : ∀ i : S100000x2.Idx, 0 ≤ (z i).toInt ∧ (z i).toInt < 100) : maskedLookup emb z = plainLookup emb z := by
  rw [maskedLookup_def]
  funext j
  rw [ValueIdx.select_apply]
  have hm : broadcastInDim S100000x2x64 ![0, 1] bcast_S100000x2_S100000x2x64_0_1 (rangeMask z) j = 1#1 := rangeMask_one z hz _
  rw [hm, ValueIdx.select_one]

end Lookup

end Cert.KernelIdeal.Take
-- ==== Proof.Rows.lean ====
/-
  The mathematics of one node's row, on the extended reals.

  Every dense stage of the network acts on a node's feature row independently of the other rows: a row times a
  weight matrix plus a bias row, the gated recurrent update, the two-layer perceptrons of the pooling levels, and
  the three-layer head. Both programs compute exactly these row functions; they differ only in how many rows a
  call sees at once (a tile of rows against the whole array) and in number formats, which are the identity on the
  extended reals. The functions are stated over plain index types so that both programs can be read against them.
-/
import Idealize.ShloMosaic.PureOps.Ideal

noncomputable section

namespace Cert.Rows

open Idealize.ShloMosaic

/-- Entry `c` of the row `x` times the matrix `W`: the sum over the contracted index of the products. -/
def dot {K N : ℕ} (x : Fin K → EReal) (W : Fin K → Fin N → EReal) (c : Fin N) : EReal :=
  ∑ k : Fin K, x k * W k c

/-- Entry `c` of the affine map `x ↦ x · W + b`. -/
def lin {K N : ℕ} (x : Fin K → EReal) (W : Fin K → Fin N → EReal) (b : Fin N → EReal) (c : Fin N) : EReal :=
  dot x W c + b c

/-- Two rows of 64 laid side by side: entries 0..63 are `x`, entries 64..127 are `y`. -/
def cat (x y : Fin 64 → EReal) (k : Fin 128) : EReal :=
  if h : k.val < 64 then x ⟨k.val, h⟩ else y ⟨k.val - 64, by have := k.isLt; omega⟩

/-- The transformed row of a layer after the first: the previous state beside the embedding sum, through the
    layer's affine map. -/
def trans (x ze : Fin 64 → EReal) (tW : Fin 128 → Fin 64 → EReal) (tb : Fin 64 → EReal) (c : Fin 64) : EReal :=
  lin (cat x ze) tW tb c

/-- The three gate pre-activations live in one row of 192: reset at 0..63, update at 64..127, candidate at
    128..191. -/
def gate (g : Fin 192 → EReal) (o : ℕ) (ho : o + 64 ≤ 192) (c : Fin 64) : EReal :=
  g ⟨o + c.val, by have := c.isLt; omega⟩

/-- The gated recurrent update of one row: message `m`, state `xt` (read once under the hidden-side affine map and
    once more, as `xt'`, in the final blend; the two are the same row in both programs); `one` is the constant the
    update gate is subtracted from. -/
def gru (one : EReal) (m xt xt' : Fin 64 → EReal) (Wih : Fin 64 → Fin 192 → EReal) (bih : Fin 192 → EReal)
    (Whh : Fin 64 → Fin 192 → EReal) (bhh : Fin 192 → EReal) (c : Fin 64) : EReal :=
  let gi := lin m Wih bih
  let gh := lin xt Whh bhh
  let r := Ideal.logistic (gate gi 0 (by omega) c + gate gh 0 (by omega) c)
  let z := Ideal.logistic (gate gi 64 (by omega) c + gate gh 64 (by omega) c)
  let n := Ideal.tanh (gate gi 128 (by omega) c + r * gate gh 128 (by omega) c)
  (one - z) * n + z * xt' c

/-- A two-layer perceptron with a rectifier between the layers; `zero` is the rectifier's threshold. -/
def mlp {K H N : ℕ} (zero : EReal) (x : Fin K → EReal) (W1 : Fin K → Fin H → EReal) (b1 : Fin H → EReal)
    (W2 : Fin H → Fin N → EReal) (b2 : Fin N → EReal) (c : Fin N) : EReal :=
  lin (fun k => max (lin x W1 b1 k) zero) W2 b2 c

/-- The exponential linear unit: the identity above zero, `e^v - 1` at and below it. -/
def elu (v : EReal) : EReal := if 0 < v then v else Ideal.exp v - 1

/-- The three-layer head: two exponential-linear layers and a last affine one. -/
def head {K H1 H2 N : ℕ} (x : Fin K → EReal) (W1 : Fin K → Fin H1 → EReal) (b1 : Fin H1 → EReal)
    (W2 : Fin H1 → Fin H2 → EReal) (b2 : Fin H2 → EReal) (W3 : Fin H2 → Fin N → EReal) (b3 : Fin N → EReal)
    (c : Fin N) : EReal :=
  lin (fun k => elu (lin (fun j => elu (lin x W1 b1 j)) W2 b2 k)) W3 b3 c

end Cert.Rows

end
-- ==== Proof.Sem.lean ====
/-
  The network, layer by layer, as functions of matrices of extended reals.

  A node-feature array is a matrix: a row per node. One message-passing layer takes the previous state and the
  layer's embedding sums, transforms each row (layers after the first), multiplies each row by the convolution
  weight, sums the results along the graph's edges (a map on whole matrices that both programs carry out with
  the same gather and scatter-add; here a parameter), and applies the gated recurrent update row by row. The
  pooling levels and the head are row maps between segment sums. Both programs are read against these
  functions; the matrices are plain functions of a row and a column index.
-/
import proofs.«157269_j2267742732766_1_alg».proof.Proof.Rows
import Idealize.ShloMosaic.Lib.ValueIdx

noncomputable section

namespace Cert.Sem

open Idealize.ShloMosaic Idealize.ShloMosaic.ValueIdx

/-- A matrix of extended reals: `R` rows of `C` entries. -/
abbrev Mat (R C : ℕ) := Fin R → Fin C → EReal

/-- A rank-2 array of the programs, as they index it. -/
abbrev Arr (R C : ℕ) := (⟨2, ![R, C]⟩ : Shape).Idx → EReal

/-- An array read as a matrix. -/
def toMat {R C : ℕ} (a : Arr R C) : Mat R C := fun r q => a (ix2 r q)

/-- A matrix laid out as an array. -/
def ofMat {R C : ℕ} (h : Mat R C) : Arr R C := fun i => h (i 0) (i 1)

theorem toMat_ofMat {R C : ℕ} (h : Mat R C) : toMat (ofMat h) = h := rfl

theorem ofMat_toMat {R C : ℕ} (a : Arr R C) : ofMat (toMat a) = a :=
  funext fun i => congrArg a (eq_ix2 i).symm

/-- Two arrays that agree entry by entry are equal. -/
theorem arr_ext {R C : ℕ} {a b : Arr R C} (h : ∀ r q, a (ix2 r q) = b (ix2 r q)) : a = b :=
  funext fun i => (congrArg a (eq_ix2 i)).trans ((h (i 0) (i 1)).trans (congrArg b (eq_ix2 i)).symm)

/-- Reading arrays as matrices loses nothing. -/
theorem toMat_inj {R C : ℕ} {a b : Arr R C} (h : toMat a = toMat b) : a = b :=
  arr_ext fun r q => congrFun (congrFun h r) q

/-- A one-row array (a bias as the tiled program stages it) read as a row. -/
def toRow {C : ℕ} (a : Arr 1 C) : Fin C → EReal := fun q => a (ix2 0 q)

/-- A rank-1 array (a bias as the whole-array program holds it) read as a row. -/
def toVec {C : ℕ} (a : (⟨1, ![C]⟩ : Shape).Idx → EReal) : Fin C → EReal := fun q => a (ix1 q)

/-- The constant one, as both programs spell it (the single-precision word of 1.0). -/
abbrev one : EReal := Ideal.ofBits .f32 0x3F800000#32

/-- The constant zero, as both programs spell it (the single-precision word of 0.0). -/
abbrev zero : EReal := Ideal.ofBits .f32 0x00000000#32

/-- Every row times the convolution weight. -/
def conv {N : ℕ} (xt : Mat N 64) (cW : Mat 64 64) : Mat N 64 := fun r q => Rows.dot (xt r) cW q

/-- The transformed state of a layer after the first: the previous state beside the embedding sums, row by row
    through the layer's affine map. -/
def transform {N : ℕ} (x ze : Mat N 64) (tW : Mat 128 64) (tb : Fin 64 → EReal) : Mat N 64 :=
  fun r q => Rows.trans (x r) (ze r) tW tb q

/-- The gated recurrent update, row by row, of the messages `mm` and the transformed state `xt`. -/
def update {N : ℕ} (mm xt : Mat N 64) (Wih : Mat 64 192) (bih : Fin 192 → EReal) (Whh : Mat 64 192)
    (bhh : Fin 192 → EReal) : Mat N 64 :=
  fun r q => Rows.gru one (mm r) (xt r) (xt r) Wih bih Whh bhh q

/-- One layer from its transformed state: convolve, pass messages along the edges (`pass`, a map on whole
    arrays), update. -/
def layerOf {N : ℕ} (pass : Arr N 64 → Arr N 64) (xt : Mat N 64) (cW : Mat 64 64) (Wih : Mat 64 192)
    (bih : Fin 192 → EReal) (Whh : Mat 64 192) (bhh : Fin 192 → EReal) : Mat N 64 :=
  update (toMat (pass (ofMat (conv xt cW)))) xt Wih bih Whh bhh

/-- A pooled perceptron, row by row. -/
def perceptron {N : ℕ} (x : Mat N 64) (W1 : Mat 64 64) (b1 : Fin 64 → EReal) (W2 : Mat 64 64)
    (b2 : Fin 64 → EReal) : Mat N 64 :=
  fun r q => Rows.mlp zero (x r) W1 b1 W2 b2 q

/-- The head, row by row: one number per graph. -/
def headOf {N : ℕ} (x : Mat N 64) (W1 : Mat 64 32) (b1 : Fin 32 → EReal) (W2 : Mat 32 16) (b2 : Fin 16 → EReal)
    (W3 : Mat 16 1) (b3 : Fin 1 → EReal) : Mat N 1 :=
  fun r q => Rows.head (x r) W1 b1 W2 b2 W3 b3 q

end Cert.Sem

end
-- ==== Proof.LibRowVec.lean ====
import Idealize.ShloMosaic.Lib.ValueLayout

/-!
# A vector staged as a one-row array

A rank-1 array of `n` entries reshaped to a `[1, n]` array holds the same entries in the same order: read at
`(0, j)` it is the vector at `j`. (Row-major positions: `0 * n + j = j`.)
-/

noncomputable section

namespace Cert.LibRowVec

open Idealize.ShloMosaic Idealize.ShloMosaic.ValueIdx

/-- A vector reshaped to one row, read at `(0, j)`, is the vector at `j`. -/
theorem shapeCast_row {α : Type} {n : ℕ} (x : (⟨1, ![n]⟩ : Shape).Idx → α)
    (h : (⟨1, ![n]⟩ : Shape).ShapeCasts ⟨2, ![1, n]⟩) (j : Fin n) :
    shapeCast (⟨2, ![1, n]⟩ : Shape) x h (ix2 0 j) = x (ix1 j) :=
  shapeCast_a_1a_apply x h 0 j

/-- The same at any index of the one-row array: its row coordinate is 0. -/
theorem shapeCast_row_idx {α : Type} {n : ℕ} (x : (⟨1, ![n]⟩ : Shape).Idx → α)
    (h : (⟨1, ![n]⟩ : Shape).ShapeCasts ⟨2, ![1, n]⟩) (i : (⟨2, ![1, n]⟩ : Shape).Idx) :
    shapeCast (⟨2, ![1, n]⟩ : Shape) x h i = x (ix1 (i 1)) := by
  rw [eq_ix2 i]
  exact shapeCast_a_1a_apply x h _ _

end Cert.LibRowVec

end
-- ==== Proof.LibRowVecSem.lean ====
import proofs.«157269_j2267742732766_1_alg».proof.Proof.Sem
import proofs.«157269_j2267742732766_1_alg».proof.Proof.LibRowVec
import proofs.«157269_j2267742732766_1_alg».proof.KernelIdeal
import Idealize.ShloMosaic.Lib.ValueLayout

/-!
# A bias staged as one row is the bias

The tiled program reshapes each bias vector to a `[1, n]` array before a region reads it; read as a row, that
array is the vector. The instances below are the five reshapes the program performs (n = 192, 64, 32, 16, 1).
-/

noncomputable section

namespace Cert.LibRowVec

open Idealize.ShloMosaic Idealize.ShloMosaic.ValueIdx

/-- A vector of extended reals reshaped to one row, read as a row, is the vector read as a row. -/
theorem toRow_shapeCast {n : ℕ} (x : (⟨1, ![n]⟩ : Shape).Idx → EReal)
    (h : (⟨1, ![n]⟩ : Shape).ShapeCasts ⟨2, ![1, n]⟩) :
    Cert.Sem.toRow (shapeCast (⟨2, ![1, n]⟩ : Shape) x h) = Cert.Sem.toVec x :=
  funext fun q => shapeCast_row x h q

example [Cert.KernelIdeal.Facts₀] (x : (⟨Cert.KernelIdeal.S192, .f32⟩ : BufTy).Contents (Elt Ideal)) (j : Fin 192) :
    shapeCast Cert.KernelIdeal.S1x192 x Cert.KernelIdeal.Facts₀.shapeCasts_S192_S1x192 (ix2 0 j) = x (ix1 j) :=
  Cert.LibRowVec.shapeCast_row x _ j
example [Cert.KernelIdeal.Facts₀] (x : (⟨Cert.KernelIdeal.S192, .f32⟩ : BufTy).Contents (Elt Ideal)) :
    Cert.Sem.toRow (shapeCast Cert.KernelIdeal.S1x192 x Cert.KernelIdeal.Facts₀.shapeCasts_S192_S1x192) = Cert.Sem.toVec x :=
  toRow_shapeCast x _
example [Cert.KernelIdeal.Facts₀] (x : (⟨Cert.KernelIdeal.S64, .f32⟩ : BufTy).Contents (Elt Ideal)) (j : Fin 64) :
    shapeCast Cert.KernelIdeal.S1x64 x Cert.KernelIdeal.Facts₀.shapeCasts_S64_S1x64 (ix2 0 j) = x (ix1 j) :=
  Cert.LibRowVec.shapeCast_row x _ j
example [Cert.KernelIdeal.Facts₀] (x : (⟨Cert.KernelIdeal.S64, .f32⟩ : BufTy).Contents (Elt Ideal)) :
    Cert.Sem.toRow (shapeCast Cert.KernelIdeal.S1x64 x Cert.KernelIdeal.Facts₀.shapeCasts_S64_S1x64) = Cert.Sem.toVec x :=
  toRow_shapeCast x _
example [Cert.KernelIdeal.Facts₀] (x : (⟨Cert.KernelIdeal.S32, .f32⟩ : BufTy).Contents (Elt Ideal)) (j : Fin 32) :
    shapeCast Cert.KernelIdeal.S1x32 x Cert.KernelIdeal.Facts₀.shapeCasts_S32_S1x32 (ix2 0 j) = x (ix1 j) :=
  Cert.LibRowVec.shapeCast_row x _ j
example [Cert.KernelIdeal.Facts₀] (x : (⟨Cert.KernelIdeal.S32, .f32⟩ : BufTy).Contents (Elt Ideal)) :
    Cert.Sem.toRow (shapeCast Cert.KernelIdeal.S1x32 x Cert.KernelIdeal.Facts₀.shapeCasts_S32_S1x32) = Cert.Sem.toVec x :=
  toRow_shapeCast x _
example [Cert.KernelIdeal.Facts₀] (x : (⟨Cert.KernelIdeal.S16, .f32⟩ : BufTy).Contents (Elt Ideal)) (j : Fin 16) :
    shapeCast Cert.KernelIdeal.S1x16 x Cert.KernelIdeal.Facts₀.shapeCasts_S16_S1x16 (ix2 0 j) = x (ix1 j) :=
  Cert.LibRowVec.shapeCast_row x _ j
example [Cert.KernelIdeal.Facts₀] (x : (⟨Cert.KernelIdeal.S16, .f32⟩ : BufTy).Contents (Elt Ideal)) :
    Cert.Sem.toRow (shapeCast Cert.KernelIdeal.S1x16 x Cert.KernelIdeal.Facts₀.shapeCasts_S16_S1x16) = Cert.Sem.toVec x :=
  toRow_shapeCast x _
example [Cert.KernelIdeal.Facts₀] (x : (⟨Cert.KernelIdeal.S1, .f32⟩ : BufTy).Contents (Elt Ideal)) (j : Fin 1) :
    shapeCast Cert.KernelIdeal.S1x1 x Cert.KernelIdeal.Facts₀.shapeCasts_S1_S1x1 (ix2 0 j) = x (ix1 j) :=
  Cert.LibRowVec.shapeCast_row x _ j
example [Cert.KernelIdeal.Facts₀] (x : (⟨Cert.KernelIdeal.S1, .f32⟩ : BufTy).Contents (Elt Ideal)) :
    Cert.Sem.toRow (shapeCast Cert.KernelIdeal.S1x1 x Cert.KernelIdeal.Facts₀.shapeCasts_S1_S1x1) = Cert.Sem.toVec x :=
  toRow_shapeCast x _

end Cert.LibRowVec

end
-- ==== Proof.LibDot.lean ====
/-
  A matrix product read at an index.

  For dimension numbers that contract the left operand's axis 1 against the right operand's axis 0, with no batch
  axes (the ordinary product of an M×K matrix with a K×N matrix), the contraction sum at the output index (r, c) is
  the sum over k of the left operand at (r, k) times the right operand at (k, c). This holds for a kernel's matrix
  unit and for the host's dot product alike: both are stated over the same dimension-number record.
-/
import Idealize.ShloMosaic.Lib.ValueIdx
import Idealize.ShloMosaic.PureOps.Ideal.Laws

noncomputable section

namespace Cert.LibDot

open Idealize.ShloMosaic Idealize.ShloMosaic.ValueIdx

/-- The contraction sum of a plain matrix product at the output index `(r, c)`. -/
theorem sum_std {M K N : ℕ} (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (w : (⟨2, ![K, N]⟩ : Shape).Idx → EReal) (r : Fin M) (c : Fin N) :
    ∑ q : d.contr.Idx, l (d.lhsIdx (ix2 r c) q) * w (d.rhsIdx (ix2 r c) q)
      = ∑ k : Fin K, l (ix2 r k) * w (ix2 k c) := by
  have hr : d.contr.rank = 1 := by rw [d.rank_contr, hlc]; rfl
  have hs : d.contr.size ⟨0, by omega⟩ = K := by
    have h := d.size_contr 0 (by rw [hlc]; exact Nat.one_pos)
    have h1 : d.lhsContracting[0]'(by rw [hlc]; exact Nat.one_pos) = (1 : Fin 2) := by simp [hlc]
    rw [h1] at h
    exact h
  -- a coordinate of an index depends on the axis's position only
  have key : ∀ (j : (⟨2, ![M, N]⟩ : Shape).Idx) (p q : Nat) (hp : p < 2) (hq : q < 2), p = q →
      (j ⟨p, hp⟩).val = (j ⟨q, hq⟩).val := fun j p q hp hq h => by subst h; rfl
  refine (Equiv.sum_comp (contrEquiv1 d K hr hs).symm _).symm.trans ?_
  refine Finset.sum_congr rfl fun k _ => ?_
  -- the left operand is read at (r, k)
  have hL : d.lhsIdx (ix2 r c) ((contrEquiv1 d K hr hs).symm k) = ix2 r k := by
    funext a
    apply Fin.ext
    match a with
    | ⟨0, h0⟩ =>
      have hb : (⟨0, h0⟩ : Fin 2) ∉ d.lhsBatch := by rw [hlb]; exact List.not_mem_nil
      have hn : (⟨0, h0⟩ : Fin 2) ∈ d.lhsNonContracting := by rw [hln]; exact List.mem_singleton.mpr rfl
      unfold DotDims.lhsIdx
      rw [dif_neg hb, dif_pos hn]
      simp only [Fin.val_cast]
      exact key (ix2 r c) _ 0 _ (by omega) (by simp [hlb, hln])
    | ⟨1, h1⟩ =>
      have h := d.lhsIdx_val_of_single hlc (ix2 r c) ((contrEquiv1 d K hr hs).symm k)
      rw [contrEquiv1_symm_val] at h
      exact h
  -- the right operand is read at (k, c)
  have hR : d.rhsIdx (ix2 r c) ((contrEquiv1 d K hr hs).symm k) = ix2 k c := by
    funext a
    apply Fin.ext
    match a with
    | ⟨0, h0⟩ =>
      have h := d.rhsIdx_val_of_single hrc (ix2 r c) ((contrEquiv1 d K hr hs).symm k)
      rw [contrEquiv1_symm_val] at h
      exact h
    | ⟨1, h1⟩ =>
      have hb : (⟨1, h1⟩ : Fin 2) ∉ d.rhsBatch := by rw [hrb]; exact List.not_mem_nil
      have hn : (⟨1, h1⟩ : Fin 2) ∈ d.rhsNonContracting := by rw [hrn]; exact List.mem_singleton.mpr rfl
      unfold DotDims.rhsIdx
      rw [dif_neg hb, dif_pos hn]
      simp only [Fin.val_cast]
      exact key (ix2 r c) _ 1 _ (by omega) (by simp [hlb, hln, hrn])
  rw [hL, hR]

end Cert.LibDot

end
-- ==== Proof.KPayM.lean ====
/-
  The perceptron bodies of the two pooling levels and the three-layer head, read at an index.

  Each of these bodies is a chain of dense stages on a tile of rows: a block product into the zero accumulator, a
  bias row broadcast over the tile's rows and added, and an elementwise nonlinearity (a maximum against zero in the
  perceptrons, the exponential linear unit in the head) before the next product. Read at the output index (r, c),
  a block product is the sum over the contracted index of row r of the left operand against column c of the right
  one, the broadcast bias is the bias row's entry c, and the narrowing number formats between stages are the identity
  on the extended reals. So the whole body at (r, c) is the row function of the specification applied to row r of the
  loaded tile, at entry c: the two-layer perceptron for the pooling levels and the three-layer head for the last
  region. The head's unit compares against the float word of zero and subtracts the float word of one; the two
  words denote the real numbers 0 and 1.
-/
import proofs.«157269_j2267742732766_1_alg».proof.Proof.Gen.KernelIdeal.Skeleton
import proofs.«157269_j2267742732766_1_alg».proof.Proof.Rows
import proofs.«157269_j2267742732766_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A block product into the zero accumulator, plus a bias row broadcast over the rows, read at `(r, c)`: the
    affine map of row `r`, at entry `c`. -/
theorem payM_lin_apply {M K N : ℕ} {φ₁ φ₂ : FTy}
    (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ φ₁) (w : FVec Ideal ⟨2, ![K, N]⟩ φ₂)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (r : Fin M) (c : Fin N) :
    addf (matmul d none l w (constant (F := Ideal) ⟨2, ![M, N]⟩ .f32 0x00000000#32))
        (broadcastTo ⟨2, ![M, N]⟩ (shapeCast ⟨2, ![1, N]⟩ b hb) hbc) (ix2 r c)
      = Cert.Rows.lin (fun k => l (ix2 r k)) (fun k n => w (ix2 k n)) (fun n => b (ix2 0 n)) c := by
  rw [shapeCast_self]
  refine (addf_apply _ _ _).trans ?_
  rw [broadcastTo_1b_ab_apply]
  refine congrArg (· + b (ix2 0 c)) ?_
  refine (Ideal.matmul_constant_zero_apply d none l w (ix2 r c)).trans ?_
  exact Cert.LibDot.sum_std d hlc hrc hln hrn hlb hrb l w r c

/-- The word `0x3F800000` read as a 32-bit float is the real number one. -/
theorem ofBits_one_f32 : Ideal.ofBits .f32 0x3F800000#32 = 1 := by
  simp [Ideal.ofBits, Ideal.ieee]
  rw [← EReal.coe_mul]
  norm_num

/-- The select of `v` where it is above zero and of `e^v - 1` elsewhere, read at an index: the exponential linear
    unit of the element. -/
theorem payM_elu_apply {s : Shape} (v : FVec Ideal s .f32) (i : s.Idx) :
    select (cmpf .ogt v (broadcast s (Scalar.ofBits (F := Ideal) .f32 0x00000000#32))) v
        (subf (exp v) (broadcast s (Scalar.ofBits (F := Ideal) .f32 0x3F800000#32))) i
      = Cert.Rows.elu (v i) := by
  show Scalar.select (Ideal.cmp .ogt (v i) (Ideal.ofBits .f32 0x00000000#32)) (v i)
      (Ideal.exp (v i) - Ideal.ofBits .f32 0x3F800000#32) = _
  rw [Ideal.ofBits_zero_f32, ofBits_one_f32]
  unfold Cert.Rows.elu
  by_cases h : 0 < v i
  · rw [if_pos h]
    have hc : Ideal.cmp .ogt (v i) 0 = 1#1 := by simp [Ideal.cmp, h]
    rw [hc, select_one]
  · rw [if_neg h]
    have hc : Ideal.cmp .ogt (v i) 0 = 0#1 := by simp [Ideal.cmp, h]
    rw [hc, select_zero]

/-- Two block products with a rectifier between them, each with its bias row, read at `(r, c)`: the two-layer
    perceptron of row `r`, at entry `c`. The number formats between the stages are the identity. -/
theorem payM_mlp_apply {M K H N : ℕ}
    (d1 : DotDims (⟨2, ![M, K]⟩ : Shape) (⟨2, ![K, H]⟩ : Shape) (⟨2, ![M, H]⟩ : Shape))
    (h1lc : d1.lhsContracting = [1]) (h1rc : d1.rhsContracting = [0])
    (h1ln : d1.lhsNonContracting = [0]) (h1rn : d1.rhsNonContracting = [1])
    (h1lb : d1.lhsBatch = []) (h1rb : d1.rhsBatch = [])
    (d2 : DotDims (⟨2, ![M, H]⟩ : Shape) (⟨2, ![H, N]⟩ : Shape) (⟨2, ![M, N]⟩ : Shape))
    (h2lc : d2.lhsContracting = [1]) (h2rc : d2.rhsContracting = [0])
    (h2ln : d2.lhsNonContracting = [0]) (h2rn : d2.rhsNonContracting = [1])
    (h2lb : d2.lhsBatch = []) (h2rb : d2.rhsBatch = [])
    (x : FVec Ideal ⟨2, ![M, K]⟩ .f32) (W1 : FVec Ideal ⟨2, ![K, H]⟩ .f32) (b1 : FVec Ideal ⟨2, ![1, H]⟩ .f32)
    (W2 : FVec Ideal ⟨2, ![H, N]⟩ .f32) (b2 : FVec Ideal ⟨2, ![1, N]⟩ .f32)
    (hx : (⟨2, ![M, K]⟩ : Shape).ShapeCasts ⟨2, ![M, K]⟩) (ht : FTy.bits .bf16 < FTy.bits .f32)
    (hb1 : (⟨2, ![1, H]⟩ : Shape).ShapeCasts ⟨2, ![1, H]⟩) (hbc1 : (⟨2, ![1, H]⟩ : Shape).Broadcasts ⟨2, ![M, H]⟩)
    (hb2 : (⟨2, ![1, N]⟩ : Shape).ShapeCasts ⟨2, ![1, N]⟩) (hbc2 : (⟨2, ![1, N]⟩ : Shape).Broadcasts ⟨2, ![M, N]⟩)
    (r : Fin M) (c : Fin N) :
    addf
        (matmul d2 none
          (truncf .bf16
            (maximumf
              (addf
                (matmul d1 none (truncf .bf16 (shapeCast ⟨2, ![M, K]⟩ x hx) ht) (truncf .bf16 W1 ht)
                  (constant (F := Ideal) ⟨2, ![M, H]⟩ .f32 0x00000000#32))
                (broadcastTo ⟨2, ![M, H]⟩ (shapeCast ⟨2, ![1, H]⟩ b1 hb1) hbc1))
              (broadcast ⟨2, ![M, H]⟩ (Scalar.ofBits (F := Ideal) .f32 0x00000000#32)))
            ht)
          (truncf .bf16 W2 ht) (constant (F := Ideal) ⟨2, ![M, N]⟩ .f32 0x00000000#32))
        (broadcastTo ⟨2, ![M, N]⟩ (shapeCast ⟨2, ![1, N]⟩ b2 hb2) hbc2) (ix2 r c)
      = Cert.Rows.mlp (Ideal.ofBits .f32 0x00000000#32) (fun k => x (ix2 r k)) (fun k n => W1 (ix2 k n))
          (fun n => b1 (ix2 0 n)) (fun k n => W2 (ix2 k n)) (fun n => b2 (ix2 0 n)) c := by
  refine (payM_lin_apply d2 h2lc h2rc h2ln h2rn h2lb h2rb _ _ b2 hb2 hbc2 r c).trans ?_
  unfold Cert.Rows.mlp
  refine congrArg (fun f => Cert.Rows.lin f (fun k n => W2 (ix2 k n)) (fun n => b2 (ix2 0 n)) c) (funext fun k => ?_)
  refine (truncf_apply (φ := .f32) (ψ := .bf16) _ ht _).trans ?_
  refine (maximumf_apply (φ := .f32) _ _ _).trans ?_
  refine congrArg (fun t => max t (Ideal.ofBits .f32 0x00000000#32)) ?_
  refine (payM_lin_apply d1 h1lc h1rc h1ln h1rn h1lb h1rb _ _ b1 hb1 hbc1 r k).trans ?_
  rw [shapeCast_self]
  rfl

/-- The body of the first pooling level's perceptron at `(r, c)`: the two-layer perceptron of row `r` of the tile. -/
theorem k10_pay1_apply (v0 : Vec Ideal S4000x64 .f32) (v3 v13 : Vec Ideal S64x64 .f32) (v6 v16 : Vec Ideal S1x64 .f32)
    (r : Fin 4000) (c : Fin 64) :
    k10_pay1 (F := Ideal) v0 v3 v6 v13 v16 (ix2 r c)
      = Cert.Rows.mlp (Ideal.ofBits .f32 0x00000000#32) (fun k => v0 (ix2 r k)) (fun k n => v3 (ix2 k n))
          (fun n => v6 (ix2 0 n)) (fun k n => v13 (ix2 k n)) (fun n => v16 (ix2 0 n)) c := by
  unfold k10_pay1
  exact payM_mlp_apply dot_S4000x64_S64x64_S4000x64_1_0_0_1_n_n rfl rfl rfl rfl rfl rfl
    dot_S4000x64_S64x64_S4000x64_1_0_0_1_n_n rfl rfl rfl rfl rfl rfl v0 v3 v6 v13 v16 _ _ _ _ _ _ r c

/-- The body of the second pooling level's perceptron at `(r, c)`: the two-layer perceptron of row `r` of the tile. -/
theorem k11_pay1_apply (v0 : Vec Ideal S2000x64 .f32) (v3 v13 : Vec Ideal S64x64 .f32) (v6 v16 : Vec Ideal S1x64 .f32)
    (r : Fin 2000) (c : Fin 64) :
    k11_pay1 (F := Ideal) v0 v3 v6 v13 v16 (ix2 r c)
      = Cert.Rows.mlp (Ideal.ofBits .f32 0x00000000#32) (fun k => v0 (ix2 r k)) (fun k n => v3 (ix2 k n))
          (fun n => v6 (ix2 0 n)) (fun k n => v13 (ix2 k n)) (fun n => v16 (ix2 0 n)) c := by
  unfold k11_pay1
  exact payM_mlp_apply dot_S2000x64_S64x64_S2000x64_1_0_0_1_n_n rfl rfl rfl rfl rfl rfl
    dot_S2000x64_S64x64_S2000x64_1_0_0_1_n_n rfl rfl rfl rfl rfl rfl v0 v3 v6 v13 v16 _ _ _ _ _ _ r c

/-- The head's body at `(r, c)`: two exponential-linear layers and a last affine one, on row `r`. -/
theorem k12_pay1_apply (v0 : Vec Ideal S64x64 .f32) (v3 : Vec Ideal S64x32 .f32) (v6 : Vec Ideal S1x32 .f32)
    (v17 : Vec Ideal S32x16 .f32) (v20 : Vec Ideal S1x16 .f32) (v31 : Vec Ideal S16x1 .f32) (v34 : Vec Ideal S1x1 .f32)
    (r : Fin 64) (c : Fin 1) :
    k12_pay1 (F := Ideal) v0 v3 v6 v17 v20 v31 v34 (ix2 r c)
      = Cert.Rows.head (fun k => v0 (ix2 r k)) (fun k n => v3 (ix2 k n)) (fun n => v6 (ix2 0 n))
          (fun k n => v17 (ix2 k n)) (fun n => v20 (ix2 0 n)) (fun k n => v31 (ix2 k n)) (fun n => v34 (ix2 0 n)) c := by
  unfold k12_pay1
  refine (payM_lin_apply dot_S64x16_S16x1_S64x1_1_0_0_1_n_n rfl rfl rfl rfl rfl rfl _ _ v34 _ _ r c).trans ?_
  unfold Cert.Rows.head
  refine congrArg (fun f => Cert.Rows.lin f (fun k n => v31 (ix2 k n)) (fun n => v34 (ix2 0 n)) c) (funext fun k => ?_)
  refine (truncf_apply (φ := .f32) (ψ := .bf16) _ bitsLt_bf16_f32 _).trans ?_
  refine (payM_elu_apply _ (ix2 r k)).trans (congrArg Cert.Rows.elu ?_)
  refine (payM_lin_apply dot_S64x32_S32x16_S64x16_1_0_0_1_n_n rfl rfl rfl rfl rfl rfl _ _ v20 _ _ r k).trans ?_
  refine congrArg (fun f => Cert.Rows.lin f (fun k n => v17 (ix2 k n)) (fun n => v20 (ix2 0 n)) k) (funext fun j => ?_)
  refine (truncf_apply (φ := .f32) (ψ := .bf16) _ bitsLt_bf16_f32 _).trans ?_
  refine (payM_elu_apply _ (ix2 r j)).trans (congrArg Cert.Rows.elu ?_)
  refine (payM_lin_apply dot_S64x64_S64x32_S64x32_1_0_0_1_n_n rfl rfl rfl rfl rfl rfl _ _ v6 _ _ r j).trans ?_
  rw [shapeCast_self]
  rfl

end Cert.KernelIdeal.Pay

end
-- ==== Proof.KReg10.lean ====
/-
  The first pooled perceptron's region: what it leaves in its output array.

  The region's grid has five points. At point `t` the rows' window and the output window take block `t` of 4000 rows of
  their 20000 × 64 arrays; the two weight matrices and the two bias rows are whole arrays at block index zero. The
  body loads its five buffers whole, computes one value per output element, and stores it over the whole output
  buffer; that value at `(p, q)` is the two-layer perceptron of row `p` of the rows' block. An element of a block sits in
  its array, on each axis, at block index × block size + its own coordinate, so row `p` of block `t` is row
  `4000 t + p` of the array, on the input side and on the output side alike: point `t` writes back block `t` of the
  perceptron's rows. Row `r` lies in the block of point `r / 4000`, so the five blocks cover the output array, and the
  array after the region is, entry by entry, the perceptron of the rows of the arrays the region found on entry.
-/
import proofs.«157269_j2267742732766_1_alg».proof.Proof.Gen.KernelIdeal.Frame
import proofs.«157269_j2267742732766_1_alg».proof.Proof.Rows
import proofs.«157269_j2267742732766_1_alg».proof.Proof.KPayM
import Idealize.ShloMosaic.Lib.Pipeline.Value
import Idealize.ShloMosaic.Lib.ValueIdx

set_option maxRecDepth 16384

noncomputable section

namespace Cert.KernelIdeal.Reg10

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The two zero offsets of a whole-buffer access are the constant zero function. -/
theorem hz : (![0, 0] : Fin 2 → Nat) = fun _ => 0 := funext fun a => by fin_cases a <;> rfl

/-- Entry `(r, q)` of the two-layer perceptron applied to the arrays the region finds on entry: row `r` of the pooled
    features through the first affine layer, the rectifier, and the second affine layer. -/
def row (c : Dev nD) (r : Fin 20000) (q : Fin 64) : EReal :=
  Cert.Rows.mlp (Ideal.ofBits .f32 0x00000000#32) (fun k => V c main_v166 (ix2 r k)) (fun k n => V c main_arg13 (ix2 k n))
    (fun n => V c main_v167 (ix2 0 n)) (fun k n => V c main_arg15 (ix2 k n)) (fun n => V c main_v168 (ix2 0 n)) q

/-- The printed index maps over the five grid points: the row windows (input 0 and the output) take block `t` of rows at
    point `t` and the one block of columns; the weights and biases are whole arrays at block index zero. -/
theorem idx_facts : ∀ t : Fin cfg10.N,
    (win10_0.index t (0 : Fin 2) = t.val ∧ win10_0.index t (1 : Fin 2) = 0)
    ∧ (win10_1.index t (0 : Fin 2) = 0 ∧ win10_1.index t (1 : Fin 2) = 0)
    ∧ (win10_2.index t (0 : Fin 2) = 0 ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = t.val ∧ win10_5.index t (1 : Fin 2) = 0) :=
  (by decide +kernel : ∀ t : Fin grid10.N, _)

/-! ## The input blocks read off their arrays

A block's element sits in the array, on each axis, at block index × block size + its own coordinate. -/

/-- Row `p` of the rows' block at point `t` is row `4000 t + p` of the array. -/
theorem blk0 (c : Dev nD) (t : Fin cfg10.N) (p : Fin 4000) (r : Fin 20000) (hr : r.val = t.val * 4000 + p.val) (k : Fin 64) :
    iblk10 V c 0 t (ix2 p k) = V c main_v166 (ix2 r k) := by
  obtain ⟨⟨e0, e1⟩, -⟩ := idx_facts t
  show V c main_v166 (((cfg10.win 0).blk t).view.emb (ix2 p k)) = V c main_v166 (ix2 r k)
  refine congrArg (V c main_v166 : S20000x64.Idx → Elt Ideal .f32) (funext fun a => Fin.ext ?_)
  match a with
  | ⟨0, _⟩ => show win10_0.index t (0 : Fin 2) * 4000 + 1 * p.val = r.val; omega
  | ⟨1, _⟩ => show win10_0.index t (1 : Fin 2) * 64 + 1 * k.val = k.val; omega

theorem blk1 (c : Dev nD) (t : Fin cfg10.N) (y : S64x64.Idx) : iblk10 V c 1 t y = V c main_arg13 y := by
  obtain ⟨-, ⟨e0, e1⟩, -⟩ := idx_facts t
  show V c main_arg13 (((cfg10.win 1).blk t).view.emb y) = V c main_arg13 y
  refine congrArg (V c main_arg13 : S64x64.Idx → Elt Ideal .f32) (funext fun a => Fin.ext ?_)
  match a with
  | ⟨0, _⟩ => show win10_1.index t (0 : Fin 2) * 64 + 1 * (y 0).val = (y 0).val; omega
  | ⟨1, _⟩ => show win10_1.index t (1 : Fin 2) * 64 + 1 * (y 1).val = (y 1).val; omega

theorem blk2 (c : Dev nD) (t : Fin cfg10.N) (y : S1x64.Idx) : iblk10 V c 2 t y = V c main_v167 y := by
  obtain ⟨-, -, ⟨e0, e1⟩, -⟩ := idx_facts t
  show V c main_v167 (((cfg10.win 2).blk t).view.emb y) = V c main_v167 y
  refine congrArg (V c main_v167 : S1x64.Idx → Elt Ideal .f32) (funext fun a => Fin.ext ?_)
  match a with
  | ⟨0, _⟩ => show win10_2.index t (0 : Fin 2) * 1 + 1 * (y 0).val = (y 0).val; omega
  | ⟨1, _⟩ => show win10_2.index t (1 : Fin 2) * 64 + 1 * (y 1).val = (y 1).val; omega

theorem blk3 (c : Dev nD) (t : Fin cfg10.N) (y : S64x64.Idx) : iblk10 V c 3 t y = V c main_arg15 y := by
  obtain ⟨-, -, -, ⟨e0, e1⟩, -⟩ := idx_facts t
  show V c main_arg15 (((cfg10.win 3).blk t).view.emb y) = V c main_arg15 y
  refine congrArg (V c main_arg15 : S64x64.Idx → Elt Ideal .f32) (funext fun a => Fin.ext ?_)
  match a with
  | ⟨0, _⟩ => show win10_3.index t (0 : Fin 2) * 64 + 1 * (y 0).val = (y 0).val; omega
  | ⟨1, _⟩ => show win10_3.index t (1 : Fin 2) * 64 + 1 * (y 1).val = (y 1).val; omega

theorem blk4 (c : Dev nD) (t : Fin cfg10.N) (y : S1x64.Idx) : iblk10 V c 4 t y = V c main_v168 y := by
  obtain ⟨-, -, -, -, ⟨e0, e1⟩, -⟩ := idx_facts t
  show V c main_v168 (((cfg10.win 4).blk t).view.emb y) = V c main_v168 y
  refine congrArg (V c main_v168 : S1x64.Idx → Elt Ideal .f32) (funext fun a => Fin.ext ?_)
  match a with
  | ⟨0, _⟩ => show win10_4.index t (0 : Fin 2) * 1 + 1 * (y 0).val = (y 0).val; omega
  | ⟨1, _⟩ => show win10_4.index t (1 : Fin 2) * 64 + 1 * (y 1).val = (y 1).val; omega

/-! ## The body's result at an index, over the arrays -/

/-- The body's result at block index `j`, when row `j 0` of its first operand is the row `x`, its other four operands
    agree entry by entry with four arrays, and `q` is `j`'s column: the perceptron of `x` at column `q`. -/
theorem pay_rows (v0 : Vec Ideal S4000x64 .f32) (v3 : Vec Ideal S64x64 .f32) (v6 : Vec Ideal S1x64 .f32)
    (v13 : Vec Ideal S64x64 .f32) (v16 : Vec Ideal S1x64 .f32)
    (x : Fin 64 → EReal) (A1 : Vec Ideal S64x64 .f32) (A2 : Vec Ideal S1x64 .f32)
    (A3 : Vec Ideal S64x64 .f32) (A4 : Vec Ideal S1x64 .f32)
    (j : S4000x64.Idx) (q : Fin 64)
    (h0 : ∀ k : Fin 64, v0 (ix2 (j 0) k) = x k) (h1 : ∀ y, v3 y = A1 y) (h2 : ∀ y, v6 y = A2 y)
    (h3 : ∀ y, v13 y = A3 y) (h4 : ∀ y, v16 y = A4 y) (hq : q.val = (j 1).val) :
    k10_pay1 (F := Ideal) v0 v3 v6 v13 v16 j
      = Cert.Rows.mlp (Ideal.ofBits .f32 0x00000000#32) x (fun k n => A1 (ix2 k n)) (fun n => A2 (ix2 0 n))
          (fun k n => A3 (ix2 k n)) (fun n => A4 (ix2 0 n)) q := by
  obtain rfl : v3 = A1 := funext h1
  obtain rfl : v6 = A2 := funext h2
  obtain rfl : v13 = A3 := funext h3
  obtain rfl : v16 = A4 := funext h4
  obtain ⟨p, q', rfl⟩ : ∃ (p : Fin 4000) (q' : Fin 64), j = ix2 p q' := ⟨j 0, j 1, eq_ix2 j⟩
  obtain rfl : q = q' := Fin.ext hq
  obtain rfl : (fun k => v0 (ix2 p k)) = x := funext h0
  exact Pay.k10_pay1_apply v0 v3 v13 v6 v16 p q

/-! ## What each point writes back, and the array the five points leave -/

/-- Point `t` writes back block `t` of the perceptron's rows: the body's single store covers its staging buffer, its
    loads read whole buffers, and the output's block `t` sits in the array at rows `4000 t …`. -/
theorem flushed_eq (c : Dev nD) (t : Fin cfg10.N) :
    (dat10 V c).flushed 5 t = ((cfg10.win 5).blk t).view.read (Elt Ideal) (fun i : S20000x64.Idx => row V c (i 0) (i 1)) := by
  show (cfg10.win 5).cut (grid10.coords t) ((dat10 V c).after 5 t) = _
  rw [after10_5]
  unfold out10_5
  rw [View.canon_unit_zero hz]
  simp only [View.ld_unit_zero (S := S4000x64) hz, View.ld_unit_zero (S := S64x64) hz, View.ld_unit_zero (S := S1x64) hz]
  obtain ⟨-, -, -, -, -, e0, e1⟩ := idx_facts t
  funext j
  show k10_pay1 (F := Ideal) (iblk10 V c 0 t) (iblk10 V c 1 t) (iblk10 V c 2 t) (iblk10 V c 3 t) (iblk10 V c 4 t) j
    = row V c ((((cfg10.win 5).blk t).view.emb j) 0) ((((cfg10.win 5).blk t).view.emb j) 1)
  exact pay_rows (iblk10 V c 0 t) (iblk10 V c 1 t) (iblk10 V c 2 t) (iblk10 V c 3 t) (iblk10 V c 4 t)
    (fun k => V c main_v166 (ix2 ((((cfg10.win 5).blk t).view.emb j) 0) k)) (V c main_arg13) (V c main_v167)
    (V c main_arg15) (V c main_v168) j ((((cfg10.win 5).blk t).view.emb j) 1)
    (fun k => blk0 V c t (j 0) ((((cfg10.win 5).blk t).view.emb j) 0)
      (by show win10_5.index t (0 : Fin 2) * 4000 + 1 * (j 0).val = t.val * 4000 + (j 0).val; omega) k)
    (blk1 V c t) (blk2 V c t) (blk3 V c t) (blk4 V c t)
    (by show win10_5.index t (1 : Fin 2) * 64 + 1 * (j 1).val = (j 1).val; omega)

/-- An index of the output array is in point `t`'s block iff each coordinate is in the block's range on its axis. -/
theorem mem_blk (t : Fin cfg10.N) (i : S20000x64.Idx) :
    i ∈ ((cfg10.win 5).blk t).view.set ↔ ∀ a : Fin 2, win10_5.index t a * S4000x64.size a ≤ (i a).val ∧ (i a).val < win10_5.index t a * S4000x64.size a + S4000x64.size a := by
  show i ∈ ((View.whole main_v169).slice (win10_5.rect t)).set ↔ _
  rw [View.set_slice_whole, Rect.mem_set_unit]
  exact Iff.rfl

/-- Row `r` of the output array lies in the block of point `r / 4000`: the five blocks of 4000 rows tile the 20000. -/
theorem cover (i : S20000x64.Idx) : ∃ t : Fin cfg10.N, (cfg10.win 5).flush t = true ∧ i ∈ ((cfg10.win 5).blk t).view.set := by
  have hN : cfg10.N = 5 := N_10
  have h0 : (i 0).val < 20000 := idx2_lt0 i
  have h1 : (i 1).val < 64 := idx2_lt1 i
  have hlt : (i 0).val / 4000 < cfg10.N := by rw [hN]; omega
  refine ⟨⟨(i 0).val / 4000, hlt⟩, flush10_5 _, ?_⟩
  rw [mem_blk]
  obtain ⟨-, -, -, -, -, e0, e1⟩ := idx_facts ⟨(i 0).val / 4000, hlt⟩
  have e0' : win10_5.index ⟨(i 0).val / 4000, hlt⟩ (0 : Fin 2) = (i 0).val / 4000 := e0
  intro a
  match a with
  | ⟨0, _⟩ => show win10_5.index ⟨(i 0).val / 4000, hlt⟩ (0 : Fin 2) * 4000 ≤ (i 0).val ∧ (i 0).val < win10_5.index ⟨(i 0).val / 4000, hlt⟩ (0 : Fin 2) * 4000 + 4000; omega
  | ⟨1, _⟩ => show win10_5.index ⟨(i 0).val / 4000, hlt⟩ (1 : Fin 2) * 64 ≤ (i 1).val ∧ (i 1).val < win10_5.index ⟨(i 0).val / 4000, hlt⟩ (1 : Fin 2) * 64 + 64; omega

/-- The output array after the region: the perceptron's rows, entry by entry. -/
theorem arr_eq (c : Dev nD) : (dat10 V c).arrAt 5 cfg10.N = (fun i : S20000x64.Idx => row V c (i 0) (i 1)) :=
  (dat10 V c).arrAt_eq_of_cover 5 _ (fun t _ => flushed_eq V c t) cover

/-- Entry `(r, q)` of the output array after the region is the perceptron of row `r` of the pooled features. -/
theorem out5 (c : Dev nD) (r : Fin 20000) (q : Fin 64) :
    (dat10 V c).arrAt 5 cfg10.N (ix2 r q)
      = Cert.Rows.mlp (Ideal.ofBits .f32 0x00000000#32) (fun k => V c main_v166 (ix2 r k)) (fun k n => V c main_arg13 (ix2 k n))
          (fun n => V c main_v167 (ix2 0 n)) (fun k n => V c main_arg15 (ix2 k n)) (fun n => V c main_v168 (ix2 0 n)) q :=
  congrFun (arr_eq V c) (ix2 r q)

end Cert.KernelIdeal.Reg10

end
-- ==== Proof.KReg11.lean ====
/-
  The second pooled perceptron's region: what it leaves in its output array.

  The region's grid has one point and each of its six windows takes its whole array as its one block, at block index
  zero. The body loads the five input buffers whole, computes one value per output element, and stores it over the
  whole output buffer; that value at `(r, q)` is the two-layer perceptron of row `r` of the first input. Since an
  element of a block at index zero sits in its array at its own coordinates, every input block is its array, the one
  block written back is the perceptron's rows, and that block covers the 2000 × 64 output array. So the array after
  the region is, entry by entry, the perceptron of the rows of the arrays the region found on entry.
-/
import proofs.«157269_j2267742732766_1_alg».proof.Proof.Gen.KernelIdeal.Frame
import proofs.«157269_j2267742732766_1_alg».proof.Proof.Rows
import proofs.«157269_j2267742732766_1_alg».proof.Proof.KPayM
import Idealize.ShloMosaic.Lib.Pipeline.Value
import Idealize.ShloMosaic.Lib.ValueIdx

set_option maxRecDepth 16384

noncomputable section

namespace Cert.KernelIdeal.Reg11

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The two zero offsets of a whole-buffer access are the constant zero function. -/
theorem hz : (![0, 0] : Fin 2 → Nat) = fun _ => 0 := funext fun a => by fin_cases a <;> rfl

/-- Entry `(r, q)` of the two-layer perceptron applied to the arrays the region finds on entry: row `r` of the pooled
    features through the first affine layer, the rectifier, and the second affine layer. -/
def row (c : Dev nD) (r : Fin 2000) (q : Fin 64) : EReal :=
  Cert.Rows.mlp (Ideal.ofBits .f32 0x00000000#32) (fun k => V c main_v172 (ix2 r k)) (fun k n => V c main_arg17 (ix2 k n))
    (fun n => V c main_v173 (ix2 0 n)) (fun k n => V c main_arg19 (ix2 k n)) (fun n => V c main_v174 (ix2 0 n)) q

/-- The grid has one point and every window's block is its whole array: every block index is zero on both axes. -/
theorem idx_facts : ∀ t : Fin cfg11.N,
    (win11_0.index t (0 : Fin 2) = 0 ∧ win11_0.index t (1 : Fin 2) = 0)
    ∧ (win11_1.index t (0 : Fin 2) = 0 ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = 0 ∧ win11_5.index t (1 : Fin 2) = 0) :=
  (by decide +kernel : ∀ t : Fin grid11.N, _)

/-! ## Each input block is its whole array

A block's element sits in the array, on each axis, at block index × block size + its own coordinate; with the block
index zero that is the coordinate itself. -/

theorem blk0 (c : Dev nD) (t : Fin cfg11.N) (y : S2000x64.Idx) : iblk11 V c 0 t y = V c main_v172 y := by
  obtain ⟨⟨e0, e1⟩, -⟩ := idx_facts t
  show V c main_v172 (((cfg11.win 0).blk t).view.emb y) = V c main_v172 y
  refine congrArg (V c main_v172 : S2000x64.Idx → Elt Ideal .f32) (funext fun a => Fin.ext ?_)
  match a with
  | ⟨0, _⟩ => show win11_0.index t (0 : Fin 2) * 2000 + 1 * (y 0).val = (y 0).val; omega
  | ⟨1, _⟩ => show win11_0.index t (1 : Fin 2) * 64 + 1 * (y 1).val = (y 1).val; omega

theorem blk1 (c : Dev nD) (t : Fin cfg11.N) (y : S64x64.Idx) : iblk11 V c 1 t y = V c main_arg17 y := by
  obtain ⟨-, ⟨e0, e1⟩, -⟩ := idx_facts t
  show V c main_arg17 (((cfg11.win 1).blk t).view.emb y) = V c main_arg17 y
  refine congrArg (V c main_arg17 : S64x64.Idx → Elt Ideal .f32) (funext fun a => Fin.ext ?_)
  match a with
  | ⟨0, _⟩ => show win11_1.index t (0 : Fin 2) * 64 + 1 * (y 0).val = (y 0).val; omega
  | ⟨1, _⟩ => show win11_1.index t (1 : Fin 2) * 64 + 1 * (y 1).val = (y 1).val; omega

theorem blk2 (c : Dev nD) (t : Fin cfg11.N) (y : S1x64.Idx) : iblk11 V c 2 t y = V c main_v173 y := by
  obtain ⟨-, -, ⟨e0, e1⟩, -⟩ := idx_facts t
  show V c main_v173 (((cfg11.win 2).blk t).view.emb y) = V c main_v173 y
  refine congrArg (V c main_v173 : S1x64.Idx → Elt Ideal .f32) (funext fun a => Fin.ext ?_)
  match a with
  | ⟨0, _⟩ => show win11_2.index t (0 : Fin 2) * 1 + 1 * (y 0).val = (y 0).val; omega
  | ⟨1, _⟩ => show win11_2.index t (1 : Fin 2) * 64 + 1 * (y 1).val = (y 1).val; omega

theorem blk3 (c : Dev nD) (t : Fin cfg11.N) (y : S64x64.Idx) : iblk11 V c 3 t y = V c main_arg19 y := by
  obtain ⟨-, -, -, ⟨e0, e1⟩, -⟩ := idx_facts t
  show V c main_arg19 (((cfg11.win 3).blk t).view.emb y) = V c main_arg19 y
  refine congrArg (V c main_arg19 : S64x64.Idx → Elt Ideal .f32) (funext fun a => Fin.ext ?_)
  match a with
  | ⟨0, _⟩ => show win11_3.index t (0 : Fin 2) * 64 + 1 * (y 0).val = (y 0).val; omega
  | ⟨1, _⟩ => show win11_3.index t (1 : Fin 2) * 64 + 1 * (y 1).val = (y 1).val; omega

theorem blk4 (c : Dev nD) (t : Fin cfg11.N) (y : S1x64.Idx) : iblk11 V c 4 t y = V c main_v174 y := by
  obtain ⟨-, -, -, -, ⟨e0, e1⟩, -⟩ := idx_facts t
  show V c main_v174 (((cfg11.win 4).blk t).view.emb y) = V c main_v174 y
  refine congrArg (V c main_v174 : S1x64.Idx → Elt Ideal .f32) (funext fun a => Fin.ext ?_)
  match a with
  | ⟨0, _⟩ => show win11_4.index t (0 : Fin 2) * 1 + 1 * (y 0).val = (y 0).val; omega
  | ⟨1, _⟩ => show win11_4.index t (1 : Fin 2) * 64 + 1 * (y 1).val = (y 1).val; omega

/-! ## The body's result at an index, over the arrays -/

/-- The body's result at block index `j`, when its five operands agree entry by entry with five arrays and `i` has
    `j`'s coordinates: the perceptron of row `i 0` of the first array, at column `i 1`. -/
theorem pay_rows (v0 : Vec Ideal S2000x64 .f32) (v3 : Vec Ideal S64x64 .f32) (v6 : Vec Ideal S1x64 .f32)
    (v13 : Vec Ideal S64x64 .f32) (v16 : Vec Ideal S1x64 .f32)
    (A0 : Vec Ideal S2000x64 .f32) (A1 : Vec Ideal S64x64 .f32) (A2 : Vec Ideal S1x64 .f32)
    (A3 : Vec Ideal S64x64 .f32) (A4 : Vec Ideal S1x64 .f32)
    (h0 : ∀ y, v0 y = A0 y) (h1 : ∀ y, v3 y = A1 y) (h2 : ∀ y, v6 y = A2 y) (h3 : ∀ y, v13 y = A3 y)
    (h4 : ∀ y, v16 y = A4 y)
    (j i : S2000x64.Idx) (hi0 : (i 0).val = (j 0).val) (hi1 : (i 1).val = (j 1).val) :
    k11_pay1 (F := Ideal) v0 v3 v6 v13 v16 j
      = Cert.Rows.mlp (Ideal.ofBits .f32 0x00000000#32) (fun k => A0 (ix2 (i 0) k)) (fun k n => A1 (ix2 k n))
          (fun n => A2 (ix2 0 n)) (fun k n => A3 (ix2 k n)) (fun n => A4 (ix2 0 n)) (i 1) := by
  obtain rfl : v0 = A0 := funext h0
  obtain rfl : v3 = A1 := funext h1
  obtain rfl : v6 = A2 := funext h2
  obtain rfl : v13 = A3 := funext h3
  obtain rfl : v16 = A4 := funext h4
  obtain rfl : i = j := funext fun a => Fin.ext (by
    match a with
    | ⟨0, _⟩ => exact hi0
    | ⟨1, _⟩ => exact hi1)
  obtain ⟨p, q, rfl⟩ : ∃ (p : Fin 2000) (q : Fin 64), i = ix2 p q := ⟨i 0, i 1, eq_ix2 i⟩
  exact Pay.k11_pay1_apply v0 v3 v13 v6 v16 p q

/-! ## What the one point writes back, and the array it leaves -/

/-- The one point writes back the block of the perceptron's rows: the body's single store covers its staging buffer, its
    loads read whole buffers, and the output block sits in the array at its own coordinates. -/
theorem flushed_eq (c : Dev nD) (t : Fin cfg11.N) :
    (dat11 V c).flushed 5 t = ((cfg11.win 5).blk t).view.read (Elt Ideal) (fun i : S2000x64.Idx => row V c (i 0) (i 1)) := by
  show (cfg11.win 5).cut (grid11.coords t) ((dat11 V c).after 5 t) = _
  rw [after11_5]
  unfold out11_5
  rw [View.canon_unit_zero hz]
  simp only [View.ld_unit_zero (S := S2000x64) hz, View.ld_unit_zero (S := S64x64) hz, View.ld_unit_zero (S := S1x64) hz]
  obtain ⟨-, -, -, -, -, e0, e1⟩ := idx_facts t
  funext j
  show k11_pay1 (F := Ideal) (iblk11 V c 0 t) (iblk11 V c 1 t) (iblk11 V c 2 t) (iblk11 V c 3 t) (iblk11 V c 4 t) j
    = row V c ((((cfg11.win 5).blk t).view.emb j) 0) ((((cfg11.win 5).blk t).view.emb j) 1)
  exact pay_rows (iblk11 V c 0 t) (iblk11 V c 1 t) (iblk11 V c 2 t) (iblk11 V c 3 t) (iblk11 V c 4 t)
    (V c main_v172) (V c main_arg17) (V c main_v173) (V c main_arg19) (V c main_v174)
    (blk0 V c t) (blk1 V c t) (blk2 V c t) (blk3 V c t) (blk4 V c t) j (((cfg11.win 5).blk t).view.emb j)
    (by show win11_5.index t (0 : Fin 2) * 2000 + 1 * (j 0).val = (j 0).val; omega)
    (by show win11_5.index t (1 : Fin 2) * 64 + 1 * (j 1).val = (j 1).val; omega)

/-- An index of the output array is in the point's block iff each coordinate is in the block's range on its axis. -/
theorem mem_blk (t : Fin cfg11.N) (i : S2000x64.Idx) :
    i ∈ ((cfg11.win 5).blk t).view.set ↔ ∀ a : Fin 2, win11_5.index t a * S2000x64.size a ≤ (i a).val ∧ (i a).val < win11_5.index t a * S2000x64.size a + S2000x64.size a := by
  show i ∈ ((View.whole main_v175).slice (win11_5.rect t)).set ↔ _
  rw [View.set_slice_whole, Rect.mem_set_unit]
  exact Iff.rfl

/-- The one point's block is the whole output array. -/
theorem cover (i : S2000x64.Idx) : ∃ t : Fin cfg11.N, (cfg11.win 5).flush t = true ∧ i ∈ ((cfg11.win 5).blk t).view.set := by
  refine ⟨t11_0, flush11_5 t11_0, ?_⟩
  rw [mem_blk]
  obtain ⟨-, -, -, -, -, e0, e1⟩ := idx_facts t11_0
  have h0 : (i 0).val < 2000 := idx2_lt0 i
  have h1 : (i 1).val < 64 := idx2_lt1 i
  intro a
  match a with
  | ⟨0, _⟩ => show win11_5.index t11_0 (0 : Fin 2) * 2000 ≤ (i 0).val ∧ (i 0).val < win11_5.index t11_0 (0 : Fin 2) * 2000 + 2000; omega
  | ⟨1, _⟩ => show win11_5.index t11_0 (1 : Fin 2) * 64 ≤ (i 1).val ∧ (i 1).val < win11_5.index t11_0 (1 : Fin 2) * 64 + 64; omega

/-- The output array after the region: the perceptron's rows, entry by entry. -/
theorem arr_eq (c : Dev nD) : (dat11 V c).arrAt 5 cfg11.N = (fun i : S2000x64.Idx => row V c (i 0) (i 1)) :=
  (dat11 V c).arrAt_eq_of_cover 5 _ (fun t _ => flushed_eq V c t) cover

/-- Entry `(r, q)` of the output array after the region is the perceptron of row `r` of the pooled features. -/
theorem out5 (c : Dev nD) (r : Fin 2000) (q : Fin 64) :
    (dat11 V c).arrAt 5 cfg11.N (ix2 r q)
      = Cert.Rows.mlp (Ideal.ofBits .f32 0x00000000#32) (fun k => V c main_v172 (ix2 r k)) (fun k n => V c main_arg17 (ix2 k n))
          (fun n => V c main_v173 (ix2 0 n)) (fun k n => V c main_arg19 (ix2 k n)) (fun n => V c main_v174 (ix2 0 n)) q :=
  congrFun (arr_eq V c) (ix2 r q)

end Cert.KernelIdeal.Reg11

end
-- ==== Proof.KReg12.lean ====
/-
  The head's region: what it leaves in its output array.

  The region's grid has one point and each of its eight windows takes its whole array as its one block, at block
  index zero. The body loads the seven input buffers whole, computes one value per output element, and stores it
  over the whole output buffer; that value at `(r, q)` is the three-layer head of row `r` of the first input. Since an
  element of a block at index zero sits in its array at its own coordinates, every input block is its array, the one
  block written back is the head's rows, and that block covers the 64 × 1 output array. So the array after the
  region is, entry by entry, the head of the rows of the arrays the region found on entry.
-/
import proofs.«157269_j2267742732766_1_alg».proof.Proof.Gen.KernelIdeal.Frame
import proofs.«157269_j2267742732766_1_alg».proof.Proof.Rows
import proofs.«157269_j2267742732766_1_alg».proof.Proof.KPayM
import Idealize.ShloMosaic.Lib.Pipeline.Value
import Idealize.ShloMosaic.Lib.ValueIdx

set_option maxRecDepth 16384

noncomputable section

namespace Cert.KernelIdeal.Reg12

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The two zero offsets of a whole-buffer access are the constant zero function. -/
theorem hz : (![0, 0] : Fin 2 → Nat) = fun _ => 0 := funext fun a => by fin_cases a <;> rfl

/-- Entry `(r, q)` of the head applied to the arrays the region finds on entry: row `r` of the pooled features
    through the three affine layers, the first two followed by the exponential linear unit. -/
def row (c : Dev nD) (r : Fin 64) (q : Fin 1) : EReal :=
  Cert.Rows.head (fun k => V c main_v178 (ix2 r k)) (fun k n => V c main_arg21 (ix2 k n)) (fun n => V c main_v179 (ix2 0 n))
    (fun k n => V c main_arg23 (ix2 k n)) (fun n => V c main_v180 (ix2 0 n)) (fun k n => V c main_arg25 (ix2 k n))
    (fun n => V c main_v181 (ix2 0 n)) q

/-- The grid has one point and every window's block is its whole array: every block index is zero on both axes. -/
theorem idx_facts : ∀ t : Fin cfg12.N,
    (win12_0.index t (0 : Fin 2) = 0 ∧ win12_0.index t (1 : Fin 2) = 0)
    ∧ (win12_1.index t (0 : Fin 2) = 0 ∧ win12_1.index t (1 : Fin 2) = 0)
    ∧ (win12_2.index t (0 : Fin 2) = 0 ∧ win12_2.index t (1 : Fin 2) = 0)
    ∧ (win12_3.index t (0 : Fin 2) = 0 ∧ win12_3.index t (1 : Fin 2) = 0)
    ∧ (win12_4.index t (0 : Fin 2) = 0 ∧ win12_4.index t (1 : Fin 2) = 0)
    ∧ (win12_5.index t (0 : Fin 2) = 0 ∧ win12_5.index t (1 : Fin 2) = 0)
    ∧ (win12_6.index t (0 : Fin 2) = 0 ∧ win12_6.index t (1 : Fin 2) = 0)
    ∧ (win12_7.index t (0 : Fin 2) = 0 ∧ win12_7.index t (1 : Fin 2) = 0) :=
  (by decide +kernel : ∀ t : Fin grid12.N, _)

/-! ## Each input block is its whole array

A block's element sits in the array, on each axis, at block index × block size + its own coordinate; with the block
index zero that is the coordinate itself. -/

theorem blk0 (c : Dev nD) (t : Fin cfg12.N) (y : S64x64.Idx) : iblk12 V c 0 t y = V c main_v178 y := by
  obtain ⟨⟨e0, e1⟩, -⟩ := idx_facts t
  show V c main_v178 (((cfg12.win 0).blk t).view.emb y) = V c main_v178 y
  refine congrArg (V c main_v178 : S64x64.Idx → Elt Ideal .f32) (funext fun a => Fin.ext ?_)
  match a with
  | ⟨0, _⟩ => show win12_0.index t (0 : Fin 2) * 64 + 1 * (y 0).val = (y 0).val; omega
  | ⟨1, _⟩ => show win12_0.index t (1 : Fin 2) * 64 + 1 * (y 1).val = (y 1).val; omega

theorem blk1 (c : Dev nD) (t : Fin cfg12.N) (y : S64x32.Idx) : iblk12 V c 1 t y = V c main_arg21 y := by
  obtain ⟨-, ⟨e0, e1⟩, -⟩ := idx_facts t
  show V c main_arg21 (((cfg12.win 1).blk t).view.emb y) = V c main_arg21 y
  refine congrArg (V c main_arg21 : S64x32.Idx → Elt Ideal .f32) (funext fun a => Fin.ext ?_)
  match a with
  | ⟨0, _⟩ => show win12_1.index t (0 : Fin 2) * 64 + 1 * (y 0).val = (y 0).val; omega
  | ⟨1, _⟩ => show win12_1.index t (1 : Fin 2) * 32 + 1 * (y 1).val = (y 1).val; omega

theorem blk2 (c : Dev nD) (t : Fin cfg12.N) (y : S1x32.Idx) : iblk12 V c 2 t y = V c main_v179 y := by
  obtain ⟨-, -, ⟨e0, e1⟩, -⟩ := idx_facts t
  show V c main_v179 (((cfg12.win 2).blk t).view.emb y) = V c main_v179 y
  refine congrArg (V c main_v179 : S1x32.Idx → Elt Ideal .f32) (funext fun a => Fin.ext ?_)
  match a with
  | ⟨0, _⟩ => show win12_2.index t (0 : Fin 2) * 1 + 1 * (y 0).val = (y 0).val; omega
  | ⟨1, _⟩ => show win12_2.index t (1 : Fin 2) * 32 + 1 * (y 1).val = (y 1).val; omega

theorem blk3 (c : Dev nD) (t : Fin cfg12.N) (y : S32x16.Idx) : iblk12 V c 3 t y = V c main_arg23 y := by
  obtain ⟨-, -, -, ⟨e0, e1⟩, -⟩ := idx_facts t
  show V c main_arg23 (((cfg12.win 3).blk t).view.emb y) = V c main_arg23 y
  refine congrArg (V c main_arg23 : S32x16.Idx → Elt Ideal .f32) (funext fun a => Fin.ext ?_)
  match a with
  | ⟨0, _⟩ => show win12_3.index t (0 : Fin 2) * 32 + 1 * (y 0).val = (y 0).val; omega
  | ⟨1, _⟩ => show win12_3.index t (1 : Fin 2) * 16 + 1 * (y 1).val = (y 1).val; omega

theorem blk4 (c : Dev nD) (t : Fin cfg12.N) (y : S1x16.Idx) : iblk12 V c 4 t y = V c main_v180 y := by
  obtain ⟨-, -, -, -, ⟨e0, e1⟩, -⟩ := idx_facts t
  show V c main_v180 (((cfg12.win 4).blk t).view.emb y) = V c main_v180 y
  refine congrArg (V c main_v180 : S1x16.Idx → Elt Ideal .f32) (funext fun a => Fin.ext ?_)
  match a with
  | ⟨0, _⟩ => show win12_4.index t (0 : Fin 2) * 1 + 1 * (y 0).val = (y 0).val; omega
  | ⟨1, _⟩ => show win12_4.index t (1 : Fin 2) * 16 + 1 * (y 1).val = (y 1).val; omega

theorem blk5 (c : Dev nD) (t : Fin cfg12.N) (y : S16x1.Idx) : iblk12 V c 5 t y = V c main_arg25 y := by
  obtain ⟨-, -, -, -, -, ⟨e0, e1⟩, -⟩ := idx_facts t
  show V c main_arg25 (((cfg12.win 5).blk t).view.emb y) = V c main_arg25 y
  refine congrArg (V c main_arg25 : S16x1.Idx → Elt Ideal .f32) (funext fun a => Fin.ext ?_)
  match a with
  | ⟨0, _⟩ => show win12_5.index t (0 : Fin 2) * 16 + 1 * (y 0).val = (y 0).val; omega
  | ⟨1, _⟩ => show win12_5.index t (1 : Fin 2) * 1 + 1 * (y 1).val = (y 1).val; omega

theorem blk6 (c : Dev nD) (t : Fin cfg12.N) (y : S1x1.Idx) : iblk12 V c 6 t y = V c main_v181 y := by
  obtain ⟨-, -, -, -, -, -, ⟨e0, e1⟩, -⟩ := idx_facts t
  show V c main_v181 (((cfg12.win 6).blk t).view.emb y) = V c main_v181 y
  refine congrArg (V c main_v181 : S1x1.Idx → Elt Ideal .f32) (funext fun a => Fin.ext ?_)
  match a with
  | ⟨0, _⟩ => show win12_6.index t (0 : Fin 2) * 1 + 1 * (y 0).val = (y 0).val; omega
  | ⟨1, _⟩ => show win12_6.index t (1 : Fin 2) * 1 + 1 * (y 1).val = (y 1).val; omega

/-! ## The body's result at an index, over the arrays -/

/-- The body's result at block index `j`, when its seven operands agree entry by entry with seven arrays and `i` has
    `j`'s coordinates: the head of row `i 0` of the first array, at column `i 1`. -/
theorem pay_rows (v0 : Vec Ideal S64x64 .f32) (v3 : Vec Ideal S64x32 .f32) (v6 : Vec Ideal S1x32 .f32)
    (v17 : Vec Ideal S32x16 .f32) (v20 : Vec Ideal S1x16 .f32) (v31 : Vec Ideal S16x1 .f32) (v34 : Vec Ideal S1x1 .f32)
    (A0 : Vec Ideal S64x64 .f32) (A1 : Vec Ideal S64x32 .f32) (A2 : Vec Ideal S1x32 .f32)
    (A3 : Vec Ideal S32x16 .f32) (A4 : Vec Ideal S1x16 .f32) (A5 : Vec Ideal S16x1 .f32) (A6 : Vec Ideal S1x1 .f32)
    (h0 : ∀ y, v0 y = A0 y) (h1 : ∀ y, v3 y = A1 y) (h2 : ∀ y, v6 y = A2 y) (h3 : ∀ y, v17 y = A3 y)
    (h4 : ∀ y, v20 y = A4 y) (h5 : ∀ y, v31 y = A5 y) (h6 : ∀ y, v34 y = A6 y)
    (j i : S64x1.Idx) (hi0 : (i 0).val = (j 0).val) (hi1 : (i 1).val = (j 1).val) :
    k12_pay1 (F := Ideal) v0 v3 v6 v17 v20 v31 v34 j
      = Cert.Rows.head (fun k => A0 (ix2 (i 0) k)) (fun k n => A1 (ix2 k n)) (fun n => A2 (ix2 0 n))
          (fun k n => A3 (ix2 k n)) (fun n => A4 (ix2 0 n)) (fun k n => A5 (ix2 k n)) (fun n => A6 (ix2 0 n)) (i 1) := by
  obtain rfl : v0 = A0 := funext h0
  obtain rfl : v3 = A1 := funext h1
  obtain rfl : v6 = A2 := funext h2
  obtain rfl : v17 = A3 := funext h3
  obtain rfl : v20 = A4 := funext h4
  obtain rfl : v31 = A5 := funext h5
  obtain rfl : v34 = A6 := funext h6
  obtain rfl : i = j := funext fun a => Fin.ext (by
    match a with
    | ⟨0, _⟩ => exact hi0
    | ⟨1, _⟩ => exact hi1)
  obtain ⟨p, q, rfl⟩ : ∃ (p : Fin 64) (q : Fin 1), i = ix2 p q := ⟨i 0, i 1, eq_ix2 i⟩
  exact Pay.k12_pay1_apply v0 v3 v6 v17 v20 v31 v34 p q

/-! ## What the one point writes back, and the array it leaves -/

/-- The one point writes back the block of the head's rows: the body's single store covers its staging buffer, its
    loads read whole buffers, and the output block sits in the array at its own coordinates. -/
theorem flushed_eq (c : Dev nD) (t : Fin cfg12.N) :
    (dat12 V c).flushed 7 t = ((cfg12.win 7).blk t).view.read (Elt Ideal) (fun i : S64x1.Idx => row V c (i 0) (i 1)) := by
  show (cfg12.win 7).cut (grid12.coords t) ((dat12 V c).after 7 t) = _
  rw [after12_7]
  unfold out12_7
  rw [View.canon_unit_zero hz]
  simp only [View.ld_unit_zero (S := S64x64) hz, View.ld_unit_zero (S := S64x32) hz, View.ld_unit_zero (S := S1x32) hz,
    View.ld_unit_zero (S := S32x16) hz, View.ld_unit_zero (S := S1x16) hz, View.ld_unit_zero (S := S16x1) hz,
    View.ld_unit_zero (S := S1x1) hz]
  obtain ⟨-, -, -, -, -, -, -, e0, e1⟩ := idx_facts t
  funext j
  show k12_pay1 (F := Ideal) (iblk12 V c 0 t) (iblk12 V c 1 t) (iblk12 V c 2 t) (iblk12 V c 3 t) (iblk12 V c 4 t)
      (iblk12 V c 5 t) (iblk12 V c 6 t) j
    = row V c ((((cfg12.win 7).blk t).view.emb j) 0) ((((cfg12.win 7).blk t).view.emb j) 1)
  exact pay_rows (iblk12 V c 0 t) (iblk12 V c 1 t) (iblk12 V c 2 t) (iblk12 V c 3 t) (iblk12 V c 4 t)
    (iblk12 V c 5 t) (iblk12 V c 6 t) (V c main_v178) (V c main_arg21) (V c main_v179) (V c main_arg23) (V c main_v180)
    (V c main_arg25) (V c main_v181) (blk0 V c t) (blk1 V c t) (blk2 V c t) (blk3 V c t) (blk4 V c t) (blk5 V c t)
    (blk6 V c t) j (((cfg12.win 7).blk t).view.emb j)
    (by show win12_7.index t (0 : Fin 2) * 64 + 1 * (j 0).val = (j 0).val; omega)
    (by show win12_7.index t (1 : Fin 2) * 1 + 1 * (j 1).val = (j 1).val; omega)

/-- An index of the output array is in the point's block iff each coordinate is in the block's range on its axis. -/
theorem mem_blk (t : Fin cfg12.N) (i : S64x1.Idx) :
    i ∈ ((cfg12.win 7).blk t).view.set ↔ ∀ a : Fin 2, win12_7.index t a * S64x1.size a ≤ (i a).val ∧ (i a).val < win12_7.index t a * S64x1.size a + S64x1.size a := by
  show i ∈ ((View.whole main_v182).slice (win12_7.rect t)).set ↔ _
  rw [View.set_slice_whole, Rect.mem_set_unit]
  exact Iff.rfl

/-- The one point's block is the whole output array. -/
theorem cover (i : S64x1.Idx) : ∃ t : Fin cfg12.N, (cfg12.win 7).flush t = true ∧ i ∈ ((cfg12.win 7).blk t).view.set := by
  refine ⟨t12_0, flush12_7 t12_0, ?_⟩
  rw [mem_blk]
  obtain ⟨-, -, -, -, -, -, -, e0, e1⟩ := idx_facts t12_0
  have h0 : (i 0).val < 64 := idx2_lt0 i
  have h1 : (i 1).val < 1 := idx2_lt1 i
  intro a
  match a with
  | ⟨0, _⟩ => show win12_7.index t12_0 (0 : Fin 2) * 64 ≤ (i 0).val ∧ (i 0).val < win12_7.index t12_0 (0 : Fin 2) * 64 + 64; omega
  | ⟨1, _⟩ => show win12_7.index t12_0 (1 : Fin 2) * 1 ≤ (i 1).val ∧ (i 1).val < win12_7.index t12_0 (1 : Fin 2) * 1 + 1; omega

/-- The output array after the region: the head's rows, entry by entry. -/
theorem arr_eq (c : Dev nD) : (dat12 V c).arrAt 7 cfg12.N = (fun i : S64x1.Idx => row V c (i 0) (i 1)) :=
  (dat12 V c).arrAt_eq_of_cover 7 _ (fun t _ => flushed_eq V c t) cover

/-- Entry `(r, q)` of the output array after the region is the head of row `r` of the pooled features. -/
theorem out7 (c : Dev nD) (r : Fin 64) (q : Fin 1) :
    (dat12 V c).arrAt 7 cfg12.N (ix2 r q)
      = Cert.Rows.head (fun k => V c main_v178 (ix2 r k)) (fun k n => V c main_arg21 (ix2 k n)) (fun n => V c main_v179 (ix2 0 n))
          (fun k n => V c main_arg23 (ix2 k n)) (fun n => V c main_v180 (ix2 0 n)) (fun k n => V c main_arg25 (ix2 k n))
          (fun n => V c main_v181 (ix2 0 n)) q :=
  congrFun (arr_eq V c) (ix2 r q)

end Cert.KernelIdeal.Reg12

end
-- ==== Proof.KTail.lean ====
import proofs.«157269_j2267742732766_1_alg».proof.Proof.Gen.KernelIdeal.Frame
import proofs.«157269_j2267742732766_1_alg».proof.Proof.Sem
import proofs.«157269_j2267742732766_1_alg».proof.Proof.LibRowVecSem
import proofs.«157269_j2267742732766_1_alg».proof.Proof.KReg10
import proofs.«157269_j2267742732766_1_alg».proof.Proof.KReg11
import proofs.«157269_j2267742732766_1_alg».proof.Proof.KReg12
import Idealize.ShloMosaic.Lib.StableHlo.Run
import Idealize.ShloMosaic.Lib.Pipeline.Value
import Idealize.ShloMosaic.Lib.ValueIdx

/-!
  The pooling levels and the head of the kernel program, read against the network's layer functions.

  After the last message-passing layer the program pools three times and applies a head. A pooling sums the rows
  of the previous level's array by segment: row `i` is added into row `idx i` of an array of zeros (a
  scatter-add), where `idx` is one of the program's integer arguments. Between poolings a pipelined region
  applies a two-layer perceptron to every row of the pooled array; after the third pooling a region applies the
  three-layer head. The biases reach the regions as one-row arrays: reshapes of the rank-1 argument arrays.

  This module reads the seven last segment boundaries of the run: what each pooling leaves, as one function of
  the integer argument and of the array pooled; what each region leaves, as the row function of the arrays at its
  entry; and that the weights and biases the regions see are the arrays the program was launched with.
-/

set_option maxRecDepth 16384

noncomputable section

namespace Cert.KernelIdeal.Layers

open Cert.KernelIdeal Cert.KernelIdeal.Gen Idealize.ShloMosaic Idealize.ShloMosaic.ValueIdx
open Idealize.ShloMosaic.TcCoe

/-! ## The three poolings as functions -/

/-- The first pooling: row `i` of `x` added into row `idx i` of 20000 rows of zeros. -/
def pool1K {F : FTy → Type} [FloatOps F] (idx : (⟨S100000, .i32⟩ : BufTy).Contents (Elt F))
    (x : (⟨S100000x64, .f32⟩ : BufTy).Contents (Elt F)) : (⟨S20000x64, .f32⟩ : BufTy).Contents (Elt F) :=
  Host.scatterAdd scatter_S20000x64_S100000x1_S100000x64_1_0_0_1
    (broadcastInDim S20000x64 ![] bcast_S_S20000x64 (constant (F := F) S_ .f32 0x00000000#32))
    (broadcastInDim S100000x1 ![0] bcast_S100000_S100000x1_0 idx) x

/-- The second pooling: row `i` of `x` added into row `idx i` of 2000 rows of zeros. -/
def pool2K {F : FTy → Type} [FloatOps F] (idx : (⟨S20000, .i32⟩ : BufTy).Contents (Elt F))
    (x : (⟨S20000x64, .f32⟩ : BufTy).Contents (Elt F)) : (⟨S2000x64, .f32⟩ : BufTy).Contents (Elt F) :=
  Host.scatterAdd scatter_S2000x64_S20000x1_S20000x64_1_0_0_1
    (broadcastInDim S2000x64 ![] bcast_S_S2000x64 (constant (F := F) S_ .f32 0x00000000#32))
    (broadcastInDim S20000x1 ![0] bcast_S20000_S20000x1_0 idx) x

/-- The third pooling: row `i` of `x` added into row `idx i` of 64 rows of zeros. -/
def pool3K {F : FTy → Type} [FloatOps F] (idx : (⟨S2000, .i32⟩ : BufTy).Contents (Elt F))
    (x : (⟨S2000x64, .f32⟩ : BufTy).Contents (Elt F)) : (⟨S64x64, .f32⟩ : BufTy).Contents (Elt F) :=
  Host.scatterAdd scatter_S64x64_S2000x1_S2000x64_1_0_0_1
    (broadcastInDim S64x64 ![] bcast_S_S64x64 (constant (F := F) S_ .f32 0x00000000#32))
    (broadcastInDim S2000x1 ![0] bcast_S2000_S2000x1_0 idx) x

/-! ## The three host stretches, from any buffer contents `w`

Each stretch writes six or seven buffers: the zero, its broadcast, the broadcast segment index, the pooled array
and the one-row biases. Every other buffer is as before the stretch. -/

section Stretches

variable (w : Valuation τ sig (Elt Ideal))

/-- The buffers the first pooling stretch writes. -/
abbrev host10W : List (Ref sig .tc) := [main_cst_18, main_v164, main_v165, main_v166, main_v167, main_v168]
/-- The buffers the second pooling stretch writes. -/
abbrev host11W : List (Ref sig .tc) := [main_cst_19, main_v170, main_v171, main_v172, main_v173, main_v174]
/-- The buffers the third pooling stretch writes. -/
abbrev host12W : List (Ref sig .tc) := [main_cst_20, main_v176, main_v177, main_v178, main_v179, main_v180, main_v181]

theorem host10_writes : (hostOps10 : List (HloOp τ sig (Elt Ideal))).Forall
    fun op => op.writes ⊆ (host10W.map (Proc.devRef (τ := τ) .tc)).toFinset := by
  simp only [hostOps10, List.Forall, StableHlo.nullary_writes, StableHlo.unary_writes, StableHlo.ternary_writes,
    StableHlo.reshape_writes, Finset.singleton_subset_iff, List.mem_toFinset]
  refine ⟨?_, ?_, ?_, ?_, ?_, ?_⟩ <;> exact List.mem_map_of_mem (by decide)

theorem host11_writes : (hostOps11 : List (HloOp τ sig (Elt Ideal))).Forall
    fun op => op.writes ⊆ (host11W.map (Proc.devRef (τ := τ) .tc)).toFinset := by
  simp only [hostOps11, List.Forall, StableHlo.nullary_writes, StableHlo.unary_writes, StableHlo.ternary_writes,
    StableHlo.reshape_writes, Finset.singleton_subset_iff, List.mem_toFinset]
  refine ⟨?_, ?_, ?_, ?_, ?_, ?_⟩ <;> exact List.mem_map_of_mem (by decide)

theorem host12_writes : (hostOps12 : List (HloOp τ sig (Elt Ideal))).Forall
    fun op => op.writes ⊆ (host12W.map (Proc.devRef (τ := τ) .tc)).toFinset := by
  simp only [hostOps12, List.Forall, StableHlo.nullary_writes, StableHlo.unary_writes, StableHlo.ternary_writes,
    StableHlo.reshape_writes, Finset.singleton_subset_iff, List.mem_toFinset]
  refine ⟨?_, ?_, ?_, ?_, ?_, ?_, ?_⟩ <;> exact List.mem_map_of_mem (by decide)

/-- A buffer the first pooling stretch does not write is as before it. -/
theorem host10_keeps (r : Ref sig .tc) (h : r ∉ host10W) :
    StableHlo.after hostOps10 w (Proc.devRef .tc r) = w (Proc.devRef .tc r) :=
  StableHlo.after_of_writes_sub hostOps10 w host10_writes h
/-- A buffer the second pooling stretch does not write is as before it. -/
theorem host11_keeps (r : Ref sig .tc) (h : r ∉ host11W) :
    StableHlo.after hostOps11 w (Proc.devRef .tc r) = w (Proc.devRef .tc r) :=
  StableHlo.after_of_writes_sub hostOps11 w host11_writes h
/-- A buffer the third pooling stretch does not write is as before it. -/
theorem host12_keeps (r : Ref sig .tc) (h : r ∉ host12W) :
    StableHlo.after hostOps12 w (Proc.devRef .tc r) = w (Proc.devRef .tc r) :=
  StableHlo.after_of_writes_sub hostOps12 w host12_writes h

/-- The first pooling stretch leaves in its pooled array the first pooling of the buffers as it finds them. -/
theorem host10_pool :
    StableHlo.after hostOps10 w (Proc.devRef .tc main_v166)
      = pool1K (w (Proc.devRef .tc main_arg2)) (w (Proc.devRef .tc main_v163)) := by
  after_results
  rfl
theorem host11_pool :
    StableHlo.after hostOps11 w (Proc.devRef .tc main_v172)
      = pool2K (w (Proc.devRef .tc main_arg3)) (w (Proc.devRef .tc main_v169)) := by
  after_results
  rfl
theorem host12_pool :
    StableHlo.after hostOps12 w (Proc.devRef .tc main_v178)
      = pool3K (w (Proc.devRef .tc main_arg4)) (w (Proc.devRef .tc main_v175)) := by
  after_results
  rfl

/-- The one-row biases are reshapes of the rank-1 argument arrays as the stretch finds them. -/
theorem host10_b1 : (StableHlo.after hostOps10 w (Proc.devRef .tc main_v167) : S1x64.Idx → EReal)
    = shapeCast S1x64 (w (Proc.devRef .tc main_arg14) : S64.Idx → EReal) shapeCasts_S64_S1x64 := by
  after_results
  rfl
theorem host10_b2 : (StableHlo.after hostOps10 w (Proc.devRef .tc main_v168) : S1x64.Idx → EReal)
    = shapeCast S1x64 (w (Proc.devRef .tc main_arg16) : S64.Idx → EReal) shapeCasts_S64_S1x64 := by
  after_results
  rfl
theorem host11_b1 : (StableHlo.after hostOps11 w (Proc.devRef .tc main_v173) : S1x64.Idx → EReal)
    = shapeCast S1x64 (w (Proc.devRef .tc main_arg18) : S64.Idx → EReal) shapeCasts_S64_S1x64 := by
  after_results
  rfl
theorem host11_b2 : (StableHlo.after hostOps11 w (Proc.devRef .tc main_v174) : S1x64.Idx → EReal)
    = shapeCast S1x64 (w (Proc.devRef .tc main_arg20) : S64.Idx → EReal) shapeCasts_S64_S1x64 := by
  after_results
  rfl
theorem host12_b1 : (StableHlo.after hostOps12 w (Proc.devRef .tc main_v179) : S1x32.Idx → EReal)
    = shapeCast S1x32 (w (Proc.devRef .tc main_arg22) : S32.Idx → EReal) shapeCasts_S32_S1x32 := by
  after_results
  rfl
theorem host12_b2 : (StableHlo.after hostOps12 w (Proc.devRef .tc main_v180) : S1x16.Idx → EReal)
    = shapeCast S1x16 (w (Proc.devRef .tc main_arg24) : S16.Idx → EReal) shapeCasts_S16_S1x16 := by
  after_results
  rfl
theorem host12_b3 : (StableHlo.after hostOps12 w (Proc.devRef .tc main_v181) : S1x1.Idx → EReal)
    = shapeCast S1x1 (w (Proc.devRef .tc main_arg26) : S1.Idx → EReal) shapeCasts_S1_S1x1 := by
  after_results
  rfl

end Stretches

/-! ## The fold at the last seven boundaries -/

variable (m : (ℓ : Loc nD τ sig) → Buf (Elt Ideal) ℓ) (ρ : Dev nD → PrngReg)

section Fold

variable (c : Dev nD) (b : Ref sig .tc)

/-- A buffer outside the last region's arrays is, after the region, as at its entry. -/
theorem step36 (h : ∀ w, Pipeline.arrRef spec12 w ≠ b) :
    W36 m ρ c (Proc.devRef .tc b) = W35 m ρ c (Proc.devRef .tc b) := W36_of_ne m ρ c b h
theorem step35 (h : b ∉ host12W) : W35 m ρ c (Proc.devRef .tc b) = W34 m ρ c (Proc.devRef .tc b) :=
  host12_keeps (W34 m ρ c) b h
theorem step34 (h : ∀ w, Pipeline.arrRef spec11 w ≠ b) :
    W34 m ρ c (Proc.devRef .tc b) = W33 m ρ c (Proc.devRef .tc b) := W34_of_ne m ρ c b h
theorem step33 (h : b ∉ host11W) : W33 m ρ c (Proc.devRef .tc b) = W32 m ρ c (Proc.devRef .tc b) :=
  host11_keeps (W32 m ρ c) b h
theorem step32 (h : ∀ w, Pipeline.arrRef spec10 w ≠ b) :
    W32 m ρ c (Proc.devRef .tc b) = W31 m ρ c (Proc.devRef .tc b) := W32_of_ne m ρ c b h
theorem step31 (h : b ∉ host10W) : W31 m ρ c (Proc.devRef .tc b) = W30 m ρ c (Proc.devRef .tc b) :=
  host10_keeps (W30 m ρ c) b h

/-- An array a region only reads is, after the region, as at its entry. -/
theorem read36 (w : Fin cfg12.W) (hin : (cfg12.win w).isOut = false) :
    W36 m ρ c (Proc.devRef .tc (Pipeline.arrRef spec12 w)) = W35 m ρ c (Proc.devRef .tc (Pipeline.arrRef spec12 w)) :=
  (W36_arr m ρ c w).trans (((dat12 (V35 m ρ) c).arrAt_in w hin _).trans (A_eq12 (V35 m ρ) c w))
theorem read34 (w : Fin cfg11.W) (hin : (cfg11.win w).isOut = false) :
    W34 m ρ c (Proc.devRef .tc (Pipeline.arrRef spec11 w)) = W33 m ρ c (Proc.devRef .tc (Pipeline.arrRef spec11 w)) :=
  (W34_arr m ρ c w).trans (((dat11 (V33 m ρ) c).arrAt_in w hin _).trans (A_eq11 (V33 m ρ) c w))
theorem read32 (w : Fin cfg10.W) (hin : (cfg10.win w).isOut = false) :
    W32 m ρ c (Proc.devRef .tc (Pipeline.arrRef spec10 w)) = W31 m ρ c (Proc.devRef .tc (Pipeline.arrRef spec10 w)) :=
  (W32_arr m ρ c w).trans (((dat10 (V31 m ρ) c).arrAt_in w hin _).trans (A_eq10 (V31 m ρ) c w))

/-- A buffer no stretch from the third pooling on writes, outside the last region's arrays: at the third
    pooling's entry as at the end. -/
theorem end_at34 (h12 : ∀ w, Pipeline.arrRef spec12 w ≠ b) (g12 : b ∉ host12W) :
    W34 m ρ c (Proc.devRef .tc b) = W36 m ρ c (Proc.devRef .tc b) :=
  ((step36 m ρ c b h12).trans (step35 m ρ c b g12)).symm
/-- The same from the second pooling's entry. -/
theorem end_at32 (h12 : ∀ w, Pipeline.arrRef spec12 w ≠ b) (g12 : b ∉ host12W)
    (h11 : ∀ w, Pipeline.arrRef spec11 w ≠ b) (g11 : b ∉ host11W) :
    W32 m ρ c (Proc.devRef .tc b) = W36 m ρ c (Proc.devRef .tc b) :=
  ((step34 m ρ c b h11).trans (step33 m ρ c b g11)).symm.trans (end_at34 m ρ c b h12 g12)
/-- The same from the first pooling's entry. -/
theorem end_at30 (h12 : ∀ w, Pipeline.arrRef spec12 w ≠ b) (g12 : b ∉ host12W)
    (h11 : ∀ w, Pipeline.arrRef spec11 w ≠ b) (g11 : b ∉ host11W)
    (h10 : ∀ w, Pipeline.arrRef spec10 w ≠ b) (g10 : b ∉ host10W) :
    W30 m ρ c (Proc.devRef .tc b) = W36 m ρ c (Proc.devRef .tc b) :=
  ((step32 m ρ c b h10).trans (step31 m ρ c b g10)).symm.trans (end_at32 m ρ c b h12 g12 h11 g11)

end Fold

/-! ## The arguments at the levels that read them -/

section Arguments

variable (c : Dev nD)

/-- The segment indices of the three poolings, at their stretches' entries, are the launched arrays. -/
theorem arg2_at30 : W30 m ρ c (Proc.devRef .tc main_arg2) = m ((c : Thread nD τ).loc main_arg2) :=
  (end_at30 m ρ c main_arg2 (by decide) (by decide) (by decide) (by decide) (by decide) (by decide)).trans (W36_main_arg2 m ρ c)
theorem arg3_at32 : W32 m ρ c (Proc.devRef .tc main_arg3) = m ((c : Thread nD τ).loc main_arg3) :=
  (end_at32 m ρ c main_arg3 (by decide) (by decide) (by decide) (by decide)).trans (W36_main_arg3 m ρ c)
theorem arg4_at34 : W34 m ρ c (Proc.devRef .tc main_arg4) = m ((c : Thread nD τ).loc main_arg4) :=
  (end_at34 m ρ c main_arg4 (by decide) (by decide)).trans (W36_main_arg4 m ρ c)

/-- The rank-1 biases, at the stretches that reshape them, are the launched arrays. -/
theorem arg14_at30 : W30 m ρ c (Proc.devRef .tc main_arg14) = m ((c : Thread nD τ).loc main_arg14) :=
  (end_at30 m ρ c main_arg14 (by decide) (by decide) (by decide) (by decide) (by decide) (by decide)).trans (W36_main_arg14 m ρ c)
theorem arg16_at30 : W30 m ρ c (Proc.devRef .tc main_arg16) = m ((c : Thread nD τ).loc main_arg16) :=
  (end_at30 m ρ c main_arg16 (by decide) (by decide) (by decide) (by decide) (by decide) (by decide)).trans (W36_main_arg16 m ρ c)
theorem arg18_at32 : W32 m ρ c (Proc.devRef .tc main_arg18) = m ((c : Thread nD τ).loc main_arg18) :=
  (end_at32 m ρ c main_arg18 (by decide) (by decide) (by decide) (by decide)).trans (W36_main_arg18 m ρ c)
theorem arg20_at32 : W32 m ρ c (Proc.devRef .tc main_arg20) = m ((c : Thread nD τ).loc main_arg20) :=
  (end_at32 m ρ c main_arg20 (by decide) (by decide) (by decide) (by decide)).trans (W36_main_arg20 m ρ c)
theorem arg22_at34 : W34 m ρ c (Proc.devRef .tc main_arg22) = m ((c : Thread nD τ).loc main_arg22) :=
  (end_at34 m ρ c main_arg22 (by decide) (by decide)).trans (W36_main_arg22 m ρ c)
theorem arg24_at34 : W34 m ρ c (Proc.devRef .tc main_arg24) = m ((c : Thread nD τ).loc main_arg24) :=
  (end_at34 m ρ c main_arg24 (by decide) (by decide)).trans (W36_main_arg24 m ρ c)
theorem arg26_at34 : W34 m ρ c (Proc.devRef .tc main_arg26) = m ((c : Thread nD τ).loc main_arg26) :=
  (end_at34 m ρ c main_arg26 (by decide) (by decide)).trans (W36_main_arg26 m ρ c)

/-- The weight matrices, at the entries of the regions that read them, are the launched arrays. -/
theorem arg13_at31 : W31 m ρ c (Proc.devRef .tc main_arg13) = m ((c : Thread nD τ).loc main_arg13) :=
  ((read32 m ρ c 1 rfl).symm.trans (end_at32 m ρ c main_arg13 (by decide) (by decide) (by decide) (by decide))).trans
    (W36_main_arg13 m ρ c)
theorem arg15_at31 : W31 m ρ c (Proc.devRef .tc main_arg15) = m ((c : Thread nD τ).loc main_arg15) :=
  ((read32 m ρ c 3 rfl).symm.trans (end_at32 m ρ c main_arg15 (by decide) (by decide) (by decide) (by decide))).trans
    (W36_main_arg15 m ρ c)
theorem arg17_at33 : W33 m ρ c (Proc.devRef .tc main_arg17) = m ((c : Thread nD τ).loc main_arg17) :=
  ((read34 m ρ c 1 rfl).symm.trans (end_at34 m ρ c main_arg17 (by decide) (by decide))).trans (W36_main_arg17 m ρ c)
theorem arg19_at33 : W33 m ρ c (Proc.devRef .tc main_arg19) = m ((c : Thread nD τ).loc main_arg19) :=
  ((read34 m ρ c 3 rfl).symm.trans (end_at34 m ρ c main_arg19 (by decide) (by decide))).trans (W36_main_arg19 m ρ c)
theorem arg21_at35 : W35 m ρ c (Proc.devRef .tc main_arg21) = m ((c : Thread nD τ).loc main_arg21) :=
  (read36 m ρ c 1 rfl).symm.trans (W36_main_arg21 m ρ c)
theorem arg23_at35 : W35 m ρ c (Proc.devRef .tc main_arg23) = m ((c : Thread nD τ).loc main_arg23) :=
  (read36 m ρ c 3 rfl).symm.trans (W36_main_arg23 m ρ c)
theorem arg25_at35 : W35 m ρ c (Proc.devRef .tc main_arg25) = m ((c : Thread nD τ).loc main_arg25) :=
  (read36 m ρ c 5 rfl).symm.trans (W36_main_arg25 m ρ c)

end Arguments

/-! ## What the poolings leave -/

section Poolings

variable (c : Dev nD)

/-- The first pooled array is the first pooling of the launched segment index and of the last layer's output. -/
theorem pool1 : W31 m ρ c (Proc.devRef .tc main_v166)
    = pool1K (m ((c : Thread nD τ).loc main_arg2)) (W30 m ρ c (Proc.devRef .tc main_v163)) :=
  (host10_pool (W30 m ρ c)).trans
    (congrArg (fun i : (⟨S100000, .i32⟩ : BufTy).Contents (Elt Ideal) => pool1K (F := Ideal) i (W30 m ρ c (Proc.devRef .tc main_v163)))
      (arg2_at30 m ρ c))
/-- The second pooled array is the second pooling of the launched segment index and of the first perceptron's output. -/
theorem pool2 : W33 m ρ c (Proc.devRef .tc main_v172)
    = pool2K (m ((c : Thread nD τ).loc main_arg3)) (W32 m ρ c (Proc.devRef .tc main_v169)) :=
  (host11_pool (W32 m ρ c)).trans
    (congrArg (fun i : (⟨S20000, .i32⟩ : BufTy).Contents (Elt Ideal) => pool2K (F := Ideal) i (W32 m ρ c (Proc.devRef .tc main_v169)))
      (arg3_at32 m ρ c))
/-- The third pooled array is the third pooling of the launched segment index and of the second perceptron's output. -/
theorem pool3 : W35 m ρ c (Proc.devRef .tc main_v178)
    = pool3K (m ((c : Thread nD τ).loc main_arg4)) (W34 m ρ c (Proc.devRef .tc main_v175)) :=
  (host12_pool (W34 m ρ c)).trans
    (congrArg (fun i : (⟨S2000, .i32⟩ : BufTy).Contents (Elt Ideal) => pool3K (F := Ideal) i (W34 m ρ c (Proc.devRef .tc main_v175)))
      (arg4_at34 m ρ c))

end Poolings

/-! ## The biases the regions see are the launched biases -/

section Biases

variable (c : Dev nD)

theorem bias167 : Cert.Sem.toRow (W31 m ρ c (Proc.devRef .tc main_v167) : Cert.Sem.Arr 1 64)
    = Cert.Sem.toVec (C := 64) (m ((c : Thread nD τ).loc main_arg14)) := by
  rw [← arg14_at30 m ρ c]
  exact (congrArg (Cert.Sem.toRow (C := 64)) (host10_b1 (W30 m ρ c))).trans (Cert.LibRowVec.toRow_shapeCast _ _)
theorem bias168 : Cert.Sem.toRow (W31 m ρ c (Proc.devRef .tc main_v168) : Cert.Sem.Arr 1 64)
    = Cert.Sem.toVec (C := 64) (m ((c : Thread nD τ).loc main_arg16)) := by
  rw [← arg16_at30 m ρ c]
  exact (congrArg (Cert.Sem.toRow (C := 64)) (host10_b2 (W30 m ρ c))).trans (Cert.LibRowVec.toRow_shapeCast _ _)
theorem bias173 : Cert.Sem.toRow (W33 m ρ c (Proc.devRef .tc main_v173) : Cert.Sem.Arr 1 64)
    = Cert.Sem.toVec (C := 64) (m ((c : Thread nD τ).loc main_arg18)) := by
  rw [← arg18_at32 m ρ c]
  exact (congrArg (Cert.Sem.toRow (C := 64)) (host11_b1 (W32 m ρ c))).trans (Cert.LibRowVec.toRow_shapeCast _ _)
theorem bias174 : Cert.Sem.toRow (W33 m ρ c (Proc.devRef .tc main_v174) : Cert.Sem.Arr 1 64)
    = Cert.Sem.toVec (C := 64) (m ((c : Thread nD τ).loc main_arg20)) := by
  rw [← arg20_at32 m ρ c]
  exact (congrArg (Cert.Sem.toRow (C := 64)) (host11_b2 (W32 m ρ c))).trans (Cert.LibRowVec.toRow_shapeCast _ _)
theorem bias179 : Cert.Sem.toRow (W35 m ρ c (Proc.devRef .tc main_v179) : Cert.Sem.Arr 1 32)
    = Cert.Sem.toVec (C := 32) (m ((c : Thread nD τ).loc main_arg22)) := by
  rw [← arg22_at34 m ρ c]
  exact (congrArg (Cert.Sem.toRow (C := 32)) (host12_b1 (W34 m ρ c))).trans (Cert.LibRowVec.toRow_shapeCast _ _)
theorem bias180 : Cert.Sem.toRow (W35 m ρ c (Proc.devRef .tc main_v180) : Cert.Sem.Arr 1 16)
    = Cert.Sem.toVec (C := 16) (m ((c : Thread nD τ).loc main_arg24)) := by
  rw [← arg24_at34 m ρ c]
  exact (congrArg (Cert.Sem.toRow (C := 16)) (host12_b2 (W34 m ρ c))).trans (Cert.LibRowVec.toRow_shapeCast _ _)
theorem bias181 : Cert.Sem.toRow (W35 m ρ c (Proc.devRef .tc main_v181) : Cert.Sem.Arr 1 1)
    = Cert.Sem.toVec (C := 1) (m ((c : Thread nD τ).loc main_arg26)) := by
  rw [← arg26_at34 m ρ c]
  exact (congrArg (Cert.Sem.toRow (C := 1)) (host12_b3 (W34 m ρ c))).trans (Cert.LibRowVec.toRow_shapeCast _ _)

end Biases

/-! ## What the regions leave -/

/-- The perceptron of arrays read as matrices, at one entry: the row function of the arrays' rows. -/
theorem perceptron_at {N : ℕ} (x : Cert.Sem.Arr N 64) (W1 : Cert.Sem.Arr 64 64) (b1 : Cert.Sem.Arr 1 64)
    (W2 : Cert.Sem.Arr 64 64) (b2 : Cert.Sem.Arr 1 64) (r : Fin N) (q : Fin 64) :
    Cert.Sem.perceptron (Cert.Sem.toMat x) (Cert.Sem.toMat W1) (Cert.Sem.toRow b1) (Cert.Sem.toMat W2) (Cert.Sem.toRow b2) r q
      = Cert.Rows.mlp (Ideal.ofBits .f32 0x00000000#32) (fun k => x (ix2 r k)) (fun k n => W1 (ix2 k n))
          (fun n => b1 (ix2 0 n)) (fun k n => W2 (ix2 k n)) (fun n => b2 (ix2 0 n)) q := rfl

/-- The head of arrays read as matrices, at one entry: the row function of the arrays' rows. -/
theorem headOf_at {N : ℕ} (x : Cert.Sem.Arr N 64) (W1 : Cert.Sem.Arr 64 32) (b1 : Cert.Sem.Arr 1 32)
    (W2 : Cert.Sem.Arr 32 16) (b2 : Cert.Sem.Arr 1 16) (W3 : Cert.Sem.Arr 16 1) (b3 : Cert.Sem.Arr 1 1) (r : Fin N) (q : Fin 1) :
    Cert.Sem.headOf (Cert.Sem.toMat x) (Cert.Sem.toMat W1) (Cert.Sem.toRow b1) (Cert.Sem.toMat W2) (Cert.Sem.toRow b2)
        (Cert.Sem.toMat W3) (Cert.Sem.toRow b3) r q
      = Cert.Rows.head (fun k => x (ix2 r k)) (fun k n => W1 (ix2 k n)) (fun n => b1 (ix2 0 n)) (fun k n => W2 (ix2 k n))
          (fun n => b2 (ix2 0 n)) (fun k n => W3 (ix2 k n)) (fun n => b3 (ix2 0 n)) q := rfl

section Regions

variable (c : Dev nD)

/-- The first perceptron region's output array, entry by entry, is what its points leave. -/
theorem out169 (r : Fin 20000) (q : Fin 64) :
    (W32 m ρ c (Proc.devRef .tc main_v169) : Cert.Sem.Arr 20000 64) (ix2 r q)
      = (dat10 (V31 m ρ) c).arrAt 5 cfg10.N (ix2 r q) := congrFun (W32_arr m ρ c 5) (ix2 r q)
theorem out175 (r : Fin 2000) (q : Fin 64) :
    (W34 m ρ c (Proc.devRef .tc main_v175) : Cert.Sem.Arr 2000 64) (ix2 r q)
      = (dat11 (V33 m ρ) c).arrAt 5 cfg11.N (ix2 r q) := congrFun (W34_arr m ρ c 5) (ix2 r q)
theorem out182 (r : Fin 64) (q : Fin 1) :
    (W36 m ρ c (Proc.devRef .tc main_v182) : Cert.Sem.Arr 64 1) (ix2 r q)
      = (dat12 (V35 m ρ) c).arrAt 7 cfg12.N (ix2 r q) := congrFun (W36_arr m ρ c 7) (ix2 r q)

/-- The first perceptron region leaves, row by row, the two-layer perceptron of the first pooled array under the
    launched weights and the staged biases. -/
theorem tail1 : Cert.Sem.toMat (W32 m ρ c (Proc.devRef .tc main_v169) : Cert.Sem.Arr 20000 64)
    = Cert.Sem.perceptron (Cert.Sem.toMat (W31 m ρ c (Proc.devRef .tc main_v166) : Cert.Sem.Arr 20000 64))
        (Cert.Sem.toMat (m ((c : Thread nD τ).loc main_arg13) : Cert.Sem.Arr 64 64))
        (Cert.Sem.toRow (W31 m ρ c (Proc.devRef .tc main_v167) : Cert.Sem.Arr 1 64))
        (Cert.Sem.toMat (m ((c : Thread nD τ).loc main_arg15) : Cert.Sem.Arr 64 64))
        (Cert.Sem.toRow (W31 m ρ c (Proc.devRef .tc main_v168) : Cert.Sem.Arr 1 64)) := by
  funext r q
  have e2 := Cert.KernelIdeal.Reg10.out5 (V31 m ρ) c r q
  have h13 : V31 m ρ c main_arg13 = m ((c : Thread nD τ).loc main_arg13) := arg13_at31 m ρ c
  have h15 : V31 m ρ c main_arg15 = m ((c : Thread nD τ).loc main_arg15) := arg15_at31 m ρ c
  rw [h13, h15] at e2
  refine Eq.trans ?_ (perceptron_at (W31 m ρ c (Proc.devRef .tc main_v166)) (m ((c : Thread nD τ).loc main_arg13))
    (W31 m ρ c (Proc.devRef .tc main_v167)) (m ((c : Thread nD τ).loc main_arg15))
    (W31 m ρ c (Proc.devRef .tc main_v168)) r q).symm
  exact (out169 m ρ c r q).trans e2

/-- The second perceptron region, likewise, of the second pooled array. -/
theorem tail2 : Cert.Sem.toMat (W34 m ρ c (Proc.devRef .tc main_v175) : Cert.Sem.Arr 2000 64)
    = Cert.Sem.perceptron (Cert.Sem.toMat (W33 m ρ c (Proc.devRef .tc main_v172) : Cert.Sem.Arr 2000 64))
        (Cert.Sem.toMat (m ((c : Thread nD τ).loc main_arg17) : Cert.Sem.Arr 64 64))
        (Cert.Sem.toRow (W33 m ρ c (Proc.devRef .tc main_v173) : Cert.Sem.Arr 1 64))
        (Cert.Sem.toMat (m ((c : Thread nD τ).loc main_arg19) : Cert.Sem.Arr 64 64))
        (Cert.Sem.toRow (W33 m ρ c (Proc.devRef .tc main_v174) : Cert.Sem.Arr 1 64)) := by
  funext r q
  have e2 := Cert.KernelIdeal.Reg11.out5 (V33 m ρ) c r q
  have h17 : V33 m ρ c main_arg17 = m ((c : Thread nD τ).loc main_arg17) := arg17_at33 m ρ c
  have h19 : V33 m ρ c main_arg19 = m ((c : Thread nD τ).loc main_arg19) := arg19_at33 m ρ c
  rw [h17, h19] at e2
  refine Eq.trans ?_ (perceptron_at (W33 m ρ c (Proc.devRef .tc main_v172)) (m ((c : Thread nD τ).loc main_arg17))
    (W33 m ρ c (Proc.devRef .tc main_v173)) (m ((c : Thread nD τ).loc main_arg19))
    (W33 m ρ c (Proc.devRef .tc main_v174)) r q).symm
  exact (out175 m ρ c r q).trans e2

/-- The head region leaves, row by row, the three-layer head of the third pooled array under the launched weights
    and the staged biases: the program's result. -/
theorem tail3 : Cert.Sem.toMat (W36 m ρ c (Proc.devRef .tc main_v182) : Cert.Sem.Arr 64 1)
    = Cert.Sem.headOf (Cert.Sem.toMat (W35 m ρ c (Proc.devRef .tc main_v178) : Cert.Sem.Arr 64 64))
        (Cert.Sem.toMat (m ((c : Thread nD τ).loc main_arg21) : Cert.Sem.Arr 64 32))
        (Cert.Sem.toRow (W35 m ρ c (Proc.devRef .tc main_v179) : Cert.Sem.Arr 1 32))
        (Cert.Sem.toMat (m ((c : Thread nD τ).loc main_arg23) : Cert.Sem.Arr 32 16))
        (Cert.Sem.toRow (W35 m ρ c (Proc.devRef .tc main_v180) : Cert.Sem.Arr 1 16))
        (Cert.Sem.toMat (m ((c : Thread nD τ).loc main_arg25) : Cert.Sem.Arr 16 1))
        (Cert.Sem.toRow (W35 m ρ c (Proc.devRef .tc main_v181) : Cert.Sem.Arr 1 1)) := by
  funext r q
  have e2 := Cert.KernelIdeal.Reg12.out7 (V35 m ρ) c r q
  have h21 : V35 m ρ c main_arg21 = m ((c : Thread nD τ).loc main_arg21) := arg21_at35 m ρ c
  have h23 : V35 m ρ c main_arg23 = m ((c : Thread nD τ).loc main_arg23) := arg23_at35 m ρ c
  have h25 : V35 m ρ c main_arg25 = m ((c : Thread nD τ).loc main_arg25) := arg25_at35 m ρ c
  rw [h21, h23, h25] at e2
  refine Eq.trans ?_ (headOf_at (W35 m ρ c (Proc.devRef .tc main_v178)) (m ((c : Thread nD τ).loc main_arg21))
    (W35 m ρ c (Proc.devRef .tc main_v179)) (m ((c : Thread nD τ).loc main_arg23))
    (W35 m ρ c (Proc.devRef .tc main_v180)) (m ((c : Thread nD τ).loc main_arg25))
    (W35 m ρ c (Proc.devRef .tc main_v181)) r q).symm
  exact (out182 m ρ c r q).trans e2

end Regions

end Cert.KernelIdeal.Layers

end
-- ==== Proof.RStageM.lean ====
/-
  The pooled perceptrons and the head of the reference, as functions of the arrays they read.

  After each pooling level the reference passes the pooled rows through a two-layer perceptron (a product with a
  64×64 matrix plus a bias row, the rectifier, a second product plus bias): once on 20000 rows and once on 2000.
  The head takes the 64 pooled rows through three affine layers, 64 → 32 → 16 → 1, with the exponential linear
  unit after the first two. Each stage is defined here as the composition, in the program's order, of the
  functions the reference's lines apply; each is then read at an index of its result, at the extended reals, as
  the row function of the shared specification: every row of the result depends on the same row of the input only.
-/
import proofs.«157269_j2267742732766_1_alg».proof.ReferenceIdeal
import proofs.«157269_j2267742732766_1_alg».proof.Proof.Rows
import proofs.«157269_j2267742732766_1_alg».proof.Proof.LibDot
import Idealize.ShloMosaic.Lib.ValueIdx
import Idealize.ShloMosaic.Lib.IdealHost
import Idealize.ShloMosaic.Lib.KernelVsHost
import Idealize.ShloMosaic.PureOps.Ideal.Laws

noncomputable section

namespace Cert.ReferenceIdeal.Stage

open Cert.ReferenceIdeal Idealize.ShloMosaic Idealize.ShloMosaic.ValueIdx
open Cert.ReferenceIdeal.Facts₀

/-! ## The operations of a dense layer read at an index -/

/-- A bias row laid along every row of a matrix: a vector of N entries made a one-row matrix, and that row repeated
    M times, reads at (r, c) the vector's entry c. -/
theorem biasRows_apply {M N : ℕ} {α : Type} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (r : Fin M) (c : Fin N) :
    broadcastInDim ⟨2, ![M, N]⟩ ![0, 1] h2 (broadcastInDim ⟨2, ![1, N]⟩ ![1] h1 b) (ix2 r c) = b (ix1 c) := by
  refine (broadcastInDim_oneRow_apply h2 _ r c).trans ?_
  refine broadcastInDim_apply ![1] h1 b (ix2 (0 : Fin 1) c) (ix1 c) ?_
  intro a
  match a with
  | ⟨0, _⟩ =>
    show c.val = if N = 1 then 0 else c.val
    split
    · have := c.isLt; omega
    · rfl

/-- The product of an M×K matrix with a K×N matrix on the host, at the extended reals, read at (r, c): the sum over
    k of the left operand at (r, k) times the right operand at (k, c). -/
theorem hostDot_apply {M K N : ℕ}
    (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  (Ideal.dotGeneral_apply d none .single l w (ix2 r c)).trans (Cert.LibDot.sum_std d hlc hrc hln hrn hlb hrb l w r c)

/-- One dense layer read at (r, c): the product with the weights plus the bias row is the affine map of row r. -/
theorem lin_apply {M K N : ℕ}
    (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32)
    (r : Fin M) (c : Fin N) :
    addf (Host.dotGeneral d none x w) (broadcastInDim ⟨2, ![M, N]⟩ ![0, 1] h2 (broadcastInDim ⟨2, ![1, N]⟩ ![1] h1 b))
        (ix2 r c)
      = Cert.Rows.lin (fun k => x (ix2 r k)) (fun k n => w (ix2 k n)) (fun n => b (ix1 n)) c := by
  rw [addf_apply, biasRows_apply, hostDot_apply d hlc hrc hln hrn hlb hrb]
  rfl

/-- The rectifier at an index: the maximum of the entry and the zero constant. -/
theorem relu_apply {T : Shape} (h : (⟨0, ![]⟩ : Shape).BroadcastsInDim T ![]) (v : FVec Ideal T .f32) (j : T.Idx) :
    maximumf v (broadcastInDim T ![] h (constant (F := Ideal) S_ .f32 0x00000000#32)) j
      = max (v j) (Ideal.ofBits .f32 0x00000000#32) := by
  rw [maximumf_apply, broadcastInDim_scalar_apply, constant_apply]

/-! ## The exponential linear unit read at an index -/

/-- The comparison "above zero" of a value that is above zero is the bit 1. -/
theorem cmp_ogt_pos {v : EReal} (h : 0 < v) : Ideal.cmp .ogt v 0 = 1#1 := by
  show BitVec.ofBool (decide (0 < v)) = 1#1
  rw [decide_eq_true h]; rfl

/-- The comparison "above zero" of a value that is not above zero is the bit 0. -/
theorem cmp_ogt_nonpos {v : EReal} (h : ¬ 0 < v) : Ideal.cmp .ogt v 0 = 0#1 := by
  show BitVec.ofBool (decide (0 < v)) = 0#1
  rw [decide_eq_false h]; rfl

/-- The comparison of an array with the zero splat, at an index: the entry against the real zero. -/
theorem gt_zero_apply {T : Shape} (h : (⟨0, ![]⟩ : Shape).BroadcastsInDim T ![]) (x : FVec Ideal T .f32) (j : T.Idx) :
    cmpf .ogt x (broadcastInDim T ![] h (constant (F := Ideal) S_ .f32 0x00000000#32)) j = Ideal.cmp .ogt (x j) 0 := by
  rw [cmpf_apply, broadcastInDim_scalar_apply, constant_apply, Ideal.cmpf_def, Ideal.ofBits_zero_f32]

/-- The reference's unit — the entry where it is above zero, and elsewhere one times (e^t - 1) at t the entry with
    the entries above zero replaced by zero — is the exponential linear unit of the entry: above zero the outer
    choice takes the entry; at or below zero the inner choice keeps the entry, and the factor one drops. Here the
    two constants are read as the reals they encode, 0 and 1. -/
theorem elu_apply {T : Shape} (h : (⟨0, ![]⟩ : Shape).BroadcastsInDim T ![]) (x : FVec Ideal T .f32) (j : T.Idx) :
    select (cmpf .ogt x (broadcastInDim T ![] h (constant (F := Ideal) S_ .f32 0x00000000#32))) x
        (mulf (broadcastInDim T ![] h (constant (F := Ideal) S_ .f32 0x3F800000#32))
          (Host.expm1 (select (cmpf .ogt x (broadcastInDim T ![] h (constant (F := Ideal) S_ .f32 0x00000000#32)))
            (broadcastInDim T ![] h (id (constant (F := Ideal) S_ .f32 0x00000000#32))) x))) j
      = Cert.Rows.elu (x j) := by
  unfold Cert.Rows.elu
  rw [select_apply, gt_zero_apply]
  by_cases hx : 0 < x j
  · rw [if_pos hx, cmp_ogt_pos hx, select_one]
  · rw [if_neg hx, cmp_ogt_nonpos hx, select_zero, mulf_apply, broadcastInDim_scalar_apply, constant_apply,
      Ideal.ofBits_one_f32, one_mul]
    show FloatOps.hostUnary .expm1 _ = _
    rw [Ideal.hostUnary_expm1_def, select_apply, gt_zero_apply, cmp_ogt_nonpos hx, select_zero]

/-! ## The perceptron after the first pooling level: 20000 rows -/

/-- The reference's lines from the product of the pooled rows with the first 64×64 matrix to the sum with the
    second bias: product, bias row laid along the rows, sum, rectifier (the outlined function: a zero constant, its
    splat, the maximum), product, bias, sum. -/
def mlpStageA {F : FTy → Type} [FloatOps F] [Facts₀]
    (X : (⟨S20000x64, .f32⟩ : BufTy).Contents (Elt F)) (W1 : (⟨S64x64, .f32⟩ : BufTy).Contents (Elt F))
    (B1 : (⟨S64, .f32⟩ : BufTy).Contents (Elt F)) (W2 : (⟨S64x64, .f32⟩ : BufTy).Contents (Elt F))
    (B2 : (⟨S64, .f32⟩ : BufTy).Contents (Elt F)) : (⟨S20000x64, .f32⟩ : BufTy).Contents (Elt F) :=
  let a0 := ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)) X W1
  let a1 := (broadcastInDim S1x64 ![1] bcast_S64_S1x64_1 : (⟨S64, .f32⟩ : BufTy).Contents (Elt F) → (⟨S1x64, .f32⟩ : BufTy).Contents (Elt F)) B1
  let a2 := (broadcastInDim S20000x64 ![0, 1] bcast_S1x64_S20000x64_0_1 : (⟨S1x64, .f32⟩ : BufTy).Contents (Elt F) → (⟨S20000x64, .f32⟩ : BufTy).Contents (Elt F)) a1
  let a3 := (addf : (⟨S20000x64, .f32⟩ : BufTy).Contents (Elt F) → (⟨S20000x64, .f32⟩ : BufTy).Contents (Elt F) → (⟨S20000x64, .f32⟩ : BufTy).Contents (Elt F)) a0 a2
  let z0 : (⟨S_, .f32⟩ : BufTy).Contents (Elt F) := constant S_ .f32 0x00000000#32
  let z1 : (⟨S20000x64, .f32⟩ : BufTy).Contents (Elt F) := broadcastInDim S20000x64 ![] bcast_S_S20000x64 z0
  let a4 : (⟨S20000x64, .f32⟩ : BufTy).Contents (Elt F) := maximumf a3 z1
  let a5 := ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)) a4 W2
  let a6 := (broadcastInDim S1x64 ![1] bcast_S64_S1x64_1 : (⟨S64, .f32⟩ : BufTy).Contents (Elt F) → (⟨S1x64, .f32⟩ : BufTy).Contents (Elt F)) B2
  let a7 := (broadcastInDim S20000x64 ![0, 1] bcast_S1x64_S20000x64_0_1 : (⟨S1x64, .f32⟩ : BufTy).Contents (Elt F) → (⟨S20000x64, .f32⟩ : BufTy).Contents (Elt F)) a6
  (addf : (⟨S20000x64, .f32⟩ : BufTy).Contents (Elt F) → (⟨S20000x64, .f32⟩ : BufTy).Contents (Elt F) → (⟨S20000x64, .f32⟩ : BufTy).Contents (Elt F)) a5 a7

/-- Entry (r, c) of the stage's result is the two-layer perceptron of row r of its input. -/
theorem mlpStageA_apply [Facts₀]
    (X : (⟨S20000x64, .f32⟩ : BufTy).Contents (Elt Ideal)) (W1 : (⟨S64x64, .f32⟩ : BufTy).Contents (Elt Ideal))
    (B1 : (⟨S64, .f32⟩ : BufTy).Contents (Elt Ideal)) (W2 : (⟨S64x64, .f32⟩ : BufTy).Contents (Elt Ideal))
    (B2 : (⟨S64, .f32⟩ : BufTy).Contents (Elt Ideal)) (r : Fin 20000) (c : Fin 64) :
    mlpStageA (F := Ideal) X W1 B1 W2 B2 (ix2 r c)
      = Cert.Rows.mlp (Ideal.ofBits .f32 0x00000000#32) (fun k => X (ix2 r k)) (fun k n => W1 (ix2 k n))
          (fun n => B1 (ix1 n)) (fun k n => W2 (ix2 k n)) (fun n => B2 (ix1 n)) c := by
  unfold mlpStageA
  dsimp only
  refine (lin_apply dot_S20000x64_S64x64_S20000x64_1_0_0_1_n_n rfl rfl rfl rfl rfl rfl bcast_S64_S1x64_1
    bcast_S1x64_S20000x64_0_1 _ W2 B2 r c).trans ?_
  unfold Cert.Rows.mlp
  refine congrArg (fun x => Cert.Rows.lin x _ _ c) (funext fun k => ?_)
  rw [relu_apply]
  exact congrArg (fun v => max v _) (lin_apply dot_S20000x64_S64x64_S20000x64_1_0_0_1_n_n rfl rfl rfl rfl rfl rfl
    bcast_S64_S1x64_1 bcast_S1x64_S20000x64_0_1 X W1 B1 r k)

/-! ## The perceptron after the second pooling level: 2000 rows -/

/-- The same lines at 2000 rows, with the second level's two matrices and two bias rows. -/
def mlpStageB {F : FTy → Type} [FloatOps F] [Facts₀]
    (X : (⟨S2000x64, .f32⟩ : BufTy).Contents (Elt F)) (W1 : (⟨S64x64, .f32⟩ : BufTy).Contents (Elt F))
    (B1 : (⟨S64, .f32⟩ : BufTy).Contents (Elt F)) (W2 : (⟨S64x64, .f32⟩ : BufTy).Contents (Elt F))
    (B2 : (⟨S64, .f32⟩ : BufTy).Contents (Elt F)) : (⟨S2000x64, .f32⟩ : BufTy).Contents (Elt F) :=
  let a0 := ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)) X W1
  let a1 := (broadcastInDim S1x64 ![1] bcast_S64_S1x64_1 : (⟨S64, .f32⟩ : BufTy).Contents (Elt F) → (⟨S1x64, .f32⟩ : BufTy).Contents (Elt F)) B1
  let a2 := (broadcastInDim S2000x64 ![0, 1] bcast_S1x64_S2000x64_0_1 : (⟨S1x64, .f32⟩ : BufTy).Contents (Elt F) → (⟨S2000x64, .f32⟩ : BufTy).Contents (Elt F)) a1
  let a3 := (addf : (⟨S2000x64, .f32⟩ : BufTy).Contents (Elt F) → (⟨S2000x64, .f32⟩ : BufTy).Contents (Elt F) → (⟨S2000x64, .f32⟩ : BufTy).Contents (Elt F)) a0 a2
  let z0 : (⟨S_, .f32⟩ : BufTy).Contents (Elt F) := constant S_ .f32 0x00000000#32
  let z1 : (⟨S2000x64, .f32⟩ : BufTy).Contents (Elt F) := broadcastInDim S2000x64 ![] bcast_S_S2000x64 z0
  let a4 : (⟨S2000x64, .f32⟩ : BufTy).Contents (Elt F) := maximumf a3 z1
  let a5 := ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)) a4 W2
  let a6 := (broadcastInDim S1x64 ![1] bcast_S64_S1x64_1 : (⟨S64, .f32⟩ : BufTy).Contents (Elt F) → (⟨S1x64, .f32⟩ : BufTy).Contents (Elt F)) B2
  let a7 := (broadcastInDim S2000x64 ![0, 1] bcast_S1x64_S2000x64_0_1 : (⟨S1x64, .f32⟩ : BufTy).Contents (Elt F) → (⟨S2000x64, .f32⟩ : BufTy).Contents (Elt F)) a6
  (addf : (⟨S2000x64, .f32⟩ : BufTy).Contents (Elt F) → (⟨S2000x64, .f32⟩ : BufTy).Contents (Elt F) → (⟨S2000x64, .f32⟩ : BufTy).Contents (Elt F)) a5 a7

/-- Entry (r, c) of the stage's result is the two-layer perceptron of row r of its input. -/
theorem mlpStageB_apply [Facts₀]
    (X : (⟨S2000x64, .f32⟩ : BufTy).Contents (Elt Ideal)) (W1 : (⟨S64x64, .f32⟩ : BufTy).Contents (Elt Ideal))
    (B1 : (⟨S64, .f32⟩ : BufTy).Contents (Elt Ideal)) (W2 : (⟨S64x64, .f32⟩ : BufTy).Contents (Elt Ideal))
    (B2 : (⟨S64, .f32⟩ : BufTy).Contents (Elt Ideal)) (r : Fin 2000) (c : Fin 64) :
    mlpStageB (F := Ideal) X W1 B1 W2 B2 (ix2 r c)
      = Cert.Rows.mlp (Ideal.ofBits .f32 0x00000000#32) (fun k => X (ix2 r k)) (fun k n => W1 (ix2 k n))
          (fun n => B1 (ix1 n)) (fun k n => W2 (ix2 k n)) (fun n => B2 (ix1 n)) c := by
  unfold mlpStageB
  dsimp only
  refine (lin_apply dot_S2000x64_S64x64_S2000x64_1_0_0_1_n_n rfl rfl rfl rfl rfl rfl bcast_S64_S1x64_1
    bcast_S1x64_S2000x64_0_1 _ W2 B2 r c).trans ?_
  unfold Cert.Rows.mlp
  refine congrArg (fun x => Cert.Rows.lin x _ _ c) (funext fun k => ?_)
  rw [relu_apply]
  exact congrArg (fun v => max v _) (lin_apply dot_S2000x64_S64x64_S2000x64_1_0_0_1_n_n rfl rfl rfl rfl rfl rfl
    bcast_S64_S1x64_1 bcast_S1x64_S2000x64_0_1 X W1 B1 r k)

/-! ## The head: 64 rows through 64 → 32 → 16 → 1 -/

/-- The reference's lines from the product of the 64 pooled rows with the 64×32 matrix to the last sum: a dense
    layer, the exponential linear unit (the outlined function: two comparisons with the zero splat; the inner
    choice, itself outlined, of the zero constant — passed through a conversion that changes nothing — or the
    entry; e^· - 1; the product with the splat of one; the outer choice, outlined), a second dense layer, the unit
    again at width 16, and the last dense layer. -/
def headStage {F : FTy → Type} [FloatOps F] [Facts₀]
    (X : (⟨S64x64, .f32⟩ : BufTy).Contents (Elt F)) (W1 : (⟨S64x32, .f32⟩ : BufTy).Contents (Elt F))
    (B1 : (⟨S32, .f32⟩ : BufTy).Contents (Elt F)) (W2 : (⟨S32x16, .f32⟩ : BufTy).Contents (Elt F))
    (B2 : (⟨S16, .f32⟩ : BufTy).Contents (Elt F)) (W3 : (⟨S16x1, .f32⟩ : BufTy).Contents (Elt F))
    (B3 : (⟨S1, .f32⟩ : BufTy).Contents (Elt F)) : (⟨S64x1, .f32⟩ : BufTy).Contents (Elt F) :=
  -- the first layer
  let a0 := ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)) X W1
  let a1 := (broadcastInDim S1x32 ![1] bcast_S32_S1x32_1 : (⟨S32, .f32⟩ : BufTy).Contents (Elt F) → (⟨S1x32, .f32⟩ : BufTy).Contents (Elt F)) B1
  let a2 := (broadcastInDim S64x32 ![0, 1] bcast_S1x32_S64x32_0_1 : (⟨S1x32, .f32⟩ : BufTy).Contents (Elt F) → (⟨S64x32, .f32⟩ : BufTy).Contents (Elt F)) a1
  let a3 := (addf : (⟨S64x32, .f32⟩ : BufTy).Contents (Elt F) → (⟨S64x32, .f32⟩ : BufTy).Contents (Elt F) → (⟨S64x32, .f32⟩ : BufTy).Contents (Elt F)) a0 a2
  -- the unit at width 32
  let e0 : (⟨S_, .f32⟩ : BufTy).Contents (Elt F) := constant S_ .f32 0x00000000#32
  let e1 : (⟨S64x32, .f32⟩ : BufTy).Contents (Elt F) := broadcastInDim S64x32 ![] bcast_S_S64x32 e0
  let e2 : (⟨S64x32, .i1⟩ : BufTy).Contents (Elt F) := cmpf .ogt a3 e1
  let e3 : (⟨S_, .f32⟩ : BufTy).Contents (Elt F) := constant S_ .f32 0x00000000#32
  let e4 : (⟨S64x32, .f32⟩ : BufTy).Contents (Elt F) := broadcastInDim S64x32 ![] bcast_S_S64x32 e3
  let e5 : (⟨S64x32, .i1⟩ : BufTy).Contents (Elt F) := cmpf .ogt a3 e4
  let e6 : (⟨S_, .f32⟩ : BufTy).Contents (Elt F) := constant S_ .f32 0x00000000#32
  let e7 : (⟨S_, .f32⟩ : BufTy).Contents (Elt F) := id e6
  let e8 : (⟨S64x32, .f32⟩ : BufTy).Contents (Elt F) := broadcastInDim S64x32 ![] bcast_S_S64x32 e7
  let e9 : (⟨S64x32, .f32⟩ : BufTy).Contents (Elt F) := select e5 e8 a3
  let e10 : (⟨S64x32, .f32⟩ : BufTy).Contents (Elt F) := Host.expm1 e9
  let e11 : (⟨S_, .f32⟩ : BufTy).Contents (Elt F) := constant S_ .f32 0x3F800000#32
  let e12 : (⟨S64x32, .f32⟩ : BufTy).Contents (Elt F) := broadcastInDim S64x32 ![] bcast_S_S64x32 e11
  let e13 : (⟨S64x32, .f32⟩ : BufTy).Contents (Elt F) := mulf e12 e10
  let a4 : (⟨S64x32, .f32⟩ : BufTy).Contents (Elt F) := select e2 a3 e13
  -- the second layer
  let a5 := ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)) a4 W2
  let a6 := (broadcastInDim S1x16 ![1] bcast_S16_S1x16_1 : (⟨S16, .f32⟩ : BufTy).Contents (Elt F) → (⟨S1x16, .f32⟩ : BufTy).Contents (Elt F)) B2
  let a7 := (broadcastInDim S64x16 ![0, 1] bcast_S1x16_S64x16_0_1 : (⟨S1x16, .f32⟩ : BufTy).Contents (Elt F) → (⟨S64x16, .f32⟩ : BufTy).Contents (Elt F)) a6
  let a8 := (addf : (⟨S64x16, .f32⟩ : BufTy).Contents (Elt F) → (⟨S64x16, .f32⟩ : BufTy).Contents (Elt F) → (⟨S64x16, .f32⟩ : BufTy).Contents (Elt F)) a5 a7
  -- the unit at width 16
  let g0 : (⟨S_, .f32⟩ : BufTy).Contents (Elt F) := constant S_ .f32 0x00000000#32
  let g1 : (⟨S64x16, .f32⟩ : BufTy).Contents (Elt F) := broadcastInDim S64x16 ![] bcast_S_S64x16 g0
  let g2 : (⟨S64x16, .i1⟩ : BufTy).Contents (Elt F) := cmpf .ogt a8 g1
  let g3 : (⟨S_, .f32⟩ : BufTy).Contents (Elt F) := constant S_ .f32 0x00000000#32
  let g4 : (⟨S64x16, .f32⟩ : BufTy).Contents (Elt F) := broadcastInDim S64x16 ![] bcast_S_S64x16 g3
  let g5 : (⟨S64x16, .i1⟩ : BufTy).Contents (Elt F) := cmpf .ogt a8 g4
  let g6 : (⟨S_, .f32⟩ : BufTy).Contents (Elt F) := constant S_ .f32 0x00000000#32
  let g7 : (⟨S_, .f32⟩ : BufTy).Contents (Elt F) := id g6
  let g8 : (⟨S64x16, .f32⟩ : BufTy).Contents (Elt F) := broadcastInDim S64x16 ![] bcast_S_S64x16 g7
  let g9 : (⟨S64x16, .f32⟩ : BufTy).Contents (Elt F) := select g5 g8 a8
  let g10 : (⟨S64x16, .f32⟩ : BufTy).Contents (Elt F) := Host.expm1 g9
  let g11 : (⟨S_, .f32⟩ : BufTy).Contents (Elt F) := constant S_ .f32 0x3F800000#32
  let g12 : (⟨S64x16, .f32⟩ : BufTy).Contents (Elt F) := broadcastInDim S64x16 ![] bcast_S_S64x16 g11
  let g13 : (⟨S64x16, .f32⟩ : BufTy).Contents (Elt F) := mulf g12 g10
  let a9 : (⟨S64x16, .f32⟩ : BufTy).Contents (Elt F) := select g2 a8 g13
  -- the last layer
  let a10 := ((fun l r => Host.dotGeneral dot_S64x16_S16x1_S64x1_1_0_0_1_n_n none l r) : (⟨S64x16, .f32⟩ : BufTy).Contents (Elt F) → (⟨S16x1, .f32⟩ : BufTy).Contents (Elt F) → (⟨S64x1, .f32⟩ : BufTy).Contents (Elt F)) a9 W3
  let a11 := (broadcastInDim S1x1 ![1] bcast_S1_S1x1_1 : (⟨S1, .f32⟩ : BufTy).Contents (Elt F) → (⟨S1x1, .f32⟩ : BufTy).Contents (Elt F)) B3
  let a12 := (broadcastInDim S64x1 ![0, 1] bcast_S1x1_S64x1_0_1 : (⟨S1x1, .f32⟩ : BufTy).Contents (Elt F) → (⟨S64x1, .f32⟩ : BufTy).Contents (Elt F)) a11
  (addf : (⟨S64x1, .f32⟩ : BufTy).Contents (Elt F) → (⟨S64x1, .f32⟩ : BufTy).Contents (Elt F) → (⟨S64x1, .f32⟩ : BufTy).Contents (Elt F)) a10 a12

/-- Entry (r, c) of the head's result is the three-layer head of row r of its input. -/
theorem headStage_apply [Facts₀]
    (X : (⟨S64x64, .f32⟩ : BufTy).Contents (Elt Ideal)) (W1 : (⟨S64x32, .f32⟩ : BufTy).Contents (Elt Ideal))
    (B1 : (⟨S32, .f32⟩ : BufTy).Contents (Elt Ideal)) (W2 : (⟨S32x16, .f32⟩ : BufTy).Contents (Elt Ideal))
    (B2 : (⟨S16, .f32⟩ : BufTy).Contents (Elt Ideal)) (W3 : (⟨S16x1, .f32⟩ : BufTy).Contents (Elt Ideal))
    (B3 : (⟨S1, .f32⟩ : BufTy).Contents (Elt Ideal)) (r : Fin 64) (c : Fin 1) :
    headStage (F := Ideal) X W1 B1 W2 B2 W3 B3 (ix2 r c)
      = Cert.Rows.head (fun k => X (ix2 r k)) (fun k n => W1 (ix2 k n)) (fun n => B1 (ix1 n))
          (fun k n => W2 (ix2 k n)) (fun n => B2 (ix1 n)) (fun k n => W3 (ix2 k n)) (fun n => B3 (ix1 n)) c := by
  unfold headStage
  dsimp only
  -- the last layer, of the second unit's row
  refine (lin_apply dot_S64x16_S16x1_S64x1_1_0_0_1_n_n rfl rfl rfl rfl rfl rfl bcast_S1_S1x1_1
    bcast_S1x1_S64x1_0_1 _ W3 B3 r c).trans ?_
  unfold Cert.Rows.head
  refine congrArg (fun x => Cert.Rows.lin x _ _ c) (funext fun k => ?_)
  -- the second unit, of the second layer's entry
  refine (elu_apply bcast_S_S64x16 _ (ix2 r k)).trans (congrArg Cert.Rows.elu ?_)
  refine (lin_apply dot_S64x32_S32x16_S64x16_1_0_0_1_n_n rfl rfl rfl rfl rfl rfl bcast_S16_S1x16_1
    bcast_S1x16_S64x16_0_1 _ W2 B2 r k).trans ?_
  refine congrArg (fun x => Cert.Rows.lin x _ _ k) (funext fun j => ?_)
  -- the first unit, of the first layer's entry
  refine (elu_apply bcast_S_S64x32 _ (ix2 r j)).trans (congrArg Cert.Rows.elu ?_)
  exact lin_apply dot_S64x64_S64x32_S64x32_1_0_0_1_n_n rfl rfl rfl rfl rfl rfl bcast_S32_S1x32_1
    bcast_S1x32_S64x32_0_1 X W1 B1 r j

end Cert.ReferenceIdeal.Stage

end
-- ==== Proof.RTail.lean ====
/-
  The pooling levels and the head of the reference, read off its run.

  After the last message-passing layer the reference sums the node rows into 20000 pooled rows by the first index
  array, passes them through a two-layer perceptron, sums those into 2000 rows by the second index array, passes
  them through a second perceptron, sums those into 64 rows by the third index array, and takes the 64 rows through
  the three-layer head. Each of these six stretches of the run is read here from any contents of the buffers: a
  pooling stretch leaves the scatter-add of its input rows over a zero array; a perceptron stretch and the head
  stretch leave the stage functions, which at the extended reals are the row maps of the shared specification
  applied row by row. The levels of the run then carry these readings, the weight and index arguments standing at
  every level as they were launched.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageM
import Idealize.ShloMosaic.Lib.ValueIdx
import Idealize.ShloMosaic.Lib.StableHlo.Run

noncomputable section

namespace Cert.ReferenceIdeal.Layers

open Cert.ReferenceIdeal Cert.ReferenceIdeal.RunV Idealize.ShloMosaic Idealize.ShloMosaic.ValueIdx
open Idealize.ShloMosaic.StableHlo Idealize.ShloMosaic.TcCoe Idealize.SL.Sem
open Cert.ReferenceIdeal.Facts₀

/-! ## The pooling sums

Each pooling level sums the rows of an array into the rows its index array names: a zero array of the pooled size,
the index array made a one-column matrix, and the scatter-add of the rows at those indices. -/

/-- The first pooling level, 100000 rows into 20000: the reference's lines %cst_53, %375, %376, %377 composed. -/
def pool1R {F : FTy → Type} [FloatOps F] [Facts₀] (idx : (⟨S100000, .i32⟩ : BufTy).Contents (Elt F))
    (x : (⟨S100000x64, .f32⟩ : BufTy).Contents (Elt F)) : (⟨S20000x64, .f32⟩ : BufTy).Contents (Elt F) :=
  Host.scatterAdd scatter_S20000x64_S100000x1_S100000x64_1_0_0_1
    (broadcastInDim S20000x64 ![] bcast_S_S20000x64 (constant S_ .f32 0x00000000#32))
    (broadcastInDim S100000x1 ![0] bcast_S100000_S100000x1_0 idx) x

/-- The second pooling level, 20000 rows into 2000: the lines %cst_54, %387, %388, %389 composed. -/
def pool2R {F : FTy → Type} [FloatOps F] [Facts₀] (idx : (⟨S20000, .i32⟩ : BufTy).Contents (Elt F))
    (x : (⟨S20000x64, .f32⟩ : BufTy).Contents (Elt F)) : (⟨S2000x64, .f32⟩ : BufTy).Contents (Elt F) :=
  Host.scatterAdd scatter_S2000x64_S20000x1_S20000x64_1_0_0_1
    (broadcastInDim S2000x64 ![] bcast_S_S2000x64 (constant S_ .f32 0x00000000#32))
    (broadcastInDim S20000x1 ![0] bcast_S20000_S20000x1_0 idx) x

/-- The third pooling level, 2000 rows into 64: the lines %cst_55, %399, %400, %401 composed. -/
def pool3R {F : FTy → Type} [FloatOps F] [Facts₀] (idx : (⟨S2000, .i32⟩ : BufTy).Contents (Elt F))
    (x : (⟨S2000x64, .f32⟩ : BufTy).Contents (Elt F)) : (⟨S64x64, .f32⟩ : BufTy).Contents (Elt F) :=
  Host.scatterAdd scatter_S64x64_S2000x1_S2000x64_1_0_0_1
    (broadcastInDim S64x64 ![] bcast_S_S64x64 (constant S_ .f32 0x00000000#32))
    (broadcastInDim S2000x1 ![0] bcast_S2000_S2000x1_0 idx) x

variable {F : FTy → Type} [FloatOps F]

/-! ## Each stretch, from any contents -/

/-- After the first pooling stretch, from any contents, the pooled buffer holds the pooling sum of what the index
    argument and the last layer's state held. -/
theorem pool1_after (V : Valuation τ sig (Elt F)) :
    after (opsC20 : List (HloOp τ sig (Elt F))) V (Proc.devRef .tc main_v377)
      = pool1R (V (Proc.devRef .tc main_arg2)) (V (Proc.devRef .tc main_v374)) := by
  after_results
  rfl

/-- After the second pooling stretch, likewise. -/
theorem pool2_after (V : Valuation τ sig (Elt F)) :
    after (opsC22 : List (HloOp τ sig (Elt F))) V (Proc.devRef .tc main_v389)
      = pool2R (V (Proc.devRef .tc main_arg3)) (V (Proc.devRef .tc main_v386)) := by
  after_results
  rfl

/-- After the third pooling stretch, likewise. -/
theorem pool3_after (V : Valuation τ sig (Elt F)) :
    after (opsC24 : List (HloOp τ sig (Elt F))) V (Proc.devRef .tc main_v401)
      = pool3R (V (Proc.devRef .tc main_arg4)) (V (Proc.devRef .tc main_v398)) := by
  after_results
  rfl

/-- After the first perceptron's stretch, from any contents, its result buffer holds the perceptron stage of what
    the pooled buffer and the four weight arguments held. -/
theorem mlp1_after (V : Valuation τ sig (Elt F)) :
    after (opsC21 : List (HloOp τ sig (Elt F))) V (Proc.devRef .tc main_v386)
      = Stage.mlpStageA (V (Proc.devRef .tc main_v377)) (V (Proc.devRef .tc main_arg13))
          (V (Proc.devRef .tc main_arg14)) (V (Proc.devRef .tc main_arg15)) (V (Proc.devRef .tc main_arg16)) := by
  after_results
  rfl

/-- After the second perceptron's stretch, likewise. -/
theorem mlp2_after (V : Valuation τ sig (Elt F)) :
    after (opsC23 : List (HloOp τ sig (Elt F))) V (Proc.devRef .tc main_v398)
      = Stage.mlpStageB (V (Proc.devRef .tc main_v389)) (V (Proc.devRef .tc main_arg17))
          (V (Proc.devRef .tc main_arg18)) (V (Proc.devRef .tc main_arg19)) (V (Proc.devRef .tc main_arg20)) := by
  after_results
  rfl

/-- After the head's stretch, from any contents, the result buffer holds the head stage of what the last pooled
    buffer and the six weight arguments held. -/
theorem head_after (V : Valuation τ sig (Elt F)) :
    after (opsC25 : List (HloOp τ sig (Elt F))) V (Proc.devRef .tc main_v415)
      = Stage.headStage (V (Proc.devRef .tc main_v401)) (V (Proc.devRef .tc main_arg21))
          (V (Proc.devRef .tc main_arg22)) (V (Proc.devRef .tc main_arg23)) (V (Proc.devRef .tc main_arg24))
          (V (Proc.devRef .tc main_arg25)) (V (Proc.devRef .tc main_arg26)) := by
  after_results_simp
  rfl

/-! ## The stretches read as the network's row maps, at the extended reals -/

/-- The first perceptron's result, as a matrix, is the perceptron of the pooled rows, row by row. -/
theorem tail1_of (V : Valuation τ sig (Elt Ideal)) :
    Cert.Sem.toMat (after (opsC21 : List (HloOp τ sig (Elt Ideal))) V (Proc.devRef .tc main_v386) : Cert.Sem.Arr 20000 64)
      = Cert.Sem.perceptron (Cert.Sem.toMat (V (Proc.devRef .tc main_v377)))
          (Cert.Sem.toMat (V (Proc.devRef .tc main_arg13))) (Cert.Sem.toVec (V (Proc.devRef .tc main_arg14)))
          (Cert.Sem.toMat (V (Proc.devRef .tc main_arg15))) (Cert.Sem.toVec (V (Proc.devRef .tc main_arg16))) := by
  rw [mlp1_after V]
  exact funext fun r => funext fun q => Stage.mlpStageA_apply _ _ _ _ _ r q

/-- The second perceptron's result, likewise. -/
theorem tail2_of (V : Valuation τ sig (Elt Ideal)) :
    Cert.Sem.toMat (after (opsC23 : List (HloOp τ sig (Elt Ideal))) V (Proc.devRef .tc main_v398) : Cert.Sem.Arr 2000 64)
      = Cert.Sem.perceptron (Cert.Sem.toMat (V (Proc.devRef .tc main_v389)))
          (Cert.Sem.toMat (V (Proc.devRef .tc main_arg17))) (Cert.Sem.toVec (V (Proc.devRef .tc main_arg18)))
          (Cert.Sem.toMat (V (Proc.devRef .tc main_arg19))) (Cert.Sem.toVec (V (Proc.devRef .tc main_arg20))) := by
  rw [mlp2_after V]
  exact funext fun r => funext fun q => Stage.mlpStageB_apply _ _ _ _ _ r q

/-- The head's result, as a one-column matrix, is the head of the pooled rows, row by row. -/
theorem tail3_of (V : Valuation τ sig (Elt Ideal)) :
    Cert.Sem.toMat (after (opsC25 : List (HloOp τ sig (Elt Ideal))) V (Proc.devRef .tc main_v415) : Cert.Sem.Arr 64 1)
      = Cert.Sem.headOf (Cert.Sem.toMat (V (Proc.devRef .tc main_v401)))
          (Cert.Sem.toMat (V (Proc.devRef .tc main_arg21))) (Cert.Sem.toVec (V (Proc.devRef .tc main_arg22)))
          (Cert.Sem.toMat (V (Proc.devRef .tc main_arg23))) (Cert.Sem.toVec (V (Proc.devRef .tc main_arg24)))
          (Cert.Sem.toMat (V (Proc.devRef .tc main_arg25))) (Cert.Sem.toVec (V (Proc.devRef .tc main_arg26))) := by
  rw [head_after V]
  exact funext fun r => funext fun q => Stage.headStage_apply _ _ _ _ _ _ _ r q

/-! ## The levels of the reference's run

Level k+1 is level k after stretch k; an argument of @main stands at every level as it was launched. -/

section Levels

variable (m : (ℓ : Loc nD τ sig) → Buf (Elt F) ℓ) (c : Dev nD)

/-- The first pooled array is the pooling sum, by the first index argument, of the last layer's state. -/
theorem pool1_level :
    Lv21 m c (Proc.devRef .tc main_v377)
      = pool1R (Lv0 m c (Proc.devRef .tc main_arg2)) (Lv20 m c (Proc.devRef .tc main_v374)) :=
  (pool1_after (Lv20 m c)).trans (by rw [Lv20_arg m c (r := main_arg2) (by decide)])

/-- The second pooled array is the pooling sum, by the second index argument, of the first perceptron's result. -/
theorem pool2_level :
    Lv23 m c (Proc.devRef .tc main_v389)
      = pool2R (Lv0 m c (Proc.devRef .tc main_arg3)) (Lv22 m c (Proc.devRef .tc main_v386)) :=
  (pool2_after (Lv22 m c)).trans (by rw [Lv22_arg m c (r := main_arg3) (by decide)])

/-- The third pooled array is the pooling sum, by the third index argument, of the second perceptron's result. -/
theorem pool3_level :
    Lv25 m c (Proc.devRef .tc main_v401)
      = pool3R (Lv0 m c (Proc.devRef .tc main_arg4)) (Lv24 m c (Proc.devRef .tc main_v398)) :=
  (pool3_after (Lv24 m c)).trans (by rw [Lv24_arg m c (r := main_arg4) (by decide)])

end Levels

section IdealLevels

variable (m : (ℓ : Loc nD τ sig) → Buf (Elt Ideal) ℓ) (c : Dev nD)

/-- The first perceptron: its result is the perceptron of the first pooled array under the launched weights. -/
theorem tail1R :
    Cert.Sem.toMat (Lv22 m c (Proc.devRef .tc main_v386) : Cert.Sem.Arr 20000 64)
      = Cert.Sem.perceptron (Cert.Sem.toMat (Lv21 m c (Proc.devRef .tc main_v377)))
          (Cert.Sem.toMat (Lv0 m c (Proc.devRef .tc main_arg13))) (Cert.Sem.toVec (Lv0 m c (Proc.devRef .tc main_arg14)))
          (Cert.Sem.toMat (Lv0 m c (Proc.devRef .tc main_arg15))) (Cert.Sem.toVec (Lv0 m c (Proc.devRef .tc main_arg16))) := by
  rw [← Lv21_arg m c (r := main_arg13) (by decide), ← Lv21_arg m c (r := main_arg14) (by decide),
    ← Lv21_arg m c (r := main_arg15) (by decide), ← Lv21_arg m c (r := main_arg16) (by decide)]
  exact tail1_of (Lv21 m c)

/-- The second perceptron: its result is the perceptron of the second pooled array under the launched weights. -/
theorem tail2R :
    Cert.Sem.toMat (Lv24 m c (Proc.devRef .tc main_v398) : Cert.Sem.Arr 2000 64)
      = Cert.Sem.perceptron (Cert.Sem.toMat (Lv23 m c (Proc.devRef .tc main_v389)))
          (Cert.Sem.toMat (Lv0 m c (Proc.devRef .tc main_arg17))) (Cert.Sem.toVec (Lv0 m c (Proc.devRef .tc main_arg18)))
          (Cert.Sem.toMat (Lv0 m c (Proc.devRef .tc main_arg19))) (Cert.Sem.toVec (Lv0 m c (Proc.devRef .tc main_arg20))) := by
  rw [← Lv23_arg m c (r := main_arg17) (by decide), ← Lv23_arg m c (r := main_arg18) (by decide),
    ← Lv23_arg m c (r := main_arg19) (by decide), ← Lv23_arg m c (r := main_arg20) (by decide)]
  exact tail2_of (Lv23 m c)

/-- The head: the program's result is the head of the third pooled array under the launched weights. -/
theorem tail3R :
    Cert.Sem.toMat (Lv26 m c (Proc.devRef .tc main_v415) : Cert.Sem.Arr 64 1)
      = Cert.Sem.headOf (Cert.Sem.toMat (Lv25 m c (Proc.devRef .tc main_v401)))
          (Cert.Sem.toMat (Lv0 m c (Proc.devRef .tc main_arg21))) (Cert.Sem.toVec (Lv0 m c (Proc.devRef .tc main_arg22)))
          (Cert.Sem.toMat (Lv0 m c (Proc.devRef .tc main_arg23))) (Cert.Sem.toVec (Lv0 m c (Proc.devRef .tc main_arg24)))
          (Cert.Sem.toMat (Lv0 m c (Proc.devRef .tc main_arg25))) (Cert.Sem.toVec (Lv0 m c (Proc.devRef .tc main_arg26))) := by
  rw [← Lv25_arg m c (r := main_arg21) (by decide), ← Lv25_arg m c (r := main_arg22) (by decide),
    ← Lv25_arg m c (r := main_arg23) (by decide), ← Lv25_arg m c (r := main_arg24) (by decide),
    ← Lv25_arg m c (r := main_arg25) (by decide), ← Lv25_arg m c (r := main_arg26) (by decide)]
  exact tail3_of (Lv25 m c)

end IdealLevels

end Cert.ReferenceIdeal.Layers

end
-- ==== Proof.KLBase.lean ====
/-
  What every message-passing layer shares: the buffers no layer changes, and the edge pass.

  The network's layers all read the same launch arguments (the index array and the stacked weight arrays, from which
  each layer slices its own) and the same two edge rows (source and target node of every edge, sliced from the edge
  array once, before the first layer). No host stretch of a layer writes them and no region has them among its
  arrays, so each holds at every layer what it held at the start. This module names those buffers, gives the two
  steps by which a buffer is carried across a host stretch or a region, carries the buffers up to the first layer's
  exit, and states the edge pass (gather the rows at the sources, add them up at the targets) as one function of the
  two edge rows and the node array, the same at every layer, and the
  embedding sum likewise.
-/
import proofs.«157269_j2267742732766_1_alg».proof.Proof.Gen.KernelIdeal.Frame
import Idealize.ShloMosaic.PureOps.Ideal

set_option maxRecDepth 16384

noncomputable section

namespace Cert.KernelIdeal.Layers

open Cert.KernelIdeal Cert.KernelIdeal.Gen Idealize.ShloMosaic Idealize.ShloMosaic.TcCoe

/-! ## The two steps -/

/-- No operation of the host stretch `ops` writes the buffer: the stretch's operations are listed, each writes its
    one result buffer, and that buffer is another reference. -/
macro "stretch_fact " ops:ident : tactic =>
  `(tactic| (simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer that no operation of the host stretch `ops` writes holds after the stretch what it held before
    (closes a goal `after the stretch = before it`). -/
macro "stretch_keeps " ops:ident : tactic =>
  `(tactic| exact StableHlo.after_of_forall_not_mem _ _ (List.forall_iff_forall_mem.mp (by stretch_fact $ops:ident)))

/-- The same as one step of a chain: a goal `after the stretch = x` becomes `before the stretch = x`. -/
macro "stretch_step " ops:ident : tactic =>
  `(tactic| refine (StableHlo.after_of_forall_not_mem _ _ (List.forall_iff_forall_mem.mp (by stretch_fact $ops:ident))).trans ?_)

/-! ## The buffers no layer changes -/

/-- The launch arguments the layers read: the index array and the eight stacked weight arrays. -/
def argRefs : List (Ref sig .tc) :=
  [main_arg0, main_arg5, main_arg6, main_arg7, main_arg8, main_arg9, main_arg10, main_arg11, main_arg12]

/-- The same with the two edge rows (the edges' sources and targets). -/
def keptRefs : List (Ref sig .tc) := main_v1 :: main_v3 :: argRefs

set_option hygiene false in
/-- A member of `keptRefs` is one of its eleven references. -/
macro "kept_cases " h:ident : tactic =>
  `(tactic| (simp only [keptRefs, argRefs, List.mem_cons, List.not_mem_nil, or_false] at $h:ident
             rcases $h:ident with rfl | rfl | rfl | rfl | rfl | rfl | rfl | rfl | rfl | rfl | rfl))

set_option hygiene false in
/-- A member of `argRefs` is one of its nine references. -/
macro "arg_cases " h:ident : tactic =>
  `(tactic| (simp only [argRefs, List.mem_cons, List.not_mem_nil, or_false] at $h:ident
             rcases $h:ident with rfl | rfl | rfl | rfl | rfl | rfl | rfl | rfl | rfl))

theorem argRefs_sub {b : Ref sig .tc} (hb : b ∈ argRefs) : b ∈ keptRefs :=
  List.mem_cons_of_mem _ (List.mem_cons_of_mem _ hb)

/-! ## The edge pass -/

section Pass

variable {F : FTy → Type} [FloatOps F]

/-- The edge pass: the rows of the node array `h` gathered at the edges' sources `src` (a negative source counted
    from the array's end) and added up, from zero, at the edges' targets `dst`. The thirteen operations in the
    order the program has them. -/
def passK (src dst : (⟨S1600000, .i32⟩ : BufTy).Contents (Elt F)) (h : (⟨S100000x64, .f32⟩ : BufTy).Contents (Elt F)) :
    (⟨S100000x64, .f32⟩ : BufTy).Contents (Elt F) :=
  let c : IVec S_ 32 := constantI S_ 32 0#32
  let v11 : IVec S1600000 32 := broadcastInDim S1600000 ![] bcast_S_S1600000 c
  let v12 : IVec S1600000 1 := cmpi .slt src v11
  let c_0 : IVec S_ 32 := constantI S_ 32 100000#32
  let v13 : IVec S1600000 32 := broadcastInDim S1600000 ![] bcast_S_S1600000 c_0
  let v14 : IVec S1600000 32 := addi src v13
  let v15 : IVec S1600000 32 := select v12 v14 src
  let v16 : IVec S1600000x1 32 := broadcastInDim S1600000x1 ![0] bcast_S1600000_S1600000x1_0 v15
  let v17 : FVec F S1600000x64 .f32 := (fun x i => Host.gather gather_S100000x64_S1600000x1_S1600000x64_1_0_n_n_0_1_164 x i) h v16
  let cst_1 : FVec F S_ .f32 := constant S_ .f32 0x00000000#32
  let v18 : FVec F S100000x64 .f32 := broadcastInDim S100000x64 ![] bcast_S_S100000x64 cst_1
  let v19 : IVec S1600000x1 32 := broadcastInDim S1600000x1 ![0] bcast_S1600000_S1600000x1_0 dst
  (fun x i u => Host.scatterAdd scatter_S100000x64_S1600000x1_S1600000x64_1_0_0_1 x i u) v18 v19 v17

/-- The embedding sum: the looked-up rows of a node's two positions added up, from zero. -/
def embSum (x : (⟨S100000x2x64, .f32⟩ : BufTy).Contents (Elt F)) : (⟨S100000x64, .f32⟩ : BufTy).Contents (Elt F) :=
  let cst : FVec F S_ .f32 := constant S_ .f32 0x00000000#32
  (fun x v => Host.reduceAdd x v reducesTo_S100000x2x64_S100000x64_d1 h_S_) x cst

end Pass

/-! ## Up to the first layer's exit -/

variable (m : (ℓ : Loc nD τ sig) → Buf (Elt Ideal) ℓ) (ρ : Dev nD → PrngReg)

/-- A launch argument holds after the first host stretch, which slices the edge rows and the first table, what it
    held at launch. -/
theorem launch_W1 (c : Dev nD) (b : Ref sig .tc) (hb : b ∈ argRefs) :
    W1 m ρ c (Proc.devRef .tc b) = m ((c : Thread nD τ).loc b) := by
  arg_cases hb
  all_goals
    stretch_step hostOps0
    rfl

/-- From the first host stretch to the first layer's exit nothing writes the kept buffers: the lookup, the
    embedding sum and the edge pass of the first layer read them, and regions 0 and 1 have other arrays. -/
theorem kept_L0 (c : Dev nD) (b : Ref sig .tc) (hb : b ∈ keptRefs) :
    W6 m ρ c (Proc.devRef .tc b) = W1 m ρ c (Proc.devRef .tc b) := by
  kept_cases hb
  all_goals
    refine (W6_of_ne m ρ c _ ?_).trans ?_
    · decide
    stretch_step hostOps1
    refine (W4_of_ne m ρ c _ ?_).trans ?_
    · decide
    stretch_step hostOps0_2
    stretch_keeps hostOps0_1

/-- At the first layer's exit a launch argument holds what it held at launch. -/
theorem launch_L0 (c : Dev nD) (b : Ref sig .tc) (hb : b ∈ argRefs) :
    W6 m ρ c (Proc.devRef .tc b) = m ((c : Thread nD τ).loc b) :=
  (kept_L0 m ρ c b (argRefs_sub hb)).trans (launch_W1 m ρ c b hb)

end Cert.KernelIdeal.Layers

end
-- ==== Proof.RStageA.lean ====
/-
  The transform stages of the reference, read at an index.

  Each message-passing layer begins by transforming every node's row. In the first layer the row of embedding sums
  is multiplied by a 64×64 weight matrix. In each later layer the previous state and the embedding sums are laid
  side by side into a row of 128, multiplied by a 128×64 weight matrix, and a bias row is added. The reference
  computes these on whole 100000-row arrays: one host product for the first layer; a concatenation, a host product,
  two broadcasts of the bias and an addition for a later layer. Here each stage is the composition of exactly those
  array operations, and at the index (r, c) it is the row function of the specification applied to row r.
-/
import proofs.«157269_j2267742732766_1_alg».proof.ReferenceIdeal
import proofs.«157269_j2267742732766_1_alg».proof.Proof.Rows
import proofs.«157269_j2267742732766_1_alg».proof.Proof.LibDot
import Idealize.ShloMosaic.Lib.ValueIdx
import Idealize.ShloMosaic.Lib.Pipeline.Value
import Idealize.ShloMosaic.PureOps.Ideal.Laws

noncomputable section

namespace Cert.ReferenceIdeal.Stage

open Cert.ReferenceIdeal Idealize.ShloMosaic Idealize.ShloMosaic.ValueIdx

/- The dimension-number records and the shape relations the operations take are stated by the program's facts. -/
variable [Facts₀]
open Facts₀

/-- The first layer's transform: the embedding sums times the layer's 64×64 weight matrix, as one host product. -/
def hStage {F : FTy → Type} [FloatOps F]
    (X : (⟨S100000x64, .f32⟩ : BufTy).Contents (Elt F)) (W : (⟨S64x64, .f32⟩ : BufTy).Contents (Elt F)) :
    (⟨S100000x64, .f32⟩ : BufTy).Contents (Elt F) :=
  ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) X W

/-- A later layer's transform, in the order the program computes it: the previous state and the embedding sums
    side by side along the feature axis; that 100000×128 array times the layer's 128×64 weight matrix; the bias row
    of 64 made a 1×64 array and then repeated down the 100000 rows; the sum of the product and the repeated bias. -/
def transStage {F : FTy → Type} [FloatOps F]
    (X ZE : (⟨S100000x64, .f32⟩ : BufTy).Contents (Elt F)) (TW : (⟨S128x64, .f32⟩ : BufTy).Contents (Elt F))
    (TB : (⟨S64, .f32⟩ : BufTy).Contents (Elt F)) : (⟨S100000x64, .f32⟩ : BufTy).Contents (Elt F) :=
  let v81 := ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) X ZE
  let v84 := ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) v81 TW
  let v87 := (broadcastInDim S1x64 ![1] bcast_S64_S1x64_1 : (⟨S64, .f32⟩ : BufTy).Contents (Elt F) → (⟨S1x64, .f32⟩ : BufTy).Contents (Elt F)) TB
  let v88 := (broadcastInDim S100000x64 ![0, 1] bcast_S1x64_S100000x64_0_1 : (⟨S1x64, .f32⟩ : BufTy).Contents (Elt F) → (⟨S100000x64, .f32⟩ : BufTy).Contents (Elt F)) v87
  (addf : (⟨S100000x64, .f32⟩ : BufTy).Contents (Elt F) → (⟨S100000x64, .f32⟩ : BufTy).Contents (Elt F) → (⟨S100000x64, .f32⟩ : BufTy).Contents (Elt F)) v84 v88

/-- Entry (r, c) of the first layer's transform is entry c of row r times the weight matrix: the host product
    at an index is the contraction sum, and for these dimension numbers the sum runs over the shared axis with the
    left operand read along row r and the right operand down column c. -/
theorem hStage_apply (X : (⟨S100000x64, .f32⟩ : BufTy).Contents (Elt Ideal)) (W : (⟨S64x64, .f32⟩ : BufTy).Contents (Elt Ideal))
    (r : Fin 100000) (c : Fin 64) :
    hStage (F := Ideal) X W (ix2 r c) = Cert.Rows.dot (fun k => X (ix2 r k)) (fun k n => W (ix2 k n)) c := by
  unfold hStage Cert.Rows.dot
  refine (Ideal.dotGeneral_apply _ _ _ _ _ _).trans ?_
  exact Cert.LibDot.sum_std dot_S100000x64_S64x64_S100000x64_1_0_0_1_n_n rfl rfl rfl rfl rfl rfl X W r c

/-- Two 100000×64 arrays laid side by side along the feature axis, read at (r, k): row r of the first array
    at k below 64, row r of the second at k - 64 from 64 on. The row coordinate is untouched; the feature
    coordinate falls in the first piece or, the first piece's extent less, in the second. -/
theorem concat_apply (X ZE : S100000x64.Idx → EReal) (r : Fin 100000) (k : Fin 128) :
    concatenate S100000x128 1 [⟨S100000x64, X⟩, ⟨S100000x64, ZE⟩] concatenates_S100000x64_S100000x64_S100000x128_d1 (ix2 r k)
      = Cert.Rows.cat (fun q => X (ix2 r q)) (fun q => ZE (ix2 r q)) k := by
  unfold Cert.Rows.cat
  split
  · next h =>
    exact concatenate_pair_apply_left 1 X ZE _ (ix2 r k) rfl (ix2 r ⟨k.val, h⟩)
      (fun b => by match b with | ⟨0, _⟩ => rfl | ⟨1, _⟩ => rfl)
  · next h =>
    have hk := k.isLt
    exact concatenate_pair_apply_right 1 X ZE _ (ix2 r k) rfl rfl (ix2 r ⟨k.val - 64, by omega⟩)
      (fun b hb => by match b, hb with | ⟨0, _⟩, _ => rfl | ⟨1, _⟩, hb => exact absurd rfl hb)
      (by show k.val - 64 + 64 = k.val; omega)

/-- The bias row made a 1×64 array and then repeated down the rows, read at (r, c), is the bias at c: the
    second broadcast reads its operand at (0, c) (the operand's row axis has extent one), and the first reads
    the row of 64 at the coordinate on the axis it was placed on. -/
theorem bias_apply (TB : S64.Idx → EReal) (r : Fin 100000) (c : Fin 64) :
    broadcastInDim S100000x64 ![0, 1] bcast_S1x64_S100000x64_0_1 (broadcastInDim S1x64 ![1] bcast_S64_S1x64_1 TB) (ix2 r c)
      = TB (ix1 c) := by
  refine (broadcastInDim_apply _ _ _ (ix2 r c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

/-- Entry (r, c) of a later layer's transform is entry c of the affine map applied to row r of the previous
    state beside row r of the embedding sums: the sum splits at the index, the product is the contraction sum over
    the 128 side-by-side features, each of which is read out of one of the two arrays, and the repeated bias is the
    bias at c. -/
theorem transStage_apply (X ZE : (⟨S100000x64, .f32⟩ : BufTy).Contents (Elt Ideal)) (TW : (⟨S128x64, .f32⟩ : BufTy).Contents (Elt Ideal))
    (TB : (⟨S64, .f32⟩ : BufTy).Contents (Elt Ideal)) (r : Fin 100000) (c : Fin 64) :
    transStage (F := Ideal) X ZE TW TB (ix2 r c)
      = Cert.Rows.trans (fun k => X (ix2 r k)) (fun k => ZE (ix2 r k)) (fun k n => TW (ix2 k n)) (fun n => TB (ix1 n)) c := by
  unfold transStage Cert.Rows.trans Cert.Rows.lin Cert.Rows.dot
  refine (addf_apply _ _ _).trans ?_
  refine congrArg₂ (· + ·) ?_ (bias_apply TB r c)
  refine (Ideal.dotGeneral_apply _ _ _ _ _ _).trans ?_
  refine (Cert.LibDot.sum_std dot_S100000x128_S128x64_S100000x64_1_0_0_1_n_n rfl rfl rfl rfl rfl rfl _ TW r c).trans ?_
  exact Finset.sum_congr rfl fun k _ => congrArg (· * TW (ix2 k c)) (concat_apply X ZE r k)

end Cert.ReferenceIdeal.Stage

end
-- ==== Proof.RStageB.lean ====
/-
  The gated recurrent update of the reference, as one function of its input arrays, and what it is at an index.

  The reference forms two affine pre-activations of 192 columns, one from the message rows and one from the state
  rows (a matrix product plus a bias row copied down every row), cuts each into three bands of 64 columns (reset,
  update, candidate), and blends: r = σ(i_r + h_r), z = σ(i_z + h_z), n = tanh(i_n + r · h_n), and the new state is
  (1 - z) · n + z · state. The logistic function σ is spelt out as 1 / (1 + exp(-v)) with the single-precision word
  of one. At an index (row, column) this is the row function `Cert.Rows.gru` of the message row, the state row and
  the weights; the only arithmetic fact used is that the word 0x3F800000 is the real number one.
-/
import proofs.«157269_j2267742732766_1_alg».proof.ReferenceIdeal
import proofs.«157269_j2267742732766_1_alg».proof.Proof.Rows
import proofs.«157269_j2267742732766_1_alg».proof.Proof.LibDot
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

namespace Cert.ReferenceIdeal.Stage

open Cert.ReferenceIdeal Idealize.ShloMosaic Idealize.ShloMosaic.ValueIdx

variable [Facts₀]
open Facts₀

/-- The gated recurrent update: the operations of the reference from the message-side matrix product to the final
    blend, in the program's order. `M` is the message array, `XT` the state array. -/
def gruStage {F : FTy → Type} [FloatOps F]
    (M XT : (⟨S100000x64, .f32⟩ : BufTy).Contents (Elt F))
    (Wih : (⟨S64x192, .f32⟩ : BufTy).Contents (Elt F)) (bih : (⟨S192, .f32⟩ : BufTy).Contents (Elt F))
    (Whh : (⟨S64x192, .f32⟩ : BufTy).Contents (Elt F)) (bhh : (⟨S192, .f32⟩ : BufTy).Contents (Elt F)) :
    (⟨S100000x64, .f32⟩ : BufTy).Contents (Elt F) :=
  -- the message-side pre-activation: product, bias row, sum
  let v35 := Host.dotGeneral dot_S100000x64_S64x192_S100000x192_1_0_0_1_n_n none M Wih
  let v36 := broadcastInDim S1x192 ![1] bcast_S192_S1x192_1 bih
  let v37 := broadcastInDim S100000x192 ![0, 1] bcast_S1x192_S100000x192_0_1 v36
  let v38 := addf v35 v37
  -- the state-side pre-activation
  let v39 := Host.dotGeneral dot_S100000x64_S64x192_S100000x192_1_0_0_1_n_n none XT Whh
  let v40 := broadcastInDim S1x192 ![1] bcast_S192_S1x192_1 bhh
  let v41 := broadcastInDim S100000x192 ![0, 1] bcast_S1x192_S100000x192_0_1 v40
  let v42 := addf v39 v41
  -- the three bands of each
  let v43 := extractStridedSlice S100000x64 ![0, 0] v38 slices_S100000x192_S100000x64_0_0
  let v44 := extractStridedSlice S100000x64 ![0, 64] v38 slices_S100000x192_S100000x64_0_64
  let v45 := extractStridedSlice S100000x64 ![0, 128] v38 slices_S100000x192_S100000x64_0_128
  let v46 := extractStridedSlice S100000x64 ![0, 0] v42 slices_S100000x192_S100000x64_0_0
  let v47 := extractStridedSlice S100000x64 ![0, 64] v42 slices_S100000x192_S100000x64_0_64
  let v48 := extractStridedSlice S100000x64 ![0, 128] v42 slices_S100000x192_S100000x64_0_128
  -- the reset gate
  let v49 := addf v43 v46
  let v50 := Host.negf v49
  let v51 := Host.exp v50
  let v52 := broadcastInDim S100000x64 ![] bcast_S_S100000x64 (constant S_ .f32 0x3F800000#32)
  let v53 := addf v52 v51
  let v54 := broadcastInDim S100000x64 ![] bcast_S_S100000x64 (constant S_ .f32 0x3F800000#32)
  let v55 := Host.divf v54 v53
  -- the update gate
  let v56 := addf v44 v47
  let v57 := Host.negf v56
  let v58 := Host.exp v57
  let v59 := broadcastInDim S100000x64 ![] bcast_S_S100000x64 (constant S_ .f32 0x3F800000#32)
  let v60 := addf v59 v58
  let v61 := broadcastInDim S100000x64 ![] bcast_S_S100000x64 (constant S_ .f32 0x3F800000#32)
  let v62 := Host.divf v61 v60
  -- the candidate
  let v63 := mulf v55 v48
  let v64 := addf v45 v63
  let v65 := Host.tanh v64
  -- the blend
  let v66 := broadcastInDim S100000x64 ![] bcast_S_S100000x64 (constant S_ .f32 0x3F800000#32)
  let v67 := subf v66 v62
  let v68 := mulf v67 v65
  let v69 := mulf v62 XT
  addf v68 v69

/-! ## The pieces at an index, on the extended reals -/

/-- The single-precision word of one is the real number one. -/
theorem ofBits_one_f32 : Ideal.ofBits .f32 0x3F800000#32 = 1 := Ideal.ofBits_one_f32

/-- The host's negation at an index is the negation of the element. -/
theorem hostNegf_apply {s : Shape} {φ : FTy} (a : FVec Ideal s φ) (i : s.Idx) : Host.negf a i = -(a i) := rfl

/-- The host's exponential at an index is the exponential of the element. -/
theorem hostExp_apply {s : Shape} {φ : FTy} (a : FVec Ideal s φ) (i : s.Idx) : Host.exp a i = Ideal.exp (a i) := rfl

/-- The host's hyperbolic tangent at an index is that of the element. -/
theorem hostTanh_apply {s : Shape} {φ : FTy} (a : FVec Ideal s φ) (i : s.Idx) : Host.tanh a i = Ideal.tanh (a i) := rfl

/-- The word of one copied to every entry reads that word everywhere. -/
theorem one_apply (i : S100000x64.Idx) :
    broadcastInDim S100000x64 ![] bcast_S_S100000x64 (constant (F := Ideal) S_ .f32 0x3F800000#32) i
      = Ideal.ofBits .f32 0x3F800000#32 :=
  (broadcastInDim_scalar_apply _ _ i).trans (constant_apply _ _)

/-- A bias row, first made a one-row matrix and then copied down every row, reads the bias entry of the column. -/
theorem bias192_apply (b : FVec Ideal S192 .f32) (r : Fin 100000) (j : Fin 192) :
    broadcastInDim S100000x192 ![0, 1] bcast_S1x192_S100000x192_0_1
        (broadcastInDim S1x192 ![1] bcast_S192_S1x192_1 b) (ix2 r j) = b (ix1 j) := by
  refine (broadcastInDim_apply _ _ _ (ix2 r j) (ix2 (0 : Fin 1) j) (fun a => ?_)).trans ?_
  · match a with
    | ⟨0, _⟩ => rfl
    | ⟨1, _⟩ => rfl
  · exact broadcastInDim_apply _ _ b (ix2 (0 : Fin 1) j) (ix1 j) (fun a => match a with | ⟨0, _⟩ => rfl)

/-- An affine pre-activation at (row, column): the row times the weight matrix, plus the bias. -/
theorem pre_apply (L : FVec Ideal S100000x64 .f32) (W : FVec Ideal S64x192 .f32) (b : FVec Ideal S192 .f32)
    (r : Fin 100000) (j : Fin 192) :
    addf (Host.dotGeneral (F := Ideal) dot_S100000x64_S64x192_S100000x192_1_0_0_1_n_n none L W)
        (broadcastInDim S100000x192 ![0, 1] bcast_S1x192_S100000x192_0_1
          (broadcastInDim S1x192 ![1] bcast_S192_S1x192_1 b)) (ix2 r j)
      = Cert.Rows.lin (fun k => L (ix2 r k)) (fun k n => W (ix2 k n)) (fun n => b (ix1 n)) j := by
  rw [addf_apply, bias192_apply]
  unfold Cert.Rows.lin Cert.Rows.dot
  refine congrArg (· + b (ix1 j)) ?_
  refine (Ideal.dotGeneral_apply _ _ _ L W (ix2 r j)).trans ?_
  exact Cert.LibDot.sum_std _ rfl rfl rfl rfl rfl rfl L W r j

/-- The logistic function as the reference spells it, one over one plus the exponential of the negated sum, at an
    index: the two words of one are the real one. -/
theorem logistic_apply (A B : FVec Ideal S100000x64 .f32) (i : S100000x64.Idx) :
    Host.divf (broadcastInDim S100000x64 ![] bcast_S_S100000x64 (constant (F := Ideal) S_ .f32 0x3F800000#32))
        (addf (broadcastInDim S100000x64 ![] bcast_S_S100000x64 (constant (F := Ideal) S_ .f32 0x3F800000#32))
          (Host.exp (Host.negf (addf A B)))) i
      = Ideal.logistic (A i + B i) := by
  rw [hostDivf_apply, addf_apply, one_apply, hostExp_apply, hostNegf_apply, addf_apply, ofBits_one_f32]
  rfl

/-- The gated recurrent update at (row, column) is the row function of the message row, the state row and the
    weights. -/
theorem gruStage_apply
    (M XT : (⟨S100000x64, .f32⟩ : BufTy).Contents (Elt Ideal))
    (Wih : (⟨S64x192, .f32⟩ : BufTy).Contents (Elt Ideal)) (bih : (⟨S192, .f32⟩ : BufTy).Contents (Elt Ideal))
    (Whh : (⟨S64x192, .f32⟩ : BufTy).Contents (Elt Ideal)) (bhh : (⟨S192, .f32⟩ : BufTy).Contents (Elt Ideal))
    (r : Fin 100000) (c : Fin 64) :
    gruStage (F := Ideal) M XT Wih bih Whh bhh (ix2 r c)
      = Cert.Rows.gru (Ideal.ofBits .f32 0x3F800000#32) (fun k => M (ix2 r k)) (fun k => XT (ix2 r k))
          (fun k => XT (ix2 r k)) (fun k n => Wih (ix2 k n)) (fun n => bih (ix1 n)) (fun k n => Whh (ix2 k n))
          (fun n => bhh (ix1 n)) c := by
  unfold gruStage Cert.Rows.gru Cert.Rows.gate
  dsimp only
  -- the blend and the candidate, pointwise
  rw [addf_apply, mulf_apply, mulf_apply, subf_apply, one_apply, hostTanh_apply, addf_apply, mulf_apply]
  -- the two gates
  rw [logistic_apply, logistic_apply]
  -- the six bands
  rw [slice2_axis1_eq, slice2_axis1_eq, slice2_axis1_eq, slice2_axis1_eq, slice2_axis1_eq, slice2_axis1_eq]
  -- the two pre-activations at the six columns
  rw [pre_apply, pre_apply, pre_apply, pre_apply, pre_apply, pre_apply]

end Cert.ReferenceIdeal.Stage

end
-- ==== Proof.RL0.lean ====
/-
  Layer 0 of the reference network, read from the run of its program.

  The first message-passing layer has no previous state: each node's row is the sum of its two embedding rows. The
  layer multiplies every row by the 64×64 convolution weight, gathers the products along the edges' sources and adds
  them at the edges' targets, and blends the result with the embedding sums through the gated recurrent update. The
  program does this in four stretches of host operations: the inputs' slices and the embedding sums; the product; the
  gather and scatter-add; the update. Here each stretch is read as one named function of the buffers it starts
  from, for any contents of the buffers; the four readings are chained along the levels of the run; and, over the
  extended reals, the state the layer ends with is shown to be the specification's layer of the matrices the first
  stretch leaves, with the pass along the edges kept as one function of whole arrays.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageA
import proofs.«157269_j2267742732766_1_alg».proof.Proof.RStageB
import Idealize.ShloMosaic.Lib.StableHlo.Run
import Idealize.ShloMosaic.Lib.ValueIdx
import Idealize.ShloMosaic.Lib.ValueLayout
import Idealize.ShloMosaic.Lib.Pipeline.Value

noncomputable section

namespace Cert.ReferenceIdeal.Layers

open Cert.ReferenceIdeal Cert.ReferenceIdeal.RunV Idealize.ShloMosaic Idealize.ShloMosaic.ValueIdx Idealize.ShloMosaic.StableHlo Idealize.SL.Sem

variable {F : FTy → Type} [FloatOps F]

section Defs
/- The shape relations and dimension records the operations take are stated by the program's facts. -/
variable [Facts₀]
open Facts₀

/-! ## The leaves: layer 0's inputs as functions of the launch arguments -/

/-- Row 0 of the 2×1600000 edge list (the edges' sources) as a vector of 1600000: the one-row slice, then its
    row-major recast. -/
def edgeRow0 (E : (⟨S2x1600000, .i32⟩ : BufTy).Contents (Elt F)) : (⟨S1600000, .i32⟩ : BufTy).Contents (Elt F) :=
  fun i => shapeCast S1600000 (extractStridedSlice S1x1600000 ![0, 0] E slices_S2x1600000_S1x1600000_0_0) shapeCasts_S1x1600000_S1600000 i

/-- Row 1 of the edge list (the edges' targets) as a vector of 1600000. -/
def edgeRow1 (E : (⟨S2x1600000, .i32⟩ : BufTy).Contents (Elt F)) : (⟨S1600000, .i32⟩ : BufTy).Contents (Elt F) :=
  fun i => shapeCast S1600000 (extractStridedSlice S1x1600000 ![1, 0] E slices_S2x1600000_S1x1600000_1_0) shapeCasts_S1x1600000_S1600000 i

/-- Table 0 of the five 100×64 embedding tables. -/
def embTable0 (T : (⟨S5x100x64, .f32⟩ : BufTy).Contents (Elt F)) : (⟨S100x64, .f32⟩ : BufTy).Contents (Elt F) :=
  fun i => shapeCast S100x64 (extractStridedSlice S1x100x64 ![0, 0, 0] T slices_S5x100x64_S1x100x64_0_0_0) shapeCasts_S1x100x64_S100x64 i

/-- The embedding lookup: every entry `z` of the 100000×2 index array is normalised to `z + 100` where it is
    negative and left as it is otherwise, the normalised array is given a trailing unit axis, and row `z` of the
    100×64 table `emb` is gathered for each entry: a 100000×2×64 array. -/
def plainLookupR (emb : (⟨S100x64, .f32⟩ : BufTy).Contents (Elt F)) (z : (⟨S100000x2, .i32⟩ : BufTy).Contents (Elt F)) :
    (⟨S100000x2x64, .f32⟩ : BufTy).Contents (Elt F) :=
  let v6 : (⟨S100000x2, .i32⟩ : BufTy).Contents (Elt F) := broadcastInDim S100000x2 ![] bcast_S_S100000x2 (constantI S_ 32 0#32)
  let v7 : (⟨S100000x2, .i1⟩ : BufTy).Contents (Elt F) := cmpi .slt z v6
  let v8 : (⟨S100000x2, .i32⟩ : BufTy).Contents (Elt F) := broadcastInDim S100000x2 ![] bcast_S_S100000x2 (constantI S_ 32 100#32)
  let v9 : (⟨S100000x2, .i32⟩ : BufTy).Contents (Elt F) := addi z v8
  let v10 : (⟨S100000x2, .i32⟩ : BufTy).Contents (Elt F) := select v7 v9 z
  let v11 : (⟨S100000x2x1, .i32⟩ : BufTy).Contents (Elt F) := broadcastInDim S100000x2x1 ![0, 1] bcast_S100000x2_S100000x2x1_0_1 v10
  Host.gather gather_S100x64_S100000x2x1_S100000x2x64_2_0_n_n_0_2_164 emb v11

/-- The sum over the middle axis (the two looked-up rows of each node), from the single-precision word of zero. -/
def embSumR (g : (⟨S100000x2x64, .f32⟩ : BufTy).Contents (Elt F)) : (⟨S100000x64, .f32⟩ : BufTy).Contents (Elt F) :=
  Host.reduceAdd g (constant S_ .f32 0x00000000#32) reducesTo_S100000x2x64_S100000x64_d1 h_S_

/-- Matrix 0 of a stack of five 64×64 matrices (the convolution weights). -/
def convW0 (W : (⟨S5x64x64, .f32⟩ : BufTy).Contents (Elt F)) : (⟨S64x64, .f32⟩ : BufTy).Contents (Elt F) :=
  fun i => shapeCast S64x64 (extractStridedSlice S1x64x64 ![0, 0, 0] W slices_S5x64x64_S1x64x64_0_0_0) shapeCasts_S1x64x64_S64x64 i

/-- Matrix 0 of a stack of five 64×192 matrices (the gate weights of either side). -/
def gateW0 (W : (⟨S5x64x192, .f32⟩ : BufTy).Contents (Elt F)) : (⟨S64x192, .f32⟩ : BufTy).Contents (Elt F) :=
  fun i => shapeCast S64x192 (extractStridedSlice S1x64x192 ![0, 0, 0] W slices_S5x64x192_S1x64x192_0_0_0) shapeCasts_S1x64x192_S64x192 i

/-- Row 0 of a stack of five rows of 192 (the gate biases of either side). -/
def gateB0 (B : (⟨S5x192, .f32⟩ : BufTy).Contents (Elt F)) : (⟨S192, .f32⟩ : BufTy).Contents (Elt F) :=
  fun i => shapeCast S192 (extractStridedSlice S1x192 ![0, 0] B slices_S5x192_S1x192_0_0) shapeCasts_S1x192_S192 i

/-! ## Message passing along the edges -/

/-- One pass of messages along the edges: the source indices are normalised (`s + 100000` where `s` is negative),
    row `s` of the 100000×64 array `h` is gathered for every edge, and the gathered rows are added, edge by edge, into
    a 100000×64 array of zeros at the rows the target indices name. -/
def passR (src dst : (⟨S1600000, .i32⟩ : BufTy).Contents (Elt F)) (h : (⟨S100000x64, .f32⟩ : BufTy).Contents (Elt F)) :
    (⟨S100000x64, .f32⟩ : BufTy).Contents (Elt F) :=
  let v25 : (⟨S1600000, .i32⟩ : BufTy).Contents (Elt F) := broadcastInDim S1600000 ![] bcast_S_S1600000 (constantI S_ 32 0#32)
  let v26 : (⟨S1600000, .i1⟩ : BufTy).Contents (Elt F) := cmpi .slt src v25
  let v27 : (⟨S1600000, .i32⟩ : BufTy).Contents (Elt F) := broadcastInDim S1600000 ![] bcast_S_S1600000 (constantI S_ 32 100000#32)
  let v28 : (⟨S1600000, .i32⟩ : BufTy).Contents (Elt F) := addi src v27
  let v29 : (⟨S1600000, .i32⟩ : BufTy).Contents (Elt F) := select v26 v28 src
  let v30 : (⟨S1600000x1, .i32⟩ : BufTy).Contents (Elt F) := broadcastInDim S1600000x1 ![0] bcast_S1600000_S1600000x1_0 v29
  let v31 : (⟨S1600000x64, .f32⟩ : BufTy).Contents (Elt F) := Host.gather gather_S100000x64_S1600000x1_S1600000x64_1_0_n_n_0_1_164 h v30
  let v32 : (⟨S100000x64, .f32⟩ : BufTy).Contents (Elt F) := broadcastInDim S100000x64 ![] bcast_S_S100000x64 (constant S_ .f32 0x00000000#32)
  let v33 : (⟨S1600000x1, .i32⟩ : BufTy).Contents (Elt F) := broadcastInDim S1600000x1 ![0] bcast_S1600000_S1600000x1_0 dst
  Host.scatterAdd scatter_S100000x64_S1600000x1_S1600000x64_1_0_0_1 v32 v33 v31

end Defs

/-! ## The sliced leaves at an index -/

/-- Entry `e` of the source row is entry (0, e) of the edge list: the recast drops the unit axis, the slice starts at
    row 0. -/
theorem edgeRow0_apply (E : (⟨S2x1600000, .i32⟩ : BufTy).Contents (Elt F)) (e : Fin 1600000) :
    edgeRow0 E (ix1 e) = E (ix2 (0 : Fin 2) e) := by
  unfold edgeRow0
  refine (shapeCast_1a_a_apply _ _ e).trans ?_
  exact extractStridedSlice_apply _ E _ (ix2 (0 : Fin 1) e) (ix2 (0 : Fin 2) e)
    (fun a => by match a with | ⟨0, _⟩ => rfl | ⟨1, _⟩ => exact (Nat.zero_add _).symm)

/-- Entry `e` of the target row is entry (1, e) of the edge list. -/
theorem edgeRow1_apply (E : (⟨S2x1600000, .i32⟩ : BufTy).Contents (Elt F)) (e : Fin 1600000) :
    edgeRow1 E (ix1 e) = E (ix2 (1 : Fin 2) e) := by
  unfold edgeRow1
  refine (shapeCast_1a_a_apply _ _ e).trans ?_
  exact extractStridedSlice_apply _ E _ (ix2 (0 : Fin 1) e) (ix2 (1 : Fin 2) e)
    (fun a => by match a with | ⟨0, _⟩ => rfl | ⟨1, _⟩ => exact (Nat.zero_add _).symm)

/-- Entry (v, d) of table 0 is entry (0, v, d) of the stack of embedding tables. -/
theorem embTable0_apply (T : (⟨S5x100x64, .f32⟩ : BufTy).Contents (Elt F)) (v : Fin 100) (d : Fin 64) :
    embTable0 T (ix2 v d) = T (ix3 (0 : Fin 5) v d) := by
  unfold embTable0
  refine (shapeCast_1ab_ab_apply _ _ v d).trans ?_
  exact extractStridedSlice_apply _ T _ (ix3 (0 : Fin 1) v d) (ix3 (0 : Fin 5) v d)
    (fun a => by
      match a with
      | ⟨0, _⟩ => rfl
      | ⟨1, _⟩ => exact (Nat.zero_add _).symm
      | ⟨2, _⟩ => exact (Nat.zero_add _).symm)

/-- Entry (k, n) of convolution matrix 0 is entry (0, k, n) of the stack. -/
theorem convW0_apply (W : (⟨S5x64x64, .f32⟩ : BufTy).Contents (Elt F)) (k n : Fin 64) :
    convW0 W (ix2 k n) = W (ix3 (0 : Fin 5) k n) := by
  unfold convW0
  refine (shapeCast_1ab_ab_apply _ _ k n).trans ?_
  exact extractStridedSlice_apply _ W _ (ix3 (0 : Fin 1) k n) (ix3 (0 : Fin 5) k n)
    (fun a => by
      match a with
      | ⟨0, _⟩ => rfl
      | ⟨1, _⟩ => exact (Nat.zero_add _).symm
      | ⟨2, _⟩ => exact (Nat.zero_add _).symm)

/-- Entry (k, n) of gate matrix 0 is entry (0, k, n) of the stack. -/
theorem gateW0_apply (W : (⟨S5x64x192, .f32⟩ : BufTy).Contents (Elt F)) (k : Fin 64) (n : Fin 192) :
    gateW0 W (ix2 k n) = W (ix3 (0 : Fin 5) k n) := by
  unfold gateW0
  refine (shapeCast_1ab_ab_apply _ _ k n).trans ?_
  exact extractStridedSlice_apply _ W _ (ix3 (0 : Fin 1) k n) (ix3 (0 : Fin 5) k n)
    (fun a => by
      match a with
      | ⟨0, _⟩ => rfl
      | ⟨1, _⟩ => exact (Nat.zero_add _).symm
      | ⟨2, _⟩ => exact (Nat.zero_add _).symm)

/-- Entry `n` of gate bias row 0 is entry (0, n) of the stack. -/
theorem gateB0_apply (B : (⟨S5x192, .f32⟩ : BufTy).Contents (Elt F)) (n : Fin 192) :
    gateB0 B (ix1 n) = B (ix2 (0 : Fin 5) n) := by
  unfold gateB0
  refine (shapeCast_1a_a_apply _ _ n).trans ?_
  exact extractStridedSlice_apply _ B _ (ix2 (0 : Fin 1) n) (ix2 (0 : Fin 5) n)
    (fun a => by match a with | ⟨0, _⟩ => rfl | ⟨1, _⟩ => exact (Nat.zero_add _).symm)

/-! ## Layer 0's four stretches of the program, each read from an arbitrary valuation -/

/-- After the first stretch the source-row buffer holds row 0 of the edge list. -/
theorem c0_v1 (V : Valuation τ sig (Elt F)) :
    after (opsC0 (F := F)) V (Proc.devRef .tc main_v1) = edgeRow0 (V (Proc.devRef .tc main_arg1)) := by
  after_results_simp
  rfl

/-- After the first stretch the target-row buffer holds row 1 of the edge list. -/
theorem c0_v3 (V : Valuation τ sig (Elt F)) :
    after (opsC0 (F := F)) V (Proc.devRef .tc main_v3) = edgeRow1 (V (Proc.devRef .tc main_arg1)) := by
  after_results_simp
  rfl

/-- After the first stretch the embedding-sum buffer holds the summed lookup of table 0 at the node indices. -/
theorem c0_v13 (V : Valuation τ sig (Elt F)) :
    after (opsC0 (F := F)) V (Proc.devRef .tc main_v13)
      = embSumR (plainLookupR (embTable0 (V (Proc.devRef .tc main_arg5))) (V (Proc.devRef .tc main_arg0))) := by
  after_results_simp
  rfl

/-- After the first stretch each of the layer's five weight buffers holds entry 0 of its stack: the convolution matrix,
    then the message-side and the state-side gate matrix and bias row. -/
theorem c0_v15 (V : Valuation τ sig (Elt F)) :
    after (opsC0 (F := F)) V (Proc.devRef .tc main_v15) = convW0 (V (Proc.devRef .tc main_arg8)) := by
  after_results_simp
  rfl

theorem c0_v17 (V : Valuation τ sig (Elt F)) :
    after (opsC0 (F := F)) V (Proc.devRef .tc main_v17) = gateW0 (V (Proc.devRef .tc main_arg9)) := by
  after_results_simp
  rfl

theorem c0_v19 (V : Valuation τ sig (Elt F)) :
    after (opsC0 (F := F)) V (Proc.devRef .tc main_v19) = gateB0 (V (Proc.devRef .tc main_arg10)) := by
  after_results_simp
  rfl

theorem c0_v21 (V : Valuation τ sig (Elt F)) :
    after (opsC0 (F := F)) V (Proc.devRef .tc main_v21) = gateW0 (V (Proc.devRef .tc main_arg11)) := by
  after_results_simp
  rfl

theorem c0_v23 (V : Valuation τ sig (Elt F)) :
    after (opsC0 (F := F)) V (Proc.devRef .tc main_v23) = gateB0 (V (Proc.devRef .tc main_arg12)) := by
  after_results_simp
  rfl

/-- The second stretch is the one product: the embedding sums times the convolution weight. -/
theorem c1_v24 (V : Valuation τ sig (Elt F)) :
    after (opsC1 (F := F)) V (Proc.devRef .tc main_v24)
      = Stage.hStage (V (Proc.devRef .tc main_v13)) (V (Proc.devRef .tc main_v15)) := by
  after_results
  rfl

/-- The third stretch is the pass of messages along the edges. -/
theorem c2_v34 (V : Valuation τ sig (Elt F)) :
    after (opsC2 (F := F)) V (Proc.devRef .tc main_v34)
      = passR (V (Proc.devRef .tc main_v1)) (V (Proc.devRef .tc main_v3)) (V (Proc.devRef .tc main_v24)) := by
  after_results_simp
  rfl

/-- The fourth stretch is the gated recurrent update of the messages and the embedding sums. -/
theorem c3_v70 (V : Valuation τ sig (Elt F)) :
    after (opsC3 (F := F)) V (Proc.devRef .tc main_v70)
      = Stage.gruStage (V (Proc.devRef .tc main_v34)) (V (Proc.devRef .tc main_v13)) (V (Proc.devRef .tc main_v17))
          (V (Proc.devRef .tc main_v19)) (V (Proc.devRef .tc main_v21)) (V (Proc.devRef .tc main_v23)) := by
  after_results_simp
  rfl

/-! ## Layer 0 assembled: from any valuation `V` standing after the first stretch -/

/-- The messages after the third stretch, from the buffers as they stand after the first. -/
theorem pass0R_of (V : Valuation τ sig (Elt F)) :
    after (opsC2 (F := F)) (after (opsC1 (F := F)) V) (Proc.devRef .tc main_v34)
      = passR (V (Proc.devRef .tc main_v1)) (V (Proc.devRef .tc main_v3))
          (after (opsC1 (F := F)) V (Proc.devRef .tc main_v24)) := by
  rw [c2_v34, opsC1_keeps V (r := main_v1) (by decide), opsC1_keeps V (r := main_v3) (by decide)]

/-- The state after the fourth stretch as the update stage of the passed messages, every operand read where the
    first stretch left it. -/
theorem v70_of (V : Valuation τ sig (Elt F)) :
    after (opsC3 (F := F)) (after (opsC2 (F := F)) (after (opsC1 (F := F)) V)) (Proc.devRef .tc main_v70)
      = Stage.gruStage
          (passR (V (Proc.devRef .tc main_v1)) (V (Proc.devRef .tc main_v3))
            (Stage.hStage (V (Proc.devRef .tc main_v13)) (V (Proc.devRef .tc main_v15))))
          (V (Proc.devRef .tc main_v13)) (V (Proc.devRef .tc main_v17)) (V (Proc.devRef .tc main_v19))
          (V (Proc.devRef .tc main_v21)) (V (Proc.devRef .tc main_v23)) := by
  rw [c3_v70, pass0R_of, c1_v24,
    opsC2_keeps _ (r := main_v13) (by decide), opsC2_keeps _ (r := main_v17) (by decide), opsC2_keeps _ (r := main_v19) (by decide),
    opsC2_keeps _ (r := main_v21) (by decide), opsC2_keeps _ (r := main_v23) (by decide),
    opsC1_keeps V (r := main_v13) (by decide), opsC1_keeps V (r := main_v17) (by decide), opsC1_keeps V (r := main_v19) (by decide),
    opsC1_keeps V (r := main_v21) (by decide), opsC1_keeps V (r := main_v23) (by decide)]

/-! ## Layer 0 against the specification -/

/-- The specification's convolution of the embedding sums, laid out as an array, is the reference's product stage:
    entry by entry both are the row of sums times the weight matrix. -/
theorem conv_eq_hStage (X : (⟨S100000x64, .f32⟩ : BufTy).Contents (Elt Ideal)) (W : (⟨S64x64, .f32⟩ : BufTy).Contents (Elt Ideal)) :
    Cert.Sem.ofMat (Cert.Sem.conv (Cert.Sem.toMat X) (Cert.Sem.toMat W)) = Stage.hStage (F := Ideal) X W := by
  refine Cert.Sem.arr_ext fun r q => ?_
  refine Eq.trans ?_ (Stage.hStage_apply X W r q).symm
  simp only [Cert.Sem.ofMat, Cert.Sem.conv]
  rfl

/-- The specification's layer of six arrays, when the messages it passes are the reference's product stage, is the
    reference's update stage read as a matrix. -/
theorem layerOf_eq_gruStage (pass : (⟨S100000x64, .f32⟩ : BufTy).Contents (Elt Ideal) → (⟨S100000x64, .f32⟩ : BufTy).Contents (Elt Ideal))
    (X : (⟨S100000x64, .f32⟩ : BufTy).Contents (Elt Ideal)) (W : (⟨S64x64, .f32⟩ : BufTy).Contents (Elt Ideal))
    (Wih : (⟨S64x192, .f32⟩ : BufTy).Contents (Elt Ideal)) (bih : (⟨S192, .f32⟩ : BufTy).Contents (Elt Ideal))
    (Whh : (⟨S64x192, .f32⟩ : BufTy).Contents (Elt Ideal)) (bhh : (⟨S192, .f32⟩ : BufTy).Contents (Elt Ideal)) :
    Cert.Sem.toMat (Stage.gruStage (F := Ideal) (pass (Stage.hStage (F := Ideal) X W)) X Wih bih Whh bhh : Cert.Sem.Arr 100000 64)
      = Cert.Sem.layerOf pass (Cert.Sem.toMat X) (Cert.Sem.toMat W) (Cert.Sem.toMat Wih) (Cert.Sem.toVec bih)
          (Cert.Sem.toMat Whh) (Cert.Sem.toVec bhh) := by
  funext r q
  rw [Cert.Sem.layerOf, Cert.Sem.update, conv_eq_hStage]
  generalize pass (Stage.hStage (F := Ideal) X W) = M
  simp only [Cert.Sem.toMat, Cert.Sem.toVec]
  exact Stage.gruStage_apply M X Wih bih Whh bhh r q

/-- Layer 0 of the reference is the specification's layer: the convolution of the embedding sums, the pass of
    messages along the edges, the gated update row by row. -/
theorem layer0R_of (V : Valuation τ sig (Elt Ideal)) :
    Cert.Sem.toMat (after (opsC3 (F := Ideal)) (after (opsC2 (F := Ideal)) (after (opsC1 (F := Ideal)) V))
        (Proc.devRef .tc main_v70) : Cert.Sem.Arr 100000 64)
      = Cert.Sem.layerOf (passR (F := Ideal) (V (Proc.devRef .tc main_v1)) (V (Proc.devRef .tc main_v3)))
          (Cert.Sem.toMat (V (Proc.devRef .tc main_v13))) (Cert.Sem.toMat (V (Proc.devRef .tc main_v15)))
          (Cert.Sem.toMat (V (Proc.devRef .tc main_v17))) (Cert.Sem.toVec (V (Proc.devRef .tc main_v19)))
          (Cert.Sem.toMat (V (Proc.devRef .tc main_v21))) (Cert.Sem.toVec (V (Proc.devRef .tc main_v23))) := by
  rw [v70_of]
  exact layerOf_eq_gruStage (passR (F := Ideal) (V (Proc.devRef .tc main_v1)) (V (Proc.devRef .tc main_v3))) _ _ _ _ _ _

/-! ## Layer 0 at the levels of the run -/

variable (m : (ℓ : Loc nD τ sig) → Buf (Elt F) ℓ) (c : Dev nD)

/-- The buffers at the first level, each as its function of the launch arguments. -/
theorem Lv1_v1 : Lv1 m c (Proc.devRef .tc main_v1) = edgeRow0 (Lv0 m c (Proc.devRef .tc main_arg1)) := by
  unfold Lv1; exact c0_v1 _
theorem Lv1_v3 : Lv1 m c (Proc.devRef .tc main_v3) = edgeRow1 (Lv0 m c (Proc.devRef .tc main_arg1)) := by
  unfold Lv1; exact c0_v3 _
theorem Lv1_v13 : Lv1 m c (Proc.devRef .tc main_v13)
    = embSumR (plainLookupR (embTable0 (Lv0 m c (Proc.devRef .tc main_arg5))) (Lv0 m c (Proc.devRef .tc main_arg0))) := by
  unfold Lv1; exact c0_v13 _
theorem Lv1_v15 : Lv1 m c (Proc.devRef .tc main_v15) = convW0 (Lv0 m c (Proc.devRef .tc main_arg8)) := by
  unfold Lv1; exact c0_v15 _
theorem Lv1_v17 : Lv1 m c (Proc.devRef .tc main_v17) = gateW0 (Lv0 m c (Proc.devRef .tc main_arg9)) := by
  unfold Lv1; exact c0_v17 _
theorem Lv1_v19 : Lv1 m c (Proc.devRef .tc main_v19) = gateB0 (Lv0 m c (Proc.devRef .tc main_arg10)) := by
  unfold Lv1; exact c0_v19 _
theorem Lv1_v21 : Lv1 m c (Proc.devRef .tc main_v21) = gateW0 (Lv0 m c (Proc.devRef .tc main_arg11)) := by
  unfold Lv1; exact c0_v21 _
theorem Lv1_v23 : Lv1 m c (Proc.devRef .tc main_v23) = gateB0 (Lv0 m c (Proc.devRef .tc main_arg12)) := by
  unfold Lv1; exact c0_v23 _

/-- The convolved embedding sums at the second level. -/
theorem Lv2_v24 : Lv2 m c (Proc.devRef .tc main_v24)
    = Stage.hStage (Lv1 m c (Proc.devRef .tc main_v13)) (Lv1 m c (Proc.devRef .tc main_v15)) := by
  unfold Lv2; exact c1_v24 _

/-- The passed messages at the third level. -/
theorem pass0R : Lv3 m c (Proc.devRef .tc main_v34)
    = passR (Lv1 m c (Proc.devRef .tc main_v1)) (Lv1 m c (Proc.devRef .tc main_v3)) (Lv2 m c (Proc.devRef .tc main_v24)) := by
  unfold Lv3 Lv2; exact pass0R_of _

/-- The two edge rows stand through layer 0: none of its later stretches writes them. -/
theorem src_L0 : Lv4 m c (Proc.devRef .tc main_v1) = Lv1 m c (Proc.devRef .tc main_v1) := by
  unfold Lv4 Lv3 Lv2
  rw [opsC3_keeps _ (r := main_v1) (by decide), opsC2_keeps _ (r := main_v1) (by decide),
    opsC1_keeps _ (r := main_v1) (by decide)]
theorem dst_L0 : Lv4 m c (Proc.devRef .tc main_v3) = Lv1 m c (Proc.devRef .tc main_v3) := by
  unfold Lv4 Lv3 Lv2
  rw [opsC3_keeps _ (r := main_v3) (by decide), opsC2_keeps _ (r := main_v3) (by decide),
    opsC1_keeps _ (r := main_v3) (by decide)]

/-- Layer 0 of the reference, at the levels of the run, is the specification's layer of the buffers the first
    stretch leaves. -/
theorem layer0R (m : (ℓ : Loc nD τ sig) → Buf (Elt Ideal) ℓ) (c : Dev nD) :
    Cert.Sem.toMat (Lv4 m c (Proc.devRef .tc main_v70) : Cert.Sem.Arr 100000 64)
      = Cert.Sem.layerOf (passR (F := Ideal) (Lv1 m c (Proc.devRef .tc main_v1)) (Lv1 m c (Proc.devRef .tc main_v3)))
          (Cert.Sem.toMat (Lv1 m c (Proc.devRef .tc main_v13))) (Cert.Sem.toMat (Lv1 m c (Proc.devRef .tc main_v15)))
          (Cert.Sem.toMat (Lv1 m c (Proc.devRef .tc main_v17))) (Cert.Sem.toVec (Lv1 m c (Proc.devRef .tc main_v19)))
          (Cert.Sem.toMat (Lv1 m c (Proc.devRef .tc main_v21))) (Cert.Sem.toVec (Lv1 m c (Proc.devRef .tc main_v23))) := by
  unfold Lv4 Lv3 Lv2; exact layer0R_of _

end Cert.ReferenceIdeal.Layers

end
-- ==== Proof.CrossDefs.lean ====
import proofs.«157269_j2267742732766_1_alg».proof.Proof.Sem
import proofs.«157269_j2267742732766_1_alg».proof.Proof.LibRowVecSem
import proofs.«157269_j2267742732766_1_alg».proof.Proof.KTake
import proofs.«157269_j2267742732766_1_alg».proof.Proof.KLBase
import proofs.«157269_j2267742732766_1_alg».proof.Proof.RL0

/-!
# The two programs' host chains are the same functions

Outside the tiled regions both programs compute with the same whole-array operations: the edge rows and the layers'
tables and weights are sliced out of the same stacked arguments, the embedding lookup, the embedding sum, the edge
pass and the poolings are the same compositions. Each program states them over its own copy of the shapes and of
the dimension records; the copies are the same shapes and the same records, so each pair of functions is equal by
unfolding, for any float instance. A bias differs by one step: the tiled program stages the sliced vector once more
as a one-row array, which read as a row is the vector. This module has the pairs every layer shares, the two
hypotheses under which the programs are compared, and the congruence of the specification's layer functions; the
pairs of one layer's slices stand with that layer's comparison.
-/

noncomputable section

namespace Cert.Cross

open Idealize.ShloMosaic Idealize.ShloMosaic.ValueIdx Idealize.SL.Sem

/-! ## The two hypotheses of the comparison -/

/-- Every node position is a table position: 0 ≤ z < 100 read signed, on every device. -/
abbrev InRange (m : (ℓ : Loc Cert.KernelIdeal.nD Cert.KernelIdeal.τ Cert.KernelIdeal.sig) → Buf (Elt Ideal) ℓ) : Prop :=
  ∀ (c : Dev Cert.KernelIdeal.nD) (i : Cert.KernelIdeal.S100000x2.Idx),
    0 ≤ (m ((c.tc : Thread Cert.KernelIdeal.nD Cert.KernelIdeal.τ).loc Cert.KernelIdeal.main_arg0) i).toInt ∧ (m ((c.tc : Thread Cert.KernelIdeal.nD Cert.KernelIdeal.τ).loc Cert.KernelIdeal.main_arg0) i).toInt < 100

/-- The two launch memories hold the same 27 argument arrays, on every device. -/
abbrev Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

/-! ## The pairs every layer shares -/

section Same
variable {F : FTy → Type} [FloatOps F] [Cert.KernelIdeal.Facts₀] [Cert.ReferenceIdeal.Facts₀]

/-- The edge pass: gather the rows at the edges' sources, add them up at the targets. -/
theorem pass_eq (src dst : (⟨Cert.KernelIdeal.S1600000, .i32⟩ : BufTy).Contents (Elt F))
    (h : (⟨Cert.KernelIdeal.S100000x64, .f32⟩ : BufTy).Contents (Elt F)) :
    Cert.KernelIdeal.Layers.passK src dst h = Cert.ReferenceIdeal.Layers.passR src dst h := rfl

/-- The embedding sum over a node's two looked-up rows. -/
theorem embSum_eq (x : (⟨Cert.KernelIdeal.S100000x2x64, .f32⟩ : BufTy).Contents (Elt F)) :
    Cert.KernelIdeal.Layers.embSum x = Cert.ReferenceIdeal.Layers.embSumR x := rfl

/-- The embedding lookup without the range mask. -/
theorem plainLookup_eq (emb : (⟨Cert.KernelIdeal.S100x64, .f32⟩ : BufTy).Contents (Elt F))
    (z : (⟨Cert.KernelIdeal.S100000x2, .i32⟩ : BufTy).Contents (Elt F)) :
    Cert.KernelIdeal.Take.plainLookup emb z = Cert.ReferenceIdeal.Layers.plainLookupR emb z := rfl

end Same

/-! ## Two buffers that are the same function of agreeing arguments -/

/-- A buffer of the tiled program and one of the reference that are, each on its side, a function of a launch
    argument, agree when the two functions are the same and the two arguments agree. -/
theorem leaf {A B : Type} {wK wR : B} {fK fR : A → B} {aK aR : A} (hK : wK = fK aK) (hR : wR = fR aR)
    (hf : ∀ a, fK a = fR a) (ha : aR = aK) : wK = wR :=
  hK.trans ((hf aK).trans ((congrArg fR ha.symm).trans hR.symm))

/-- The same for a bias: the tiled program's one-row array, read as a row, is the reference's vector. -/
theorem leafRow {A : Type} {n : ℕ} {wK : Cert.Sem.Arr 1 n} {wR : (⟨1, ![n]⟩ : Shape).Idx → EReal}
    {fK : A → Cert.Sem.Arr 1 n} {fR : A → (⟨1, ![n]⟩ : Shape).Idx → EReal} {aK aR : A}
    (hK : wK = fK aK) (hR : wR = fR aR) (hf : ∀ a, Cert.Sem.toRow (fK a) = Cert.Sem.toVec (fR a)) (ha : aR = aK) :
    Cert.Sem.toRow wK = Cert.Sem.toVec wR := by
  subst hK hR ha
  exact hf _

/-- The embedding sums of a layer, the tiled program's (a masked lookup) and the reference's, agree where the tables
    agree, the positions agree and every position is a table position: the mask is then all ones. -/
theorem embSums_eq [Cert.KernelIdeal.Facts₀] [Cert.ReferenceIdeal.Facts₀] (tK : (⟨Cert.KernelIdeal.S100x64, .f32⟩ : BufTy).Contents (Elt Ideal))
    (tR : (⟨Cert.ReferenceIdeal.S100x64, .f32⟩ : BufTy).Contents (Elt Ideal)) (ht : tK = tR)
    (zK : (⟨Cert.KernelIdeal.S100000x2, .i32⟩ : BufTy).Contents (Elt Ideal))
    (zR : (⟨Cert.ReferenceIdeal.S100000x2, .i32⟩ : BufTy).Contents (Elt Ideal)) (hzz : zK = zR)
    (hz : ∀ i : Cert.KernelIdeal.S100000x2.Idx, 0 ≤ (zK i).toInt ∧ (zK i).toInt < 100) :
    Cert.KernelIdeal.Layers.embSum (F := Ideal) (Cert.KernelIdeal.Take.maskedLookup (F := Ideal) tK zK)
      = Cert.ReferenceIdeal.Layers.embSumR (F := Ideal) (Cert.ReferenceIdeal.Layers.plainLookupR (F := Ideal) tR zR) := by
  subst ht hzz
  rw [Cert.KernelIdeal.Take.maskedLookup_eq tK zK hz, plainLookup_eq, embSum_eq]

/-! ## Equal arguments, equal results: the specification's functions -/

theorem layerOf_congr {N : ℕ} {pass pass' : Cert.Sem.Arr N 64 → Cert.Sem.Arr N 64} {xt xt' : Cert.Sem.Mat N 64}
    {cW cW' : Cert.Sem.Mat 64 64} {Wih Wih' : Cert.Sem.Mat 64 192} {bih bih' : Fin 192 → EReal}
    {Whh Whh' : Cert.Sem.Mat 64 192} {bhh bhh' : Fin 192 → EReal}
    (hp : pass = pass') (hx : xt = xt') (hc : cW = cW') (h1 : Wih = Wih') (h2 : bih = bih') (h3 : Whh = Whh')
    (h4 : bhh = bhh') :
    Cert.Sem.layerOf pass xt cW Wih bih Whh bhh = Cert.Sem.layerOf pass' xt' cW' Wih' bih' Whh' bhh' := by
  subst hp hx hc h1 h2 h3 h4
  rfl

theorem transform_congr {N : ℕ} {x x' ze ze' : Cert.Sem.Mat N 64} {tW tW' : Cert.Sem.Mat 128 64}
    {tb tb' : Fin 64 → EReal} (hx : x = x') (hz : ze = ze') (h1 : tW = tW') (h2 : tb = tb') :
    Cert.Sem.transform x ze tW tb = Cert.Sem.transform x' ze' tW' tb' := by
  subst hx hz h1 h2
  rfl

theorem perceptron_congr {N : ℕ} {x x' : Cert.Sem.Mat N 64} {W1 W1' : Cert.Sem.Mat 64 64} {b1 b1' : Fin 64 → EReal}
    {W2 W2' : Cert.Sem.Mat 64 64} {b2 b2' : Fin 64 → EReal}
    (hx : x = x') (h1 : W1 = W1') (h2 : b1 = b1') (h3 : W2 = W2') (h4 : b2 = b2') :
    Cert.Sem.perceptron x W1 b1 W2 b2 = Cert.Sem.perceptron x' W1' b1' W2' b2' := by
  subst hx h1 h2 h3 h4
  rfl

theorem headOf_congr {N : ℕ} {x x' : Cert.Sem.Mat N 64} {W1 W1' : Cert.Sem.Mat 64 32} {b1 b1' : Fin 32 → EReal}
    {W2 W2' : Cert.Sem.Mat 32 16} {b2 b2' : Fin 16 → EReal} {W3 W3' : Cert.Sem.Mat 16 1} {b3 b3' : Fin 1 → EReal}
    (hx : x = x') (h1 : W1 = W1') (h2 : b1 = b1') (h3 : W2 = W2') (h4 : b2 = b2') (h5 : W3 = W3') (h6 : b3 = b3') :
    Cert.Sem.headOf x W1 b1 W2 b2 W3 b3 = Cert.Sem.headOf x' W1' b1' W2' b2' W3' b3' := by
  subst hx h1 h2 h3 h4 h5 h6
  rfl

end Cert.Cross

end
-- ==== Proof.KPayA.lean ====
/-
  The transform bodies of regions 0, 2, 4, 6 and 8, read at an index.

  Region 0 stores its input block unchanged and the product of that block with a 64 x 64 matrix. Regions 2, 4, 6
  and 8 have one and the same body: it lays two blocks of 64 columns side by side, multiplies the 128 columns by a
  128 x 64 matrix and adds a bias row that is the same down every row; it stores that, and its product with a
  further 64 x 64 matrix. On the extended reals the narrowing to the matrix unit's format is the identity and a
  shape cast between equal shapes is the identity, so entry (r, c) of each stored block is the row function of the
  shared specification applied to row r of the inputs: the sum over the contracted index of the products, the
  side-by-side row, and the affine map.
-/
import proofs.«157269_j2267742732766_1_alg».proof.Proof.Gen.KernelIdeal.Skeleton
import proofs.«157269_j2267742732766_1_alg».proof.Proof.Rows
import proofs.«157269_j2267742732766_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Two blocks side by side -/

/-- Two blocks of 64 columns laid side by side, read at row `r` and column `k`: row `r` of the first block below
    column 64, row `r` of the second block, 64 columns less, from there on. -/
theorem cat_apply (x y : Vec Ideal S10000x64 .f32) (r : Fin 10000) (k : Fin 128) :
    concatenate S10000x128 1 [⟨S10000x64, x⟩, ⟨S10000x64, y⟩] concatenates_S10000x64_S10000x64_S10000x128_d1 (ix2 r k)
      = Cert.Rows.cat (fun j => x (ix2 r j)) (fun j => y (ix2 r j)) k := by
  unfold Cert.Rows.cat
  split
  · next h =>
    -- column k of the result is column k of the first block
    refine concatenate_pair_apply_left 1 x y _ (ix2 r k) rfl (ix2 r ⟨k.val, h⟩) ?_
    intro b
    match b with
    | ⟨0, _⟩ => rfl
    | ⟨1, _⟩ => rfl
  · next h =>
    -- column k of the result is column k - 64 of the second block
    refine concatenate_pair_apply_right 1 x y _ (ix2 r k) rfl rfl
      (ix2 r ⟨k.val - 64, by have := k.isLt; omega⟩) ?_ ?_
    · intro b hb
      match b with
      | ⟨0, _⟩ => rfl
      | ⟨1, _⟩ => exact absurd rfl hb
    · show (k.val - 64) + 64 = k.val
      omega

/-! ## Region 0 -/

/-- The first stored block of region 0 is the input block. -/
theorem k0_pay1_apply (v0 : Vec Ideal S10000x64 .f32) (r : Fin 10000) (c : Fin 64) :
    k0_pay1 (F := Ideal) v0 (ix2 r c) = v0 (ix2 r c) := by
  unfold k0_pay1
  rw [shapeCast_self]

/-- The second stored block of region 0 at `(r, c)`: row `r` of the input times the 64 x 64 matrix, entry `c`. -/
theorem k0_pay2_apply (v0 : Vec Ideal S10000x64 .f32) (v4 : Vec Ideal S64x64 .f32) (r : Fin 10000) (c : Fin 64) :
    k0_pay2 (F := Ideal) v0 v4 (ix2 r c) = Cert.Rows.dot (fun k => v0 (ix2 r k)) (fun k n => v4 (ix2 k n)) c := by
  unfold k0_pay2
  refine (Ideal.matmul_constant_zero_apply dot_S10000x64_S64x64_S10000x64_1_0_0_1_n_n none _ _ (ix2 r c)).trans ?_
  refine (Cert.LibDot.sum_std dot_S10000x64_S64x64_S10000x64_1_0_0_1_n_n rfl rfl rfl rfl rfl rfl
    (truncf (F := Ideal) .bf16 (k0_pay1 v0) bitsLt_bf16_f32)
    (truncf (F := Ideal) .bf16 (shapeCast S64x64 v4 shapeCasts_S64x64_S64x64) bitsLt_bf16_f32) r c).trans ?_
  unfold Cert.Rows.dot
  refine Finset.sum_congr rfl fun k _ => ?_
  rw [truncf_apply, truncf_apply, k0_pay1_apply, shapeCast_self]

/-! ## Region 2 -/

/-- The first stored block of region 2 at `(r, c)`: rows `r` of the two input blocks side by side, through the
    affine map of the 128 x 64 matrix and the bias row, entry `c`. -/
theorem k2_pay1_apply (v0 v2 : Vec Ideal S10000x64 .f32) (v6 : Vec Ideal S128x64 .f32) (v10 : Vec Ideal S1x64 .f32) (r : Fin 10000) (c : Fin 64) :
    k2_pay1 (F := Ideal) v0 v2 v6 v10 (ix2 r c)
      = Cert.Rows.trans (fun k => v0 (ix2 r k)) (fun k => v2 (ix2 r k)) (fun k n => v6 (ix2 k n)) (fun n => v10 (ix2 0 n)) c := by
  unfold k2_pay1
  refine (addf_apply _ _ _).trans ?_
  unfold Cert.Rows.trans Cert.Rows.lin
  refine congrArg₂ (· + ·) ?_ ?_
  · -- the side-by-side row times the 128 x 64 matrix
    refine (Ideal.matmul_constant_zero_apply dot_S10000x128_S128x64_S10000x64_1_0_0_1_n_n none _ _ (ix2 r c)).trans ?_
    refine (Cert.LibDot.sum_std dot_S10000x128_S128x64_S10000x64_1_0_0_1_n_n rfl rfl rfl rfl rfl rfl
      (truncf (F := Ideal) .bf16
        (concatenate S10000x128 1 [⟨S10000x64, shapeCast S10000x64 v0 shapeCasts_S10000x64_S10000x64⟩,
          ⟨S10000x64, shapeCast S10000x64 v2 shapeCasts_S10000x64_S10000x64⟩]
          concatenates_S10000x64_S10000x64_S10000x128_d1) bitsLt_bf16_f32)
      (truncf (F := Ideal) .bf16 (shapeCast S128x64 v6 shapeCasts_S128x64_S128x64) bitsLt_bf16_f32) r c).trans ?_
    unfold Cert.Rows.dot
    refine Finset.sum_congr rfl fun k _ => ?_
    rw [truncf_apply, truncf_apply, shapeCast_self, shapeCast_self, shapeCast_self, cat_apply]
  · -- the bias row, the same down every row
    rw [broadcastTo_1b_ab_apply, shapeCast_self]

/-- The second stored block of region 2 at `(r, c)`: the transformed row `r` times the 64 x 64 matrix, entry `c`. -/
theorem k2_pay2_apply (v0 v2 : Vec Ideal S10000x64 .f32) (v6 : Vec Ideal S128x64 .f32) (v10 : Vec Ideal S1x64 .f32) (v16 : Vec Ideal S64x64 .f32) (r : Fin 10000) (c : Fin 64) :
    k2_pay2 (F := Ideal) v0 v2 v6 v10 v16 (ix2 r c)
      = Cert.Rows.dot (fun j => Cert.Rows.trans (fun k => v0 (ix2 r k)) (fun k => v2 (ix2 r k)) (fun k n => v6 (ix2 k n)) (fun n => v10 (ix2 0 n)) j) (fun k n => v16 (ix2 k n)) c := by
  unfold k2_pay2
  refine (Ideal.matmul_constant_zero_apply dot_S10000x64_S64x64_S10000x64_1_0_0_1_n_n none _ _ (ix2 r c)).trans ?_
  refine (Cert.LibDot.sum_std dot_S10000x64_S64x64_S10000x64_1_0_0_1_n_n rfl rfl rfl rfl rfl rfl
    (truncf (F := Ideal) .bf16 (k2_pay1 v0 v2 v6 v10) bitsLt_bf16_f32)
    (truncf (F := Ideal) .bf16 (shapeCast S64x64 v16 shapeCasts_S64x64_S64x64) bitsLt_bf16_f32) r c).trans ?_
  unfold Cert.Rows.dot
  refine Finset.sum_congr rfl fun k _ => ?_
  rw [truncf_apply, truncf_apply, k2_pay1_apply, shapeCast_self]
/-! ## Region 4 -/

/-- The first stored block of region 4 at `(r, c)`: rows `r` of the two input blocks side by side, through the
    affine map of the 128 x 64 matrix and the bias row, entry `c`. -/
theorem k4_pay1_apply (v0 v2 : Vec Ideal S10000x64 .f32) (v6 : Vec Ideal S128x64 .f32) (v10 : Vec Ideal S1x64 .f32) (r : Fin 10000) (c : Fin 64) :
    k4_pay1 (F := Ideal) v0 v2 v6 v10 (ix2 r c)
      = Cert.Rows.trans (fun k => v0 (ix2 r k)) (fun k => v2 (ix2 r k)) (fun k n => v6 (ix2 k n)) (fun n => v10 (ix2 0 n)) c := by
  unfold k4_pay1
  refine (addf_apply _ _ _).trans ?_
  unfold Cert.Rows.trans Cert.Rows.lin
  refine congrArg₂ (· + ·) ?_ ?_
  · -- the side-by-side row times the 128 x 64 matrix
    refine (Ideal.matmul_constant_zero_apply dot_S10000x128_S128x64_S10000x64_1_0_0_1_n_n none _ _ (ix2 r c)).trans ?_
    refine (Cert.LibDot.sum_std dot_S10000x128_S128x64_S10000x64_1_0_0_1_n_n rfl rfl rfl rfl rfl rfl
      (truncf (F := Ideal) .bf16
        (concatenate S10000x128 1 [⟨S10000x64, shapeCast S10000x64 v0 shapeCasts_S10000x64_S10000x64⟩,
          ⟨S10000x64, shapeCast S10000x64 v2 shapeCasts_S10000x64_S10000x64⟩]
          concatenates_S10000x64_S10000x64_S10000x128_d1) bitsLt_bf16_f32)
      (truncf (F := Ideal) .bf16 (shapeCast S128x64 v6 shapeCasts_S128x64_S128x64) bitsLt_bf16_f32) r c).trans ?_
    unfold Cert.Rows.dot
    refine Finset.sum_congr rfl fun k _ => ?_
    rw [truncf_apply, truncf_apply, shapeCast_self, shapeCast_self, shapeCast_self, cat_apply]
  · -- the bias row, the same down every row
    rw [broadcastTo_1b_ab_apply, shapeCast_self]

/-- The second stored block of region 4 at `(r, c)`: the transformed row `r` times the 64 x 64 matrix, entry `c`. -/
theorem k4_pay2_apply (v0 v2 : Vec Ideal S10000x64 .f32) (v6 : Vec Ideal S128x64 .f32) (v10 : Vec Ideal S1x64 .f32) (v16 : Vec Ideal S64x64 .f32) (r : Fin 10000) (c : Fin 64) :
    k4_pay2 (F := Ideal) v0 v2 v6 v10 v16 (ix2 r c)
      = Cert.Rows.dot (fun j => Cert.Rows.trans (fun k => v0 (ix2 r k)) (fun k => v2 (ix2 r k)) (fun k n => v6 (ix2 k n)) (fun n => v10 (ix2 0 n)) j) (fun k n => v16 (ix2 k n)) c := by
  unfold k4_pay2
  refine (Ideal.matmul_constant_zero_apply dot_S10000x64_S64x64_S10000x64_1_0_0_1_n_n none _ _ (ix2 r c)).trans ?_
  refine (Cert.LibDot.sum_std dot_S10000x64_S64x64_S10000x64_1_0_0_1_n_n rfl rfl rfl rfl rfl rfl
    (truncf (F := Ideal) .bf16 (k4_pay1 v0 v2 v6 v10) bitsLt_bf16_f32)
    (truncf (F := Ideal) .bf16 (shapeCast S64x64 v16 shapeCasts_S64x64_S64x64) bitsLt_bf16_f32) r c).trans ?_
  unfold Cert.Rows.dot
  refine Finset.sum_congr rfl fun k _ => ?_
  rw [truncf_apply, truncf_apply, k4_pay1_apply, shapeCast_self]
/-! ## Region 6 -/

/-- The first stored block of region 6 at `(r, c)`: rows `r` of the two input blocks side by side, through the
    affine map of the 128 x 64 matrix and the bias row, entry `c`. -/
theorem k6_pay1_apply (v0 v2 : Vec Ideal S10000x64 .f32) (v6 : Vec Ideal S128x64 .f32) (v10 : Vec Ideal S1x64 .f32) (r : Fin 10000) (c : Fin 64) :
    k6_pay1 (F := Ideal) v0 v2 v6 v10 (ix2 r c)
      = Cert.Rows.trans (fun k => v0 (ix2 r k)) (fun k => v2 (ix2 r k)) (fun k n => v6 (ix2 k n)) (fun n => v10 (ix2 0 n)) c := by
  unfold k6_pay1
  refine (addf_apply _ _ _).trans ?_
  unfold Cert.Rows.trans Cert.Rows.lin
  refine congrArg₂ (· + ·) ?_ ?_
  · -- the side-by-side row times the 128 x 64 matrix
    refine (Ideal.matmul_constant_zero_apply dot_S10000x128_S128x64_S10000x64_1_0_0_1_n_n none _ _ (ix2 r c)).trans ?_
    refine (Cert.LibDot.sum_std dot_S10000x128_S128x64_S10000x64_1_0_0_1_n_n rfl rfl rfl rfl rfl rfl
      (truncf (F := Ideal) .bf16
        (concatenate S10000x128 1 [⟨S10000x64, shapeCast S10000x64 v0 shapeCasts_S10000x64_S10000x64⟩,
          ⟨S10000x64, shapeCast S10000x64 v2 shapeCasts_S10000x64_S10000x64⟩]
          concatenates_S10000x64_S10000x64_S10000x128_d1) bitsLt_bf16_f32)
      (truncf (F := Ideal) .bf16 (shapeCast S128x64 v6 shapeCasts_S128x64_S128x64) bitsLt_bf16_f32) r c).trans ?_
    unfold Cert.Rows.dot
    refine Finset.sum_congr rfl fun k _ => ?_
    rw [truncf_apply, truncf_apply, shapeCast_self, shapeCast_self, shapeCast_self, cat_apply]
  · -- the bias row, the same down every row
    rw [broadcastTo_1b_ab_apply, shapeCast_self]

/-- The second stored block of region 6 at `(r, c)`: the transformed row `r` times the 64 x 64 matrix, entry `c`. -/
theorem k6_pay2_apply (v0 v2 : Vec Ideal S10000x64 .f32) (v6 : Vec Ideal S128x64 .f32) (v10 : Vec Ideal S1x64 .f32) (v16 : Vec Ideal S64x64 .f32) (r : Fin 10000) (c : Fin 64) :
    k6_pay2 (F := Ideal) v0 v2 v6 v10 v16 (ix2 r c)
      = Cert.Rows.dot (fun j => Cert.Rows.trans (fun k => v0 (ix2 r k)) (fun k => v2 (ix2 r k)) (fun k n => v6 (ix2 k n)) (fun n => v10 (ix2 0 n)) j) (fun k n => v16 (ix2 k n)) c := by
  unfold k6_pay2
  refine (Ideal.matmul_constant_zero_apply dot_S10000x64_S64x64_S10000x64_1_0_0_1_n_n none _ _ (ix2 r c)).trans ?_
  refine (Cert.LibDot.sum_std dot_S10000x64_S64x64_S10000x64_1_0_0_1_n_n rfl rfl rfl rfl rfl rfl
    (truncf (F := Ideal) .bf16 (k6_pay1 v0 v2 v6 v10) bitsLt_bf16_f32)
    (truncf (F := Ideal) .bf16 (shapeCast S64x64 v16 shapeCasts_S64x64_S64x64) bitsLt_bf16_f32) r c).trans ?_
  unfold Cert.Rows.dot
  refine Finset.sum_congr rfl fun k _ => ?_
  rw [truncf_apply, truncf_apply, k6_pay1_apply, shapeCast_self]
/-! ## Region 8 -/

/-- The first stored block of region 8 at `(r, c)`: rows `r` of the two input blocks side by side, through the
    affine map of the 128 x 64 matrix and the bias row, entry `c`. -/
theorem k8_pay1_apply (v0 v2 : Vec Ideal S10000x64 .f32) (v6 : Vec Ideal S128x64 .f32) (v10 : Vec Ideal S1x64 .f32) (r : Fin 10000) (c : Fin 64) :
    k8_pay1 (F := Ideal) v0 v2 v6 v10 (ix2 r c)
      = Cert.Rows.trans (fun k => v0 (ix2 r k)) (fun k => v2 (ix2 r k)) (fun k n => v6 (ix2 k n)) (fun n => v10 (ix2 0 n)) c := by
  unfold k8_pay1
  refine (addf_apply _ _ _).trans ?_
  unfold Cert.Rows.trans Cert.Rows.lin
  refine congrArg₂ (· + ·) ?_ ?_
  · -- the side-by-side row times the 128 x 64 matrix
    refine (Ideal.matmul_constant_zero_apply dot_S10000x128_S128x64_S10000x64_1_0_0_1_n_n none _ _ (ix2 r c)).trans ?_
    refine (Cert.LibDot.sum_std dot_S10000x128_S128x64_S10000x64_1_0_0_1_n_n rfl rfl rfl rfl rfl rfl
      (truncf (F := Ideal) .bf16
        (concatenate S10000x128 1 [⟨S10000x64, shapeCast S10000x64 v0 shapeCasts_S10000x64_S10000x64⟩,
          ⟨S10000x64, shapeCast S10000x64 v2 shapeCasts_S10000x64_S10000x64⟩]
          concatenates_S10000x64_S10000x64_S10000x128_d1) bitsLt_bf16_f32)
      (truncf (F := Ideal) .bf16 (shapeCast S128x64 v6 shapeCasts_S128x64_S128x64) bitsLt_bf16_f32) r c).trans ?_
    unfold Cert.Rows.dot
    refine Finset.sum_congr rfl fun k _ => ?_
    rw [truncf_apply, truncf_apply, shapeCast_self, shapeCast_self, shapeCast_self, cat_apply]
  · -- the bias row, the same down every row
    rw [broadcastTo_1b_ab_apply, shapeCast_self]

/-- The second stored block of region 8 at `(r, c)`: the transformed row `r` times the 64 x 64 matrix, entry `c`. -/
theorem k8_pay2_apply (v0 v2 : Vec Ideal S10000x64 .f32) (v6 : Vec Ideal S128x64 .f32) (v10 : Vec Ideal S1x64 .f32) (v16 : Vec Ideal S64x64 .f32) (r : Fin 10000) (c : Fin 64) :
    k8_pay2 (F := Ideal) v0 v2 v6 v10 v16 (ix2 r c)
      = Cert.Rows.dot (fun j => Cert.Rows.trans (fun k => v0 (ix2 r k)) (fun k => v2 (ix2 r k)) (fun k n => v6 (ix2 k n)) (fun n => v10 (ix2 0 n)) j) (fun k n => v16 (ix2 k n)) c := by
  unfold k8_pay2
  refine (Ideal.matmul_constant_zero_apply dot_S10000x64_S64x64_S10000x64_1_0_0_1_n_n none _ _ (ix2 r c)).trans ?_
  refine (Cert.LibDot.sum_std dot_S10000x64_S64x64_S10000x64_1_0_0_1_n_n rfl rfl rfl rfl rfl rfl
    (truncf (F := Ideal) .bf16 (k8_pay1 v0 v2 v6 v10) bitsLt_bf16_f32)
    (truncf (F := Ideal) .bf16 (shapeCast S64x64 v16 shapeCasts_S64x64_S64x64) bitsLt_bf16_f32) r c).trans ?_
  unfold Cert.Rows.dot
  refine Finset.sum_congr rfl fun k _ => ?_
  rw [truncf_apply, truncf_apply, k8_pay1_apply, shapeCast_self]

end Cert.KernelIdeal.Pay

end
-- ==== Proof.KReg0.lean ====
/-
  Region 0 of the network's first stage, read as row functions.

  The region walks the 100000 rows of the embedding sums in ten blocks of 10000 rows. At each block it writes back
  two things: the block itself, unchanged, and the block times the 64 x 64 weight matrix. The matrix window is the
  whole matrix at every block. Since the ten blocks are disjoint and together fill the array, each output array
  ends holding, at row r, a function of row r of the sums alone: the row itself, and the row times the matrix.

  The proof has four steps per output array: the printed index maps of the four windows are related once, over the
  ten points of the grid; what one point writes back is shown to be that point's block of one whole-array function;
  an index lies in a point's block exactly when its row lies in that point's range of rows; and every row r lies in
  the block of point r / 10000. The whole-array statement then follows from the cover.
-/
import proofs.«157269_j2267742732766_1_alg».proof.Proof.Gen.KernelIdeal.Frame
import proofs.«157269_j2267742732766_1_alg».proof.Proof.Rows
import proofs.«157269_j2267742732766_1_alg».proof.Proof.KPayA
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-! ## The row functions the two output arrays end holding -/

/-- The first output array: the embedding sums themselves. -/
def sums (A0 : S100000x64.Idx → Elt Ideal .f32) : S100000x64.Idx → Elt Ideal .f32 := fun i => A0 i

/-- The second output array: at row `r` and column `q`, row `r` of the sums times the matrix, at `q`. -/
def sumsDot (A0 : S100000x64.Idx → Elt Ideal .f32) (A1 : S64x64.Idx → Elt Ideal .f32) :
    S100000x64.Idx → Elt Ideal .f32 :=
  fun i => Cert.Rows.dot (fun k : Fin 64 => A0 (ix2 (i 0 : Fin 100000) k))
    (fun (k n : Fin 64) => A1 (ix2 k n)) (i 1 : Fin 64)

/-- A row times a matrix depends only on the row's entries, the matrix's entries and the column. -/
theorem dot_congr {K N : ℕ} {x x' : Fin K → EReal} {W W' : Fin K → Fin N → EReal} {c c' : Fin N}
    (hx : ∀ k, x k = x' k) (hW : ∀ k n, W k n = W' k n) (hc : c = c') :
    Cert.Rows.dot x W c = Cert.Rows.dot x' W' c' := by
  subst hc
  have ex : x = x' := funext hx
  have eW : W = W' := funext fun k => funext fun n => hW k n
  rw [ex, eW]

/-! ## The index maps, once over the grid -/

/-- The zero offsets of a whole-buffer access, as a constant function. -/
theorem zero_off : (![0, 0] : Fin 2 → Nat) = fun _ => 0 := funext fun a => by fin_cases a <;> rfl

/-- At point `t` the three row-blocked windows sit at block `(t, 0)`, the matrix window at block `(0, 0)`. -/
theorem index_maps : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input windows' blocks, read off their arrays -/

/-- Row `p` of the block of the sums at point `t` is row `10000 t + p` of the array. -/
theorem sums_block (c : Dev nD) (t : Fin cfg0.N) (p : Fin 10000) (k : Fin 64) (r : Fin 100000)
    (hr : r.val = t.val * 10000 + p.val) :
    (iblk0 V c 0 t : Vec Ideal S10000x64 .f32) (ix2 p k)
      = (V c main_v7 : S100000x64.Idx → Elt Ideal .f32) (ix2 r k) := by
  obtain ⟨e0, e1, -⟩ := index_maps t
  unfold iblk0
  rw [View.read_apply]
  show V c main_v7 _ = V c main_v7 _
  congr 1
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- The matrix window's block at every point is the matrix. -/
theorem matrix_block (c : Dev nD) (t : Fin cfg0.N) (k n : Fin 64) :
    (iblk0 V c 1 t : Vec Ideal S64x64 .f32) (ix2 k n)
      = (V c main_v9 : S64x64.Idx → Elt Ideal .f32) (ix2 k n) := by
  obtain ⟨-, -, e0, e1, -⟩ := index_maps t
  unfold iblk0
  rw [View.read_apply]
  show V c main_v9 _ = V c main_v9 _
  congr 1
  funext a
  apply Fin.ext
  match a with
  | ⟨0, _⟩ => show win0_1.index t (0 : Fin 2) * 64 + 1 * k.val = k.val; omega
  | ⟨1, _⟩ => show win0_1.index t (1 : Fin 2) * 64 + 1 * n.val = n.val; omega

/-! ## The body's two payloads at an index of the block -/

/-- The first payload is the loaded block. -/
theorem copy_at (x0 : Vec Ideal S10000x64 .f32) (j : S10000x64.Idx) :
    k0_pay1 (F := Ideal) x0 j = x0 (ix2 (j 0 : Fin 10000) (j 1 : Fin 64)) := by
  obtain ⟨p, q, rfl⟩ : ∃ (p : Fin 10000) (q : Fin 64), j = ix2 p q := ⟨j 0, j 1, eq_ix2 j⟩
  exact Pay.k0_pay1_apply x0 p q

/-- The second payload at row `j 0`, column `j 1`: that row of the loaded block times the loaded matrix. -/
theorem dot_at (x0 : Vec Ideal S10000x64 .f32) (x1 : Vec Ideal S64x64 .f32) (j : S10000x64.Idx) :
    k0_pay2 (F := Ideal) x0 x1 j
      = Cert.Rows.dot (fun k : Fin 64 => x0 (ix2 (j 0 : Fin 10000) k)) (fun (k n : Fin 64) => x1 (ix2 k n))
          (j 1 : Fin 64) := by
  obtain ⟨p, q, rfl⟩ : ∃ (p : Fin 10000) (q : Fin 64), j = ix2 p q := ⟨j 0, j 1, eq_ix2 j⟩
  exact Pay.k0_pay2_apply x0 x1 p q

/-! ## Output window 2: the sums, copied -/

/-- What point `t` writes back through window 2 is block `t` of the sums. -/
theorem flushed2_eq (c : Dev nD) (t : Fin cfg0.N) :
    (dat0 V c).flushed 2 t = ((cfg0.win 2).blk t).view.read (Elt Ideal) (sums (V c main_v7)) := by
  show (cfg0.win 2).cut (grid0.coords t) ((dat0 V c).after 2 t) = _
  rw [after0_2]
  unfold out0_2
  rw [View.canon_unit_zero zero_off]
  simp only [View.ld_unit_zero (S := S10000x64) zero_off]
  obtain ⟨-, -, -, -, e0, e1, -⟩ := index_maps t
  funext j
  refine (copy_at _ _).trans ?_
  show _ = sums (V c main_v7) (((cfg0.win 2).blk t).view.emb j)
  unfold sums
  refine (sums_block V c t _ _ ⟨win0_2.index t (0 : Fin 2) * 10000 + (j 0).val, ?_⟩ ?_).trans ?_
  · have hj : (j 0).val < 10000 := (j 0).isLt
    have ht : t.val < grid0.N := t.isLt
    rw [N_0] at ht
    omega
  · show win0_2.index t (0 : Fin 2) * 10000 + (j 0).val = t.val * 10000 + (j 0).val
    omega
  · congr 1
    funext a
    apply Fin.ext
    match a with
    | ⟨0, _⟩ => show win0_2.index t (0 : Fin 2) * 10000 + (j 0).val = win0_2.index t (0 : Fin 2) * 10000 + 1 * (j 0).val; omega
    | ⟨1, _⟩ => show (j 1).val = win0_2.index t (1 : Fin 2) * 64 + 1 * (j 1).val; omega

/-- An index is in point `t`'s block of window 2 iff each coordinate is in the block's range on its axis. -/
theorem mem_blk2 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v10_0).slice (win0_2.rect t)).set ↔ _
  rw [View.set_slice_whole, Rect.mem_set_unit]
  exact Iff.rfl

/-- Row `r` lies in the block of point `r / 10000`. -/
theorem cover2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  refine ⟨t, flush0_2 t, ?_⟩
  rw [mem_blk2]
  obtain ⟨-, -, -, -, e0, e1, -⟩ := index_maps t
  have ht : t.val = (i 0).val / 10000 := rfl
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first output array after the region: the sums. -/
theorem array2 (c : Dev nD) : (dat0 V c).arrAt 2 cfg0.N = sums (V c main_v7) :=
  (dat0 V c).arrAt_eq_of_cover 2 (sums (V c main_v7)) (fun t _ => flushed2_eq V c t) cover2

/-! ## Output window 3: the sums times the matrix -/

/-- What point `t` writes back through window 3 is block `t` of "row times matrix". -/
theorem flushed3_eq (c : Dev nD) (t : Fin cfg0.N) :
    (dat0 V c).flushed 3 t
      = ((cfg0.win 3).blk t).view.read (Elt Ideal) (sumsDot (V c main_v7) (V c main_v9)) := by
  show (cfg0.win 3).cut (grid0.coords t) ((dat0 V c).after 3 t) = _
  rw [after0_3]
  unfold out0_3
  rw [View.canon_unit_zero zero_off]
  simp only [View.ld_unit_zero (S := S10000x64) zero_off, View.ld_unit_zero (S := S64x64) zero_off]
  obtain ⟨-, -, -, -, -, -, e0, e1⟩ := index_maps t
  funext j
  refine (dot_at _ _ _).trans ?_
  show Cert.Rows.dot _ _ _ = sumsDot (V c main_v7) (V c main_v9) (((cfg0.win 3).blk t).view.emb j)
  unfold sumsDot
  refine dot_congr (fun k => ?_) (fun k n => ?_) ?_
  · refine sums_block V c t _ k _ ?_
    show win0_3.index t (0 : Fin 2) * 10000 + 1 * (j 0).val = t.val * 10000 + (j 0).val
    omega
  · exact matrix_block V c t k n
  · apply Fin.ext
    show (j 1).val = win0_3.index t (1 : Fin 2) * 64 + 1 * (j 1).val
    omega

/-- An index is in point `t`'s block of window 3 iff each coordinate is in the block's range on its axis. -/
theorem mem_blk3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v10_1).slice (win0_3.rect t)).set ↔ _
  rw [View.set_slice_whole, Rect.mem_set_unit]
  exact Iff.rfl

/-- Row `r` lies in the block of point `r / 10000`. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  refine ⟨t, flush0_3 t, ?_⟩
  rw [mem_blk3]
  obtain ⟨-, -, -, -, -, -, e0, e1⟩ := index_maps t
  have ht : t.val = (i 0).val / 10000 := rfl
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The second output array after the region: each row of the sums times the matrix. -/
theorem array3 (c : Dev nD) : (dat0 V c).arrAt 3 cfg0.N = sumsDot (V c main_v7) (V c main_v9) :=
  (dat0 V c).arrAt_eq_of_cover 3 (sumsDot (V c main_v7) (V c main_v9)) (fun t _ => flushed3_eq V c t) cover3

/-! ## The two arrays, index by index -/

/-- The first output array holds the embedding sums. -/
theorem out2 (c : Dev nD) (r : Fin 100000) (q : Fin 64) :
    (dat0 V c).arrAt 2 cfg0.N (ix2 r q) = V c main_v7 (ix2 r q) :=
  congrFun (array2 V c) (ix2 r q)

/-- The second output array holds, at row `r`, that row of the sums times the matrix. -/
theorem out3 (c : Dev nD) (r : Fin 100000) (q : Fin 64) :
    (dat0 V c).arrAt 3 cfg0.N (ix2 r q)
      = Cert.Rows.dot (fun k => V c main_v7 (ix2 r k)) (fun k n => V c main_v9 (ix2 k n)) q :=
  congrFun (array3 V c) (ix2 r q)

end Cert.KernelIdeal.Reg0

end
-- ==== Proof.KPayB.lean ====
/-
  The gated recurrent update of one tile of rows, read at an index.

  The body multiplies the message rows and the state rows by two 64×192 weights (into zero accumulators), adds to each
  product its bias row broadcast down the rows, cuts each 192-wide result into the reset, update and candidate columns
  (offsets 0, 64 and 128), and blends: with r and z the logistic of the summed reset and update columns and n the
  hyperbolic tangent of the candidate column of the message side plus r times that of the state side, the result is
  (1 - z) · n + z · state. Number-format changes are the identity on the extended reals and a shape cast to the same
  shape is the identity, so at the index (r, c) this is the row function `Cert.Rows.gru` of row r at column c.

  The steps: a column slice at offset o read at (r, c) is its operand at (r, o + c); the broadcast bias at (r, j) is
  the bias at (0, j); the product at (r, j) is the sum over the contracted index; product plus bias at (r, j) is the
  affine map of row r; and the pointwise tail over any two arrays whose rows r are known row functions.
-/
import proofs.«157269_j2267742732766_1_alg».proof.Proof.Gen.KernelIdeal.Skeleton
import proofs.«157269_j2267742732766_1_alg».proof.Proof.Rows
import proofs.«157269_j2267742732766_1_alg».proof.Proof.LibDot
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A column slice of a 192-wide array at offset `o`, read at `(r, c)`, is the array at `(r, o + c)`. -/
theorem gru_slice_apply (o : ℕ) (ho : o + 64 ≤ 192) (h : S10000x192.Slices ![0, o] S10000x64) (g : FVec Ideal S10000x192 .f32)
    (r : Fin 10000) (c : Fin 64) :
    extractStridedSlice S10000x64 ![0, o] g h (ix2 r c)
      = g (ix2 r (⟨o + c.val, by have := c.isLt; omega⟩ : Fin 192)) :=
  extractStridedSlice_apply _ g _ (ix2 r c) (ix2 r (⟨o + c.val, by have := c.isLt; omega⟩ : Fin 192)) fun a =>
    match a with
    | ⟨0, _⟩ => by show r.val = 0 + r.val; omega
    | ⟨1, _⟩ => rfl

/-- A column slice at offset `o` of an array whose row `r` is the row function `G`, read at `(r, c)`, is the gate of `G` at `o`. -/
theorem gru_slice_gate (o : ℕ) (ho : o + 64 ≤ 192) (h : S10000x192.Slices ![0, o] S10000x64) (g : FVec Ideal S10000x192 .f32)
    (r : Fin 10000) (c : Fin 64) (G : Fin 192 → EReal) (hG : ∀ j, g (ix2 r j) = G j) :
    extractStridedSlice S10000x64 ![0, o] g h (ix2 r c) = Cert.Rows.gate G o ho c :=
  (gru_slice_apply o ho h g r c).trans (hG _)

/-- The bias row broadcast down the rows, read at `(r, j)`, is the bias at `(0, j)`. -/
theorem gru_bias_apply (b : FVec Ideal S1x192 .f32) (r : Fin 10000) (j : Fin 192) :
    broadcastTo S10000x192 (shapeCast S1x192 b shapeCasts_S1x192_S1x192) broadcasts_S1x192_S10000x192 (ix2 r j)
      = b (ix2 0 j) := by
  rw [shapeCast_self]
  exact broadcastTo_apply b _ (ix2 r j) (ix2 0 j) fun a =>
    match a with
    | ⟨0, _⟩ => rfl
    | ⟨1, _⟩ => rfl

/-- The product of the rows with a 64×192 weight into the zero accumulator, read at `(r, j)`: row `r` times the weight. -/
theorem gru_mm_apply (x : FVec Ideal S10000x64 .f32) (W : FVec Ideal S64x192 .f32) (r : Fin 10000) (j : Fin 192) :
    matmul dot_S10000x64_S64x192_S10000x192_1_0_0_1_n_n none
        (truncf .bf16 (shapeCast S10000x64 x shapeCasts_S10000x64_S10000x64) bitsLt_bf16_f32)
        (truncf .bf16 (shapeCast S64x192 W shapeCasts_S64x192_S64x192) bitsLt_bf16_f32)
        (constant (F := Ideal) S10000x192 .f32 0x00000000#32) (ix2 r j)
      = Cert.Rows.dot (fun k => x (ix2 r k)) (fun k n => W (ix2 k n)) j := by
  rw [shapeCast_self, shapeCast_self]
  refine (Ideal.matmul_constant_zero_apply _ none _ _ (ix2 r j)).trans ?_
  exact Cert.LibDot.sum_std dot_S10000x64_S64x192_S10000x192_1_0_0_1_n_n rfl rfl rfl rfl rfl rfl _ _ r j

/-- The product plus the broadcast bias, read at `(r, j)`: the affine map of row `r`. -/
theorem gru_lin_apply (x : FVec Ideal S10000x64 .f32) (W : FVec Ideal S64x192 .f32) (b : FVec Ideal S1x192 .f32)
    (r : Fin 10000) (j : Fin 192) :
    addf
        (matmul dot_S10000x64_S64x192_S10000x192_1_0_0_1_n_n none
          (truncf .bf16 (shapeCast S10000x64 x shapeCasts_S10000x64_S10000x64) bitsLt_bf16_f32)
          (truncf .bf16 (shapeCast S64x192 W shapeCasts_S64x192_S64x192) bitsLt_bf16_f32)
          (constant (F := Ideal) S10000x192 .f32 0x00000000#32))
        (broadcastTo S10000x192 (shapeCast S1x192 b shapeCasts_S1x192_S1x192) broadcasts_S1x192_S10000x192) (ix2 r j)
      = Cert.Rows.lin (fun k => x (ix2 r k)) (fun k n => W (ix2 k n)) (fun n => b (ix2 0 n)) j := by
  refine (addf_apply _ _ (ix2 r j)).trans ?_
  rw [gru_mm_apply, gru_bias_apply]
  rfl

/-- The pointwise tail of the gated recurrent update, read at `(r, c)`, over two pre-activation arrays whose rows `r` are
    the row functions `Gi` and `Gh`. -/
theorem gru_blend_apply (gi gh : FVec Ideal S10000x192 .f32) (xt : FVec Ideal S10000x64 .f32) (r : Fin 10000) (c : Fin 64)
    (Gi Gh : Fin 192 → EReal) (hgi : ∀ j, gi (ix2 r j) = Gi j) (hgh : ∀ j, gh (ix2 r j) = Gh j) :
    addf
        (mulf
          (subf (broadcast S10000x64 (Scalar.ofBits (F := Ideal) .f32 0x3F800000#32))
            (logistic (addf (extractStridedSlice S10000x64 ![0, 64] gi slices_S10000x192_o0_64_S10000x64)
                            (extractStridedSlice S10000x64 ![0, 64] gh slices_S10000x192_o0_64_S10000x64))))
          (tanh (addf (extractStridedSlice S10000x64 ![0, 128] gi slices_S10000x192_o0_128_S10000x64)
                  (mulf (logistic (addf (extractStridedSlice S10000x64 ![0, 0] gi slices_S10000x192_o0_0_S10000x64)
                                        (extractStridedSlice S10000x64 ![0, 0] gh slices_S10000x192_o0_0_S10000x64)))
                        (extractStridedSlice S10000x64 ![0, 128] gh slices_S10000x192_o0_128_S10000x64)))))
        (mulf (logistic (addf (extractStridedSlice S10000x64 ![0, 64] gi slices_S10000x192_o0_64_S10000x64)
                              (extractStridedSlice S10000x64 ![0, 64] gh slices_S10000x192_o0_64_S10000x64)))
              (shapeCast S10000x64 xt shapeCasts_S10000x64_S10000x64)) (ix2 r c)
      = (Ideal.ofBits .f32 0x3F800000#32
            - Ideal.logistic (Cert.Rows.gate Gi 64 (by omega) c + Cert.Rows.gate Gh 64 (by omega) c))
          * Ideal.tanh (Cert.Rows.gate Gi 128 (by omega) c
              + Ideal.logistic (Cert.Rows.gate Gi 0 (by omega) c + Cert.Rows.gate Gh 0 (by omega) c) * Cert.Rows.gate Gh 128 (by omega) c)
        + Ideal.logistic (Cert.Rows.gate Gi 64 (by omega) c + Cert.Rows.gate Gh 64 (by omega) c) * xt (ix2 r c) := by
  rw [shapeCast_self]
  show (Ideal.ofBits .f32 0x3F800000#32
          - Ideal.logistic (extractStridedSlice S10000x64 ![0, 64] gi slices_S10000x192_o0_64_S10000x64 (ix2 r c)
              + extractStridedSlice S10000x64 ![0, 64] gh slices_S10000x192_o0_64_S10000x64 (ix2 r c)))
        * Ideal.tanh (extractStridedSlice S10000x64 ![0, 128] gi slices_S10000x192_o0_128_S10000x64 (ix2 r c)
            + Ideal.logistic (extractStridedSlice S10000x64 ![0, 0] gi slices_S10000x192_o0_0_S10000x64 (ix2 r c)
                + extractStridedSlice S10000x64 ![0, 0] gh slices_S10000x192_o0_0_S10000x64 (ix2 r c))
              * extractStridedSlice S10000x64 ![0, 128] gh slices_S10000x192_o0_128_S10000x64 (ix2 r c))
      + Ideal.logistic (extractStridedSlice S10000x64 ![0, 64] gi slices_S10000x192_o0_64_S10000x64 (ix2 r c)
            + extractStridedSlice S10000x64 ![0, 64] gh slices_S10000x192_o0_64_S10000x64 (ix2 r c)) * xt (ix2 r c) = _
  rw [gru_slice_gate 0 (by omega) _ gi r c Gi hgi, gru_slice_gate 0 (by omega) _ gh r c Gh hgh,
    gru_slice_gate 64 (by omega) _ gi r c Gi hgi, gru_slice_gate 64 (by omega) _ gh r c Gh hgh,
    gru_slice_gate 128 (by omega) _ gi r c Gi hgi, gru_slice_gate 128 (by omega) _ gh r c Gh hgh]

/-- The body's value at `(r, c)` is the gated recurrent update of row `r`. -/
theorem k1_pay1_apply (v0 v11 v35 : Vec Ideal S10000x64 .f32) (v3 v14 : Vec Ideal S64x192 .f32) (v7 v18 : Vec Ideal S1x192 .f32) (r : Fin 10000) (c : Fin 64) :
    k1_pay1 (F := Ideal) v0 v3 v7 v11 v14 v18 v35 (ix2 r c)
      = Cert.Rows.gru (Ideal.ofBits .f32 0x3F800000#32) (fun k => v0 (ix2 r k)) (fun k => v11 (ix2 r k)) (fun k => v35 (ix2 r k))
          (fun k n => v3 (ix2 k n)) (fun n => v7 (ix2 0 n)) (fun k n => v14 (ix2 k n)) (fun n => v18 (ix2 0 n)) c := by
  unfold k1_pay1
  exact gru_blend_apply _ _ v35 r c _ _ (fun j => gru_lin_apply v0 v3 v7 r j) (fun j => gru_lin_apply v11 v14 v18 r j)

/-- The same for the body of region 3: the same arithmetic over its own blocks. -/
theorem k3_pay1_apply (v0 v11 v35 : Vec Ideal S10000x64 .f32) (v3 v14 : Vec Ideal S64x192 .f32) (v7 v18 : Vec Ideal S1x192 .f32) (r : Fin 10000) (c : Fin 64) :
    k3_pay1 (F := Ideal) v0 v3 v7 v11 v14 v18 v35 (ix2 r c)
      = Cert.Rows.gru (Ideal.ofBits .f32 0x3F800000#32) (fun k => v0 (ix2 r k)) (fun k => v11 (ix2 r k)) (fun k => v35 (ix2 r k))
          (fun k n => v3 (ix2 k n)) (fun n => v7 (ix2 0 n)) (fun k n => v14 (ix2 k n)) (fun n => v18 (ix2 0 n)) c := by
  unfold k3_pay1
  exact gru_blend_apply _ _ v35 r c _ _ (fun j => gru_lin_apply v0 v3 v7 r j) (fun j => gru_lin_apply v11 v14 v18 r j)

/-- The same for the body of region 5: the same arithmetic over its own blocks. -/
theorem k5_pay1_apply (v0 v11 v35 : Vec Ideal S10000x64 .f32) (v3 v14 : Vec Ideal S64x192 .f32) (v7 v18 : Vec Ideal S1x192 .f32) (r : Fin 10000) (c : Fin 64) :
    k5_pay1 (F := Ideal) v0 v3 v7 v11 v14 v18 v35 (ix2 r c)
      = Cert.Rows.gru (Ideal.ofBits .f32 0x3F800000#32) (fun k => v0 (ix2 r k)) (fun k => v11 (ix2 r k)) (fun k => v35 (ix2 r k))
          (fun k n => v3 (ix2 k n)) (fun n => v7 (ix2 0 n)) (fun k n => v14 (ix2 k n)) (fun n => v18 (ix2 0 n)) c := by
  unfold k5_pay1
  exact gru_blend_apply _ _ v35 r c _ _ (fun j => gru_lin_apply v0 v3 v7 r j) (fun j => gru_lin_apply v11 v14 v18 r j)

/-- The same for the body of region 7: the same arithmetic over its own blocks. -/
theorem k7_pay1_apply (v0 v11 v35 : Vec Ideal S10000x64 .f32) (v3 v14 : Vec Ideal S64x192 .f32) (v7 v18 : Vec Ideal S1x192 .f32) (r : Fin 10000) (c : Fin 64) :
    k7_pay1 (F := Ideal) v0 v3 v7 v11 v14 v18 v35 (ix2 r c)
      = Cert.Rows.gru (Ideal.ofBits .f32 0x3F800000#32) (fun k => v0 (ix2 r k)) (fun k => v11 (ix2 r k)) (fun k => v35 (ix2 r k))
          (fun k n => v3 (ix2 k n)) (fun n => v7 (ix2 0 n)) (fun k n => v14 (ix2 k n)) (fun n => v18 (ix2 0 n)) c := by
  unfold k7_pay1
  exact gru_blend_apply _ _ v35 r c _ _ (fun j => gru_lin_apply v0 v3 v7 r j) (fun j => gru_lin_apply v11 v14 v18 r j)

/-- The same for the body of region 9: the same arithmetic over its own blocks. -/
theorem k9_pay1_apply (v0 v11 v35 : Vec Ideal S10000x64 .f32) (v3 v14 : Vec Ideal S64x192 .f32) (v7 v18 : Vec Ideal S1x192 .f32) (r : Fin 10000) (c : Fin 64) :
    k9_pay1 (F := Ideal) v0 v3 v7 v11 v14 v18 v35 (ix2 r c)
      = Cert.Rows.gru (Ideal.ofBits .f32 0x3F800000#32) (fun k => v0 (ix2 r k)) (fun k => v11 (ix2 r k)) (fun k => v35 (ix2 r k))
          (fun k n => v3 (ix2 k n)) (fun n => v7 (ix2 0 n)) (fun k n => v14 (ix2 k n)) (fun n => v18 (ix2 0 n)) c := by
  unfold k9_pay1
  exact gru_blend_apply _ _ v35 r c _ _ (fun j => gru_lin_apply v0 v3 v7 r j) (fun j => gru_lin_apply v11 v14 v18 r j)

end Cert.KernelIdeal.Pay

end
-- ==== Proof.KReg1.lean ====
import proofs.«157269_j2267742732766_1_alg».proof.Proof.Gen.KernelIdeal.Frame
import proofs.«157269_j2267742732766_1_alg».proof.Proof.Rows
import proofs.«157269_j2267742732766_1_alg».proof.Proof.KPayB
import Idealize.ShloMosaic.Lib.Pipeline.Value
import Idealize.ShloMosaic.Lib.ValueIdx

/-!
  Region 1: the gated recurrent update, from row blocks to the whole array.

  The region walks a grid of 10 points. Point `t` sees rows `10000·t … 10000·t + 9999` of the message array and of
  the state array, and the four weight arrays whole; it writes the same rows of the output array. Every row of the
  output is therefore written by exactly one point, and what that point writes in row `r`, column `q` is the gated
  recurrent update `Cert.Rows.gru` of row `r` of the messages and of the state. This module states that as one
  equation per entry of the output array.
-/

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat)

/-! ## The row function over whole arrays -/

/-- Entry `q` of the updated state of row `r`: the gated recurrent update of row `r` of the messages `a0` and of the
    state `a1`, under the input-side weights `a2`, `a3` and the hidden-side weights `a4`, `a5`. -/
def row (a0 a1 : S100000x64.Idx → EReal) (a2 : S64x192.Idx → EReal) (a3 : S1x192.Idx → EReal)
    (a4 : S64x192.Idx → EReal) (a5 : S1x192.Idx → EReal) (r : Fin 100000) (q : Fin 64) : EReal :=
  Cert.Rows.gru (Ideal.ofBits .f32 0x3F800000#32) (fun k => a0 (ix2 r k)) (fun k => a1 (ix2 r k)) (fun k => a1 (ix2 r k))
    (fun k n => a2 (ix2 k n)) (fun n => a3 (ix2 0 n)) (fun k n => a4 (ix2 k n)) (fun n => a5 (ix2 0 n)) q

/-- The output array as one function of the six input arrays: entry `(r, q)` is `row … r q`. -/
def G (a0 a1 : S100000x64.Idx → EReal) (a2 : S64x192.Idx → EReal) (a3 : S1x192.Idx → EReal)
    (a4 : S64x192.Idx → EReal) (a5 : S1x192.Idx → EReal) : S100000x64.Idx → EReal :=
  fun i => row a0 a1 a2 a3 a4 a5 ⟨(i 0).val, idx2_lt0 i⟩ ⟨(i 1).val, idx2_lt1 i⟩

theorem G_apply (a0 a1 : S100000x64.Idx → EReal) (a2 : S64x192.Idx → EReal) (a3 : S1x192.Idx → EReal)
    (a4 : S64x192.Idx → EReal) (a5 : S1x192.Idx → EReal) (r : Fin 100000) (q : Fin 64) :
    G a0 a1 a2 a3 a4 a5 (ix2 r q) = row a0 a1 a2 a3 a4 a5 r q := rfl

/-! ## One block: the payload of row blocks that sit at row offset `o` of the arrays -/

/-- If the two row blocks `x0`, `x1` are rows `o … o + 9999` of the arrays `a0`, `a1` and the weight blocks are the
    weight arrays, the body's payload at `(p, q)` is entry `(o + p, q)` of the output function. -/
theorem pay_at_offset (x0 x1 : Vec Ideal S10000x64 .f32) (x2 x4 : Vec Ideal S64x192 .f32) (x3 x5 : Vec Ideal S1x192 .f32)
    (a0 a1 : S100000x64.Idx → EReal) (a2 : S64x192.Idx → EReal) (a3 : S1x192.Idx → EReal)
    (a4 : S64x192.Idx → EReal) (a5 : S1x192.Idx → EReal) (o : Nat) (p : Fin 10000) (q : Fin 64)
    (hb : o + p.val < 100000)
    (h0 : ∀ k : Fin 64, x0 (ix2 p k) = a0 (ix2 (⟨o + p.val, hb⟩ : Fin 100000) k))
    (h1 : ∀ k : Fin 64, x1 (ix2 p k) = a1 (ix2 (⟨o + p.val, hb⟩ : Fin 100000) k))
    (h2 : ∀ (k : Fin 64) (n : Fin 192), x2 (ix2 k n) = a2 (ix2 k n))
    (h3 : ∀ n : Fin 192, x3 (ix2 (0 : Fin 1) n) = a3 (ix2 (0 : Fin 1) n))
    (h4 : ∀ (k : Fin 64) (n : Fin 192), x4 (ix2 k n) = a4 (ix2 k n))
    (h5 : ∀ n : Fin 192, x5 (ix2 (0 : Fin 1) n) = a5 (ix2 (0 : Fin 1) n)) :
    k1_pay1 (F := Ideal) x0 x2 x3 x1 x4 x5 x1 (ix2 p q) = row a0 a1 a2 a3 a4 a5 ⟨o + p.val, hb⟩ q := by
  have e0 : (fun k : Fin 64 => x0 (ix2 p k)) = fun k => a0 (ix2 (⟨o + p.val, hb⟩ : Fin 100000) k) := funext h0
  have e1 : (fun k : Fin 64 => x1 (ix2 p k)) = fun k => a1 (ix2 (⟨o + p.val, hb⟩ : Fin 100000) k) := funext h1
  have e2 : (fun (k : Fin 64) (n : Fin 192) => x2 (ix2 k n)) = fun k n => a2 (ix2 k n) := funext fun k => funext (h2 k)
  have e3 : (fun n : Fin 192 => x3 (ix2 (0 : Fin 1) n)) = fun n => a3 (ix2 (0 : Fin 1) n) := funext h3
  have e4 : (fun (k : Fin 64) (n : Fin 192) => x4 (ix2 k n)) = fun k n => a4 (ix2 k n) := funext fun k => funext (h4 k)
  have e5 : (fun n : Fin 192 => x5 (ix2 (0 : Fin 1) n)) = fun n => a5 (ix2 (0 : Fin 1) n) := funext h5
  rw [Pay.k1_pay1_apply, e0, e1, e2, e3, e4, e5]
  rfl

/-! ## The printed index maps -/

theorem hz : (![0, 0] : Fin 2 → Nat) = fun _ => 0 := funext fun a => by fin_cases a <;> rfl

/-- The index maps, decided over the 10 grid points: the two row windows and the output window sit at block row `t`,
    block column 0; the four weight windows sit at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point is one of 10. -/
theorem point_lt (t : Fin cfg1.N) : t.val < 10 := t.isLt

/-! ## Where an element of each window's block sits in its array -/

/-- Element `(p, k)` of the message block at point `t` is entry `(10000·t + p, k)` of the message array. -/
theorem emb_msg (t : Fin cfg1.N) (p : Fin 10000) (k : Fin 64) (hb : t.val * 10000 + p.val < 100000) :
    ((cfg1.win 0).blk t).view.emb (ix2 p k) = (ix2 (⟨t.val * 10000 + p.val, hb⟩ : Fin 100000) k : S100000x64.Idx) := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- Element `(p, k)` of the state block at point `t` is entry `(10000·t + p, k)` of the state array. -/
theorem emb_state (t : Fin cfg1.N) (p : Fin 10000) (k : Fin 64) (hb : t.val * 10000 + p.val < 100000) :
    ((cfg1.win 1).blk t).view.emb (ix2 p k) = (ix2 (⟨t.val * 10000 + p.val, hb⟩ : Fin 100000) k : S100000x64.Idx) := by
  obtain ⟨-, -, e0, e1, -⟩ := idx_facts t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

/-- Element `(p, q)` of the output block at point `t` is entry `(10000·t + p, q)` of the output array. -/
theorem emb_out (t : Fin cfg1.N) (p : Fin 10000) (q : Fin 64) (hb : t.val * 10000 + p.val < 100000) :
    ((cfg1.win 6).blk t).view.emb (ix2 p q) = (ix2 (⟨t.val * 10000 + p.val, hb⟩ : Fin 100000) q : S100000x64.Idx) := by
  obtain ⟨-, -, -, -, -, -, -, -, -, -, -, -, e0, e1⟩ := idx_facts t
  funext a; apply Fin.ext
  match a with
  | ⟨0, _⟩ => show win1_6.index t (0 : Fin 2) * 10000 + 1 * p.val = t.val * 10000 + p.val; omega
  | ⟨1, _⟩ => show win1_6.index t (1 : Fin 2) * 64 + 1 * q.val = q.val; omega

/-- The input-side weight block is its whole array. -/
theorem emb_wih (t : Fin cfg1.N) (k : Fin 64) (n : Fin 192) :
    ((cfg1.win 2).blk t).view.emb (ix2 k n) = (ix2 k n : S64x192.Idx) := by
  obtain ⟨-, -, -, -, e0, e1, -⟩ := idx_facts t
  funext a; apply Fin.ext
  match a with
  | ⟨0, _⟩ => show win1_2.index t (0 : Fin 2) * 64 + 1 * k.val = k.val; omega
  | ⟨1, _⟩ => show win1_2.index t (1 : Fin 2) * 192 + 1 * n.val = n.val; omega

/-- The input-side bias block is its whole array. -/
theorem emb_bih (t : Fin cfg1.N) (z : Fin 1) (n : Fin 192) :
    ((cfg1.win 3).blk t).view.emb (ix2 z n) = (ix2 z n : S1x192.Idx) := by
  obtain ⟨-, -, -, -, -, -, e0, e1, -⟩ := idx_facts t
  funext a; apply Fin.ext
  match a with
  | ⟨0, _⟩ => show win1_3.index t (0 : Fin 2) * 1 + 1 * z.val = z.val; omega
  | ⟨1, _⟩ => show win1_3.index t (1 : Fin 2) * 192 + 1 * n.val = n.val; omega

/-- The hidden-side weight block is its whole array. -/
theorem emb_whh (t : Fin cfg1.N) (k : Fin 64) (n : Fin 192) :
    ((cfg1.win 4).blk t).view.emb (ix2 k n) = (ix2 k n : S64x192.Idx) := by
  obtain ⟨-, -, -, -, -, -, -, -, e0, e1, -⟩ := idx_facts t
  funext a; apply Fin.ext
  match a with
  | ⟨0, _⟩ => show win1_4.index t (0 : Fin 2) * 64 + 1 * k.val = k.val; omega
  | ⟨1, _⟩ => show win1_4.index t (1 : Fin 2) * 192 + 1 * n.val = n.val; omega

/-- The hidden-side bias block is its whole array. -/
theorem emb_bhh (t : Fin cfg1.N) (z : Fin 1) (n : Fin 192) :
    ((cfg1.win 5).blk t).view.emb (ix2 z n) = (ix2 z n : S1x192.Idx) := by
  obtain ⟨-, -, -, -, -, -, -, -, -, -, e0, e1, -⟩ := idx_facts t
  funext a; apply Fin.ext
  match a with
  | ⟨0, _⟩ => show win1_5.index t (0 : Fin 2) * 1 + 1 * z.val = z.val; omega
  | ⟨1, _⟩ => show win1_5.index t (1 : Fin 2) * 192 + 1 * n.val = n.val; omega

section Region

variable (V : (c : Dev nD) → (b : Ref sig .tc) → Buf (Elt Ideal) ((c : Thread nD τ).loc b))

/-- The output array the region should leave, from the arrays as the region finds them. -/
abbrev GV (c : Dev nD) : S100000x64.Idx → EReal :=
  G (V c main_v20) (V c main_v10_0) (V c main_v28) (V c main_v23) (V c main_v30) (V c main_v26)

/-! ## What one point writes back -/

/-- Point `t` writes back block `t` of the output function of the arrays as the region finds them. -/
theorem flushed_eq (c : Dev nD) (t : Fin cfg1.N) :
    (dat1 V c).flushed 6 t = ((cfg1.win 6).blk t).view.read (Elt Ideal) (GV V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x192) hz, View.ld_unit_zero (S := S1x192) hz]
  funext j
  obtain ⟨p, q, rfl⟩ : ∃ (p : Fin 10000) (q : Fin 64), j = ix2 p q := ⟨j 0, j 1, eq_ix2 j⟩
  have ht := point_lt t
  have hb : t.val * 10000 + p.val < 100000 := by have := p.isLt; omega
  show k1_pay1 (F := Ideal) (iblk1 V c 0 t) (iblk1 V c 2 t) (iblk1 V c 3 t) (iblk1 V c 1 t) (iblk1 V c 4 t) (iblk1 V c 5 t) (iblk1 V c 1 t) (ix2 p q)
      = GV V c (((cfg1.win 6).blk t).view.emb (ix2 p q))
  refine (pay_at_offset (iblk1 V c 0 t) (iblk1 V c 1 t) (iblk1 V c 2 t) (iblk1 V c 4 t) (iblk1 V c 3 t) (iblk1 V c 5 t)
    (V c main_v20) (V c main_v10_0) (V c main_v28) (V c main_v23) (V c main_v30) (V c main_v26) (t.val * 10000) p q hb
    (fun k => congrArg (V c main_v20) (emb_msg t p k hb))
    (fun k => congrArg (V c main_v10_0) (emb_state t p k hb))
    (fun k n => congrArg (V c main_v28) (emb_wih t k n))
    (fun n => congrArg (V c main_v23) (emb_bih t 0 n))
    (fun k n => congrArg (V c main_v30) (emb_whh t k n))
    (fun n => congrArg (V c main_v26) (emb_bhh t 0 n))).trans ?_
  exact (congrArg (GV V c) (emb_out t p q hb)).symm

/-! ## The blocks cover the array -/

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v31).slice (win1_6.rect t)).set ↔ _
  rw [View.set_slice_whole, Rect.mem_set_unit]
  exact Iff.rfl

/-- Row `r` of the output array is in the block of point `r / 10000`. -/
theorem cover (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  obtain ⟨t, ht⟩ : ∃ t : Fin cfg1.N, t.val = (i 0).val / 10000 :=
    ⟨⟨(i 0).val / 10000, (by omega : (i 0).val / 10000 < 10)⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-! ## The array after the region -/

/-- The output array after the region's 10 points is the output function of the arrays as the region finds them. -/
theorem final (c : Dev nD) : (dat1 V c).arrAt 6 cfg1.N = GV V c :=
  (dat1 V c).arrAt_eq_of_cover 6 (GV V c) (fun t _ => flushed_eq V c t) cover

/-- Entry `(r, q)` of the output array after the region: the gated recurrent update of row `r` of the message array
    and of the state array as the region finds them. -/
theorem out6 (c : Dev nD) (r : Fin 100000) (q : Fin 64) :
    (dat1 V c).arrAt 6 cfg1.N (ix2 r q)
      = Cert.Rows.gru (Ideal.ofBits .f32 0x3F800000#32) (fun k => V c main_v20 (ix2 r k)) (fun k => V c main_v10_0 (ix2 r k))
          (fun k => V c main_v10_0 (ix2 r k)) (fun k n => V c main_v28 (ix2 k n)) (fun n => V c main_v23 (ix2 0 n))
          (fun k n => V c main_v30 (ix2 k n)) (fun n => V c main_v26 (ix2 0 n)) q := by
  rw [final V c]
  rfl

end Region

end Cert.KernelIdeal.Reg1

end
-- ==== Proof.KL0.lean ====
/-
  The first message-passing layer, read off the kernel program's run.

  The kernel program reaches the end of its first layer in six steps: three host stretches (the two edge rows and the
  layer's embedding table sliced from the launch arguments; the masked lookup of every node's two positions in that
  table; the looked-up rows added up and the convolution weight sliced), region 0 (each row of the embedding sums
  times the convolution weight), a host stretch (the edge pass over the convolved rows, and the four gate arrays
  sliced), and region 1 (the gated recurrent update, row by row). This module reads each buffer those steps leave
  as a named function of the launch arguments, and puts them together: the node array after region 1 is
  `Cert.Sem.layerOf` of the embedding sums, with the edge pass as its map on whole arrays.

  A host stretch is read once, over an arbitrary valuation of the buffers before it: the buffer it computes holds the
  composition of the stretch's printed functions applied to the buffers it reads. The run's levels then instantiate
  the valuation, and the buffers a stretch reads are carried back to where they were written.
-/
import proofs.«157269_j2267742732766_1_alg».proof.Proof.Gen.KernelIdeal.Frame
import proofs.«157269_j2267742732766_1_alg».proof.Proof.Sem
import proofs.«157269_j2267742732766_1_alg».proof.Proof.KTake
import proofs.«157269_j2267742732766_1_alg».proof.Proof.KReg0
import proofs.«157269_j2267742732766_1_alg».proof.Proof.KReg1
import proofs.«157269_j2267742732766_1_alg».proof.Proof.KLBase
import Idealize.ShloMosaic.Lib.StableHlo.Run
import Idealize.ShloMosaic.Lib.ValueIdx

set_option maxRecDepth 16384

noncomputable section

namespace Cert.KernelIdeal.Layers

open Cert.KernelIdeal Cert.KernelIdeal.Gen Idealize.ShloMosaic Idealize.ShloMosaic.TcCoe Idealize.ShloMosaic.ValueIdx

/-! ## The layer's slices of the launch arguments -/

section Chains

variable {F : FTy → Type} [FloatOps F]

/-- The edges' sources: row 0 of the 2 × 1600000 edge array, as a vector. -/
def edgeRow0 (e : (⟨S2x1600000, .i32⟩ : BufTy).Contents (Elt F)) : (⟨S1600000, .i32⟩ : BufTy).Contents (Elt F) :=
  fun i => shapeCast S1600000 (extractStridedSlice S1x1600000 ![0, 0] e slices_S2x1600000_S1x1600000_0_0) shapeCasts_S1x1600000_S1600000 i

/-- The edges' targets: row 1 of the edge array, as a vector. -/
def edgeRow1 (e : (⟨S2x1600000, .i32⟩ : BufTy).Contents (Elt F)) : (⟨S1600000, .i32⟩ : BufTy).Contents (Elt F) :=
  fun i => shapeCast S1600000 (extractStridedSlice S1x1600000 ![1, 0] e slices_S2x1600000_S1x1600000_1_0) shapeCasts_S1x1600000_S1600000 i

/-- The layer's embedding table: block 0 of the stacked tables, as a 100 × 64 array. -/
def table_L0 (a : (⟨S5x100x64, .f32⟩ : BufTy).Contents (Elt F)) : (⟨S100x64, .f32⟩ : BufTy).Contents (Elt F) :=
  fun i => shapeCast S100x64 (extractStridedSlice S1x100x64 ![0, 0, 0] a slices_S5x100x64_S1x100x64_0_0_0) shapeCasts_S1x100x64_S100x64 i

/-- The layer's convolution weight: block 0 of the stacked weights, as a 64 × 64 array. -/
def cWOf_L0 (a : (⟨S5x64x64, .f32⟩ : BufTy).Contents (Elt F)) : (⟨S64x64, .f32⟩ : BufTy).Contents (Elt F) :=
  fun i => shapeCast S64x64 (extractStridedSlice S1x64x64 ![0, 0, 0] a slices_S5x64x64_S1x64x64_0_0_0) shapeCasts_S1x64x64_S64x64 i

/-- A gate bias row of the layer: row 0 of a stacked bias array, flattened and laid out again as a 1 × 192 array. -/
def gateB_L0 (a : (⟨S5x192, .f32⟩ : BufTy).Contents (Elt F)) : (⟨S1x192, .f32⟩ : BufTy).Contents (Elt F) :=
  fun i => shapeCast S1x192
    (fun j => shapeCast S192 (extractStridedSlice S1x192 ![0, 0] a slices_S5x192_S1x192_0_0) shapeCasts_S1x192_S192 j)
    shapeCasts_S192_S1x192 i

/-- A gate weight of the layer: block 0 of a stacked weight array, as a 64 × 192 array. -/
def gateW_L0 (a : (⟨S5x64x192, .f32⟩ : BufTy).Contents (Elt F)) : (⟨S64x192, .f32⟩ : BufTy).Contents (Elt F) :=
  fun i => shapeCast S64x192 (extractStridedSlice S1x64x192 ![0, 0, 0] a slices_S5x64x192_S1x64x192_0_0_0) shapeCasts_S1x64x192_S64x192 i

/-! ## Each host stretch, over any contents before it

  `V` is what the buffers hold before the stretch. The buffer named on the left holds, after the stretch, the
  stretch's printed functions composed in order and applied to the buffers the stretch reads. -/

variable (V : Valuation τ sig (Elt F))

/-- The first stretch slices the edges' sources out of the edge array … -/
theorem hostOps0_v1 : StableHlo.after hostOps0 V (Proc.devRef .tc main_v1) = edgeRow0 (V (Proc.devRef .tc main_arg1)) := by
  after_results; rfl

/-- … the edges' targets … -/
theorem hostOps0_v3 : StableHlo.after hostOps0 V (Proc.devRef .tc main_v3) = edgeRow1 (V (Proc.devRef .tc main_arg1)) := by
  after_results; rfl

/-- … and the layer's table out of the stacked tables. -/
theorem hostOps0_v5 : StableHlo.after hostOps0 V (Proc.devRef .tc main_v5) = table_L0 (V (Proc.devRef .tc main_arg5)) := by
  after_results; rfl

/-- The second stretch is the masked lookup of the positions in the table: its 23 operations in order. The
    operations are stated at typed references; their transports along the references' types are identities. -/
theorem hostOps0_1_v6 : StableHlo.after hostOps0_1 V (Proc.devRef .tc main_v6)
    = Take.maskedLookup (V (Proc.devRef .tc main_v5)) (V (Proc.devRef .tc main_arg0)) := by
  after_results_simp
  simp only [StableHlo.TRef.ofBuf, StableHlo.TRef.toBuf, cast_eq]
  rfl

/-- The third stretch adds the looked-up rows up … -/
theorem hostOps0_2_v7 : StableHlo.after hostOps0_2 V (Proc.devRef .tc main_v7) = embSum (V (Proc.devRef .tc main_v6)) := by
  after_results; rfl

/-- … and slices the layer's convolution weight. -/
theorem hostOps0_2_v9 : StableHlo.after hostOps0_2 V (Proc.devRef .tc main_v9) = cWOf_L0 (V (Proc.devRef .tc main_arg8)) := by
  after_results; rfl

/-- The fourth stretch is the edge pass over region 0's convolved rows: gathered at the sources, added up at the
    targets … -/
theorem hostOps1_v20 : StableHlo.after hostOps1 V (Proc.devRef .tc main_v20)
    = passK (V (Proc.devRef .tc main_v1)) (V (Proc.devRef .tc main_v3)) (V (Proc.devRef .tc main_v10_1)) := by
  after_results_simp
  rfl

/-- … and the layer's four gate arrays sliced: the input-side bias … -/
theorem hostOps1_v23 : StableHlo.after hostOps1 V (Proc.devRef .tc main_v23) = gateB_L0 (V (Proc.devRef .tc main_arg10)) := by
  after_results; rfl

/-- … the hidden-side bias … -/
theorem hostOps1_v26 : StableHlo.after hostOps1 V (Proc.devRef .tc main_v26) = gateB_L0 (V (Proc.devRef .tc main_arg12)) := by
  after_results; rfl

/-- … the input-side weight … -/
theorem hostOps1_v28 : StableHlo.after hostOps1 V (Proc.devRef .tc main_v28) = gateW_L0 (V (Proc.devRef .tc main_arg9)) := by
  after_results; rfl

/-- … and the hidden-side weight. -/
theorem hostOps1_v30 : StableHlo.after hostOps1 V (Proc.devRef .tc main_v30) = gateW_L0 (V (Proc.devRef .tc main_arg11)) := by
  after_results; rfl

end Chains

variable (m : (ℓ : Loc nD τ sig) → Buf (Elt Ideal) ℓ) (ρ : Dev nD → PrngReg)

/-! ## The kept buffers inside the layer -/

/-- The lookup writes none of the kept buffers. -/
theorem kept_W2 (c : Dev nD) (b : Ref sig .tc) (hb : b ∈ keptRefs) :
    W2 m ρ c (Proc.devRef .tc b) = W1 m ρ c (Proc.devRef .tc b) := by
  kept_cases hb
  all_goals stretch_keeps hostOps0_1

/-- Nor do the embedding sum's stretch and region 0. -/
theorem kept_W4 (c : Dev nD) (b : Ref sig .tc) (hb : b ∈ keptRefs) :
    W4 m ρ c (Proc.devRef .tc b) = W1 m ρ c (Proc.devRef .tc b) := by
  kept_cases hb
  all_goals
    refine (W4_of_ne m ρ c _ (by decide)).trans ?_
    refine Eq.trans (b := W2 m ρ c (Proc.devRef .tc _)) (by stretch_keeps hostOps0_2) ?_
    stretch_keeps hostOps0_1

/-! ## The leaves: what the layer's buffers hold, from the launch arguments -/

/-- The edges' sources, after the first stretch. -/
theorem srcK (c : Dev nD) :
    W1 m ρ c (Proc.devRef .tc main_v1) = edgeRow0 (F := Ideal) (m ((c : Thread nD τ).loc main_arg1)) :=
  hostOps0_v1 (W0 m ρ c)

/-- The edges' targets, after the first stretch. -/
theorem dstK (c : Dev nD) :
    W1 m ρ c (Proc.devRef .tc main_v3) = edgeRow1 (F := Ideal) (m ((c : Thread nD τ).loc main_arg1)) :=
  hostOps0_v3 (W0 m ρ c)

/-- The layer's table, after the first stretch. -/
theorem table_at_L0 (c : Dev nD) :
    W1 m ρ c (Proc.devRef .tc main_v5) = table_L0 (F := Ideal) (m ((c : Thread nD τ).loc main_arg5)) :=
  hostOps0_v5 (W0 m ρ c)

/-- The looked-up rows: the masked lookup of the nodes' positions in the layer's table. -/
theorem lookup_L0 (c : Dev nD) :
    W2 m ρ c (Proc.devRef .tc main_v6)
      = Take.maskedLookup (F := Ideal) (table_L0 (m ((c : Thread nD τ).loc main_arg5))) (m ((c : Thread nD τ).loc main_arg0)) :=
  (hostOps0_1_v6 (W1 m ρ c)).trans
    (congrArg₂ (Take.maskedLookup (F := Ideal)) (table_at_L0 m ρ c) (launch_W1 m ρ c main_arg0 (by decide)))

/-- The embedding sums region 0 reads: the looked-up rows added up. -/
theorem emb_L0 (c : Dev nD) :
    W3 m ρ c (Proc.devRef .tc main_v7)
      = embSum (F := Ideal) (Take.maskedLookup (F := Ideal) (table_L0 (m ((c : Thread nD τ).loc main_arg5))) (m ((c : Thread nD τ).loc main_arg0))) :=
  (hostOps0_2_v7 (W2 m ρ c)).trans (congrArg (embSum (F := Ideal)) (lookup_L0 m ρ c))

/-- The convolution weight region 0 reads. -/
theorem cW_L0 (c : Dev nD) :
    W3 m ρ c (Proc.devRef .tc main_v9) = cWOf_L0 (F := Ideal) (m ((c : Thread nD τ).loc main_arg8)) :=
  (hostOps0_2_v9 (W2 m ρ c)).trans (congrArg (cWOf_L0 (F := Ideal))
    ((kept_W2 m ρ c main_arg8 (by decide)).trans (launch_W1 m ρ c main_arg8 (by decide))))

/-- The input-side gate weight region 1 reads. -/
theorem wih_L0 (c : Dev nD) :
    W5 m ρ c (Proc.devRef .tc main_v28) = gateW_L0 (F := Ideal) (m ((c : Thread nD τ).loc main_arg9)) :=
  (hostOps1_v28 (W4 m ρ c)).trans (congrArg (gateW_L0 (F := Ideal))
    ((kept_W4 m ρ c main_arg9 (by decide)).trans (launch_W1 m ρ c main_arg9 (by decide))))

/-- The input-side gate bias region 1 reads. -/
theorem bih_L0 (c : Dev nD) :
    W5 m ρ c (Proc.devRef .tc main_v23) = gateB_L0 (F := Ideal) (m ((c : Thread nD τ).loc main_arg10)) :=
  (hostOps1_v23 (W4 m ρ c)).trans (congrArg (gateB_L0 (F := Ideal))
    ((kept_W4 m ρ c main_arg10 (by decide)).trans (launch_W1 m ρ c main_arg10 (by decide))))

/-- The hidden-side gate weight region 1 reads. -/
theorem whh_L0 (c : Dev nD) :
    W5 m ρ c (Proc.devRef .tc main_v30) = gateW_L0 (F := Ideal) (m ((c : Thread nD τ).loc main_arg11)) :=
  (hostOps1_v30 (W4 m ρ c)).trans (congrArg (gateW_L0 (F := Ideal))
    ((kept_W4 m ρ c main_arg11 (by decide)).trans (launch_W1 m ρ c main_arg11 (by decide))))

/-- The hidden-side gate bias region 1 reads. -/
theorem bhh_L0 (c : Dev nD) :
    W5 m ρ c (Proc.devRef .tc main_v26) = gateB_L0 (F := Ideal) (m ((c : Thread nD τ).loc main_arg12)) :=
  (hostOps1_v26 (W4 m ρ c)).trans (congrArg (gateB_L0 (F := Ideal))
    ((kept_W4 m ρ c main_arg12 (by decide)).trans (launch_W1 m ρ c main_arg12 (by decide))))

/-! ## The edge pass of the layer -/

/-- The messages region 1 reads are the edge pass, along the two edge rows, of region 0's convolved rows. -/
theorem pass0 (c : Dev nD) :
    W5 m ρ c (Proc.devRef .tc main_v20)
      = passK (W1 m ρ c (Proc.devRef .tc main_v1)) (W1 m ρ c (Proc.devRef .tc main_v3)) (W4 m ρ c (Proc.devRef .tc main_v10_1)) :=
  (hostOps1_v20 (W4 m ρ c)).trans
    (congrArg₂ (fun s d => passK (F := Ideal) s d (W4 m ρ c (Proc.devRef .tc main_v10_1)))
      (kept_W4 m ρ c main_v1 (by decide)) (kept_W4 m ρ c main_v3 (by decide)))

/-! ## The layer -/

/-- Entry by entry, a layer is the gated recurrent update of a row of the passed messages and the same row of the
    transformed state. -/
theorem layerOf_apply {N : ℕ} (pass : Cert.Sem.Arr N 64 → Cert.Sem.Arr N 64) (xt : Cert.Sem.Mat N 64) (cW : Cert.Sem.Mat 64 64)
    (Wih : Cert.Sem.Mat 64 192) (bih : Fin 192 → EReal) (Whh : Cert.Sem.Mat 64 192) (bhh : Fin 192 → EReal)
    (r : Fin N) (q : Fin 64) :
    Cert.Sem.layerOf pass xt cW Wih bih Whh bhh r q
      = Cert.Rows.gru (Ideal.ofBits .f32 0x3F800000#32) (fun k => pass (Cert.Sem.ofMat (Cert.Sem.conv xt cW)) (ix2 r k))
          (xt r) (xt r) Wih bih Whh bhh q := rfl

/-- Region 0 leaves the convolved rows in its second output: every row of the embedding sums times the convolution
    weight. -/
theorem conv_L0 (c : Dev nD) :
    (W4 m ρ c (Proc.devRef .tc main_v10_1) : Cert.Sem.Arr 100000 64)
      = Cert.Sem.ofMat (Cert.Sem.conv (Cert.Sem.toMat (W3 m ρ c (Proc.devRef .tc main_v7))) (Cert.Sem.toMat (W3 m ρ c (Proc.devRef .tc main_v9)))) :=
  Cert.Sem.arr_ext fun r q => (congrFun (W4_arr m ρ c 3) (ix2 r q)).trans (Reg0.out3 (V3 m ρ) c r q)

/-- The state region 1 reads is region 0's first output, the embedding sums as region 0 found them: the edge pass's
    stretch does not write it. -/
theorem state_L0 (c : Dev nD) (r : Fin 100000) (k : Fin 64) :
    W5 m ρ c (Proc.devRef .tc main_v10_0) (ix2 r k) = W3 m ρ c (Proc.devRef .tc main_v7) (ix2 r k) := by
  have e : W5 m ρ c (Proc.devRef .tc main_v10_0) = W4 m ρ c (Proc.devRef .tc main_v10_0) := by
    stretch_keeps hostOps1
  exact (congrFun e (ix2 r k)).trans ((congrFun (W4_arr m ρ c 2) (ix2 r k)).trans (Reg0.out2 (V3 m ρ) c r k))

/-- THE FIRST LAYER. The node array after region 1 is the layer function of the embedding sums: each row times the
    convolution weight, the edge pass along the two edge rows, and the gated recurrent update under the layer's four
    gate arrays, with the embedding sums as the state. -/
theorem layer0 (c : Dev nD) : Cert.Sem.toMat (W6 m ρ c (Proc.devRef .tc main_v31) : Cert.Sem.Arr 100000 64)
      = Cert.Sem.layerOf (passK (F := Ideal) (W1 m ρ c (Proc.devRef .tc main_v1)) (W1 m ρ c (Proc.devRef .tc main_v3)))
          (Cert.Sem.toMat (W3 m ρ c (Proc.devRef .tc main_v7))) (Cert.Sem.toMat (W3 m ρ c (Proc.devRef .tc main_v9)))
          (Cert.Sem.toMat (W5 m ρ c (Proc.devRef .tc main_v28))) (Cert.Sem.toRow (W5 m ρ c (Proc.devRef .tc main_v23)))
          (Cert.Sem.toMat (W5 m ρ c (Proc.devRef .tc main_v30))) (Cert.Sem.toRow (W5 m ρ c (Proc.devRef .tc main_v26))) := by
  funext r q
  rw [layerOf_apply]
  have hmsg : W5 m ρ c (Proc.devRef .tc main_v20)
      = passK (F := Ideal) (W1 m ρ c (Proc.devRef .tc main_v1)) (W1 m ρ c (Proc.devRef .tc main_v3))
          (Cert.Sem.ofMat (Cert.Sem.conv (Cert.Sem.toMat (W3 m ρ c (Proc.devRef .tc main_v7))) (Cert.Sem.toMat (W3 m ρ c (Proc.devRef .tc main_v9))))) :=
    (pass0 m ρ c).trans (congrArg (passK (F := Ideal) (W1 m ρ c (Proc.devRef .tc main_v1)) (W1 m ρ c (Proc.devRef .tc main_v3))) (conv_L0 m ρ c))
  have hst : (fun k : Fin 64 => V5 m ρ c main_v10_0 (ix2 r k)) = Cert.Sem.toMat (W3 m ρ c (Proc.devRef .tc main_v7)) r :=
    funext fun k => state_L0 m ρ c r k
  have hmg : (fun k : Fin 64 => V5 m ρ c main_v20 (ix2 r k))
      = fun k => passK (F := Ideal) (W1 m ρ c (Proc.devRef .tc main_v1)) (W1 m ρ c (Proc.devRef .tc main_v3))
          (Cert.Sem.ofMat (Cert.Sem.conv (Cert.Sem.toMat (W3 m ρ c (Proc.devRef .tc main_v7))) (Cert.Sem.toMat (W3 m ρ c (Proc.devRef .tc main_v9))))) (ix2 r k) :=
    funext fun k => congrFun hmsg (ix2 r k)
  refine ((congrFun (W6_arr m ρ c 6) (ix2 r q)).trans (Reg1.out6 (V5 m ρ) c r q)).trans ?_
  rw [hmg, hst]
  rfl

end Cert.KernelIdeal.Layers

end
-- ==== Proof.CrossL0.lean ====
import proofs.«157269_j2267742732766_1_alg».proof.Proof.CrossDefs
import proofs.«157269_j2267742732766_1_alg».proof.Proof.KL0
import proofs.«157269_j2267742732766_1_alg».proof.Proof.RL0

/-!
# Layer 0 of the two programs agrees

The first layer has no affine map on the previous state: its transformed state is the embedding sum itself. Both
programs' layer theorems state the layer's result as the specification's layer function of the buffers the host
stretches leave; those buffers are, on each side, the same functions of the launch arguments, and the launch
arguments agree.
-/

noncomputable section

namespace Cert.Cross

open Idealize.ShloMosaic Idealize.ShloMosaic.ValueIdx Idealize.SL.Sem

/-! ## The layer's slices: the same functions in both programs -/

section Pairs
variable {F : FTy → Type} [FloatOps F] [Cert.KernelIdeal.Facts₀] [Cert.ReferenceIdeal.Facts₀]

theorem edgeRow0_eq (e : (⟨Cert.KernelIdeal.S2x1600000, .i32⟩ : BufTy).Contents (Elt F)) :
    Cert.KernelIdeal.Layers.edgeRow0 e = Cert.ReferenceIdeal.Layers.edgeRow0 e := rfl
theorem edgeRow1_eq (e : (⟨Cert.KernelIdeal.S2x1600000, .i32⟩ : BufTy).Contents (Elt F)) :
    Cert.KernelIdeal.Layers.edgeRow1 e = Cert.ReferenceIdeal.Layers.edgeRow1 e := rfl
theorem table_L0_eq (a : (⟨Cert.KernelIdeal.S5x100x64, .f32⟩ : BufTy).Contents (Elt F)) :
    Cert.KernelIdeal.Layers.table_L0 a = Cert.ReferenceIdeal.Layers.embTable0 a := rfl
theorem cW_L0_eq (a : (⟨Cert.KernelIdeal.S5x64x64, .f32⟩ : BufTy).Contents (Elt F)) :
    Cert.KernelIdeal.Layers.cWOf_L0 a = Cert.ReferenceIdeal.Layers.convW0 a := rfl
theorem gateW_L0_eq (a : (⟨Cert.KernelIdeal.S5x64x192, .f32⟩ : BufTy).Contents (Elt F)) :
    Cert.KernelIdeal.Layers.gateW_L0 a = Cert.ReferenceIdeal.Layers.gateW0 a := rfl
theorem gateB_L0_row (a : (⟨Cert.KernelIdeal.S5x192, .f32⟩ : BufTy).Contents (Elt F)) :
    Cert.KernelIdeal.Layers.gateB_L0 a
      = shapeCast Cert.KernelIdeal.S1x192 (Cert.ReferenceIdeal.Layers.gateB0 a) Cert.KernelIdeal.Facts₀.shapeCasts_S192_S1x192 := rfl

end Pairs

/-- A gate bias of layer 0: the tiled program's one-row array read as a row is the reference's vector. -/
theorem gateB_L0_eq [Cert.KernelIdeal.Facts₀] [Cert.ReferenceIdeal.Facts₀] (a : (⟨Cert.KernelIdeal.S5x192, .f32⟩ : BufTy).Contents (Elt Ideal)) :
    Cert.Sem.toRow (Cert.KernelIdeal.Layers.gateB_L0 (F := Ideal) a) = Cert.Sem.toVec (Cert.ReferenceIdeal.Layers.gateB0 (F := Ideal) a) := by
  rw [gateB_L0_row]
  exact Cert.LibRowVec.toRow_shapeCast _ _

/-! ## The layer -/

section Chain
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- The two edge rows agree. -/
theorem src_eq (hag : Agree m m') (c : Dev Cert.KernelIdeal.nD) :
    (Cert.KernelIdeal.Gen.W1 m ρ c (Proc.devRef .tc Cert.KernelIdeal.main_v1) : (⟨Cert.KernelIdeal.S1600000, .i32⟩ : BufTy).Contents (Elt Ideal))
      = Cert.ReferenceIdeal.RunV.Lv1 m' c (Proc.devRef .tc Cert.ReferenceIdeal.main_v1) :=
  leaf (Cert.KernelIdeal.Layers.srcK m ρ c) (Cert.ReferenceIdeal.Layers.Lv1_v1 m' c) (fun e => edgeRow0_eq e) (hag c).2.1
theorem dst_eq (hag : Agree m m') (c : Dev Cert.KernelIdeal.nD) :
    (Cert.KernelIdeal.Gen.W1 m ρ c (Proc.devRef .tc Cert.KernelIdeal.main_v3) : (⟨Cert.KernelIdeal.S1600000, .i32⟩ : BufTy).Contents (Elt Ideal))
      = Cert.ReferenceIdeal.RunV.Lv1 m' c (Proc.devRef .tc Cert.ReferenceIdeal.main_v3) :=
  leaf (Cert.KernelIdeal.Layers.dstK m ρ c) (Cert.ReferenceIdeal.Layers.Lv1_v3 m' c) (fun e => edgeRow1_eq e) (hag c).2.1

/-- The edge pass along the program's edge rows is the same function in both programs. -/
theorem passes_eq (hag : Agree m m') (c : Dev Cert.KernelIdeal.nD) :
    Cert.KernelIdeal.Layers.passK (F := Ideal) (Cert.KernelIdeal.Gen.W1 m ρ c (Proc.devRef .tc Cert.KernelIdeal.main_v1)) (Cert.KernelIdeal.Gen.W1 m ρ c (Proc.devRef .tc Cert.KernelIdeal.main_v3))
      = Cert.ReferenceIdeal.Layers.passR (F := Ideal) (Cert.ReferenceIdeal.RunV.Lv1 m' c (Proc.devRef .tc Cert.ReferenceIdeal.main_v1)) (Cert.ReferenceIdeal.RunV.Lv1 m' c (Proc.devRef .tc Cert.ReferenceIdeal.main_v3)) :=
  (congrArg₂ (Cert.KernelIdeal.Layers.passK (F := Ideal)) (src_eq m ρ m' hag c) (dst_eq m ρ m' hag c)).trans
    (funext fun h => pass_eq _ _ h)

/-- LAYER 0: the states the two programs leave agree. -/
theorem x0 (hz : InRange m) (hag : Agree m m') (c : Dev Cert.KernelIdeal.nD) :
    (Cert.KernelIdeal.Gen.W6 m ρ c (Proc.devRef .tc Cert.KernelIdeal.main_v31) : Cert.Sem.Arr 100000 64)
      = (Cert.ReferenceIdeal.RunV.Lv4 m' c (Proc.devRef .tc Cert.ReferenceIdeal.main_v70) : Cert.Sem.Arr 100000 64) := by
  obtain ⟨h0, h1, h2, h3, h4, h5, h6, h7, h8, h9, h10, h11, h12, -⟩ := hag c
  apply Cert.Sem.toMat_inj
  refine (Cert.KernelIdeal.Layers.layer0 m ρ c).trans (Eq.trans ?_ (Cert.ReferenceIdeal.Layers.layer0R m' c).symm)
  refine layerOf_congr (passes_eq m ρ m' hag c) ?_ ?_ ?_ ?_ ?_ ?_
  · exact congrArg (Cert.Sem.toMat (R := 100000) (C := 64))
      ((Cert.KernelIdeal.Layers.emb_L0 m ρ c).trans
        ((embSums_eq _ _ ((table_L0_eq _).trans (congrArg (Cert.ReferenceIdeal.Layers.embTable0 (F := Ideal)) h5.symm)) _ _ h0.symm (hz c)).trans
          (Cert.ReferenceIdeal.Layers.Lv1_v13 m' c).symm))
  · exact congrArg (Cert.Sem.toMat (R := 64) (C := 64))
      (leaf (Cert.KernelIdeal.Layers.cW_L0 m ρ c) (Cert.ReferenceIdeal.Layers.Lv1_v15 m' c) (fun a => cW_L0_eq a) h8)
  · exact congrArg (Cert.Sem.toMat (R := 64) (C := 192))
      (leaf (Cert.KernelIdeal.Layers.wih_L0 m ρ c) (Cert.ReferenceIdeal.Layers.Lv1_v17 m' c) (fun a => gateW_L0_eq a) h9)
  · exact leafRow (Cert.KernelIdeal.Layers.bih_L0 m ρ c) (Cert.ReferenceIdeal.Layers.Lv1_v19 m' c) (fun a => gateB_L0_eq a) h10
  · exact congrArg (Cert.Sem.toMat (R := 64) (C := 192))
      (leaf (Cert.KernelIdeal.Layers.whh_L0 m ρ c) (Cert.ReferenceIdeal.Layers.Lv1_v21 m' c) (fun a => gateW_L0_eq a) h11)
  · exact leafRow (Cert.KernelIdeal.Layers.bhh_L0 m ρ c) (Cert.ReferenceIdeal.Layers.Lv1_v23 m' c) (fun a => gateB_L0_eq a) h12

end Chain

end Cert.Cross

end
-- ==== Proof.KReg2.lean ====
/-
  The transformed row of a layer after the first, and its product with the layer's message matrix.

  The region walks the 100000 rows in ten blocks of 10000. At each block it reads the same rows of the previous
  state and of the embedding sums, and three whole arrays: the 128 x 64 weight of the layer's affine map, its
  1 x 64 bias row and the 64 x 64 message matrix. It writes back the transformed block (previous state beside
  embedding sum, through the affine map) and that block times the message matrix. The ten blocks are disjoint and
  fill the array, so each output array ends holding at row r a function of row r of the two row-blocked inputs
  and of the three whole arrays.

  Per output array: the printed index maps of the seven windows are related once over the ten points; what one
  point writes back is that point's block of one whole-array function; membership in a block is a range of rows;
  row r lies in the block of point r / 10000; the whole-array statement follows from the cover.
-/
import proofs.«157269_j2267742732766_1_alg».proof.Proof.Gen.KernelIdeal.Frame
import proofs.«157269_j2267742732766_1_alg».proof.Proof.Rows
import proofs.«157269_j2267742732766_1_alg».proof.Proof.KPayA
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-! ## The row functions the two output arrays end holding -/

/-- The transformed row: at row `r`, column `q`, the previous state's row beside the embedding sums' row, through
    the affine map. -/
def transRow (A0 A1 : S100000x64.Idx → Elt Ideal .f32) (A2 : S128x64.Idx → Elt Ideal .f32)
    (A3 : S1x64.Idx → Elt Ideal .f32) : S100000x64.Idx → Elt Ideal .f32 :=
  fun i => Cert.Rows.trans (fun k : Fin 64 => A0 (ix2 (i 0 : Fin 100000) k))
    (fun k : Fin 64 => A1 (ix2 (i 0 : Fin 100000) k)) (fun (k : Fin 128) (n : Fin 64) => A2 (ix2 k n))
    (fun n : Fin 64 => A3 (ix2 (0 : Fin 1) n)) (i 1 : Fin 64)

/-- The transformed row times the message matrix. -/
def transDot (A0 A1 : S100000x64.Idx → Elt Ideal .f32) (A2 : S128x64.Idx → Elt Ideal .f32)
    (A3 : S1x64.Idx → Elt Ideal .f32) (A4 : S64x64.Idx → Elt Ideal .f32) : S100000x64.Idx → Elt Ideal .f32 :=
  fun i => Cert.Rows.dot
    (fun j : Fin 64 => Cert.Rows.trans (fun k : Fin 64 => A0 (ix2 (i 0 : Fin 100000) k))
      (fun k : Fin 64 => A1 (ix2 (i 0 : Fin 100000) k)) (fun (k : Fin 128) (n : Fin 64) => A2 (ix2 k n))
      (fun n : Fin 64 => A3 (ix2 (0 : Fin 1) n)) j)
    (fun (k n : Fin 64) => A4 (ix2 k n)) (i 1 : Fin 64)

/-- A row times a matrix depends only on the row's entries, the matrix's entries and the column. -/
theorem dot_congr {K N : ℕ} {x x' : Fin K → EReal} {W W' : Fin K → Fin N → EReal} {c c' : Fin N}
    (hx : ∀ k, x k = x' k) (hW : ∀ k n, W k n = W' k n) (hc : c = c') :
    Cert.Rows.dot x W c = Cert.Rows.dot x' W' c' := by
  subst hc
  have ex : x = x' := funext hx
  have eW : W = W' := funext fun k => funext fun n => hW k n
  rw [ex, eW]

/-- The transformed row depends only on the entries of its two rows, of the weight and of the bias, and the column. -/
theorem trans_congr {x x' ze ze' : Fin 64 → EReal} {tW tW' : Fin 128 → Fin 64 → EReal} {tb tb' : Fin 64 → EReal}
    {c c' : Fin 64} (hx : ∀ k, x k = x' k) (hze : ∀ k, ze k = ze' k) (hW : ∀ k n, tW k n = tW' k n)
    (hb : ∀ n, tb n = tb' n) (hc : c = c') :
    Cert.Rows.trans x ze tW tb c = Cert.Rows.trans x' ze' tW' tb' c' := by
  subst hc
  have ex : x = x' := funext hx
  have eze : ze = ze' := funext hze
  have eW : tW = tW' := funext fun k => funext fun n => hW k n
  have eb : tb = tb' := funext hb
  rw [ex, eze, eW, eb]

/-! ## The index maps, once over the grid -/

/-- The zero offsets of a whole-buffer access, as a constant function. -/
theorem zero_off : (![0, 0] : Fin 2 → Nat) = fun _ => 0 := funext fun a => by fin_cases a <;> rfl

/-- At point `t` the four row-blocked windows sit at block `(t, 0)`, the three whole-array windows at `(0, 0)`. -/
theorem index_maps : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The input windows' blocks, read off their arrays -/

/-- Row `p` of the block of the previous state at point `t` is row `10000 t + p` of the array. -/
theorem prev_block (c : Dev nD) (t : Fin cfg2.N) (p : Fin 10000) (k : Fin 64) (r : Fin 100000)
    (hr : r.val = t.val * 10000 + p.val) :
    (iblk2 V c 0 t : Vec Ideal S10000x64 .f32) (ix2 p k)
      = (V c main_v31 : S100000x64.Idx → Elt Ideal .f32) (ix2 r k) := by
  obtain ⟨e0, e1, -⟩ := index_maps t
  unfold iblk2
  rw [View.read_apply]
  show V c main_v31 _ = V c main_v31 _
  congr 1
  funext a
  apply Fin.ext
  match a with
  | ⟨0, _⟩ => show win2_0.index t (0 : Fin 2) * 10000 + 1 * p.val = r.val; omega
  | ⟨1, _⟩ => show win2_0.index t (1 : Fin 2) * 64 + 1 * k.val = k.val; omega

/-- Row `p` of the block of the embedding sums at point `t` is row `10000 t + p` of the array. -/
theorem sums_block (c : Dev nD) (t : Fin cfg2.N) (p : Fin 10000) (k : Fin 64) (r : Fin 100000)
    (hr : r.val = t.val * 10000 + p.val) :
    (iblk2 V c 1 t : Vec Ideal S10000x64 .f32) (ix2 p k)
      = (V c main_v35 : S100000x64.Idx → Elt Ideal .f32) (ix2 r k) := by
  obtain ⟨-, -, e0, e1, -⟩ := index_maps t
  unfold iblk2
  rw [View.read_apply]
  show V c main_v35 _ = V c main_v35 _
  congr 1
  funext a
  apply Fin.ext
  match a with
  | ⟨0, _⟩ => show win2_1.index t (0 : Fin 2) * 10000 + 1 * p.val = r.val; omega
  | ⟨1, _⟩ => show win2_1.index t (1 : Fin 2) * 64 + 1 * k.val = k.val; omega

/-- The weight window's block at every point is the weight. -/
theorem weight_block (c : Dev nD) (t : Fin cfg2.N) (k : Fin 128) (n : Fin 64) :
    (iblk2 V c 2 t : Vec Ideal S128x64 .f32) (ix2 k n)
      = (V c main_v40 : S128x64.Idx → Elt Ideal .f32) (ix2 k n) := by
  obtain ⟨-, -, -, -, e0, e1, -⟩ := index_maps t
  unfold iblk2
  rw [View.read_apply]
  show V c main_v40 _ = V c main_v40 _
  congr 1
  funext a
  apply Fin.ext
  match a with
  | ⟨0, _⟩ => show win2_2.index t (0 : Fin 2) * 128 + 1 * k.val = k.val; omega
  | ⟨1, _⟩ => show win2_2.index t (1 : Fin 2) * 64 + 1 * n.val = n.val; omega

/-- The bias window's block at every point is the bias row. -/
theorem bias_block (c : Dev nD) (t : Fin cfg2.N) (k : Fin 1) (n : Fin 64) :
    (iblk2 V c 3 t : Vec Ideal S1x64 .f32) (ix2 k n)
      = (V c main_v38 : S1x64.Idx → Elt Ideal .f32) (ix2 k n) := by
  obtain ⟨-, -, -, -, -, -, e0, e1, -⟩ := index_maps t
  unfold iblk2
  rw [View.read_apply]
  show V c main_v38 _ = V c main_v38 _
  congr 1
  funext a
  apply Fin.ext
  match a with
  | ⟨0, _⟩ => show win2_3.index t (0 : Fin 2) * 1 + 1 * k.val = k.val; omega
  | ⟨1, _⟩ => show win2_3.index t (1 : Fin 2) * 64 + 1 * n.val = n.val; omega

/-- The message matrix window's block at every point is the matrix. -/
theorem matrix_block (c : Dev nD) (t : Fin cfg2.N) (k n : Fin 64) :
    (iblk2 V c 4 t : Vec Ideal S64x64 .f32) (ix2 k n)
      = (V c main_v42 : S64x64.Idx → Elt Ideal .f32) (ix2 k n) := by
  obtain ⟨-, -, -, -, -, -, -, -, e0, e1, -⟩ := index_maps t
  unfold iblk2
  rw [View.read_apply]
  show V c main_v42 _ = V c main_v42 _
  congr 1
  funext a
  apply Fin.ext
  match a with
  | ⟨0, _⟩ => show win2_4.index t (0 : Fin 2) * 64 + 1 * k.val = k.val; omega
  | ⟨1, _⟩ => show win2_4.index t (1 : Fin 2) * 64 + 1 * n.val = n.val; omega

/-! ## The body's two payloads at an index of the block -/

/-- The first payload at row `j 0`, column `j 1`: the transformed row of the loaded blocks. -/
theorem trans_at (x0 x1 : Vec Ideal S10000x64 .f32) (x2 : Vec Ideal S128x64 .f32) (x3 : Vec Ideal S1x64 .f32)
    (j : S10000x64.Idx) :
    k2_pay1 (F := Ideal) x0 x1 x2 x3 j
      = Cert.Rows.trans (fun k : Fin 64 => x0 (ix2 (j 0 : Fin 10000) k)) (fun k : Fin 64 => x1 (ix2 (j 0 : Fin 10000) k))
          (fun (k : Fin 128) (n : Fin 64) => x2 (ix2 k n)) (fun n : Fin 64 => x3 (ix2 (0 : Fin 1) n)) (j 1 : Fin 64) := by
  obtain ⟨p, q, rfl⟩ : ∃ (p : Fin 10000) (q : Fin 64), j = ix2 p q := ⟨j 0, j 1, eq_ix2 j⟩
  exact Pay.k2_pay1_apply x0 x1 x2 x3 p q

/-- The second payload: the transformed row times the loaded message matrix. -/
theorem transDot_at (x0 x1 : Vec Ideal S10000x64 .f32) (x2 : Vec Ideal S128x64 .f32) (x3 : Vec Ideal S1x64 .f32)
    (x4 : Vec Ideal S64x64 .f32) (j : S10000x64.Idx) :
    k2_pay2 (F := Ideal) x0 x1 x2 x3 x4 j
      = Cert.Rows.dot
          (fun i : Fin 64 => Cert.Rows.trans (fun k : Fin 64 => x0 (ix2 (j 0 : Fin 10000) k))
            (fun k : Fin 64 => x1 (ix2 (j 0 : Fin 10000) k)) (fun (k : Fin 128) (n : Fin 64) => x2 (ix2 k n))
            (fun n : Fin 64 => x3 (ix2 (0 : Fin 1) n)) i)
          (fun (k n : Fin 64) => x4 (ix2 k n)) (j 1 : Fin 64) := by
  obtain ⟨p, q, rfl⟩ : ∃ (p : Fin 10000) (q : Fin 64), j = ix2 p q := ⟨j 0, j 1, eq_ix2 j⟩
  exact Pay.k2_pay2_apply x0 x1 x2 x3 x4 p q

/-! ## Output window 5: the transformed rows -/

/-- What point `t` writes back through window 5 is block `t` of the transformed rows. -/
theorem flushed5_eq (c : Dev nD) (t : Fin cfg2.N) :
    (dat2 V c).flushed 5 t = ((cfg2.win 5).blk t).view.read (Elt Ideal)
      (transRow (V c main_v31) (V c main_v35) (V c main_v40) (V c main_v38)) := by
  show (cfg2.win 5).cut (grid2.coords t) ((dat2 V c).after 5 t) = _
  rw [after2_5]
  unfold out2_5
  rw [View.canon_unit_zero zero_off]
  simp only [View.ld_unit_zero (S := S10000x64) zero_off, View.ld_unit_zero (S := S128x64) zero_off,
    View.ld_unit_zero (S := S1x64) zero_off]
  obtain ⟨-, -, -, -, -, -, -, -, -, -, e0, e1, -⟩ := index_maps t
  funext j
  refine (trans_at _ _ _ _ _).trans ?_
  show Cert.Rows.trans _ _ _ _ _
    = transRow (V c main_v31) (V c main_v35) (V c main_v40) (V c main_v38) (((cfg2.win 5).blk t).view.emb j)
  unfold transRow
  refine trans_congr (fun k => ?_) (fun k => ?_) (fun k n => ?_) (fun n => ?_) ?_
  · refine prev_block V c t _ k _ ?_
    show win2_5.index t (0 : Fin 2) * 10000 + 1 * (j 0).val = t.val * 10000 + (j 0).val
    omega
  · refine sums_block V c t _ k _ ?_
    show win2_5.index t (0 : Fin 2) * 10000 + 1 * (j 0).val = t.val * 10000 + (j 0).val
    omega
  · exact weight_block V c t k n
  · exact bias_block V c t 0 n
  · apply Fin.ext
    show (j 1).val = win2_5.index t (1 : Fin 2) * 64 + 1 * (j 1).val
    omega

/-- An index is in point `t`'s block of window 5 iff each coordinate is in the block's range on its axis. -/
theorem mem_blk5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v43_0).slice (win2_5.rect t)).set ↔ _
  rw [View.set_slice_whole, Rect.mem_set_unit]
  exact Iff.rfl

/-- Row `r` lies in the block of point `r / 10000`. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; rw [hN]; omega⟩
  refine ⟨t, flush2_5 t, ?_⟩
  rw [mem_blk5]
  obtain ⟨-, -, -, -, -, -, -, -, -, -, e0, e1, -⟩ := index_maps t
  have ht : t.val = (i 0).val / 10000 := rfl
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The first output array after the region: the transformed rows. -/
theorem array5 (c : Dev nD) :
    (dat2 V c).arrAt 5 cfg2.N = transRow (V c main_v31) (V c main_v35) (V c main_v40) (V c main_v38) :=
  (dat2 V c).arrAt_eq_of_cover 5 (transRow (V c main_v31) (V c main_v35) (V c main_v40) (V c main_v38))
    (fun t _ => flushed5_eq V c t) cover5

/-! ## Output window 6: the transformed rows times the message matrix -/

/-- What point `t` writes back through window 6 is block `t` of "transformed row times matrix". -/
theorem flushed6_eq (c : Dev nD) (t : Fin cfg2.N) :
    (dat2 V c).flushed 6 t = ((cfg2.win 6).blk t).view.read (Elt Ideal)
      (transDot (V c main_v31) (V c main_v35) (V c main_v40) (V c main_v38) (V c main_v42)) := by
  show (cfg2.win 6).cut (grid2.coords t) ((dat2 V c).after 6 t) = _
  rw [after2_6]
  unfold out2_6
  rw [View.canon_unit_zero zero_off]
  simp only [View.ld_unit_zero (S := S10000x64) zero_off, View.ld_unit_zero (S := S128x64) zero_off,
    View.ld_unit_zero (S := S1x64) zero_off, View.ld_unit_zero (S := S64x64) zero_off]
  obtain ⟨-, -, -, -, -, -, -, -, -, -, -, -, e0, e1⟩ := index_maps t
  funext j
  refine (transDot_at _ _ _ _ _ _).trans ?_
  show Cert.Rows.dot _ _ _
    = transDot (V c main_v31) (V c main_v35) (V c main_v40) (V c main_v38) (V c main_v42)
        (((cfg2.win 6).blk t).view.emb j)
  unfold transDot
  refine dot_congr (fun i => trans_congr (fun k => ?_) (fun k => ?_) (fun k n => ?_) (fun n => ?_) rfl)
    (fun k n => ?_) ?_
  · refine prev_block V c t _ k _ ?_
    show win2_6.index t (0 : Fin 2) * 10000 + 1 * (j 0).val = t.val * 10000 + (j 0).val
    omega
  · refine sums_block V c t _ k _ ?_
    show win2_6.index t (0 : Fin 2) * 10000 + 1 * (j 0).val = t.val * 10000 + (j 0).val
    omega
  · exact weight_block V c t k n
  · exact bias_block V c t 0 n
  · exact matrix_block V c t k n
  · apply Fin.ext
    show (j 1).val = win2_6.index t (1 : Fin 2) * 64 + 1 * (j 1).val
    omega

/-- An index is in point `t`'s block of window 6 iff each coordinate is in the block's range on its axis. -/
theorem mem_blk6 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v43_1).slice (win2_6.rect t)).set ↔ _
  rw [View.set_slice_whole, Rect.mem_set_unit]
  exact Iff.rfl

/-- Row `r` lies in the block of point `r / 10000`. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; rw [hN]; omega⟩
  refine ⟨t, flush2_6 t, ?_⟩
  rw [mem_blk6]
  obtain ⟨-, -, -, -, -, -, -, -, -, -, -, -, e0, e1⟩ := index_maps t
  have ht : t.val = (i 0).val / 10000 := rfl
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

/-- The second output array after the region: the transformed rows times the message matrix. -/
theorem array6 (c : Dev nD) :
    (dat2 V c).arrAt 6 cfg2.N
      = transDot (V c main_v31) (V c main_v35) (V c main_v40) (V c main_v38) (V c main_v42) :=
  (dat2 V c).arrAt_eq_of_cover 6
    (transDot (V c main_v31) (V c main_v35) (V c main_v40) (V c main_v38) (V c main_v42))
    (fun t _ => flushed6_eq V c t) cover6

/-! ## The two arrays, index by index -/

/-- The first output array holds, at row `r`, the transformed row. -/
theorem out5 (c : Dev nD) (r : Fin 100000) (q : Fin 64) :
    (dat2 V c).arrAt 5 cfg2.N (ix2 r q)
      = Cert.Rows.trans (fun k => V c main_v31 (ix2 r k)) (fun k => V c main_v35 (ix2 r k))
          (fun k n => V c main_v40 (ix2 k n)) (fun n => V c main_v38 (ix2 0 n)) q :=
  congrFun (array5 V c) (ix2 r q)

/-- The second output array holds, at row `r`, the transformed row times the message matrix. -/
theorem out6 (c : Dev nD) (r : Fin 100000) (q : Fin 64) :
    (dat2 V c).arrAt 6 cfg2.N (ix2 r q)
      = Cert.Rows.dot
          (fun j => Cert.Rows.trans (fun k => V c main_v31 (ix2 r k)) (fun k => V c main_v35 (ix2 r k))
            (fun k n => V c main_v40 (ix2 k n)) (fun n => V c main_v38 (ix2 0 n)) j)
          (fun k n => V c main_v42 (ix2 k n)) q :=
  congrFun (array6 V c) (ix2 r q)

end Cert.KernelIdeal.Reg2

end
-- ==== Proof.KReg3.lean ====
import proofs.«157269_j2267742732766_1_alg».proof.Proof.Gen.KernelIdeal.Frame
import proofs.«157269_j2267742732766_1_alg».proof.Proof.Rows
import proofs.«157269_j2267742732766_1_alg».proof.Proof.KPayB
import Idealize.ShloMosaic.Lib.Pipeline.Value
import Idealize.ShloMosaic.Lib.ValueIdx

/-!
  Region 3: the gated recurrent update, from row blocks to the whole array.

  The region walks a grid of 10 points. Point `t` sees rows `10000·t … 10000·t + 9999` of the message array and of
  the state array, and the four weight arrays whole; it writes the same rows of the output array. Every row of the
  output is therefore written by exactly one point, and what that point writes in row `r`, column `q` is the gated
  recurrent update `Cert.Rows.gru` of row `r` of the messages and of the state. This module states that as one
  equation per entry of the output array.
-/

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.ShloMosaic.Pipeline (Dat)

/-! ## The row function over whole arrays -/

/-- Entry `q` of the updated state of row `r`: the gated recurrent update of row `r` of the messages `a0` and of the
    state `a1`, under the input-side weights `a2`, `a3` and the hidden-side weights `a4`, `a5`. -/
def row (a0 a1 : S100000x64.Idx → EReal) (a2 : S64x192.Idx → EReal) (a3 : S1x192.Idx → EReal)
    (a4 : S64x192.Idx → EReal) (a5 : S1x192.Idx → EReal) (r : Fin 100000) (q : Fin 64) : EReal :=
  Cert.Rows.gru (Ideal.ofBits .f32 0x3F800000#32) (fun k => a0 (ix2 r k)) (fun k => a1 (ix2 r k)) (fun k => a1 (ix2 r k))
    (fun k n => a2 (ix2 k n)) (fun n => a3 (ix2 0 n)) (fun k n => a4 (ix2 k n)) (fun n => a5 (ix2 0 n)) q

/-- The output array as one function of the six input arrays: entry `(r, q)` is `row … r q`. -/
def G (a0 a1 : S100000x64.Idx → EReal) (a2 : S64x192.Idx → EReal) (a3 : S1x192.Idx → EReal)
    (a4 : S64x192.Idx → EReal) (a5 : S1x192.Idx → EReal) : S100000x64.Idx → EReal :=
  fun i => row a0 a1 a2 a3 a4 a5 ⟨(i 0).val, idx2_lt0 i⟩ ⟨(i 1).val, idx2_lt1 i⟩

theorem G_apply (a0 a1 : S100000x64.Idx → EReal) (a2 : S64x192.Idx → EReal) (a3 : S1x192.Idx → EReal)
    (a4 : S64x192.Idx → EReal) (a5 : S1x192.Idx → EReal) (r : Fin 100000) (q : Fin 64) :
    G a0 a1 a2 a3 a4 a5 (ix2 r q) = row a0 a1 a2 a3 a4 a5 r q := rfl

/-! ## One block: the payload of row blocks that sit at row offset `o` of the arrays -/

/-- If the two row blocks `x0`, `x1` are rows `o … o + 9999` of the arrays `a0`, `a1` and the weight blocks are the
    weight arrays, the body's payload at `(p, q)` is entry `(o + p, q)` of the output function. -/
theorem pay_at_offset (x0 x1 : Vec Ideal S10000x64 .f32) (x2 x4 : Vec Ideal S64x192 .f32) (x3 x5 : Vec Ideal S1x192 .f32)
    (a0 a1 : S100000x64.Idx → EReal) (a2 : S64x192.Idx → EReal) (a3 : S1x192.Idx → EReal)
    (a4 : S64x192.Idx → EReal) (a5 : S1x192.Idx → EReal) (o : Nat) (p : Fin 10000) (q : Fin 64)
    (hb : o + p.val < 100000)
    (h0 : ∀ k : Fin 64, x0 (ix2 p k) = a0 (ix2 (⟨o + p.val, hb⟩ : Fin 100000) k))
    (h1 : ∀ k : Fin 64, x1 (ix2 p k) = a1 (ix2 (⟨o + p.val, hb⟩ : Fin 100000) k))
    (h2 : ∀ (k : Fin 64) (n : Fin 192), x2 (ix2 k n) = a2 (ix2 k n))
    (h3 : ∀ n : Fin 192, x3 (ix2 (0 : Fin 1) n) = a3 (ix2 (0 : Fin 1) n))
    (h4 : ∀ (k : Fin 64) (n : Fin 192), x4 (ix2 k n) = a4 (ix2 k n))
    (h5 : ∀ n : Fin 192, x5 (ix2 (0 : Fin 1) n) = a5 (ix2 (0 : Fin 1) n)) :
    k3_pay1 (F := Ideal) x0 x2 x3 x1 x4 x5 x1 (ix2 p q) = row a0 a1 a2 a3 a4 a5 ⟨o + p.val, hb⟩ q := by
  have e0 : (fun k : Fin 64 => x0 (ix2 p k)) = fun k => a0 (ix2 (⟨o + p.val, hb⟩ : Fin 100000) k) := funext h0
  have e1 : (fun k : Fin 64 => x1 (ix2 p k)) = fun k => a1 (ix2 (⟨o + p.val, hb⟩ : Fin 100000) k) := funext h1
  have e2 : (fun (k : Fin 64) (n : Fin 192) => x2 (ix2 k n)) = fun k n => a2 (ix2 k n) := funext fun k => funext (h2 k)
  have e3 : (fun n : Fin 192 => x3 (ix2 (0 : Fin 1) n)) = fun n => a3 (ix2 (0 : Fin 1) n) := funext h3
  have e4 : (fun (k : Fin 64) (n : Fin 192) => x4 (ix2 k n)) = fun k n => a4 (ix2 k n) := funext fun k => funext (h4 k)
  have e5 : (fun n : Fin 192 => x5 (ix2 (0 : Fin 1) n)) = fun n => a5 (ix2 (0 : Fin 1) n) := funext h5
  rw [Pay.k3_pay1_apply, e0, e1, e2, e3, e4, e5]
  rfl

/-! ## The printed index maps -/

theorem hz : (![0, 0] : Fin 2 → Nat) = fun _ => 0 := funext fun a => by fin_cases a <;> rfl

/-- The index maps, decided over the 10 grid points: the two row windows and the output window sit at block row `t`,
    block column 0; the four weight windows sit at block (0, 0). -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A grid point is one of 10. -/
theorem point_lt (t : Fin cfg3.N) : t.val < 10 := t.isLt

/-! ## Where an element of each window's block sits in its array -/

/-- Element `(p, k)` of the message block at point `t` is entry `(10000·t + p, k)` of the message array. -/
theorem emb_msg (t : Fin cfg3.N) (p : Fin 10000) (k : Fin 64) (hb : t.val * 10000 + p.val < 100000) :
    ((cfg3.win 0).blk t).view.emb (ix2 p k) = (ix2 (⟨t.val * 10000 + p.val, hb⟩ : Fin 100000) k : S100000x64.Idx) := by
  obtain ⟨e0, e1, -⟩ := idx_facts t
  funext a; apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

/-- Element `(p, k)` of the state block at point `t` is entry `(10000·t + p, k)` of the state array. -/
theorem emb_state (t : Fin cfg3.N) (p : Fin 10000) (k : Fin 64) (hb : t.val * 10000 + p.val < 100000) :
    ((cfg3.win 1).blk t).view.emb (ix2 p k) = (ix2 (⟨t.val * 10000 + p.val, hb⟩ : Fin 100000) k : S100000x64.Idx) := by
  obtain ⟨-, -, e0, e1, -⟩ := idx_facts t
  funext a; apply Fin.ext
  match a with
  | ⟨0, _⟩ => show win3_1.index t (0 : Fin 2) * 10000 + 1 * p.val = t.val * 10000 + p.val; omega
  | ⟨1, _⟩ => show win3_1.index t (1 : Fin 2) * 64 + 1 * k.val = k.val; omega

/-- Element `(p, q)` of the output block at point `t` is entry `(10000·t + p, q)` of the output array. -/
theorem emb_out (t : Fin cfg3.N) (p : Fin 10000) (q : Fin 64) (hb : t.val * 10000 + p.val < 100000) :
    ((cfg3.win 6).blk t).view.emb (ix2 p q) = (ix2 (⟨t.val * 10000 + p.val, hb⟩ : Fin 100000) q : S100000x64.Idx) := by
  obtain ⟨-, -, -, -, -, -, -, -, -, -, -, -, e0, e1⟩ := idx_facts t
  funext a; apply Fin.ext
  match a with
  | ⟨0, _⟩ => show win3_6.index t (0 : Fin 2) * 10000 + 1 * p.val = t.val * 10000 + p.val; omega
  | ⟨1, _⟩ => show win3_6.index t (1 : Fin 2) * 64 + 1 * q.val = q.val; omega

/-- The input-side weight block is its whole array. -/
theorem emb_wih (t : Fin cfg3.N) (k : Fin 64) (n : Fin 192) :
    ((cfg3.win 2).blk t).view.emb (ix2 k n) = (ix2 k n : S64x192.Idx) := by
  obtain ⟨-, -, -, -, e0, e1, -⟩ := idx_facts t
  funext a; apply Fin.ext
  match a with
  | ⟨0, _⟩ => show win3_2.index t (0 : Fin 2) * 64 + 1 * k.val = k.val; omega
  | ⟨1, _⟩ => show win3_2.index t (1 : Fin 2) * 192 + 1 * n.val = n.val; omega

/-- The input-side bias block is its whole array. -/
theorem emb_bih (t : Fin cfg3.N) (z : Fin 1) (n : Fin 192) :
    ((cfg3.win 3).blk t).view.emb (ix2 z n) = (ix2 z n : S1x192.Idx) := by
  obtain ⟨-, -, -, -, -, -, e0, e1, -⟩ := idx_facts t
  funext a; apply Fin.ext
  match a with
  | ⟨0, _⟩ => show win3_3.index t (0 : Fin 2) * 1 + 1 * z.val = z.val; omega
  | ⟨1, _⟩ => show win3_3.index t (1 : Fin 2) * 192 + 1 * n.val = n.val; omega

/-- The hidden-side weight block is its whole array. -/
theorem emb_whh (t : Fin cfg3.N) (k : Fin 64) (n : Fin 192) :
    ((cfg3.win 4).blk t).view.emb (ix2 k n) = (ix2 k n : S64x192.Idx) := by
  obtain ⟨-, -, -, -, -, -, -, -, e0, e1, -⟩ := idx_facts t
  funext a; apply Fin.ext
  match a with
  | ⟨0, _⟩ => show win3_4.index t (0 : Fin 2) * 64 + 1 * k.val = k.val; omega
  | ⟨1, _⟩ => show win3_4.index t (1 : Fin 2) * 192 + 1 * n.val = n.val; omega

/-- The hidden-side bias block is its whole array. -/
theorem emb_bhh (t : Fin cfg3.N) (z : Fin 1) (n : Fin 192) :
    ((cfg3.win 5).blk t).view.emb (ix2 z n) = (ix2 z n : S1x192.Idx) := by
  obtain ⟨-, -, -, -, -, -, -, -, -, -, e0, e1, -⟩ := idx_facts t
  funext a; apply Fin.ext
  match a with
  | ⟨0, _⟩ => show win3_5.index t (0 : Fin 2) * 1 + 1 * z.val = z.val; omega
  | ⟨1, _⟩ => show win3_5.index t (1 : Fin 2) * 192 + 1 * n.val = n.val; omega

section Region

variable (V : (c : Dev nD) → (b : Ref sig .tc) → Buf (Elt Ideal) ((c : Thread nD τ).loc b))

/-- The output array the region should leave, from the arrays as the region finds them. -/
abbrev GV (c : Dev nD) : S100000x64.Idx → EReal :=
  G (V c main_v53) (V c main_v43_0) (V c main_v61) (V c main_v56) (V c main_v63) (V c main_v59)

/-! ## What one point writes back -/

/-- Point `t` writes back block `t` of the output function of the arrays as the region finds them. -/
theorem flushed_eq (c : Dev nD) (t : Fin cfg3.N) :
    (dat3 V c).flushed 6 t = ((cfg3.win 6).blk t).view.read (Elt Ideal) (GV V c) := by
  show (cfg3.win 6).cut (grid3.coords t) ((dat3 V c).after 6 t) = _
  rw [after3_6]
  unfold out3_6
  rw [View.canon_unit_zero hz]
  simp only [View.ld_unit_zero (S := S10000x64) hz, View.ld_unit_zero (S := S64x192) hz, View.ld_unit_zero (S := S1x192) hz]
  funext j
  obtain ⟨p, q, rfl⟩ : ∃ (p : Fin 10000) (q : Fin 64), j = ix2 p q := ⟨j 0, j 1, eq_ix2 j⟩
  have ht := point_lt t
  have hb : t.val * 10000 + p.val < 100000 := by have := p.isLt; omega
  show k3_pay1 (F := Ideal) (iblk3 V c 0 t) (iblk3 V c 2 t) (iblk3 V c 3 t) (iblk3 V c 1 t) (iblk3 V c 4 t) (iblk3 V c 5 t) (iblk3 V c 1 t) (ix2 p q)
      = GV V c (((cfg3.win 6).blk t).view.emb (ix2 p q))
  refine (pay_at_offset (iblk3 V c 0 t) (iblk3 V c 1 t) (iblk3 V c 2 t) (iblk3 V c 4 t) (iblk3 V c 3 t) (iblk3 V c 5 t)
    (V c main_v53) (V c main_v43_0) (V c main_v61) (V c main_v56) (V c main_v63) (V c main_v59) (t.val * 10000) p q hb
    (fun k => congrArg (V c main_v53) (emb_msg t p k hb))
    (fun k => congrArg (V c main_v43_0) (emb_state t p k hb))
    (fun k n => congrArg (V c main_v61) (emb_wih t k n))
    (fun n => congrArg (V c main_v56) (emb_bih t 0 n))
    (fun k n => congrArg (V c main_v63) (emb_whh t k n))
    (fun n => congrArg (V c main_v59) (emb_bhh t 0 n))).trans ?_
  exact (congrArg (GV V c) (emb_out t p q hb)).symm

/-! ## The blocks cover the array -/

/-- An index of the output array is in point `t`'s block iff each coordinate is in the block's range on its axis. -/
theorem mem_blk (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v64).slice (win3_6.rect t)).set ↔ _
  rw [View.set_slice_whole, Rect.mem_set_unit]
  exact Iff.rfl

/-- Row `r` of the output array is in the block of point `r / 10000`. -/
theorem cover (i : S100000x64.Idx) :
    ∃ t : Fin cfg3.N, (cfg3.win 6).flush t = true ∧ i ∈ ((cfg3.win 6).blk t).view.set := by
  have hi0 : (i 0).val < 100000 := idx2_lt0 i
  have hi1 : (i 1).val < 64 := idx2_lt1 i
  obtain ⟨t, ht⟩ : ∃ t : Fin cfg3.N, t.val = (i 0).val / 10000 :=
    ⟨⟨(i 0).val / 10000, (by omega : (i 0).val / 10000 < 10)⟩, rfl⟩
  obtain ⟨-, -, -, -, -, -, -, -, -, -, -, -, e0, e1⟩ := idx_facts t
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-! ## The array after the region -/

/-- The output array after the region's 10 points is the output function of the arrays as the region finds them. -/
theorem final (c : Dev nD) : (dat3 V c).arrAt 6 cfg3.N = GV V c :=
  (dat3 V c).arrAt_eq_of_cover 6 (GV V c) (fun t _ => flushed_eq V c t) cover

/-- Entry `(r, q)` of the output array after the region: the gated recurrent update of row `r` of the message array
    and of the state array as the region finds them. -/
theorem out6 (c : Dev nD) (r : Fin 100000) (q : Fin 64) :
    (dat3 V c).arrAt 6 cfg3.N (ix2 r q)
      = Cert.Rows.gru (Ideal.ofBits .f32 0x3F800000#32) (fun k => V c main_v53 (ix2 r k)) (fun k => V c main_v43_0 (ix2 r k))
          (fun k => V c main_v43_0 (ix2 r k)) (fun k n => V c main_v61 (ix2 k n)) (fun n => V c main_v56 (ix2 0 n))
          (fun k n => V c main_v63 (ix2 k n)) (fun n => V c main_v59 (ix2 0 n)) q := by
  rw [final V c]
  rfl

end Region

end Cert.KernelIdeal.Reg3

end
-- ==== Proof.KL1.lean ====
/-
  Layer 1 of the network, read off the kernel program's fold.

  The layer is two host stretches and two regions. The first stretch slices the layer's embedding table from the
  stacked tables, looks the nodes' positions up in it, adds the looked-up rows to the embedding sums, and slices the
  layer's affine map and convolution weight. Region 2 transforms every row of the previous state beside its
  embedding sum and multiplies the result by the convolution weight. The second stretch passes the convolved rows
  along the edges and slices the layer's gate weights; region 3 applies the gated recurrent update row by row.
  Read level by level this is `Cert.Sem.layerOf` of the buffers the regions find, and each of those buffers is a
  named function of a launch argument.
-/
import proofs.«157269_j2267742732766_1_alg».proof.Proof.Gen.KernelIdeal.Frame
import proofs.«157269_j2267742732766_1_alg».proof.Proof.Sem
import proofs.«157269_j2267742732766_1_alg».proof.Proof.KTake
import proofs.«157269_j2267742732766_1_alg».proof.Proof.KReg2
import proofs.«157269_j2267742732766_1_alg».proof.Proof.KReg3
import proofs.«157269_j2267742732766_1_alg».proof.Proof.KLBase

set_option maxRecDepth 16384

noncomputable section

namespace Cert.KernelIdeal.Layers

open Cert.KernelIdeal Cert.KernelIdeal.Gen Idealize.ShloMosaic Idealize.ShloMosaic.TcCoe Idealize.ShloMosaic.ValueIdx

/-! ## The layer's slices of the stacked arrays -/

section Chains

variable {F : FTy → Type} [FloatOps F]

/-- The layer's embedding table: one block of the stacked tables, as a 100 × 64 array. -/
def table_L1 (a : (⟨S5x100x64, .f32⟩ : BufTy).Contents (Elt F)) : (⟨S100x64, .f32⟩ : BufTy).Contents (Elt F) :=
  let blk : FVec F S1x100x64 .f32 := (extractStridedSlice S1x100x64 ![1, 0, 0] · slices_S5x100x64_S1x100x64_1_0_0) a
  fun i => shapeCast S100x64 blk shapeCasts_S1x100x64_S100x64 i

/-- The bias row of the layer's affine map: one row of the stacked biases, as a 1 × 64 array. -/
def tbOf_L1 (a : (⟨S4x64, .f32⟩ : BufTy).Contents (Elt F)) : (⟨S1x64, .f32⟩ : BufTy).Contents (Elt F) :=
  let blk : FVec F S1x64 .f32 := (extractStridedSlice S1x64 ![0, 0] · slices_S4x64_S1x64_0_0) a
  let flat : FVec F S64 .f32 := fun i => shapeCast S64 blk shapeCasts_S1x64_S64 i
  fun i => shapeCast S1x64 flat shapeCasts_S64_S1x64 i

/-- The weight of the layer's affine map: one block of the stacked weights, as a 128 × 64 array. -/
def tWOf_L1 (a : (⟨S4x128x64, .f32⟩ : BufTy).Contents (Elt F)) : (⟨S128x64, .f32⟩ : BufTy).Contents (Elt F) :=
  let blk : FVec F S1x128x64 .f32 := (extractStridedSlice S1x128x64 ![0, 0, 0] · slices_S4x128x64_S1x128x64_0_0_0) a
  fun i => shapeCast S128x64 blk shapeCasts_S1x128x64_S128x64 i

/-- The layer's convolution weight: one block of the stacked weights, as a 64 × 64 array. -/
def cWOf_L1 (a : (⟨S5x64x64, .f32⟩ : BufTy).Contents (Elt F)) : (⟨S64x64, .f32⟩ : BufTy).Contents (Elt F) :=
  let blk : FVec F S1x64x64 .f32 := (extractStridedSlice S1x64x64 ![1, 0, 0] · slices_S5x64x64_S1x64x64_1_0_0) a
  fun i => shapeCast S64x64 blk shapeCasts_S1x64x64_S64x64 i

/-- A gate bias row of the layer: one row of a stacked bias array, as a 1 × 192 array. -/
def gateB_L1 (a : (⟨S5x192, .f32⟩ : BufTy).Contents (Elt F)) : (⟨S1x192, .f32⟩ : BufTy).Contents (Elt F) :=
  let blk : FVec F S1x192 .f32 := (extractStridedSlice S1x192 ![1, 0] · slices_S5x192_S1x192_1_0) a
  let flat : FVec F S192 .f32 := fun i => shapeCast S192 blk shapeCasts_S1x192_S192 i
  fun i => shapeCast S1x192 flat shapeCasts_S192_S1x192 i

/-- A gate weight of the layer: one block of a stacked weight array, as a 64 × 192 array. -/
def gateW_L1 (a : (⟨S5x64x192, .f32⟩ : BufTy).Contents (Elt F)) : (⟨S64x192, .f32⟩ : BufTy).Contents (Elt F) :=
  let blk : FVec F S1x64x192 .f32 := (extractStridedSlice S1x64x192 ![1, 0, 0] · slices_S5x64x192_S1x64x192_1_0_0) a
  fun i => shapeCast S64x192 blk shapeCasts_S1x64x192_S64x192 i

end Chains

variable (m : (ℓ : Loc nD τ sig) → Buf (Elt Ideal) ℓ) (ρ : Dev nD → PrngReg)

/-! ## The kept buffers through the layer -/

/-- After the stretch that slices the table. -/
theorem keepA_L1 (c : Dev nD) (b : Ref sig .tc) (hb : b ∈ keptRefs) :
    W7 m ρ c (Proc.devRef .tc b) = W6 m ρ c (Proc.devRef .tc b) := by
  kept_cases hb
  all_goals stretch_keeps hostOps2

/-- After the lookup. -/
theorem keepB_L1 (c : Dev nD) (b : Ref sig .tc) (hb : b ∈ keptRefs) :
    W8 m ρ c (Proc.devRef .tc b) = W6 m ρ c (Proc.devRef .tc b) := by
  refine Eq.trans ?_ (keepA_L1 m ρ c b hb)
  kept_cases hb
  all_goals stretch_keeps hostOps2_1

/-- After the embedding sum and the slices of the affine map and the convolution weight. -/
theorem keepC_L1 (c : Dev nD) (b : Ref sig .tc) (hb : b ∈ keptRefs) :
    W9 m ρ c (Proc.devRef .tc b) = W6 m ρ c (Proc.devRef .tc b) := by
  refine Eq.trans ?_ (keepB_L1 m ρ c b hb)
  kept_cases hb
  all_goals stretch_keeps hostOps2_2

/-- After region 2. -/
theorem keepD_L1 (c : Dev nD) (b : Ref sig .tc) (hb : b ∈ keptRefs) :
    W10 m ρ c (Proc.devRef .tc b) = W6 m ρ c (Proc.devRef .tc b) := by
  refine Eq.trans ?_ (keepC_L1 m ρ c b hb)
  kept_cases hb
  all_goals exact W10_of_ne m ρ c _ (by decide)

/-- After the edge pass and the slices of the gate weights. -/
theorem keepE_L1 (c : Dev nD) (b : Ref sig .tc) (hb : b ∈ keptRefs) :
    W11 m ρ c (Proc.devRef .tc b) = W6 m ρ c (Proc.devRef .tc b) := by
  refine Eq.trans ?_ (keepD_L1 m ρ c b hb)
  kept_cases hb
  all_goals stretch_keeps hostOps3

/-- After region 3: the layer's exit. -/
theorem keepF_L1 (c : Dev nD) (b : Ref sig .tc) (hb : b ∈ keptRefs) :
    W12 m ρ c (Proc.devRef .tc b) = W6 m ρ c (Proc.devRef .tc b) := by
  refine Eq.trans ?_ (keepE_L1 m ρ c b hb)
  kept_cases hb
  all_goals exact W12_of_ne m ρ c _ (by decide)

/-- At the layer's exit the kept buffers hold what they held after the first host stretch of the program. -/
theorem kept_L1 (c : Dev nD) (b : Ref sig .tc) (hb : b ∈ keptRefs) :
    W12 m ρ c (Proc.devRef .tc b) = W1 m ρ c (Proc.devRef .tc b) :=
  (keepF_L1 m ρ c b hb).trans (kept_L0 m ρ c b hb)

/-- At the layer's exit a launch argument holds what it held at launch. -/
theorem launch_L1 (c : Dev nD) (b : Ref sig .tc) (hb : b ∈ argRefs) :
    W12 m ρ c (Proc.devRef .tc b) = m ((c : Thread nD τ).loc b) :=
  (keepF_L1 m ρ c b (argRefs_sub hb)).trans (launch_L0 m ρ c b hb)

/-! ## The leaves: what the regions' weight buffers hold, from the launch arguments -/

/-- The layer's table, after the first stretch. -/
theorem table_at_L1 (c : Dev nD) :
    W7 m ρ c (Proc.devRef .tc main_v33) = table_L1 (F := Ideal) (m ((c : Thread nD τ).loc main_arg5)) := by
  have e : W7 m ρ c (Proc.devRef .tc main_v33) = table_L1 (F := Ideal) (W6 m ρ c (Proc.devRef .tc main_arg5)) := by
    show StableHlo.after hostOps2 (W6 m ρ c) (Proc.devRef .tc main_v33) = _
    generalize W6 m ρ c = V
    after_results
    rfl
  exact e.trans (congrArg (table_L1 (F := Ideal)) (launch_L0 m ρ c main_arg5 (by decide)))

/-- The looked-up rows: the masked lookup of the nodes' positions in the layer's table. -/
theorem lookup_L1 (c : Dev nD) :
    W8 m ρ c (Proc.devRef .tc main_v34)
      = Take.maskedLookup (F := Ideal) (table_L1 (m ((c : Thread nD τ).loc main_arg5))) (m ((c : Thread nD τ).loc main_arg0)) := by
  have e : W8 m ρ c (Proc.devRef .tc main_v34)
      = Take.maskedLookup (F := Ideal) (W7 m ρ c (Proc.devRef .tc main_v33)) (W7 m ρ c (Proc.devRef .tc main_arg0)) := by
    show StableHlo.after hostOps2_1 (W7 m ρ c) (Proc.devRef .tc main_v34) = _
    generalize W7 m ρ c = V
    after_results_simp
    simp only [StableHlo.TRef.ofBuf, StableHlo.TRef.toBuf, cast_eq]
    rfl
  have e0 : W7 m ρ c (Proc.devRef .tc main_arg0) = m ((c : Thread nD τ).loc main_arg0) :=
    (keepA_L1 m ρ c main_arg0 (by decide)).trans (launch_L0 m ρ c main_arg0 (by decide))
  exact e.trans (congrArg₂ (Take.maskedLookup (F := Ideal)) (table_at_L1 m ρ c) e0)

/-- The embedding sums region 2 reads: the looked-up rows added up. -/
theorem emb_L1 (c : Dev nD) :
    W9 m ρ c (Proc.devRef .tc main_v35)
      = embSum (F := Ideal) (Take.maskedLookup (F := Ideal) (table_L1 (m ((c : Thread nD τ).loc main_arg5))) (m ((c : Thread nD τ).loc main_arg0))) := by
  have e : W9 m ρ c (Proc.devRef .tc main_v35) = embSum (F := Ideal) (W8 m ρ c (Proc.devRef .tc main_v34)) := by
    show StableHlo.after hostOps2_2 (W8 m ρ c) (Proc.devRef .tc main_v35) = _
    generalize W8 m ρ c = V
    after_results
    rfl
  exact e.trans (congrArg (embSum (F := Ideal)) (lookup_L1 m ρ c))

/-- The bias row of the affine map region 2 reads. -/
theorem tb_L1 (c : Dev nD) :
    W9 m ρ c (Proc.devRef .tc main_v38) = tbOf_L1 (F := Ideal) (m ((c : Thread nD τ).loc main_arg7)) := by
  have e : W9 m ρ c (Proc.devRef .tc main_v38) = tbOf_L1 (F := Ideal) (W8 m ρ c (Proc.devRef .tc main_arg7)) := by
    show StableHlo.after hostOps2_2 (W8 m ρ c) (Proc.devRef .tc main_v38) = _
    generalize W8 m ρ c = V
    after_results
    rfl
  exact e.trans (congrArg (tbOf_L1 (F := Ideal)) ((keepB_L1 m ρ c main_arg7 (by decide)).trans (launch_L0 m ρ c main_arg7 (by decide))))

/-- The weight of the affine map region 2 reads. -/
theorem tW_L1 (c : Dev nD) :
    W9 m ρ c (Proc.devRef .tc main_v40) = tWOf_L1 (F := Ideal) (m ((c : Thread nD τ).loc main_arg6)) := by
  have e : W9 m ρ c (Proc.devRef .tc main_v40) = tWOf_L1 (F := Ideal) (W8 m ρ c (Proc.devRef .tc main_arg6)) := by
    show StableHlo.after hostOps2_2 (W8 m ρ c) (Proc.devRef .tc main_v40) = _
    generalize W8 m ρ c = V
    after_results
    rfl
  exact e.trans (congrArg (tWOf_L1 (F := Ideal)) ((keepB_L1 m ρ c main_arg6 (by decide)).trans (launch_L0 m ρ c main_arg6 (by decide))))

/-- The convolution weight region 2 reads. -/
theorem cW_L1 (c : Dev nD) :
    W9 m ρ c (Proc.devRef .tc main_v42) = cWOf_L1 (F := Ideal) (m ((c : Thread nD τ).loc main_arg8)) := by
  have e : W9 m ρ c (Proc.devRef .tc main_v42) = cWOf_L1 (F := Ideal) (W8 m ρ c (Proc.devRef .tc main_arg8)) := by
    show StableHlo.after hostOps2_2 (W8 m ρ c) (Proc.devRef .tc main_v42) = _
    generalize W8 m ρ c = V
    after_results
    rfl
  exact e.trans (congrArg (cWOf_L1 (F := Ideal)) ((keepB_L1 m ρ c main_arg8 (by decide)).trans (launch_L0 m ρ c main_arg8 (by decide))))

/-- The input-side gate weight region 3 reads. -/
theorem wih_L1 (c : Dev nD) :
    W11 m ρ c (Proc.devRef .tc main_v61) = gateW_L1 (F := Ideal) (m ((c : Thread nD τ).loc main_arg9)) := by
  have e : W11 m ρ c (Proc.devRef .tc main_v61) = gateW_L1 (F := Ideal) (W10 m ρ c (Proc.devRef .tc main_arg9)) := by
    show StableHlo.after hostOps3 (W10 m ρ c) (Proc.devRef .tc main_v61) = _
    generalize W10 m ρ c = V
    after_results_simp
    rfl
  exact e.trans (congrArg (gateW_L1 (F := Ideal)) ((keepD_L1 m ρ c main_arg9 (by decide)).trans (launch_L0 m ρ c main_arg9 (by decide))))

/-- The input-side gate bias region 3 reads. -/
theorem bih_L1 (c : Dev nD) :
    W11 m ρ c (Proc.devRef .tc main_v56) = gateB_L1 (F := Ideal) (m ((c : Thread nD τ).loc main_arg10)) := by
  have e : W11 m ρ c (Proc.devRef .tc main_v56) = gateB_L1 (F := Ideal) (W10 m ρ c (Proc.devRef .tc main_arg10)) := by
    show StableHlo.after hostOps3 (W10 m ρ c) (Proc.devRef .tc main_v56) = _
    generalize W10 m ρ c = V
    after_results_simp
    rfl
  exact e.trans (congrArg (gateB_L1 (F := Ideal)) ((keepD_L1 m ρ c main_arg10 (by decide)).trans (launch_L0 m ρ c main_arg10 (by decide))))

/-- The state-side gate weight region 3 reads. -/
theorem whh_L1 (c : Dev nD) :
    W11 m ρ c (Proc.devRef .tc main_v63) = gateW_L1 (F := Ideal) (m ((c : Thread nD τ).loc main_arg11)) := by
  have e : W11 m ρ c (Proc.devRef .tc main_v63) = gateW_L1 (F := Ideal) (W10 m ρ c (Proc.devRef .tc main_arg11)) := by
    show StableHlo.after hostOps3 (W10 m ρ c) (Proc.devRef .tc main_v63) = _
    generalize W10 m ρ c = V
    after_results_simp
    rfl
  exact e.trans (congrArg (gateW_L1 (F := Ideal)) ((keepD_L1 m ρ c main_arg11 (by decide)).trans (launch_L0 m ρ c main_arg11 (by decide))))

/-- The state-side gate bias region 3 reads. -/
theorem bhh_L1 (c : Dev nD) :
    W11 m ρ c (Proc.devRef .tc main_v59) = gateB_L1 (F := Ideal) (m ((c : Thread nD τ).loc main_arg12)) := by
  have e : W11 m ρ c (Proc.devRef .tc main_v59) = gateB_L1 (F := Ideal) (W10 m ρ c (Proc.devRef .tc main_arg12)) := by
    show StableHlo.after hostOps3 (W10 m ρ c) (Proc.devRef .tc main_v59) = _
    generalize W10 m ρ c = V
    after_results_simp
    rfl
  exact e.trans (congrArg (gateB_L1 (F := Ideal)) ((keepD_L1 m ρ c main_arg12 (by decide)).trans (launch_L0 m ρ c main_arg12 (by decide))))

/-! ## Region 2: the transformed state and its convolution -/

/-- The previous layer's state, as region 2 finds it: the layer's first stretch does not write it. -/
theorem state_L1 (c : Dev nD) : W9 m ρ c (Proc.devRef .tc main_v31) = W6 m ρ c (Proc.devRef .tc main_v31) := by
  stretch_step hostOps2_2
  stretch_step hostOps2_1
  stretch_keeps hostOps2

/-- The layer's transformed state, from the buffers region 2 finds. -/
abbrev xtOf_L1 (c : Dev nD) : Cert.Sem.Mat 100000 64 :=
  (Cert.Sem.transform (Cert.Sem.toMat (W6 m ρ c (Proc.devRef .tc main_v31) : Cert.Sem.Arr 100000 64))
          (Cert.Sem.toMat (W9 m ρ c (Proc.devRef .tc main_v35) : Cert.Sem.Arr 100000 64))
          (Cert.Sem.toMat (W9 m ρ c (Proc.devRef .tc main_v40) : Cert.Sem.Arr 128 64))
          (Cert.Sem.toRow (W9 m ρ c (Proc.devRef .tc main_v38) : Cert.Sem.Arr 1 64)))

/-- Region 2's first output is the transformed state, entry by entry. -/
theorem xt_L1 (c : Dev nD) (r : Fin 100000) (q : Fin 64) :
    W10 m ρ c (Proc.devRef .tc main_v43_0) (ix2 r q) = xtOf_L1 m ρ c r q := by
  have hx : (fun k => V9 m ρ c main_v31 (ix2 r k))
      = Cert.Sem.toMat (W6 m ρ c (Proc.devRef .tc main_v31) : Cert.Sem.Arr 100000 64) r :=
    funext fun k => congrFun (state_L1 m ρ c) (ix2 r k)
  refine (congrFun (W10_arr m ρ c 5) (ix2 r q)).trans ((Reg2.out5 (V9 m ρ) c r q).trans ?_)
  exact congrArg (fun X => Cert.Rows.trans X (fun k => V9 m ρ c main_v35 (ix2 r k)) (fun k n => V9 m ρ c main_v40 (ix2 k n))
    (fun n => V9 m ρ c main_v38 (ix2 0 n)) q) hx

/-- Region 2's second output is the transformed state's rows times the convolution weight, as an array. -/
theorem cv_L1 (c : Dev nD) :
    (W10 m ρ c (Proc.devRef .tc main_v43_1) : Cert.Sem.Arr 100000 64)
      = Cert.Sem.ofMat (Cert.Sem.conv (xtOf_L1 m ρ c) (Cert.Sem.toMat (W9 m ρ c (Proc.devRef .tc main_v42) : Cert.Sem.Arr 64 64))) := by
  refine Cert.Sem.arr_ext fun r q => ?_
  have hx : (fun k => V9 m ρ c main_v31 (ix2 r k))
      = Cert.Sem.toMat (W6 m ρ c (Proc.devRef .tc main_v31) : Cert.Sem.Arr 100000 64) r :=
    funext fun k => congrFun (state_L1 m ρ c) (ix2 r k)
  refine (congrFun (W10_arr m ρ c 6) (ix2 r q)).trans ((Reg2.out6 (V9 m ρ) c r q).trans ?_)
  exact congrArg (fun X => Cert.Rows.dot (fun j => Cert.Rows.trans X (fun k => V9 m ρ c main_v35 (ix2 r k))
    (fun k n => V9 m ρ c main_v40 (ix2 k n)) (fun n => V9 m ρ c main_v38 (ix2 0 n)) j) (fun k n => V9 m ρ c main_v42 (ix2 k n)) q) hx

/-! ## The edge pass and region 3 -/

/-- The messages region 3 reads: the edge pass, along the program's edge rows, of region 2's convolved rows. -/
theorem pass1 (c : Dev nD) :
    W11 m ρ c (Proc.devRef .tc main_v53)
      = passK (W1 m ρ c (Proc.devRef .tc main_v1)) (W1 m ρ c (Proc.devRef .tc main_v3)) (W10 m ρ c (Proc.devRef .tc main_v43_1)) := by
  have e : W11 m ρ c (Proc.devRef .tc main_v53)
      = passK (F := Ideal) (W10 m ρ c (Proc.devRef .tc main_v1)) (W10 m ρ c (Proc.devRef .tc main_v3)) (W10 m ρ c (Proc.devRef .tc main_v43_1)) := by
    show StableHlo.after hostOps3 (W10 m ρ c) (Proc.devRef .tc main_v53) = _
    generalize W10 m ρ c = V
    after_results_simp
    rfl
  have e1 : W10 m ρ c (Proc.devRef .tc main_v1) = W1 m ρ c (Proc.devRef .tc main_v1) :=
    (keepD_L1 m ρ c main_v1 (by decide)).trans (kept_L0 m ρ c main_v1 (by decide))
  have e3 : W10 m ρ c (Proc.devRef .tc main_v3) = W1 m ρ c (Proc.devRef .tc main_v3) :=
    (keepD_L1 m ρ c main_v3 (by decide)).trans (kept_L0 m ρ c main_v3 (by decide))
  exact e.trans (congrArg₂ (fun s d => passK (F := Ideal) s d (W10 m ρ c (Proc.devRef .tc main_v43_1))) e1 e3)

/-- The transformed state, as region 3 finds it: the layer's second stretch does not write it. -/
theorem state2_L1 (c : Dev nD) : W11 m ρ c (Proc.devRef .tc main_v43_0) = W10 m ρ c (Proc.devRef .tc main_v43_0) := by
  stretch_keeps hostOps3

/-- The layer function at an entry, from its parts: where the messages are the pass of an array that holds the
    convolved rows, and the state array holds the transformed state entry by entry, the gated recurrent update of
    the messages' and the state's row is the layer function's entry. The pass is any map on arrays. -/
theorem layer_entry_L1 {N : ℕ} (pass : Cert.Sem.Arr N 64 → Cert.Sem.Arr N 64) (msgs cvd st : Cert.Sem.Arr N 64)
    (xt : Cert.Sem.Mat N 64) (cW : Cert.Sem.Mat 64 64) (Wih : Cert.Sem.Mat 64 192) (bih : Fin 192 → EReal)
    (Whh : Cert.Sem.Mat 64 192) (bhh : Fin 192 → EReal)
    (hmsgs : msgs = pass cvd) (hcvd : cvd = Cert.Sem.ofMat (Cert.Sem.conv xt cW))
    (hst : ∀ r k, st (ix2 r k) = xt r k) (r : Fin N) (q : Fin 64) :
    Cert.Rows.gru Cert.Sem.one (fun k => msgs (ix2 r k)) (fun k => st (ix2 r k)) (fun k => st (ix2 r k)) Wih bih Whh bhh q
      = Cert.Sem.layerOf pass xt cW Wih bih Whh bhh r q := by
  subst hmsgs hcvd
  have e : (fun k => st (ix2 r k)) = xt r := funext (hst r)
  rw [e]
  rfl

/-- LAYER 1: the state region 3 leaves is the layer function of the transformed state, the convolution weight and
    the gate weights the regions find, with the edge pass along the program's edge rows. -/
theorem layer1 (c : Dev nD) : Cert.Sem.toMat (W12 m ρ c (Proc.devRef .tc main_v64) : Cert.Sem.Arr 100000 64)
      = Cert.Sem.layerOf (passK (F := Ideal) (W1 m ρ c (Proc.devRef .tc main_v1)) (W1 m ρ c (Proc.devRef .tc main_v3)))
          (Cert.Sem.transform (Cert.Sem.toMat (W6 m ρ c (Proc.devRef .tc main_v31) : Cert.Sem.Arr 100000 64))
          (Cert.Sem.toMat (W9 m ρ c (Proc.devRef .tc main_v35) : Cert.Sem.Arr 100000 64))
          (Cert.Sem.toMat (W9 m ρ c (Proc.devRef .tc main_v40) : Cert.Sem.Arr 128 64))
          (Cert.Sem.toRow (W9 m ρ c (Proc.devRef .tc main_v38) : Cert.Sem.Arr 1 64)))
          (Cert.Sem.toMat (W9 m ρ c (Proc.devRef .tc main_v42) : Cert.Sem.Arr 64 64))
          (Cert.Sem.toMat (W11 m ρ c (Proc.devRef .tc main_v61) : Cert.Sem.Arr 64 192)) (Cert.Sem.toRow (W11 m ρ c (Proc.devRef .tc main_v56) : Cert.Sem.Arr 1 192))
          (Cert.Sem.toMat (W11 m ρ c (Proc.devRef .tc main_v63) : Cert.Sem.Arr 64 192)) (Cert.Sem.toRow (W11 m ρ c (Proc.devRef .tc main_v59) : Cert.Sem.Arr 1 192)) := by
  funext r q
  refine (congrFun (W12_arr m ρ c 6) (ix2 r q)).trans ((Reg3.out6 (V11 m ρ) c r q).trans ?_)
  exact layer_entry_L1 (passK (F := Ideal) (W1 m ρ c (Proc.devRef .tc main_v1)) (W1 m ρ c (Proc.devRef .tc main_v3)))
    (W11 m ρ c (Proc.devRef .tc main_v53)) (W10 m ρ c (Proc.devRef .tc main_v43_1)) (W11 m ρ c (Proc.devRef .tc main_v43_0))
    (xtOf_L1 m ρ c) (Cert.Sem.toMat (W9 m ρ c (Proc.devRef .tc main_v42) : Cert.Sem.Arr 64 64))
    (Cert.Sem.toMat (W11 m ρ c (Proc.devRef .tc main_v61) : Cert.Sem.Arr 64 192)) (Cert.Sem.toRow (W11 m ρ c (Proc.devRef .tc main_v56) : Cert.Sem.Arr 1 192))
    (Cert.Sem.toMat (W11 m ρ c (Proc.devRef .tc main_v63) : Cert.Sem.Arr 64 192)) (Cert.Sem.toRow (W11 m ρ c (Proc.devRef .tc main_v59) : Cert.Sem.Arr 1 192))
    (pass1 m ρ c) (cv_L1 m ρ c)
    (fun r k => (congrFun (state2_L1 m ρ c) (ix2 r k)).trans (xt_L1 m ρ c r k)) r q

end Cert.KernelIdeal.Layers

end
-- ==== Proof.RL1.lean ====
/-
  A message-passing layer after the first, read off the reference's run.

  The reference runs such a layer in four stretches of host operations: the embedding lookup and sum; the
  concatenation with the previous state, the affine map, the cutting of the layer's parameters out of the stacked
  arrays, and the product with the convolution weight; the gather along the edges' sources and the scatter-add at
  their targets; the gated recurrent update. Each stretch's result is the composition of its operations over the
  contents the stretch starts from, and that composition is one of the stage functions. Chained through the levels of
  the run, the layer's new state, read as a matrix of extended reals, is the specification's layer function of the
  previous state, the embedding sums and the layer's parameters.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageA
import proofs.«157269_j2267742732766_1_alg».proof.Proof.RStageB
import proofs.«157269_j2267742732766_1_alg».proof.Proof.RL0
import Idealize.ShloMosaic.Lib.StableHlo.Run
import Idealize.ShloMosaic.Lib.ValueIdx

noncomputable section

namespace Cert.ReferenceIdeal.Layers

open Cert.ReferenceIdeal Cert.ReferenceIdeal.RunV Idealize.ShloMosaic Idealize.ShloMosaic.ValueIdx Idealize.ShloMosaic.StableHlo

/-! ## The layer's parameters, cut out of the stacked arrays

Every parameter of the network arrives stacked over the layers. The reference cuts the layer's slab out (a slice of
extent one along the leading axis) and drops that axis (a reshape). -/

section Leaves

variable {F : FTy → Type} [FloatOps F] [Facts₀]
open Facts₀

/-- The layer's embedding table, 100×64. -/
def emb_L1 (A : (⟨S5x100x64, .f32⟩ : BufTy).Contents (Elt F)) : (⟨S100x64, .f32⟩ : BufTy).Contents (Elt F) :=
  shapeCast S100x64 (extractStridedSlice S1x100x64 ![1, 0, 0] A slices_S5x100x64_S1x100x64_1_0_0) shapeCasts_S1x100x64_S100x64

/-- The weight matrix of the layer's affine map on the state beside the embedding sums, 128×64. -/
def tW_L1 (A : (⟨S4x128x64, .f32⟩ : BufTy).Contents (Elt F)) : (⟨S128x64, .f32⟩ : BufTy).Contents (Elt F) :=
  shapeCast S128x64 (extractStridedSlice S1x128x64 ![0, 0, 0] A slices_S4x128x64_S1x128x64_0_0_0) shapeCasts_S1x128x64_S128x64

/-- The bias row of that affine map, 64. -/
def tb_L1 (A : (⟨S4x64, .f32⟩ : BufTy).Contents (Elt F)) : (⟨S64, .f32⟩ : BufTy).Contents (Elt F) :=
  shapeCast S64 (extractStridedSlice S1x64 ![0, 0] A slices_S4x64_S1x64_0_0) shapeCasts_S1x64_S64

/-- The layer's convolution weight, 64×64. -/
def cW_L1 (A : (⟨S5x64x64, .f32⟩ : BufTy).Contents (Elt F)) : (⟨S64x64, .f32⟩ : BufTy).Contents (Elt F) :=
  shapeCast S64x64 (extractStridedSlice S1x64x64 ![1, 0, 0] A slices_S5x64x64_S1x64x64_1_0_0) shapeCasts_S1x64x64_S64x64

/-- A gate weight matrix of the layer's recurrent update, 64×192 (the message side and the state side are cut the same
    way out of their two stacks). -/
def gW_L1 (A : (⟨S5x64x192, .f32⟩ : BufTy).Contents (Elt F)) : (⟨S64x192, .f32⟩ : BufTy).Contents (Elt F) :=
  shapeCast S64x192 (extractStridedSlice S1x64x192 ![1, 0, 0] A slices_S5x64x192_S1x64x192_1_0_0) shapeCasts_S1x64x192_S64x192

/-- A gate bias row of the layer's recurrent update, 192. -/
def gb_L1 (A : (⟨S5x192, .f32⟩ : BufTy).Contents (Elt F)) : (⟨S192, .f32⟩ : BufTy).Contents (Elt F) :=
  shapeCast S192 (extractStridedSlice S1x192 ![1, 0] A slices_S5x192_S1x192_1_0) shapeCasts_S1x192_S192

end Leaves

/-! ## The four stretches of the layer, from any contents

Each result buffer of a stretch is the composition of the stretch's operations over the contents the stretch starts
from; the compositions are the stage functions. -/

section Stretches

variable {F : FTy → Type} [FloatOps F]

set_option maxHeartbeats 4000000 in  -- a stretch of up to forty operations over the program's five hundred buffers
/-- The embedding sums: the layer's table looked up at the two attribute columns, the two rows added. -/
theorem lookup_L1 (V : Valuation τ sig (Elt F)) :
    after (opsC4 (F := F)) V (Proc.devRef .tc main_v80)
      = embSumR (plainLookupR (emb_L1 (V (Proc.devRef .tc main_arg5))) (V (Proc.devRef .tc main_arg0))) := by
  after_results
  generalize V (Proc.devRef .tc main_arg5) = A
  generalize V (Proc.devRef .tc main_arg0) = z
  rfl

set_option maxHeartbeats 4000000 in  -- a stretch of up to forty operations over the program's five hundred buffers
theorem tW_of_L1 (V : Valuation τ sig (Elt F)) :
    after (opsC5 (F := F)) V (Proc.devRef .tc main_v83) = tW_L1 (V (Proc.devRef .tc main_arg6)) := by
  after_results
  generalize V (Proc.devRef .tc main_arg6) = A
  rfl

set_option maxHeartbeats 4000000 in  -- a stretch of up to forty operations over the program's five hundred buffers
theorem tb_of_L1 (V : Valuation τ sig (Elt F)) :
    after (opsC5 (F := F)) V (Proc.devRef .tc main_v86) = tb_L1 (V (Proc.devRef .tc main_arg7)) := by
  after_results
  generalize V (Proc.devRef .tc main_arg7) = A
  rfl

set_option maxHeartbeats 4000000 in  -- a stretch of up to forty operations over the program's five hundred buffers
theorem cW_of_L1 (V : Valuation τ sig (Elt F)) :
    after (opsC5 (F := F)) V (Proc.devRef .tc main_v91) = cW_L1 (V (Proc.devRef .tc main_arg8)) := by
  after_results
  generalize V (Proc.devRef .tc main_arg8) = A
  rfl

set_option maxHeartbeats 4000000 in  -- a stretch of up to forty operations over the program's five hundred buffers
theorem wih_of_L1 (V : Valuation τ sig (Elt F)) :
    after (opsC5 (F := F)) V (Proc.devRef .tc main_v93) = gW_L1 (V (Proc.devRef .tc main_arg9)) := by
  after_results
  generalize V (Proc.devRef .tc main_arg9) = A
  rfl

set_option maxHeartbeats 4000000 in  -- a stretch of up to forty operations over the program's five hundred buffers
theorem bih_of_L1 (V : Valuation τ sig (Elt F)) :
    after (opsC5 (F := F)) V (Proc.devRef .tc main_v95) = gb_L1 (V (Proc.devRef .tc main_arg10)) := by
  after_results
  generalize V (Proc.devRef .tc main_arg10) = A
  rfl

set_option maxHeartbeats 4000000 in  -- a stretch of up to forty operations over the program's five hundred buffers
theorem whh_of_L1 (V : Valuation τ sig (Elt F)) :
    after (opsC5 (F := F)) V (Proc.devRef .tc main_v97) = gW_L1 (V (Proc.devRef .tc main_arg11)) := by
  after_results
  generalize V (Proc.devRef .tc main_arg11) = A
  rfl

set_option maxHeartbeats 4000000 in  -- a stretch of up to forty operations over the program's five hundred buffers
theorem bhh_of_L1 (V : Valuation τ sig (Elt F)) :
    after (opsC5 (F := F)) V (Proc.devRef .tc main_v99) = gb_L1 (V (Proc.devRef .tc main_arg12)) := by
  after_results
  generalize V (Proc.devRef .tc main_arg12) = A
  rfl

set_option maxHeartbeats 4000000 in  -- a stretch of up to forty operations over the program's five hundred buffers
/-- The transformed state: the previous state beside the embedding sums through the layer's affine map. -/
theorem trans_of_L1 (V : Valuation τ sig (Elt F)) :
    after (opsC5 (F := F)) V (Proc.devRef .tc main_v89)
      = Stage.transStage (V (Proc.devRef .tc main_v70)) (V (Proc.devRef .tc main_v80)) (tW_L1 (V (Proc.devRef .tc main_arg6))) (tb_L1 (V (Proc.devRef .tc main_arg7))) := by
  after_results
  generalize V (Proc.devRef .tc main_v70) = X
  generalize V (Proc.devRef .tc main_v80) = ZE
  generalize V (Proc.devRef .tc main_arg6) = A
  generalize V (Proc.devRef .tc main_arg7) = B
  rfl

set_option maxHeartbeats 4000000 in  -- a stretch of up to forty operations over the program's five hundred buffers
/-- The convolved rows: the transformed state times the convolution weight. -/
theorem conv_of_L1 (V : Valuation τ sig (Elt F)) :
    after (opsC5 (F := F)) V (Proc.devRef .tc main_v100)
      = Stage.hStage (Stage.transStage (V (Proc.devRef .tc main_v70)) (V (Proc.devRef .tc main_v80)) (tW_L1 (V (Proc.devRef .tc main_arg6))) (tb_L1 (V (Proc.devRef .tc main_arg7))))
          (cW_L1 (V (Proc.devRef .tc main_arg8))) := by
  after_results
  generalize V (Proc.devRef .tc main_v70) = X
  generalize V (Proc.devRef .tc main_v80) = ZE
  generalize V (Proc.devRef .tc main_arg6) = A
  generalize V (Proc.devRef .tc main_arg7) = B
  generalize V (Proc.devRef .tc main_arg8) = C
  rfl

set_option maxHeartbeats 4000000 in  -- a stretch of up to forty operations over the program's five hundred buffers
/-- The messages: the convolved rows gathered at the edges' sources and added at their targets. -/
theorem pass_of_L1 (V : Valuation τ sig (Elt F)) :
    after (opsC6 (F := F)) V (Proc.devRef .tc main_v110)
      = passR (V (Proc.devRef .tc main_v1)) (V (Proc.devRef .tc main_v3)) (V (Proc.devRef .tc main_v100)) := by
  after_results
  generalize V (Proc.devRef .tc main_v1) = src
  generalize V (Proc.devRef .tc main_v3) = dst
  generalize V (Proc.devRef .tc main_v100) = h
  rfl

set_option maxHeartbeats 4000000 in  -- a stretch of up to forty operations over the program's five hundred buffers
/-- The new state: the gated recurrent update of the messages and the transformed state. -/
theorem update_of_L1 (V : Valuation τ sig (Elt F)) :
    after (opsC7 (F := F)) V (Proc.devRef .tc main_v146)
      = Stage.gruStage (V (Proc.devRef .tc main_v110)) (V (Proc.devRef .tc main_v89)) (V (Proc.devRef .tc main_v93)) (V (Proc.devRef .tc main_v95))
          (V (Proc.devRef .tc main_v97)) (V (Proc.devRef .tc main_v99)) := by
  after_results_simp
  generalize V (Proc.devRef .tc main_v110) = M
  generalize V (Proc.devRef .tc main_v89) = XT
  generalize V (Proc.devRef .tc main_v93) = Wih
  generalize V (Proc.devRef .tc main_v95) = bih
  generalize V (Proc.devRef .tc main_v97) = Whh
  generalize V (Proc.devRef .tc main_v99) = bhh
  rfl

end Stretches

/-! ## The layer in the run

The levels of the run before and after the layer's four stretches. A buffer a stretch does not write keeps its
contents through it; the program's arguments keep their launch contents throughout. -/

section Levels

variable {F : FTy → Type} [FloatOps F]

/-- The edges' source row, extracted before the first layer, is still in place after this one. -/
theorem src_L1 (m : (ℓ : Loc nD τ sig) → Buf (Elt F) ℓ) (c : Dev nD) : Lv8 m c (Proc.devRef .tc main_v1) = Lv1 m c (Proc.devRef .tc main_v1) :=
  (opsC7_keeps (Lv7 m c) (r := main_v1) (by decide)).trans <| (opsC6_keeps (Lv6 m c) (r := main_v1) (by decide)).trans <|
    (opsC5_keeps (Lv5 m c) (r := main_v1) (by decide)).trans <| (opsC4_keeps (Lv4 m c) (r := main_v1) (by decide)).trans (src_L0 m c)

/-- The edges' target row likewise. -/
theorem dst_L1 (m : (ℓ : Loc nD τ sig) → Buf (Elt F) ℓ) (c : Dev nD) : Lv8 m c (Proc.devRef .tc main_v3) = Lv1 m c (Proc.devRef .tc main_v3) :=
  (opsC7_keeps (Lv7 m c) (r := main_v3) (by decide)).trans <| (opsC6_keeps (Lv6 m c) (r := main_v3) (by decide)).trans <|
    (opsC5_keeps (Lv5 m c) (r := main_v3) (by decide)).trans <| (opsC4_keeps (Lv4 m c) (r := main_v3) (by decide)).trans (dst_L0 m c)

/-- The embedding sums, of the launch contents of the table stack and of the attribute array. -/
theorem lookup_L1_lv (m : (ℓ : Loc nD τ sig) → Buf (Elt F) ℓ) (c : Dev nD) :
    Lv5 m c (Proc.devRef .tc main_v80)
      = embSumR (plainLookupR (emb_L1 (Lv0 m c (Proc.devRef .tc main_arg5))) (Lv0 m c (Proc.devRef .tc main_arg0))) :=
  (lookup_L1 (Lv4 m c)).trans (by rw [Lv4_arg m c (r := main_arg5) (by decide), Lv4_arg m c (r := main_arg0) (by decide)])

theorem tW_L1_lv (m : (ℓ : Loc nD τ sig) → Buf (Elt F) ℓ) (c : Dev nD) : Lv6 m c (Proc.devRef .tc main_v83) = tW_L1 (Lv0 m c (Proc.devRef .tc main_arg6)) :=
  (tW_of_L1 (Lv5 m c)).trans (by rw [Lv5_arg m c (r := main_arg6) (by decide)])

theorem tb_L1_lv (m : (ℓ : Loc nD τ sig) → Buf (Elt F) ℓ) (c : Dev nD) : Lv6 m c (Proc.devRef .tc main_v86) = tb_L1 (Lv0 m c (Proc.devRef .tc main_arg7)) :=
  (tb_of_L1 (Lv5 m c)).trans (by rw [Lv5_arg m c (r := main_arg7) (by decide)])

theorem cW_L1_lv (m : (ℓ : Loc nD τ sig) → Buf (Elt F) ℓ) (c : Dev nD) : Lv6 m c (Proc.devRef .tc main_v91) = cW_L1 (Lv0 m c (Proc.devRef .tc main_arg8)) :=
  (cW_of_L1 (Lv5 m c)).trans (by rw [Lv5_arg m c (r := main_arg8) (by decide)])

theorem wih_L1_lv (m : (ℓ : Loc nD τ sig) → Buf (Elt F) ℓ) (c : Dev nD) : Lv6 m c (Proc.devRef .tc main_v93) = gW_L1 (Lv0 m c (Proc.devRef .tc main_arg9)) :=
  (wih_of_L1 (Lv5 m c)).trans (by rw [Lv5_arg m c (r := main_arg9) (by decide)])

theorem bih_L1_lv (m : (ℓ : Loc nD τ sig) → Buf (Elt F) ℓ) (c : Dev nD) : Lv6 m c (Proc.devRef .tc main_v95) = gb_L1 (Lv0 m c (Proc.devRef .tc main_arg10)) :=
  (bih_of_L1 (Lv5 m c)).trans (by rw [Lv5_arg m c (r := main_arg10) (by decide)])

theorem whh_L1_lv (m : (ℓ : Loc nD τ sig) → Buf (Elt F) ℓ) (c : Dev nD) : Lv6 m c (Proc.devRef .tc main_v97) = gW_L1 (Lv0 m c (Proc.devRef .tc main_arg11)) :=
  (whh_of_L1 (Lv5 m c)).trans (by rw [Lv5_arg m c (r := main_arg11) (by decide)])

theorem bhh_L1_lv (m : (ℓ : Loc nD τ sig) → Buf (Elt F) ℓ) (c : Dev nD) : Lv6 m c (Proc.devRef .tc main_v99) = gb_L1 (Lv0 m c (Proc.devRef .tc main_arg12)) :=
  (bhh_of_L1 (Lv5 m c)).trans (by rw [Lv5_arg m c (r := main_arg12) (by decide)])

/-- The transformed state, of the previous layer's state, the embedding sums and the two parameter buffers. -/
theorem trans_L1_lv (m : (ℓ : Loc nD τ sig) → Buf (Elt F) ℓ) (c : Dev nD) :
    Lv6 m c (Proc.devRef .tc main_v89)
      = Stage.transStage (Lv4 m c (Proc.devRef .tc main_v70)) (Lv5 m c (Proc.devRef .tc main_v80)) (Lv6 m c (Proc.devRef .tc main_v83)) (Lv6 m c (Proc.devRef .tc main_v86)) :=
  (trans_of_L1 (Lv5 m c)).trans (by
    rw [show Lv6 m c (Proc.devRef .tc main_v83) = _ from tW_of_L1 (Lv5 m c), show Lv6 m c (Proc.devRef .tc main_v86) = _ from tb_of_L1 (Lv5 m c),
      show Lv5 m c (Proc.devRef .tc main_v70) = Lv4 m c (Proc.devRef .tc main_v70) from opsC4_keeps (Lv4 m c) (r := main_v70) (by decide)])

/-- The convolved rows, of the transformed state and the convolution weight buffer. -/
theorem conv_L1_lv (m : (ℓ : Loc nD τ sig) → Buf (Elt F) ℓ) (c : Dev nD) :
    Lv6 m c (Proc.devRef .tc main_v100) = Stage.hStage (Lv6 m c (Proc.devRef .tc main_v89)) (Lv6 m c (Proc.devRef .tc main_v91)) :=
  (conv_of_L1 (Lv5 m c)).trans (by
    rw [show Lv6 m c (Proc.devRef .tc main_v89) = _ from trans_of_L1 (Lv5 m c), show Lv6 m c (Proc.devRef .tc main_v91) = _ from cW_of_L1 (Lv5 m c)])

/-- The layer's messages: the edge pass, over the edge rows extracted before the first layer, of the convolved rows. -/
theorem pass1R (m : (ℓ : Loc nD τ sig) → Buf (Elt F) ℓ) (c : Dev nD) :
    Lv7 m c (Proc.devRef .tc main_v110)
      = passR (Lv1 m c (Proc.devRef .tc main_v1)) (Lv1 m c (Proc.devRef .tc main_v3)) (Lv6 m c (Proc.devRef .tc main_v100)) :=
  (pass_of_L1 (Lv6 m c)).trans (by
    rw [show Lv6 m c (Proc.devRef .tc main_v1) = Lv1 m c (Proc.devRef .tc main_v1) from
          (opsC5_keeps (Lv5 m c) (r := main_v1) (by decide)).trans <| (opsC4_keeps (Lv4 m c) (r := main_v1) (by decide)).trans (src_L0 m c),
      show Lv6 m c (Proc.devRef .tc main_v3) = Lv1 m c (Proc.devRef .tc main_v3) from
          (opsC5_keeps (Lv5 m c) (r := main_v3) (by decide)).trans <| (opsC4_keeps (Lv4 m c) (r := main_v3) (by decide)).trans (dst_L0 m c)])

/-- The layer's new state, of the messages, the transformed state and the four gate parameter buffers. -/
theorem update_L1_lv (m : (ℓ : Loc nD τ sig) → Buf (Elt F) ℓ) (c : Dev nD) :
    Lv8 m c (Proc.devRef .tc main_v146)
      = Stage.gruStage (Lv7 m c (Proc.devRef .tc main_v110)) (Lv6 m c (Proc.devRef .tc main_v89)) (Lv6 m c (Proc.devRef .tc main_v93)) (Lv6 m c (Proc.devRef .tc main_v95))
          (Lv6 m c (Proc.devRef .tc main_v97)) (Lv6 m c (Proc.devRef .tc main_v99)) :=
  (update_of_L1 (Lv7 m c)).trans (by
    rw [show Lv7 m c (Proc.devRef .tc main_v89) = Lv6 m c (Proc.devRef .tc main_v89) from opsC6_keeps (Lv6 m c) (r := main_v89) (by decide),
      show Lv7 m c (Proc.devRef .tc main_v93) = Lv6 m c (Proc.devRef .tc main_v93) from opsC6_keeps (Lv6 m c) (r := main_v93) (by decide),
      show Lv7 m c (Proc.devRef .tc main_v95) = Lv6 m c (Proc.devRef .tc main_v95) from opsC6_keeps (Lv6 m c) (r := main_v95) (by decide),
      show Lv7 m c (Proc.devRef .tc main_v97) = Lv6 m c (Proc.devRef .tc main_v97) from opsC6_keeps (Lv6 m c) (r := main_v97) (by decide),
      show Lv7 m c (Proc.devRef .tc main_v99) = Lv6 m c (Proc.devRef .tc main_v99) from opsC6_keeps (Lv6 m c) (r := main_v99) (by decide)])

end Levels

/-! ## The layer on the extended reals

Read as matrices of extended reals, the layer's new state is the layer function of the specification applied to the
transformed state and the layer's parameters, the edge pass being the reference's own gather and scatter-add over the
edge rows. Row by row: the update stage at (r, q) is the gated update of row r of the messages and row r of the
transformed state; row r of the transformed state is the affine map of row r of the previous state beside row r of
the embedding sums; and the messages are the edge pass of the convolved rows, whose row r is row r of the transformed
state times the convolution weight. -/

section Ideal

/-- Row r of the transformed state is the specification's transform of row r. -/
theorem trans_row_L1 (X ZE : (⟨S100000x64, .f32⟩ : BufTy).Contents (Elt Ideal)) (TW : (⟨S128x64, .f32⟩ : BufTy).Contents (Elt Ideal))
    (TB : (⟨S64, .f32⟩ : BufTy).Contents (Elt Ideal)) (r : Fin 100000) :
    (fun k => Stage.transStage (F := Ideal) X ZE TW TB (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r :=
  funext fun k => Stage.transStage_apply X ZE TW TB r k

/-- The convolved rows are the specification's convolution of the transformed state, laid out as an array. -/
theorem conv_arr_L1 (X ZE : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal)) :
    (Stage.hStage (F := Ideal) (Stage.transStage X ZE TW TB) CW : Cert.Sem.Arr 100000 64)
      = Cert.Sem.ofMat (Cert.Sem.conv
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))) := by
  refine Cert.Sem.arr_ext fun r q => ?_
  refine (Stage.hStage_apply (Stage.transStage X ZE TW TB) CW r q).trans ?_
  rw [trans_row_L1 X ZE TW TB r]
  rfl

/-- The update stage over the edge pass of the convolved rows, read as a matrix, is the specification's layer: the
    statement over arrays named once, none of them opened. -/
theorem layer_arr_L1 (src dst : (⟨S1600000, .i32⟩ : BufTy).Contents (Elt Ideal))
    (X ZE O M H XT : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal))
    (Wih Whh : (⟨S64x192, .f32⟩ : BufTy).Contents (Elt Ideal)) (bih bhh : (⟨S192, .f32⟩ : BufTy).Contents (Elt Ideal))
    (hO : O = Stage.gruStage M XT Wih bih Whh bhh) (hM : M = passR src dst H) (hH : H = Stage.hStage XT CW)
    (hXT : XT = Stage.transStage X ZE TW TB) :
    Cert.Sem.toMat (O : Cert.Sem.Arr 100000 64)
      = Cert.Sem.layerOf (passR (F := Ideal) src dst)
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))
          (Cert.Sem.toMat (Wih : Cert.Sem.Arr 64 192)) (Cert.Sem.toVec bih)
          (Cert.Sem.toMat (Whh : Cert.Sem.Arr 64 192)) (Cert.Sem.toVec bhh) := by
  have hrow : ∀ r : Fin 100000, (fun k => XT (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r := fun r => by
    rw [hXT]; exact trans_row_L1 X ZE TW TB r
  have hconv : H = Cert.Sem.ofMat (Cert.Sem.conv
        (Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB))
        (Cert.Sem.toMat (CW : Cert.Sem.Arr 64 64))) := by
    rw [hH, hXT]; exact conv_arr_L1 X ZE TW TB CW
  funext r q
  show O (ix2 r q) = _
  rw [hO]
  refine (Stage.gruStage_apply M XT Wih bih Whh bhh r q).trans ?_
  rw [hrow r, hM, hconv]
  rfl

/-- The layer's new state is the specification's layer applied to the transformed state. -/
theorem layer1R (m : (ℓ : Loc nD τ sig) → Buf (Elt Ideal) ℓ) (c : Dev nD) :
    Cert.Sem.toMat (Lv8 m c (Proc.devRef .tc main_v146) : Cert.Sem.Arr 100000 64)
      = Cert.Sem.layerOf (passR (F := Ideal) (Lv1 m c (Proc.devRef .tc main_v1)) (Lv1 m c (Proc.devRef .tc main_v3)))
          (Cert.Sem.transform (Cert.Sem.toMat (Lv4 m c (Proc.devRef .tc main_v70) : Cert.Sem.Arr 100000 64))
            (Cert.Sem.toMat (Lv5 m c (Proc.devRef .tc main_v80) : Cert.Sem.Arr 100000 64))
            (Cert.Sem.toMat (Lv6 m c (Proc.devRef .tc main_v83) : Cert.Sem.Arr 128 64)) (Cert.Sem.toVec (Lv6 m c (Proc.devRef .tc main_v86))))
          (Cert.Sem.toMat (Lv6 m c (Proc.devRef .tc main_v91) : Cert.Sem.Arr 64 64))
          (Cert.Sem.toMat (Lv6 m c (Proc.devRef .tc main_v93) : Cert.Sem.Arr 64 192)) (Cert.Sem.toVec (Lv6 m c (Proc.devRef .tc main_v95)))
          (Cert.Sem.toMat (Lv6 m c (Proc.devRef .tc main_v97) : Cert.Sem.Arr 64 192)) (Cert.Sem.toVec (Lv6 m c (Proc.devRef .tc main_v99))) :=
  layer_arr_L1 _ _ _ _ _ _ _ _ _ _ _ _ _ _ _ (update_L1_lv m c) (pass1R m c) (conv_L1_lv m c) (trans_L1_lv m c)

end Ideal

end Cert.ReferenceIdeal.Layers

end
-- ==== Proof.CrossL1.lean ====
import proofs.«157269_j2267742732766_1_alg».proof.Proof.CrossL0
import proofs.«157269_j2267742732766_1_alg».proof.Proof.KL1
import proofs.«157269_j2267742732766_1_alg».proof.Proof.RL1

/-!
# Layer 1 of the two programs agrees

Each layer after the first transforms the previous state and the layer's embedding sums through the layer's affine
map, then convolves, passes messages along the edges and updates. Both programs' layer theorems state the layer's
result as the specification's layer function of the buffers the host stretches leave; those buffers are, on each
side, the same functions of the launch arguments, the launch arguments agree, and the previous states agree by the
layer before.
-/

noncomputable section

namespace Cert.Cross

open Idealize.ShloMosaic Idealize.ShloMosaic.ValueIdx Idealize.SL.Sem

/-! ## The layer's slices: the same functions in both programs -/

section Pairs
variable {F : FTy → Type} [FloatOps F] [Cert.KernelIdeal.Facts₀] [Cert.ReferenceIdeal.Facts₀]

theorem table_L1_eq (a : (⟨Cert.KernelIdeal.S5x100x64, .f32⟩ : BufTy).Contents (Elt F)) :
    Cert.KernelIdeal.Layers.table_L1 a = Cert.ReferenceIdeal.Layers.emb_L1 a := rfl
theorem tW_L1_eq (a : (⟨Cert.KernelIdeal.S4x128x64, .f32⟩ : BufTy).Contents (Elt F)) :
    Cert.KernelIdeal.Layers.tWOf_L1 a = Cert.ReferenceIdeal.Layers.tW_L1 a := rfl
theorem cW_L1_eq (a : (⟨Cert.KernelIdeal.S5x64x64, .f32⟩ : BufTy).Contents (Elt F)) :
    Cert.KernelIdeal.Layers.cWOf_L1 a = Cert.ReferenceIdeal.Layers.cW_L1 a := rfl
theorem gateW_L1_eq (a : (⟨Cert.KernelIdeal.S5x64x192, .f32⟩ : BufTy).Contents (Elt F)) :
    Cert.KernelIdeal.Layers.gateW_L1 a = Cert.ReferenceIdeal.Layers.gW_L1 a := rfl
theorem tb_L1_row (a : (⟨Cert.KernelIdeal.S4x64, .f32⟩ : BufTy).Contents (Elt F)) :
    Cert.KernelIdeal.Layers.tbOf_L1 a
      = shapeCast Cert.KernelIdeal.S1x64 (Cert.ReferenceIdeal.Layers.tb_L1 a) Cert.KernelIdeal.Facts₀.shapeCasts_S64_S1x64 := rfl
theorem gateB_L1_row (a : (⟨Cert.KernelIdeal.S5x192, .f32⟩ : BufTy).Contents (Elt F)) :
    Cert.KernelIdeal.Layers.gateB_L1 a
      = shapeCast Cert.KernelIdeal.S1x192 (Cert.ReferenceIdeal.Layers.gb_L1 a) Cert.KernelIdeal.Facts₀.shapeCasts_S192_S1x192 := rfl

end Pairs

/-- The bias of the layer's affine map: the tiled program's one-row array read as a row is the reference's vector. -/
theorem tb_L1_eq [Cert.KernelIdeal.Facts₀] [Cert.ReferenceIdeal.Facts₀] (a : (⟨Cert.KernelIdeal.S4x64, .f32⟩ : BufTy).Contents (Elt Ideal)) :
    Cert.Sem.toRow (Cert.KernelIdeal.Layers.tbOf_L1 (F := Ideal) a) = Cert.Sem.toVec (Cert.ReferenceIdeal.Layers.tb_L1 (F := Ideal) a) := by
  rw [tb_L1_row]
  exact Cert.LibRowVec.toRow_shapeCast _ _

/-- A gate bias of the layer, likewise. -/
theorem gateB_L1_eq [Cert.KernelIdeal.Facts₀] [Cert.ReferenceIdeal.Facts₀] (a : (⟨Cert.KernelIdeal.S5x192, .f32⟩ : BufTy).Contents (Elt Ideal)) :
    Cert.Sem.toRow (Cert.KernelIdeal.Layers.gateB_L1 (F := Ideal) a) = Cert.Sem.toVec (Cert.ReferenceIdeal.Layers.gb_L1 (F := Ideal) a) := by
  rw [gateB_L1_row]
  exact Cert.LibRowVec.toRow_shapeCast _ _

/-! ## The layer -/

section Chain
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- LAYER 1: the states the two programs leave agree. -/
theorem x1 (hz : InRange m) (hag : Agree m m') (c : Dev Cert.KernelIdeal.nD) :
    (Cert.KernelIdeal.Gen.W12 m ρ c (Proc.devRef .tc Cert.KernelIdeal.main_v64) : Cert.Sem.Arr 100000 64)
      = (Cert.ReferenceIdeal.RunV.Lv8 m' c (Proc.devRef .tc Cert.ReferenceIdeal.main_v146) : Cert.Sem.Arr 100000 64) := by
  obtain ⟨h0, h1, h2, h3, h4, h5, h6, h7, h8, h9, h10, h11, h12, -⟩ := hag c
  apply Cert.Sem.toMat_inj
  refine (Cert.KernelIdeal.Layers.layer1 m ρ c).trans (Eq.trans ?_ (Cert.ReferenceIdeal.Layers.layer1R m' c).symm)
  refine layerOf_congr (passes_eq m ρ m' hag c) (transform_congr ?_ ?_ ?_ ?_) ?_ ?_ ?_ ?_ ?_
  · exact congrArg (Cert.Sem.toMat (R := 100000) (C := 64)) (x0 m ρ m' hz hag c)
  · exact congrArg (Cert.Sem.toMat (R := 100000) (C := 64))
      ((Cert.KernelIdeal.Layers.emb_L1 m ρ c).trans
        ((embSums_eq _ _ ((table_L1_eq _).trans (congrArg (Cert.ReferenceIdeal.Layers.emb_L1 (F := Ideal)) h5.symm)) _ _ h0.symm (hz c)).trans
          (Cert.ReferenceIdeal.Layers.lookup_L1_lv m' c).symm))
  · exact congrArg (Cert.Sem.toMat (R := 128) (C := 64))
      (leaf (Cert.KernelIdeal.Layers.tW_L1 m ρ c) (Cert.ReferenceIdeal.Layers.tW_L1_lv m' c) (fun a => tW_L1_eq a) h6)
  · exact leafRow (Cert.KernelIdeal.Layers.tb_L1 m ρ c) (Cert.ReferenceIdeal.Layers.tb_L1_lv m' c) (fun a => tb_L1_eq a) h7
  · exact congrArg (Cert.Sem.toMat (R := 64) (C := 64))
      (leaf (Cert.KernelIdeal.Layers.cW_L1 m ρ c) (Cert.ReferenceIdeal.Layers.cW_L1_lv m' c) (fun a => cW_L1_eq a) h8)
  · exact congrArg (Cert.Sem.toMat (R := 64) (C := 192))
      (leaf (Cert.KernelIdeal.Layers.wih_L1 m ρ c) (Cert.ReferenceIdeal.Layers.wih_L1_lv m' c) (fun a => gateW_L1_eq a) h9)
  · exact leafRow (Cert.KernelIdeal.Layers.bih_L1 m ρ c) (Cert.ReferenceIdeal.Layers.bih_L1_lv m' c) (fun a => gateB_L1_eq a) h10
  · exact congrArg (Cert.Sem.toMat (R := 64) (C := 192))
      (leaf (Cert.KernelIdeal.Layers.whh_L1 m ρ c) (Cert.ReferenceIdeal.Layers.whh_L1_lv m' c) (fun a => gateW_L1_eq a) h11)
  · exact leafRow (Cert.KernelIdeal.Layers.bhh_L1 m ρ c) (Cert.ReferenceIdeal.Layers.bhh_L1_lv m' c) (fun a => gateB_L1_eq a) h12

end Chain

end Cert.Cross

end
-- ==== Proof.KReg4.lean ====
/-
  The transformed row of a layer after the first, and its product with the layer's message matrix.

  The region walks the 100000 rows in ten blocks of 10000. At each block it reads the same rows of the previous
  state and of the embedding sums, and three whole arrays: the 128 x 64 weight of the layer's affine map, its
  1 x 64 bias row and the 64 x 64 message matrix. It writes back the transformed block (previous state beside
  embedding sum, through the affine map) and that block times the message matrix. The ten blocks are disjoint and
  fill the array, so each output array ends holding at row r a function of row r of the two row-blocked inputs
  and of the three whole arrays.

  Per output array: the printed index maps of the seven windows are related once over the ten points; what one
  point writes back is that point's block of one whole-array function; membership in a block is a range of rows;
  row r lies in the block of point r / 10000; the whole-array statement follows from the cover.
-/
import proofs.«157269_j2267742732766_1_alg».proof.Proof.Gen.KernelIdeal.Frame
import proofs.«157269_j2267742732766_1_alg».proof.Proof.Rows
import proofs.«157269_j2267742732766_1_alg».proof.Proof.KPayA
import Idealize.ShloMosaic.Lib.Pipeline.Value
import Idealize.ShloMosaic.Lib.ValueIdx

set_option maxRecDepth 16384

noncomputable section

namespace Cert.KernelIdeal.Reg4

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-! ## The row functions the two output arrays end holding -/

/-- The transformed row: at row `r`, column `q`, the previous state's row beside the embedding sums' row, through
    the affine map. -/
def transRow (A0 A1 : S100000x64.Idx → Elt Ideal .f32) (A2 : S128x64.Idx → Elt Ideal .f32)
    (A3 : S1x64.Idx → Elt Ideal .f32) : S100000x64.Idx → Elt Ideal .f32 :=
  fun i => Cert.Rows.trans (fun k : Fin 64 => A0 (ix2 (i 0 : Fin 100000) k))
    (fun k : Fin 64 => A1 (ix2 (i 0 : Fin 100000) k)) (fun (k : Fin 128) (n : Fin 64) => A2 (ix2 k n))
    (fun n : Fin 64 => A3 (ix2 (0 : Fin 1) n)) (i 1 : Fin 64)

/-- The transformed row times the message matrix. -/
def transDot (A0 A1 : S100000x64.Idx → Elt Ideal .f32) (A2 : S128x64.Idx → Elt Ideal .f32)
    (A3 : S1x64.Idx → Elt Ideal .f32) (A4 : S64x64.Idx → Elt Ideal .f32) : S100000x64.Idx → Elt Ideal .f32 :=
  fun i => Cert.Rows.dot
    (fun j : Fin 64 => Cert.Rows.trans (fun k : Fin 64 => A0 (ix2 (i 0 : Fin 100000) k))
      (fun k : Fin 64 => A1 (ix2 (i 0 : Fin 100000) k)) (fun (k : Fin 128) (n : Fin 64) => A2 (ix2 k n))
      (fun n : Fin 64 => A3 (ix2 (0 : Fin 1) n)) j)
    (fun (k n : Fin 64) => A4 (ix2 k n)) (i 1 : Fin 64)

/-- A row times a matrix depends only on the row's entries, the matrix's entries and the column. -/
theorem dot_congr {K N : ℕ} {x x' : Fin K → EReal} {W W' : Fin K → Fin N → EReal} {c c' : Fin N}
    (hx : ∀ k, x k = x' k) (hW : ∀ k n, W k n = W' k n) (hc : c = c') :
    Cert.Rows.dot x W c = Cert.Rows.dot x' W' c' := by
  subst hc
  have ex : x = x' := funext hx
  have eW : W = W' := funext fun k => funext fun n => hW k n
  rw [ex, eW]

/-- The transformed row depends only on the entries of its two rows, of the weight and of the bias, and the column. -/
theorem trans_congr {x x' ze ze' : Fin 64 → EReal} {tW tW' : Fin 128 → Fin 64 → EReal} {tb tb' : Fin 64 → EReal}
    {c c' : Fin 64} (hx : ∀ k, x k = x' k) (hze : ∀ k, ze k = ze' k) (hW : ∀ k n, tW k n = tW' k n)
    (hb : ∀ n, tb n = tb' n) (hc : c = c') :
    Cert.Rows.trans x ze tW tb c = Cert.Rows.trans x' ze' tW' tb' c' := by
  subst hc
  have ex : x = x' := funext hx
  have eze : ze = ze' := funext hze
  have eW : tW = tW' := funext fun k => funext fun n => hW k n
  have eb : tb = tb' := funext hb
  rw [ex, eze, eW, eb]

/-! ## The index maps, once over the grid -/

/-- The zero offsets of a whole-buffer access, as a constant function. -/
theorem zero_off : (![0, 0] : Fin 2 → Nat) = fun _ => 0 := funext fun a => by fin_cases a <;> rfl

/-- At point `t` the four row-blocked windows sit at block `(t, 0)`, the three whole-array windows at `(0, 0)`. -/
theorem index_maps : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-! ## The input windows' blocks, read off their arrays -/

/-- Row `p` of the block of the previous state at point `t` is row `10000 t + p` of the array. -/
theorem prev_block (c : Dev nD) (t : Fin cfg4.N) (p : Fin 10000) (k : Fin 64) (r : Fin 100000)
    (hr : r.val = t.val * 10000 + p.val) :
    (iblk4 V c 0 t : Vec Ideal S10000x64 .f32) (ix2 p k)
      = (V c main_v64 : S100000x64.Idx → Elt Ideal .f32) (ix2 r k) := by
  obtain ⟨e0, e1, -⟩ := index_maps t
  unfold iblk4
  rw [View.read_apply]
  show V c main_v64 _ = V c main_v64 _
  congr 1
  funext a
  apply Fin.ext
  match a with
  | ⟨0, _⟩ => show win4_0.index t (0 : Fin 2) * 10000 + 1 * p.val = r.val; omega
  | ⟨1, _⟩ => show win4_0.index t (1 : Fin 2) * 64 + 1 * k.val = k.val; omega

/-- Row `p` of the block of the embedding sums at point `t` is row `10000 t + p` of the array. -/
theorem sums_block (c : Dev nD) (t : Fin cfg4.N) (p : Fin 10000) (k : Fin 64) (r : Fin 100000)
    (hr : r.val = t.val * 10000 + p.val) :
    (iblk4 V c 1 t : Vec Ideal S10000x64 .f32) (ix2 p k)
      = (V c main_v68 : S100000x64.Idx → Elt Ideal .f32) (ix2 r k) := by
  obtain ⟨-, -, e0, e1, -⟩ := index_maps t
  unfold iblk4
  rw [View.read_apply]
  show V c main_v68 _ = V c main_v68 _
  congr 1
  funext a
  apply Fin.ext
  match a with
  | ⟨0, _⟩ => show win4_1.index t (0 : Fin 2) * 10000 + 1 * p.val = r.val; omega
  | ⟨1, _⟩ => show win4_1.index t (1 : Fin 2) * 64 + 1 * k.val = k.val; omega

/-- The weight window's block at every point is the weight. -/
theorem weight_block (c : Dev nD) (t : Fin cfg4.N) (k : Fin 128) (n : Fin 64) :
    (iblk4 V c 2 t : Vec Ideal S128x64 .f32) (ix2 k n)
      = (V c main_v73 : S128x64.Idx → Elt Ideal .f32) (ix2 k n) := by
  obtain ⟨-, -, -, -, e0, e1, -⟩ := index_maps t
  unfold iblk4
  rw [View.read_apply]
  show V c main_v73 _ = V c main_v73 _
  congr 1
  funext a
  apply Fin.ext
  match a with
  | ⟨0, _⟩ => show win4_2.index t (0 : Fin 2) * 128 + 1 * k.val = k.val; omega
  | ⟨1, _⟩ => show win4_2.index t (1 : Fin 2) * 64 + 1 * n.val = n.val; omega

/-- The bias window's block at every point is the bias row. -/
theorem bias_block (c : Dev nD) (t : Fin cfg4.N) (k : Fin 1) (n : Fin 64) :
    (iblk4 V c 3 t : Vec Ideal S1x64 .f32) (ix2 k n)
      = (V c main_v71 : S1x64.Idx → Elt Ideal .f32) (ix2 k n) := by
  obtain ⟨-, -, -, -, -, -, e0, e1, -⟩ := index_maps t
  unfold iblk4
  rw [View.read_apply]
  show V c main_v71 _ = V c main_v71 _
  congr 1
  funext a
  apply Fin.ext
  match a with
  | ⟨0, _⟩ => show win4_3.index t (0 : Fin 2) * 1 + 1 * k.val = k.val; omega
  | ⟨1, _⟩ => show win4_3.index t (1 : Fin 2) * 64 + 1 * n.val = n.val; omega

/-- The message matrix window's block at every point is the matrix. -/
theorem matrix_block (c : Dev nD) (t : Fin cfg4.N) (k n : Fin 64) :
    (iblk4 V c 4 t : Vec Ideal S64x64 .f32) (ix2 k n)
      = (V c main_v75 : S64x64.Idx → Elt Ideal .f32) (ix2 k n) := by
  obtain ⟨-, -, -, -, -, -, -, -, e0, e1, -⟩ := index_maps t
  unfold iblk4
  rw [View.read_apply]
  show V c main_v75 _ = V c main_v75 _
  congr 1
  funext a
  apply Fin.ext
  match a with
  | ⟨0, _⟩ => show win4_4.index t (0 : Fin 2) * 64 + 1 * k.val = k.val; omega
  | ⟨1, _⟩ => show win4_4.index t (1 : Fin 2) * 64 + 1 * n.val = n.val; omega

/-! ## The body's two payloads at an index of the block -/

/-- The first payload at row `j 0`, column `j 1`: the transformed row of the loaded blocks. -/
theorem trans_at (x0 x1 : Vec Ideal S10000x64 .f32) (x2 : Vec Ideal S128x64 .f32) (x3 : Vec Ideal S1x64 .f32)
    (j : S10000x64.Idx) :
    k4_pay1 (F := Ideal) x0 x1 x2 x3 j
      = Cert.Rows.trans (fun k : Fin 64 => x0 (ix2 (j 0 : Fin 10000) k)) (fun k : Fin 64 => x1 (ix2 (j 0 : Fin 10000) k))
          (fun (k : Fin 128) (n : Fin 64) => x2 (ix2 k n)) (fun n : Fin 64 => x3 (ix2 (0 : Fin 1) n)) (j 1 : Fin 64) := by
  obtain ⟨p, q, rfl⟩ : ∃ (p : Fin 10000) (q : Fin 64), j = ix2 p q := ⟨j 0, j 1, eq_ix2 j⟩
  exact Pay.k4_pay1_apply x0 x1 x2 x3 p q

/-- The second payload: the transformed row times the loaded message matrix. -/
theorem transDot_at (x0 x1 : Vec Ideal S10000x64 .f32) (x2 : Vec Ideal S128x64 .f32) (x3 : Vec Ideal S1x64 .f32)
    (x4 : Vec Ideal S64x64 .f32) (j : S10000x64.Idx) :
    k4_pay2 (F := Ideal) x0 x1 x2 x3 x4 j
      = Cert.Rows.dot
          (fun i : Fin 64 => Cert.Rows.trans (fun k : Fin 64 => x0 (ix2 (j 0 : Fin 10000) k))
            (fun k : Fin 64 => x1 (ix2 (j 0 : Fin 10000) k)) (fun (k : Fin 128) (n : Fin 64) => x2 (ix2 k n))
            (fun n : Fin 64 => x3 (ix2 (0 : Fin 1) n)) i)
          (fun (k n : Fin 64) => x4 (ix2 k n)) (j 1 : Fin 64) := by
  obtain ⟨p, q, rfl⟩ : ∃ (p : Fin 10000) (q : Fin 64), j = ix2 p q := ⟨j 0, j 1, eq_ix2 j⟩
  exact Pay.k4_pay2_apply x0 x1 x2 x3 x4 p q

/-! ## Output window 5: the transformed rows -/

/-- What point `t` writes back through window 5 is block `t` of the transformed rows. -/
theorem flushed5_eq (c : Dev nD) (t : Fin cfg4.N) :
    (dat4 V c).flushed 5 t = ((cfg4.win 5).blk t).view.read (Elt Ideal)
      (transRow (V c main_v64) (V c main_v68) (V c main_v73) (V c main_v71)) := by
  show (cfg4.win 5).cut (grid4.coords t) ((dat4 V c).after 5 t) = _
  rw [after4_5]
  unfold out4_5
  rw [View.canon_unit_zero zero_off]
  simp only [View.ld_unit_zero (S := S10000x64) zero_off, View.ld_unit_zero (S := S128x64) zero_off,
    View.ld_unit_zero (S := S1x64) zero_off]
  obtain ⟨-, -, -, -, -, -, -, -, -, -, e0, e1, -⟩ := index_maps t
  funext j
  refine (trans_at _ _ _ _ _).trans ?_
  show Cert.Rows.trans _ _ _ _ _
    = transRow (V c main_v64) (V c main_v68) (V c main_v73) (V c main_v71) (((cfg4.win 5).blk t).view.emb j)
  unfold transRow
  refine trans_congr (fun k => ?_) (fun k => ?_) (fun k n => ?_) (fun n => ?_) ?_
  · refine prev_block V c t _ k _ ?_
    show win4_5.index t (0 : Fin 2) * 10000 + 1 * (j 0).val = t.val * 10000 + (j 0).val
    omega
  · refine sums_block V c t _ k _ ?_
    show win4_5.index t (0 : Fin 2) * 10000 + 1 * (j 0).val = t.val * 10000 + (j 0).val
    omega
  · exact weight_block V c t k n
  · exact bias_block V c t 0 n
  · apply Fin.ext
    show (j 1).val = win4_5.index t (1 : Fin 2) * 64 + 1 * (j 1).val
    omega

/-- An index is in point `t`'s block of window 5 iff each coordinate is in the block's range on its axis. -/
theorem mem_blk5 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v76_0).slice (win4_5.rect t)).set ↔ _
  rw [View.set_slice_whole, Rect.mem_set_unit]
  exact Iff.rfl

/-- Row `r` lies in the block of point `r / 10000`. -/
theorem cover5 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; rw [hN]; omega⟩
  refine ⟨t, flush4_5 t, ?_⟩
  rw [mem_blk5]
  obtain ⟨-, -, -, -, -, -, -, -, -, -, e0, e1, -⟩ := index_maps t
  have ht : t.val = (i 0).val / 10000 := rfl
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The first output array after the region: the transformed rows. -/
theorem array5 (c : Dev nD) :
    (dat4 V c).arrAt 5 cfg4.N = transRow (V c main_v64) (V c main_v68) (V c main_v73) (V c main_v71) :=
  (dat4 V c).arrAt_eq_of_cover 5 (transRow (V c main_v64) (V c main_v68) (V c main_v73) (V c main_v71))
    (fun t _ => flushed5_eq V c t) cover5

/-! ## Output window 6: the transformed rows times the message matrix -/

/-- What point `t` writes back through window 6 is block `t` of "transformed row times matrix". -/
theorem flushed6_eq (c : Dev nD) (t : Fin cfg4.N) :
    (dat4 V c).flushed 6 t = ((cfg4.win 6).blk t).view.read (Elt Ideal)
      (transDot (V c main_v64) (V c main_v68) (V c main_v73) (V c main_v71) (V c main_v75)) := by
  show (cfg4.win 6).cut (grid4.coords t) ((dat4 V c).after 6 t) = _
  rw [after4_6]
  unfold out4_6
  rw [View.canon_unit_zero zero_off]
  simp only [View.ld_unit_zero (S := S10000x64) zero_off, View.ld_unit_zero (S := S128x64) zero_off,
    View.ld_unit_zero (S := S1x64) zero_off, View.ld_unit_zero (S := S64x64) zero_off]
  obtain ⟨-, -, -, -, -, -, -, -, -, -, -, -, e0, e1⟩ := index_maps t
  funext j
  refine (transDot_at _ _ _ _ _ _).trans ?_
  show Cert.Rows.dot _ _ _
    = transDot (V c main_v64) (V c main_v68) (V c main_v73) (V c main_v71) (V c main_v75)
        (((cfg4.win 6).blk t).view.emb j)
  unfold transDot
  refine dot_congr (fun i => trans_congr (fun k => ?_) (fun k => ?_) (fun k n => ?_) (fun n => ?_) rfl)
    (fun k n => ?_) ?_
  · refine prev_block V c t _ k _ ?_
    show win4_6.index t (0 : Fin 2) * 10000 + 1 * (j 0).val = t.val * 10000 + (j 0).val
    omega
  · refine sums_block V c t _ k _ ?_
    show win4_6.index t (0 : Fin 2) * 10000 + 1 * (j 0).val = t.val * 10000 + (j 0).val
    omega
  · exact weight_block V c t k n
  · exact bias_block V c t 0 n
  · exact matrix_block V c t k n
  · apply Fin.ext
    show (j 1).val = win4_6.index t (1 : Fin 2) * 64 + 1 * (j 1).val
    omega

/-- An index is in point `t`'s block of window 6 iff each coordinate is in the block's range on its axis. -/
theorem mem_blk6 (t : Fin cfg4.N) (i : S100000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v76_1).slice (win4_6.rect t)).set ↔ _
  rw [View.set_slice_whole, Rect.mem_set_unit]
  exact Iff.rfl

/-- Row `r` lies in the block of point `r / 10000`. -/
theorem cover6 (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; rw [hN]; omega⟩
  refine ⟨t, flush4_6 t, ?_⟩
  rw [mem_blk6]
  obtain ⟨-, -, -, -, -, -, -, -, -, -, -, -, e0, e1⟩ := index_maps t
  have ht : t.val = (i 0).val / 10000 := rfl
  intro a
  match a with
  | ⟨0, _⟩ => show win4_6.index t (0 : Fin 2) * 10000 ≤ (i 0).val ∧ (i 0).val < win4_6.index t (0 : Fin 2) * 10000 + 10000; omega
  | ⟨1, _⟩ => show win4_6.index t (1 : Fin 2) * 64 ≤ (i 1).val ∧ (i 1).val < win4_6.index t (1 : Fin 2) * 64 + 64; omega

/-- The second output array after the region: the transformed rows times the message matrix. -/
theorem array6 (c : Dev nD) :
    (dat4 V c).arrAt 6 cfg4.N
      = transDot (V c main_v64) (V c main_v68) (V c main_v73) (V c main_v71) (V c main_v75) :=
  (dat4 V c).arrAt_eq_of_cover 6
    (transDot (V c main_v64) (V c main_v68) (V c main_v73) (V c main_v71) (V c main_v75))
    (fun t _ => flushed6_eq V c t) cover6

/-! ## The two arrays, index by index -/

/-- The first output array holds, at row `r`, the transformed row. -/
theorem out5 (c : Dev nD) (r : Fin 100000) (q : Fin 64) :
    (dat4 V c).arrAt 5 cfg4.N (ix2 r q)
      = Cert.Rows.trans (fun k => V c main_v64 (ix2 r k)) (fun k => V c main_v68 (ix2 r k))
          (fun k n => V c main_v73 (ix2 k n)) (fun n => V c main_v71 (ix2 0 n)) q :=
  congrFun (array5 V c) (ix2 r q)

/-- The second output array holds, at row `r`, the transformed row times the message matrix. -/
theorem out6 (c : Dev nD) (r : Fin 100000) (q : Fin 64) :
    (dat4 V c).arrAt 6 cfg4.N (ix2 r q)
      = Cert.Rows.dot
          (fun j => Cert.Rows.trans (fun k => V c main_v64 (ix2 r k)) (fun k => V c main_v68 (ix2 r k))
            (fun k n => V c main_v73 (ix2 k n)) (fun n => V c main_v71 (ix2 0 n)) j)
          (fun k n => V c main_v75 (ix2 k n)) q :=
  congrFun (array6 V c) (ix2 r q)

end Cert.KernelIdeal.Reg4

end
-- ==== Proof.KReg5.lean ====
import proofs.«157269_j2267742732766_1_alg».proof.Proof.Gen.KernelIdeal.Frame
import proofs.«157269_j2267742732766_1_alg».proof.Proof.Rows
import proofs.«157269_j2267742732766_1_alg».proof.Proof.KPayB
import Idealize.ShloMosaic.Lib.Pipeline.Value
import Idealize.ShloMosaic.Lib.ValueIdx

/-!
  Region 5: the gated recurrent update, from row blocks to the whole array.

  The region walks a grid of 10 points. Point `t` sees rows `10000·t … 10000·t + 9999` of the message array and of
  the state array, and the four weight arrays whole; it writes the same rows of the output array. Every row of the
  output is therefore written by exactly one point, and what that point writes in row `r`, column `q` is the gated
  recurrent update `Cert.Rows.gru` of row `r` of the messages and of the state. This module states that as one
  equation per entry of the output array.
-/

set_option maxRecDepth 16384

noncomputable section

namespace Cert.KernelIdeal.Reg5

open Cert.KernelIdeal Cert.KernelIdeal.Gen Idealize.ShloMosaic Idealize.ShloMosaic.TcCoe Idealize.ShloMosaic.ValueIdx
open Idealize.ShloMosaic.Pipeline (Dat)

/-! ## The row function over whole arrays -/

/-- Entry `q` of the updated state of row `r`: the gated recurrent update of row `r` of the messages `a0` and of the
    state `a1`, under the input-side weights `a2`, `a3` and the hidden-side weights `a4`, `a5`. -/
def row (a0 a1 : S100000x64.Idx → EReal) (a2 : S64x192.Idx → EReal) (a3 : S1x192.Idx → EReal)
    (a4 : S64x192.Idx → EReal) (a5 : S1x192.Idx → EReal) (r : Fin 100000) (q : Fin 64) : EReal :=
  Cert.Rows.gru (Ideal.ofBits .f32 0x3F800000#32) (fun k => a0 (ix2 r k)) (fun k => a1 (ix2 r k)) (fun k => a1 (ix2 r k))
    (fun k n => a2 (ix2 k n)) (fun n => a3 (ix2 0 n)) (fun k n => a4 (ix2 k n)) (fun n => a5 (ix2 0 n)) q

/-- The output array as one function of the six input arrays: entry `(r, q)` is `row … r q`. -/
def G (a0 a1 : S100000x64.Idx → EReal) (a2 : S64x192.Idx → EReal) (a3 : S1x192.Idx → EReal)
    (a4 : S64x192.Idx → EReal) (a5 : S1x192.Idx → EReal) : S100000x64.Idx → EReal :=
  fun i => row a0 a1 a2 a3 a4 a5 ⟨(i 0).val, idx2_lt0 i⟩ ⟨(i 1).val, idx2_lt1 i⟩

theorem G_apply (a0 a1 : S100000x64.Idx → EReal) (a2 : S64x192.Idx → EReal) (a3 : S1x192.Idx → EReal)
    (a4 : S64x192.Idx → EReal) (a5 : S1x192.Idx → EReal) (r : Fin 100000) (q : Fin 64) :
    G a0 a1 a2 a3 a4 a5 (ix2 r q) = row a0 a1 a2 a3 a4 a5 r q := rfl

/-! ## One block: the payload of row blocks that sit at row offset `o` of the arrays -/

/-- If the two row blocks `x0`, `x1` are rows `o … o + 9999` of the arrays `a0`, `a1` and the weight blocks are the
    weight arrays, the body's payload at `(p, q)` is entry `(o + p, q)` of the output function. -/
theorem pay_at_offset (x0 x1 : Vec Ideal S10000x64 .f32) (x2 x4 : Vec Ideal S64x192 .f32) (x3 x5 : Vec Ideal S1x192 .f32)
    (a0 a1 : S100000x64.Idx → EReal) (a2 : S64x192.Idx → EReal) (a3 : S1x192.Idx → EReal)
    (a4 : S64x192.Idx → EReal) (a5 : S1x192.Idx → EReal) (o : Nat) (p : Fin 10000) (q : Fin 64)
    (hb : o + p.val < 100000)
    (h0 : ∀ k : Fin 64, x0 (ix2 p k) = a0 (ix2 (⟨o + p.val, hb⟩ : Fin 100000) k))
    (h1 : ∀ k : Fin 64, x1 (ix2 p k) = a1 (ix2 (⟨o + p.val, hb⟩ : Fin 100000) k))
    (h2 : ∀ (k : Fin 64) (n : Fin 192), x2 (ix2 k n) = a2 (ix2 k n))
    (h3 : ∀ n : Fin 192, x3 (ix2 (0 : Fin 1) n) = a3 (ix2 (0 : Fin 1) n))
    (h4 : ∀ (k : Fin 64) (n : Fin 192), x4 (ix2 k n) = a4 (ix2 k n))
    (h5 : ∀ n : Fin 192, x5 (ix2 (0 : Fin 1) n) = a5 (ix2 (0 : Fin 1) n)) :
    k5_pay1 (F := Ideal) x0 x2 x3 x1 x4 x5 x1 (ix2 p q) = row a0 a1 a2 a3 a4 a5 ⟨o + p.val, hb⟩ q := by
  have e0 : (fun k : Fin 64 => x0 (ix2 p k)) = fun k => a0 (ix2 (⟨o + p.val, hb⟩ : Fin 100000) k) := funext h0
  have e1 : (fun k : Fin 64 => x1 (ix2 p k)) = fun k => a1 (ix2 (⟨o + p.val, hb⟩ : Fin 100000) k) := funext h1
  have e2 : (fun (k : Fin 64) (n : Fin 192) => x2 (ix2 k n)) = fun k n => a2 (ix2 k n) := funext fun k => funext (h2 k)
  have e3 : (fun n : Fin 192 => x3 (ix2 (0 : Fin 1) n)) = fun n => a3 (ix2 (0 : Fin 1) n) := funext h3
  have e4 : (fun (k : Fin 64) (n : Fin 192) => x4 (ix2 k n)) = fun k n => a4 (ix2 k n) := funext fun k => funext (h4 k)
  have e5 : (fun n : Fin 192 => x5 (ix2 (0 : Fin 1) n)) = fun n => a5 (ix2 (0 : Fin 1) n) := funext h5
  rw [Pay.k5_pay1_apply, e0, e1, e2, e3, e4, e5]
  rfl

/-! ## The printed index maps -/

theorem hz : (![0, 0] : Fin 2 → Nat) = fun _ => 0 := funext fun a => by fin_cases a <;> rfl

/-- The index maps, decided over the 10 grid points: the two row windows and the output window sit at block row `t`,
    block column 0; the four weight windows sit at block (0, 0). -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- A grid point is one of 10. -/
theorem point_lt (t : Fin cfg5.N) : t.val < 10 := t.isLt

/-! ## Where an element of each window's block sits in its array -/

/-- Element `(p, k)` of the message block at point `t` is entry `(10000·t + p, k)` of the message array. -/
theorem emb_msg (t : Fin cfg5.N) (p : Fin 10000) (k : Fin 64) (hb : t.val * 10000 + p.val < 100000) :
    ((cfg5.win 0).blk t).view.emb (ix2 p k) = (ix2 (⟨t.val * 10000 + p.val, hb⟩ : Fin 100000) k : S100000x64.Idx) := by
  obtain ⟨e0, e1, -⟩ := idx_facts t
  funext a; apply Fin.ext
  match a with
  | ⟨0, _⟩ => show win5_0.index t (0 : Fin 2) * 10000 + 1 * p.val = t.val * 10000 + p.val; omega
  | ⟨1, _⟩ => show win5_0.index t (1 : Fin 2) * 64 + 1 * k.val = k.val; omega

/-- Element `(p, k)` of the state block at point `t` is entry `(10000·t + p, k)` of the state array. -/
theorem emb_state (t : Fin cfg5.N) (p : Fin 10000) (k : Fin 64) (hb : t.val * 10000 + p.val < 100000) :
    ((cfg5.win 1).blk t).view.emb (ix2 p k) = (ix2 (⟨t.val * 10000 + p.val, hb⟩ : Fin 100000) k : S100000x64.Idx) := by
  obtain ⟨-, -, e0, e1, -⟩ := idx_facts t
  funext a; apply Fin.ext
  match a with
  | ⟨0, _⟩ => show win5_1.index t (0 : Fin 2) * 10000 + 1 * p.val = t.val * 10000 + p.val; omega
  | ⟨1, _⟩ => show win5_1.index t (1 : Fin 2) * 64 + 1 * k.val = k.val; omega

/-- Element `(p, q)` of the output block at point `t` is entry `(10000·t + p, q)` of the output array. -/
theorem emb_out (t : Fin cfg5.N) (p : Fin 10000) (q : Fin 64) (hb : t.val * 10000 + p.val < 100000) :
    ((cfg5.win 6).blk t).view.emb (ix2 p q) = (ix2 (⟨t.val * 10000 + p.val, hb⟩ : Fin 100000) q : S100000x64.Idx) := by
  obtain ⟨-, -, -, -, -, -, -, -, -, -, -, -, e0, e1⟩ := idx_facts t
  funext a; apply Fin.ext
  match a with
  | ⟨0, _⟩ => show win5_6.index t (0 : Fin 2) * 10000 + 1 * p.val = t.val * 10000 + p.val; omega
  | ⟨1, _⟩ => show win5_6.index t (1 : Fin 2) * 64 + 1 * q.val = q.val; omega

/-- The input-side weight block is its whole array. -/
theorem emb_wih (t : Fin cfg5.N) (k : Fin 64) (n : Fin 192) :
    ((cfg5.win 2).blk t).view.emb (ix2 k n) = (ix2 k n : S64x192.Idx) := by
  obtain ⟨-, -, -, -, e0, e1, -⟩ := idx_facts t
  funext a; apply Fin.ext
  match a with
  | ⟨0, _⟩ => show win5_2.index t (0 : Fin 2) * 64 + 1 * k.val = k.val; omega
  | ⟨1, _⟩ => show win5_2.index t (1 : Fin 2) * 192 + 1 * n.val = n.val; omega

/-- The input-side bias block is its whole array. -/
theorem emb_bih (t : Fin cfg5.N) (z : Fin 1) (n : Fin 192) :
    ((cfg5.win 3).blk t).view.emb (ix2 z n) = (ix2 z n : S1x192.Idx) := by
  obtain ⟨-, -, -, -, -, -, e0, e1, -⟩ := idx_facts t
  funext a; apply Fin.ext
  match a with
  | ⟨0, _⟩ => show win5_3.index t (0 : Fin 2) * 1 + 1 * z.val = z.val; omega
  | ⟨1, _⟩ => show win5_3.index t (1 : Fin 2) * 192 + 1 * n.val = n.val; omega

/-- The hidden-side weight block is its whole array. -/
theorem emb_whh (t : Fin cfg5.N) (k : Fin 64) (n : Fin 192) :
    ((cfg5.win 4).blk t).view.emb (ix2 k n) = (ix2 k n : S64x192.Idx) := by
  obtain ⟨-, -, -, -, -, -, -, -, e0, e1, -⟩ := idx_facts t
  funext a; apply Fin.ext
  match a with
  | ⟨0, _⟩ => show win5_4.index t (0 : Fin 2) * 64 + 1 * k.val = k.val; omega
  | ⟨1, _⟩ => show win5_4.index t (1 : Fin 2) * 192 + 1 * n.val = n.val; omega

/-- The hidden-side bias block is its whole array. -/
theorem emb_bhh (t : Fin cfg5.N) (z : Fin 1) (n : Fin 192) :
    ((cfg5.win 5).blk t).view.emb (ix2 z n) = (ix2 z n : S1x192.Idx) := by
  obtain ⟨-, -, -, -, -, -, -, -, -, -, e0, e1, -⟩ := idx_facts t
  funext a; apply Fin.ext
  match a with
  | ⟨0, _⟩ => show win5_5.index t (0 : Fin 2) * 1 + 1 * z.val = z.val; omega
  | ⟨1, _⟩ => show win5_5.index t (1 : Fin 2) * 192 + 1 * n.val = n.val; omega

section Region

variable (V : (c : Dev nD) → (b : Ref sig .tc) → Buf (Elt Ideal) ((c : Thread nD τ).loc b))

/-- The output array the region should leave, from the arrays as the region finds them. -/
abbrev GV (c : Dev nD) : S100000x64.Idx → EReal :=
  G (V c main_v86) (V c main_v76_0) (V c main_v94) (V c main_v89) (V c main_v96) (V c main_v92)

/-! ## What one point writes back -/

/-- Point `t` writes back block `t` of the output function of the arrays as the region finds them. -/
theorem flushed_eq (c : Dev nD) (t : Fin cfg5.N) :
    (dat5 V c).flushed 6 t = ((cfg5.win 6).blk t).view.read (Elt Ideal) (GV V c) := by
  show (cfg5.win 6).cut (grid5.coords t) ((dat5 V c).after 6 t) = _
  rw [after5_6]
  unfold out5_6
  rw [View.canon_unit_zero hz]
  simp only [View.ld_unit_zero (S := S10000x64) hz, View.ld_unit_zero (S := S64x192) hz, View.ld_unit_zero (S := S1x192) hz]
  funext j
  obtain ⟨p, q, rfl⟩ : ∃ (p : Fin 10000) (q : Fin 64), j = ix2 p q := ⟨j 0, j 1, eq_ix2 j⟩
  have ht := point_lt t
  have hb : t.val * 10000 + p.val < 100000 := by have := p.isLt; omega
  show k5_pay1 (F := Ideal) (iblk5 V c 0 t) (iblk5 V c 2 t) (iblk5 V c 3 t) (iblk5 V c 1 t) (iblk5 V c 4 t) (iblk5 V c 5 t) (iblk5 V c 1 t) (ix2 p q)
      = GV V c (((cfg5.win 6).blk t).view.emb (ix2 p q))
  refine (pay_at_offset (iblk5 V c 0 t) (iblk5 V c 1 t) (iblk5 V c 2 t) (iblk5 V c 4 t) (iblk5 V c 3 t) (iblk5 V c 5 t)
    (V c main_v86) (V c main_v76_0) (V c main_v94) (V c main_v89) (V c main_v96) (V c main_v92) (t.val * 10000) p q hb
    (fun k => congrArg (V c main_v86) (emb_msg t p k hb))
    (fun k => congrArg (V c main_v76_0) (emb_state t p k hb))
    (fun k n => congrArg (V c main_v94) (emb_wih t k n))
    (fun n => congrArg (V c main_v89) (emb_bih t 0 n))
    (fun k n => congrArg (V c main_v96) (emb_whh t k n))
    (fun n => congrArg (V c main_v92) (emb_bhh t 0 n))).trans ?_
  exact (congrArg (GV V c) (emb_out t p q hb)).symm

/-! ## The blocks cover the array -/

/-- An index of the output array is in point `t`'s block iff each coordinate is in the block's range on its axis. -/
theorem mem_blk (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v97).slice (win5_6.rect t)).set ↔ _
  rw [View.set_slice_whole, Rect.mem_set_unit]
  exact Iff.rfl

/-- Row `r` of the output array is in the block of point `r / 10000`. -/
theorem cover (i : S100000x64.Idx) :
    ∃ t : Fin cfg5.N, (cfg5.win 6).flush t = true ∧ i ∈ ((cfg5.win 6).blk t).view.set := by
  have hi0 : (i 0).val < 100000 := idx2_lt0 i
  have hi1 : (i 1).val < 64 := idx2_lt1 i
  obtain ⟨t, ht⟩ : ∃ t : Fin cfg5.N, t.val = (i 0).val / 10000 :=
    ⟨⟨(i 0).val / 10000, (by omega : (i 0).val / 10000 < 10)⟩, rfl⟩
  obtain ⟨-, -, -, -, -, -, -, -, -, -, -, -, e0, e1⟩ := idx_facts t
  refine ⟨t, flush5_6 t, ?_⟩
  rw [mem_blk]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 64 ≤ (i 1).val ∧ (i 1).val < win5_6.index t (1 : Fin 2) * 64 + 64; omega

/-! ## The array after the region -/

/-- The output array after the region's 10 points is the output function of the arrays as the region finds them. -/
theorem final (c : Dev nD) : (dat5 V c).arrAt 6 cfg5.N = GV V c :=
  (dat5 V c).arrAt_eq_of_cover 6 (GV V c) (fun t _ => flushed_eq V c t) cover

/-- Entry `(r, q)` of the output array after the region: the gated recurrent update of row `r` of the message array
    and of the state array as the region finds them. -/
theorem out6 (c : Dev nD) (r : Fin 100000) (q : Fin 64) :
    (dat5 V c).arrAt 6 cfg5.N (ix2 r q)
      = Cert.Rows.gru (Ideal.ofBits .f32 0x3F800000#32) (fun k => V c main_v86 (ix2 r k)) (fun k => V c main_v76_0 (ix2 r k))
          (fun k => V c main_v76_0 (ix2 r k)) (fun k n => V c main_v94 (ix2 k n)) (fun n => V c main_v89 (ix2 0 n))
          (fun k n => V c main_v96 (ix2 k n)) (fun n => V c main_v92 (ix2 0 n)) q := by
  rw [final V c]
  rfl

end Region

end Cert.KernelIdeal.Reg5

end
-- ==== Proof.KL2.lean ====
/-
  Layer 2 of the network, read off the kernel program's fold.

  The layer is two host stretches and two regions. The first stretch slices the layer's embedding table from the
  stacked tables, looks the nodes' positions up in it, adds the looked-up rows to the embedding sums, and slices the
  layer's affine map and convolution weight. Region 4 transforms every row of the previous state beside its
  embedding sum and multiplies the result by the convolution weight. The second stretch passes the convolved rows
  along the edges and slices the layer's gate weights; region 5 applies the gated recurrent update row by row.
  Read level by level this is `Cert.Sem.layerOf` of the buffers the regions find, and each of those buffers is a
  named function of a launch argument.
-/
import proofs.«157269_j2267742732766_1_alg».proof.Proof.Gen.KernelIdeal.Frame
import proofs.«157269_j2267742732766_1_alg».proof.Proof.Sem
import proofs.«157269_j2267742732766_1_alg».proof.Proof.KTake
import proofs.«157269_j2267742732766_1_alg».proof.Proof.KReg4
import proofs.«157269_j2267742732766_1_alg».proof.Proof.KReg5
import proofs.«157269_j2267742732766_1_alg».proof.Proof.KL1

set_option maxRecDepth 16384

noncomputable section

namespace Cert.KernelIdeal.Layers

open Cert.KernelIdeal Cert.KernelIdeal.Gen Idealize.ShloMosaic Idealize.ShloMosaic.TcCoe Idealize.ShloMosaic.ValueIdx

/-! ## The layer's slices of the stacked arrays -/

section Chains

variable {F : FTy → Type} [FloatOps F]

/-- The layer's embedding table: one block of the stacked tables, as a 100 × 64 array. -/
def table_L2 (a : (⟨S5x100x64, .f32⟩ : BufTy).Contents (Elt F)) : (⟨S100x64, .f32⟩ : BufTy).Contents (Elt F) :=
  let blk : FVec F S1x100x64 .f32 := (extractStridedSlice S1x100x64 ![2, 0, 0] · slices_S5x100x64_S1x100x64_2_0_0) a
  fun i => shapeCast S100x64 blk shapeCasts_S1x100x64_S100x64 i

/-- The bias row of the layer's affine map: one row of the stacked biases, as a 1 × 64 array. -/
def tbOf_L2 (a : (⟨S4x64, .f32⟩ : BufTy).Contents (Elt F)) : (⟨S1x64, .f32⟩ : BufTy).Contents (Elt F) :=
  let blk : FVec F S1x64 .f32 := (extractStridedSlice S1x64 ![1, 0] · slices_S4x64_S1x64_1_0) a
  let flat : FVec F S64 .f32 := fun i => shapeCast S64 blk shapeCasts_S1x64_S64 i
  fun i => shapeCast S1x64 flat shapeCasts_S64_S1x64 i

/-- The weight of the layer's affine map: one block of the stacked weights, as a 128 × 64 array. -/
def tWOf_L2 (a : (⟨S4x128x64, .f32⟩ : BufTy).Contents (Elt F)) : (⟨S128x64, .f32⟩ : BufTy).Contents (Elt F) :=
  let blk : FVec F S1x128x64 .f32 := (extractStridedSlice S1x128x64 ![1, 0, 0] · slices_S4x128x64_S1x128x64_1_0_0) a
  fun i => shapeCast S128x64 blk shapeCasts_S1x128x64_S128x64 i

/-- The layer's convolution weight: one block of the stacked weights, as a 64 × 64 array. -/
def cWOf_L2 (a : (⟨S5x64x64, .f32⟩ : BufTy).Contents (Elt F)) : (⟨S64x64, .f32⟩ : BufTy).Contents (Elt F) :=
  let blk : FVec F S1x64x64 .f32 := (extractStridedSlice S1x64x64 ![2, 0, 0] · slices_S5x64x64_S1x64x64_2_0_0) a
  fun i => shapeCast S64x64 blk shapeCasts_S1x64x64_S64x64 i

/-- A gate bias row of the layer: one row of a stacked bias array, as a 1 × 192 array. -/
def gateB_L2 (a : (⟨S5x192, .f32⟩ : BufTy).Contents (Elt F)) : (⟨S1x192, .f32⟩ : BufTy).Contents (Elt F) :=
  let blk : FVec F S1x192 .f32 := (extractStridedSlice S1x192 ![2, 0] · slices_S5x192_S1x192_2_0) a
  let flat : FVec F S192 .f32 := fun i => shapeCast S192 blk shapeCasts_S1x192_S192 i
  fun i => shapeCast S1x192 flat shapeCasts_S192_S1x192 i

/-- A gate weight of the layer: one block of a stacked weight array, as a 64 × 192 array. -/
def gateW_L2 (a : (⟨S5x64x192, .f32⟩ : BufTy).Contents (Elt F)) : (⟨S64x192, .f32⟩ : BufTy).Contents (Elt F) :=
  let blk : FVec F S1x64x192 .f32 := (extractStridedSlice S1x64x192 ![2, 0, 0] · slices_S5x64x192_S1x64x192_2_0_0) a
  fun i => shapeCast S64x192 blk shapeCasts_S1x64x192_S64x192 i

end Chains

variable (m : (ℓ : Loc nD τ sig) → Buf (Elt Ideal) ℓ) (ρ : Dev nD → PrngReg)

/-! ## The kept buffers through the layer -/

/-- After the stretch that slices the table. -/
theorem keepA_L2 (c : Dev nD) (b : Ref sig .tc) (hb : b ∈ keptRefs) :
    W13 m ρ c (Proc.devRef .tc b) = W12 m ρ c (Proc.devRef .tc b) := by
  kept_cases hb
  all_goals stretch_keeps hostOps4

/-- After the lookup. -/
theorem keepB_L2 (c : Dev nD) (b : Ref sig .tc) (hb : b ∈ keptRefs) :
    W14 m ρ c (Proc.devRef .tc b) = W12 m ρ c (Proc.devRef .tc b) := by
  refine Eq.trans ?_ (keepA_L2 m ρ c b hb)
  kept_cases hb
  all_goals stretch_keeps hostOps4_1

/-- After the embedding sum and the slices of the affine map and the convolution weight. -/
theorem keepC_L2 (c : Dev nD) (b : Ref sig .tc) (hb : b ∈ keptRefs) :
    W15 m ρ c (Proc.devRef .tc b) = W12 m ρ c (Proc.devRef .tc b) := by
  refine Eq.trans ?_ (keepB_L2 m ρ c b hb)
  kept_cases hb
  all_goals stretch_keeps hostOps4_2

/-- After region 4. -/
theorem keepD_L2 (c : Dev nD) (b : Ref sig .tc) (hb : b ∈ keptRefs) :
    W16 m ρ c (Proc.devRef .tc b) = W12 m ρ c (Proc.devRef .tc b) := by
  refine Eq.trans ?_ (keepC_L2 m ρ c b hb)
  kept_cases hb
  all_goals exact W16_of_ne m ρ c _ (by decide)

/-- After the edge pass and the slices of the gate weights. -/
theorem keepE_L2 (c : Dev nD) (b : Ref sig .tc) (hb : b ∈ keptRefs) :
    W17 m ρ c (Proc.devRef .tc b) = W12 m ρ c (Proc.devRef .tc b) := by
  refine Eq.trans ?_ (keepD_L2 m ρ c b hb)
  kept_cases hb
  all_goals stretch_keeps hostOps5

/-- After region 5: the layer's exit. -/
theorem keepF_L2 (c : Dev nD) (b : Ref sig .tc) (hb : b ∈ keptRefs) :
    W18 m ρ c (Proc.devRef .tc b) = W12 m ρ c (Proc.devRef .tc b) := by
  refine Eq.trans ?_ (keepE_L2 m ρ c b hb)
  kept_cases hb
  all_goals exact W18_of_ne m ρ c _ (by decide)

/-- At the layer's exit the kept buffers hold what they held after the first host stretch of the program. -/
theorem kept_L2 (c : Dev nD) (b : Ref sig .tc) (hb : b ∈ keptRefs) :
    W18 m ρ c (Proc.devRef .tc b) = W1 m ρ c (Proc.devRef .tc b) :=
  (keepF_L2 m ρ c b hb).trans (kept_L1 m ρ c b hb)

/-- At the layer's exit a launch argument holds what it held at launch. -/
theorem launch_L2 (c : Dev nD) (b : Ref sig .tc) (hb : b ∈ argRefs) :
    W18 m ρ c (Proc.devRef .tc b) = m ((c : Thread nD τ).loc b) :=
  (keepF_L2 m ρ c b (argRefs_sub hb)).trans (launch_L1 m ρ c b hb)

/-! ## The leaves: what the regions' weight buffers hold, from the launch arguments -/

/-- The layer's table, after the first stretch. -/
theorem table_at_L2 (c : Dev nD) :
    W13 m ρ c (Proc.devRef .tc main_v66) = table_L2 (F := Ideal) (m ((c : Thread nD τ).loc main_arg5)) := by
  have e : W13 m ρ c (Proc.devRef .tc main_v66) = table_L2 (F := Ideal) (W12 m ρ c (Proc.devRef .tc main_arg5)) := by
    show StableHlo.after hostOps4 (W12 m ρ c) (Proc.devRef .tc main_v66) = _
    generalize W12 m ρ c = V
    after_results
    rfl
  exact e.trans (congrArg (table_L2 (F := Ideal)) (launch_L1 m ρ c main_arg5 (by decide)))

/-- The looked-up rows: the masked lookup of the nodes' positions in the layer's table. -/
theorem lookup_L2 (c : Dev nD) :
    W14 m ρ c (Proc.devRef .tc main_v67)
      = Take.maskedLookup (F := Ideal) (table_L2 (m ((c : Thread nD τ).loc main_arg5))) (m ((c : Thread nD τ).loc main_arg0)) := by
  have e : W14 m ρ c (Proc.devRef .tc main_v67)
      = Take.maskedLookup (F := Ideal) (W13 m ρ c (Proc.devRef .tc main_v66)) (W13 m ρ c (Proc.devRef .tc main_arg0)) := by
    show StableHlo.after hostOps4_1 (W13 m ρ c) (Proc.devRef .tc main_v67) = _
    generalize W13 m ρ c = V
    after_results_simp
    simp only [StableHlo.TRef.ofBuf, StableHlo.TRef.toBuf, cast_eq]
    rfl
  have e0 : W13 m ρ c (Proc.devRef .tc main_arg0) = m ((c : Thread nD τ).loc main_arg0) :=
    (keepA_L2 m ρ c main_arg0 (by decide)).trans (launch_L1 m ρ c main_arg0 (by decide))
  exact e.trans (congrArg₂ (Take.maskedLookup (F := Ideal)) (table_at_L2 m ρ c) e0)

/-- The embedding sums region 4 reads: the looked-up rows added up. -/
theorem emb_L2 (c : Dev nD) :
    W15 m ρ c (Proc.devRef .tc main_v68)
      = embSum (F := Ideal) (Take.maskedLookup (F := Ideal) (table_L2 (m ((c : Thread nD τ).loc main_arg5))) (m ((c : Thread nD τ).loc main_arg0))) := by
  have e : W15 m ρ c (Proc.devRef .tc main_v68) = embSum (F := Ideal) (W14 m ρ c (Proc.devRef .tc main_v67)) := by
    show StableHlo.after hostOps4_2 (W14 m ρ c) (Proc.devRef .tc main_v68) = _
    generalize W14 m ρ c = V
    after_results
    rfl
  exact e.trans (congrArg (embSum (F := Ideal)) (lookup_L2 m ρ c))

/-- The bias row of the affine map region 4 reads. -/
theorem tb_L2 (c : Dev nD) :
    W15 m ρ c (Proc.devRef .tc main_v71) = tbOf_L2 (F := Ideal) (m ((c : Thread nD τ).loc main_arg7)) := by
  have e : W15 m ρ c (Proc.devRef .tc main_v71) = tbOf_L2 (F := Ideal) (W14 m ρ c (Proc.devRef .tc main_arg7)) := by
    show StableHlo.after hostOps4_2 (W14 m ρ c) (Proc.devRef .tc main_v71) = _
    generalize W14 m ρ c = V
    after_results
    rfl
  exact e.trans (congrArg (tbOf_L2 (F := Ideal)) ((keepB_L2 m ρ c main_arg7 (by decide)).trans (launch_L1 m ρ c main_arg7 (by decide))))

/-- The weight of the affine map region 4 reads. -/
theorem tW_L2 (c : Dev nD) :
    W15 m ρ c (Proc.devRef .tc main_v73) = tWOf_L2 (F := Ideal) (m ((c : Thread nD τ).loc main_arg6)) := by
  have e : W15 m ρ c (Proc.devRef .tc main_v73) = tWOf_L2 (F := Ideal) (W14 m ρ c (Proc.devRef .tc main_arg6)) := by
    show StableHlo.after hostOps4_2 (W14 m ρ c) (Proc.devRef .tc main_v73) = _
    generalize W14 m ρ c = V
    after_results
    rfl
  exact e.trans (congrArg (tWOf_L2 (F := Ideal)) ((keepB_L2 m ρ c main_arg6 (by decide)).trans (launch_L1 m ρ c main_arg6 (by decide))))

/-- The convolution weight region 4 reads. -/
theorem cW_L2 (c : Dev nD) :
    W15 m ρ c (Proc.devRef .tc main_v75) = cWOf_L2 (F := Ideal) (m ((c : Thread nD τ).loc main_arg8)) := by
  have e : W15 m ρ c (Proc.devRef .tc main_v75) = cWOf_L2 (F := Ideal) (W14 m ρ c (Proc.devRef .tc main_arg8)) := by
    show StableHlo.after hostOps4_2 (W14 m ρ c) (Proc.devRef .tc main_v75) = _
    generalize W14 m ρ c = V
    after_results
    rfl
  exact e.trans (congrArg (cWOf_L2 (F := Ideal)) ((keepB_L2 m ρ c main_arg8 (by decide)).trans (launch_L1 m ρ c main_arg8 (by decide))))

/-- The input-side gate weight region 5 reads. -/
theorem wih_L2 (c : Dev nD) :
    W17 m ρ c (Proc.devRef .tc main_v94) = gateW_L2 (F := Ideal) (m ((c : Thread nD τ).loc main_arg9)) := by
  have e : W17 m ρ c (Proc.devRef .tc main_v94) = gateW_L2 (F := Ideal) (W16 m ρ c (Proc.devRef .tc main_arg9)) := by
    show StableHlo.after hostOps5 (W16 m ρ c) (Proc.devRef .tc main_v94) = _
    generalize W16 m ρ c = V
    after_results_simp
    rfl
  exact e.trans (congrArg (gateW_L2 (F := Ideal)) ((keepD_L2 m ρ c main_arg9 (by decide)).trans (launch_L1 m ρ c main_arg9 (by decide))))

/-- The input-side gate bias region 5 reads. -/
theorem bih_L2 (c : Dev nD) :
    W17 m ρ c (Proc.devRef .tc main_v89) = gateB_L2 (F := Ideal) (m ((c : Thread nD τ).loc main_arg10)) := by
  have e : W17 m ρ c (Proc.devRef .tc main_v89) = gateB_L2 (F := Ideal) (W16 m ρ c (Proc.devRef .tc main_arg10)) := by
    show StableHlo.after hostOps5 (W16 m ρ c) (Proc.devRef .tc main_v89) = _
    generalize W16 m ρ c = V
    after_results_simp
    rfl
  exact e.trans (congrArg (gateB_L2 (F := Ideal)) ((keepD_L2 m ρ c main_arg10 (by decide)).trans (launch_L1 m ρ c main_arg10 (by decide))))

/-- The state-side gate weight region 5 reads. -/
theorem whh_L2 (c : Dev nD) :
    W17 m ρ c (Proc.devRef .tc main_v96) = gateW_L2 (F := Ideal) (m ((c : Thread nD τ).loc main_arg11)) := by
  have e : W17 m ρ c (Proc.devRef .tc main_v96) = gateW_L2 (F := Ideal) (W16 m ρ c (Proc.devRef .tc main_arg11)) := by
    show StableHlo.after hostOps5 (W16 m ρ c) (Proc.devRef .tc main_v96) = _
    generalize W16 m ρ c = V
    after_results_simp
    rfl
  exact e.trans (congrArg (gateW_L2 (F := Ideal)) ((keepD_L2 m ρ c main_arg11 (by decide)).trans (launch_L1 m ρ c main_arg11 (by decide))))

/-- The state-side gate bias region 5 reads. -/
theorem bhh_L2 (c : Dev nD) :
    W17 m ρ c (Proc.devRef .tc main_v92) = gateB_L2 (F := Ideal) (m ((c : Thread nD τ).loc main_arg12)) := by
  have e : W17 m ρ c (Proc.devRef .tc main_v92) = gateB_L2 (F := Ideal) (W16 m ρ c (Proc.devRef .tc main_arg12)) := by
    show StableHlo.after hostOps5 (W16 m ρ c) (Proc.devRef .tc main_v92) = _
    generalize W16 m ρ c = V
    after_results_simp
    rfl
  exact e.trans (congrArg (gateB_L2 (F := Ideal)) ((keepD_L2 m ρ c main_arg12 (by decide)).trans (launch_L1 m ρ c main_arg12 (by decide))))

/-! ## Region 4: the transformed state and its convolution -/

/-- The previous layer's state, as region 4 finds it: the layer's first stretch does not write it. -/
theorem state_L2 (c : Dev nD) : W15 m ρ c (Proc.devRef .tc main_v64) = W12 m ρ c (Proc.devRef .tc main_v64) := by
  stretch_step hostOps4_2
  stretch_step hostOps4_1
  stretch_keeps hostOps4

/-- The layer's transformed state, from the buffers region 4 finds. -/
abbrev xtOf_L2 (c : Dev nD) : Cert.Sem.Mat 100000 64 :=
  (Cert.Sem.transform (Cert.Sem.toMat (W12 m ρ c (Proc.devRef .tc main_v64) : Cert.Sem.Arr 100000 64))
          (Cert.Sem.toMat (W15 m ρ c (Proc.devRef .tc main_v68) : Cert.Sem.Arr 100000 64))
          (Cert.Sem.toMat (W15 m ρ c (Proc.devRef .tc main_v73) : Cert.Sem.Arr 128 64))
          (Cert.Sem.toRow (W15 m ρ c (Proc.devRef .tc main_v71) : Cert.Sem.Arr 1 64)))

/-- Region 4's first output is the transformed state, entry by entry. -/
theorem xt_L2 (c : Dev nD) (r : Fin 100000) (q : Fin 64) :
    W16 m ρ c (Proc.devRef .tc main_v76_0) (ix2 r q) = xtOf_L2 m ρ c r q := by
  have hx : (fun k => V15 m ρ c main_v64 (ix2 r k))
      = Cert.Sem.toMat (W12 m ρ c (Proc.devRef .tc main_v64) : Cert.Sem.Arr 100000 64) r :=
    funext fun k => congrFun (state_L2 m ρ c) (ix2 r k)
  refine (congrFun (W16_arr m ρ c 5) (ix2 r q)).trans ((Reg4.out5 (V15 m ρ) c r q).trans ?_)
  exact congrArg (fun X => Cert.Rows.trans X (fun k => V15 m ρ c main_v68 (ix2 r k)) (fun k n => V15 m ρ c main_v73 (ix2 k n))
    (fun n => V15 m ρ c main_v71 (ix2 0 n)) q) hx

/-- Region 4's second output is the transformed state's rows times the convolution weight, as an array. -/
theorem cv_L2 (c : Dev nD) :
    (W16 m ρ c (Proc.devRef .tc main_v76_1) : Cert.Sem.Arr 100000 64)
      = Cert.Sem.ofMat (Cert.Sem.conv (xtOf_L2 m ρ c) (Cert.Sem.toMat (W15 m ρ c (Proc.devRef .tc main_v75) : Cert.Sem.Arr 64 64))) := by
  refine Cert.Sem.arr_ext fun r q => ?_
  have hx : (fun k => V15 m ρ c main_v64 (ix2 r k))
      = Cert.Sem.toMat (W12 m ρ c (Proc.devRef .tc main_v64) : Cert.Sem.Arr 100000 64) r :=
    funext fun k => congrFun (state_L2 m ρ c) (ix2 r k)
  refine (congrFun (W16_arr m ρ c 6) (ix2 r q)).trans ((Reg4.out6 (V15 m ρ) c r q).trans ?_)
  exact congrArg (fun X => Cert.Rows.dot (fun j => Cert.Rows.trans X (fun k => V15 m ρ c main_v68 (ix2 r k))
    (fun k n => V15 m ρ c main_v73 (ix2 k n)) (fun n => V15 m ρ c main_v71 (ix2 0 n)) j) (fun k n => V15 m ρ c main_v75 (ix2 k n)) q) hx

/-! ## The edge pass and region 5 -/

/-- The messages region 5 reads: the edge pass, along the program's edge rows, of region 4's convolved rows. -/
theorem pass2 (c : Dev nD) :
    W17 m ρ c (Proc.devRef .tc main_v86)
      = passK (W1 m ρ c (Proc.devRef .tc main_v1)) (W1 m ρ c (Proc.devRef .tc main_v3)) (W16 m ρ c (Proc.devRef .tc main_v76_1)) := by
  have e : W17 m ρ c (Proc.devRef .tc main_v86)
      = passK (F := Ideal) (W16 m ρ c (Proc.devRef .tc main_v1)) (W16 m ρ c (Proc.devRef .tc main_v3)) (W16 m ρ c (Proc.devRef .tc main_v76_1)) := by
    show StableHlo.after hostOps5 (W16 m ρ c) (Proc.devRef .tc main_v86) = _
    generalize W16 m ρ c = V
    after_results_simp
    rfl
  have e1 : W16 m ρ c (Proc.devRef .tc main_v1) = W1 m ρ c (Proc.devRef .tc main_v1) :=
    (keepD_L2 m ρ c main_v1 (by decide)).trans (kept_L1 m ρ c main_v1 (by decide))
  have e3 : W16 m ρ c (Proc.devRef .tc main_v3) = W1 m ρ c (Proc.devRef .tc main_v3) :=
    (keepD_L2 m ρ c main_v3 (by decide)).trans (kept_L1 m ρ c main_v3 (by decide))
  exact e.trans (congrArg₂ (fun s d => passK (F := Ideal) s d (W16 m ρ c (Proc.devRef .tc main_v76_1))) e1 e3)

/-- The transformed state, as region 5 finds it: the layer's second stretch does not write it. -/
theorem state2_L2 (c : Dev nD) : W17 m ρ c (Proc.devRef .tc main_v76_0) = W16 m ρ c (Proc.devRef .tc main_v76_0) := by
  stretch_keeps hostOps5

/-- The layer function at an entry, from its parts: where the messages are the pass of an array that holds the
    convolved rows, and the state array holds the transformed state entry by entry, the gated recurrent update of
    the messages' and the state's row is the layer function's entry. The pass is any map on arrays. -/
theorem layer_entry_L2 {N : ℕ} (pass : Cert.Sem.Arr N 64 → Cert.Sem.Arr N 64) (msgs cvd st : Cert.Sem.Arr N 64)
    (xt : Cert.Sem.Mat N 64) (cW : Cert.Sem.Mat 64 64) (Wih : Cert.Sem.Mat 64 192) (bih : Fin 192 → EReal)
    (Whh : Cert.Sem.Mat 64 192) (bhh : Fin 192 → EReal)
    (hmsgs : msgs = pass cvd) (hcvd : cvd = Cert.Sem.ofMat (Cert.Sem.conv xt cW))
    (hst : ∀ r k, st (ix2 r k) = xt r k) (r : Fin N) (q : Fin 64) :
    Cert.Rows.gru Cert.Sem.one (fun k => msgs (ix2 r k)) (fun k => st (ix2 r k)) (fun k => st (ix2 r k)) Wih bih Whh bhh q
      = Cert.Sem.layerOf pass xt cW Wih bih Whh bhh r q := by
  subst hmsgs hcvd
  have e : (fun k => st (ix2 r k)) = xt r := funext (hst r)
  rw [e]
  rfl

/-- LAYER 2: the state region 5 leaves is the layer function of the transformed state, the convolution weight and
    the gate weights the regions find, with the edge pass along the program's edge rows. -/
theorem layer2 (c : Dev nD) : Cert.Sem.toMat (W18 m ρ c (Proc.devRef .tc main_v97) : Cert.Sem.Arr 100000 64)
      = Cert.Sem.layerOf (passK (F := Ideal) (W1 m ρ c (Proc.devRef .tc main_v1)) (W1 m ρ c (Proc.devRef .tc main_v3)))
          (Cert.Sem.transform (Cert.Sem.toMat (W12 m ρ c (Proc.devRef .tc main_v64) : Cert.Sem.Arr 100000 64))
          (Cert.Sem.toMat (W15 m ρ c (Proc.devRef .tc main_v68) : Cert.Sem.Arr 100000 64))
          (Cert.Sem.toMat (W15 m ρ c (Proc.devRef .tc main_v73) : Cert.Sem.Arr 128 64))
          (Cert.Sem.toRow (W15 m ρ c (Proc.devRef .tc main_v71) : Cert.Sem.Arr 1 64)))
          (Cert.Sem.toMat (W15 m ρ c (Proc.devRef .tc main_v75) : Cert.Sem.Arr 64 64))
          (Cert.Sem.toMat (W17 m ρ c (Proc.devRef .tc main_v94) : Cert.Sem.Arr 64 192)) (Cert.Sem.toRow (W17 m ρ c (Proc.devRef .tc main_v89) : Cert.Sem.Arr 1 192))
          (Cert.Sem.toMat (W17 m ρ c (Proc.devRef .tc main_v96) : Cert.Sem.Arr 64 192)) (Cert.Sem.toRow (W17 m ρ c (Proc.devRef .tc main_v92) : Cert.Sem.Arr 1 192)) := by
  funext r q
  refine (congrFun (W18_arr m ρ c 6) (ix2 r q)).trans ((Reg5.out6 (V17 m ρ) c r q).trans ?_)
  exact layer_entry_L2 (passK (F := Ideal) (W1 m ρ c (Proc.devRef .tc main_v1)) (W1 m ρ c (Proc.devRef .tc main_v3)))
    (W17 m ρ c (Proc.devRef .tc main_v86)) (W16 m ρ c (Proc.devRef .tc main_v76_1)) (W17 m ρ c (Proc.devRef .tc main_v76_0))
    (xtOf_L2 m ρ c) (Cert.Sem.toMat (W15 m ρ c (Proc.devRef .tc main_v75) : Cert.Sem.Arr 64 64))
    (Cert.Sem.toMat (W17 m ρ c (Proc.devRef .tc main_v94) : Cert.Sem.Arr 64 192)) (Cert.Sem.toRow (W17 m ρ c (Proc.devRef .tc main_v89) : Cert.Sem.Arr 1 192))
    (Cert.Sem.toMat (W17 m ρ c (Proc.devRef .tc main_v96) : Cert.Sem.Arr 64 192)) (Cert.Sem.toRow (W17 m ρ c (Proc.devRef .tc main_v92) : Cert.Sem.Arr 1 192))
    (pass2 m ρ c) (cv_L2 m ρ c)
    (fun r k => (congrFun (state2_L2 m ρ c) (ix2 r k)).trans (xt_L2 m ρ c r k)) r q

end Cert.KernelIdeal.Layers

end
-- ==== Proof.RL2.lean ====
/-
  A message-passing layer after the first, read off the reference's run.

  The reference runs such a layer in four stretches of host operations: the embedding lookup and sum; the
  concatenation with the previous state, the affine map, the cutting of the layer's parameters out of the stacked
  arrays, and the product with the convolution weight; the gather along the edges' sources and the scatter-add at
  their targets; the gated recurrent update. Each stretch's result is the composition of its operations over the
  contents the stretch starts from, and that composition is one of the stage functions. Chained through the levels of
  the run, the layer's new state, read as a matrix of extended reals, is the specification's layer function of the
  previous state, the embedding sums and the layer's parameters.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageA
import proofs.«157269_j2267742732766_1_alg».proof.Proof.RStageB
import proofs.«157269_j2267742732766_1_alg».proof.Proof.RL1
import Idealize.ShloMosaic.Lib.StableHlo.Run
import Idealize.ShloMosaic.Lib.ValueIdx

noncomputable section

namespace Cert.ReferenceIdeal.Layers

open Cert.ReferenceIdeal Cert.ReferenceIdeal.RunV Idealize.ShloMosaic Idealize.ShloMosaic.ValueIdx Idealize.ShloMosaic.StableHlo

/-! ## The layer's parameters, cut out of the stacked arrays

Every parameter of the network arrives stacked over the layers. The reference cuts the layer's slab out (a slice of
extent one along the leading axis) and drops that axis (a reshape). -/

section Leaves

variable {F : FTy → Type} [FloatOps F] [Facts₀]
open Facts₀

/-- The layer's embedding table, 100×64. -/
def emb_L2 (A : (⟨S5x100x64, .f32⟩ : BufTy).Contents (Elt F)) : (⟨S100x64, .f32⟩ : BufTy).Contents (Elt F) :=
  shapeCast S100x64 (extractStridedSlice S1x100x64 ![2, 0, 0] A slices_S5x100x64_S1x100x64_2_0_0) shapeCasts_S1x100x64_S100x64

/-- The weight matrix of the layer's affine map on the state beside the embedding sums, 128×64. -/
def tW_L2 (A : (⟨S4x128x64, .f32⟩ : BufTy).Contents (Elt F)) : (⟨S128x64, .f32⟩ : BufTy).Contents (Elt F) :=
  shapeCast S128x64 (extractStridedSlice S1x128x64 ![1, 0, 0] A slices_S4x128x64_S1x128x64_1_0_0) shapeCasts_S1x128x64_S128x64

/-- The bias row of that affine map, 64. -/
def tb_L2 (A : (⟨S4x64, .f32⟩ : BufTy).Contents (Elt F)) : (⟨S64, .f32⟩ : BufTy).Contents (Elt F) :=
  shapeCast S64 (extractStridedSlice S1x64 ![1, 0] A slices_S4x64_S1x64_1_0) shapeCasts_S1x64_S64

/-- The layer's convolution weight, 64×64. -/
def cW_L2 (A : (⟨S5x64x64, .f32⟩ : BufTy).Contents (Elt F)) : (⟨S64x64, .f32⟩ : BufTy).Contents (Elt F) :=
  shapeCast S64x64 (extractStridedSlice S1x64x64 ![2, 0, 0] A slices_S5x64x64_S1x64x64_2_0_0) shapeCasts_S1x64x64_S64x64

/-- A gate weight matrix of the layer's recurrent update, 64×192 (the message side and the state side are cut the same
    way out of their two stacks). -/
def gW_L2 (A : (⟨S5x64x192, .f32⟩ : BufTy).Contents (Elt F)) : (⟨S64x192, .f32⟩ : BufTy).Contents (Elt F) :=
  shapeCast S64x192 (extractStridedSlice S1x64x192 ![2, 0, 0] A slices_S5x64x192_S1x64x192_2_0_0) shapeCasts_S1x64x192_S64x192

/-- A gate bias row of the layer's recurrent update, 192. -/
def gb_L2 (A : (⟨S5x192, .f32⟩ : BufTy).Contents (Elt F)) : (⟨S192, .f32⟩ : BufTy).Contents (Elt F) :=
  shapeCast S192 (extractStridedSlice S1x192 ![2, 0] A slices_S5x192_S1x192_2_0) shapeCasts_S1x192_S192

end Leaves

/-! ## The four stretches of the layer, from any contents

Each result buffer of a stretch is the composition of the stretch's operations over the contents the stretch starts
from; the compositions are the stage functions. -/

section Stretches

variable {F : FTy → Type} [FloatOps F]

set_option maxHeartbeats 4000000 in  -- a stretch of up to forty operations over the program's five hundred buffers
/-- The embedding sums: the layer's table looked up at the two attribute columns, the two rows added. -/
theorem lookup_L2 (V : Valuation τ sig (Elt F)) :
    after (opsC8 (F := F)) V (Proc.devRef .tc main_v156)
      = embSumR (plainLookupR (emb_L2 (V (Proc.devRef .tc main_arg5))) (V (Proc.devRef .tc main_arg0))) := by
  after_results
  generalize V (Proc.devRef .tc main_arg5) = A
  generalize V (Proc.devRef .tc main_arg0) = z
  rfl

set_option maxHeartbeats 4000000 in  -- a stretch of up to forty operations over the program's five hundred buffers
theorem tW_of_L2 (V : Valuation τ sig (Elt F)) :
    after (opsC9 (F := F)) V (Proc.devRef .tc main_v159) = tW_L2 (V (Proc.devRef .tc main_arg6)) := by
  after_results
  generalize V (Proc.devRef .tc main_arg6) = A
  rfl

set_option maxHeartbeats 4000000 in  -- a stretch of up to forty operations over the program's five hundred buffers
theorem tb_of_L2 (V : Valuation τ sig (Elt F)) :
    after (opsC9 (F := F)) V (Proc.devRef .tc main_v162) = tb_L2 (V (Proc.devRef .tc main_arg7)) := by
  after_results
  generalize V (Proc.devRef .tc main_arg7) = A
  rfl

set_option maxHeartbeats 4000000 in  -- a stretch of up to forty operations over the program's five hundred buffers
theorem cW_of_L2 (V : Valuation τ sig (Elt F)) :
    after (opsC9 (F := F)) V (Proc.devRef .tc main_v167) = cW_L2 (V (Proc.devRef .tc main_arg8)) := by
  after_results
  generalize V (Proc.devRef .tc main_arg8) = A
  rfl

set_option maxHeartbeats 4000000 in  -- a stretch of up to forty operations over the program's five hundred buffers
theorem wih_of_L2 (V : Valuation τ sig (Elt F)) :
    after (opsC9 (F := F)) V (Proc.devRef .tc main_v169) = gW_L2 (V (Proc.devRef .tc main_arg9)) := by
  after_results
  generalize V (Proc.devRef .tc main_arg9) = A
  rfl

set_option maxHeartbeats 4000000 in  -- a stretch of up to forty operations over the program's five hundred buffers
theorem bih_of_L2 (V : Valuation τ sig (Elt F)) :
    after (opsC9 (F := F)) V (Proc.devRef .tc main_v171) = gb_L2 (V (Proc.devRef .tc main_arg10)) := by
  after_results
  generalize V (Proc.devRef .tc main_arg10) = A
  rfl

set_option maxHeartbeats 4000000 in  -- a stretch of up to forty operations over the program's five hundred buffers
theorem whh_of_L2 (V : Valuation τ sig (Elt F)) :
    after (opsC9 (F := F)) V (Proc.devRef .tc main_v173) = gW_L2 (V (Proc.devRef .tc main_arg11)) := by
  after_results
  generalize V (Proc.devRef .tc main_arg11) = A
  rfl

set_option maxHeartbeats 4000000 in  -- a stretch of up to forty operations over the program's five hundred buffers
theorem bhh_of_L2 (V : Valuation τ sig (Elt F)) :
    after (opsC9 (F := F)) V (Proc.devRef .tc main_v175) = gb_L2 (V (Proc.devRef .tc main_arg12)) := by
  after_results
  generalize V (Proc.devRef .tc main_arg12) = A
  rfl

set_option maxHeartbeats 4000000 in  -- a stretch of up to forty operations over the program's five hundred buffers
/-- The transformed state: the previous state beside the embedding sums through the layer's affine map. -/
theorem trans_of_L2 (V : Valuation τ sig (Elt F)) :
    after (opsC9 (F := F)) V (Proc.devRef .tc main_v165)
      = Stage.transStage (V (Proc.devRef .tc main_v146)) (V (Proc.devRef .tc main_v156)) (tW_L2 (V (Proc.devRef .tc main_arg6))) (tb_L2 (V (Proc.devRef .tc main_arg7))) := by
  after_results
  generalize V (Proc.devRef .tc main_v146) = X
  generalize V (Proc.devRef .tc main_v156) = ZE
  generalize V (Proc.devRef .tc main_arg6) = A
  generalize V (Proc.devRef .tc main_arg7) = B
  rfl

set_option maxHeartbeats 4000000 in  -- a stretch of up to forty operations over the program's five hundred buffers
/-- The convolved rows: the transformed state times the convolution weight. -/
theorem conv_of_L2 (V : Valuation τ sig (Elt F)) :
    after (opsC9 (F := F)) V (Proc.devRef .tc main_v176)
      = Stage.hStage (Stage.transStage (V (Proc.devRef .tc main_v146)) (V (Proc.devRef .tc main_v156)) (tW_L2 (V (Proc.devRef .tc main_arg6))) (tb_L2 (V (Proc.devRef .tc main_arg7))))
          (cW_L2 (V (Proc.devRef .tc main_arg8))) := by
  after_results
  generalize V (Proc.devRef .tc main_v146) = X
  generalize V (Proc.devRef .tc main_v156) = ZE
  generalize V (Proc.devRef .tc main_arg6) = A
  generalize V (Proc.devRef .tc main_arg7) = B
  generalize V (Proc.devRef .tc main_arg8) = C
  rfl

set_option maxHeartbeats 4000000 in  -- a stretch of up to forty operations over the program's five hundred buffers
/-- The messages: the convolved rows gathered at the edges' sources and added at their targets. -/
theorem pass_of_L2 (V : Valuation τ sig (Elt F)) :
    after (opsC10 (F := F)) V (Proc.devRef .tc main_v186)
      = passR (V (Proc.devRef .tc main_v1)) (V (Proc.devRef .tc main_v3)) (V (Proc.devRef .tc main_v176)) := by
  after_results
  generalize V (Proc.devRef .tc main_v1) = src
  generalize V (Proc.devRef .tc main_v3) = dst
  generalize V (Proc.devRef .tc main_v176) = h
  rfl

set_option maxHeartbeats 4000000 in  -- a stretch of up to forty operations over the program's five hundred buffers
/-- The new state: the gated recurrent update of the messages and the transformed state. -/
theorem update_of_L2 (V : Valuation τ sig (Elt F)) :
    after (opsC11 (F := F)) V (Proc.devRef .tc main_v222)
      = Stage.gruStage (V (Proc.devRef .tc main_v186)) (V (Proc.devRef .tc main_v165)) (V (Proc.devRef .tc main_v169)) (V (Proc.devRef .tc main_v171))
          (V (Proc.devRef .tc main_v173)) (V (Proc.devRef .tc main_v175)) := by
  after_results_simp
  generalize V (Proc.devRef .tc main_v186) = M
  generalize V (Proc.devRef .tc main_v165) = XT
  generalize V (Proc.devRef .tc main_v169) = Wih
  generalize V (Proc.devRef .tc main_v171) = bih
  generalize V (Proc.devRef .tc main_v173) = Whh
  generalize V (Proc.devRef .tc main_v175) = bhh
  rfl

end Stretches

/-! ## The layer in the run

The levels of the run before and after the layer's four stretches. A buffer a stretch does not write keeps its
contents through it; the program's arguments keep their launch contents throughout. -/

section Levels

variable {F : FTy → Type} [FloatOps F]

/-- The edges' source row, extracted before the first layer, is still in place after this one. -/
theorem src_L2 (m : (ℓ : Loc nD τ sig) → Buf (Elt F) ℓ) (c : Dev nD) : Lv12 m c (Proc.devRef .tc main_v1) = Lv1 m c (Proc.devRef .tc main_v1) :=
  (opsC11_keeps (Lv11 m c) (r := main_v1) (by decide)).trans <| (opsC10_keeps (Lv10 m c) (r := main_v1) (by decide)).trans <|
    (opsC9_keeps (Lv9 m c) (r := main_v1) (by decide)).trans <| (opsC8_keeps (Lv8 m c) (r := main_v1) (by decide)).trans (src_L1 m c)

/-- The edges' target row likewise. -/
theorem dst_L2 (m : (ℓ : Loc nD τ sig) → Buf (Elt F) ℓ) (c : Dev nD) : Lv12 m c (Proc.devRef .tc main_v3) = Lv1 m c (Proc.devRef .tc main_v3) :=
  (opsC11_keeps (Lv11 m c) (r := main_v3) (by decide)).trans <| (opsC10_keeps (Lv10 m c) (r := main_v3) (by decide)).trans <|
    (opsC9_keeps (Lv9 m c) (r := main_v3) (by decide)).trans <| (opsC8_keeps (Lv8 m c) (r := main_v3) (by decide)).trans (dst_L1 m c)

/-- The embedding sums, of the launch contents of the table stack and of the attribute array. -/
theorem lookup_L2_lv (m : (ℓ : Loc nD τ sig) → Buf (Elt F) ℓ) (c : Dev nD) :
    Lv9 m c (Proc.devRef .tc main_v156)
      = embSumR (plainLookupR (emb_L2 (Lv0 m c (Proc.devRef .tc main_arg5))) (Lv0 m c (Proc.devRef .tc main_arg0))) :=
  (lookup_L2 (Lv8 m c)).trans (by rw [Lv8_arg m c (r := main_arg5) (by decide), Lv8_arg m c (r := main_arg0) (by decide)])

theorem tW_L2_lv (m : (ℓ : Loc nD τ sig) → Buf (Elt F) ℓ) (c : Dev nD) : Lv10 m c (Proc.devRef .tc main_v159) = tW_L2 (Lv0 m c (Proc.devRef .tc main_arg6)) :=
  (tW_of_L2 (Lv9 m c)).trans (by rw [Lv9_arg m c (r := main_arg6) (by decide)])

theorem tb_L2_lv (m : (ℓ : Loc nD τ sig) → Buf (Elt F) ℓ) (c : Dev nD) : Lv10 m c (Proc.devRef .tc main_v162) = tb_L2 (Lv0 m c (Proc.devRef .tc main_arg7)) :=
  (tb_of_L2 (Lv9 m c)).trans (by rw [Lv9_arg m c (r := main_arg7) (by decide)])

theorem cW_L2_lv (m : (ℓ : Loc nD τ sig) → Buf (Elt F) ℓ) (c : Dev nD) : Lv10 m c (Proc.devRef .tc main_v167) = cW_L2 (Lv0 m c (Proc.devRef .tc main_arg8)) :=
  (cW_of_L2 (Lv9 m c)).trans (by rw [Lv9_arg m c (r := main_arg8) (by decide)])

theorem wih_L2_lv (m : (ℓ : Loc nD τ sig) → Buf (Elt F) ℓ) (c : Dev nD) : Lv10 m c (Proc.devRef .tc main_v169) = gW_L2 (Lv0 m c (Proc.devRef .tc main_arg9)) :=
  (wih_of_L2 (Lv9 m c)).trans (by rw [Lv9_arg m c (r := main_arg9) (by decide)])

theorem bih_L2_lv (m : (ℓ : Loc nD τ sig) → Buf (Elt F) ℓ) (c : Dev nD) : Lv10 m c (Proc.devRef .tc main_v171) = gb_L2 (Lv0 m c (Proc.devRef .tc main_arg10)) :=
  (bih_of_L2 (Lv9 m c)).trans (by rw [Lv9_arg m c (r := main_arg10) (by decide)])

theorem whh_L2_lv (m : (ℓ : Loc nD τ sig) → Buf (Elt F) ℓ) (c : Dev nD) : Lv10 m c (Proc.devRef .tc main_v173) = gW_L2 (Lv0 m c (Proc.devRef .tc main_arg11)) :=
  (whh_of_L2 (Lv9 m c)).trans (by rw [Lv9_arg m c (r := main_arg11) (by decide)])

theorem bhh_L2_lv (m : (ℓ : Loc nD τ sig) → Buf (Elt F) ℓ) (c : Dev nD) : Lv10 m c (Proc.devRef .tc main_v175) = gb_L2 (Lv0 m c (Proc.devRef .tc main_arg12)) :=
  (bhh_of_L2 (Lv9 m c)).trans (by rw [Lv9_arg m c (r := main_arg12) (by decide)])

/-- The transformed state, of the previous layer's state, the embedding sums and the two parameter buffers. -/
theorem trans_L2_lv (m : (ℓ : Loc nD τ sig) → Buf (Elt F) ℓ) (c : Dev nD) :
    Lv10 m c (Proc.devRef .tc main_v165)
      = Stage.transStage (Lv8 m c (Proc.devRef .tc main_v146)) (Lv9 m c (Proc.devRef .tc main_v156)) (Lv10 m c (Proc.devRef .tc main_v159)) (Lv10 m c (Proc.devRef .tc main_v162)) :=
  (trans_of_L2 (Lv9 m c)).trans (by
    rw [show Lv10 m c (Proc.devRef .tc main_v159) = _ from tW_of_L2 (Lv9 m c), show Lv10 m c (Proc.devRef .tc main_v162) = _ from tb_of_L2 (Lv9 m c),
      show Lv9 m c (Proc.devRef .tc main_v146) = Lv8 m c (Proc.devRef .tc main_v146) from opsC8_keeps (Lv8 m c) (r := main_v146) (by decide)])

/-- The convolved rows, of the transformed state and the convolution weight buffer. -/
theorem conv_L2_lv (m : (ℓ : Loc nD τ sig) → Buf (Elt F) ℓ) (c : Dev nD) :
    Lv10 m c (Proc.devRef .tc main_v176) = Stage.hStage (Lv10 m c (Proc.devRef .tc main_v165)) (Lv10 m c (Proc.devRef .tc main_v167)) :=
  (conv_of_L2 (Lv9 m c)).trans (by
    rw [show Lv10 m c (Proc.devRef .tc main_v165) = _ from trans_of_L2 (Lv9 m c), show Lv10 m c (Proc.devRef .tc main_v167) = _ from cW_of_L2 (Lv9 m c)])

/-- The layer's messages: the edge pass, over the edge rows extracted before the first layer, of the convolved rows. -/
theorem pass2R (m : (ℓ : Loc nD τ sig) → Buf (Elt F) ℓ) (c : Dev nD) :
    Lv11 m c (Proc.devRef .tc main_v186)
      = passR (Lv1 m c (Proc.devRef .tc main_v1)) (Lv1 m c (Proc.devRef .tc main_v3)) (Lv10 m c (Proc.devRef .tc main_v176)) :=
  (pass_of_L2 (Lv10 m c)).trans (by
    rw [show Lv10 m c (Proc.devRef .tc main_v1) = Lv1 m c (Proc.devRef .tc main_v1) from
          (opsC9_keeps (Lv9 m c) (r := main_v1) (by decide)).trans <| (opsC8_keeps (Lv8 m c) (r := main_v1) (by decide)).trans (src_L1 m c),
      show Lv10 m c (Proc.devRef .tc main_v3) = Lv1 m c (Proc.devRef .tc main_v3) from
          (opsC9_keeps (Lv9 m c) (r := main_v3) (by decide)).trans <| (opsC8_keeps (Lv8 m c) (r := main_v3) (by decide)).trans (dst_L1 m c)])

/-- The layer's new state, of the messages, the transformed state and the four gate parameter buffers. -/
theorem update_L2_lv (m : (ℓ : Loc nD τ sig) → Buf (Elt F) ℓ) (c : Dev nD) :
    Lv12 m c (Proc.devRef .tc main_v222)
      = Stage.gruStage (Lv11 m c (Proc.devRef .tc main_v186)) (Lv10 m c (Proc.devRef .tc main_v165)) (Lv10 m c (Proc.devRef .tc main_v169)) (Lv10 m c (Proc.devRef .tc main_v171))
          (Lv10 m c (Proc.devRef .tc main_v173)) (Lv10 m c (Proc.devRef .tc main_v175)) :=
  (update_of_L2 (Lv11 m c)).trans (by
    rw [show Lv11 m c (Proc.devRef .tc main_v165) = Lv10 m c (Proc.devRef .tc main_v165) from opsC10_keeps (Lv10 m c) (r := main_v165) (by decide),
      show Lv11 m c (Proc.devRef .tc main_v169) = Lv10 m c (Proc.devRef .tc main_v169) from opsC10_keeps (Lv10 m c) (r := main_v169) (by decide),
      show Lv11 m c (Proc.devRef .tc main_v171) = Lv10 m c (Proc.devRef .tc main_v171) from opsC10_keeps (Lv10 m c) (r := main_v171) (by decide),
      show Lv11 m c (Proc.devRef .tc main_v173) = Lv10 m c (Proc.devRef .tc main_v173) from opsC10_keeps (Lv10 m c) (r := main_v173) (by decide),
      show Lv11 m c (Proc.devRef .tc main_v175) = Lv10 m c (Proc.devRef .tc main_v175) from opsC10_keeps (Lv10 m c) (r := main_v175) (by decide)])

end Levels

/-! ## The layer on the extended reals

Read as matrices of extended reals, the layer's new state is the layer function of the specification applied to the
transformed state and the layer's parameters, the edge pass being the reference's own gather and scatter-add over the
edge rows. Row by row: the update stage at (r, q) is the gated update of row r of the messages and row r of the
transformed state; row r of the transformed state is the affine map of row r of the previous state beside row r of
the embedding sums; and the messages are the edge pass of the convolved rows, whose row r is row r of the transformed
state times the convolution weight. -/

section Ideal

/-- Row r of the transformed state is the specification's transform of row r. -/
theorem trans_row_L2 (X ZE : (⟨S100000x64, .f32⟩ : BufTy).Contents (Elt Ideal)) (TW : (⟨S128x64, .f32⟩ : BufTy).Contents (Elt Ideal))
    (TB : (⟨S64, .f32⟩ : BufTy).Contents (Elt Ideal)) (r : Fin 100000) :
    (fun k => Stage.transStage (F := Ideal) X ZE TW TB (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r :=
  funext fun k => Stage.transStage_apply X ZE TW TB r k

/-- The convolved rows are the specification's convolution of the transformed state, laid out as an array. -/
theorem conv_arr_L2 (X ZE : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal)) :
    (Stage.hStage (F := Ideal) (Stage.transStage X ZE TW TB) CW : Cert.Sem.Arr 100000 64)
      = Cert.Sem.ofMat (Cert.Sem.conv
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))) := by
  refine Cert.Sem.arr_ext fun r q => ?_
  refine (Stage.hStage_apply (Stage.transStage X ZE TW TB) CW r q).trans ?_
  rw [trans_row_L2 X ZE TW TB r]
  rfl

/-- The update stage over the edge pass of the convolved rows, read as a matrix, is the specification's layer: the
    statement over arrays named once, none of them opened. -/
theorem layer_arr_L2 (src dst : (⟨S1600000, .i32⟩ : BufTy).Contents (Elt Ideal))
    (X ZE O M H XT : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal))
    (Wih Whh : (⟨S64x192, .f32⟩ : BufTy).Contents (Elt Ideal)) (bih bhh : (⟨S192, .f32⟩ : BufTy).Contents (Elt Ideal))
    (hO : O = Stage.gruStage M XT Wih bih Whh bhh) (hM : M = passR src dst H) (hH : H = Stage.hStage XT CW)
    (hXT : XT = Stage.transStage X ZE TW TB) :
    Cert.Sem.toMat (O : Cert.Sem.Arr 100000 64)
      = Cert.Sem.layerOf (passR (F := Ideal) src dst)
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))
          (Cert.Sem.toMat (Wih : Cert.Sem.Arr 64 192)) (Cert.Sem.toVec bih)
          (Cert.Sem.toMat (Whh : Cert.Sem.Arr 64 192)) (Cert.Sem.toVec bhh) := by
  have hrow : ∀ r : Fin 100000, (fun k => XT (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r := fun r => by
    rw [hXT]; exact trans_row_L2 X ZE TW TB r
  have hconv : H = Cert.Sem.ofMat (Cert.Sem.conv
        (Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB))
        (Cert.Sem.toMat (CW : Cert.Sem.Arr 64 64))) := by
    rw [hH, hXT]; exact conv_arr_L2 X ZE TW TB CW
  funext r q
  show O (ix2 r q) = _
  rw [hO]
  refine (Stage.gruStage_apply M XT Wih bih Whh bhh r q).trans ?_
  rw [hrow r, hM, hconv]
  rfl

/-- The layer's new state is the specification's layer applied to the transformed state. -/
theorem layer2R (m : (ℓ : Loc nD τ sig) → Buf (Elt Ideal) ℓ) (c : Dev nD) :
    Cert.Sem.toMat (Lv12 m c (Proc.devRef .tc main_v222) : Cert.Sem.Arr 100000 64)
      = Cert.Sem.layerOf (passR (F := Ideal) (Lv1 m c (Proc.devRef .tc main_v1)) (Lv1 m c (Proc.devRef .tc main_v3)))
          (Cert.Sem.transform (Cert.Sem.toMat (Lv8 m c (Proc.devRef .tc main_v146) : Cert.Sem.Arr 100000 64))
            (Cert.Sem.toMat (Lv9 m c (Proc.devRef .tc main_v156) : Cert.Sem.Arr 100000 64))
            (Cert.Sem.toMat (Lv10 m c (Proc.devRef .tc main_v159) : Cert.Sem.Arr 128 64)) (Cert.Sem.toVec (Lv10 m c (Proc.devRef .tc main_v162))))
          (Cert.Sem.toMat (Lv10 m c (Proc.devRef .tc main_v167) : Cert.Sem.Arr 64 64))
          (Cert.Sem.toMat (Lv10 m c (Proc.devRef .tc main_v169) : Cert.Sem.Arr 64 192)) (Cert.Sem.toVec (Lv10 m c (Proc.devRef .tc main_v171)))
          (Cert.Sem.toMat (Lv10 m c (Proc.devRef .tc main_v173) : Cert.Sem.Arr 64 192)) (Cert.Sem.toVec (Lv10 m c (Proc.devRef .tc main_v175))) :=
  layer_arr_L2 _ _ _ _ _ _ _ _ _ _ _ _ _ _ _ (update_L2_lv m c) (pass2R m c) (conv_L2_lv m c) (trans_L2_lv m c)

end Ideal

end Cert.ReferenceIdeal.Layers

end
-- ==== Proof.CrossL2.lean ====
import proofs.«157269_j2267742732766_1_alg».proof.Proof.CrossL1
import proofs.«157269_j2267742732766_1_alg».proof.Proof.KL2
import proofs.«157269_j2267742732766_1_alg».proof.Proof.RL2

/-!
# Layer 2 of the two programs agrees

Each layer after the first transforms the previous state and the layer's embedding sums through the layer's affine
map, then convolves, passes messages along the edges and updates. Both programs' layer theorems state the layer's
result as the specification's layer function of the buffers the host stretches leave; those buffers are, on each
side, the same functions of the launch arguments, the launch arguments agree, and the previous states agree by the
layer before.
-/

noncomputable section

namespace Cert.Cross

open Idealize.ShloMosaic Idealize.ShloMosaic.ValueIdx Idealize.SL.Sem

/-! ## The layer's slices: the same functions in both programs -/

section Pairs
variable {F : FTy → Type} [FloatOps F] [Cert.KernelIdeal.Facts₀] [Cert.ReferenceIdeal.Facts₀]

theorem table_L2_eq (a : (⟨Cert.KernelIdeal.S5x100x64, .f32⟩ : BufTy).Contents (Elt F)) :
    Cert.KernelIdeal.Layers.table_L2 a = Cert.ReferenceIdeal.Layers.emb_L2 a := rfl
theorem tW_L2_eq (a : (⟨Cert.KernelIdeal.S4x128x64, .f32⟩ : BufTy).Contents (Elt F)) :
    Cert.KernelIdeal.Layers.tWOf_L2 a = Cert.ReferenceIdeal.Layers.tW_L2 a := rfl
theorem cW_L2_eq (a : (⟨Cert.KernelIdeal.S5x64x64, .f32⟩ : BufTy).Contents (Elt F)) :
    Cert.KernelIdeal.Layers.cWOf_L2 a = Cert.ReferenceIdeal.Layers.cW_L2 a := rfl
theorem gateW_L2_eq (a : (⟨Cert.KernelIdeal.S5x64x192, .f32⟩ : BufTy).Contents (Elt F)) :
    Cert.KernelIdeal.Layers.gateW_L2 a = Cert.ReferenceIdeal.Layers.gW_L2 a := rfl
theorem tb_L2_row (a : (⟨Cert.KernelIdeal.S4x64, .f32⟩ : BufTy).Contents (Elt F)) :
    Cert.KernelIdeal.Layers.tbOf_L2 a
      = shapeCast Cert.KernelIdeal.S1x64 (Cert.ReferenceIdeal.Layers.tb_L2 a) Cert.KernelIdeal.Facts₀.shapeCasts_S64_S1x64 := rfl
theorem gateB_L2_row (a : (⟨Cert.KernelIdeal.S5x192, .f32⟩ : BufTy).Contents (Elt F)) :
    Cert.KernelIdeal.Layers.gateB_L2 a
      = shapeCast Cert.KernelIdeal.S1x192 (Cert.ReferenceIdeal.Layers.gb_L2 a) Cert.KernelIdeal.Facts₀.shapeCasts_S192_S1x192 := rfl

end Pairs

/-- The bias of the layer's affine map: the tiled program's one-row array read as a row is the reference's vector. -/
theorem tb_L2_eq [Cert.KernelIdeal.Facts₀] [Cert.ReferenceIdeal.Facts₀] (a : (⟨Cert.KernelIdeal.S4x64, .f32⟩ : BufTy).Contents (Elt Ideal)) :
    Cert.Sem.toRow (Cert.KernelIdeal.Layers.tbOf_L2 (F := Ideal) a) = Cert.Sem.toVec (Cert.ReferenceIdeal.Layers.tb_L2 (F := Ideal) a) := by
  rw [tb_L2_row]
  exact Cert.LibRowVec.toRow_shapeCast _ _

/-- A gate bias of the layer, likewise. -/
theorem gateB_L2_eq [Cert.KernelIdeal.Facts₀] [Cert.ReferenceIdeal.Facts₀] (a : (⟨Cert.KernelIdeal.S5x192, .f32⟩ : BufTy).Contents (Elt Ideal)) :
    Cert.Sem.toRow (Cert.KernelIdeal.Layers.gateB_L2 (F := Ideal) a) = Cert.Sem.toVec (Cert.ReferenceIdeal.Layers.gb_L2 (F := Ideal) a) := by
  rw [gateB_L2_row]
  exact Cert.LibRowVec.toRow_shapeCast _ _

/-! ## The layer -/

section Chain
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- LAYER 2: the states the two programs leave agree. -/
theorem x2 (hz : InRange m) (hag : Agree m m') (c : Dev Cert.KernelIdeal.nD) :
    (Cert.KernelIdeal.Gen.W18 m ρ c (Proc.devRef .tc Cert.KernelIdeal.main_v97) : Cert.Sem.Arr 100000 64)
      = (Cert.ReferenceIdeal.RunV.Lv12 m' c (Proc.devRef .tc Cert.ReferenceIdeal.main_v222) : Cert.Sem.Arr 100000 64) := by
  obtain ⟨h0, h1, h2, h3, h4, h5, h6, h7, h8, h9, h10, h11, h12, -⟩ := hag c
  apply Cert.Sem.toMat_inj
  refine (Cert.KernelIdeal.Layers.layer2 m ρ c).trans (Eq.trans ?_ (Cert.ReferenceIdeal.Layers.layer2R m' c).symm)
  refine layerOf_congr (passes_eq m ρ m' hag c) (transform_congr ?_ ?_ ?_ ?_) ?_ ?_ ?_ ?_ ?_
  · exact congrArg (Cert.Sem.toMat (R := 100000) (C := 64)) (x1 m ρ m' hz hag c)
  · exact congrArg (Cert.Sem.toMat (R := 100000) (C := 64))
      ((Cert.KernelIdeal.Layers.emb_L2 m ρ c).trans
        ((embSums_eq _ _ ((table_L2_eq _).trans (congrArg (Cert.ReferenceIdeal.Layers.emb_L2 (F := Ideal)) h5.symm)) _ _ h0.symm (hz c)).trans
          (Cert.ReferenceIdeal.Layers.lookup_L2_lv m' c).symm))
  · exact congrArg (Cert.Sem.toMat (R := 128) (C := 64))
      (leaf (Cert.KernelIdeal.Layers.tW_L2 m ρ c) (Cert.ReferenceIdeal.Layers.tW_L2_lv m' c) (fun a => tW_L2_eq a) h6)
  · exact leafRow (Cert.KernelIdeal.Layers.tb_L2 m ρ c) (Cert.ReferenceIdeal.Layers.tb_L2_lv m' c) (fun a => tb_L2_eq a) h7
  · exact congrArg (Cert.Sem.toMat (R := 64) (C := 64))
      (leaf (Cert.KernelIdeal.Layers.cW_L2 m ρ c) (Cert.ReferenceIdeal.Layers.cW_L2_lv m' c) (fun a => cW_L2_eq a) h8)
  · exact congrArg (Cert.Sem.toMat (R := 64) (C := 192))
      (leaf (Cert.KernelIdeal.Layers.wih_L2 m ρ c) (Cert.ReferenceIdeal.Layers.wih_L2_lv m' c) (fun a => gateW_L2_eq a) h9)
  · exact leafRow (Cert.KernelIdeal.Layers.bih_L2 m ρ c) (Cert.ReferenceIdeal.Layers.bih_L2_lv m' c) (fun a => gateB_L2_eq a) h10
  · exact congrArg (Cert.Sem.toMat (R := 64) (C := 192))
      (leaf (Cert.KernelIdeal.Layers.whh_L2 m ρ c) (Cert.ReferenceIdeal.Layers.whh_L2_lv m' c) (fun a => gateW_L2_eq a) h11)
  · exact leafRow (Cert.KernelIdeal.Layers.bhh_L2 m ρ c) (Cert.ReferenceIdeal.Layers.bhh_L2_lv m' c) (fun a => gateB_L2_eq a) h12

end Chain

end Cert.Cross

end
-- ==== Proof.KReg6.lean ====
/-
  The transformed row of a layer after the first, and its product with the layer's message matrix.

  The region walks the 100000 rows in ten blocks of 10000. At each block it reads the same rows of the previous
  state and of the embedding sums, and three whole arrays: the 128 x 64 weight of the layer's affine map, its
  1 x 64 bias row and the 64 x 64 message matrix. It writes back the transformed block (previous state beside
  embedding sum, through the affine map) and that block times the message matrix. The ten blocks are disjoint and
  fill the array, so each output array ends holding at row r a function of row r of the two row-blocked inputs
  and of the three whole arrays.

  Per output array: the printed index maps of the seven windows are related once over the ten points; what one
  point writes back is that point's block of one whole-array function; membership in a block is a range of rows;
  row r lies in the block of point r / 10000; the whole-array statement follows from the cover.
-/
import proofs.«157269_j2267742732766_1_alg».proof.Proof.Gen.KernelIdeal.Frame
import proofs.«157269_j2267742732766_1_alg».proof.Proof.Rows
import proofs.«157269_j2267742732766_1_alg».proof.Proof.KPayA
import Idealize.ShloMosaic.Lib.Pipeline.Value
import Idealize.ShloMosaic.Lib.ValueIdx

set_option maxRecDepth 16384

noncomputable section

namespace Cert.KernelIdeal.Reg6

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-! ## The row functions the two output arrays end holding -/

/-- The transformed row: at row `r`, column `q`, the previous state's row beside the embedding sums' row, through
    the affine map. -/
def transRow (A0 A1 : S100000x64.Idx → Elt Ideal .f32) (A2 : S128x64.Idx → Elt Ideal .f32)
    (A3 : S1x64.Idx → Elt Ideal .f32) : S100000x64.Idx → Elt Ideal .f32 :=
  fun i => Cert.Rows.trans (fun k : Fin 64 => A0 (ix2 (i 0 : Fin 100000) k))
    (fun k : Fin 64 => A1 (ix2 (i 0 : Fin 100000) k)) (fun (k : Fin 128) (n : Fin 64) => A2 (ix2 k n))
    (fun n : Fin 64 => A3 (ix2 (0 : Fin 1) n)) (i 1 : Fin 64)

/-- The transformed row times the message matrix. -/
def transDot (A0 A1 : S100000x64.Idx → Elt Ideal .f32) (A2 : S128x64.Idx → Elt Ideal .f32)
    (A3 : S1x64.Idx → Elt Ideal .f32) (A4 : S64x64.Idx → Elt Ideal .f32) : S100000x64.Idx → Elt Ideal .f32 :=
  fun i => Cert.Rows.dot
    (fun j : Fin 64 => Cert.Rows.trans (fun k : Fin 64 => A0 (ix2 (i 0 : Fin 100000) k))
      (fun k : Fin 64 => A1 (ix2 (i 0 : Fin 100000) k)) (fun (k : Fin 128) (n : Fin 64) => A2 (ix2 k n))
      (fun n : Fin 64 => A3 (ix2 (0 : Fin 1) n)) j)
    (fun (k n : Fin 64) => A4 (ix2 k n)) (i 1 : Fin 64)

/-- A row times a matrix depends only on the row's entries, the matrix's entries and the column. -/
theorem dot_congr {K N : ℕ} {x x' : Fin K → EReal} {W W' : Fin K → Fin N → EReal} {c c' : Fin N}
    (hx : ∀ k, x k = x' k) (hW : ∀ k n, W k n = W' k n) (hc : c = c') :
    Cert.Rows.dot x W c = Cert.Rows.dot x' W' c' := by
  subst hc
  have ex : x = x' := funext hx
  have eW : W = W' := funext fun k => funext fun n => hW k n
  rw [ex, eW]

/-- The transformed row depends only on the entries of its two rows, of the weight and of the bias, and the column. -/
theorem trans_congr {x x' ze ze' : Fin 64 → EReal} {tW tW' : Fin 128 → Fin 64 → EReal} {tb tb' : Fin 64 → EReal}
    {c c' : Fin 64} (hx : ∀ k, x k = x' k) (hze : ∀ k, ze k = ze' k) (hW : ∀ k n, tW k n = tW' k n)
    (hb : ∀ n, tb n = tb' n) (hc : c = c') :
    Cert.Rows.trans x ze tW tb c = Cert.Rows.trans x' ze' tW' tb' c' := by
  subst hc
  have ex : x = x' := funext hx
  have eze : ze = ze' := funext hze
  have eW : tW = tW' := funext fun k => funext fun n => hW k n
  have eb : tb = tb' := funext hb
  rw [ex, eze, eW, eb]

/-! ## The index maps, once over the grid -/

/-- The zero offsets of a whole-buffer access, as a constant function. -/
theorem zero_off : (![0, 0] : Fin 2 → Nat) = fun _ => 0 := funext fun a => by fin_cases a <;> rfl

/-- At point `t` the four row-blocked windows sit at block `(t, 0)`, the three whole-array windows at `(0, 0)`. -/
theorem index_maps : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-! ## The input windows' blocks, read off their arrays -/

/-- Row `p` of the block of the previous state at point `t` is row `10000 t + p` of the array. -/
theorem prev_block (c : Dev nD) (t : Fin cfg6.N) (p : Fin 10000) (k : Fin 64) (r : Fin 100000)
    (hr : r.val = t.val * 10000 + p.val) :
    (iblk6 V c 0 t : Vec Ideal S10000x64 .f32) (ix2 p k)
      = (V c main_v97 : S100000x64.Idx → Elt Ideal .f32) (ix2 r k) := by
  obtain ⟨e0, e1, -⟩ := index_maps t
  unfold iblk6
  rw [View.read_apply]
  show V c main_v97 _ = V c main_v97 _
  congr 1
  funext a
  apply Fin.ext
  match a with
  | ⟨0, _⟩ => show win6_0.index t (0 : Fin 2) * 10000 + 1 * p.val = r.val; omega
  | ⟨1, _⟩ => show win6_0.index t (1 : Fin 2) * 64 + 1 * k.val = k.val; omega

/-- Row `p` of the block of the embedding sums at point `t` is row `10000 t + p` of the array. -/
theorem sums_block (c : Dev nD) (t : Fin cfg6.N) (p : Fin 10000) (k : Fin 64) (r : Fin 100000)
    (hr : r.val = t.val * 10000 + p.val) :
    (iblk6 V c 1 t : Vec Ideal S10000x64 .f32) (ix2 p k)
      = (V c main_v101 : S100000x64.Idx → Elt Ideal .f32) (ix2 r k) := by
  obtain ⟨-, -, e0, e1, -⟩ := index_maps t
  unfold iblk6
  rw [View.read_apply]
  show V c main_v101 _ = V c main_v101 _
  congr 1
  funext a
  apply Fin.ext
  match a with
  | ⟨0, _⟩ => show win6_1.index t (0 : Fin 2) * 10000 + 1 * p.val = r.val; omega
  | ⟨1, _⟩ => show win6_1.index t (1 : Fin 2) * 64 + 1 * k.val = k.val; omega

/-- The weight window's block at every point is the weight. -/
theorem weight_block (c : Dev nD) (t : Fin cfg6.N) (k : Fin 128) (n : Fin 64) :
    (iblk6 V c 2 t : Vec Ideal S128x64 .f32) (ix2 k n)
      = (V c main_v106 : S128x64.Idx → Elt Ideal .f32) (ix2 k n) := by
  obtain ⟨-, -, -, -, e0, e1, -⟩ := index_maps t
  unfold iblk6
  rw [View.read_apply]
  show V c main_v106 _ = V c main_v106 _
  congr 1
  funext a
  apply Fin.ext
  match a with
  | ⟨0, _⟩ => show win6_2.index t (0 : Fin 2) * 128 + 1 * k.val = k.val; omega
  | ⟨1, _⟩ => show win6_2.index t (1 : Fin 2) * 64 + 1 * n.val = n.val; omega

/-- The bias window's block at every point is the bias row. -/
theorem bias_block (c : Dev nD) (t : Fin cfg6.N) (k : Fin 1) (n : Fin 64) :
    (iblk6 V c 3 t : Vec Ideal S1x64 .f32) (ix2 k n)
      = (V c main_v104 : S1x64.Idx → Elt Ideal .f32) (ix2 k n) := by
  obtain ⟨-, -, -, -, -, -, e0, e1, -⟩ := index_maps t
  unfold iblk6
  rw [View.read_apply]
  show V c main_v104 _ = V c main_v104 _
  congr 1
  funext a
  apply Fin.ext
  match a with
  | ⟨0, _⟩ => show win6_3.index t (0 : Fin 2) * 1 + 1 * k.val = k.val; omega
  | ⟨1, _⟩ => show win6_3.index t (1 : Fin 2) * 64 + 1 * n.val = n.val; omega

/-- The message matrix window's block at every point is the matrix. -/
theorem matrix_block (c : Dev nD) (t : Fin cfg6.N) (k n : Fin 64) :
    (iblk6 V c 4 t : Vec Ideal S64x64 .f32) (ix2 k n)
      = (V c main_v108 : S64x64.Idx → Elt Ideal .f32) (ix2 k n) := by
  obtain ⟨-, -, -, -, -, -, -, -, e0, e1, -⟩ := index_maps t
  unfold iblk6
  rw [View.read_apply]
  show V c main_v108 _ = V c main_v108 _
  congr 1
  funext a
  apply Fin.ext
  match a with
  | ⟨0, _⟩ => show win6_4.index t (0 : Fin 2) * 64 + 1 * k.val = k.val; omega
  | ⟨1, _⟩ => show win6_4.index t (1 : Fin 2) * 64 + 1 * n.val = n.val; omega

/-! ## The body's two payloads at an index of the block -/

/-- The first payload at row `j 0`, column `j 1`: the transformed row of the loaded blocks. -/
theorem trans_at (x0 x1 : Vec Ideal S10000x64 .f32) (x2 : Vec Ideal S128x64 .f32) (x3 : Vec Ideal S1x64 .f32)
    (j : S10000x64.Idx) :
    k6_pay1 (F := Ideal) x0 x1 x2 x3 j
      = Cert.Rows.trans (fun k : Fin 64 => x0 (ix2 (j 0 : Fin 10000) k)) (fun k : Fin 64 => x1 (ix2 (j 0 : Fin 10000) k))
          (fun (k : Fin 128) (n : Fin 64) => x2 (ix2 k n)) (fun n : Fin 64 => x3 (ix2 (0 : Fin 1) n)) (j 1 : Fin 64) := by
  obtain ⟨p, q, rfl⟩ : ∃ (p : Fin 10000) (q : Fin 64), j = ix2 p q := ⟨j 0, j 1, eq_ix2 j⟩
  exact Pay.k6_pay1_apply x0 x1 x2 x3 p q

/-- The second payload: the transformed row times the loaded message matrix. -/
theorem transDot_at (x0 x1 : Vec Ideal S10000x64 .f32) (x2 : Vec Ideal S128x64 .f32) (x3 : Vec Ideal S1x64 .f32)
    (x4 : Vec Ideal S64x64 .f32) (j : S10000x64.Idx) :
    k6_pay2 (F := Ideal) x0 x1 x2 x3 x4 j
      = Cert.Rows.dot
          (fun i : Fin 64 => Cert.Rows.trans (fun k : Fin 64 => x0 (ix2 (j 0 : Fin 10000) k))
            (fun k : Fin 64 => x1 (ix2 (j 0 : Fin 10000) k)) (fun (k : Fin 128) (n : Fin 64) => x2 (ix2 k n))
            (fun n : Fin 64 => x3 (ix2 (0 : Fin 1) n)) i)
          (fun (k n : Fin 64) => x4 (ix2 k n)) (j 1 : Fin 64) := by
  obtain ⟨p, q, rfl⟩ : ∃ (p : Fin 10000) (q : Fin 64), j = ix2 p q := ⟨j 0, j 1, eq_ix2 j⟩
  exact Pay.k6_pay2_apply x0 x1 x2 x3 x4 p q

/-! ## Output window 5: the transformed rows -/

/-- What point `t` writes back through window 5 is block `t` of the transformed rows. -/
theorem flushed5_eq (c : Dev nD) (t : Fin cfg6.N) :
    (dat6 V c).flushed 5 t = ((cfg6.win 5).blk t).view.read (Elt Ideal)
      (transRow (V c main_v97) (V c main_v101) (V c main_v106) (V c main_v104)) := by
  show (cfg6.win 5).cut (grid6.coords t) ((dat6 V c).after 5 t) = _
  rw [after6_5]
  unfold out6_5
  rw [View.canon_unit_zero zero_off]
  simp only [View.ld_unit_zero (S := S10000x64) zero_off, View.ld_unit_zero (S := S128x64) zero_off,
    View.ld_unit_zero (S := S1x64) zero_off]
  obtain ⟨-, -, -, -, -, -, -, -, -, -, e0, e1, -⟩ := index_maps t
  funext j
  refine (trans_at _ _ _ _ _).trans ?_
  show Cert.Rows.trans _ _ _ _ _
    = transRow (V c main_v97) (V c main_v101) (V c main_v106) (V c main_v104) (((cfg6.win 5).blk t).view.emb j)
  unfold transRow
  refine trans_congr (fun k => ?_) (fun k => ?_) (fun k n => ?_) (fun n => ?_) ?_
  · refine prev_block V c t _ k _ ?_
    show win6_5.index t (0 : Fin 2) * 10000 + 1 * (j 0).val = t.val * 10000 + (j 0).val
    omega
  · refine sums_block V c t _ k _ ?_
    show win6_5.index t (0 : Fin 2) * 10000 + 1 * (j 0).val = t.val * 10000 + (j 0).val
    omega
  · exact weight_block V c t k n
  · exact bias_block V c t 0 n
  · apply Fin.ext
    show (j 1).val = win6_5.index t (1 : Fin 2) * 64 + 1 * (j 1).val
    omega

/-- An index is in point `t`'s block of window 5 iff each coordinate is in the block's range on its axis. -/
theorem mem_blk5 (t : Fin cfg6.N) (i : S100000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v109_0).slice (win6_5.rect t)).set ↔ _
  rw [View.set_slice_whole, Rect.mem_set_unit]
  exact Iff.rfl

/-- Row `r` lies in the block of point `r / 10000`. -/
theorem cover5 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : grid6.N = 10 := N_6
  let t : Fin cfg6.N := ⟨(i 0).val / 10000, by show (i 0).val / 10000 < grid6.N; rw [hN]; omega⟩
  refine ⟨t, flush6_5 t, ?_⟩
  rw [mem_blk5]
  obtain ⟨-, -, -, -, -, -, -, -, -, -, e0, e1, -⟩ := index_maps t
  have ht : t.val = (i 0).val / 10000 := rfl
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- The first output array after the region: the transformed rows. -/
theorem array5 (c : Dev nD) :
    (dat6 V c).arrAt 5 cfg6.N = transRow (V c main_v97) (V c main_v101) (V c main_v106) (V c main_v104) :=
  (dat6 V c).arrAt_eq_of_cover 5 (transRow (V c main_v97) (V c main_v101) (V c main_v106) (V c main_v104))
    (fun t _ => flushed5_eq V c t) cover5

/-! ## Output window 6: the transformed rows times the message matrix -/

/-- What point `t` writes back through window 6 is block `t` of "transformed row times matrix". -/
theorem flushed6_eq (c : Dev nD) (t : Fin cfg6.N) :
    (dat6 V c).flushed 6 t = ((cfg6.win 6).blk t).view.read (Elt Ideal)
      (transDot (V c main_v97) (V c main_v101) (V c main_v106) (V c main_v104) (V c main_v108)) := by
  show (cfg6.win 6).cut (grid6.coords t) ((dat6 V c).after 6 t) = _
  rw [after6_6]
  unfold out6_6
  rw [View.canon_unit_zero zero_off]
  simp only [View.ld_unit_zero (S := S10000x64) zero_off, View.ld_unit_zero (S := S128x64) zero_off,
    View.ld_unit_zero (S := S1x64) zero_off, View.ld_unit_zero (S := S64x64) zero_off]
  obtain ⟨-, -, -, -, -, -, -, -, -, -, -, -, e0, e1⟩ := index_maps t
  funext j
  refine (transDot_at _ _ _ _ _ _).trans ?_
  show Cert.Rows.dot _ _ _
    = transDot (V c main_v97) (V c main_v101) (V c main_v106) (V c main_v104) (V c main_v108)
        (((cfg6.win 6).blk t).view.emb j)
  unfold transDot
  refine dot_congr (fun i => trans_congr (fun k => ?_) (fun k => ?_) (fun k n => ?_) (fun n => ?_) rfl)
    (fun k n => ?_) ?_
  · refine prev_block V c t _ k _ ?_
    show win6_6.index t (0 : Fin 2) * 10000 + 1 * (j 0).val = t.val * 10000 + (j 0).val
    omega
  · refine sums_block V c t _ k _ ?_
    show win6_6.index t (0 : Fin 2) * 10000 + 1 * (j 0).val = t.val * 10000 + (j 0).val
    omega
  · exact weight_block V c t k n
  · exact bias_block V c t 0 n
  · exact matrix_block V c t k n
  · apply Fin.ext
    show (j 1).val = win6_6.index t (1 : Fin 2) * 64 + 1 * (j 1).val
    omega

/-- An index is in point `t`'s block of window 6 iff each coordinate is in the block's range on its axis. -/
theorem mem_blk6 (t : Fin cfg6.N) (i : S100000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v109_1).slice (win6_6.rect t)).set ↔ _
  rw [View.set_slice_whole, Rect.mem_set_unit]
  exact Iff.rfl

/-- Row `r` lies in the block of point `r / 10000`. -/
theorem cover6 (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hN : grid6.N = 10 := N_6
  let t : Fin cfg6.N := ⟨(i 0).val / 10000, by show (i 0).val / 10000 < grid6.N; rw [hN]; omega⟩
  refine ⟨t, flush6_6 t, ?_⟩
  rw [mem_blk6]
  obtain ⟨-, -, -, -, -, -, -, -, -, -, -, -, e0, e1⟩ := index_maps t
  have ht : t.val = (i 0).val / 10000 := rfl
  intro a
  match a with
  | ⟨0, _⟩ => show win6_6.index t (0 : Fin 2) * 10000 ≤ (i 0).val ∧ (i 0).val < win6_6.index t (0 : Fin 2) * 10000 + 10000; omega
  | ⟨1, _⟩ => show win6_6.index t (1 : Fin 2) * 64 ≤ (i 1).val ∧ (i 1).val < win6_6.index t (1 : Fin 2) * 64 + 64; omega

/-- The second output array after the region: the transformed rows times the message matrix. -/
theorem array6 (c : Dev nD) :
    (dat6 V c).arrAt 6 cfg6.N
      = transDot (V c main_v97) (V c main_v101) (V c main_v106) (V c main_v104) (V c main_v108) :=
  (dat6 V c).arrAt_eq_of_cover 6
    (transDot (V c main_v97) (V c main_v101) (V c main_v106) (V c main_v104) (V c main_v108))
    (fun t _ => flushed6_eq V c t) cover6

/-! ## The two arrays, index by index -/

/-- The first output array holds, at row `r`, the transformed row. -/
theorem out5 (c : Dev nD) (r : Fin 100000) (q : Fin 64) :
    (dat6 V c).arrAt 5 cfg6.N (ix2 r q)
      = Cert.Rows.trans (fun k => V c main_v97 (ix2 r k)) (fun k => V c main_v101 (ix2 r k))
          (fun k n => V c main_v106 (ix2 k n)) (fun n => V c main_v104 (ix2 0 n)) q :=
  congrFun (array5 V c) (ix2 r q)

/-- The second output array holds, at row `r`, the transformed row times the message matrix. -/
theorem out6 (c : Dev nD) (r : Fin 100000) (q : Fin 64) :
    (dat6 V c).arrAt 6 cfg6.N (ix2 r q)
      = Cert.Rows.dot
          (fun j => Cert.Rows.trans (fun k => V c main_v97 (ix2 r k)) (fun k => V c main_v101 (ix2 r k))
            (fun k n => V c main_v106 (ix2 k n)) (fun n => V c main_v104 (ix2 0 n)) j)
          (fun k n => V c main_v108 (ix2 k n)) q :=
  congrFun (array6 V c) (ix2 r q)

end Cert.KernelIdeal.Reg6

end
-- ==== Proof.KReg7.lean ====
import proofs.«157269_j2267742732766_1_alg».proof.Proof.Gen.KernelIdeal.Frame
import proofs.«157269_j2267742732766_1_alg».proof.Proof.Rows
import proofs.«157269_j2267742732766_1_alg».proof.Proof.KPayB
import Idealize.ShloMosaic.Lib.Pipeline.Value
import Idealize.ShloMosaic.Lib.ValueIdx

/-!
  Region 7: the gated recurrent update, from row blocks to the whole array.

  The region walks a grid of 10 points. Point `t` sees rows `10000·t … 10000·t + 9999` of the message array and of
  the state array, and the four weight arrays whole; it writes the same rows of the output array. Every row of the
  output is therefore written by exactly one point, and what that point writes in row `r`, column `q` is the gated
  recurrent update `Cert.Rows.gru` of row `r` of the messages and of the state. This module states that as one
  equation per entry of the output array.
-/

set_option maxRecDepth 16384

noncomputable section

namespace Cert.KernelIdeal.Reg7

open Cert.KernelIdeal Cert.KernelIdeal.Gen Idealize.ShloMosaic Idealize.ShloMosaic.TcCoe Idealize.ShloMosaic.ValueIdx
open Idealize.ShloMosaic.Pipeline (Dat)

/-! ## The row function over whole arrays -/

/-- Entry `q` of the updated state of row `r`: the gated recurrent update of row `r` of the messages `a0` and of the
    state `a1`, under the input-side weights `a2`, `a3` and the hidden-side weights `a4`, `a5`. -/
def row (a0 a1 : S100000x64.Idx → EReal) (a2 : S64x192.Idx → EReal) (a3 : S1x192.Idx → EReal)
    (a4 : S64x192.Idx → EReal) (a5 : S1x192.Idx → EReal) (r : Fin 100000) (q : Fin 64) : EReal :=
  Cert.Rows.gru (Ideal.ofBits .f32 0x3F800000#32) (fun k => a0 (ix2 r k)) (fun k => a1 (ix2 r k)) (fun k => a1 (ix2 r k))
    (fun k n => a2 (ix2 k n)) (fun n => a3 (ix2 0 n)) (fun k n => a4 (ix2 k n)) (fun n => a5 (ix2 0 n)) q

/-- The output array as one function of the six input arrays: entry `(r, q)` is `row … r q`. -/
def G (a0 a1 : S100000x64.Idx → EReal) (a2 : S64x192.Idx → EReal) (a3 : S1x192.Idx → EReal)
    (a4 : S64x192.Idx → EReal) (a5 : S1x192.Idx → EReal) : S100000x64.Idx → EReal :=
  fun i => row a0 a1 a2 a3 a4 a5 ⟨(i 0).val, idx2_lt0 i⟩ ⟨(i 1).val, idx2_lt1 i⟩

theorem G_apply (a0 a1 : S100000x64.Idx → EReal) (a2 : S64x192.Idx → EReal) (a3 : S1x192.Idx → EReal)
    (a4 : S64x192.Idx → EReal) (a5 : S1x192.Idx → EReal) (r : Fin 100000) (q : Fin 64) :
    G a0 a1 a2 a3 a4 a5 (ix2 r q) = row a0 a1 a2 a3 a4 a5 r q := rfl

/-! ## One block: the payload of row blocks that sit at row offset `o` of the arrays -/

/-- If the two row blocks `x0`, `x1` are rows `o … o + 9999` of the arrays `a0`, `a1` and the weight blocks are the
    weight arrays, the body's payload at `(p, q)` is entry `(o + p, q)` of the output function. -/
theorem pay_at_offset (x0 x1 : Vec Ideal S10000x64 .f32) (x2 x4 : Vec Ideal S64x192 .f32) (x3 x5 : Vec Ideal S1x192 .f32)
    (a0 a1 : S100000x64.Idx → EReal) (a2 : S64x192.Idx → EReal) (a3 : S1x192.Idx → EReal)
    (a4 : S64x192.Idx → EReal) (a5 : S1x192.Idx → EReal) (o : Nat) (p : Fin 10000) (q : Fin 64)
    (hb : o + p.val < 100000)
    (h0 : ∀ k : Fin 64, x0 (ix2 p k) = a0 (ix2 (⟨o + p.val, hb⟩ : Fin 100000) k))
    (h1 : ∀ k : Fin 64, x1 (ix2 p k) = a1 (ix2 (⟨o + p.val, hb⟩ : Fin 100000) k))
    (h2 : ∀ (k : Fin 64) (n : Fin 192), x2 (ix2 k n) = a2 (ix2 k n))
    (h3 : ∀ n : Fin 192, x3 (ix2 (0 : Fin 1) n) = a3 (ix2 (0 : Fin 1) n))
    (h4 : ∀ (k : Fin 64) (n : Fin 192), x4 (ix2 k n) = a4 (ix2 k n))
    (h5 : ∀ n : Fin 192, x5 (ix2 (0 : Fin 1) n) = a5 (ix2 (0 : Fin 1) n)) :
    k7_pay1 (F := Ideal) x0 x2 x3 x1 x4 x5 x1 (ix2 p q) = row a0 a1 a2 a3 a4 a5 ⟨o + p.val, hb⟩ q := by
  have e0 : (fun k : Fin 64 => x0 (ix2 p k)) = fun k => a0 (ix2 (⟨o + p.val, hb⟩ : Fin 100000) k) := funext h0
  have e1 : (fun k : Fin 64 => x1 (ix2 p k)) = fun k => a1 (ix2 (⟨o + p.val, hb⟩ : Fin 100000) k) := funext h1
  have e2 : (fun (k : Fin 64) (n : Fin 192) => x2 (ix2 k n)) = fun k n => a2 (ix2 k n) := funext fun k => funext (h2 k)
  have e3 : (fun n : Fin 192 => x3 (ix2 (0 : Fin 1) n)) = fun n => a3 (ix2 (0 : Fin 1) n) := funext h3
  have e4 : (fun (k : Fin 64) (n : Fin 192) => x4 (ix2 k n)) = fun k n => a4 (ix2 k n) := funext fun k => funext (h4 k)
  have e5 : (fun n : Fin 192 => x5 (ix2 (0 : Fin 1) n)) = fun n => a5 (ix2 (0 : Fin 1) n) := funext h5
  rw [Pay.k7_pay1_apply, e0, e1, e2, e3, e4, e5]
  rfl

/-! ## The printed index maps -/

theorem hz : (![0, 0] : Fin 2 → Nat) = fun _ => 0 := funext fun a => by fin_cases a <;> rfl

/-- The index maps, decided over the 10 grid points: the two row windows and the output window sit at block row `t`,
    block column 0; the four weight windows sit at block (0, 0). -/
theorem idx_facts : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- A grid point is one of 10. -/
theorem point_lt (t : Fin cfg7.N) : t.val < 10 := t.isLt

/-! ## Where an element of each window's block sits in its array -/

/-- Element `(p, k)` of the message block at point `t` is entry `(10000·t + p, k)` of the message array. -/
theorem emb_msg (t : Fin cfg7.N) (p : Fin 10000) (k : Fin 64) (hb : t.val * 10000 + p.val < 100000) :
    ((cfg7.win 0).blk t).view.emb (ix2 p k) = (ix2 (⟨t.val * 10000 + p.val, hb⟩ : Fin 100000) k : S100000x64.Idx) := by
  obtain ⟨e0, e1, -⟩ := idx_facts t
  funext a; apply Fin.ext
  match a with
  | ⟨0, _⟩ => show win7_0.index t (0 : Fin 2) * 10000 + 1 * p.val = t.val * 10000 + p.val; omega
  | ⟨1, _⟩ => show win7_0.index t (1 : Fin 2) * 64 + 1 * k.val = k.val; omega

/-- Element `(p, k)` of the state block at point `t` is entry `(10000·t + p, k)` of the state array. -/
theorem emb_state (t : Fin cfg7.N) (p : Fin 10000) (k : Fin 64) (hb : t.val * 10000 + p.val < 100000) :
    ((cfg7.win 1).blk t).view.emb (ix2 p k) = (ix2 (⟨t.val * 10000 + p.val, hb⟩ : Fin 100000) k : S100000x64.Idx) := by
  obtain ⟨-, -, e0, e1, -⟩ := idx_facts t
  funext a; apply Fin.ext
  match a with
  | ⟨0, _⟩ => show win7_1.index t (0 : Fin 2) * 10000 + 1 * p.val = t.val * 10000 + p.val; omega
  | ⟨1, _⟩ => show win7_1.index t (1 : Fin 2) * 64 + 1 * k.val = k.val; omega

/-- Element `(p, q)` of the output block at point `t` is entry `(10000·t + p, q)` of the output array. -/
theorem emb_out (t : Fin cfg7.N) (p : Fin 10000) (q : Fin 64) (hb : t.val * 10000 + p.val < 100000) :
    ((cfg7.win 6).blk t).view.emb (ix2 p q) = (ix2 (⟨t.val * 10000 + p.val, hb⟩ : Fin 100000) q : S100000x64.Idx) := by
  obtain ⟨-, -, -, -, -, -, -, -, -, -, -, -, e0, e1⟩ := idx_facts t
  funext a; apply Fin.ext
  match a with
  | ⟨0, _⟩ => show win7_6.index t (0 : Fin 2) * 10000 + 1 * p.val = t.val * 10000 + p.val; omega
  | ⟨1, _⟩ => show win7_6.index t (1 : Fin 2) * 64 + 1 * q.val = q.val; omega

/-- The input-side weight block is its whole array. -/
theorem emb_wih (t : Fin cfg7.N) (k : Fin 64) (n : Fin 192) :
    ((cfg7.win 2).blk t).view.emb (ix2 k n) = (ix2 k n : S64x192.Idx) := by
  obtain ⟨-, -, -, -, e0, e1, -⟩ := idx_facts t
  funext a; apply Fin.ext
  match a with
  | ⟨0, _⟩ => show win7_2.index t (0 : Fin 2) * 64 + 1 * k.val = k.val; omega
  | ⟨1, _⟩ => show win7_2.index t (1 : Fin 2) * 192 + 1 * n.val = n.val; omega

/-- The input-side bias block is its whole array. -/
theorem emb_bih (t : Fin cfg7.N) (z : Fin 1) (n : Fin 192) :
    ((cfg7.win 3).blk t).view.emb (ix2 z n) = (ix2 z n : S1x192.Idx) := by
  obtain ⟨-, -, -, -, -, -, e0, e1, -⟩ := idx_facts t
  funext a; apply Fin.ext
  match a with
  | ⟨0, _⟩ => show win7_3.index t (0 : Fin 2) * 1 + 1 * z.val = z.val; omega
  | ⟨1, _⟩ => show win7_3.index t (1 : Fin 2) * 192 + 1 * n.val = n.val; omega

/-- The hidden-side weight block is its whole array. -/
theorem emb_whh (t : Fin cfg7.N) (k : Fin 64) (n : Fin 192) :
    ((cfg7.win 4).blk t).view.emb (ix2 k n) = (ix2 k n : S64x192.Idx) := by
  obtain ⟨-, -, -, -, -, -, -, -, e0, e1, -⟩ := idx_facts t
  funext a; apply Fin.ext
  match a with
  | ⟨0, _⟩ => show win7_4.index t (0 : Fin 2) * 64 + 1 * k.val = k.val; omega
  | ⟨1, _⟩ => show win7_4.index t (1 : Fin 2) * 192 + 1 * n.val = n.val; omega

/-- The hidden-side bias block is its whole array. -/
theorem emb_bhh (t : Fin cfg7.N) (z : Fin 1) (n : Fin 192) :
    ((cfg7.win 5).blk t).view.emb (ix2 z n) = (ix2 z n : S1x192.Idx) := by
  obtain ⟨-, -, -, -, -, -, -, -, -, -, e0, e1, -⟩ := idx_facts t
  funext a; apply Fin.ext
  match a with
  | ⟨0, _⟩ => show win7_5.index t (0 : Fin 2) * 1 + 1 * z.val = z.val; omega
  | ⟨1, _⟩ => show win7_5.index t (1 : Fin 2) * 192 + 1 * n.val = n.val; omega

section Region

variable (V : (c : Dev nD) → (b : Ref sig .tc) → Buf (Elt Ideal) ((c : Thread nD τ).loc b))

/-- The output array the region should leave, from the arrays as the region finds them. -/
abbrev GV (c : Dev nD) : S100000x64.Idx → EReal :=
  G (V c main_v119) (V c main_v109_0) (V c main_v127) (V c main_v122) (V c main_v129) (V c main_v125)

/-! ## What one point writes back -/

/-- Point `t` writes back block `t` of the output function of the arrays as the region finds them. -/
theorem flushed_eq (c : Dev nD) (t : Fin cfg7.N) :
    (dat7 V c).flushed 6 t = ((cfg7.win 6).blk t).view.read (Elt Ideal) (GV V c) := by
  show (cfg7.win 6).cut (grid7.coords t) ((dat7 V c).after 6 t) = _
  rw [after7_6]
  unfold out7_6
  rw [View.canon_unit_zero hz]
  simp only [View.ld_unit_zero (S := S10000x64) hz, View.ld_unit_zero (S := S64x192) hz, View.ld_unit_zero (S := S1x192) hz]
  funext j
  obtain ⟨p, q, rfl⟩ : ∃ (p : Fin 10000) (q : Fin 64), j = ix2 p q := ⟨j 0, j 1, eq_ix2 j⟩
  have ht := point_lt t
  have hb : t.val * 10000 + p.val < 100000 := by have := p.isLt; omega
  show k7_pay1 (F := Ideal) (iblk7 V c 0 t) (iblk7 V c 2 t) (iblk7 V c 3 t) (iblk7 V c 1 t) (iblk7 V c 4 t) (iblk7 V c 5 t) (iblk7 V c 1 t) (ix2 p q)
      = GV V c (((cfg7.win 6).blk t).view.emb (ix2 p q))
  refine (pay_at_offset (iblk7 V c 0 t) (iblk7 V c 1 t) (iblk7 V c 2 t) (iblk7 V c 4 t) (iblk7 V c 3 t) (iblk7 V c 5 t)
    (V c main_v119) (V c main_v109_0) (V c main_v127) (V c main_v122) (V c main_v129) (V c main_v125) (t.val * 10000) p q hb
    (fun k => congrArg (V c main_v119) (emb_msg t p k hb))
    (fun k => congrArg (V c main_v109_0) (emb_state t p k hb))
    (fun k n => congrArg (V c main_v127) (emb_wih t k n))
    (fun n => congrArg (V c main_v122) (emb_bih t 0 n))
    (fun k n => congrArg (V c main_v129) (emb_whh t k n))
    (fun n => congrArg (V c main_v125) (emb_bhh t 0 n))).trans ?_
  exact (congrArg (GV V c) (emb_out t p q hb)).symm

/-! ## The blocks cover the array -/

/-- An index of the output array is in point `t`'s block iff each coordinate is in the block's range on its axis. -/
theorem mem_blk (t : Fin cfg7.N) (i : S100000x64.Idx) :
    i ∈ ((cfg7.win 6).blk t).view.set ↔ ∀ a : Fin 2, win7_6.index t a * S10000x64.size a ≤ (i a).val ∧ (i a).val < win7_6.index t a * S10000x64.size a + S10000x64.size a := by
  show i ∈ ((View.whole main_v130).slice (win7_6.rect t)).set ↔ _
  rw [View.set_slice_whole, Rect.mem_set_unit]
  exact Iff.rfl

/-- Row `r` of the output array is in the block of point `r / 10000`. -/
theorem cover (i : S100000x64.Idx) :
    ∃ t : Fin cfg7.N, (cfg7.win 6).flush t = true ∧ i ∈ ((cfg7.win 6).blk t).view.set := by
  have hi0 : (i 0).val < 100000 := idx2_lt0 i
  have hi1 : (i 1).val < 64 := idx2_lt1 i
  obtain ⟨t, ht⟩ : ∃ t : Fin cfg7.N, t.val = (i 0).val / 10000 :=
    ⟨⟨(i 0).val / 10000, (by omega : (i 0).val / 10000 < 10)⟩, rfl⟩
  obtain ⟨-, -, -, -, -, -, -, -, -, -, -, -, e0, e1⟩ := idx_facts t
  refine ⟨t, flush7_6 t, ?_⟩
  rw [mem_blk]
  intro a
  match a with
  | ⟨0, _⟩ => show win7_6.index t (0 : Fin 2) * 10000 ≤ (i 0).val ∧ (i 0).val < win7_6.index t (0 : Fin 2) * 10000 + 10000; omega
  | ⟨1, _⟩ => show win7_6.index t (1 : Fin 2) * 64 ≤ (i 1).val ∧ (i 1).val < win7_6.index t (1 : Fin 2) * 64 + 64; omega

/-! ## The array after the region -/

/-- The output array after the region's 10 points is the output function of the arrays as the region finds them. -/
theorem final (c : Dev nD) : (dat7 V c).arrAt 6 cfg7.N = GV V c :=
  (dat7 V c).arrAt_eq_of_cover 6 (GV V c) (fun t _ => flushed_eq V c t) cover

/-- Entry `(r, q)` of the output array after the region: the gated recurrent update of row `r` of the message array
    and of the state array as the region finds them. -/
theorem out6 (c : Dev nD) (r : Fin 100000) (q : Fin 64) :
    (dat7 V c).arrAt 6 cfg7.N (ix2 r q)
      = Cert.Rows.gru (Ideal.ofBits .f32 0x3F800000#32) (fun k => V c main_v119 (ix2 r k)) (fun k => V c main_v109_0 (ix2 r k))
          (fun k => V c main_v109_0 (ix2 r k)) (fun k n => V c main_v127 (ix2 k n)) (fun n => V c main_v122 (ix2 0 n))
          (fun k n => V c main_v129 (ix2 k n)) (fun n => V c main_v125 (ix2 0 n)) q := by
  rw [final V c]
  rfl

end Region

end Cert.KernelIdeal.Reg7

end
-- ==== Proof.KL3.lean ====
/-
  Layer 3 of the network, read off the kernel program's fold.

  The layer is two host stretches and two regions. The first stretch slices the layer's embedding table from the
  stacked tables, looks the nodes' positions up in it, adds the looked-up rows to the embedding sums, and slices the
  layer's affine map and convolution weight. Region 6 transforms every row of the previous state beside its
  embedding sum and multiplies the result by the convolution weight. The second stretch passes the convolved rows
  along the edges and slices the layer's gate weights; region 7 applies the gated recurrent update row by row.
  Read level by level this is `Cert.Sem.layerOf` of the buffers the regions find, and each of those buffers is a
  named function of a launch argument.
-/
import proofs.«157269_j2267742732766_1_alg».proof.Proof.Gen.KernelIdeal.Frame
import proofs.«157269_j2267742732766_1_alg».proof.Proof.Sem
import proofs.«157269_j2267742732766_1_alg».proof.Proof.KTake
import proofs.«157269_j2267742732766_1_alg».proof.Proof.KReg6
import proofs.«157269_j2267742732766_1_alg».proof.Proof.KReg7
import proofs.«157269_j2267742732766_1_alg».proof.Proof.KL2

set_option maxRecDepth 16384

noncomputable section

namespace Cert.KernelIdeal.Layers

open Cert.KernelIdeal Cert.KernelIdeal.Gen Idealize.ShloMosaic Idealize.ShloMosaic.TcCoe Idealize.ShloMosaic.ValueIdx

/-! ## The layer's slices of the stacked arrays -/

section Chains

variable {F : FTy → Type} [FloatOps F]

/-- The layer's embedding table: one block of the stacked tables, as a 100 × 64 array. -/
def table_L3 (a : (⟨S5x100x64, .f32⟩ : BufTy).Contents (Elt F)) : (⟨S100x64, .f32⟩ : BufTy).Contents (Elt F) :=
  let blk : FVec F S1x100x64 .f32 := (extractStridedSlice S1x100x64 ![3, 0, 0] · slices_S5x100x64_S1x100x64_3_0_0) a
  fun i => shapeCast S100x64 blk shapeCasts_S1x100x64_S100x64 i

/-- The bias row of the layer's affine map: one row of the stacked biases, as a 1 × 64 array. -/
def tbOf_L3 (a : (⟨S4x64, .f32⟩ : BufTy).Contents (Elt F)) : (⟨S1x64, .f32⟩ : BufTy).Contents (Elt F) :=
  let blk : FVec F S1x64 .f32 := (extractStridedSlice S1x64 ![2, 0] · slices_S4x64_S1x64_2_0) a
  let flat : FVec F S64 .f32 := fun i => shapeCast S64 blk shapeCasts_S1x64_S64 i
  fun i => shapeCast S1x64 flat shapeCasts_S64_S1x64 i

/-- The weight of the layer's affine map: one block of the stacked weights, as a 128 × 64 array. -/
def tWOf_L3 (a : (⟨S4x128x64, .f32⟩ : BufTy).Contents (Elt F)) : (⟨S128x64, .f32⟩ : BufTy).Contents (Elt F) :=
  let blk : FVec F S1x128x64 .f32 := (extractStridedSlice S1x128x64 ![2, 0, 0] · slices_S4x128x64_S1x128x64_2_0_0) a
  fun i => shapeCast S128x64 blk shapeCasts_S1x128x64_S128x64 i

/-- The layer's convolution weight: one block of the stacked weights, as a 64 × 64 array. -/
def cWOf_L3 (a : (⟨S5x64x64, .f32⟩ : BufTy).Contents (Elt F)) : (⟨S64x64, .f32⟩ : BufTy).Contents (Elt F) :=
  let blk : FVec F S1x64x64 .f32 := (extractStridedSlice S1x64x64 ![3, 0, 0] · slices_S5x64x64_S1x64x64_3_0_0) a
  fun i => shapeCast S64x64 blk shapeCasts_S1x64x64_S64x64 i

/-- A gate bias row of the layer: one row of a stacked bias array, as a 1 × 192 array. -/
def gateB_L3 (a : (⟨S5x192, .f32⟩ : BufTy).Contents (Elt F)) : (⟨S1x192, .f32⟩ : BufTy).Contents (Elt F) :=
  let blk : FVec F S1x192 .f32 := (extractStridedSlice S1x192 ![3, 0] · slices_S5x192_S1x192_3_0) a
  let flat : FVec F S192 .f32 := fun i => shapeCast S192 blk shapeCasts_S1x192_S192 i
  fun i => shapeCast S1x192 flat shapeCasts_S192_S1x192 i

/-- A gate weight of the layer: one block of a stacked weight array, as a 64 × 192 array. -/
def gateW_L3 (a : (⟨S5x64x192, .f32⟩ : BufTy).Contents (Elt F)) : (⟨S64x192, .f32⟩ : BufTy).Contents (Elt F) :=
  let blk : FVec F S1x64x192 .f32 := (extractStridedSlice S1x64x192 ![3, 0, 0] · slices_S5x64x192_S1x64x192_3_0_0) a
  fun i => shapeCast S64x192 blk shapeCasts_S1x64x192_S64x192 i

end Chains

variable (m : (ℓ : Loc nD τ sig) → Buf (Elt Ideal) ℓ) (ρ : Dev nD → PrngReg)

/-! ## The kept buffers through the layer -/

/-- After the stretch that slices the table. -/
theorem keepA_L3 (c : Dev nD) (b : Ref sig .tc) (hb : b ∈ keptRefs) :
    W19 m ρ c (Proc.devRef .tc b) = W18 m ρ c (Proc.devRef .tc b) := by
  kept_cases hb
  all_goals stretch_keeps hostOps6

/-- After the lookup. -/
theorem keepB_L3 (c : Dev nD) (b : Ref sig .tc) (hb : b ∈ keptRefs) :
    W20 m ρ c (Proc.devRef .tc b) = W18 m ρ c (Proc.devRef .tc b) := by
  refine Eq.trans ?_ (keepA_L3 m ρ c b hb)
  kept_cases hb
  all_goals stretch_keeps hostOps6_1

/-- After the embedding sum and the slices of the affine map and the convolution weight. -/
theorem keepC_L3 (c : Dev nD) (b : Ref sig .tc) (hb : b ∈ keptRefs) :
    W21 m ρ c (Proc.devRef .tc b) = W18 m ρ c (Proc.devRef .tc b) := by
  refine Eq.trans ?_ (keepB_L3 m ρ c b hb)
  kept_cases hb
  all_goals stretch_keeps hostOps6_2

/-- After region 6. -/
theorem keepD_L3 (c : Dev nD) (b : Ref sig .tc) (hb : b ∈ keptRefs) :
    W22 m ρ c (Proc.devRef .tc b) = W18 m ρ c (Proc.devRef .tc b) := by
  refine Eq.trans ?_ (keepC_L3 m ρ c b hb)
  kept_cases hb
  all_goals exact W22_of_ne m ρ c _ (by decide)

/-- After the edge pass and the slices of the gate weights. -/
theorem keepE_L3 (c : Dev nD) (b : Ref sig .tc) (hb : b ∈ keptRefs) :
    W23 m ρ c (Proc.devRef .tc b) = W18 m ρ c (Proc.devRef .tc b) := by
  refine Eq.trans ?_ (keepD_L3 m ρ c b hb)
  kept_cases hb
  all_goals stretch_keeps hostOps7

/-- After region 7: the layer's exit. -/
theorem keepF_L3 (c : Dev nD) (b : Ref sig .tc) (hb : b ∈ keptRefs) :
    W24 m ρ c (Proc.devRef .tc b) = W18 m ρ c (Proc.devRef .tc b) := by
  refine Eq.trans ?_ (keepE_L3 m ρ c b hb)
  kept_cases hb
  all_goals exact W24_of_ne m ρ c _ (by decide)

/-- At the layer's exit the kept buffers hold what they held after the first host stretch of the program. -/
theorem kept_L3 (c : Dev nD) (b : Ref sig .tc) (hb : b ∈ keptRefs) :
    W24 m ρ c (Proc.devRef .tc b) = W1 m ρ c (Proc.devRef .tc b) :=
  (keepF_L3 m ρ c b hb).trans (kept_L2 m ρ c b hb)

/-- At the layer's exit a launch argument holds what it held at launch. -/
theorem launch_L3 (c : Dev nD) (b : Ref sig .tc) (hb : b ∈ argRefs) :
    W24 m ρ c (Proc.devRef .tc b) = m ((c : Thread nD τ).loc b) :=
  (keepF_L3 m ρ c b (argRefs_sub hb)).trans (launch_L2 m ρ c b hb)

/-! ## The leaves: what the regions' weight buffers hold, from the launch arguments -/

/-- The layer's table, after the first stretch. -/
theorem table_at_L3 (c : Dev nD) :
    W19 m ρ c (Proc.devRef .tc main_v99) = table_L3 (F := Ideal) (m ((c : Thread nD τ).loc main_arg5)) := by
  have e : W19 m ρ c (Proc.devRef .tc main_v99) = table_L3 (F := Ideal) (W18 m ρ c (Proc.devRef .tc main_arg5)) := by
    show StableHlo.after hostOps6 (W18 m ρ c) (Proc.devRef .tc main_v99) = _
    generalize W18 m ρ c = V
    after_results
    rfl
  exact e.trans (congrArg (table_L3 (F := Ideal)) (launch_L2 m ρ c main_arg5 (by decide)))

/-- The looked-up rows: the masked lookup of the nodes' positions in the layer's table. -/
theorem lookup_L3 (c : Dev nD) :
    W20 m ρ c (Proc.devRef .tc main_v100)
      = Take.maskedLookup (F := Ideal) (table_L3 (m ((c : Thread nD τ).loc main_arg5))) (m ((c : Thread nD τ).loc main_arg0)) := by
  have e : W20 m ρ c (Proc.devRef .tc main_v100)
      = Take.maskedLookup (F := Ideal) (W19 m ρ c (Proc.devRef .tc main_v99)) (W19 m ρ c (Proc.devRef .tc main_arg0)) := by
    show StableHlo.after hostOps6_1 (W19 m ρ c) (Proc.devRef .tc main_v100) = _
    generalize W19 m ρ c = V
    after_results_simp
    simp only [StableHlo.TRef.ofBuf, StableHlo.TRef.toBuf, cast_eq]
    rfl
  have e0 : W19 m ρ c (Proc.devRef .tc main_arg0) = m ((c : Thread nD τ).loc main_arg0) :=
    (keepA_L3 m ρ c main_arg0 (by decide)).trans (launch_L2 m ρ c main_arg0 (by decide))
  exact e.trans (congrArg₂ (Take.maskedLookup (F := Ideal)) (table_at_L3 m ρ c) e0)

/-- The embedding sums region 6 reads: the looked-up rows added up. -/
theorem emb_L3 (c : Dev nD) :
    W21 m ρ c (Proc.devRef .tc main_v101)
      = embSum (F := Ideal) (Take.maskedLookup (F := Ideal) (table_L3 (m ((c : Thread nD τ).loc main_arg5))) (m ((c : Thread nD τ).loc main_arg0))) := by
  have e : W21 m ρ c (Proc.devRef .tc main_v101) = embSum (F := Ideal) (W20 m ρ c (Proc.devRef .tc main_v100)) := by
    show StableHlo.after hostOps6_2 (W20 m ρ c) (Proc.devRef .tc main_v101) = _
    generalize W20 m ρ c = V
    after_results
    rfl
  exact e.trans (congrArg (embSum (F := Ideal)) (lookup_L3 m ρ c))

/-- The bias row of the affine map region 6 reads. -/
theorem tb_L3 (c : Dev nD) :
    W21 m ρ c (Proc.devRef .tc main_v104) = tbOf_L3 (F := Ideal) (m ((c : Thread nD τ).loc main_arg7)) := by
  have e : W21 m ρ c (Proc.devRef .tc main_v104) = tbOf_L3 (F := Ideal) (W20 m ρ c (Proc.devRef .tc main_arg7)) := by
    show StableHlo.after hostOps6_2 (W20 m ρ c) (Proc.devRef .tc main_v104) = _
    generalize W20 m ρ c = V
    after_results
    rfl
  exact e.trans (congrArg (tbOf_L3 (F := Ideal)) ((keepB_L3 m ρ c main_arg7 (by decide)).trans (launch_L2 m ρ c main_arg7 (by decide))))

/-- The weight of the affine map region 6 reads. -/
theorem tW_L3 (c : Dev nD) :
    W21 m ρ c (Proc.devRef .tc main_v106) = tWOf_L3 (F := Ideal) (m ((c : Thread nD τ).loc main_arg6)) := by
  have e : W21 m ρ c (Proc.devRef .tc main_v106) = tWOf_L3 (F := Ideal) (W20 m ρ c (Proc.devRef .tc main_arg6)) := by
    show StableHlo.after hostOps6_2 (W20 m ρ c) (Proc.devRef .tc main_v106) = _
    generalize W20 m ρ c = V
    after_results
    rfl
  exact e.trans (congrArg (tWOf_L3 (F := Ideal)) ((keepB_L3 m ρ c main_arg6 (by decide)).trans (launch_L2 m ρ c main_arg6 (by decide))))

/-- The convolution weight region 6 reads. -/
theorem cW_L3 (c : Dev nD) :
    W21 m ρ c (Proc.devRef .tc main_v108) = cWOf_L3 (F := Ideal) (m ((c : Thread nD τ).loc main_arg8)) := by
  have e : W21 m ρ c (Proc.devRef .tc main_v108) = cWOf_L3 (F := Ideal) (W20 m ρ c (Proc.devRef .tc main_arg8)) := by
    show StableHlo.after hostOps6_2 (W20 m ρ c) (Proc.devRef .tc main_v108) = _
    generalize W20 m ρ c = V
    after_results
    rfl
  exact e.trans (congrArg (cWOf_L3 (F := Ideal)) ((keepB_L3 m ρ c main_arg8 (by decide)).trans (launch_L2 m ρ c main_arg8 (by decide))))

/-- The input-side gate weight region 7 reads. -/
theorem wih_L3 (c : Dev nD) :
    W23 m ρ c (Proc.devRef .tc main_v127) = gateW_L3 (F := Ideal) (m ((c : Thread nD τ).loc main_arg9)) := by
  have e : W23 m ρ c (Proc.devRef .tc main_v127) = gateW_L3 (F := Ideal) (W22 m ρ c (Proc.devRef .tc main_arg9)) := by
    show StableHlo.after hostOps7 (W22 m ρ c) (Proc.devRef .tc main_v127) = _
    generalize W22 m ρ c = V
    after_results_simp
    rfl
  exact e.trans (congrArg (gateW_L3 (F := Ideal)) ((keepD_L3 m ρ c main_arg9 (by decide)).trans (launch_L2 m ρ c main_arg9 (by decide))))

/-- The input-side gate bias region 7 reads. -/
theorem bih_L3 (c : Dev nD) :
    W23 m ρ c (Proc.devRef .tc main_v122) = gateB_L3 (F := Ideal) (m ((c : Thread nD τ).loc main_arg10)) := by
  have e : W23 m ρ c (Proc.devRef .tc main_v122) = gateB_L3 (F := Ideal) (W22 m ρ c (Proc.devRef .tc main_arg10)) := by
    show StableHlo.after hostOps7 (W22 m ρ c) (Proc.devRef .tc main_v122) = _
    generalize W22 m ρ c = V
    after_results_simp
    rfl
  exact e.trans (congrArg (gateB_L3 (F := Ideal)) ((keepD_L3 m ρ c main_arg10 (by decide)).trans (launch_L2 m ρ c main_arg10 (by decide))))

/-- The state-side gate weight region 7 reads. -/
theorem whh_L3 (c : Dev nD) :
    W23 m ρ c (Proc.devRef .tc main_v129) = gateW_L3 (F := Ideal) (m ((c : Thread nD τ).loc main_arg11)) := by
  have e : W23 m ρ c (Proc.devRef .tc main_v129) = gateW_L3 (F := Ideal) (W22 m ρ c (Proc.devRef .tc main_arg11)) := by
    show StableHlo.after hostOps7 (W22 m ρ c) (Proc.devRef .tc main_v129) = _
    generalize W22 m ρ c = V
    after_results_simp
    rfl
  exact e.trans (congrArg (gateW_L3 (F := Ideal)) ((keepD_L3 m ρ c main_arg11 (by decide)).trans (launch_L2 m ρ c main_arg11 (by decide))))

/-- The state-side gate bias region 7 reads. -/
theorem bhh_L3 (c : Dev nD) :
    W23 m ρ c (Proc.devRef .tc main_v125) = gateB_L3 (F := Ideal) (m ((c : Thread nD τ).loc main_arg12)) := by
  have e : W23 m ρ c (Proc.devRef .tc main_v125) = gateB_L3 (F := Ideal) (W22 m ρ c (Proc.devRef .tc main_arg12)) := by
    show StableHlo.after hostOps7 (W22 m ρ c) (Proc.devRef .tc main_v125) = _
    generalize W22 m ρ c = V
    after_results_simp
    rfl
  exact e.trans (congrArg (gateB_L3 (F := Ideal)) ((keepD_L3 m ρ c main_arg12 (by decide)).trans (launch_L2 m ρ c main_arg12 (by decide))))

/-! ## Region 6: the transformed state and its convolution -/

/-- The previous layer's state, as region 6 finds it: the layer's first stretch does not write it. -/
theorem state_L3 (c : Dev nD) : W21 m ρ c (Proc.devRef .tc main_v97) = W18 m ρ c (Proc.devRef .tc main_v97) := by
  stretch_step hostOps6_2
  stretch_step hostOps6_1
  stretch_keeps hostOps6

/-- The layer's transformed state, from the buffers region 6 finds. -/
abbrev xtOf_L3 (c : Dev nD) : Cert.Sem.Mat 100000 64 :=
  (Cert.Sem.transform (Cert.Sem.toMat (W18 m ρ c (Proc.devRef .tc main_v97) : Cert.Sem.Arr 100000 64))
          (Cert.Sem.toMat (W21 m ρ c (Proc.devRef .tc main_v101) : Cert.Sem.Arr 100000 64))
          (Cert.Sem.toMat (W21 m ρ c (Proc.devRef .tc main_v106) : Cert.Sem.Arr 128 64))
          (Cert.Sem.toRow (W21 m ρ c (Proc.devRef .tc main_v104) : Cert.Sem.Arr 1 64)))

/-- Region 6's first output is the transformed state, entry by entry. -/
theorem xt_L3 (c : Dev nD) (r : Fin 100000) (q : Fin 64) :
    W22 m ρ c (Proc.devRef .tc main_v109_0) (ix2 r q) = xtOf_L3 m ρ c r q := by
  have hx : (fun k => V21 m ρ c main_v97 (ix2 r k))
      = Cert.Sem.toMat (W18 m ρ c (Proc.devRef .tc main_v97) : Cert.Sem.Arr 100000 64) r :=
    funext fun k => congrFun (state_L3 m ρ c) (ix2 r k)
  refine (congrFun (W22_arr m ρ c 5) (ix2 r q)).trans ((Reg6.out5 (V21 m ρ) c r q).trans ?_)
  exact congrArg (fun X => Cert.Rows.trans X (fun k => V21 m ρ c main_v101 (ix2 r k)) (fun k n => V21 m ρ c main_v106 (ix2 k n))
    (fun n => V21 m ρ c main_v104 (ix2 0 n)) q) hx

/-- Region 6's second output is the transformed state's rows times the convolution weight, as an array. -/
theorem cv_L3 (c : Dev nD) :
    (W22 m ρ c (Proc.devRef .tc main_v109_1) : Cert.Sem.Arr 100000 64)
      = Cert.Sem.ofMat (Cert.Sem.conv (xtOf_L3 m ρ c) (Cert.Sem.toMat (W21 m ρ c (Proc.devRef .tc main_v108) : Cert.Sem.Arr 64 64))) := by
  refine Cert.Sem.arr_ext fun r q => ?_
  have hx : (fun k => V21 m ρ c main_v97 (ix2 r k))
      = Cert.Sem.toMat (W18 m ρ c (Proc.devRef .tc main_v97) : Cert.Sem.Arr 100000 64) r :=
    funext fun k => congrFun (state_L3 m ρ c) (ix2 r k)
  refine (congrFun (W22_arr m ρ c 6) (ix2 r q)).trans ((Reg6.out6 (V21 m ρ) c r q).trans ?_)
  exact congrArg (fun X => Cert.Rows.dot (fun j => Cert.Rows.trans X (fun k => V21 m ρ c main_v101 (ix2 r k))
    (fun k n => V21 m ρ c main_v106 (ix2 k n)) (fun n => V21 m ρ c main_v104 (ix2 0 n)) j) (fun k n => V21 m ρ c main_v108 (ix2 k n)) q) hx

/-! ## The edge pass and region 7 -/

/-- The messages region 7 reads: the edge pass, along the program's edge rows, of region 6's convolved rows. -/
theorem pass3 (c : Dev nD) :
    W23 m ρ c (Proc.devRef .tc main_v119)
      = passK (W1 m ρ c (Proc.devRef .tc main_v1)) (W1 m ρ c (Proc.devRef .tc main_v3)) (W22 m ρ c (Proc.devRef .tc main_v109_1)) := by
  have e : W23 m ρ c (Proc.devRef .tc main_v119)
      = passK (F := Ideal) (W22 m ρ c (Proc.devRef .tc main_v1)) (W22 m ρ c (Proc.devRef .tc main_v3)) (W22 m ρ c (Proc.devRef .tc main_v109_1)) := by
    show StableHlo.after hostOps7 (W22 m ρ c) (Proc.devRef .tc main_v119) = _
    generalize W22 m ρ c = V
    after_results_simp
    rfl
  have e1 : W22 m ρ c (Proc.devRef .tc main_v1) = W1 m ρ c (Proc.devRef .tc main_v1) :=
    (keepD_L3 m ρ c main_v1 (by decide)).trans (kept_L2 m ρ c main_v1 (by decide))
  have e3 : W22 m ρ c (Proc.devRef .tc main_v3) = W1 m ρ c (Proc.devRef .tc main_v3) :=
    (keepD_L3 m ρ c main_v3 (by decide)).trans (kept_L2 m ρ c main_v3 (by decide))
  exact e.trans (congrArg₂ (fun s d => passK (F := Ideal) s d (W22 m ρ c (Proc.devRef .tc main_v109_1))) e1 e3)

/-- The transformed state, as region 7 finds it: the layer's second stretch does not write it. -/
theorem state2_L3 (c : Dev nD) : W23 m ρ c (Proc.devRef .tc main_v109_0) = W22 m ρ c (Proc.devRef .tc main_v109_0) := by
  stretch_keeps hostOps7

/-- The layer function at an entry, from its parts: where the messages are the pass of an array that holds the
    convolved rows, and the state array holds the transformed state entry by entry, the gated recurrent update of
    the messages' and the state's row is the layer function's entry. The pass is any map on arrays. -/
theorem layer_entry_L3 {N : ℕ} (pass : Cert.Sem.Arr N 64 → Cert.Sem.Arr N 64) (msgs cvd st : Cert.Sem.Arr N 64)
    (xt : Cert.Sem.Mat N 64) (cW : Cert.Sem.Mat 64 64) (Wih : Cert.Sem.Mat 64 192) (bih : Fin 192 → EReal)
    (Whh : Cert.Sem.Mat 64 192) (bhh : Fin 192 → EReal)
    (hmsgs : msgs = pass cvd) (hcvd : cvd = Cert.Sem.ofMat (Cert.Sem.conv xt cW))
    (hst : ∀ r k, st (ix2 r k) = xt r k) (r : Fin N) (q : Fin 64) :
    Cert.Rows.gru Cert.Sem.one (fun k => msgs (ix2 r k)) (fun k => st (ix2 r k)) (fun k => st (ix2 r k)) Wih bih Whh bhh q
      = Cert.Sem.layerOf pass xt cW Wih bih Whh bhh r q := by
  subst hmsgs hcvd
  have e : (fun k => st (ix2 r k)) = xt r := funext (hst r)
  rw [e]
  rfl

/-- LAYER 3: the state region 7 leaves is the layer function of the transformed state, the convolution weight and
    the gate weights the regions find, with the edge pass along the program's edge rows. -/
theorem layer3 (c : Dev nD) : Cert.Sem.toMat (W24 m ρ c (Proc.devRef .tc main_v130) : Cert.Sem.Arr 100000 64)
      = Cert.Sem.layerOf (passK (F := Ideal) (W1 m ρ c (Proc.devRef .tc main_v1)) (W1 m ρ c (Proc.devRef .tc main_v3)))
          (Cert.Sem.transform (Cert.Sem.toMat (W18 m ρ c (Proc.devRef .tc main_v97) : Cert.Sem.Arr 100000 64))
          (Cert.Sem.toMat (W21 m ρ c (Proc.devRef .tc main_v101) : Cert.Sem.Arr 100000 64))
          (Cert.Sem.toMat (W21 m ρ c (Proc.devRef .tc main_v106) : Cert.Sem.Arr 128 64))
          (Cert.Sem.toRow (W21 m ρ c (Proc.devRef .tc main_v104) : Cert.Sem.Arr 1 64)))
          (Cert.Sem.toMat (W21 m ρ c (Proc.devRef .tc main_v108) : Cert.Sem.Arr 64 64))
          (Cert.Sem.toMat (W23 m ρ c (Proc.devRef .tc main_v127) : Cert.Sem.Arr 64 192)) (Cert.Sem.toRow (W23 m ρ c (Proc.devRef .tc main_v122) : Cert.Sem.Arr 1 192))
          (Cert.Sem.toMat (W23 m ρ c (Proc.devRef .tc main_v129) : Cert.Sem.Arr 64 192)) (Cert.Sem.toRow (W23 m ρ c (Proc.devRef .tc main_v125) : Cert.Sem.Arr 1 192)) := by
  funext r q
  refine (congrFun (W24_arr m ρ c 6) (ix2 r q)).trans ((Reg7.out6 (V23 m ρ) c r q).trans ?_)
  exact layer_entry_L3 (passK (F := Ideal) (W1 m ρ c (Proc.devRef .tc main_v1)) (W1 m ρ c (Proc.devRef .tc main_v3)))
    (W23 m ρ c (Proc.devRef .tc main_v119)) (W22 m ρ c (Proc.devRef .tc main_v109_1)) (W23 m ρ c (Proc.devRef .tc main_v109_0))
    (xtOf_L3 m ρ c) (Cert.Sem.toMat (W21 m ρ c (Proc.devRef .tc main_v108) : Cert.Sem.Arr 64 64))
    (Cert.Sem.toMat (W23 m ρ c (Proc.devRef .tc main_v127) : Cert.Sem.Arr 64 192)) (Cert.Sem.toRow (W23 m ρ c (Proc.devRef .tc main_v122) : Cert.Sem.Arr 1 192))
    (Cert.Sem.toMat (W23 m ρ c (Proc.devRef .tc main_v129) : Cert.Sem.Arr 64 192)) (Cert.Sem.toRow (W23 m ρ c (Proc.devRef .tc main_v125) : Cert.Sem.Arr 1 192))
    (pass3 m ρ c) (cv_L3 m ρ c)
    (fun r k => (congrFun (state2_L3 m ρ c) (ix2 r k)).trans (xt_L3 m ρ c r k)) r q

end Cert.KernelIdeal.Layers

end
-- ==== Proof.RL3.lean ====
/-
  A message-passing layer after the first, read off the reference's run.

  The reference runs such a layer in four stretches of host operations: the embedding lookup and sum; the
  concatenation with the previous state, the affine map, the cutting of the layer's parameters out of the stacked
  arrays, and the product with the convolution weight; the gather along the edges' sources and the scatter-add at
  their targets; the gated recurrent update. Each stretch's result is the composition of its operations over the
  contents the stretch starts from, and that composition is one of the stage functions. Chained through the levels of
  the run, the layer's new state, read as a matrix of extended reals, is the specification's layer function of the
  previous state, the embedding sums and the layer's parameters.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageA
import proofs.«157269_j2267742732766_1_alg».proof.Proof.RStageB
import proofs.«157269_j2267742732766_1_alg».proof.Proof.RL2
import Idealize.ShloMosaic.Lib.StableHlo.Run
import Idealize.ShloMosaic.Lib.ValueIdx

noncomputable section

namespace Cert.ReferenceIdeal.Layers

open Cert.ReferenceIdeal Cert.ReferenceIdeal.RunV Idealize.ShloMosaic Idealize.ShloMosaic.ValueIdx Idealize.ShloMosaic.StableHlo

/-! ## The layer's parameters, cut out of the stacked arrays

Every parameter of the network arrives stacked over the layers. The reference cuts the layer's slab out (a slice of
extent one along the leading axis) and drops that axis (a reshape). -/

section Leaves

variable {F : FTy → Type} [FloatOps F] [Facts₀]
open Facts₀

/-- The layer's embedding table, 100×64. -/
def emb_L3 (A : (⟨S5x100x64, .f32⟩ : BufTy).Contents (Elt F)) : (⟨S100x64, .f32⟩ : BufTy).Contents (Elt F) :=
  shapeCast S100x64 (extractStridedSlice S1x100x64 ![3, 0, 0] A slices_S5x100x64_S1x100x64_3_0_0) shapeCasts_S1x100x64_S100x64

/-- The weight matrix of the layer's affine map on the state beside the embedding sums, 128×64. -/
def tW_L3 (A : (⟨S4x128x64, .f32⟩ : BufTy).Contents (Elt F)) : (⟨S128x64, .f32⟩ : BufTy).Contents (Elt F) :=
  shapeCast S128x64 (extractStridedSlice S1x128x64 ![2, 0, 0] A slices_S4x128x64_S1x128x64_2_0_0) shapeCasts_S1x128x64_S128x64

/-- The bias row of that affine map, 64. -/
def tb_L3 (A : (⟨S4x64, .f32⟩ : BufTy).Contents (Elt F)) : (⟨S64, .f32⟩ : BufTy).Contents (Elt F) :=
  shapeCast S64 (extractStridedSlice S1x64 ![2, 0] A slices_S4x64_S1x64_2_0) shapeCasts_S1x64_S64

/-- The layer's convolution weight, 64×64. -/
def cW_L3 (A : (⟨S5x64x64, .f32⟩ : BufTy).Contents (Elt F)) : (⟨S64x64, .f32⟩ : BufTy).Contents (Elt F) :=
  shapeCast S64x64 (extractStridedSlice S1x64x64 ![3, 0, 0] A slices_S5x64x64_S1x64x64_3_0_0) shapeCasts_S1x64x64_S64x64

/-- A gate weight matrix of the layer's recurrent update, 64×192 (the message side and the state side are cut the same
    way out of their two stacks). -/
def gW_L3 (A : (⟨S5x64x192, .f32⟩ : BufTy).Contents (Elt F)) : (⟨S64x192, .f32⟩ : BufTy).Contents (Elt F) :=
  shapeCast S64x192 (extractStridedSlice S1x64x192 ![3, 0, 0] A slices_S5x64x192_S1x64x192_3_0_0) shapeCasts_S1x64x192_S64x192

/-- A gate bias row of the layer's recurrent update, 192. -/
def gb_L3 (A : (⟨S5x192, .f32⟩ : BufTy).Contents (Elt F)) : (⟨S192, .f32⟩ : BufTy).Contents (Elt F) :=
  shapeCast S192 (extractStridedSlice S1x192 ![3, 0] A slices_S5x192_S1x192_3_0) shapeCasts_S1x192_S192

end Leaves

/-! ## The four stretches of the layer, from any contents

Each result buffer of a stretch is the composition of the stretch's operations over the contents the stretch starts
from; the compositions are the stage functions. -/

section Stretches

variable {F : FTy → Type} [FloatOps F]

set_option maxHeartbeats 4000000 in  -- a stretch of up to forty operations over the program's five hundred buffers
/-- The embedding sums: the layer's table looked up at the two attribute columns, the two rows added. -/
theorem lookup_L3 (V : Valuation τ sig (Elt F)) :
    after (opsC12 (F := F)) V (Proc.devRef .tc main_v232)
      = embSumR (plainLookupR (emb_L3 (V (Proc.devRef .tc main_arg5))) (V (Proc.devRef .tc main_arg0))) := by
  after_results
  generalize V (Proc.devRef .tc main_arg5) = A
  generalize V (Proc.devRef .tc main_arg0) = z
  rfl

set_option maxHeartbeats 4000000 in  -- a stretch of up to forty operations over the program's five hundred buffers
theorem tW_of_L3 (V : Valuation τ sig (Elt F)) :
    after (opsC13 (F := F)) V (Proc.devRef .tc main_v235) = tW_L3 (V (Proc.devRef .tc main_arg6)) := by
  after_results
  generalize V (Proc.devRef .tc main_arg6) = A
  rfl

set_option maxHeartbeats 4000000 in  -- a stretch of up to forty operations over the program's five hundred buffers
theorem tb_of_L3 (V : Valuation τ sig (Elt F)) :
    after (opsC13 (F := F)) V (Proc.devRef .tc main_v238) = tb_L3 (V (Proc.devRef .tc main_arg7)) := by
  after_results
  generalize V (Proc.devRef .tc main_arg7) = A
  rfl

set_option maxHeartbeats 4000000 in  -- a stretch of up to forty operations over the program's five hundred buffers
theorem cW_of_L3 (V : Valuation τ sig (Elt F)) :
    after (opsC13 (F := F)) V (Proc.devRef .tc main_v243) = cW_L3 (V (Proc.devRef .tc main_arg8)) := by
  after_results
  generalize V (Proc.devRef .tc main_arg8) = A
  rfl

set_option maxHeartbeats 4000000 in  -- a stretch of up to forty operations over the program's five hundred buffers
theorem wih_of_L3 (V : Valuation τ sig (Elt F)) :
    after (opsC13 (F := F)) V (Proc.devRef .tc main_v245) = gW_L3 (V (Proc.devRef .tc main_arg9)) := by
  after_results
  generalize V (Proc.devRef .tc main_arg9) = A
  rfl

set_option maxHeartbeats 4000000 in  -- a stretch of up to forty operations over the program's five hundred buffers
theorem bih_of_L3 (V : Valuation τ sig (Elt F)) :
    after (opsC13 (F := F)) V (Proc.devRef .tc main_v247) = gb_L3 (V (Proc.devRef .tc main_arg10)) := by
  after_results
  generalize V (Proc.devRef .tc main_arg10) = A
  rfl

set_option maxHeartbeats 4000000 in  -- a stretch of up to forty operations over the program's five hundred buffers
theorem whh_of_L3 (V : Valuation τ sig (Elt F)) :
    after (opsC13 (F := F)) V (Proc.devRef .tc main_v249) = gW_L3 (V (Proc.devRef .tc main_arg11)) := by
  after_results
  generalize V (Proc.devRef .tc main_arg11) = A
  rfl

set_option maxHeartbeats 4000000 in  -- a stretch of up to forty operations over the program's five hundred buffers
theorem bhh_of_L3 (V : Valuation τ sig (Elt F)) :
    after (opsC13 (F := F)) V (Proc.devRef .tc main_v251) = gb_L3 (V (Proc.devRef .tc main_arg12)) := by
  after_results
  generalize V (Proc.devRef .tc main_arg12) = A
  rfl

set_option maxHeartbeats 4000000 in  -- a stretch of up to forty operations over the program's five hundred buffers
/-- The transformed state: the previous state beside the embedding sums through the layer's affine map. -/
theorem trans_of_L3 (V : Valuation τ sig (Elt F)) :
    after (opsC13 (F := F)) V (Proc.devRef .tc main_v241)
      = Stage.transStage (V (Proc.devRef .tc main_v222)) (V (Proc.devRef .tc main_v232)) (tW_L3 (V (Proc.devRef .tc main_arg6))) (tb_L3 (V (Proc.devRef .tc main_arg7))) := by
  after_results
  generalize V (Proc.devRef .tc main_v222) = X
  generalize V (Proc.devRef .tc main_v232) = ZE
  generalize V (Proc.devRef .tc main_arg6) = A
  generalize V (Proc.devRef .tc main_arg7) = B
  rfl

set_option maxHeartbeats 4000000 in  -- a stretch of up to forty operations over the program's five hundred buffers
/-- The convolved rows: the transformed state times the convolution weight. -/
theorem conv_of_L3 (V : Valuation τ sig (Elt F)) :
    after (opsC13 (F := F)) V (Proc.devRef .tc main_v252)
      = Stage.hStage (Stage.transStage (V (Proc.devRef .tc main_v222)) (V (Proc.devRef .tc main_v232)) (tW_L3 (V (Proc.devRef .tc main_arg6))) (tb_L3 (V (Proc.devRef .tc main_arg7))))
          (cW_L3 (V (Proc.devRef .tc main_arg8))) := by
  after_results
  generalize V (Proc.devRef .tc main_v222) = X
  generalize V (Proc.devRef .tc main_v232) = ZE
  generalize V (Proc.devRef .tc main_arg6) = A
  generalize V (Proc.devRef .tc main_arg7) = B
  generalize V (Proc.devRef .tc main_arg8) = C
  rfl

set_option maxHeartbeats 4000000 in  -- a stretch of up to forty operations over the program's five hundred buffers
/-- The messages: the convolved rows gathered at the edges' sources and added at their targets. -/
theorem pass_of_L3 (V : Valuation τ sig (Elt F)) :
    after (opsC14 (F := F)) V (Proc.devRef .tc main_v262)
      = passR (V (Proc.devRef .tc main_v1)) (V (Proc.devRef .tc main_v3)) (V (Proc.devRef .tc main_v252)) := by
  after_results
  generalize V (Proc.devRef .tc main_v1) = src
  generalize V (Proc.devRef .tc main_v3) = dst
  generalize V (Proc.devRef .tc main_v252) = h
  rfl

set_option maxHeartbeats 4000000 in  -- a stretch of up to forty operations over the program's five hundred buffers
/-- The new state: the gated recurrent update of the messages and the transformed state. -/
theorem update_of_L3 (V : Valuation τ sig (Elt F)) :
    after (opsC15 (F := F)) V (Proc.devRef .tc main_v298)
      = Stage.gruStage (V (Proc.devRef .tc main_v262)) (V (Proc.devRef .tc main_v241)) (V (Proc.devRef .tc main_v245)) (V (Proc.devRef .tc main_v247))
          (V (Proc.devRef .tc main_v249)) (V (Proc.devRef .tc main_v251)) := by
  after_results_simp
  generalize V (Proc.devRef .tc main_v262) = M
  generalize V (Proc.devRef .tc main_v241) = XT
  generalize V (Proc.devRef .tc main_v245) = Wih
  generalize V (Proc.devRef .tc main_v247) = bih
  generalize V (Proc.devRef .tc main_v249) = Whh
  generalize V (Proc.devRef .tc main_v251) = bhh
  rfl

end Stretches

/-! ## The layer in the run

The levels of the run before and after the layer's four stretches. A buffer a stretch does not write keeps its
contents through it; the program's arguments keep their launch contents throughout. -/

section Levels

variable {F : FTy → Type} [FloatOps F]

/-- The edges' source row, extracted before the first layer, is still in place after this one. -/
theorem src_L3 (m : (ℓ : Loc nD τ sig) → Buf (Elt F) ℓ) (c : Dev nD) : Lv16 m c (Proc.devRef .tc main_v1) = Lv1 m c (Proc.devRef .tc main_v1) :=
  (opsC15_keeps (Lv15 m c) (r := main_v1) (by decide)).trans <| (opsC14_keeps (Lv14 m c) (r := main_v1) (by decide)).trans <|
    (opsC13_keeps (Lv13 m c) (r := main_v1) (by decide)).trans <| (opsC12_keeps (Lv12 m c) (r := main_v1) (by decide)).trans (src_L2 m c)

/-- The edges' target row likewise. -/
theorem dst_L3 (m : (ℓ : Loc nD τ sig) → Buf (Elt F) ℓ) (c : Dev nD) : Lv16 m c (Proc.devRef .tc main_v3) = Lv1 m c (Proc.devRef .tc main_v3) :=
  (opsC15_keeps (Lv15 m c) (r := main_v3) (by decide)).trans <| (opsC14_keeps (Lv14 m c) (r := main_v3) (by decide)).trans <|
    (opsC13_keeps (Lv13 m c) (r := main_v3) (by decide)).trans <| (opsC12_keeps (Lv12 m c) (r := main_v3) (by decide)).trans (dst_L2 m c)

/-- The embedding sums, of the launch contents of the table stack and of the attribute array. -/
theorem lookup_L3_lv (m : (ℓ : Loc nD τ sig) → Buf (Elt F) ℓ) (c : Dev nD) :
    Lv13 m c (Proc.devRef .tc main_v232)
      = embSumR (plainLookupR (emb_L3 (Lv0 m c (Proc.devRef .tc main_arg5))) (Lv0 m c (Proc.devRef .tc main_arg0))) :=
  (lookup_L3 (Lv12 m c)).trans (by rw [Lv12_arg m c (r := main_arg5) (by decide), Lv12_arg m c (r := main_arg0) (by decide)])

theorem tW_L3_lv (m : (ℓ : Loc nD τ sig) → Buf (Elt F) ℓ) (c : Dev nD) : Lv14 m c (Proc.devRef .tc main_v235) = tW_L3 (Lv0 m c (Proc.devRef .tc main_arg6)) :=
  (tW_of_L3 (Lv13 m c)).trans (by rw [Lv13_arg m c (r := main_arg6) (by decide)])

theorem tb_L3_lv (m : (ℓ : Loc nD τ sig) → Buf (Elt F) ℓ) (c : Dev nD) : Lv14 m c (Proc.devRef .tc main_v238) = tb_L3 (Lv0 m c (Proc.devRef .tc main_arg7)) :=
  (tb_of_L3 (Lv13 m c)).trans (by rw [Lv13_arg m c (r := main_arg7) (by decide)])

theorem cW_L3_lv (m : (ℓ : Loc nD τ sig) → Buf (Elt F) ℓ) (c : Dev nD) : Lv14 m c (Proc.devRef .tc main_v243) = cW_L3 (Lv0 m c (Proc.devRef .tc main_arg8)) :=
  (cW_of_L3 (Lv13 m c)).trans (by rw [Lv13_arg m c (r := main_arg8) (by decide)])

theorem wih_L3_lv (m : (ℓ : Loc nD τ sig) → Buf (Elt F) ℓ) (c : Dev nD) : Lv14 m c (Proc.devRef .tc main_v245) = gW_L3 (Lv0 m c (Proc.devRef .tc main_arg9)) :=
  (wih_of_L3 (Lv13 m c)).trans (by rw [Lv13_arg m c (r := main_arg9) (by decide)])

theorem bih_L3_lv (m : (ℓ : Loc nD τ sig) → Buf (Elt F) ℓ) (c : Dev nD) : Lv14 m c (Proc.devRef .tc main_v247) = gb_L3 (Lv0 m c (Proc.devRef .tc main_arg10)) :=
  (bih_of_L3 (Lv13 m c)).trans (by rw [Lv13_arg m c (r := main_arg10) (by decide)])

theorem whh_L3_lv (m : (ℓ : Loc nD τ sig) → Buf (Elt F) ℓ) (c : Dev nD) : Lv14 m c (Proc.devRef .tc main_v249) = gW_L3 (Lv0 m c (Proc.devRef .tc main_arg11)) :=
  (whh_of_L3 (Lv13 m c)).trans (by rw [Lv13_arg m c (r := main_arg11) (by decide)])

theorem bhh_L3_lv (m : (ℓ : Loc nD τ sig) → Buf (Elt F) ℓ) (c : Dev nD) : Lv14 m c (Proc.devRef .tc main_v251) = gb_L3 (Lv0 m c (Proc.devRef .tc main_arg12)) :=
  (bhh_of_L3 (Lv13 m c)).trans (by rw [Lv13_arg m c (r := main_arg12) (by decide)])

/-- The transformed state, of the previous layer's state, the embedding sums and the two parameter buffers. -/
theorem trans_L3_lv (m : (ℓ : Loc nD τ sig) → Buf (Elt F) ℓ) (c : Dev nD) :
    Lv14 m c (Proc.devRef .tc main_v241)
      = Stage.transStage (Lv12 m c (Proc.devRef .tc main_v222)) (Lv13 m c (Proc.devRef .tc main_v232)) (Lv14 m c (Proc.devRef .tc main_v235)) (Lv14 m c (Proc.devRef .tc main_v238)) :=
  (trans_of_L3 (Lv13 m c)).trans (by
    rw [show Lv14 m c (Proc.devRef .tc main_v235) = _ from tW_of_L3 (Lv13 m c), show Lv14 m c (Proc.devRef .tc main_v238) = _ from tb_of_L3 (Lv13 m c),
      show Lv13 m c (Proc.devRef .tc main_v222) = Lv12 m c (Proc.devRef .tc main_v222) from opsC12_keeps (Lv12 m c) (r := main_v222) (by decide)])

/-- The convolved rows, of the transformed state and the convolution weight buffer. -/
theorem conv_L3_lv (m : (ℓ : Loc nD τ sig) → Buf (Elt F) ℓ) (c : Dev nD) :
    Lv14 m c (Proc.devRef .tc main_v252) = Stage.hStage (Lv14 m c (Proc.devRef .tc main_v241)) (Lv14 m c (Proc.devRef .tc main_v243)) :=
  (conv_of_L3 (Lv13 m c)).trans (by
    rw [show Lv14 m c (Proc.devRef .tc main_v241) = _ from trans_of_L3 (Lv13 m c), show Lv14 m c (Proc.devRef .tc main_v243) = _ from cW_of_L3 (Lv13 m c)])

/-- The layer's messages: the edge pass, over the edge rows extracted before the first layer, of the convolved rows. -/
theorem pass3R (m : (ℓ : Loc nD τ sig) → Buf (Elt F) ℓ) (c : Dev nD) :
    Lv15 m c (Proc.devRef .tc main_v262)
      = passR (Lv1 m c (Proc.devRef .tc main_v1)) (Lv1 m c (Proc.devRef .tc main_v3)) (Lv14 m c (Proc.devRef .tc main_v252)) :=
  (pass_of_L3 (Lv14 m c)).trans (by
    rw [show Lv14 m c (Proc.devRef .tc main_v1) = Lv1 m c (Proc.devRef .tc main_v1) from
          (opsC13_keeps (Lv13 m c) (r := main_v1) (by decide)).trans <| (opsC12_keeps (Lv12 m c) (r := main_v1) (by decide)).trans (src_L2 m c),
      show Lv14 m c (Proc.devRef .tc main_v3) = Lv1 m c (Proc.devRef .tc main_v3) from
          (opsC13_keeps (Lv13 m c) (r := main_v3) (by decide)).trans <| (opsC12_keeps (Lv12 m c) (r := main_v3) (by decide)).trans (dst_L2 m c)])

/-- The layer's new state, of the messages, the transformed state and the four gate parameter buffers. -/
theorem update_L3_lv (m : (ℓ : Loc nD τ sig) → Buf (Elt F) ℓ) (c : Dev nD) :
    Lv16 m c (Proc.devRef .tc main_v298)
      = Stage.gruStage (Lv15 m c (Proc.devRef .tc main_v262)) (Lv14 m c (Proc.devRef .tc main_v241)) (Lv14 m c (Proc.devRef .tc main_v245)) (Lv14 m c (Proc.devRef .tc main_v247))
          (Lv14 m c (Proc.devRef .tc main_v249)) (Lv14 m c (Proc.devRef .tc main_v251)) :=
  (update_of_L3 (Lv15 m c)).trans (by
    rw [show Lv15 m c (Proc.devRef .tc main_v241) = Lv14 m c (Proc.devRef .tc main_v241) from opsC14_keeps (Lv14 m c) (r := main_v241) (by decide),
      show Lv15 m c (Proc.devRef .tc main_v245) = Lv14 m c (Proc.devRef .tc main_v245) from opsC14_keeps (Lv14 m c) (r := main_v245) (by decide),
      show Lv15 m c (Proc.devRef .tc main_v247) = Lv14 m c (Proc.devRef .tc main_v247) from opsC14_keeps (Lv14 m c) (r := main_v247) (by decide),
      show Lv15 m c (Proc.devRef .tc main_v249) = Lv14 m c (Proc.devRef .tc main_v249) from opsC14_keeps (Lv14 m c) (r := main_v249) (by decide),
      show Lv15 m c (Proc.devRef .tc main_v251) = Lv14 m c (Proc.devRef .tc main_v251) from opsC14_keeps (Lv14 m c) (r := main_v251) (by decide)])

end Levels

/-! ## The layer on the extended reals

Read as matrices of extended reals, the layer's new state is the layer function of the specification applied to the
transformed state and the layer's parameters, the edge pass being the reference's own gather and scatter-add over the
edge rows. Row by row: the update stage at (r, q) is the gated update of row r of the messages and row r of the
transformed state; row r of the transformed state is the affine map of row r of the previous state beside row r of
the embedding sums; and the messages are the edge pass of the convolved rows, whose row r is row r of the transformed
state times the convolution weight. -/

section Ideal

/-- Row r of the transformed state is the specification's transform of row r. -/
theorem trans_row_L3 (X ZE : (⟨S100000x64, .f32⟩ : BufTy).Contents (Elt Ideal)) (TW : (⟨S128x64, .f32⟩ : BufTy).Contents (Elt Ideal))
    (TB : (⟨S64, .f32⟩ : BufTy).Contents (Elt Ideal)) (r : Fin 100000) :
    (fun k => Stage.transStage (F := Ideal) X ZE TW TB (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r :=
  funext fun k => Stage.transStage_apply X ZE TW TB r k

/-- The convolved rows are the specification's convolution of the transformed state, laid out as an array. -/
theorem conv_arr_L3 (X ZE : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal)) :
    (Stage.hStage (F := Ideal) (Stage.transStage X ZE TW TB) CW : Cert.Sem.Arr 100000 64)
      = Cert.Sem.ofMat (Cert.Sem.conv
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))) := by
  refine Cert.Sem.arr_ext fun r q => ?_
  refine (Stage.hStage_apply (Stage.transStage X ZE TW TB) CW r q).trans ?_
  rw [trans_row_L3 X ZE TW TB r]
  rfl

/-- The update stage over the edge pass of the convolved rows, read as a matrix, is the specification's layer: the
    statement over arrays named once, none of them opened. -/
theorem layer_arr_L3 (src dst : (⟨S1600000, .i32⟩ : BufTy).Contents (Elt Ideal))
    (X ZE O M H XT : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal))
    (Wih Whh : (⟨S64x192, .f32⟩ : BufTy).Contents (Elt Ideal)) (bih bhh : (⟨S192, .f32⟩ : BufTy).Contents (Elt Ideal))
    (hO : O = Stage.gruStage M XT Wih bih Whh bhh) (hM : M = passR src dst H) (hH : H = Stage.hStage XT CW)
    (hXT : XT = Stage.transStage X ZE TW TB) :
    Cert.Sem.toMat (O : Cert.Sem.Arr 100000 64)
      = Cert.Sem.layerOf (passR (F := Ideal) src dst)
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))
          (Cert.Sem.toMat (Wih : Cert.Sem.Arr 64 192)) (Cert.Sem.toVec bih)
          (Cert.Sem.toMat (Whh : Cert.Sem.Arr 64 192)) (Cert.Sem.toVec bhh) := by
  have hrow : ∀ r : Fin 100000, (fun k => XT (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r := fun r => by
    rw [hXT]; exact trans_row_L3 X ZE TW TB r
  have hconv : H = Cert.Sem.ofMat (Cert.Sem.conv
        (Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB))
        (Cert.Sem.toMat (CW : Cert.Sem.Arr 64 64))) := by
    rw [hH, hXT]; exact conv_arr_L3 X ZE TW TB CW
  funext r q
  show O (ix2 r q) = _
  rw [hO]
  refine (Stage.gruStage_apply M XT Wih bih Whh bhh r q).trans ?_
  rw [hrow r, hM, hconv]
  rfl

/-- The layer's new state is the specification's layer applied to the transformed state. -/
theorem layer3R (m : (ℓ : Loc nD τ sig) → Buf (Elt Ideal) ℓ) (c : Dev nD) :
    Cert.Sem.toMat (Lv16 m c (Proc.devRef .tc main_v298) : Cert.Sem.Arr 100000 64)
      = Cert.Sem.layerOf (passR (F := Ideal) (Lv1 m c (Proc.devRef .tc main_v1)) (Lv1 m c (Proc.devRef .tc main_v3)))
          (Cert.Sem.transform (Cert.Sem.toMat (Lv12 m c (Proc.devRef .tc main_v222) : Cert.Sem.Arr 100000 64))
            (Cert.Sem.toMat (Lv13 m c (Proc.devRef .tc main_v232) : Cert.Sem.Arr 100000 64))
            (Cert.Sem.toMat (Lv14 m c (Proc.devRef .tc main_v235) : Cert.Sem.Arr 128 64)) (Cert.Sem.toVec (Lv14 m c (Proc.devRef .tc main_v238))))
          (Cert.Sem.toMat (Lv14 m c (Proc.devRef .tc main_v243) : Cert.Sem.Arr 64 64))
          (Cert.Sem.toMat (Lv14 m c (Proc.devRef .tc main_v245) : Cert.Sem.Arr 64 192)) (Cert.Sem.toVec (Lv14 m c (Proc.devRef .tc main_v247)))
          (Cert.Sem.toMat (Lv14 m c (Proc.devRef .tc main_v249) : Cert.Sem.Arr 64 192)) (Cert.Sem.toVec (Lv14 m c (Proc.devRef .tc main_v251))) :=
  layer_arr_L3 _ _ _ _ _ _ _ _ _ _ _ _ _ _ _ (update_L3_lv m c) (pass3R m c) (conv_L3_lv m c) (trans_L3_lv m c)

end Ideal

end Cert.ReferenceIdeal.Layers

end
-- ==== Proof.CrossL3.lean ====
import proofs.«157269_j2267742732766_1_alg».proof.Proof.CrossL2
import proofs.«157269_j2267742732766_1_alg».proof.Proof.KL3
import proofs.«157269_j2267742732766_1_alg».proof.Proof.RL3

/-!
# Layer 3 of the two programs agrees

Each layer after the first transforms the previous state and the layer's embedding sums through the layer's affine
map, then convolves, passes messages along the edges and updates. Both programs' layer theorems state the layer's
result as the specification's layer function of the buffers the host stretches leave; those buffers are, on each
side, the same functions of the launch arguments, the launch arguments agree, and the previous states agree by the
layer before.
-/

noncomputable section

namespace Cert.Cross

open Idealize.ShloMosaic Idealize.ShloMosaic.ValueIdx Idealize.SL.Sem

/-! ## The layer's slices: the same functions in both programs -/

section Pairs
variable {F : FTy → Type} [FloatOps F] [Cert.KernelIdeal.Facts₀] [Cert.ReferenceIdeal.Facts₀]

theorem table_L3_eq (a : (⟨Cert.KernelIdeal.S5x100x64, .f32⟩ : BufTy).Contents (Elt F)) :
    Cert.KernelIdeal.Layers.table_L3 a = Cert.ReferenceIdeal.Layers.emb_L3 a := rfl
theorem tW_L3_eq (a : (⟨Cert.KernelIdeal.S4x128x64, .f32⟩ : BufTy).Contents (Elt F)) :
    Cert.KernelIdeal.Layers.tWOf_L3 a = Cert.ReferenceIdeal.Layers.tW_L3 a := rfl
theorem cW_L3_eq (a : (⟨Cert.KernelIdeal.S5x64x64, .f32⟩ : BufTy).Contents (Elt F)) :
    Cert.KernelIdeal.Layers.cWOf_L3 a = Cert.ReferenceIdeal.Layers.cW_L3 a := rfl
theorem gateW_L3_eq (a : (⟨Cert.KernelIdeal.S5x64x192, .f32⟩ : BufTy).Contents (Elt F)) :
    Cert.KernelIdeal.Layers.gateW_L3 a = Cert.ReferenceIdeal.Layers.gW_L3 a := rfl
theorem tb_L3_row (a : (⟨Cert.KernelIdeal.S4x64, .f32⟩ : BufTy).Contents (Elt F)) :
    Cert.KernelIdeal.Layers.tbOf_L3 a
      = shapeCast Cert.KernelIdeal.S1x64 (Cert.ReferenceIdeal.Layers.tb_L3 a) Cert.KernelIdeal.Facts₀.shapeCasts_S64_S1x64 := rfl
theorem gateB_L3_row (a : (⟨Cert.KernelIdeal.S5x192, .f32⟩ : BufTy).Contents (Elt F)) :
    Cert.KernelIdeal.Layers.gateB_L3 a
      = shapeCast Cert.KernelIdeal.S1x192 (Cert.ReferenceIdeal.Layers.gb_L3 a) Cert.KernelIdeal.Facts₀.shapeCasts_S192_S1x192 := rfl

end Pairs

/-- The bias of the layer's affine map: the tiled program's one-row array read as a row is the reference's vector. -/
theorem tb_L3_eq [Cert.KernelIdeal.Facts₀] [Cert.ReferenceIdeal.Facts₀] (a : (⟨Cert.KernelIdeal.S4x64, .f32⟩ : BufTy).Contents (Elt Ideal)) :
    Cert.Sem.toRow (Cert.KernelIdeal.Layers.tbOf_L3 (F := Ideal) a) = Cert.Sem.toVec (Cert.ReferenceIdeal.Layers.tb_L3 (F := Ideal) a) := by
  rw [tb_L3_row]
  exact Cert.LibRowVec.toRow_shapeCast _ _

/-- A gate bias of the layer, likewise. -/
theorem gateB_L3_eq [Cert.KernelIdeal.Facts₀] [Cert.ReferenceIdeal.Facts₀] (a : (⟨Cert.KernelIdeal.S5x192, .f32⟩ : BufTy).Contents (Elt Ideal)) :
    Cert.Sem.toRow (Cert.KernelIdeal.Layers.gateB_L3 (F := Ideal) a) = Cert.Sem.toVec (Cert.ReferenceIdeal.Layers.gb_L3 (F := Ideal) a) := by
  rw [gateB_L3_row]
  exact Cert.LibRowVec.toRow_shapeCast _ _

/-! ## The layer -/

section Chain
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- LAYER 3: the states the two programs leave agree. -/
theorem x3 (hz : InRange m) (hag : Agree m m') (c : Dev Cert.KernelIdeal.nD) :
    (Cert.KernelIdeal.Gen.W24 m ρ c (Proc.devRef .tc Cert.KernelIdeal.main_v130) : Cert.Sem.Arr 100000 64)
      = (Cert.ReferenceIdeal.RunV.Lv16 m' c (Proc.devRef .tc Cert.ReferenceIdeal.main_v298) : Cert.Sem.Arr 100000 64) := by
  obtain ⟨h0, h1, h2, h3, h4, h5, h6, h7, h8, h9, h10, h11, h12, -⟩ := hag c
  apply Cert.Sem.toMat_inj
  refine (Cert.KernelIdeal.Layers.layer3 m ρ c).trans (Eq.trans ?_ (Cert.ReferenceIdeal.Layers.layer3R m' c).symm)
  refine layerOf_congr (passes_eq m ρ m' hag c) (transform_congr ?_ ?_ ?_ ?_) ?_ ?_ ?_ ?_ ?_
  · exact congrArg (Cert.Sem.toMat (R := 100000) (C := 64)) (x2 m ρ m' hz hag c)
  · exact congrArg (Cert.Sem.toMat (R := 100000) (C := 64))
      ((Cert.KernelIdeal.Layers.emb_L3 m ρ c).trans
        ((embSums_eq _ _ ((table_L3_eq _).trans (congrArg (Cert.ReferenceIdeal.Layers.emb_L3 (F := Ideal)) h5.symm)) _ _ h0.symm (hz c)).trans
          (Cert.ReferenceIdeal.Layers.lookup_L3_lv m' c).symm))
  · exact congrArg (Cert.Sem.toMat (R := 128) (C := 64))
      (leaf (Cert.KernelIdeal.Layers.tW_L3 m ρ c) (Cert.ReferenceIdeal.Layers.tW_L3_lv m' c) (fun a => tW_L3_eq a) h6)
  · exact leafRow (Cert.KernelIdeal.Layers.tb_L3 m ρ c) (Cert.ReferenceIdeal.Layers.tb_L3_lv m' c) (fun a => tb_L3_eq a) h7
  · exact congrArg (Cert.Sem.toMat (R := 64) (C := 64))
      (leaf (Cert.KernelIdeal.Layers.cW_L3 m ρ c) (Cert.ReferenceIdeal.Layers.cW_L3_lv m' c) (fun a => cW_L3_eq a) h8)
  · exact congrArg (Cert.Sem.toMat (R := 64) (C := 192))
      (leaf (Cert.KernelIdeal.Layers.wih_L3 m ρ c) (Cert.ReferenceIdeal.Layers.wih_L3_lv m' c) (fun a => gateW_L3_eq a) h9)
  · exact leafRow (Cert.KernelIdeal.Layers.bih_L3 m ρ c) (Cert.ReferenceIdeal.Layers.bih_L3_lv m' c) (fun a => gateB_L3_eq a) h10
  · exact congrArg (Cert.Sem.toMat (R := 64) (C := 192))
      (leaf (Cert.KernelIdeal.Layers.whh_L3 m ρ c) (Cert.ReferenceIdeal.Layers.whh_L3_lv m' c) (fun a => gateW_L3_eq a) h11)
  · exact leafRow (Cert.KernelIdeal.Layers.bhh_L3 m ρ c) (Cert.ReferenceIdeal.Layers.bhh_L3_lv m' c) (fun a => gateB_L3_eq a) h12

end Chain

end Cert.Cross

end
-- ==== Proof.KReg8.lean ====
/-
  The transformed row of a layer after the first, and its product with the layer's message matrix.

  The region walks the 100000 rows in ten blocks of 10000. At each block it reads the same rows of the previous
  state and of the embedding sums, and three whole arrays: the 128 x 64 weight of the layer's affine map, its
  1 x 64 bias row and the 64 x 64 message matrix. It writes back the transformed block (previous state beside
  embedding sum, through the affine map) and that block times the message matrix. The ten blocks are disjoint and
  fill the array, so each output array ends holding at row r a function of row r of the two row-blocked inputs
  and of the three whole arrays.

  Per output array: the printed index maps of the seven windows are related once over the ten points; what one
  point writes back is that point's block of one whole-array function; membership in a block is a range of rows;
  row r lies in the block of point r / 10000; the whole-array statement follows from the cover.
-/
import proofs.«157269_j2267742732766_1_alg».proof.Proof.Gen.KernelIdeal.Frame
import proofs.«157269_j2267742732766_1_alg».proof.Proof.Rows
import proofs.«157269_j2267742732766_1_alg».proof.Proof.KPayA
import Idealize.ShloMosaic.Lib.Pipeline.Value
import Idealize.ShloMosaic.Lib.ValueIdx

set_option maxRecDepth 16384

noncomputable section

namespace Cert.KernelIdeal.Reg8

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-! ## The row functions the two output arrays end holding -/

/-- The transformed row: at row `r`, column `q`, the previous state's row beside the embedding sums' row, through
    the affine map. -/
def transRow (A0 A1 : S100000x64.Idx → Elt Ideal .f32) (A2 : S128x64.Idx → Elt Ideal .f32)
    (A3 : S1x64.Idx → Elt Ideal .f32) : S100000x64.Idx → Elt Ideal .f32 :=
  fun i => Cert.Rows.trans (fun k : Fin 64 => A0 (ix2 (i 0 : Fin 100000) k))
    (fun k : Fin 64 => A1 (ix2 (i 0 : Fin 100000) k)) (fun (k : Fin 128) (n : Fin 64) => A2 (ix2 k n))
    (fun n : Fin 64 => A3 (ix2 (0 : Fin 1) n)) (i 1 : Fin 64)

/-- The transformed row times the message matrix. -/
def transDot (A0 A1 : S100000x64.Idx → Elt Ideal .f32) (A2 : S128x64.Idx → Elt Ideal .f32)
    (A3 : S1x64.Idx → Elt Ideal .f32) (A4 : S64x64.Idx → Elt Ideal .f32) : S100000x64.Idx → Elt Ideal .f32 :=
  fun i => Cert.Rows.dot
    (fun j : Fin 64 => Cert.Rows.trans (fun k : Fin 64 => A0 (ix2 (i 0 : Fin 100000) k))
      (fun k : Fin 64 => A1 (ix2 (i 0 : Fin 100000) k)) (fun (k : Fin 128) (n : Fin 64) => A2 (ix2 k n))
      (fun n : Fin 64 => A3 (ix2 (0 : Fin 1) n)) j)
    (fun (k n : Fin 64) => A4 (ix2 k n)) (i 1 : Fin 64)

/-- A row times a matrix depends only on the row's entries, the matrix's entries and the column. -/
theorem dot_congr {K N : ℕ} {x x' : Fin K → EReal} {W W' : Fin K → Fin N → EReal} {c c' : Fin N}
    (hx : ∀ k, x k = x' k) (hW : ∀ k n, W k n = W' k n) (hc : c = c') :
    Cert.Rows.dot x W c = Cert.Rows.dot x' W' c' := by
  subst hc
  have ex : x = x' := funext hx
  have eW : W = W' := funext fun k => funext fun n => hW k n
  rw [ex, eW]

/-- The transformed row depends only on the entries of its two rows, of the weight and of the bias, and the column. -/
theorem trans_congr {x x' ze ze' : Fin 64 → EReal} {tW tW' : Fin 128 → Fin 64 → EReal} {tb tb' : Fin 64 → EReal}
    {c c' : Fin 64} (hx : ∀ k, x k = x' k) (hze : ∀ k, ze k = ze' k) (hW : ∀ k n, tW k n = tW' k n)
    (hb : ∀ n, tb n = tb' n) (hc : c = c') :
    Cert.Rows.trans x ze tW tb c = Cert.Rows.trans x' ze' tW' tb' c' := by
  subst hc
  have ex : x = x' := funext hx
  have eze : ze = ze' := funext hze
  have eW : tW = tW' := funext fun k => funext fun n => hW k n
  have eb : tb = tb' := funext hb
  rw [ex, eze, eW, eb]

/-! ## The index maps, once over the grid -/

/-- The zero offsets of a whole-buffer access, as a constant function. -/
theorem zero_off : (![0, 0] : Fin 2 → Nat) = fun _ => 0 := funext fun a => by fin_cases a <;> rfl

/-- At point `t` the four row-blocked windows sit at block `(t, 0)`, the three whole-array windows at `(0, 0)`. -/
theorem index_maps : ∀ t : Fin cfg8.N,
      win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-! ## The input windows' blocks, read off their arrays -/

/-- Row `p` of the block of the previous state at point `t` is row `10000 t + p` of the array. -/
theorem prev_block (c : Dev nD) (t : Fin cfg8.N) (p : Fin 10000) (k : Fin 64) (r : Fin 100000)
    (hr : r.val = t.val * 10000 + p.val) :
    (iblk8 V c 0 t : Vec Ideal S10000x64 .f32) (ix2 p k)
      = (V c main_v130 : S100000x64.Idx → Elt Ideal .f32) (ix2 r k) := by
  obtain ⟨e0, e1, -⟩ := index_maps t
  unfold iblk8
  rw [View.read_apply]
  show V c main_v130 _ = V c main_v130 _
  congr 1
  funext a
  apply Fin.ext
  match a with
  | ⟨0, _⟩ => show win8_0.index t (0 : Fin 2) * 10000 + 1 * p.val = r.val; omega
  | ⟨1, _⟩ => show win8_0.index t (1 : Fin 2) * 64 + 1 * k.val = k.val; omega

/-- Row `p` of the block of the embedding sums at point `t` is row `10000 t + p` of the array. -/
theorem sums_block (c : Dev nD) (t : Fin cfg8.N) (p : Fin 10000) (k : Fin 64) (r : Fin 100000)
    (hr : r.val = t.val * 10000 + p.val) :
    (iblk8 V c 1 t : Vec Ideal S10000x64 .f32) (ix2 p k)
      = (V c main_v134 : S100000x64.Idx → Elt Ideal .f32) (ix2 r k) := by
  obtain ⟨-, -, e0, e1, -⟩ := index_maps t
  unfold iblk8
  rw [View.read_apply]
  show V c main_v134 _ = V c main_v134 _
  congr 1
  funext a
  apply Fin.ext
  match a with
  | ⟨0, _⟩ => show win8_1.index t (0 : Fin 2) * 10000 + 1 * p.val = r.val; omega
  | ⟨1, _⟩ => show win8_1.index t (1 : Fin 2) * 64 + 1 * k.val = k.val; omega

/-- The weight window's block at every point is the weight. -/
theorem weight_block (c : Dev nD) (t : Fin cfg8.N) (k : Fin 128) (n : Fin 64) :
    (iblk8 V c 2 t : Vec Ideal S128x64 .f32) (ix2 k n)
      = (V c main_v139 : S128x64.Idx → Elt Ideal .f32) (ix2 k n) := by
  obtain ⟨-, -, -, -, e0, e1, -⟩ := index_maps t
  unfold iblk8
  rw [View.read_apply]
  show V c main_v139 _ = V c main_v139 _
  congr 1
  funext a
  apply Fin.ext
  match a with
  | ⟨0, _⟩ => show win8_2.index t (0 : Fin 2) * 128 + 1 * k.val = k.val; omega
  | ⟨1, _⟩ => show win8_2.index t (1 : Fin 2) * 64 + 1 * n.val = n.val; omega

/-- The bias window's block at every point is the bias row. -/
theorem bias_block (c : Dev nD) (t : Fin cfg8.N) (k : Fin 1) (n : Fin 64) :
    (iblk8 V c 3 t : Vec Ideal S1x64 .f32) (ix2 k n)
      = (V c main_v137 : S1x64.Idx → Elt Ideal .f32) (ix2 k n) := by
  obtain ⟨-, -, -, -, -, -, e0, e1, -⟩ := index_maps t
  unfold iblk8
  rw [View.read_apply]
  show V c main_v137 _ = V c main_v137 _
  congr 1
  funext a
  apply Fin.ext
  match a with
  | ⟨0, _⟩ => show win8_3.index t (0 : Fin 2) * 1 + 1 * k.val = k.val; omega
  | ⟨1, _⟩ => show win8_3.index t (1 : Fin 2) * 64 + 1 * n.val = n.val; omega

/-- The message matrix window's block at every point is the matrix. -/
theorem matrix_block (c : Dev nD) (t : Fin cfg8.N) (k n : Fin 64) :
    (iblk8 V c 4 t : Vec Ideal S64x64 .f32) (ix2 k n)
      = (V c main_v141 : S64x64.Idx → Elt Ideal .f32) (ix2 k n) := by
  obtain ⟨-, -, -, -, -, -, -, -, e0, e1, -⟩ := index_maps t
  unfold iblk8
  rw [View.read_apply]
  show V c main_v141 _ = V c main_v141 _
  congr 1
  funext a
  apply Fin.ext
  match a with
  | ⟨0, _⟩ => show win8_4.index t (0 : Fin 2) * 64 + 1 * k.val = k.val; omega
  | ⟨1, _⟩ => show win8_4.index t (1 : Fin 2) * 64 + 1 * n.val = n.val; omega

/-! ## The body's two payloads at an index of the block -/

/-- The first payload at row `j 0`, column `j 1`: the transformed row of the loaded blocks. -/
theorem trans_at (x0 x1 : Vec Ideal S10000x64 .f32) (x2 : Vec Ideal S128x64 .f32) (x3 : Vec Ideal S1x64 .f32)
    (j : S10000x64.Idx) :
    k8_pay1 (F := Ideal) x0 x1 x2 x3 j
      = Cert.Rows.trans (fun k : Fin 64 => x0 (ix2 (j 0 : Fin 10000) k)) (fun k : Fin 64 => x1 (ix2 (j 0 : Fin 10000) k))
          (fun (k : Fin 128) (n : Fin 64) => x2 (ix2 k n)) (fun n : Fin 64 => x3 (ix2 (0 : Fin 1) n)) (j 1 : Fin 64) := by
  obtain ⟨p, q, rfl⟩ : ∃ (p : Fin 10000) (q : Fin 64), j = ix2 p q := ⟨j 0, j 1, eq_ix2 j⟩
  exact Pay.k8_pay1_apply x0 x1 x2 x3 p q

/-- The second payload: the transformed row times the loaded message matrix. -/
theorem transDot_at (x0 x1 : Vec Ideal S10000x64 .f32) (x2 : Vec Ideal S128x64 .f32) (x3 : Vec Ideal S1x64 .f32)
    (x4 : Vec Ideal S64x64 .f32) (j : S10000x64.Idx) :
    k8_pay2 (F := Ideal) x0 x1 x2 x3 x4 j
      = Cert.Rows.dot
          (fun i : Fin 64 => Cert.Rows.trans (fun k : Fin 64 => x0 (ix2 (j 0 : Fin 10000) k))
            (fun k : Fin 64 => x1 (ix2 (j 0 : Fin 10000) k)) (fun (k : Fin 128) (n : Fin 64) => x2 (ix2 k n))
            (fun n : Fin 64 => x3 (ix2 (0 : Fin 1) n)) i)
          (fun (k n : Fin 64) => x4 (ix2 k n)) (j 1 : Fin 64) := by
  obtain ⟨p, q, rfl⟩ : ∃ (p : Fin 10000) (q : Fin 64), j = ix2 p q := ⟨j 0, j 1, eq_ix2 j⟩
  exact Pay.k8_pay2_apply x0 x1 x2 x3 x4 p q

/-! ## Output window 5: the transformed rows -/

/-- What point `t` writes back through window 5 is block `t` of the transformed rows. -/
theorem flushed5_eq (c : Dev nD) (t : Fin cfg8.N) :
    (dat8 V c).flushed 5 t = ((cfg8.win 5).blk t).view.read (Elt Ideal)
      (transRow (V c main_v130) (V c main_v134) (V c main_v139) (V c main_v137)) := by
  show (cfg8.win 5).cut (grid8.coords t) ((dat8 V c).after 5 t) = _
  rw [after8_5]
  unfold out8_5
  rw [View.canon_unit_zero zero_off]
  simp only [View.ld_unit_zero (S := S10000x64) zero_off, View.ld_unit_zero (S := S128x64) zero_off,
    View.ld_unit_zero (S := S1x64) zero_off]
  obtain ⟨-, -, -, -, -, -, -, -, -, -, e0, e1, -⟩ := index_maps t
  funext j
  refine (trans_at _ _ _ _ _).trans ?_
  show Cert.Rows.trans _ _ _ _ _
    = transRow (V c main_v130) (V c main_v134) (V c main_v139) (V c main_v137) (((cfg8.win 5).blk t).view.emb j)
  unfold transRow
  refine trans_congr (fun k => ?_) (fun k => ?_) (fun k n => ?_) (fun n => ?_) ?_
  · refine prev_block V c t _ k _ ?_
    show win8_5.index t (0 : Fin 2) * 10000 + 1 * (j 0).val = t.val * 10000 + (j 0).val
    omega
  · refine sums_block V c t _ k _ ?_
    show win8_5.index t (0 : Fin 2) * 10000 + 1 * (j 0).val = t.val * 10000 + (j 0).val
    omega
  · exact weight_block V c t k n
  · exact bias_block V c t 0 n
  · apply Fin.ext
    show (j 1).val = win8_5.index t (1 : Fin 2) * 64 + 1 * (j 1).val
    omega

/-- An index is in point `t`'s block of window 5 iff each coordinate is in the block's range on its axis. -/
theorem mem_blk5 (t : Fin cfg8.N) (i : S100000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v142_0).slice (win8_5.rect t)).set ↔ _
  rw [View.set_slice_whole, Rect.mem_set_unit]
  exact Iff.rfl

/-- Row `r` lies in the block of point `r / 10000`. -/
theorem cover5 (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : grid8.N = 10 := N_8
  let t : Fin cfg8.N := ⟨(i 0).val / 10000, by show (i 0).val / 10000 < grid8.N; rw [hN]; omega⟩
  refine ⟨t, flush8_5 t, ?_⟩
  rw [mem_blk5]
  obtain ⟨-, -, -, -, -, -, -, -, -, -, e0, e1, -⟩ := index_maps t
  have ht : t.val = (i 0).val / 10000 := rfl
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 64 ≤ (i 1).val ∧ (i 1).val < win8_5.index t (1 : Fin 2) * 64 + 64; omega

/-- The first output array after the region: the transformed rows. -/
theorem array5 (c : Dev nD) :
    (dat8 V c).arrAt 5 cfg8.N = transRow (V c main_v130) (V c main_v134) (V c main_v139) (V c main_v137) :=
  (dat8 V c).arrAt_eq_of_cover 5 (transRow (V c main_v130) (V c main_v134) (V c main_v139) (V c main_v137))
    (fun t _ => flushed5_eq V c t) cover5

/-! ## Output window 6: the transformed rows times the message matrix -/

/-- What point `t` writes back through window 6 is block `t` of "transformed row times matrix". -/
theorem flushed6_eq (c : Dev nD) (t : Fin cfg8.N) :
    (dat8 V c).flushed 6 t = ((cfg8.win 6).blk t).view.read (Elt Ideal)
      (transDot (V c main_v130) (V c main_v134) (V c main_v139) (V c main_v137) (V c main_v141)) := by
  show (cfg8.win 6).cut (grid8.coords t) ((dat8 V c).after 6 t) = _
  rw [after8_6]
  unfold out8_6
  rw [View.canon_unit_zero zero_off]
  simp only [View.ld_unit_zero (S := S10000x64) zero_off, View.ld_unit_zero (S := S128x64) zero_off,
    View.ld_unit_zero (S := S1x64) zero_off, View.ld_unit_zero (S := S64x64) zero_off]
  obtain ⟨-, -, -, -, -, -, -, -, -, -, -, -, e0, e1⟩ := index_maps t
  funext j
  refine (transDot_at _ _ _ _ _ _).trans ?_
  show Cert.Rows.dot _ _ _
    = transDot (V c main_v130) (V c main_v134) (V c main_v139) (V c main_v137) (V c main_v141)
        (((cfg8.win 6).blk t).view.emb j)
  unfold transDot
  refine dot_congr (fun i => trans_congr (fun k => ?_) (fun k => ?_) (fun k n => ?_) (fun n => ?_) rfl)
    (fun k n => ?_) ?_
  · refine prev_block V c t _ k _ ?_
    show win8_6.index t (0 : Fin 2) * 10000 + 1 * (j 0).val = t.val * 10000 + (j 0).val
    omega
  · refine sums_block V c t _ k _ ?_
    show win8_6.index t (0 : Fin 2) * 10000 + 1 * (j 0).val = t.val * 10000 + (j 0).val
    omega
  · exact weight_block V c t k n
  · exact bias_block V c t 0 n
  · exact matrix_block V c t k n
  · apply Fin.ext
    show (j 1).val = win8_6.index t (1 : Fin 2) * 64 + 1 * (j 1).val
    omega

/-- An index is in point `t`'s block of window 6 iff each coordinate is in the block's range on its axis. -/
theorem mem_blk6 (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v142_1).slice (win8_6.rect t)).set ↔ _
  rw [View.set_slice_whole, Rect.mem_set_unit]
  exact Iff.rfl

/-- Row `r` lies in the block of point `r / 10000`. -/
theorem cover6 (i : S100000x64.Idx) :
    ∃ t : Fin cfg8.N, (cfg8.win 6).flush t = true ∧ i ∈ ((cfg8.win 6).blk t).view.set := by
  have hi0 : (i 0).val < 100000 := (i 0).isLt
  have hi1 : (i 1).val < 64 := (i 1).isLt
  have hN : grid8.N = 10 := N_8
  let t : Fin cfg8.N := ⟨(i 0).val / 10000, by show (i 0).val / 10000 < grid8.N; rw [hN]; omega⟩
  refine ⟨t, flush8_6 t, ?_⟩
  rw [mem_blk6]
  obtain ⟨-, -, -, -, -, -, -, -, -, -, -, -, e0, e1⟩ := index_maps t
  have ht : t.val = (i 0).val / 10000 := rfl
  intro a
  match a with
  | ⟨0, _⟩ => show win8_6.index t (0 : Fin 2) * 10000 ≤ (i 0).val ∧ (i 0).val < win8_6.index t (0 : Fin 2) * 10000 + 10000; omega
  | ⟨1, _⟩ => show win8_6.index t (1 : Fin 2) * 64 ≤ (i 1).val ∧ (i 1).val < win8_6.index t (1 : Fin 2) * 64 + 64; omega

/-- The second output array after the region: the transformed rows times the message matrix. -/
theorem array6 (c : Dev nD) :
    (dat8 V c).arrAt 6 cfg8.N
      = transDot (V c main_v130) (V c main_v134) (V c main_v139) (V c main_v137) (V c main_v141) :=
  (dat8 V c).arrAt_eq_of_cover 6
    (transDot (V c main_v130) (V c main_v134) (V c main_v139) (V c main_v137) (V c main_v141))
    (fun t _ => flushed6_eq V c t) cover6

/-! ## The two arrays, index by index -/

/-- The first output array holds, at row `r`, the transformed row. -/
theorem out5 (c : Dev nD) (r : Fin 100000) (q : Fin 64) :
    (dat8 V c).arrAt 5 cfg8.N (ix2 r q)
      = Cert.Rows.trans (fun k => V c main_v130 (ix2 r k)) (fun k => V c main_v134 (ix2 r k))
          (fun k n => V c main_v139 (ix2 k n)) (fun n => V c main_v137 (ix2 0 n)) q :=
  congrFun (array5 V c) (ix2 r q)

/-- The second output array holds, at row `r`, the transformed row times the message matrix. -/
theorem out6 (c : Dev nD) (r : Fin 100000) (q : Fin 64) :
    (dat8 V c).arrAt 6 cfg8.N (ix2 r q)
      = Cert.Rows.dot
          (fun j => Cert.Rows.trans (fun k => V c main_v130 (ix2 r k)) (fun k => V c main_v134 (ix2 r k))
            (fun k n => V c main_v139 (ix2 k n)) (fun n => V c main_v137 (ix2 0 n)) j)
          (fun k n => V c main_v141 (ix2 k n)) q :=
  congrFun (array6 V c) (ix2 r q)

end Cert.KernelIdeal.Reg8

end
-- ==== Proof.KReg9.lean ====
import proofs.«157269_j2267742732766_1_alg».proof.Proof.Gen.KernelIdeal.Frame
import proofs.«157269_j2267742732766_1_alg».proof.Proof.Rows
import proofs.«157269_j2267742732766_1_alg».proof.Proof.KPayB
import Idealize.ShloMosaic.Lib.Pipeline.Value
import Idealize.ShloMosaic.Lib.ValueIdx

/-!
  Region 9: the gated recurrent update, from row blocks to the whole array.

  The region walks a grid of 10 points. Point `t` sees rows `10000·t … 10000·t + 9999` of the message array and of
  the state array, and the four weight arrays whole; it writes the same rows of the output array. Every row of the
  output is therefore written by exactly one point, and what that point writes in row `r`, column `q` is the gated
  recurrent update `Cert.Rows.gru` of row `r` of the messages and of the state. This module states that as one
  equation per entry of the output array.
-/

set_option maxRecDepth 16384

noncomputable section

namespace Cert.KernelIdeal.Reg9

open Cert.KernelIdeal Cert.KernelIdeal.Gen Idealize.ShloMosaic Idealize.ShloMosaic.TcCoe Idealize.ShloMosaic.ValueIdx
open Idealize.ShloMosaic.Pipeline (Dat)

/-! ## The row function over whole arrays -/

/-- Entry `q` of the updated state of row `r`: the gated recurrent update of row `r` of the messages `a0` and of the
    state `a1`, under the input-side weights `a2`, `a3` and the hidden-side weights `a4`, `a5`. -/
def row (a0 a1 : S100000x64.Idx → EReal) (a2 : S64x192.Idx → EReal) (a3 : S1x192.Idx → EReal)
    (a4 : S64x192.Idx → EReal) (a5 : S1x192.Idx → EReal) (r : Fin 100000) (q : Fin 64) : EReal :=
  Cert.Rows.gru (Ideal.ofBits .f32 0x3F800000#32) (fun k => a0 (ix2 r k)) (fun k => a1 (ix2 r k)) (fun k => a1 (ix2 r k))
    (fun k n => a2 (ix2 k n)) (fun n => a3 (ix2 0 n)) (fun k n => a4 (ix2 k n)) (fun n => a5 (ix2 0 n)) q

/-- The output array as one function of the six input arrays: entry `(r, q)` is `row … r q`. -/
def G (a0 a1 : S100000x64.Idx → EReal) (a2 : S64x192.Idx → EReal) (a3 : S1x192.Idx → EReal)
    (a4 : S64x192.Idx → EReal) (a5 : S1x192.Idx → EReal) : S100000x64.Idx → EReal :=
  fun i => row a0 a1 a2 a3 a4 a5 ⟨(i 0).val, idx2_lt0 i⟩ ⟨(i 1).val, idx2_lt1 i⟩

theorem G_apply (a0 a1 : S100000x64.Idx → EReal) (a2 : S64x192.Idx → EReal) (a3 : S1x192.Idx → EReal)
    (a4 : S64x192.Idx → EReal) (a5 : S1x192.Idx → EReal) (r : Fin 100000) (q : Fin 64) :
    G a0 a1 a2 a3 a4 a5 (ix2 r q) = row a0 a1 a2 a3 a4 a5 r q := rfl

/-! ## One block: the payload of row blocks that sit at row offset `o` of the arrays -/

/-- If the two row blocks `x0`, `x1` are rows `o … o + 9999` of the arrays `a0`, `a1` and the weight blocks are the
    weight arrays, the body's payload at `(p, q)` is entry `(o + p, q)` of the output function. -/
theorem pay_at_offset (x0 x1 : Vec Ideal S10000x64 .f32) (x2 x4 : Vec Ideal S64x192 .f32) (x3 x5 : Vec Ideal S1x192 .f32)
    (a0 a1 : S100000x64.Idx → EReal) (a2 : S64x192.Idx → EReal) (a3 : S1x192.Idx → EReal)
    (a4 : S64x192.Idx → EReal) (a5 : S1x192.Idx → EReal) (o : Nat) (p : Fin 10000) (q : Fin 64)
    (hb : o + p.val < 100000)
    (h0 : ∀ k : Fin 64, x0 (ix2 p k) = a0 (ix2 (⟨o + p.val, hb⟩ : Fin 100000) k))
    (h1 : ∀ k : Fin 64, x1 (ix2 p k) = a1 (ix2 (⟨o + p.val, hb⟩ : Fin 100000) k))
    (h2 : ∀ (k : Fin 64) (n : Fin 192), x2 (ix2 k n) = a2 (ix2 k n))
    (h3 : ∀ n : Fin 192, x3 (ix2 (0 : Fin 1) n) = a3 (ix2 (0 : Fin 1) n))
    (h4 : ∀ (k : Fin 64) (n : Fin 192), x4 (ix2 k n) = a4 (ix2 k n))
    (h5 : ∀ n : Fin 192, x5 (ix2 (0 : Fin 1) n) = a5 (ix2 (0 : Fin 1) n)) :
    k9_pay1 (F := Ideal) x0 x2 x3 x1 x4 x5 x1 (ix2 p q) = row a0 a1 a2 a3 a4 a5 ⟨o + p.val, hb⟩ q := by
  have e0 : (fun k : Fin 64 => x0 (ix2 p k)) = fun k => a0 (ix2 (⟨o + p.val, hb⟩ : Fin 100000) k) := funext h0
  have e1 : (fun k : Fin 64 => x1 (ix2 p k)) = fun k => a1 (ix2 (⟨o + p.val, hb⟩ : Fin 100000) k) := funext h1
  have e2 : (fun (k : Fin 64) (n : Fin 192) => x2 (ix2 k n)) = fun k n => a2 (ix2 k n) := funext fun k => funext (h2 k)
  have e3 : (fun n : Fin 192 => x3 (ix2 (0 : Fin 1) n)) = fun n => a3 (ix2 (0 : Fin 1) n) := funext h3
  have e4 : (fun (k : Fin 64) (n : Fin 192) => x4 (ix2 k n)) = fun k n => a4 (ix2 k n) := funext fun k => funext (h4 k)
  have e5 : (fun n : Fin 192 => x5 (ix2 (0 : Fin 1) n)) = fun n => a5 (ix2 (0 : Fin 1) n) := funext h5
  rw [Pay.k9_pay1_apply, e0, e1, e2, e3, e4, e5]
  rfl

/-! ## The printed index maps -/

theorem hz : (![0, 0] : Fin 2 → Nat) = fun _ => 0 := funext fun a => by fin_cases a <;> rfl

/-- The index maps, decided over the 10 grid points: the two row windows and the output window sit at block row `t`,
    block column 0; the four weight windows sit at block (0, 0). -/
theorem idx_facts : ∀ t : Fin cfg9.N,
      win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- A grid point is one of 10. -/
theorem point_lt (t : Fin cfg9.N) : t.val < 10 := t.isLt

/-! ## Where an element of each window's block sits in its array -/

/-- Element `(p, k)` of the message block at point `t` is entry `(10000·t + p, k)` of the message array. -/
theorem emb_msg (t : Fin cfg9.N) (p : Fin 10000) (k : Fin 64) (hb : t.val * 10000 + p.val < 100000) :
    ((cfg9.win 0).blk t).view.emb (ix2 p k) = (ix2 (⟨t.val * 10000 + p.val, hb⟩ : Fin 100000) k : S100000x64.Idx) := by
  obtain ⟨e0, e1, -⟩ := idx_facts t
  funext a; apply Fin.ext
  match a with
  | ⟨0, _⟩ => show win9_0.index t (0 : Fin 2) * 10000 + 1 * p.val = t.val * 10000 + p.val; omega
  | ⟨1, _⟩ => show win9_0.index t (1 : Fin 2) * 64 + 1 * k.val = k.val; omega

/-- Element `(p, k)` of the state block at point `t` is entry `(10000·t + p, k)` of the state array. -/
theorem emb_state (t : Fin cfg9.N) (p : Fin 10000) (k : Fin 64) (hb : t.val * 10000 + p.val < 100000) :
    ((cfg9.win 1).blk t).view.emb (ix2 p k) = (ix2 (⟨t.val * 10000 + p.val, hb⟩ : Fin 100000) k : S100000x64.Idx) := by
  obtain ⟨-, -, e0, e1, -⟩ := idx_facts t
  funext a; apply Fin.ext
  match a with
  | ⟨0, _⟩ => show win9_1.index t (0 : Fin 2) * 10000 + 1 * p.val = t.val * 10000 + p.val; omega
  | ⟨1, _⟩ => show win9_1.index t (1 : Fin 2) * 64 + 1 * k.val = k.val; omega

/-- Element `(p, q)` of the output block at point `t` is entry `(10000·t + p, q)` of the output array. -/
theorem emb_out (t : Fin cfg9.N) (p : Fin 10000) (q : Fin 64) (hb : t.val * 10000 + p.val < 100000) :
    ((cfg9.win 6).blk t).view.emb (ix2 p q) = (ix2 (⟨t.val * 10000 + p.val, hb⟩ : Fin 100000) q : S100000x64.Idx) := by
  obtain ⟨-, -, -, -, -, -, -, -, -, -, -, -, e0, e1⟩ := idx_facts t
  funext a; apply Fin.ext
  match a with
  | ⟨0, _⟩ => show win9_6.index t (0 : Fin 2) * 10000 + 1 * p.val = t.val * 10000 + p.val; omega
  | ⟨1, _⟩ => show win9_6.index t (1 : Fin 2) * 64 + 1 * q.val = q.val; omega

/-- The input-side weight block is its whole array. -/
theorem emb_wih (t : Fin cfg9.N) (k : Fin 64) (n : Fin 192) :
    ((cfg9.win 2).blk t).view.emb (ix2 k n) = (ix2 k n : S64x192.Idx) := by
  obtain ⟨-, -, -, -, e0, e1, -⟩ := idx_facts t
  funext a; apply Fin.ext
  match a with
  | ⟨0, _⟩ => show win9_2.index t (0 : Fin 2) * 64 + 1 * k.val = k.val; omega
  | ⟨1, _⟩ => show win9_2.index t (1 : Fin 2) * 192 + 1 * n.val = n.val; omega

/-- The input-side bias block is its whole array. -/
theorem emb_bih (t : Fin cfg9.N) (z : Fin 1) (n : Fin 192) :
    ((cfg9.win 3).blk t).view.emb (ix2 z n) = (ix2 z n : S1x192.Idx) := by
  obtain ⟨-, -, -, -, -, -, e0, e1, -⟩ := idx_facts t
  funext a; apply Fin.ext
  match a with
  | ⟨0, _⟩ => show win9_3.index t (0 : Fin 2) * 1 + 1 * z.val = z.val; omega
  | ⟨1, _⟩ => show win9_3.index t (1 : Fin 2) * 192 + 1 * n.val = n.val; omega

/-- The hidden-side weight block is its whole array. -/
theorem emb_whh (t : Fin cfg9.N) (k : Fin 64) (n : Fin 192) :
    ((cfg9.win 4).blk t).view.emb (ix2 k n) = (ix2 k n : S64x192.Idx) := by
  obtain ⟨-, -, -, -, -, -, -, -, e0, e1, -⟩ := idx_facts t
  funext a; apply Fin.ext
  match a with
  | ⟨0, _⟩ => show win9_4.index t (0 : Fin 2) * 64 + 1 * k.val = k.val; omega
  | ⟨1, _⟩ => show win9_4.index t (1 : Fin 2) * 192 + 1 * n.val = n.val; omega

/-- The hidden-side bias block is its whole array. -/
theorem emb_bhh (t : Fin cfg9.N) (z : Fin 1) (n : Fin 192) :
    ((cfg9.win 5).blk t).view.emb (ix2 z n) = (ix2 z n : S1x192.Idx) := by
  obtain ⟨-, -, -, -, -, -, -, -, -, -, e0, e1, -⟩ := idx_facts t
  funext a; apply Fin.ext
  match a with
  | ⟨0, _⟩ => show win9_5.index t (0 : Fin 2) * 1 + 1 * z.val = z.val; omega
  | ⟨1, _⟩ => show win9_5.index t (1 : Fin 2) * 192 + 1 * n.val = n.val; omega

section Region

variable (V : (c : Dev nD) → (b : Ref sig .tc) → Buf (Elt Ideal) ((c : Thread nD τ).loc b))

/-- The output array the region should leave, from the arrays as the region finds them. -/
abbrev GV (c : Dev nD) : S100000x64.Idx → EReal :=
  G (V c main_v152) (V c main_v142_0) (V c main_v160) (V c main_v155) (V c main_v162) (V c main_v158)

/-! ## What one point writes back -/

/-- Point `t` writes back block `t` of the output function of the arrays as the region finds them. -/
theorem flushed_eq (c : Dev nD) (t : Fin cfg9.N) :
    (dat9 V c).flushed 6 t = ((cfg9.win 6).blk t).view.read (Elt Ideal) (GV V c) := by
  show (cfg9.win 6).cut (grid9.coords t) ((dat9 V c).after 6 t) = _
  rw [after9_6]
  unfold out9_6
  rw [View.canon_unit_zero hz]
  simp only [View.ld_unit_zero (S := S10000x64) hz, View.ld_unit_zero (S := S64x192) hz, View.ld_unit_zero (S := S1x192) hz]
  funext j
  obtain ⟨p, q, rfl⟩ : ∃ (p : Fin 10000) (q : Fin 64), j = ix2 p q := ⟨j 0, j 1, eq_ix2 j⟩
  have ht := point_lt t
  have hb : t.val * 10000 + p.val < 100000 := by have := p.isLt; omega
  show k9_pay1 (F := Ideal) (iblk9 V c 0 t) (iblk9 V c 2 t) (iblk9 V c 3 t) (iblk9 V c 1 t) (iblk9 V c 4 t) (iblk9 V c 5 t) (iblk9 V c 1 t) (ix2 p q)
      = GV V c (((cfg9.win 6).blk t).view.emb (ix2 p q))
  refine (pay_at_offset (iblk9 V c 0 t) (iblk9 V c 1 t) (iblk9 V c 2 t) (iblk9 V c 4 t) (iblk9 V c 3 t) (iblk9 V c 5 t)
    (V c main_v152) (V c main_v142_0) (V c main_v160) (V c main_v155) (V c main_v162) (V c main_v158) (t.val * 10000) p q hb
    (fun k => congrArg (V c main_v152) (emb_msg t p k hb))
    (fun k => congrArg (V c main_v142_0) (emb_state t p k hb))
    (fun k n => congrArg (V c main_v160) (emb_wih t k n))
    (fun n => congrArg (V c main_v155) (emb_bih t 0 n))
    (fun k n => congrArg (V c main_v162) (emb_whh t k n))
    (fun n => congrArg (V c main_v158) (emb_bhh t 0 n))).trans ?_
  exact (congrArg (GV V c) (emb_out t p q hb)).symm

/-! ## The blocks cover the array -/

/-- An index of the output array is in point `t`'s block iff each coordinate is in the block's range on its axis. -/
theorem mem_blk (t : Fin cfg9.N) (i : S100000x64.Idx) :
    i ∈ ((cfg9.win 6).blk t).view.set ↔ ∀ a : Fin 2, win9_6.index t a * S10000x64.size a ≤ (i a).val ∧ (i a).val < win9_6.index t a * S10000x64.size a + S10000x64.size a := by
  show i ∈ ((View.whole main_v163).slice (win9_6.rect t)).set ↔ _
  rw [View.set_slice_whole, Rect.mem_set_unit]
  exact Iff.rfl

/-- Row `r` of the output array is in the block of point `r / 10000`. -/
theorem cover (i : S100000x64.Idx) :
    ∃ t : Fin cfg9.N, (cfg9.win 6).flush t = true ∧ i ∈ ((cfg9.win 6).blk t).view.set := by
  have hi0 : (i 0).val < 100000 := idx2_lt0 i
  have hi1 : (i 1).val < 64 := idx2_lt1 i
  obtain ⟨t, ht⟩ : ∃ t : Fin cfg9.N, t.val = (i 0).val / 10000 :=
    ⟨⟨(i 0).val / 10000, (by omega : (i 0).val / 10000 < 10)⟩, rfl⟩
  obtain ⟨-, -, -, -, -, -, -, -, -, -, -, -, e0, e1⟩ := idx_facts t
  refine ⟨t, flush9_6 t, ?_⟩
  rw [mem_blk]
  intro a
  match a with
  | ⟨0, _⟩ => show win9_6.index t (0 : Fin 2) * 10000 ≤ (i 0).val ∧ (i 0).val < win9_6.index t (0 : Fin 2) * 10000 + 10000; omega
  | ⟨1, _⟩ => show win9_6.index t (1 : Fin 2) * 64 ≤ (i 1).val ∧ (i 1).val < win9_6.index t (1 : Fin 2) * 64 + 64; omega

/-! ## The array after the region -/

/-- The output array after the region's 10 points is the output function of the arrays as the region finds them. -/
theorem final (c : Dev nD) : (dat9 V c).arrAt 6 cfg9.N = GV V c :=
  (dat9 V c).arrAt_eq_of_cover 6 (GV V c) (fun t _ => flushed_eq V c t) cover

/-- Entry `(r, q)` of the output array after the region: the gated recurrent update of row `r` of the message array
    and of the state array as the region finds them. -/
theorem out6 (c : Dev nD) (r : Fin 100000) (q : Fin 64) :
    (dat9 V c).arrAt 6 cfg9.N (ix2 r q)
      = Cert.Rows.gru (Ideal.ofBits .f32 0x3F800000#32) (fun k => V c main_v152 (ix2 r k)) (fun k => V c main_v142_0 (ix2 r k))
          (fun k => V c main_v142_0 (ix2 r k)) (fun k n => V c main_v160 (ix2 k n)) (fun n => V c main_v155 (ix2 0 n))
          (fun k n => V c main_v162 (ix2 k n)) (fun n => V c main_v158 (ix2 0 n)) q := by
  rw [final V c]
  rfl

end Region

end Cert.KernelIdeal.Reg9

end
-- ==== Proof.KL4.lean ====
/-
  Layer 4 of the network, read off the kernel program's fold.

  The layer is two host stretches and two regions. The first stretch slices the layer's embedding table from the
  stacked tables, looks the nodes' positions up in it, adds the looked-up rows to the embedding sums, and slices the
  layer's affine map and convolution weight. Region 8 transforms every row of the previous state beside its
  embedding sum and multiplies the result by the convolution weight. The second stretch passes the convolved rows
  along the edges and slices the layer's gate weights; region 9 applies the gated recurrent update row by row.
  Read level by level this is `Cert.Sem.layerOf` of the buffers the regions find, and each of those buffers is a
  named function of a launch argument.
-/
import proofs.«157269_j2267742732766_1_alg».proof.Proof.Gen.KernelIdeal.Frame
import proofs.«157269_j2267742732766_1_alg».proof.Proof.Sem
import proofs.«157269_j2267742732766_1_alg».proof.Proof.KTake
import proofs.«157269_j2267742732766_1_alg».proof.Proof.KReg8
import proofs.«157269_j2267742732766_1_alg».proof.Proof.KReg9
import proofs.«157269_j2267742732766_1_alg».proof.Proof.KL3

set_option maxRecDepth 16384

noncomputable section

namespace Cert.KernelIdeal.Layers

open Cert.KernelIdeal Cert.KernelIdeal.Gen Idealize.ShloMosaic Idealize.ShloMosaic.TcCoe Idealize.ShloMosaic.ValueIdx

/-! ## The layer's slices of the stacked arrays -/

section Chains

variable {F : FTy → Type} [FloatOps F]

/-- The layer's embedding table: one block of the stacked tables, as a 100 × 64 array. -/
def table_L4 (a : (⟨S5x100x64, .f32⟩ : BufTy).Contents (Elt F)) : (⟨S100x64, .f32⟩ : BufTy).Contents (Elt F) :=
  let blk : FVec F S1x100x64 .f32 := (extractStridedSlice S1x100x64 ![4, 0, 0] · slices_S5x100x64_S1x100x64_4_0_0) a
  fun i => shapeCast S100x64 blk shapeCasts_S1x100x64_S100x64 i

/-- The bias row of the layer's affine map: one row of the stacked biases, as a 1 × 64 array. -/
def tbOf_L4 (a : (⟨S4x64, .f32⟩ : BufTy).Contents (Elt F)) : (⟨S1x64, .f32⟩ : BufTy).Contents (Elt F) :=
  let blk : FVec F S1x64 .f32 := (extractStridedSlice S1x64 ![3, 0] · slices_S4x64_S1x64_3_0) a
  let flat : FVec F S64 .f32 := fun i => shapeCast S64 blk shapeCasts_S1x64_S64 i
  fun i => shapeCast S1x64 flat shapeCasts_S64_S1x64 i

/-- The weight of the layer's affine map: one block of the stacked weights, as a 128 × 64 array. -/
def tWOf_L4 (a : (⟨S4x128x64, .f32⟩ : BufTy).Contents (Elt F)) : (⟨S128x64, .f32⟩ : BufTy).Contents (Elt F) :=
  let blk : FVec F S1x128x64 .f32 := (extractStridedSlice S1x128x64 ![3, 0, 0] · slices_S4x128x64_S1x128x64_3_0_0) a
  fun i => shapeCast S128x64 blk shapeCasts_S1x128x64_S128x64 i

/-- The layer's convolution weight: one block of the stacked weights, as a 64 × 64 array. -/
def cWOf_L4 (a : (⟨S5x64x64, .f32⟩ : BufTy).Contents (Elt F)) : (⟨S64x64, .f32⟩ : BufTy).Contents (Elt F) :=
  let blk : FVec F S1x64x64 .f32 := (extractStridedSlice S1x64x64 ![4, 0, 0] · slices_S5x64x64_S1x64x64_4_0_0) a
  fun i => shapeCast S64x64 blk shapeCasts_S1x64x64_S64x64 i

/-- A gate bias row of the layer: one row of a stacked bias array, as a 1 × 192 array. -/
def gateB_L4 (a : (⟨S5x192, .f32⟩ : BufTy).Contents (Elt F)) : (⟨S1x192, .f32⟩ : BufTy).Contents (Elt F) :=
  let blk : FVec F S1x192 .f32 := (extractStridedSlice S1x192 ![4, 0] · slices_S5x192_S1x192_4_0) a
  let flat : FVec F S192 .f32 := fun i => shapeCast S192 blk shapeCasts_S1x192_S192 i
  fun i => shapeCast S1x192 flat shapeCasts_S192_S1x192 i

/-- A gate weight of the layer: one block of a stacked weight array, as a 64 × 192 array. -/
def gateW_L4 (a : (⟨S5x64x192, .f32⟩ : BufTy).Contents (Elt F)) : (⟨S64x192, .f32⟩ : BufTy).Contents (Elt F) :=
  let blk : FVec F S1x64x192 .f32 := (extractStridedSlice S1x64x192 ![4, 0, 0] · slices_S5x64x192_S1x64x192_4_0_0) a
  fun i => shapeCast S64x192 blk shapeCasts_S1x64x192_S64x192 i

end Chains

variable (m : (ℓ : Loc nD τ sig) → Buf (Elt Ideal) ℓ) (ρ : Dev nD → PrngReg)

/-! ## The kept buffers through the layer -/

/-- After the stretch that slices the table. -/
theorem keepA_L4 (c : Dev nD) (b : Ref sig .tc) (hb : b ∈ keptRefs) :
    W25 m ρ c (Proc.devRef .tc b) = W24 m ρ c (Proc.devRef .tc b) := by
  kept_cases hb
  all_goals stretch_keeps hostOps8

/-- After the lookup. -/
theorem keepB_L4 (c : Dev nD) (b : Ref sig .tc) (hb : b ∈ keptRefs) :
    W26 m ρ c (Proc.devRef .tc b) = W24 m ρ c (Proc.devRef .tc b) := by
  refine Eq.trans ?_ (keepA_L4 m ρ c b hb)
  kept_cases hb
  all_goals stretch_keeps hostOps8_1

/-- After the embedding sum and the slices of the affine map and the convolution weight. -/
theorem keepC_L4 (c : Dev nD) (b : Ref sig .tc) (hb : b ∈ keptRefs) :
    W27 m ρ c (Proc.devRef .tc b) = W24 m ρ c (Proc.devRef .tc b) := by
  refine Eq.trans ?_ (keepB_L4 m ρ c b hb)
  kept_cases hb
  all_goals stretch_keeps hostOps8_2

/-- After region 8. -/
theorem keepD_L4 (c : Dev nD) (b : Ref sig .tc) (hb : b ∈ keptRefs) :
    W28 m ρ c (Proc.devRef .tc b) = W24 m ρ c (Proc.devRef .tc b) := by
  refine Eq.trans ?_ (keepC_L4 m ρ c b hb)
  kept_cases hb
  all_goals exact W28_of_ne m ρ c _ (by decide)

/-- After the edge pass and the slices of the gate weights. -/
theorem keepE_L4 (c : Dev nD) (b : Ref sig .tc) (hb : b ∈ keptRefs) :
    W29 m ρ c (Proc.devRef .tc b) = W24 m ρ c (Proc.devRef .tc b) := by
  refine Eq.trans ?_ (keepD_L4 m ρ c b hb)
  kept_cases hb
  all_goals stretch_keeps hostOps9

/-- After region 9: the layer's exit. -/
theorem keepF_L4 (c : Dev nD) (b : Ref sig .tc) (hb : b ∈ keptRefs) :
    W30 m ρ c (Proc.devRef .tc b) = W24 m ρ c (Proc.devRef .tc b) := by
  refine Eq.trans ?_ (keepE_L4 m ρ c b hb)
  kept_cases hb
  all_goals exact W30_of_ne m ρ c _ (by decide)

/-- At the layer's exit the kept buffers hold what they held after the first host stretch of the program. -/
theorem kept_L4 (c : Dev nD) (b : Ref sig .tc) (hb : b ∈ keptRefs) :
    W30 m ρ c (Proc.devRef .tc b) = W1 m ρ c (Proc.devRef .tc b) :=
  (keepF_L4 m ρ c b hb).trans (kept_L3 m ρ c b hb)

/-- At the layer's exit a launch argument holds what it held at launch. -/
theorem launch_L4 (c : Dev nD) (b : Ref sig .tc) (hb : b ∈ argRefs) :
    W30 m ρ c (Proc.devRef .tc b) = m ((c : Thread nD τ).loc b) :=
  (keepF_L4 m ρ c b (argRefs_sub hb)).trans (launch_L3 m ρ c b hb)

/-! ## The leaves: what the regions' weight buffers hold, from the launch arguments -/

/-- The layer's table, after the first stretch. -/
theorem table_at_L4 (c : Dev nD) :
    W25 m ρ c (Proc.devRef .tc main_v132) = table_L4 (F := Ideal) (m ((c : Thread nD τ).loc main_arg5)) := by
  have e : W25 m ρ c (Proc.devRef .tc main_v132) = table_L4 (F := Ideal) (W24 m ρ c (Proc.devRef .tc main_arg5)) := by
    show StableHlo.after hostOps8 (W24 m ρ c) (Proc.devRef .tc main_v132) = _
    generalize W24 m ρ c = V
    after_results
    rfl
  exact e.trans (congrArg (table_L4 (F := Ideal)) (launch_L3 m ρ c main_arg5 (by decide)))

/-- The looked-up rows: the masked lookup of the nodes' positions in the layer's table. -/
theorem lookup_L4 (c : Dev nD) :
    W26 m ρ c (Proc.devRef .tc main_v133)
      = Take.maskedLookup (F := Ideal) (table_L4 (m ((c : Thread nD τ).loc main_arg5))) (m ((c : Thread nD τ).loc main_arg0)) := by
  have e : W26 m ρ c (Proc.devRef .tc main_v133)
      = Take.maskedLookup (F := Ideal) (W25 m ρ c (Proc.devRef .tc main_v132)) (W25 m ρ c (Proc.devRef .tc main_arg0)) := by
    show StableHlo.after hostOps8_1 (W25 m ρ c) (Proc.devRef .tc main_v133) = _
    generalize W25 m ρ c = V
    after_results_simp
    simp only [StableHlo.TRef.ofBuf, StableHlo.TRef.toBuf, cast_eq]
    rfl
  have e0 : W25 m ρ c (Proc.devRef .tc main_arg0) = m ((c : Thread nD τ).loc main_arg0) :=
    (keepA_L4 m ρ c main_arg0 (by decide)).trans (launch_L3 m ρ c main_arg0 (by decide))
  exact e.trans (congrArg₂ (Take.maskedLookup (F := Ideal)) (table_at_L4 m ρ c) e0)

/-- The embedding sums region 8 reads: the looked-up rows added up. -/
theorem emb_L4 (c : Dev nD) :
    W27 m ρ c (Proc.devRef .tc main_v134)
      = embSum (F := Ideal) (Take.maskedLookup (F := Ideal) (table_L4 (m ((c : Thread nD τ).loc main_arg5))) (m ((c : Thread nD τ).loc main_arg0))) := by
  have e : W27 m ρ c (Proc.devRef .tc main_v134) = embSum (F := Ideal) (W26 m ρ c (Proc.devRef .tc main_v133)) := by
    show StableHlo.after hostOps8_2 (W26 m ρ c) (Proc.devRef .tc main_v134) = _
    generalize W26 m ρ c = V
    after_results
    rfl
  exact e.trans (congrArg (embSum (F := Ideal)) (lookup_L4 m ρ c))

/-- The bias row of the affine map region 8 reads. -/
theorem tb_L4 (c : Dev nD) :
    W27 m ρ c (Proc.devRef .tc main_v137) = tbOf_L4 (F := Ideal) (m ((c : Thread nD τ).loc main_arg7)) := by
  have e : W27 m ρ c (Proc.devRef .tc main_v137) = tbOf_L4 (F := Ideal) (W26 m ρ c (Proc.devRef .tc main_arg7)) := by
    show StableHlo.after hostOps8_2 (W26 m ρ c) (Proc.devRef .tc main_v137) = _
    generalize W26 m ρ c = V
    after_results
    rfl
  exact e.trans (congrArg (tbOf_L4 (F := Ideal)) ((keepB_L4 m ρ c main_arg7 (by decide)).trans (launch_L3 m ρ c main_arg7 (by decide))))

/-- The weight of the affine map region 8 reads. -/
theorem tW_L4 (c : Dev nD) :
    W27 m ρ c (Proc.devRef .tc main_v139) = tWOf_L4 (F := Ideal) (m ((c : Thread nD τ).loc main_arg6)) := by
  have e : W27 m ρ c (Proc.devRef .tc main_v139) = tWOf_L4 (F := Ideal) (W26 m ρ c (Proc.devRef .tc main_arg6)) := by
    show StableHlo.after hostOps8_2 (W26 m ρ c) (Proc.devRef .tc main_v139) = _
    generalize W26 m ρ c = V
    after_results
    rfl
  exact e.trans (congrArg (tWOf_L4 (F := Ideal)) ((keepB_L4 m ρ c main_arg6 (by decide)).trans (launch_L3 m ρ c main_arg6 (by decide))))

/-- The convolution weight region 8 reads. -/
theorem cW_L4 (c : Dev nD) :
    W27 m ρ c (Proc.devRef .tc main_v141) = cWOf_L4 (F := Ideal) (m ((c : Thread nD τ).loc main_arg8)) := by
  have e : W27 m ρ c (Proc.devRef .tc main_v141) = cWOf_L4 (F := Ideal) (W26 m ρ c (Proc.devRef .tc main_arg8)) := by
    show StableHlo.after hostOps8_2 (W26 m ρ c) (Proc.devRef .tc main_v141) = _
    generalize W26 m ρ c = V
    after_results
    rfl
  exact e.trans (congrArg (cWOf_L4 (F := Ideal)) ((keepB_L4 m ρ c main_arg8 (by decide)).trans (launch_L3 m ρ c main_arg8 (by decide))))

/-- The input-side gate weight region 9 reads. -/
theorem wih_L4 (c : Dev nD) :
    W29 m ρ c (Proc.devRef .tc main_v160) = gateW_L4 (F := Ideal) (m ((c : Thread nD τ).loc main_arg9)) := by
  have e : W29 m ρ c (Proc.devRef .tc main_v160) = gateW_L4 (F := Ideal) (W28 m ρ c (Proc.devRef .tc main_arg9)) := by
    show StableHlo.after hostOps9 (W28 m ρ c) (Proc.devRef .tc main_v160) = _
    generalize W28 m ρ c = V
    after_results_simp
    rfl
  exact e.trans (congrArg (gateW_L4 (F := Ideal)) ((keepD_L4 m ρ c main_arg9 (by decide)).trans (launch_L3 m ρ c main_arg9 (by decide))))

/-- The input-side gate bias region 9 reads. -/
theorem bih_L4 (c : Dev nD) :
    W29 m ρ c (Proc.devRef .tc main_v155) = gateB_L4 (F := Ideal) (m ((c : Thread nD τ).loc main_arg10)) := by
  have e : W29 m ρ c (Proc.devRef .tc main_v155) = gateB_L4 (F := Ideal) (W28 m ρ c (Proc.devRef .tc main_arg10)) := by
    show StableHlo.after hostOps9 (W28 m ρ c) (Proc.devRef .tc main_v155) = _
    generalize W28 m ρ c = V
    after_results_simp
    rfl
  exact e.trans (congrArg (gateB_L4 (F := Ideal)) ((keepD_L4 m ρ c main_arg10 (by decide)).trans (launch_L3 m ρ c main_arg10 (by decide))))

/-- The state-side gate weight region 9 reads. -/
theorem whh_L4 (c : Dev nD) :
    W29 m ρ c (Proc.devRef .tc main_v162) = gateW_L4 (F := Ideal) (m ((c : Thread nD τ).loc main_arg11)) := by
  have e : W29 m ρ c (Proc.devRef .tc main_v162) = gateW_L4 (F := Ideal) (W28 m ρ c (Proc.devRef .tc main_arg11)) := by
    show StableHlo.after hostOps9 (W28 m ρ c) (Proc.devRef .tc main_v162) = _
    generalize W28 m ρ c = V
    after_results_simp
    rfl
  exact e.trans (congrArg (gateW_L4 (F := Ideal)) ((keepD_L4 m ρ c main_arg11 (by decide)).trans (launch_L3 m ρ c main_arg11 (by decide))))

/-- The state-side gate bias region 9 reads. -/
theorem bhh_L4 (c : Dev nD) :
    W29 m ρ c (Proc.devRef .tc main_v158) = gateB_L4 (F := Ideal) (m ((c : Thread nD τ).loc main_arg12)) := by
  have e : W29 m ρ c (Proc.devRef .tc main_v158) = gateB_L4 (F := Ideal) (W28 m ρ c (Proc.devRef .tc main_arg12)) := by
    show StableHlo.after hostOps9 (W28 m ρ c) (Proc.devRef .tc main_v158) = _
    generalize W28 m ρ c = V
    after_results_simp
    rfl
  exact e.trans (congrArg (gateB_L4 (F := Ideal)) ((keepD_L4 m ρ c main_arg12 (by decide)).trans (launch_L3 m ρ c main_arg12 (by decide))))

/-! ## Region 8: the transformed state and its convolution -/

/-- The previous layer's state, as region 8 finds it: the layer's first stretch does not write it. -/
theorem state_L4 (c : Dev nD) : W27 m ρ c (Proc.devRef .tc main_v130) = W24 m ρ c (Proc.devRef .tc main_v130) := by
  stretch_step hostOps8_2
  stretch_step hostOps8_1
  stretch_keeps hostOps8

/-- The layer's transformed state, from the buffers region 8 finds. -/
abbrev xtOf_L4 (c : Dev nD) : Cert.Sem.Mat 100000 64 :=
  (Cert.Sem.transform (Cert.Sem.toMat (W24 m ρ c (Proc.devRef .tc main_v130) : Cert.Sem.Arr 100000 64))
          (Cert.Sem.toMat (W27 m ρ c (Proc.devRef .tc main_v134) : Cert.Sem.Arr 100000 64))
          (Cert.Sem.toMat (W27 m ρ c (Proc.devRef .tc main_v139) : Cert.Sem.Arr 128 64))
          (Cert.Sem.toRow (W27 m ρ c (Proc.devRef .tc main_v137) : Cert.Sem.Arr 1 64)))

/-- Region 8's first output is the transformed state, entry by entry. -/
theorem xt_L4 (c : Dev nD) (r : Fin 100000) (q : Fin 64) :
    W28 m ρ c (Proc.devRef .tc main_v142_0) (ix2 r q) = xtOf_L4 m ρ c r q := by
  have hx : (fun k => V27 m ρ c main_v130 (ix2 r k))
      = Cert.Sem.toMat (W24 m ρ c (Proc.devRef .tc main_v130) : Cert.Sem.Arr 100000 64) r :=
    funext fun k => congrFun (state_L4 m ρ c) (ix2 r k)
  refine (congrFun (W28_arr m ρ c 5) (ix2 r q)).trans ((Reg8.out5 (V27 m ρ) c r q).trans ?_)
  exact congrArg (fun X => Cert.Rows.trans X (fun k => V27 m ρ c main_v134 (ix2 r k)) (fun k n => V27 m ρ c main_v139 (ix2 k n))
    (fun n => V27 m ρ c main_v137 (ix2 0 n)) q) hx

/-- Region 8's second output is the transformed state's rows times the convolution weight, as an array. -/
theorem cv_L4 (c : Dev nD) :
    (W28 m ρ c (Proc.devRef .tc main_v142_1) : Cert.Sem.Arr 100000 64)
      = Cert.Sem.ofMat (Cert.Sem.conv (xtOf_L4 m ρ c) (Cert.Sem.toMat (W27 m ρ c (Proc.devRef .tc main_v141) : Cert.Sem.Arr 64 64))) := by
  refine Cert.Sem.arr_ext fun r q => ?_
  have hx : (fun k => V27 m ρ c main_v130 (ix2 r k))
      = Cert.Sem.toMat (W24 m ρ c (Proc.devRef .tc main_v130) : Cert.Sem.Arr 100000 64) r :=
    funext fun k => congrFun (state_L4 m ρ c) (ix2 r k)
  refine (congrFun (W28_arr m ρ c 6) (ix2 r q)).trans ((Reg8.out6 (V27 m ρ) c r q).trans ?_)
  exact congrArg (fun X => Cert.Rows.dot (fun j => Cert.Rows.trans X (fun k => V27 m ρ c main_v134 (ix2 r k))
    (fun k n => V27 m ρ c main_v139 (ix2 k n)) (fun n => V27 m ρ c main_v137 (ix2 0 n)) j) (fun k n => V27 m ρ c main_v141 (ix2 k n)) q) hx

/-! ## The edge pass and region 9 -/

/-- The messages region 9 reads: the edge pass, along the program's edge rows, of region 8's convolved rows. -/
theorem pass4 (c : Dev nD) :
    W29 m ρ c (Proc.devRef .tc main_v152)
      = passK (W1 m ρ c (Proc.devRef .tc main_v1)) (W1 m ρ c (Proc.devRef .tc main_v3)) (W28 m ρ c (Proc.devRef .tc main_v142_1)) := by
  have e : W29 m ρ c (Proc.devRef .tc main_v152)
      = passK (F := Ideal) (W28 m ρ c (Proc.devRef .tc main_v1)) (W28 m ρ c (Proc.devRef .tc main_v3)) (W28 m ρ c (Proc.devRef .tc main_v142_1)) := by
    show StableHlo.after hostOps9 (W28 m ρ c) (Proc.devRef .tc main_v152) = _
    generalize W28 m ρ c = V
    after_results_simp
    rfl
  have e1 : W28 m ρ c (Proc.devRef .tc main_v1) = W1 m ρ c (Proc.devRef .tc main_v1) :=
    (keepD_L4 m ρ c main_v1 (by decide)).trans (kept_L3 m ρ c main_v1 (by decide))
  have e3 : W28 m ρ c (Proc.devRef .tc main_v3) = W1 m ρ c (Proc.devRef .tc main_v3) :=
    (keepD_L4 m ρ c main_v3 (by decide)).trans (kept_L3 m ρ c main_v3 (by decide))
  exact e.trans (congrArg₂ (fun s d => passK (F := Ideal) s d (W28 m ρ c (Proc.devRef .tc main_v142_1))) e1 e3)

/-- The transformed state, as region 9 finds it: the layer's second stretch does not write it. -/
theorem state2_L4 (c : Dev nD) : W29 m ρ c (Proc.devRef .tc main_v142_0) = W28 m ρ c (Proc.devRef .tc main_v142_0) := by
  stretch_keeps hostOps9

/-- The layer function at an entry, from its parts: where the messages are the pass of an array that holds the
    convolved rows, and the state array holds the transformed state entry by entry, the gated recurrent update of
    the messages' and the state's row is the layer function's entry. The pass is any map on arrays. -/
theorem layer_entry_L4 {N : ℕ} (pass : Cert.Sem.Arr N 64 → Cert.Sem.Arr N 64) (msgs cvd st : Cert.Sem.Arr N 64)
    (xt : Cert.Sem.Mat N 64) (cW : Cert.Sem.Mat 64 64) (Wih : Cert.Sem.Mat 64 192) (bih : Fin 192 → EReal)
    (Whh : Cert.Sem.Mat 64 192) (bhh : Fin 192 → EReal)
    (hmsgs : msgs = pass cvd) (hcvd : cvd = Cert.Sem.ofMat (Cert.Sem.conv xt cW))
    (hst : ∀ r k, st (ix2 r k) = xt r k) (r : Fin N) (q : Fin 64) :
    Cert.Rows.gru Cert.Sem.one (fun k => msgs (ix2 r k)) (fun k => st (ix2 r k)) (fun k => st (ix2 r k)) Wih bih Whh bhh q
      = Cert.Sem.layerOf pass xt cW Wih bih Whh bhh r q := by
  subst hmsgs hcvd
  have e : (fun k => st (ix2 r k)) = xt r := funext (hst r)
  rw [e]
  rfl

/-- LAYER 4: the state region 9 leaves is the layer function of the transformed state, the convolution weight and
    the gate weights the regions find, with the edge pass along the program's edge rows. -/
theorem layer4 (c : Dev nD) : Cert.Sem.toMat (W30 m ρ c (Proc.devRef .tc main_v163) : Cert.Sem.Arr 100000 64)
      = Cert.Sem.layerOf (passK (F := Ideal) (W1 m ρ c (Proc.devRef .tc main_v1)) (W1 m ρ c (Proc.devRef .tc main_v3)))
          (Cert.Sem.transform (Cert.Sem.toMat (W24 m ρ c (Proc.devRef .tc main_v130) : Cert.Sem.Arr 100000 64))
          (Cert.Sem.toMat (W27 m ρ c (Proc.devRef .tc main_v134) : Cert.Sem.Arr 100000 64))
          (Cert.Sem.toMat (W27 m ρ c (Proc.devRef .tc main_v139) : Cert.Sem.Arr 128 64))
          (Cert.Sem.toRow (W27 m ρ c (Proc.devRef .tc main_v137) : Cert.Sem.Arr 1 64)))
          (Cert.Sem.toMat (W27 m ρ c (Proc.devRef .tc main_v141) : Cert.Sem.Arr 64 64))
          (Cert.Sem.toMat (W29 m ρ c (Proc.devRef .tc main_v160) : Cert.Sem.Arr 64 192)) (Cert.Sem.toRow (W29 m ρ c (Proc.devRef .tc main_v155) : Cert.Sem.Arr 1 192))
          (Cert.Sem.toMat (W29 m ρ c (Proc.devRef .tc main_v162) : Cert.Sem.Arr 64 192)) (Cert.Sem.toRow (W29 m ρ c (Proc.devRef .tc main_v158) : Cert.Sem.Arr 1 192)) := by
  funext r q
  refine (congrFun (W30_arr m ρ c 6) (ix2 r q)).trans ((Reg9.out6 (V29 m ρ) c r q).trans ?_)
  exact layer_entry_L4 (passK (F := Ideal) (W1 m ρ c (Proc.devRef .tc main_v1)) (W1 m ρ c (Proc.devRef .tc main_v3)))
    (W29 m ρ c (Proc.devRef .tc main_v152)) (W28 m ρ c (Proc.devRef .tc main_v142_1)) (W29 m ρ c (Proc.devRef .tc main_v142_0))
    (xtOf_L4 m ρ c) (Cert.Sem.toMat (W27 m ρ c (Proc.devRef .tc main_v141) : Cert.Sem.Arr 64 64))
    (Cert.Sem.toMat (W29 m ρ c (Proc.devRef .tc main_v160) : Cert.Sem.Arr 64 192)) (Cert.Sem.toRow (W29 m ρ c (Proc.devRef .tc main_v155) : Cert.Sem.Arr 1 192))
    (Cert.Sem.toMat (W29 m ρ c (Proc.devRef .tc main_v162) : Cert.Sem.Arr 64 192)) (Cert.Sem.toRow (W29 m ρ c (Proc.devRef .tc main_v158) : Cert.Sem.Arr 1 192))
    (pass4 m ρ c) (cv_L4 m ρ c)
    (fun r k => (congrFun (state2_L4 m ρ c) (ix2 r k)).trans (xt_L4 m ρ c r k)) r q

end Cert.KernelIdeal.Layers

end
-- ==== Proof.RL4.lean ====
/-
  A message-passing layer after the first, read off the reference's run.

  The reference runs such a layer in four stretches of host operations: the embedding lookup and sum; the
  concatenation with the previous state, the affine map, the cutting of the layer's parameters out of the stacked
  arrays, and the product with the convolution weight; the gather along the edges' sources and the scatter-add at
  their targets; the gated recurrent update. Each stretch's result is the composition of its operations over the
  contents the stretch starts from, and that composition is one of the stage functions. Chained through the levels of
  the run, the layer's new state, read as a matrix of extended reals, is the specification's layer function of the
  previous state, the embedding sums and the layer's parameters.
-/
import proofs.«157269_j2267742732766_1_alg».proof.ReferenceIdeal
import proofs.«157269_j2267742732766_1_alg».proof.Proof.Gen.ReferenceIdeal
import proofs.«157269_j2267742732766_1_alg».proof.Proof.RRun
import proofs.«157269_j2267742732766_1_alg».proof.Proof.Sem
import proofs.«157269_j2267742732766_1_alg».proof.Proof.RStageA
import proofs.«157269_j2267742732766_1_alg».proof.Proof.RStageB
import proofs.«157269_j2267742732766_1_alg».proof.Proof.RL3
import Idealize.ShloMosaic.Lib.StableHlo.Run
import Idealize.ShloMosaic.Lib.ValueIdx

noncomputable section

namespace Cert.ReferenceIdeal.Layers

open Cert.ReferenceIdeal Cert.ReferenceIdeal.RunV Idealize.ShloMosaic Idealize.ShloMosaic.ValueIdx Idealize.ShloMosaic.StableHlo

/-! ## The layer's parameters, cut out of the stacked arrays

Every parameter of the network arrives stacked over the layers. The reference cuts the layer's slab out (a slice of
extent one along the leading axis) and drops that axis (a reshape). -/

section Leaves

variable {F : FTy → Type} [FloatOps F] [Facts₀]
open Facts₀

/-- The layer's embedding table, 100×64. -/
def emb_L4 (A : (⟨S5x100x64, .f32⟩ : BufTy).Contents (Elt F)) : (⟨S100x64, .f32⟩ : BufTy).Contents (Elt F) :=
  shapeCast S100x64 (extractStridedSlice S1x100x64 ![4, 0, 0] A slices_S5x100x64_S1x100x64_4_0_0) shapeCasts_S1x100x64_S100x64

/-- The weight matrix of the layer's affine map on the state beside the embedding sums, 128×64. -/
def tW_L4 (A : (⟨S4x128x64, .f32⟩ : BufTy).Contents (Elt F)) : (⟨S128x64, .f32⟩ : BufTy).Contents (Elt F) :=
  shapeCast S128x64 (extractStridedSlice S1x128x64 ![3, 0, 0] A slices_S4x128x64_S1x128x64_3_0_0) shapeCasts_S1x128x64_S128x64

/-- The bias row of that affine map, 64. -/
def tb_L4 (A : (⟨S4x64, .f32⟩ : BufTy).Contents (Elt F)) : (⟨S64, .f32⟩ : BufTy).Contents (Elt F) :=
  shapeCast S64 (extractStridedSlice S1x64 ![3, 0] A slices_S4x64_S1x64_3_0) shapeCasts_S1x64_S64

/-- The layer's convolution weight, 64×64. -/
def cW_L4 (A : (⟨S5x64x64, .f32⟩ : BufTy).Contents (Elt F)) : (⟨S64x64, .f32⟩ : BufTy).Contents (Elt F) :=
  shapeCast S64x64 (extractStridedSlice S1x64x64 ![4, 0, 0] A slices_S5x64x64_S1x64x64_4_0_0) shapeCasts_S1x64x64_S64x64

/-- A gate weight matrix of the layer's recurrent update, 64×192 (the message side and the state side are cut the same
    way out of their two stacks). -/
def gW_L4 (A : (⟨S5x64x192, .f32⟩ : BufTy).Contents (Elt F)) : (⟨S64x192, .f32⟩ : BufTy).Contents (Elt F) :=
  shapeCast S64x192 (extractStridedSlice S1x64x192 ![4, 0, 0] A slices_S5x64x192_S1x64x192_4_0_0) shapeCasts_S1x64x192_S64x192

/-- A gate bias row of the layer's recurrent update, 192. -/
def gb_L4 (A : (⟨S5x192, .f32⟩ : BufTy).Contents (Elt F)) : (⟨S192, .f32⟩ : BufTy).Contents (Elt F) :=
  shapeCast S192 (extractStridedSlice S1x192 ![4, 0] A slices_S5x192_S1x192_4_0) shapeCasts_S1x192_S192

end Leaves

/-! ## The four stretches of the layer, from any contents

Each result buffer of a stretch is the composition of the stretch's operations over the contents the stretch starts
from; the compositions are the stage functions. -/

section Stretches

variable {F : FTy → Type} [FloatOps F]

set_option maxHeartbeats 4000000 in  -- a stretch of up to forty operations over the program's five hundred buffers
/-- The embedding sums: the layer's table looked up at the two attribute columns, the two rows added. -/
theorem lookup_L4 (V : Valuation τ sig (Elt F)) :
    after (opsC16 (F := F)) V (Proc.devRef .tc main_v308)
      = embSumR (plainLookupR (emb_L4 (V (Proc.devRef .tc main_arg5))) (V (Proc.devRef .tc main_arg0))) := by
  after_results
  generalize V (Proc.devRef .tc main_arg5) = A
  generalize V (Proc.devRef .tc main_arg0) = z
  rfl

set_option maxHeartbeats 4000000 in  -- a stretch of up to forty operations over the program's five hundred buffers
theorem tW_of_L4 (V : Valuation τ sig (Elt F)) :
    after (opsC17 (F := F)) V (Proc.devRef .tc main_v311) = tW_L4 (V (Proc.devRef .tc main_arg6)) := by
  after_results
  generalize V (Proc.devRef .tc main_arg6) = A
  rfl

set_option maxHeartbeats 4000000 in  -- a stretch of up to forty operations over the program's five hundred buffers
theorem tb_of_L4 (V : Valuation τ sig (Elt F)) :
    after (opsC17 (F := F)) V (Proc.devRef .tc main_v314) = tb_L4 (V (Proc.devRef .tc main_arg7)) := by
  after_results
  generalize V (Proc.devRef .tc main_arg7) = A
  rfl

set_option maxHeartbeats 4000000 in  -- a stretch of up to forty operations over the program's five hundred buffers
theorem cW_of_L4 (V : Valuation τ sig (Elt F)) :
    after (opsC17 (F := F)) V (Proc.devRef .tc main_v319) = cW_L4 (V (Proc.devRef .tc main_arg8)) := by
  after_results
  generalize V (Proc.devRef .tc main_arg8) = A
  rfl

set_option maxHeartbeats 4000000 in  -- a stretch of up to forty operations over the program's five hundred buffers
theorem wih_of_L4 (V : Valuation τ sig (Elt F)) :
    after (opsC17 (F := F)) V (Proc.devRef .tc main_v321) = gW_L4 (V (Proc.devRef .tc main_arg9)) := by
  after_results
  generalize V (Proc.devRef .tc main_arg9) = A
  rfl

set_option maxHeartbeats 4000000 in  -- a stretch of up to forty operations over the program's five hundred buffers
theorem bih_of_L4 (V : Valuation τ sig (Elt F)) :
    after (opsC17 (F := F)) V (Proc.devRef .tc main_v323) = gb_L4 (V (Proc.devRef .tc main_arg10)) := by
  after_results
  generalize V (Proc.devRef .tc main_arg10) = A
  rfl

set_option maxHeartbeats 4000000 in  -- a stretch of up to forty operations over the program's five hundred buffers
theorem whh_of_L4 (V : Valuation τ sig (Elt F)) :
    after (opsC17 (F := F)) V (Proc.devRef .tc main_v325) = gW_L4 (V (Proc.devRef .tc main_arg11)) := by
  after_results
  generalize V (Proc.devRef .tc main_arg11) = A
  rfl

set_option maxHeartbeats 4000000 in  -- a stretch of up to forty operations over the program's five hundred buffers
theorem bhh_of_L4 (V : Valuation τ sig (Elt F)) :
    after (opsC17 (F := F)) V (Proc.devRef .tc main_v327) = gb_L4 (V (Proc.devRef .tc main_arg12)) := by
  after_results
  generalize V (Proc.devRef .tc main_arg12) = A
  rfl

set_option maxHeartbeats 4000000 in  -- a stretch of up to forty operations over the program's five hundred buffers
/-- The transformed state: the previous state beside the embedding sums through the layer's affine map. -/
theorem trans_of_L4 (V : Valuation τ sig (Elt F)) :
    after (opsC17 (F := F)) V (Proc.devRef .tc main_v317)
      = Stage.transStage (V (Proc.devRef .tc main_v298)) (V (Proc.devRef .tc main_v308)) (tW_L4 (V (Proc.devRef .tc main_arg6))) (tb_L4 (V (Proc.devRef .tc main_arg7))) := by
  after_results
  generalize V (Proc.devRef .tc main_v298) = X
  generalize V (Proc.devRef .tc main_v308) = ZE
  generalize V (Proc.devRef .tc main_arg6) = A
  generalize V (Proc.devRef .tc main_arg7) = B
  rfl

set_option maxHeartbeats 4000000 in  -- a stretch of up to forty operations over the program's five hundred buffers
/-- The convolved rows: the transformed state times the convolution weight. -/
theorem conv_of_L4 (V : Valuation τ sig (Elt F)) :
    after (opsC17 (F := F)) V (Proc.devRef .tc main_v328)
      = Stage.hStage (Stage.transStage (V (Proc.devRef .tc main_v298)) (V (Proc.devRef .tc main_v308)) (tW_L4 (V (Proc.devRef .tc main_arg6))) (tb_L4 (V (Proc.devRef .tc main_arg7))))
          (cW_L4 (V (Proc.devRef .tc main_arg8))) := by
  after_results
  generalize V (Proc.devRef .tc main_v298) = X
  generalize V (Proc.devRef .tc main_v308) = ZE
  generalize V (Proc.devRef .tc main_arg6) = A
  generalize V (Proc.devRef .tc main_arg7) = B
  generalize V (Proc.devRef .tc main_arg8) = C
  rfl

set_option maxHeartbeats 4000000 in  -- a stretch of up to forty operations over the program's five hundred buffers
/-- The messages: the convolved rows gathered at the edges' sources and added at their targets. -/
theorem pass_of_L4 (V : Valuation τ sig (Elt F)) :
    after (opsC18 (F := F)) V (Proc.devRef .tc main_v338)
      = passR (V (Proc.devRef .tc main_v1)) (V (Proc.devRef .tc main_v3)) (V (Proc.devRef .tc main_v328)) := by
  after_results
  generalize V (Proc.devRef .tc main_v1) = src
  generalize V (Proc.devRef .tc main_v3) = dst
  generalize V (Proc.devRef .tc main_v328) = h
  rfl

set_option maxHeartbeats 4000000 in  -- a stretch of up to forty operations over the program's five hundred buffers
/-- The new state: the gated recurrent update of the messages and the transformed state. -/
theorem update_of_L4 (V : Valuation τ sig (Elt F)) :
    after (opsC19 (F := F)) V (Proc.devRef .tc main_v374)
      = Stage.gruStage (V (Proc.devRef .tc main_v338)) (V (Proc.devRef .tc main_v317)) (V (Proc.devRef .tc main_v321)) (V (Proc.devRef .tc main_v323))
          (V (Proc.devRef .tc main_v325)) (V (Proc.devRef .tc main_v327)) := by
  after_results_simp
  generalize V (Proc.devRef .tc main_v338) = M
  generalize V (Proc.devRef .tc main_v317) = XT
  generalize V (Proc.devRef .tc main_v321) = Wih
  generalize V (Proc.devRef .tc main_v323) = bih
  generalize V (Proc.devRef .tc main_v325) = Whh
  generalize V (Proc.devRef .tc main_v327) = bhh
  rfl

end Stretches

/-! ## The layer in the run

The levels of the run before and after the layer's four stretches. A buffer a stretch does not write keeps its
contents through it; the program's arguments keep their launch contents throughout. -/

section Levels

variable {F : FTy → Type} [FloatOps F]

/-- The edges' source row, extracted before the first layer, is still in place after this one. -/
theorem src_L4 (m : (ℓ : Loc nD τ sig) → Buf (Elt F) ℓ) (c : Dev nD) : Lv20 m c (Proc.devRef .tc main_v1) = Lv1 m c (Proc.devRef .tc main_v1) :=
  (opsC19_keeps (Lv19 m c) (r := main_v1) (by decide)).trans <| (opsC18_keeps (Lv18 m c) (r := main_v1) (by decide)).trans <|
    (opsC17_keeps (Lv17 m c) (r := main_v1) (by decide)).trans <| (opsC16_keeps (Lv16 m c) (r := main_v1) (by decide)).trans (src_L3 m c)

/-- The edges' target row likewise. -/
theorem dst_L4 (m : (ℓ : Loc nD τ sig) → Buf (Elt F) ℓ) (c : Dev nD) : Lv20 m c (Proc.devRef .tc main_v3) = Lv1 m c (Proc.devRef .tc main_v3) :=
  (opsC19_keeps (Lv19 m c) (r := main_v3) (by decide)).trans <| (opsC18_keeps (Lv18 m c) (r := main_v3) (by decide)).trans <|
    (opsC17_keeps (Lv17 m c) (r := main_v3) (by decide)).trans <| (opsC16_keeps (Lv16 m c) (r := main_v3) (by decide)).trans (dst_L3 m c)

/-- The embedding sums, of the launch contents of the table stack and of the attribute array. -/
theorem lookup_L4_lv (m : (ℓ : Loc nD τ sig) → Buf (Elt F) ℓ) (c : Dev nD) :
    Lv17 m c (Proc.devRef .tc main_v308)
      = embSumR (plainLookupR (emb_L4 (Lv0 m c (Proc.devRef .tc main_arg5))) (Lv0 m c (Proc.devRef .tc main_arg0))) :=
  (lookup_L4 (Lv16 m c)).trans (by rw [Lv16_arg m c (r := main_arg5) (by decide), Lv16_arg m c (r := main_arg0) (by decide)])

theorem tW_L4_lv (m : (ℓ : Loc nD τ sig) → Buf (Elt F) ℓ) (c : Dev nD) : Lv18 m c (Proc.devRef .tc main_v311) = tW_L4 (Lv0 m c (Proc.devRef .tc main_arg6)) :=
  (tW_of_L4 (Lv17 m c)).trans (by rw [Lv17_arg m c (r := main_arg6) (by decide)])

theorem tb_L4_lv (m : (ℓ : Loc nD τ sig) → Buf (Elt F) ℓ) (c : Dev nD) : Lv18 m c (Proc.devRef .tc main_v314) = tb_L4 (Lv0 m c (Proc.devRef .tc main_arg7)) :=
  (tb_of_L4 (Lv17 m c)).trans (by rw [Lv17_arg m c (r := main_arg7) (by decide)])

theorem cW_L4_lv (m : (ℓ : Loc nD τ sig) → Buf (Elt F) ℓ) (c : Dev nD) : Lv18 m c (Proc.devRef .tc main_v319) = cW_L4 (Lv0 m c (Proc.devRef .tc main_arg8)) :=
  (cW_of_L4 (Lv17 m c)).trans (by rw [Lv17_arg m c (r := main_arg8) (by decide)])

theorem wih_L4_lv (m : (ℓ : Loc nD τ sig) → Buf (Elt F) ℓ) (c : Dev nD) : Lv18 m c (Proc.devRef .tc main_v321) = gW_L4 (Lv0 m c (Proc.devRef .tc main_arg9)) :=
  (wih_of_L4 (Lv17 m c)).trans (by rw [Lv17_arg m c (r := main_arg9) (by decide)])

theorem bih_L4_lv (m : (ℓ : Loc nD τ sig) → Buf (Elt F) ℓ) (c : Dev nD) : Lv18 m c (Proc.devRef .tc main_v323) = gb_L4 (Lv0 m c (Proc.devRef .tc main_arg10)) :=
  (bih_of_L4 (Lv17 m c)).trans (by rw [Lv17_arg m c (r := main_arg10) (by decide)])

theorem whh_L4_lv (m : (ℓ : Loc nD τ sig) → Buf (Elt F) ℓ) (c : Dev nD) : Lv18 m c (Proc.devRef .tc main_v325) = gW_L4 (Lv0 m c (Proc.devRef .tc main_arg11)) :=
  (whh_of_L4 (Lv17 m c)).trans (by rw [Lv17_arg m c (r := main_arg11) (by decide)])

theorem bhh_L4_lv (m : (ℓ : Loc nD τ sig) → Buf (Elt F) ℓ) (c : Dev nD) : Lv18 m c (Proc.devRef .tc main_v327) = gb_L4 (Lv0 m c (Proc.devRef .tc main_arg12)) :=
  (bhh_of_L4 (Lv17 m c)).trans (by rw [Lv17_arg m c (r := main_arg12) (by decide)])

/-- The transformed state, of the previous layer's state, the embedding sums and the two parameter buffers. -/
theorem trans_L4_lv (m : (ℓ : Loc nD τ sig) → Buf (Elt F) ℓ) (c : Dev nD) :
    Lv18 m c (Proc.devRef .tc main_v317)
      = Stage.transStage (Lv16 m c (Proc.devRef .tc main_v298)) (Lv17 m c (Proc.devRef .tc main_v308)) (Lv18 m c (Proc.devRef .tc main_v311)) (Lv18 m c (Proc.devRef .tc main_v314)) :=
  (trans_of_L4 (Lv17 m c)).trans (by
    rw [show Lv18 m c (Proc.devRef .tc main_v311) = _ from tW_of_L4 (Lv17 m c), show Lv18 m c (Proc.devRef .tc main_v314) = _ from tb_of_L4 (Lv17 m c),
      show Lv17 m c (Proc.devRef .tc main_v298) = Lv16 m c (Proc.devRef .tc main_v298) from opsC16_keeps (Lv16 m c) (r := main_v298) (by decide)])

/-- The convolved rows, of the transformed state and the convolution weight buffer. -/
theorem conv_L4_lv (m : (ℓ : Loc nD τ sig) → Buf (Elt F) ℓ) (c : Dev nD) :
    Lv18 m c (Proc.devRef .tc main_v328) = Stage.hStage (Lv18 m c (Proc.devRef .tc main_v317)) (Lv18 m c (Proc.devRef .tc main_v319)) :=
  (conv_of_L4 (Lv17 m c)).trans (by
    rw [show Lv18 m c (Proc.devRef .tc main_v317) = _ from trans_of_L4 (Lv17 m c), show Lv18 m c (Proc.devRef .tc main_v319) = _ from cW_of_L4 (Lv17 m c)])

/-- The layer's messages: the edge pass, over the edge rows extracted before the first layer, of the convolved rows. -/
theorem pass4R (m : (ℓ : Loc nD τ sig) → Buf (Elt F) ℓ) (c : Dev nD) :
    Lv19 m c (Proc.devRef .tc main_v338)
      = passR (Lv1 m c (Proc.devRef .tc main_v1)) (Lv1 m c (Proc.devRef .tc main_v3)) (Lv18 m c (Proc.devRef .tc main_v328)) :=
  (pass_of_L4 (Lv18 m c)).trans (by
    rw [show Lv18 m c (Proc.devRef .tc main_v1) = Lv1 m c (Proc.devRef .tc main_v1) from
          (opsC17_keeps (Lv17 m c) (r := main_v1) (by decide)).trans <| (opsC16_keeps (Lv16 m c) (r := main_v1) (by decide)).trans (src_L3 m c),
      show Lv18 m c (Proc.devRef .tc main_v3) = Lv1 m c (Proc.devRef .tc main_v3) from
          (opsC17_keeps (Lv17 m c) (r := main_v3) (by decide)).trans <| (opsC16_keeps (Lv16 m c) (r := main_v3) (by decide)).trans (dst_L3 m c)])

/-- The layer's new state, of the messages, the transformed state and the four gate parameter buffers. -/
theorem update_L4_lv (m : (ℓ : Loc nD τ sig) → Buf (Elt F) ℓ) (c : Dev nD) :
    Lv20 m c (Proc.devRef .tc main_v374)
      = Stage.gruStage (Lv19 m c (Proc.devRef .tc main_v338)) (Lv18 m c (Proc.devRef .tc main_v317)) (Lv18 m c (Proc.devRef .tc main_v321)) (Lv18 m c (Proc.devRef .tc main_v323))
          (Lv18 m c (Proc.devRef .tc main_v325)) (Lv18 m c (Proc.devRef .tc main_v327)) :=
  (update_of_L4 (Lv19 m c)).trans (by
    rw [show Lv19 m c (Proc.devRef .tc main_v317) = Lv18 m c (Proc.devRef .tc main_v317) from opsC18_keeps (Lv18 m c) (r := main_v317) (by decide),
      show Lv19 m c (Proc.devRef .tc main_v321) = Lv18 m c (Proc.devRef .tc main_v321) from opsC18_keeps (Lv18 m c) (r := main_v321) (by decide),
      show Lv19 m c (Proc.devRef .tc main_v323) = Lv18 m c (Proc.devRef .tc main_v323) from opsC18_keeps (Lv18 m c) (r := main_v323) (by decide),
      show Lv19 m c (Proc.devRef .tc main_v325) = Lv18 m c (Proc.devRef .tc main_v325) from opsC18_keeps (Lv18 m c) (r := main_v325) (by decide),
      show Lv19 m c (Proc.devRef .tc main_v327) = Lv18 m c (Proc.devRef .tc main_v327) from opsC18_keeps (Lv18 m c) (r := main_v327) (by decide)])

end Levels

/-! ## The layer on the extended reals

Read as matrices of extended reals, the layer's new state is the layer function of the specification applied to the
transformed state and the layer's parameters, the edge pass being the reference's own gather and scatter-add over the
edge rows. Row by row: the update stage at (r, q) is the gated update of row r of the messages and row r of the
transformed state; row r of the transformed state is the affine map of row r of the previous state beside row r of
the embedding sums; and the messages are the edge pass of the convolved rows, whose row r is row r of the transformed
state times the convolution weight. -/

section Ideal

/-- Row r of the transformed state is the specification's transform of row r. -/
theorem trans_row_L4 (X ZE : (⟨S100000x64, .f32⟩ : BufTy).Contents (Elt Ideal)) (TW : (⟨S128x64, .f32⟩ : BufTy).Contents (Elt Ideal))
    (TB : (⟨S64, .f32⟩ : BufTy).Contents (Elt Ideal)) (r : Fin 100000) :
    (fun k => Stage.transStage (F := Ideal) X ZE TW TB (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r :=
  funext fun k => Stage.transStage_apply X ZE TW TB r k

/-- The convolved rows are the specification's convolution of the transformed state, laid out as an array. -/
theorem conv_arr_L4 (X ZE : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal)) :
    (Stage.hStage (F := Ideal) (Stage.transStage X ZE TW TB) CW : Cert.Sem.Arr 100000 64)
      = Cert.Sem.ofMat (Cert.Sem.conv
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))) := by
  refine Cert.Sem.arr_ext fun r q => ?_
  refine (Stage.hStage_apply (Stage.transStage X ZE TW TB) CW r q).trans ?_
  rw [trans_row_L4 X ZE TW TB r]
  rfl

/-- The update stage over the edge pass of the convolved rows, read as a matrix, is the specification's layer: the
    statement over arrays named once, none of them opened. -/
theorem layer_arr_L4 (src dst : (⟨S1600000, .i32⟩ : BufTy).Contents (Elt Ideal))
    (X ZE O M H XT : (⟨S100000x64, .f32⟩ : BufTy).Contents (Elt Ideal)) (TW : (⟨S128x64, .f32⟩ : BufTy).Contents (Elt Ideal))
    (TB : (⟨S64, .f32⟩ : BufTy).Contents (Elt Ideal)) (CW : (⟨S64x64, .f32⟩ : BufTy).Contents (Elt Ideal))
    (Wih Whh : (⟨S64x192, .f32⟩ : BufTy).Contents (Elt Ideal)) (bih bhh : (⟨S192, .f32⟩ : BufTy).Contents (Elt Ideal))
    (hO : O = Stage.gruStage M XT Wih bih Whh bhh) (hM : M = passR src dst H) (hH : H = Stage.hStage XT CW)
    (hXT : XT = Stage.transStage X ZE TW TB) :
    Cert.Sem.toMat (O : Cert.Sem.Arr 100000 64)
      = Cert.Sem.layerOf (passR (F := Ideal) src dst)
          (Cert.Sem.transform (Cert.Sem.toMat (X : Cert.Sem.Arr 100000 64)) (Cert.Sem.toMat (ZE : Cert.Sem.Arr 100000 64))
            (Cert.Sem.toMat (TW : Cert.Sem.Arr 128 64)) (Cert.Sem.toVec TB))
          (Cert.Sem.toMat (CW : Cert.Sem.Arr 64 64))
          (Cert.Sem.toMat (Wih : Cert.Sem.Arr 64 192)) (Cert.Sem.toVec bih)
          (Cert.Sem.toMat (Whh : Cert.Sem.Arr 64 192)) (Cert.Sem.toVec bhh) := by
  have hrow : ∀ r : Fin 100000, (fun k => XT (ix2 r k))
      = Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB) r := fun r => by
    rw [hXT]; exact trans_row_L4 X ZE TW TB r
  have hconv : H = Cert.Sem.ofMat (Cert.Sem.conv
        (Cert.Sem.transform (Cert.Sem.toMat (X : Cert.Sem.Arr 100000 64)) (Cert.Sem.toMat (ZE : Cert.Sem.Arr 100000 64))
          (Cert.Sem.toMat (TW : Cert.Sem.Arr 128 64)) (Cert.Sem.toVec TB))
        (Cert.Sem.toMat (CW : Cert.Sem.Arr 64 64))) := by
    rw [hH, hXT]; exact conv_arr_L4 X ZE TW TB CW
  funext r q
  show O (ix2 r q) = _
  rw [hO]
  refine (Stage.gruStage_apply M XT Wih bih Whh bhh r q).trans ?_
  rw [hrow r, hM, hconv]
  rfl

/-- The layer's new state is the specification's layer applied to the transformed state. -/
theorem layer4R (m : (ℓ : Loc nD τ sig) → Buf (Elt Ideal) ℓ) (c : Dev nD) :
    Cert.Sem.toMat (Lv20 m c (Proc.devRef .tc main_v374) : Cert.Sem.Arr 100000 64)
      = Cert.Sem.layerOf (passR (F := Ideal) (Lv1 m c (Proc.devRef .tc main_v1)) (Lv1 m c (Proc.devRef .tc main_v3)))
          (Cert.Sem.transform (Cert.Sem.toMat (Lv16 m c (Proc.devRef .tc main_v298) : Cert.Sem.Arr 100000 64))
            (Cert.Sem.toMat (Lv17 m c (Proc.devRef .tc main_v308) : Cert.Sem.Arr 100000 64))
            (Cert.Sem.toMat (Lv18 m c (Proc.devRef .tc main_v311) : Cert.Sem.Arr 128 64)) (Cert.Sem.toVec (Lv18 m c (Proc.devRef .tc main_v314))))
          (Cert.Sem.toMat (Lv18 m c (Proc.devRef .tc main_v319) : Cert.Sem.Arr 64 64))
          (Cert.Sem.toMat (Lv18 m c (Proc.devRef .tc main_v321) : Cert.Sem.Arr 64 192)) (Cert.Sem.toVec (Lv18 m c (Proc.devRef .tc main_v323)))
          (Cert.Sem.toMat (Lv18 m c (Proc.devRef .tc main_v325) : Cert.Sem.Arr 64 192)) (Cert.Sem.toVec (Lv18 m c (Proc.devRef .tc main_v327))) :=
  layer_arr_L4 _ _ _ _ _ _ _ _ _ _ _ _ _ _ _ (update_L4_lv m c) (pass4R m c) (conv_L4_lv m c) (trans_L4_lv m c)

end Ideal

end Cert.ReferenceIdeal.Layers

end
-- ==== Proof.CrossL4.lean ====
import proofs.«157269_j2267742732766_1_alg».proof.Proof.CrossL3
import proofs.«157269_j2267742732766_1_alg».proof.Proof.KL4
import proofs.«157269_j2267742732766_1_alg».proof.Proof.RL4

/-!
# Layer 4 of the two programs agrees

Each layer after the first transforms the previous state and the layer's embedding sums through the layer's affine
map, then convolves, passes messages along the edges and updates. Both programs' layer theorems state the layer's
result as the specification's layer function of the buffers the host stretches leave; those buffers are, on each
side, the same functions of the launch arguments, the launch arguments agree, and the previous states agree by the
layer before.
-/

noncomputable section

namespace Cert.Cross

open Idealize.ShloMosaic Idealize.ShloMosaic.ValueIdx Idealize.SL.Sem

/-! ## The layer's slices: the same functions in both programs -/

section Pairs
variable {F : FTy → Type} [FloatOps F] [Cert.KernelIdeal.Facts₀] [Cert.ReferenceIdeal.Facts₀]

theorem table_L4_eq (a : (⟨Cert.KernelIdeal.S5x100x64, .f32⟩ : BufTy).Contents (Elt F)) :
    Cert.KernelIdeal.Layers.table_L4 a = Cert.ReferenceIdeal.Layers.emb_L4 a := rfl
theorem tW_L4_eq (a : (⟨Cert.KernelIdeal.S4x128x64, .f32⟩ : BufTy).Contents (Elt F)) :
    Cert.KernelIdeal.Layers.tWOf_L4 a = Cert.ReferenceIdeal.Layers.tW_L4 a := rfl
theorem cW_L4_eq (a : (⟨Cert.KernelIdeal.S5x64x64, .f32⟩ : BufTy).Contents (Elt F)) :
    Cert.KernelIdeal.Layers.cWOf_L4 a = Cert.ReferenceIdeal.Layers.cW_L4 a := rfl
theorem gateW_L4_eq (a : (⟨Cert.KernelIdeal.S5x64x192, .f32⟩ : BufTy).Contents (Elt F)) :
    Cert.KernelIdeal.Layers.gateW_L4 a = Cert.ReferenceIdeal.Layers.gW_L4 a := rfl
theorem tb_L4_row (a : (⟨Cert.KernelIdeal.S4x64, .f32⟩ : BufTy).Contents (Elt F)) :
    Cert.KernelIdeal.Layers.tbOf_L4 a
      = shapeCast Cert.KernelIdeal.S1x64 (Cert.ReferenceIdeal.Layers.tb_L4 a) Cert.KernelIdeal.Facts₀.shapeCasts_S64_S1x64 := rfl
theorem gateB_L4_row (a : (⟨Cert.KernelIdeal.S5x192, .f32⟩ : BufTy).Contents (Elt F)) :
    Cert.KernelIdeal.Layers.gateB_L4 a
      = shapeCast Cert.KernelIdeal.S1x192 (Cert.ReferenceIdeal.Layers.gb_L4 a) Cert.KernelIdeal.Facts₀.shapeCasts_S192_S1x192 := rfl

end Pairs

/-- The bias of the layer's affine map: the tiled program's one-row array read as a row is the reference's vector. -/
theorem tb_L4_eq [Cert.KernelIdeal.Facts₀] [Cert.ReferenceIdeal.Facts₀] (a : (⟨Cert.KernelIdeal.S4x64, .f32⟩ : BufTy).Contents (Elt Ideal)) :
    Cert.Sem.toRow (Cert.KernelIdeal.Layers.tbOf_L4 (F := Ideal) a) = Cert.Sem.toVec (Cert.ReferenceIdeal.Layers.tb_L4 (F := Ideal) a) := by
  rw [tb_L4_row]
  exact Cert.LibRowVec.toRow_shapeCast _ _

/-- A gate bias of the layer, likewise. -/
theorem gateB_L4_eq [Cert.KernelIdeal.Facts₀] [Cert.ReferenceIdeal.Facts₀] (a : (⟨Cert.KernelIdeal.S5x192, .f32⟩ : BufTy).Contents (Elt Ideal)) :
    Cert.Sem.toRow (Cert.KernelIdeal.Layers.gateB_L4 (F := Ideal) a) = Cert.Sem.toVec (Cert.ReferenceIdeal.Layers.gb_L4 (F := Ideal) a) := by
  rw [gateB_L4_row]
  exact Cert.LibRowVec.toRow_shapeCast _ _

/-! ## The layer -/

section Chain
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)

/-- LAYER 4: the states the two programs leave agree. -/
theorem x4 (hz : InRange m) (hag : Agree m m') (c : Dev Cert.KernelIdeal.nD) :
    (Cert.KernelIdeal.Gen.W30 m ρ c (Proc.devRef .tc Cert.KernelIdeal.main_v163) : Cert.Sem.Arr 100000 64)
      = (Cert.ReferenceIdeal.RunV.Lv20 m' c (Proc.devRef .tc Cert.ReferenceIdeal.main_v374) : Cert.Sem.Arr 100000 64) := by
  obtain ⟨h0, h1, h2, h3, h4, h5, h6, h7, h8, h9, h10, h11, h12, -⟩ := hag c
  apply Cert.Sem.toMat_inj
  refine (Cert.KernelIdeal.Layers.layer4 m ρ c).trans (Eq.trans ?_ (Cert.ReferenceIdeal.Layers.layer4R m' c).symm)
  refine layerOf_congr (passes_eq m ρ m' hag c) (transform_congr ?_ ?_ ?_ ?_) ?_ ?_ ?_ ?_ ?_
  · exact congrArg (Cert.Sem.toMat (R := 100000) (C := 64)) (x3 m ρ m' hz hag c)
  · exact congrArg (Cert.Sem.toMat (R := 100000) (C := 64))
      ((Cert.KernelIdeal.Layers.emb_L4 m ρ c).trans
        ((embSums_eq _ _ ((table_L4_eq _).trans (congrArg (Cert.ReferenceIdeal.Layers.emb_L4 (F := Ideal)) h5.symm)) _ _ h0.symm (hz c)).trans
          (Cert.ReferenceIdeal.Layers.lookup_L4_lv m' c).symm))
  · exact congrArg (Cert.Sem.toMat (R := 128) (C := 64))
      (leaf (Cert.KernelIdeal.Layers.tW_L4 m ρ c) (Cert.ReferenceIdeal.Layers.tW_L4_lv m' c) (fun a => tW_L4_eq a) h6)
  · exact leafRow (Cert.KernelIdeal.Layers.tb_L4 m ρ c) (Cert.ReferenceIdeal.Layers.tb_L4_lv m' c) (fun a => tb_L4_eq a) h7
  · exact congrArg (Cert.Sem.toMat (R := 64) (C := 64))
      (leaf (Cert.KernelIdeal.Layers.cW_L4 m ρ c) (Cert.ReferenceIdeal.Layers.cW_L4_lv m' c) (fun a => cW_L4_eq a) h8)
  · exact congrArg (Cert.Sem.toMat (R := 64) (C := 192))
      (leaf (Cert.KernelIdeal.Layers.wih_L4 m ρ c) (Cert.ReferenceIdeal.Layers.wih_L4_lv m' c) (fun a => gateW_L4_eq a) h9)
  · exact leafRow (Cert.KernelIdeal.Layers.bih_L4 m ρ c) (Cert.ReferenceIdeal.Layers.bih_L4_lv m' c) (fun a => gateB_L4_eq a) h10
  · exact congrArg (Cert.Sem.toMat (R := 64) (C := 192))
      (leaf (Cert.KernelIdeal.Layers.whh_L4 m ρ c) (Cert.ReferenceIdeal.Layers.whh_L4_lv m' c) (fun a => gateW_L4_eq a) h11)
  · exact leafRow (Cert.KernelIdeal.Layers.bhh_L4 m ρ c) (Cert.ReferenceIdeal.Layers.bhh_L4_lv m' c) (fun a => gateB_L4_eq a) h12

end Chain

end Cert.Cross

end
-- ==== Proof.CrossTail.lean ====
/-
  The pooling levels and the perceptrons between them agree across the two programs.

  After the last message-passing layer both programs hold the same node rows. Each pooling level is the same
  scatter-add of its input rows by an integer argument, and the arguments agree, so the pooled arrays agree. Each
  perceptron between two poolings is, in both programs, the row map of the shared specification under the launched
  weights and biases — the tiled program reads each bias from a one-row array that, read as a row, is the launched
  vector — so equal inputs give equal outputs. Five equalities follow in turn, one per level.
-/
import proofs.«157269_j2267742732766_1_alg».proof.Proof.KTail
import proofs.«157269_j2267742732766_1_alg».proof.Proof.RTail
import proofs.«157269_j2267742732766_1_alg».proof.Proof.CrossL4

noncomputable section

namespace Cert.Cross

open Idealize.ShloMosaic Idealize.SL.Sem Cert.Sem

/-! ## Equal data through equal functions -/

/-- A pooling level: both programs apply the same function to equal index arrays and equal inputs. -/
theorem pool_step {A B C : Type} {f g : A → B → C} (hfg : ∀ a b, f a b = g a b) {yK yR : C} {iK iR : A} {xK xR : B}
    (hK : yK = f iK xK) (hR : yR = g iR xR) (hi : iR = iK) (hx : xK = xR) : yK = yR := by
  subst hi hx
  rw [hK, hR, hfg]

/-- A perceptron level: the tiled program's rows are the perceptron of its input under its weights and its staged
    one-row biases, the whole-array program's under its weights and its bias vectors; the inputs agree, the weights
    agree, each staged bias read as a row is the launched vector, and the launched vectors agree. -/
theorem perceptron_step {N : ℕ} {yK yR xK xR : Arr N 64} {W1K W1R W2K W2R : Arr 64 64} {b1K b2K : Arr 1 64}
    {b1m b2m b1R b2R : (⟨1, ![64]⟩ : Shape).Idx → EReal}
    (hK : toMat yK = perceptron (toMat xK) (toMat W1K) (toRow b1K) (toMat W2K) (toRow b2K))
    (hR : toMat yR = perceptron (toMat xR) (toMat W1R) (toVec b1R) (toMat W2R) (toVec b2R))
    (hx : xK = xR) (h1 : W1R = W1K) (hb1 : toRow b1K = toVec b1m) (h1b : b1R = b1m)
    (h2 : W2R = W2K) (hb2 : toRow b2K = toVec b2m) (h2b : b2R = b2m) : yK = yR := by
  subst hx h1 h1b h2 h2b
  apply toMat_inj
  rw [hK, hR, hb1, hb2]

/-- The head: the same, with three weight matrices and three biases. -/
theorem head_step {N : ℕ} {yK yR : Arr N 1} {xK xR : Arr N 64} {W1K W1R : Arr 64 32} {W2K W2R : Arr 32 16}
    {W3K W3R : Arr 16 1} {b1K : Arr 1 32} {b2K : Arr 1 16} {b3K : Arr 1 1}
    {b1m b1R : (⟨1, ![32]⟩ : Shape).Idx → EReal} {b2m b2R : (⟨1, ![16]⟩ : Shape).Idx → EReal}
    {b3m b3R : (⟨1, ![1]⟩ : Shape).Idx → EReal}
    (hK : toMat yK = headOf (toMat xK) (toMat W1K) (toRow b1K) (toMat W2K) (toRow b2K) (toMat W3K) (toRow b3K))
    (hR : toMat yR = headOf (toMat xR) (toMat W1R) (toVec b1R) (toMat W2R) (toVec b2R) (toMat W3R) (toVec b3R))
    (hx : xK = xR) (h1 : W1R = W1K) (hb1 : toRow b1K = toVec b1m) (h1b : b1R = b1m)
    (h2 : W2R = W2K) (hb2 : toRow b2K = toVec b2m) (h2b : b2R = b2m)
    (h3 : W3R = W3K) (hb3 : toRow b3K = toVec b3m) (h3b : b3R = b3m) : yK = yR := by
  subst hx h1 h1b h2 h2b h3 h3b
  apply toMat_inj
  rw [hK, hR, hb1, hb2, hb3]

/-! ## The poolings are the same functions -/

/-- The first pooling sum is one function in both programs. -/
theorem pool1_eq {F : FTy → Type} [FloatOps F] (idx : (⟨Cert.KernelIdeal.S100000, .i32⟩ : BufTy).Contents (Elt F))
    (x : (⟨Cert.KernelIdeal.S100000x64, .f32⟩ : BufTy).Contents (Elt F)) : Cert.KernelIdeal.Layers.pool1K idx x = Cert.ReferenceIdeal.Layers.pool1R idx x := rfl

/-- The second pooling sum is one function in both programs. -/
theorem pool2_eq {F : FTy → Type} [FloatOps F] (idx : (⟨Cert.KernelIdeal.S20000, .i32⟩ : BufTy).Contents (Elt F))
    (x : (⟨Cert.KernelIdeal.S20000x64, .f32⟩ : BufTy).Contents (Elt F)) : Cert.KernelIdeal.Layers.pool2K idx x = Cert.ReferenceIdeal.Layers.pool2R idx x := rfl

/-- The third pooling sum is one function in both programs. -/
theorem pool3_eq {F : FTy → Type} [FloatOps F] (idx : (⟨Cert.KernelIdeal.S2000, .i32⟩ : BufTy).Contents (Elt F))
    (x : (⟨Cert.KernelIdeal.S2000x64, .f32⟩ : BufTy).Contents (Elt F)) : Cert.KernelIdeal.Layers.pool3K idx x = Cert.ReferenceIdeal.Layers.pool3R idx x := rfl

/-! ## Level by level -/

/-- The first pooled arrays agree. -/
theorem p1 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.KernelIdeal.nD) :
    (Cert.KernelIdeal.Gen.W31 m ρ c (Proc.devRef .tc Cert.KernelIdeal.main_v166) : Cert.Sem.Arr 20000 64) = (Cert.ReferenceIdeal.RunV.Lv21 m' c (Proc.devRef .tc Cert.ReferenceIdeal.main_v377) : Cert.Sem.Arr 20000 64) := by
  obtain ⟨h0, h1, h2, h3, h4, h5, h6, h7, h8, h9, h10, h11, h12, h13, h14, h15, h16, h17, h18, h19, h20, h21, h22, h23, h24, h25, h26⟩ := hag c
  exact pool_step pool1_eq (Cert.KernelIdeal.Layers.pool1 m ρ c) (Cert.ReferenceIdeal.Layers.pool1_level m' c) h2 (x4 m ρ m' hz hag c)

/-- The first perceptron's outputs agree. -/
theorem y1 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.KernelIdeal.nD) :
    (Cert.KernelIdeal.Gen.W32 m ρ c (Proc.devRef .tc Cert.KernelIdeal.main_v169) : Cert.Sem.Arr 20000 64) = (Cert.ReferenceIdeal.RunV.Lv22 m' c (Proc.devRef .tc Cert.ReferenceIdeal.main_v386) : Cert.Sem.Arr 20000 64) := by
  obtain ⟨h0, h1, h2, h3, h4, h5, h6, h7, h8, h9, h10, h11, h12, h13, h14, h15, h16, h17, h18, h19, h20, h21, h22, h23, h24, h25, h26⟩ := hag c
  exact perceptron_step (Cert.KernelIdeal.Layers.tail1 m ρ c) (Cert.ReferenceIdeal.Layers.tail1R m' c) (p1 m ρ m' hz hag c)
    h13 (Cert.KernelIdeal.Layers.bias167 m ρ c) h14 h15 (Cert.KernelIdeal.Layers.bias168 m ρ c) h16

/-- The second pooled arrays agree. -/
theorem p2 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.KernelIdeal.nD) :
    (Cert.KernelIdeal.Gen.W33 m ρ c (Proc.devRef .tc Cert.KernelIdeal.main_v172) : Cert.Sem.Arr 2000 64) = (Cert.ReferenceIdeal.RunV.Lv23 m' c (Proc.devRef .tc Cert.ReferenceIdeal.main_v389) : Cert.Sem.Arr 2000 64) := by
  obtain ⟨h0, h1, h2, h3, h4, h5, h6, h7, h8, h9, h10, h11, h12, h13, h14, h15, h16, h17, h18, h19, h20, h21, h22, h23, h24, h25, h26⟩ := hag c
  exact pool_step pool2_eq (Cert.KernelIdeal.Layers.pool2 m ρ c) (Cert.ReferenceIdeal.Layers.pool2_level m' c) h3 (y1 m ρ m' hz hag c)

/-- The second perceptron's outputs agree. -/
theorem y2 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.KernelIdeal.nD) :
    (Cert.KernelIdeal.Gen.W34 m ρ c (Proc.devRef .tc Cert.KernelIdeal.main_v175) : Cert.Sem.Arr 2000 64) = (Cert.ReferenceIdeal.RunV.Lv24 m' c (Proc.devRef .tc Cert.ReferenceIdeal.main_v398) : Cert.Sem.Arr 2000 64) := by
  obtain ⟨h0, h1, h2, h3, h4, h5, h6, h7, h8, h9, h10, h11, h12, h13, h14, h15, h16, h17, h18, h19, h20, h21, h22, h23, h24, h25, h26⟩ := hag c
  exact perceptron_step (Cert.KernelIdeal.Layers.tail2 m ρ c) (Cert.ReferenceIdeal.Layers.tail2R m' c) (p2 m ρ m' hz hag c)
    h17 (Cert.KernelIdeal.Layers.bias173 m ρ c) h18 h19 (Cert.KernelIdeal.Layers.bias174 m ρ c) h20

/-- The third pooled arrays agree. -/
theorem p3 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.KernelIdeal.nD) :
    (Cert.KernelIdeal.Gen.W35 m ρ c (Proc.devRef .tc Cert.KernelIdeal.main_v178) : Cert.Sem.Arr 64 64) = (Cert.ReferenceIdeal.RunV.Lv25 m' c (Proc.devRef .tc Cert.ReferenceIdeal.main_v401) : Cert.Sem.Arr 64 64) := by
  obtain ⟨h0, h1, h2, h3, h4, h5, h6, h7, h8, h9, h10, h11, h12, h13, h14, h15, h16, h17, h18, h19, h20, h21, h22, h23, h24, h25, h26⟩ := hag c
  exact pool_step pool3_eq (Cert.KernelIdeal.Layers.pool3 m ρ c) (Cert.ReferenceIdeal.Layers.pool3_level m' c) h4 (y2 m ρ m' hz hag c)

end Cert.Cross

end
-- ==== Proof.Cross.lean ====
/-
  The two programs end with equal results.

  The third pooled arrays agree; the head is, in both programs, the row map of the shared specification under the
  launched weights and biases, the tiled program's one-row biases being the launched vectors read as rows. So the one
  number per graph that each program leaves is the same extended real, graph by graph.
-/
import proofs.«157269_j2267742732766_1_alg».proof.Proof.CrossTail

noncomputable section

namespace Cert.Cross

open Idealize.ShloMosaic Idealize.SL.Sem Cert.Sem

/-- The reference's result buffer at the end of its run is the kernel program's at the end of its run. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hz : InRange m) (hag : Agree m m') (c : Dev Cert.ReferenceIdeal.nD) :
    Cert.ReferenceIdeal.RunV.Lv26 m' c (Proc.devRef .tc Cert.ReferenceIdeal.main_v415) = Cert.KernelIdeal.Gen.W36 m ρ c (Proc.devRef .tc Cert.KernelIdeal.main_v182) := by
  obtain ⟨h0, h1, h2, h3, h4, h5, h6, h7, h8, h9, h10, h11, h12, h13, h14, h15, h16, h17, h18, h19, h20, h21, h22, h23, h24, h25, h26⟩ := hag c
  exact (head_step (Cert.KernelIdeal.Layers.tail3 m ρ c) (Cert.ReferenceIdeal.Layers.tail3R m' c) (p3 m ρ m' hz hag c)
    h21 (Cert.KernelIdeal.Layers.bias179 m ρ c) h22 h23 (Cert.KernelIdeal.Layers.bias180 m ρ c) h24 h25 (Cert.KernelIdeal.Layers.bias181 m ρ c) h26).symm

end Cert.Cross

end
-- ==== Proof.lean ====
/-
  The certificate: the tiled program and the whole-array reference compute the same graph-level outputs.

  Both programs are the same network: five message-passing layers (an embedding lookup summed over the two index
  columns, from the second layer on an affine transform of the previous state beside it, a convolution weight, a sum
  of the convolved rows along the graph's edges, a gated recurrent update), three levels of segment-sum pooling with
  two-layer perceptrons between them, and a three-layer head. The tiled program runs the dense parts of each layer in
  pipelined regions over row tiles and leaves lookups and edge sums to the host; the reference does everything on whole
  arrays. On the extended reals a change of number format is the identity and a matrix product is a plain sum, so tile by
  tile the regions compute exactly the reference's rows; the host parts are the same operations in both programs. The one
  difference is the lookup: the tiled program's fills rows whose index is out of range, the reference's does not; the
  precondition keeps the indices in range, where the two lookups agree.

  The three frames: the two tiled programs' are the generated frame certificates; the reference's is its run (a list of
  host operations) with the values dropped. The idealization's ledger is empty. The value claim: the tiled program's result
  buffer ends at what the fold of its segments leaves there, the reference's at what its operation list leaves there, and
  the two are equal layer by layer.
-/
import proofs.«157269_j2267742732766_1_alg».proof.Defs
import proofs.«157269_j2267742732766_1_alg».proof.Proof.Gen.Kernel
import proofs.«157269_j2267742732766_1_alg».proof.Proof.Gen.Kernel.Frame
import proofs.«157269_j2267742732766_1_alg».proof.Proof.Gen.KernelIdeal
import proofs.«157269_j2267742732766_1_alg».proof.Proof.Gen.KernelIdeal.Frame
import proofs.«157269_j2267742732766_1_alg».proof.Proof.Gen.ReferenceIdeal
import proofs.«157269_j2267742732766_1_alg».proof.Proof.Gen.Pre_finite_inputs
import proofs.«157269_j2267742732766_1_alg».proof.Proof.KRun
import proofs.«157269_j2267742732766_1_alg».proof.Proof.RRun
import proofs.«157269_j2267742732766_1_alg».proof.Proof.KTake
import proofs.«157269_j2267742732766_1_alg».proof.Proof.Cross
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

/-- The word-level tiled program runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the values dropped; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RunV.args_kept _ c (r := Cert.ReferenceIdeal.main_arg0) (by decide)),
     (h c Cert.ReferenceIdeal.main_arg1).trans (Cert.ReferenceIdeal.RunV.args_kept _ c (r := Cert.ReferenceIdeal.main_arg1) (by decide)),
     (h c Cert.ReferenceIdeal.main_arg2).trans (Cert.ReferenceIdeal.RunV.args_kept _ c (r := Cert.ReferenceIdeal.main_arg2) (by decide)),
     (h c Cert.ReferenceIdeal.main_arg3).trans (Cert.ReferenceIdeal.RunV.args_kept _ c (r := Cert.ReferenceIdeal.main_arg3) (by decide)),
     (h c Cert.ReferenceIdeal.main_arg4).trans (Cert.ReferenceIdeal.RunV.args_kept _ c (r := Cert.ReferenceIdeal.main_arg4) (by decide)),
     (h c Cert.ReferenceIdeal.main_arg5).trans (Cert.ReferenceIdeal.RunV.args_kept _ c (r := Cert.ReferenceIdeal.main_arg5) (by decide)),
     (h c Cert.ReferenceIdeal.main_arg6).trans (Cert.ReferenceIdeal.RunV.args_kept _ c (r := Cert.ReferenceIdeal.main_arg6) (by decide)),
     (h c Cert.ReferenceIdeal.main_arg7).trans (Cert.ReferenceIdeal.RunV.args_kept _ c (r := Cert.ReferenceIdeal.main_arg7) (by decide)),
     (h c Cert.ReferenceIdeal.main_arg8).trans (Cert.ReferenceIdeal.RunV.args_kept _ c (r := Cert.ReferenceIdeal.main_arg8) (by decide)),
     (h c Cert.ReferenceIdeal.main_arg9).trans (Cert.ReferenceIdeal.RunV.args_kept _ c (r := Cert.ReferenceIdeal.main_arg9) (by decide)),
     (h c Cert.ReferenceIdeal.main_arg10).trans (Cert.ReferenceIdeal.RunV.args_kept _ c (r := Cert.ReferenceIdeal.main_arg10) (by decide)),
     (h c Cert.ReferenceIdeal.main_arg11).trans (Cert.ReferenceIdeal.RunV.args_kept _ c (r := Cert.ReferenceIdeal.main_arg11) (by decide)),
     (h c Cert.ReferenceIdeal.main_arg12).trans (Cert.ReferenceIdeal.RunV.args_kept _ c (r := Cert.ReferenceIdeal.main_arg12) (by decide)),
     (h c Cert.ReferenceIdeal.main_arg13).trans (Cert.ReferenceIdeal.RunV.args_kept _ c (r := Cert.ReferenceIdeal.main_arg13) (by decide)),
     (h c Cert.ReferenceIdeal.main_arg14).trans (Cert.ReferenceIdeal.RunV.args_kept _ c (r := Cert.ReferenceIdeal.main_arg14) (by decide)),
     (h c Cert.ReferenceIdeal.main_arg15).trans (Cert.ReferenceIdeal.RunV.args_kept _ c (r := Cert.ReferenceIdeal.main_arg15) (by decide)),
     (h c Cert.ReferenceIdeal.main_arg16).trans (Cert.ReferenceIdeal.RunV.args_kept _ c (r := Cert.ReferenceIdeal.main_arg16) (by decide)),
     (h c Cert.ReferenceIdeal.main_arg17).trans (Cert.ReferenceIdeal.RunV.args_kept _ c (r := Cert.ReferenceIdeal.main_arg17) (by decide)),
     (h c Cert.ReferenceIdeal.main_arg18).trans (Cert.ReferenceIdeal.RunV.args_kept _ c (r := Cert.ReferenceIdeal.main_arg18) (by decide)),
     (h c Cert.ReferenceIdeal.main_arg19).trans (Cert.ReferenceIdeal.RunV.args_kept _ c (r := Cert.ReferenceIdeal.main_arg19) (by decide)),
     (h c Cert.ReferenceIdeal.main_arg20).trans (Cert.ReferenceIdeal.RunV.args_kept _ c (r := Cert.ReferenceIdeal.main_arg20) (by decide)),
     (h c Cert.ReferenceIdeal.main_arg21).trans (Cert.ReferenceIdeal.RunV.args_kept _ c (r := Cert.ReferenceIdeal.main_arg21) (by decide)),
     (h c Cert.ReferenceIdeal.main_arg22).trans (Cert.ReferenceIdeal.RunV.args_kept _ c (r := Cert.ReferenceIdeal.main_arg22) (by decide)),
     (h c Cert.ReferenceIdeal.main_arg23).trans (Cert.ReferenceIdeal.RunV.args_kept _ c (r := Cert.ReferenceIdeal.main_arg23) (by decide)),
     (h c Cert.ReferenceIdeal.main_arg24).trans (Cert.ReferenceIdeal.RunV.args_kept _ c (r := Cert.ReferenceIdeal.main_arg24) (by decide)),
     (h c Cert.ReferenceIdeal.main_arg25).trans (Cert.ReferenceIdeal.RunV.args_kept _ c (r := Cert.ReferenceIdeal.main_arg25) (by decide)),
     (h c Cert.ReferenceIdeal.main_arg26).trans (Cert.ReferenceIdeal.RunV.args_kept _ c (r := Cert.ReferenceIdeal.main_arg26) (by decide))⟩)
    (Cert.ReferenceIdeal.RunV.run_levels (F := Ideal) m ρ)

/-- Under the precondition every lookup index is in range. -/
theorem range_of_pre {m : (ℓ : Loc Cert.KernelIdeal.nD Cert.KernelIdeal.τ Cert.KernelIdeal.sig) → Buf (Elt Ideal) ℓ}
    (hpre : Cert.Pre_KernelIdeal m) (c : Dev Cert.KernelIdeal.nD) :
    ∀ i : Cert.KernelIdeal.S100000x2.Idx,
      0 ≤ (m ((c.tc : Thread Cert.KernelIdeal.nD Cert.KernelIdeal.τ).loc Cert.KernelIdeal.main_arg0) i).toInt
        ∧ (m ((c.tc : Thread Cert.KernelIdeal.nD Cert.KernelIdeal.τ).loc Cert.KernelIdeal.main_arg0) i).toInt < 100 :=
  Cert.KernelIdeal.Take.z_range _ _ _ _ _ _ _ _ _ _ _ _ _ _ _ _ _ _ _ _ _ _ _ _ _ _ _ (hpre c)

/-- From memories that agree on the arguments both idealized programs run, and their results are equal: the tiled
    program's result buffer ends at what its segments' fold leaves there, the reference's at what its operations leave
    there, and the two agree layer by layer. -/
theorem algebraic : Cert.algebraic_KernelIdeal_ReferenceIdeal := by
  intro m g m' g' hpre hagree
  refine ⟨fun c => Cert.KernelIdeal.Gen.W36 m g c (Proc.devRef .tc Cert.KernelIdeal.main_v182),
    Cert.KernelIdeal.RunV.run (F := Ideal) m g, ?_⟩
  refine (θ_run Cert.ReferenceIdeal.defs _ _).mono (fun r h c =>
    ⟨(h c Cert.ReferenceIdeal.main_v415).trans (Cert.Cross.result_eq m g m' (range_of_pre hpre) hagree c),
     (h c Cert.ReferenceIdeal.main_arg0).trans (Cert.ReferenceIdeal.RunV.args_kept _ c (r := Cert.ReferenceIdeal.main_arg0) (by decide)),
     (h c Cert.ReferenceIdeal.main_arg1).trans (Cert.ReferenceIdeal.RunV.args_kept _ c (r := Cert.ReferenceIdeal.main_arg1) (by decide)),
     (h c Cert.ReferenceIdeal.main_arg2).trans (Cert.ReferenceIdeal.RunV.args_kept _ c (r := Cert.ReferenceIdeal.main_arg2) (by decide)),
     (h c Cert.ReferenceIdeal.main_arg3).trans (Cert.ReferenceIdeal.RunV.args_kept _ c (r := Cert.ReferenceIdeal.main_arg3) (by decide)),
     (h c Cert.ReferenceIdeal.main_arg4).trans (Cert.ReferenceIdeal.RunV.args_kept _ c (r := Cert.ReferenceIdeal.main_arg4) (by decide)),
     (h c Cert.ReferenceIdeal.main_arg5).trans (Cert.ReferenceIdeal.RunV.args_kept _ c (r := Cert.ReferenceIdeal.main_arg5) (by decide)),
     (h c Cert.ReferenceIdeal.main_arg6).trans (Cert.ReferenceIdeal.RunV.args_kept _ c (r := Cert.ReferenceIdeal.main_arg6) (by decide)),
     (h c Cert.ReferenceIdeal.main_arg7).trans (Cert.ReferenceIdeal.RunV.args_kept _ c (r := Cert.ReferenceIdeal.main_arg7) (by decide)),
     (h c Cert.ReferenceIdeal.main_arg8).trans (Cert.ReferenceIdeal.RunV.args_kept _ c (r := Cert.ReferenceIdeal.main_arg8) (by decide)),
     (h c Cert.ReferenceIdeal.main_arg9).trans (Cert.ReferenceIdeal.RunV.args_kept _ c (r := Cert.ReferenceIdeal.main_arg9) (by decide)),
     (h c Cert.ReferenceIdeal.main_arg10).trans (Cert.ReferenceIdeal.RunV.args_kept _ c (r := Cert.ReferenceIdeal.main_arg10) (by decide)),
     (h c Cert.ReferenceIdeal.main_arg11).trans (Cert.ReferenceIdeal.RunV.args_kept _ c (r := Cert.ReferenceIdeal.main_arg11) (by decide)),
     (h c Cert.ReferenceIdeal.main_arg12).trans (Cert.ReferenceIdeal.RunV.args_kept _ c (r := Cert.ReferenceIdeal.main_arg12) (by decide)),
     (h c Cert.ReferenceIdeal.main_arg13).trans (Cert.ReferenceIdeal.RunV.args_kept _ c (r := Cert.ReferenceIdeal.main_arg13) (by decide)),
     (h c Cert.ReferenceIdeal.main_arg14).trans (Cert.ReferenceIdeal.RunV.args_kept _ c (r := Cert.ReferenceIdeal.main_arg14) (by decide)),
     (h c Cert.ReferenceIdeal.main_arg15).trans (Cert.ReferenceIdeal.RunV.args_kept _ c (r := Cert.ReferenceIdeal.main_arg15) (by decide)),
     (h c Cert.ReferenceIdeal.main_arg16).trans (Cert.ReferenceIdeal.RunV.args_kept _ c (r := Cert.ReferenceIdeal.main_arg16) (by decide)),
     (h c Cert.ReferenceIdeal.main_arg17).trans (Cert.ReferenceIdeal.RunV.args_kept _ c (r := Cert.ReferenceIdeal.main_arg17) (by decide)),
     (h c Cert.ReferenceIdeal.main_arg18).trans (Cert.ReferenceIdeal.RunV.args_kept _ c (r := Cert.ReferenceIdeal.main_arg18) (by decide)),
     (h c Cert.ReferenceIdeal.main_arg19).trans (Cert.ReferenceIdeal.RunV.args_kept _ c (r := Cert.ReferenceIdeal.main_arg19) (by decide)),
     (h c Cert.ReferenceIdeal.main_arg20).trans (Cert.ReferenceIdeal.RunV.args_kept _ c (r := Cert.ReferenceIdeal.main_arg20) (by decide)),
     (h c Cert.ReferenceIdeal.main_arg21).trans (Cert.ReferenceIdeal.RunV.args_kept _ c (r := Cert.ReferenceIdeal.main_arg21) (by decide)),
     (h c Cert.ReferenceIdeal.main_arg22).trans (Cert.ReferenceIdeal.RunV.args_kept _ c (r := Cert.ReferenceIdeal.main_arg22) (by decide)),
     (h c Cert.ReferenceIdeal.main_arg23).trans (Cert.ReferenceIdeal.RunV.args_kept _ c (r := Cert.ReferenceIdeal.main_arg23) (by decide)),
     (h c Cert.ReferenceIdeal.main_arg24).trans (Cert.ReferenceIdeal.RunV.args_kept _ c (r := Cert.ReferenceIdeal.main_arg24) (by decide)),
     (h c Cert.ReferenceIdeal.main_arg25).trans (Cert.ReferenceIdeal.RunV.args_kept _ c (r := Cert.ReferenceIdeal.main_arg25) (by decide)),
     (h c Cert.ReferenceIdeal.main_arg26).trans (Cert.ReferenceIdeal.RunV.args_kept _ c (r := Cert.ReferenceIdeal.main_arg26) (by decide))⟩)
    (Cert.ReferenceIdeal.RunV.run_levels (F := Ideal) m' g')

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
